-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x8192x2048 : Shape := ⟨3, ![1, 8192, 2048]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel

variable [Facts]

def fn {F : FTy → Type} [FloatOps F] (main_arg0 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  main_v3
-- ==== Pre_finite_inputs_ReferenceIdeal.lean ====
abbrev S2x8192x2048 : Shape := ⟨3, ![2, 8192, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel

variable [Facts]

def fn {F : FTy → Type} [FloatOps F] (main_arg0 : FVec F S2x8192x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  main_v3
-- ==== Kernel.lean ====
abbrev S1x8192x2048 : Shape := ⟨3, ![1, 8192, 2048]⟩
abbrev S8192x1024 : Shape := ⟨2, ![8192, 1024]⟩
abbrev S4096x1024 : Shape := ⟨2, ![4096, 1024]⟩
abbrev S2x64x1024 : Shape := ⟨3, ![2, 64, 1024]⟩
abbrev S64 : Shape := ⟨1, ![64]⟩
abbrev S2 : Shape := ⟨1, ![2]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .local _ .vmem, ⟨0, _⟩ => ⟨S4096x1024, .f32⟩
  | .local _ .vmem, ⟨1, _⟩ => ⟨S2x64x1024, .f32⟩
  | _, _ => ⟨S1x8192x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 322 → Bool
  | ⟨i, _⟩ => dmaSemScopedAt i

abbrev sig : RefSig :=
  (ofTc nBuf bufTy 1 322 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_6 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v11 : BitVec 32 := Scalar.addi v8 c0_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v12 : BitVec 32 := Scalar.muli v5 c1024_i32
  ![0, v11.toNat, v12.toNat]
def k0_dev1 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v20 : BitVec 32 := Scalar.muli v2 c2_i32_12
  let v21 : BitVec 32 := Scalar.addi c0_i32_13 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v22 : BitVec 32 := Scalar.muli v6 c1_i32_14
  let v23 : BitVec 32 := Scalar.addi v21 v22
  v23.toNat
def k0_dev2 (d0 : Dev nD) : Nat :=
  let c0_i32_17 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_16 : BitVec 32 := 2#32
  let v24 : BitVec 32 := Scalar.muli v7 c2_i32_16
  let v25 : BitVec 32 := Scalar.addi c0_i32_17 v24
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v26 : BitVec 32 := Scalar.muli v5 c1_i32_18
  let v27 : BitVec 32 := Scalar.addi v25 v26
  v27.toNat
def k0_off2 (d0 : Dev nD) (c0_i32_20 : BitVec 32) : Fin 3 → Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v28 : BitVec 32 := Scalar.addi v8 c0_i32_20
  let c1_i32_21 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.subi c1_i32_21 v5
  let c1024_i32_22 : BitVec 32 := 1024#32
  let v30 : BitVec 32 := Scalar.muli v29 c1024_i32_22
  ![0, v28.toNat, v30.toNat]
def k0_dev3 (d0 : Dev nD) : Nat :=
  let c0_i32_27 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_26 : BitVec 32 := 2#32
  let v31 : BitVec 32 := Scalar.muli v2 c2_i32_26
  let v32 : BitVec 32 := Scalar.addi c0_i32_27 v31
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_28 : BitVec 32 := 1#32
  let v33 : BitVec 32 := Scalar.muli v6 c1_i32_28
  let v34 : BitVec 32 := Scalar.addi v32 v33
  v34.toNat
def k0_dev4 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v45 : BitVec 32 := Scalar.muli v2 c2_i32_36
  let v46 : BitVec 32 := Scalar.addi c0_i32_37 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v47 : BitVec 32 := Scalar.muli v6 c1_i32_38
  let v48 : BitVec 32 := Scalar.addi v46 v47
  v48.toNat
def k0_dev5 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v59 : BitVec 32 := Scalar.muli v2 c2_i32_46
  let v60 : BitVec 32 := Scalar.addi c0_i32_47 v59
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_48 : BitVec 32 := 1#32
  let v61 : BitVec 32 := Scalar.muli v6 c1_i32_48
  let v62 : BitVec 32 := Scalar.addi v60 v61
  v62.toNat
def k0_dev6 (d0 : Dev nD) : Nat :=
  let c0_i32_56 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_55 : BitVec 32 := 2#32
  let v73 : BitVec 32 := Scalar.muli v2 c2_i32_55
  let v74 : BitVec 32 := Scalar.addi c0_i32_56 v73
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_57 : BitVec 32 := 1#32
  let v75 : BitVec 32 := Scalar.muli v6 c1_i32_57
  let v76 : BitVec 32 := Scalar.addi v74 v75
  v76.toNat
def k0_dev7 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v87 : BitVec 32 := Scalar.muli v2 c2_i32_64
  let v88 : BitVec 32 := Scalar.addi c0_i32_65 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_66 : BitVec 32 := 1#32
  let v89 : BitVec 32 := Scalar.muli v6 c1_i32_66
  let v90 : BitVec 32 := Scalar.addi v88 v89
  v90.toNat
def k0_dev8 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v101 : BitVec 32 := Scalar.muli v2 c2_i32_73
  let v102 : BitVec 32 := Scalar.addi c0_i32_74 v101
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_75 : BitVec 32 := 1#32
  let v103 : BitVec 32 := Scalar.muli v6 c1_i32_75
  let v104 : BitVec 32 := Scalar.addi v102 v103
  v104.toNat
def k0_dev9 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v115 : BitVec 32 := Scalar.muli v2 c2_i32_82
  let v116 : BitVec 32 := Scalar.addi c0_i32_83 v115
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_84 : BitVec 32 := 1#32
  let v117 : BitVec 32 := Scalar.muli v6 c1_i32_84
  let v118 : BitVec 32 := Scalar.addi v116 v117
  v118.toNat
def k0_dev10 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v129 : BitVec 32 := Scalar.muli v2 c2_i32_91
  let v130 : BitVec 32 := Scalar.addi c0_i32_92 v129
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_93 : BitVec 32 := 1#32
  let v131 : BitVec 32 := Scalar.muli v6 c1_i32_93
  let v132 : BitVec 32 := Scalar.addi v130 v131
  v132.toNat
def k0_dev11 (d0 : Dev nD) : Nat :=
  let c0_i32_101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_100 : BitVec 32 := 2#32
  let v143 : BitVec 32 := Scalar.muli v2 c2_i32_100
  let v144 : BitVec 32 := Scalar.addi c0_i32_101 v143
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_102 : BitVec 32 := 1#32
  let v145 : BitVec 32 := Scalar.muli v6 c1_i32_102
  let v146 : BitVec 32 := Scalar.addi v144 v145
  v146.toNat
def k0_dev12 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v157 : BitVec 32 := Scalar.muli v2 c2_i32_109
  let v158 : BitVec 32 := Scalar.addi c0_i32_110 v157
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v159 : BitVec 32 := Scalar.muli v6 c1_i32_111
  let v160 : BitVec 32 := Scalar.addi v158 v159
  v160.toNat
def k0_dev13 (d0 : Dev nD) : Nat :=
  let c0_i32_119 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_118 : BitVec 32 := 2#32
  let v171 : BitVec 32 := Scalar.muli v2 c2_i32_118
  let v172 : BitVec 32 := Scalar.addi c0_i32_119 v171
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_120 : BitVec 32 := 1#32
  let v173 : BitVec 32 := Scalar.muli v6 c1_i32_120
  let v174 : BitVec 32 := Scalar.addi v172 v173
  v174.toNat
def k0_dev14 (d0 : Dev nD) : Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_127 : BitVec 32 := 2#32
  let v185 : BitVec 32 := Scalar.muli v2 c2_i32_127
  let v186 : BitVec 32 := Scalar.addi c0_i32_128 v185
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_129 : BitVec 32 := 1#32
  let v187 : BitVec 32 := Scalar.muli v6 c1_i32_129
  let v188 : BitVec 32 := Scalar.addi v186 v187
  v188.toNat
def k0_dev15 (d0 : Dev nD) : Nat :=
  let c0_i32_137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_136 : BitVec 32 := 2#32
  let v199 : BitVec 32 := Scalar.muli v2 c2_i32_136
  let v200 : BitVec 32 := Scalar.addi c0_i32_137 v199
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_138 : BitVec 32 := 1#32
  let v201 : BitVec 32 := Scalar.muli v6 c1_i32_138
  let v202 : BitVec 32 := Scalar.addi v200 v201
  v202.toNat
def k0_dev16 (d0 : Dev nD) : Nat :=
  let c0_i32_146 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_145 : BitVec 32 := 2#32
  let v213 : BitVec 32 := Scalar.muli v2 c2_i32_145
  let v214 : BitVec 32 := Scalar.addi c0_i32_146 v213
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_147 : BitVec 32 := 1#32
  let v215 : BitVec 32 := Scalar.muli v6 c1_i32_147
  let v216 : BitVec 32 := Scalar.addi v214 v215
  v216.toNat
def k0_dev17 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v227 : BitVec 32 := Scalar.muli v2 c2_i32_154
  let v228 : BitVec 32 := Scalar.addi c0_i32_155 v227
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_156 : BitVec 32 := 1#32
  let v229 : BitVec 32 := Scalar.muli v6 c1_i32_156
  let v230 : BitVec 32 := Scalar.addi v228 v229
  v230.toNat
def k0_dev18 (d0 : Dev nD) : Nat :=
  let c0_i32_164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_163 : BitVec 32 := 2#32
  let v241 : BitVec 32 := Scalar.muli v2 c2_i32_163
  let v242 : BitVec 32 := Scalar.addi c0_i32_164 v241
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_165 : BitVec 32 := 1#32
  let v243 : BitVec 32 := Scalar.muli v6 c1_i32_165
  let v244 : BitVec 32 := Scalar.addi v242 v243
  v244.toNat
def k0_dev19 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_173 : BitVec 32 := 2#32
  let v255 : BitVec 32 := Scalar.muli v2 c2_i32_173
  let v256 : BitVec 32 := Scalar.addi c0_i32_174 v255
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_175 : BitVec 32 := 1#32
  let v257 : BitVec 32 := Scalar.muli v6 c1_i32_175
  let v258 : BitVec 32 := Scalar.addi v256 v257
  v258.toNat
def k0_dev20 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v269 : BitVec 32 := Scalar.muli v2 c2_i32_182
  let v270 : BitVec 32 := Scalar.addi c0_i32_183 v269
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_184 : BitVec 32 := 1#32
  let v271 : BitVec 32 := Scalar.muli v6 c1_i32_184
  let v272 : BitVec 32 := Scalar.addi v270 v271
  v272.toNat
def k0_dev21 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_191 : BitVec 32 := 2#32
  let v283 : BitVec 32 := Scalar.muli v2 c2_i32_191
  let v284 : BitVec 32 := Scalar.addi c0_i32_192 v283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_193 : BitVec 32 := 1#32
  let v285 : BitVec 32 := Scalar.muli v6 c1_i32_193
  let v286 : BitVec 32 := Scalar.addi v284 v285
  v286.toNat
def k0_dev22 (d0 : Dev nD) : Nat :=
  let c0_i32_201 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_200 : BitVec 32 := 2#32
  let v297 : BitVec 32 := Scalar.muli v2 c2_i32_200
  let v298 : BitVec 32 := Scalar.addi c0_i32_201 v297
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_202 : BitVec 32 := 1#32
  let v299 : BitVec 32 := Scalar.muli v6 c1_i32_202
  let v300 : BitVec 32 := Scalar.addi v298 v299
  v300.toNat
def k0_dev23 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v311 : BitVec 32 := Scalar.muli v2 c2_i32_209
  let v312 : BitVec 32 := Scalar.addi c0_i32_210 v311
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_211 : BitVec 32 := 1#32
  let v313 : BitVec 32 := Scalar.muli v6 c1_i32_211
  let v314 : BitVec 32 := Scalar.addi v312 v313
  v314.toNat
def k0_dev24 (d0 : Dev nD) : Nat :=
  let c0_i32_219 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_218 : BitVec 32 := 2#32
  let v325 : BitVec 32 := Scalar.muli v2 c2_i32_218
  let v326 : BitVec 32 := Scalar.addi c0_i32_219 v325
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_220 : BitVec 32 := 1#32
  let v327 : BitVec 32 := Scalar.muli v6 c1_i32_220
  let v328 : BitVec 32 := Scalar.addi v326 v327
  v328.toNat
def k0_dev25 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v339 : BitVec 32 := Scalar.muli v2 c2_i32_227
  let v340 : BitVec 32 := Scalar.addi c0_i32_228 v339
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_229 : BitVec 32 := 1#32
  let v341 : BitVec 32 := Scalar.muli v6 c1_i32_229
  let v342 : BitVec 32 := Scalar.addi v340 v341
  v342.toNat
def k0_dev26 (d0 : Dev nD) : Nat :=
  let c0_i32_237 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_236 : BitVec 32 := 2#32
  let v353 : BitVec 32 := Scalar.muli v2 c2_i32_236
  let v354 : BitVec 32 := Scalar.addi c0_i32_237 v353
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_238 : BitVec 32 := 1#32
  let v355 : BitVec 32 := Scalar.muli v6 c1_i32_238
  let v356 : BitVec 32 := Scalar.addi v354 v355
  v356.toNat
def k0_dev27 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v367 : BitVec 32 := Scalar.muli v2 c2_i32_245
  let v368 : BitVec 32 := Scalar.addi c0_i32_246 v367
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_247 : BitVec 32 := 1#32
  let v369 : BitVec 32 := Scalar.muli v6 c1_i32_247
  let v370 : BitVec 32 := Scalar.addi v368 v369
  v370.toNat
def k0_dev28 (d0 : Dev nD) : Nat :=
  let c0_i32_255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_254 : BitVec 32 := 2#32
  let v381 : BitVec 32 := Scalar.muli v2 c2_i32_254
  let v382 : BitVec 32 := Scalar.addi c0_i32_255 v381
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_256 : BitVec 32 := 1#32
  let v383 : BitVec 32 := Scalar.muli v6 c1_i32_256
  let v384 : BitVec 32 := Scalar.addi v382 v383
  v384.toNat
def k0_dev29 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v395 : BitVec 32 := Scalar.muli v2 c2_i32_263
  let v396 : BitVec 32 := Scalar.addi c0_i32_264 v395
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_265 : BitVec 32 := 1#32
  let v397 : BitVec 32 := Scalar.muli v6 c1_i32_265
  let v398 : BitVec 32 := Scalar.addi v396 v397
  v398.toNat
def k0_dev30 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v409 : BitVec 32 := Scalar.muli v2 c2_i32_272
  let v410 : BitVec 32 := Scalar.addi c0_i32_273 v409
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_274 : BitVec 32 := 1#32
  let v411 : BitVec 32 := Scalar.muli v6 c1_i32_274
  let v412 : BitVec 32 := Scalar.addi v410 v411
  v412.toNat
def k0_dev31 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v423 : BitVec 32 := Scalar.muli v2 c2_i32_281
  let v424 : BitVec 32 := Scalar.addi c0_i32_282 v423
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v425 : BitVec 32 := Scalar.muli v6 c1_i32_283
  let v426 : BitVec 32 := Scalar.addi v424 v425
  v426.toNat
def k0_dev32 (d0 : Dev nD) : Nat :=
  let c0_i32_291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_290 : BitVec 32 := 2#32
  let v437 : BitVec 32 := Scalar.muli v2 c2_i32_290
  let v438 : BitVec 32 := Scalar.addi c0_i32_291 v437
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_292 : BitVec 32 := 1#32
  let v439 : BitVec 32 := Scalar.muli v6 c1_i32_292
  let v440 : BitVec 32 := Scalar.addi v438 v439
  v440.toNat
def k0_dev33 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v451 : BitVec 32 := Scalar.muli v2 c2_i32_299
  let v452 : BitVec 32 := Scalar.addi c0_i32_300 v451
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_301 : BitVec 32 := 1#32
  let v453 : BitVec 32 := Scalar.muli v6 c1_i32_301
  let v454 : BitVec 32 := Scalar.addi v452 v453
  v454.toNat
def k0_dev34 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v465 : BitVec 32 := Scalar.muli v2 c2_i32_308
  let v466 : BitVec 32 := Scalar.addi c0_i32_309 v465
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_310 : BitVec 32 := 1#32
  let v467 : BitVec 32 := Scalar.muli v6 c1_i32_310
  let v468 : BitVec 32 := Scalar.addi v466 v467
  v468.toNat
def k0_dev35 (d0 : Dev nD) : Nat :=
  let c0_i32_318 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_317 : BitVec 32 := 2#32
  let v479 : BitVec 32 := Scalar.muli v2 c2_i32_317
  let v480 : BitVec 32 := Scalar.addi c0_i32_318 v479
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_319 : BitVec 32 := 1#32
  let v481 : BitVec 32 := Scalar.muli v6 c1_i32_319
  let v482 : BitVec 32 := Scalar.addi v480 v481
  v482.toNat
def k0_dev36 (d0 : Dev nD) : Nat :=
  let c0_i32_327 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_326 : BitVec 32 := 2#32
  let v493 : BitVec 32 := Scalar.muli v2 c2_i32_326
  let v494 : BitVec 32 := Scalar.addi c0_i32_327 v493
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_328 : BitVec 32 := 1#32
  let v495 : BitVec 32 := Scalar.muli v6 c1_i32_328
  let v496 : BitVec 32 := Scalar.addi v494 v495
  v496.toNat
def k0_dev37 (d0 : Dev nD) : Nat :=
  let c0_i32_336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_335 : BitVec 32 := 2#32
  let v507 : BitVec 32 := Scalar.muli v2 c2_i32_335
  let v508 : BitVec 32 := Scalar.addi c0_i32_336 v507
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_337 : BitVec 32 := 1#32
  let v509 : BitVec 32 := Scalar.muli v6 c1_i32_337
  let v510 : BitVec 32 := Scalar.addi v508 v509
  v510.toNat
def k0_dev38 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v521 : BitVec 32 := Scalar.muli v2 c2_i32_344
  let v522 : BitVec 32 := Scalar.addi c0_i32_345 v521
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_346 : BitVec 32 := 1#32
  let v523 : BitVec 32 := Scalar.muli v6 c1_i32_346
  let v524 : BitVec 32 := Scalar.addi v522 v523
  v524.toNat
def k0_dev39 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v535 : BitVec 32 := Scalar.muli v2 c2_i32_353
  let v536 : BitVec 32 := Scalar.addi c0_i32_354 v535
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_355 : BitVec 32 := 1#32
  let v537 : BitVec 32 := Scalar.muli v6 c1_i32_355
  let v538 : BitVec 32 := Scalar.addi v536 v537
  v538.toNat
def k0_dev40 (d0 : Dev nD) : Nat :=
  let c0_i32_363 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_362 : BitVec 32 := 2#32
  let v549 : BitVec 32 := Scalar.muli v2 c2_i32_362
  let v550 : BitVec 32 := Scalar.addi c0_i32_363 v549
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_364 : BitVec 32 := 1#32
  let v551 : BitVec 32 := Scalar.muli v6 c1_i32_364
  let v552 : BitVec 32 := Scalar.addi v550 v551
  v552.toNat
def k0_dev41 (d0 : Dev nD) : Nat :=
  let c0_i32_372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_371 : BitVec 32 := 2#32
  let v563 : BitVec 32 := Scalar.muli v2 c2_i32_371
  let v564 : BitVec 32 := Scalar.addi c0_i32_372 v563
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_373 : BitVec 32 := 1#32
  let v565 : BitVec 32 := Scalar.muli v6 c1_i32_373
  let v566 : BitVec 32 := Scalar.addi v564 v565
  v566.toNat
def k0_dev42 (d0 : Dev nD) : Nat :=
  let c0_i32_381 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_380 : BitVec 32 := 2#32
  let v577 : BitVec 32 := Scalar.muli v2 c2_i32_380
  let v578 : BitVec 32 := Scalar.addi c0_i32_381 v577
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_382 : BitVec 32 := 1#32
  let v579 : BitVec 32 := Scalar.muli v6 c1_i32_382
  let v580 : BitVec 32 := Scalar.addi v578 v579
  v580.toNat
def k0_dev43 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v591 : BitVec 32 := Scalar.muli v2 c2_i32_389
  let v592 : BitVec 32 := Scalar.addi c0_i32_390 v591
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_391 : BitVec 32 := 1#32
  let v593 : BitVec 32 := Scalar.muli v6 c1_i32_391
  let v594 : BitVec 32 := Scalar.addi v592 v593
  v594.toNat
def k0_dev44 (d0 : Dev nD) : Nat :=
  let c0_i32_399 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_398 : BitVec 32 := 2#32
  let v605 : BitVec 32 := Scalar.muli v2 c2_i32_398
  let v606 : BitVec 32 := Scalar.addi c0_i32_399 v605
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_400 : BitVec 32 := 1#32
  let v607 : BitVec 32 := Scalar.muli v6 c1_i32_400
  let v608 : BitVec 32 := Scalar.addi v606 v607
  v608.toNat
def k0_dev45 (d0 : Dev nD) : Nat :=
  let c0_i32_408 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_407 : BitVec 32 := 2#32
  let v619 : BitVec 32 := Scalar.muli v2 c2_i32_407
  let v620 : BitVec 32 := Scalar.addi c0_i32_408 v619
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_409 : BitVec 32 := 1#32
  let v621 : BitVec 32 := Scalar.muli v6 c1_i32_409
  let v622 : BitVec 32 := Scalar.addi v620 v621
  v622.toNat
def k0_dev46 (d0 : Dev nD) : Nat :=
  let c0_i32_417 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_416 : BitVec 32 := 2#32
  let v633 : BitVec 32 := Scalar.muli v2 c2_i32_416
  let v634 : BitVec 32 := Scalar.addi c0_i32_417 v633
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_418 : BitVec 32 := 1#32
  let v635 : BitVec 32 := Scalar.muli v6 c1_i32_418
  let v636 : BitVec 32 := Scalar.addi v634 v635
  v636.toNat
def k0_dev47 (d0 : Dev nD) : Nat :=
  let c0_i32_426 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_425 : BitVec 32 := 2#32
  let v647 : BitVec 32 := Scalar.muli v2 c2_i32_425
  let v648 : BitVec 32 := Scalar.addi c0_i32_426 v647
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_427 : BitVec 32 := 1#32
  let v649 : BitVec 32 := Scalar.muli v6 c1_i32_427
  let v650 : BitVec 32 := Scalar.addi v648 v649
  v650.toNat
def k0_dev48 (d0 : Dev nD) : Nat :=
  let c0_i32_435 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_434 : BitVec 32 := 2#32
  let v661 : BitVec 32 := Scalar.muli v2 c2_i32_434
  let v662 : BitVec 32 := Scalar.addi c0_i32_435 v661
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_436 : BitVec 32 := 1#32
  let v663 : BitVec 32 := Scalar.muli v6 c1_i32_436
  let v664 : BitVec 32 := Scalar.addi v662 v663
  v664.toNat
def k0_dev49 (d0 : Dev nD) : Nat :=
  let c0_i32_444 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_443 : BitVec 32 := 2#32
  let v675 : BitVec 32 := Scalar.muli v2 c2_i32_443
  let v676 : BitVec 32 := Scalar.addi c0_i32_444 v675
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_445 : BitVec 32 := 1#32
  let v677 : BitVec 32 := Scalar.muli v6 c1_i32_445
  let v678 : BitVec 32 := Scalar.addi v676 v677
  v678.toNat
def k0_dev50 (d0 : Dev nD) : Nat :=
  let c0_i32_453 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_452 : BitVec 32 := 2#32
  let v689 : BitVec 32 := Scalar.muli v2 c2_i32_452
  let v690 : BitVec 32 := Scalar.addi c0_i32_453 v689
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_454 : BitVec 32 := 1#32
  let v691 : BitVec 32 := Scalar.muli v6 c1_i32_454
  let v692 : BitVec 32 := Scalar.addi v690 v691
  v692.toNat
def k0_dev51 (d0 : Dev nD) : Nat :=
  let c0_i32_462 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_461 : BitVec 32 := 2#32
  let v703 : BitVec 32 := Scalar.muli v2 c2_i32_461
  let v704 : BitVec 32 := Scalar.addi c0_i32_462 v703
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_463 : BitVec 32 := 1#32
  let v705 : BitVec 32 := Scalar.muli v6 c1_i32_463
  let v706 : BitVec 32 := Scalar.addi v704 v705
  v706.toNat
def k0_dev52 (d0 : Dev nD) : Nat :=
  let c0_i32_471 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_470 : BitVec 32 := 2#32
  let v717 : BitVec 32 := Scalar.muli v2 c2_i32_470
  let v718 : BitVec 32 := Scalar.addi c0_i32_471 v717
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_472 : BitVec 32 := 1#32
  let v719 : BitVec 32 := Scalar.muli v6 c1_i32_472
  let v720 : BitVec 32 := Scalar.addi v718 v719
  v720.toNat
def k0_dev53 (d0 : Dev nD) : Nat :=
  let c0_i32_480 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_479 : BitVec 32 := 2#32
  let v731 : BitVec 32 := Scalar.muli v2 c2_i32_479
  let v732 : BitVec 32 := Scalar.addi c0_i32_480 v731
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_481 : BitVec 32 := 1#32
  let v733 : BitVec 32 := Scalar.muli v6 c1_i32_481
  let v734 : BitVec 32 := Scalar.addi v732 v733
  v734.toNat
def k0_dev54 (d0 : Dev nD) : Nat :=
  let c0_i32_489 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_488 : BitVec 32 := 2#32
  let v745 : BitVec 32 := Scalar.muli v2 c2_i32_488
  let v746 : BitVec 32 := Scalar.addi c0_i32_489 v745
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_490 : BitVec 32 := 1#32
  let v747 : BitVec 32 := Scalar.muli v6 c1_i32_490
  let v748 : BitVec 32 := Scalar.addi v746 v747
  v748.toNat
def k0_dev55 (d0 : Dev nD) : Nat :=
  let c0_i32_498 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_497 : BitVec 32 := 2#32
  let v759 : BitVec 32 := Scalar.muli v2 c2_i32_497
  let v760 : BitVec 32 := Scalar.addi c0_i32_498 v759
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_499 : BitVec 32 := 1#32
  let v761 : BitVec 32 := Scalar.muli v6 c1_i32_499
  let v762 : BitVec 32 := Scalar.addi v760 v761
  v762.toNat
def k0_dev56 (d0 : Dev nD) : Nat :=
  let c0_i32_507 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_506 : BitVec 32 := 2#32
  let v773 : BitVec 32 := Scalar.muli v2 c2_i32_506
  let v774 : BitVec 32 := Scalar.addi c0_i32_507 v773
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_508 : BitVec 32 := 1#32
  let v775 : BitVec 32 := Scalar.muli v6 c1_i32_508
  let v776 : BitVec 32 := Scalar.addi v774 v775
  v776.toNat
def k0_dev57 (d0 : Dev nD) : Nat :=
  let c0_i32_516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_515 : BitVec 32 := 2#32
  let v787 : BitVec 32 := Scalar.muli v2 c2_i32_515
  let v788 : BitVec 32 := Scalar.addi c0_i32_516 v787
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_517 : BitVec 32 := 1#32
  let v789 : BitVec 32 := Scalar.muli v6 c1_i32_517
  let v790 : BitVec 32 := Scalar.addi v788 v789
  v790.toNat
def k0_dev58 (d0 : Dev nD) : Nat :=
  let c0_i32_525 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_524 : BitVec 32 := 2#32
  let v801 : BitVec 32 := Scalar.muli v2 c2_i32_524
  let v802 : BitVec 32 := Scalar.addi c0_i32_525 v801
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_526 : BitVec 32 := 1#32
  let v803 : BitVec 32 := Scalar.muli v6 c1_i32_526
  let v804 : BitVec 32 := Scalar.addi v802 v803
  v804.toNat
def k0_dev59 (d0 : Dev nD) : Nat :=
  let c0_i32_534 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_533 : BitVec 32 := 2#32
  let v815 : BitVec 32 := Scalar.muli v2 c2_i32_533
  let v816 : BitVec 32 := Scalar.addi c0_i32_534 v815
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_535 : BitVec 32 := 1#32
  let v817 : BitVec 32 := Scalar.muli v6 c1_i32_535
  let v818 : BitVec 32 := Scalar.addi v816 v817
  v818.toNat
def k0_dev60 (d0 : Dev nD) : Nat :=
  let c0_i32_543 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_542 : BitVec 32 := 2#32
  let v829 : BitVec 32 := Scalar.muli v2 c2_i32_542
  let v830 : BitVec 32 := Scalar.addi c0_i32_543 v829
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_544 : BitVec 32 := 1#32
  let v831 : BitVec 32 := Scalar.muli v6 c1_i32_544
  let v832 : BitVec 32 := Scalar.addi v830 v831
  v832.toNat
def k0_dev61 (d0 : Dev nD) : Nat :=
  let c0_i32_552 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_551 : BitVec 32 := 2#32
  let v843 : BitVec 32 := Scalar.muli v2 c2_i32_551
  let v844 : BitVec 32 := Scalar.addi c0_i32_552 v843
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_553 : BitVec 32 := 1#32
  let v845 : BitVec 32 := Scalar.muli v6 c1_i32_553
  let v846 : BitVec 32 := Scalar.addi v844 v845
  v846.toNat
def k0_dev62 (d0 : Dev nD) : Nat :=
  let c0_i32_561 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_560 : BitVec 32 := 2#32
  let v857 : BitVec 32 := Scalar.muli v2 c2_i32_560
  let v858 : BitVec 32 := Scalar.addi c0_i32_561 v857
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_562 : BitVec 32 := 1#32
  let v859 : BitVec 32 := Scalar.muli v6 c1_i32_562
  let v860 : BitVec 32 := Scalar.addi v858 v859
  v860.toNat
def k0_dev63 (d0 : Dev nD) : Nat :=
  let c0_i32_570 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_569 : BitVec 32 := 2#32
  let v871 : BitVec 32 := Scalar.muli v2 c2_i32_569
  let v872 : BitVec 32 := Scalar.addi c0_i32_570 v871
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_571 : BitVec 32 := 1#32
  let v873 : BitVec 32 := Scalar.muli v6 c1_i32_571
  let v874 : BitVec 32 := Scalar.addi v872 v873
  v874.toNat
def k0_dev64 (d0 : Dev nD) : Nat :=
  let c0_i32_579 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_578 : BitVec 32 := 2#32
  let v885 : BitVec 32 := Scalar.muli v2 c2_i32_578
  let v886 : BitVec 32 := Scalar.addi c0_i32_579 v885
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_580 : BitVec 32 := 1#32
  let v887 : BitVec 32 := Scalar.muli v6 c1_i32_580
  let v888 : BitVec 32 := Scalar.addi v886 v887
  v888.toNat
def k0_dev65 (d0 : Dev nD) : Nat :=
  let c0_i32_588 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_587 : BitVec 32 := 2#32
  let v899 : BitVec 32 := Scalar.muli v2 c2_i32_587
  let v900 : BitVec 32 := Scalar.addi c0_i32_588 v899
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_589 : BitVec 32 := 1#32
  let v901 : BitVec 32 := Scalar.muli v6 c1_i32_589
  let v902 : BitVec 32 := Scalar.addi v900 v901
  v902.toNat
def k0_dev66 (d0 : Dev nD) : Nat :=
  let c0_i32_597 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_596 : BitVec 32 := 2#32
  let v913 : BitVec 32 := Scalar.muli v2 c2_i32_596
  let v914 : BitVec 32 := Scalar.addi c0_i32_597 v913
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_598 : BitVec 32 := 1#32
  let v915 : BitVec 32 := Scalar.muli v6 c1_i32_598
  let v916 : BitVec 32 := Scalar.addi v914 v915
  v916.toNat
def k0_off3 (d0 : Dev nD) (c0_i32_627 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v8 : BitVec 32 := Scalar.muli v2 c4096_i32
  let v954 : BitVec 32 := Scalar.addi v8 c0_i32_627
  let c0_i32_633 : BitVec 32 := 0#32
  ![v954.toNat, 0]
def k0_dev67 (d0 : Dev nD) : Nat :=
  let c0_i32_631 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_630 : BitVec 32 := 2#32
  let v955 : BitVec 32 := Scalar.muli v7 c2_i32_630
  let v956 : BitVec 32 := Scalar.addi c0_i32_631 v955
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_632 : BitVec 32 := 1#32
  let v957 : BitVec 32 := Scalar.muli v5 c1_i32_632
  let v958 : BitVec 32 := Scalar.addi v956 v957
  v958.toNat
def k0_dev68 (d0 : Dev nD) : Nat :=
  let c0_i32_670 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_669 : BitVec 32 := 2#32
  let v1001 : BitVec 32 := Scalar.muli v7 c2_i32_669
  let v1002 : BitVec 32 := Scalar.addi c0_i32_670 v1001
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_671 : BitVec 32 := 1#32
  let v1003 : BitVec 32 := Scalar.muli v5 c1_i32_671
  let v1004 : BitVec 32 := Scalar.addi v1002 v1003
  v1004.toNat
def k0_dev69 (d0 : Dev nD) : Nat :=
  let c0_i32_710 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_709 : BitVec 32 := 2#32
  let v1047 : BitVec 32 := Scalar.muli v7 c2_i32_709
  let v1048 : BitVec 32 := Scalar.addi c0_i32_710 v1047
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_711 : BitVec 32 := 1#32
  let v1049 : BitVec 32 := Scalar.muli v5 c1_i32_711
  let v1050 : BitVec 32 := Scalar.addi v1048 v1049
  v1050.toNat
def k0_dev70 (d0 : Dev nD) : Nat :=
  let c0_i32_750 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_749 : BitVec 32 := 2#32
  let v1093 : BitVec 32 := Scalar.muli v7 c2_i32_749
  let v1094 : BitVec 32 := Scalar.addi c0_i32_750 v1093
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_751 : BitVec 32 := 1#32
  let v1095 : BitVec 32 := Scalar.muli v5 c1_i32_751
  let v1096 : BitVec 32 := Scalar.addi v1094 v1095
  v1096.toNat
def k0_dev71 (d0 : Dev nD) : Nat :=
  let c0_i32_790 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_789 : BitVec 32 := 2#32
  let v1139 : BitVec 32 := Scalar.muli v7 c2_i32_789
  let v1140 : BitVec 32 := Scalar.addi c0_i32_790 v1139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_791 : BitVec 32 := 1#32
  let v1141 : BitVec 32 := Scalar.muli v5 c1_i32_791
  let v1142 : BitVec 32 := Scalar.addi v1140 v1141
  v1142.toNat
def k0_dev72 (d0 : Dev nD) : Nat :=
  let c0_i32_830 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_829 : BitVec 32 := 2#32
  let v1185 : BitVec 32 := Scalar.muli v7 c2_i32_829
  let v1186 : BitVec 32 := Scalar.addi c0_i32_830 v1185
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_831 : BitVec 32 := 1#32
  let v1187 : BitVec 32 := Scalar.muli v5 c1_i32_831
  let v1188 : BitVec 32 := Scalar.addi v1186 v1187
  v1188.toNat
def k0_dev73 (d0 : Dev nD) : Nat :=
  let c0_i32_870 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_869 : BitVec 32 := 2#32
  let v1231 : BitVec 32 := Scalar.muli v7 c2_i32_869
  let v1232 : BitVec 32 := Scalar.addi c0_i32_870 v1231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_871 : BitVec 32 := 1#32
  let v1233 : BitVec 32 := Scalar.muli v5 c1_i32_871
  let v1234 : BitVec 32 := Scalar.addi v1232 v1233
  v1234.toNat
def k0_dev74 (d0 : Dev nD) : Nat :=
  let c0_i32_910 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_909 : BitVec 32 := 2#32
  let v1277 : BitVec 32 := Scalar.muli v7 c2_i32_909
  let v1278 : BitVec 32 := Scalar.addi c0_i32_910 v1277
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_911 : BitVec 32 := 1#32
  let v1279 : BitVec 32 := Scalar.muli v5 c1_i32_911
  let v1280 : BitVec 32 := Scalar.addi v1278 v1279
  v1280.toNat
def k0_dev75 (d0 : Dev nD) : Nat :=
  let c0_i32_950 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_949 : BitVec 32 := 2#32
  let v1323 : BitVec 32 := Scalar.muli v7 c2_i32_949
  let v1324 : BitVec 32 := Scalar.addi c0_i32_950 v1323
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_951 : BitVec 32 := 1#32
  let v1325 : BitVec 32 := Scalar.muli v5 c1_i32_951
  let v1326 : BitVec 32 := Scalar.addi v1324 v1325
  v1326.toNat
def k0_dev76 (d0 : Dev nD) : Nat :=
  let c0_i32_990 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_989 : BitVec 32 := 2#32
  let v1369 : BitVec 32 := Scalar.muli v7 c2_i32_989
  let v1370 : BitVec 32 := Scalar.addi c0_i32_990 v1369
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_991 : BitVec 32 := 1#32
  let v1371 : BitVec 32 := Scalar.muli v5 c1_i32_991
  let v1372 : BitVec 32 := Scalar.addi v1370 v1371
  v1372.toNat
def k0_dev77 (d0 : Dev nD) : Nat :=
  let c0_i32_1030 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1029 : BitVec 32 := 2#32
  let v1415 : BitVec 32 := Scalar.muli v7 c2_i32_1029
  let v1416 : BitVec 32 := Scalar.addi c0_i32_1030 v1415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1031 : BitVec 32 := 1#32
  let v1417 : BitVec 32 := Scalar.muli v5 c1_i32_1031
  let v1418 : BitVec 32 := Scalar.addi v1416 v1417
  v1418.toNat
def k0_dev78 (d0 : Dev nD) : Nat :=
  let c0_i32_1070 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1069 : BitVec 32 := 2#32
  let v1461 : BitVec 32 := Scalar.muli v7 c2_i32_1069
  let v1462 : BitVec 32 := Scalar.addi c0_i32_1070 v1461
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1071 : BitVec 32 := 1#32
  let v1463 : BitVec 32 := Scalar.muli v5 c1_i32_1071
  let v1464 : BitVec 32 := Scalar.addi v1462 v1463
  v1464.toNat
def k0_dev79 (d0 : Dev nD) : Nat :=
  let c0_i32_1110 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1109 : BitVec 32 := 2#32
  let v1507 : BitVec 32 := Scalar.muli v7 c2_i32_1109
  let v1508 : BitVec 32 := Scalar.addi c0_i32_1110 v1507
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1111 : BitVec 32 := 1#32
  let v1509 : BitVec 32 := Scalar.muli v5 c1_i32_1111
  let v1510 : BitVec 32 := Scalar.addi v1508 v1509
  v1510.toNat
def k0_dev80 (d0 : Dev nD) : Nat :=
  let c0_i32_1150 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1149 : BitVec 32 := 2#32
  let v1553 : BitVec 32 := Scalar.muli v7 c2_i32_1149
  let v1554 : BitVec 32 := Scalar.addi c0_i32_1150 v1553
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1151 : BitVec 32 := 1#32
  let v1555 : BitVec 32 := Scalar.muli v5 c1_i32_1151
  let v1556 : BitVec 32 := Scalar.addi v1554 v1555
  v1556.toNat
def k0_dev81 (d0 : Dev nD) : Nat :=
  let c0_i32_1190 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1189 : BitVec 32 := 2#32
  let v1599 : BitVec 32 := Scalar.muli v7 c2_i32_1189
  let v1600 : BitVec 32 := Scalar.addi c0_i32_1190 v1599
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1191 : BitVec 32 := 1#32
  let v1601 : BitVec 32 := Scalar.muli v5 c1_i32_1191
  let v1602 : BitVec 32 := Scalar.addi v1600 v1601
  v1602.toNat
def k0_dev82 (d0 : Dev nD) : Nat :=
  let c0_i32_1230 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1229 : BitVec 32 := 2#32
  let v1645 : BitVec 32 := Scalar.muli v7 c2_i32_1229
  let v1646 : BitVec 32 := Scalar.addi c0_i32_1230 v1645
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1231 : BitVec 32 := 1#32
  let v1647 : BitVec 32 := Scalar.muli v5 c1_i32_1231
  let v1648 : BitVec 32 := Scalar.addi v1646 v1647
  v1648.toNat
def k0_dev83 (d0 : Dev nD) : Nat :=
  let c0_i32_1270 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1269 : BitVec 32 := 2#32
  let v1691 : BitVec 32 := Scalar.muli v7 c2_i32_1269
  let v1692 : BitVec 32 := Scalar.addi c0_i32_1270 v1691
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1271 : BitVec 32 := 1#32
  let v1693 : BitVec 32 := Scalar.muli v5 c1_i32_1271
  let v1694 : BitVec 32 := Scalar.addi v1692 v1693
  v1694.toNat
def k0_dev84 (d0 : Dev nD) : Nat :=
  let c0_i32_1310 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1309 : BitVec 32 := 2#32
  let v1737 : BitVec 32 := Scalar.muli v7 c2_i32_1309
  let v1738 : BitVec 32 := Scalar.addi c0_i32_1310 v1737
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1311 : BitVec 32 := 1#32
  let v1739 : BitVec 32 := Scalar.muli v5 c1_i32_1311
  let v1740 : BitVec 32 := Scalar.addi v1738 v1739
  v1740.toNat
def k0_dev85 (d0 : Dev nD) : Nat :=
  let c0_i32_1350 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1349 : BitVec 32 := 2#32
  let v1783 : BitVec 32 := Scalar.muli v7 c2_i32_1349
  let v1784 : BitVec 32 := Scalar.addi c0_i32_1350 v1783
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1351 : BitVec 32 := 1#32
  let v1785 : BitVec 32 := Scalar.muli v5 c1_i32_1351
  let v1786 : BitVec 32 := Scalar.addi v1784 v1785
  v1786.toNat
def k0_dev86 (d0 : Dev nD) : Nat :=
  let c0_i32_1390 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1389 : BitVec 32 := 2#32
  let v1829 : BitVec 32 := Scalar.muli v7 c2_i32_1389
  let v1830 : BitVec 32 := Scalar.addi c0_i32_1390 v1829
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1391 : BitVec 32 := 1#32
  let v1831 : BitVec 32 := Scalar.muli v5 c1_i32_1391
  let v1832 : BitVec 32 := Scalar.addi v1830 v1831
  v1832.toNat
def k0_dev87 (d0 : Dev nD) : Nat :=
  let c0_i32_1430 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1429 : BitVec 32 := 2#32
  let v1875 : BitVec 32 := Scalar.muli v7 c2_i32_1429
  let v1876 : BitVec 32 := Scalar.addi c0_i32_1430 v1875
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1431 : BitVec 32 := 1#32
  let v1877 : BitVec 32 := Scalar.muli v5 c1_i32_1431
  let v1878 : BitVec 32 := Scalar.addi v1876 v1877
  v1878.toNat
def k0_dev88 (d0 : Dev nD) : Nat :=
  let c0_i32_1470 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1469 : BitVec 32 := 2#32
  let v1921 : BitVec 32 := Scalar.muli v7 c2_i32_1469
  let v1922 : BitVec 32 := Scalar.addi c0_i32_1470 v1921
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1471 : BitVec 32 := 1#32
  let v1923 : BitVec 32 := Scalar.muli v5 c1_i32_1471
  let v1924 : BitVec 32 := Scalar.addi v1922 v1923
  v1924.toNat
def k0_dev89 (d0 : Dev nD) : Nat :=
  let c0_i32_1510 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1509 : BitVec 32 := 2#32
  let v1967 : BitVec 32 := Scalar.muli v7 c2_i32_1509
  let v1968 : BitVec 32 := Scalar.addi c0_i32_1510 v1967
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1511 : BitVec 32 := 1#32
  let v1969 : BitVec 32 := Scalar.muli v5 c1_i32_1511
  let v1970 : BitVec 32 := Scalar.addi v1968 v1969
  v1970.toNat
def k0_dev90 (d0 : Dev nD) : Nat :=
  let c0_i32_1550 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1549 : BitVec 32 := 2#32
  let v2013 : BitVec 32 := Scalar.muli v7 c2_i32_1549
  let v2014 : BitVec 32 := Scalar.addi c0_i32_1550 v2013
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1551 : BitVec 32 := 1#32
  let v2015 : BitVec 32 := Scalar.muli v5 c1_i32_1551
  let v2016 : BitVec 32 := Scalar.addi v2014 v2015
  v2016.toNat
def k0_dev91 (d0 : Dev nD) : Nat :=
  let c0_i32_1590 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1589 : BitVec 32 := 2#32
  let v2059 : BitVec 32 := Scalar.muli v7 c2_i32_1589
  let v2060 : BitVec 32 := Scalar.addi c0_i32_1590 v2059
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1591 : BitVec 32 := 1#32
  let v2061 : BitVec 32 := Scalar.muli v5 c1_i32_1591
  let v2062 : BitVec 32 := Scalar.addi v2060 v2061
  v2062.toNat
def k0_dev92 (d0 : Dev nD) : Nat :=
  let c0_i32_1630 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1629 : BitVec 32 := 2#32
  let v2105 : BitVec 32 := Scalar.muli v7 c2_i32_1629
  let v2106 : BitVec 32 := Scalar.addi c0_i32_1630 v2105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1631 : BitVec 32 := 1#32
  let v2107 : BitVec 32 := Scalar.muli v5 c1_i32_1631
  let v2108 : BitVec 32 := Scalar.addi v2106 v2107
  v2108.toNat
def k0_dev93 (d0 : Dev nD) : Nat :=
  let c0_i32_1670 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1669 : BitVec 32 := 2#32
  let v2151 : BitVec 32 := Scalar.muli v7 c2_i32_1669
  let v2152 : BitVec 32 := Scalar.addi c0_i32_1670 v2151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1671 : BitVec 32 := 1#32
  let v2153 : BitVec 32 := Scalar.muli v5 c1_i32_1671
  let v2154 : BitVec 32 := Scalar.addi v2152 v2153
  v2154.toNat
def k0_dev94 (d0 : Dev nD) : Nat :=
  let c0_i32_1710 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1709 : BitVec 32 := 2#32
  let v2197 : BitVec 32 := Scalar.muli v7 c2_i32_1709
  let v2198 : BitVec 32 := Scalar.addi c0_i32_1710 v2197
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1711 : BitVec 32 := 1#32
  let v2199 : BitVec 32 := Scalar.muli v5 c1_i32_1711
  let v2200 : BitVec 32 := Scalar.addi v2198 v2199
  v2200.toNat
def k0_dev95 (d0 : Dev nD) : Nat :=
  let c0_i32_1750 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1749 : BitVec 32 := 2#32
  let v2243 : BitVec 32 := Scalar.muli v7 c2_i32_1749
  let v2244 : BitVec 32 := Scalar.addi c0_i32_1750 v2243
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1751 : BitVec 32 := 1#32
  let v2245 : BitVec 32 := Scalar.muli v5 c1_i32_1751
  let v2246 : BitVec 32 := Scalar.addi v2244 v2245
  v2246.toNat
def k0_dev96 (d0 : Dev nD) : Nat :=
  let c0_i32_1790 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1789 : BitVec 32 := 2#32
  let v2289 : BitVec 32 := Scalar.muli v7 c2_i32_1789
  let v2290 : BitVec 32 := Scalar.addi c0_i32_1790 v2289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1791 : BitVec 32 := 1#32
  let v2291 : BitVec 32 := Scalar.muli v5 c1_i32_1791
  let v2292 : BitVec 32 := Scalar.addi v2290 v2291
  v2292.toNat
def k0_dev97 (d0 : Dev nD) : Nat :=
  let c0_i32_1830 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1829 : BitVec 32 := 2#32
  let v2335 : BitVec 32 := Scalar.muli v7 c2_i32_1829
  let v2336 : BitVec 32 := Scalar.addi c0_i32_1830 v2335
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1831 : BitVec 32 := 1#32
  let v2337 : BitVec 32 := Scalar.muli v5 c1_i32_1831
  let v2338 : BitVec 32 := Scalar.addi v2336 v2337
  v2338.toNat
def k0_dev98 (d0 : Dev nD) : Nat :=
  let c0_i32_1870 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1869 : BitVec 32 := 2#32
  let v2381 : BitVec 32 := Scalar.muli v7 c2_i32_1869
  let v2382 : BitVec 32 := Scalar.addi c0_i32_1870 v2381
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1871 : BitVec 32 := 1#32
  let v2383 : BitVec 32 := Scalar.muli v5 c1_i32_1871
  let v2384 : BitVec 32 := Scalar.addi v2382 v2383
  v2384.toNat
def k0_dev99 (d0 : Dev nD) : Nat :=
  let c0_i32_1910 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1909 : BitVec 32 := 2#32
  let v2427 : BitVec 32 := Scalar.muli v7 c2_i32_1909
  let v2428 : BitVec 32 := Scalar.addi c0_i32_1910 v2427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1911 : BitVec 32 := 1#32
  let v2429 : BitVec 32 := Scalar.muli v5 c1_i32_1911
  let v2430 : BitVec 32 := Scalar.addi v2428 v2429
  v2430.toNat
def k0_dev100 (d0 : Dev nD) : Nat :=
  let c0_i32_1950 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1949 : BitVec 32 := 2#32
  let v2473 : BitVec 32 := Scalar.muli v7 c2_i32_1949
  let v2474 : BitVec 32 := Scalar.addi c0_i32_1950 v2473
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1951 : BitVec 32 := 1#32
  let v2475 : BitVec 32 := Scalar.muli v5 c1_i32_1951
  let v2476 : BitVec 32 := Scalar.addi v2474 v2475
  v2476.toNat
def k0_dev101 (d0 : Dev nD) : Nat :=
  let c0_i32_1990 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1989 : BitVec 32 := 2#32
  let v2519 : BitVec 32 := Scalar.muli v7 c2_i32_1989
  let v2520 : BitVec 32 := Scalar.addi c0_i32_1990 v2519
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1991 : BitVec 32 := 1#32
  let v2521 : BitVec 32 := Scalar.muli v5 c1_i32_1991
  let v2522 : BitVec 32 := Scalar.addi v2520 v2521
  v2522.toNat
def k0_dev102 (d0 : Dev nD) : Nat :=
  let c0_i32_2030 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2029 : BitVec 32 := 2#32
  let v2565 : BitVec 32 := Scalar.muli v7 c2_i32_2029
  let v2566 : BitVec 32 := Scalar.addi c0_i32_2030 v2565
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2031 : BitVec 32 := 1#32
  let v2567 : BitVec 32 := Scalar.muli v5 c1_i32_2031
  let v2568 : BitVec 32 := Scalar.addi v2566 v2567
  v2568.toNat
def k0_dev103 (d0 : Dev nD) : Nat :=
  let c0_i32_2070 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2069 : BitVec 32 := 2#32
  let v2611 : BitVec 32 := Scalar.muli v7 c2_i32_2069
  let v2612 : BitVec 32 := Scalar.addi c0_i32_2070 v2611
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2071 : BitVec 32 := 1#32
  let v2613 : BitVec 32 := Scalar.muli v5 c1_i32_2071
  let v2614 : BitVec 32 := Scalar.addi v2612 v2613
  v2614.toNat
def k0_dev104 (d0 : Dev nD) : Nat :=
  let c0_i32_2110 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2109 : BitVec 32 := 2#32
  let v2657 : BitVec 32 := Scalar.muli v7 c2_i32_2109
  let v2658 : BitVec 32 := Scalar.addi c0_i32_2110 v2657
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2111 : BitVec 32 := 1#32
  let v2659 : BitVec 32 := Scalar.muli v5 c1_i32_2111
  let v2660 : BitVec 32 := Scalar.addi v2658 v2659
  v2660.toNat
def k0_dev105 (d0 : Dev nD) : Nat :=
  let c0_i32_2150 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2149 : BitVec 32 := 2#32
  let v2703 : BitVec 32 := Scalar.muli v7 c2_i32_2149
  let v2704 : BitVec 32 := Scalar.addi c0_i32_2150 v2703
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2151 : BitVec 32 := 1#32
  let v2705 : BitVec 32 := Scalar.muli v5 c1_i32_2151
  let v2706 : BitVec 32 := Scalar.addi v2704 v2705
  v2706.toNat
def k0_dev106 (d0 : Dev nD) : Nat :=
  let c0_i32_2190 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2189 : BitVec 32 := 2#32
  let v2749 : BitVec 32 := Scalar.muli v7 c2_i32_2189
  let v2750 : BitVec 32 := Scalar.addi c0_i32_2190 v2749
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2191 : BitVec 32 := 1#32
  let v2751 : BitVec 32 := Scalar.muli v5 c1_i32_2191
  let v2752 : BitVec 32 := Scalar.addi v2750 v2751
  v2752.toNat
def k0_dev107 (d0 : Dev nD) : Nat :=
  let c0_i32_2230 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2229 : BitVec 32 := 2#32
  let v2795 : BitVec 32 := Scalar.muli v7 c2_i32_2229
  let v2796 : BitVec 32 := Scalar.addi c0_i32_2230 v2795
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2231 : BitVec 32 := 1#32
  let v2797 : BitVec 32 := Scalar.muli v5 c1_i32_2231
  let v2798 : BitVec 32 := Scalar.addi v2796 v2797
  v2798.toNat
def k0_dev108 (d0 : Dev nD) : Nat :=
  let c0_i32_2270 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2269 : BitVec 32 := 2#32
  let v2841 : BitVec 32 := Scalar.muli v7 c2_i32_2269
  let v2842 : BitVec 32 := Scalar.addi c0_i32_2270 v2841
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2271 : BitVec 32 := 1#32
  let v2843 : BitVec 32 := Scalar.muli v5 c1_i32_2271
  let v2844 : BitVec 32 := Scalar.addi v2842 v2843
  v2844.toNat
def k0_dev109 (d0 : Dev nD) : Nat :=
  let c0_i32_2310 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2309 : BitVec 32 := 2#32
  let v2887 : BitVec 32 := Scalar.muli v7 c2_i32_2309
  let v2888 : BitVec 32 := Scalar.addi c0_i32_2310 v2887
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2311 : BitVec 32 := 1#32
  let v2889 : BitVec 32 := Scalar.muli v5 c1_i32_2311
  let v2890 : BitVec 32 := Scalar.addi v2888 v2889
  v2890.toNat
def k0_dev110 (d0 : Dev nD) : Nat :=
  let c0_i32_2350 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2349 : BitVec 32 := 2#32
  let v2933 : BitVec 32 := Scalar.muli v7 c2_i32_2349
  let v2934 : BitVec 32 := Scalar.addi c0_i32_2350 v2933
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2351 : BitVec 32 := 1#32
  let v2935 : BitVec 32 := Scalar.muli v5 c1_i32_2351
  let v2936 : BitVec 32 := Scalar.addi v2934 v2935
  v2936.toNat
def k0_dev111 (d0 : Dev nD) : Nat :=
  let c0_i32_2390 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2389 : BitVec 32 := 2#32
  let v2979 : BitVec 32 := Scalar.muli v7 c2_i32_2389
  let v2980 : BitVec 32 := Scalar.addi c0_i32_2390 v2979
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2391 : BitVec 32 := 1#32
  let v2981 : BitVec 32 := Scalar.muli v5 c1_i32_2391
  let v2982 : BitVec 32 := Scalar.addi v2980 v2981
  v2982.toNat
def k0_dev112 (d0 : Dev nD) : Nat :=
  let c0_i32_2430 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2429 : BitVec 32 := 2#32
  let v3025 : BitVec 32 := Scalar.muli v7 c2_i32_2429
  let v3026 : BitVec 32 := Scalar.addi c0_i32_2430 v3025
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2431 : BitVec 32 := 1#32
  let v3027 : BitVec 32 := Scalar.muli v5 c1_i32_2431
  let v3028 : BitVec 32 := Scalar.addi v3026 v3027
  v3028.toNat
def k0_dev113 (d0 : Dev nD) : Nat :=
  let c0_i32_2470 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2469 : BitVec 32 := 2#32
  let v3071 : BitVec 32 := Scalar.muli v7 c2_i32_2469
  let v3072 : BitVec 32 := Scalar.addi c0_i32_2470 v3071
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2471 : BitVec 32 := 1#32
  let v3073 : BitVec 32 := Scalar.muli v5 c1_i32_2471
  let v3074 : BitVec 32 := Scalar.addi v3072 v3073
  v3074.toNat
def k0_dev114 (d0 : Dev nD) : Nat :=
  let c0_i32_2510 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2509 : BitVec 32 := 2#32
  let v3117 : BitVec 32 := Scalar.muli v7 c2_i32_2509
  let v3118 : BitVec 32 := Scalar.addi c0_i32_2510 v3117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2511 : BitVec 32 := 1#32
  let v3119 : BitVec 32 := Scalar.muli v5 c1_i32_2511
  let v3120 : BitVec 32 := Scalar.addi v3118 v3119
  v3120.toNat
def k0_dev115 (d0 : Dev nD) : Nat :=
  let c0_i32_2550 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2549 : BitVec 32 := 2#32
  let v3163 : BitVec 32 := Scalar.muli v7 c2_i32_2549
  let v3164 : BitVec 32 := Scalar.addi c0_i32_2550 v3163
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2551 : BitVec 32 := 1#32
  let v3165 : BitVec 32 := Scalar.muli v5 c1_i32_2551
  let v3166 : BitVec 32 := Scalar.addi v3164 v3165
  v3166.toNat
def k0_dev116 (d0 : Dev nD) : Nat :=
  let c0_i32_2590 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2589 : BitVec 32 := 2#32
  let v3209 : BitVec 32 := Scalar.muli v7 c2_i32_2589
  let v3210 : BitVec 32 := Scalar.addi c0_i32_2590 v3209
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2591 : BitVec 32 := 1#32
  let v3211 : BitVec 32 := Scalar.muli v5 c1_i32_2591
  let v3212 : BitVec 32 := Scalar.addi v3210 v3211
  v3212.toNat
def k0_dev117 (d0 : Dev nD) : Nat :=
  let c0_i32_2630 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2629 : BitVec 32 := 2#32
  let v3255 : BitVec 32 := Scalar.muli v7 c2_i32_2629
  let v3256 : BitVec 32 := Scalar.addi c0_i32_2630 v3255
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2631 : BitVec 32 := 1#32
  let v3257 : BitVec 32 := Scalar.muli v5 c1_i32_2631
  let v3258 : BitVec 32 := Scalar.addi v3256 v3257
  v3258.toNat
def k0_dev118 (d0 : Dev nD) : Nat :=
  let c0_i32_2670 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2669 : BitVec 32 := 2#32
  let v3301 : BitVec 32 := Scalar.muli v7 c2_i32_2669
  let v3302 : BitVec 32 := Scalar.addi c0_i32_2670 v3301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2671 : BitVec 32 := 1#32
  let v3303 : BitVec 32 := Scalar.muli v5 c1_i32_2671
  let v3304 : BitVec 32 := Scalar.addi v3302 v3303
  v3304.toNat
def k0_dev119 (d0 : Dev nD) : Nat :=
  let c0_i32_2710 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2709 : BitVec 32 := 2#32
  let v3347 : BitVec 32 := Scalar.muli v7 c2_i32_2709
  let v3348 : BitVec 32 := Scalar.addi c0_i32_2710 v3347
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2711 : BitVec 32 := 1#32
  let v3349 : BitVec 32 := Scalar.muli v5 c1_i32_2711
  let v3350 : BitVec 32 := Scalar.addi v3348 v3349
  v3350.toNat
def k0_dev120 (d0 : Dev nD) : Nat :=
  let c0_i32_2750 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2749 : BitVec 32 := 2#32
  let v3393 : BitVec 32 := Scalar.muli v7 c2_i32_2749
  let v3394 : BitVec 32 := Scalar.addi c0_i32_2750 v3393
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2751 : BitVec 32 := 1#32
  let v3395 : BitVec 32 := Scalar.muli v5 c1_i32_2751
  let v3396 : BitVec 32 := Scalar.addi v3394 v3395
  v3396.toNat
def k0_dev121 (d0 : Dev nD) : Nat :=
  let c0_i32_2790 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2789 : BitVec 32 := 2#32
  let v3439 : BitVec 32 := Scalar.muli v7 c2_i32_2789
  let v3440 : BitVec 32 := Scalar.addi c0_i32_2790 v3439
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2791 : BitVec 32 := 1#32
  let v3441 : BitVec 32 := Scalar.muli v5 c1_i32_2791
  let v3442 : BitVec 32 := Scalar.addi v3440 v3441
  v3442.toNat
def k0_dev122 (d0 : Dev nD) : Nat :=
  let c0_i32_2830 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2829 : BitVec 32 := 2#32
  let v3485 : BitVec 32 := Scalar.muli v7 c2_i32_2829
  let v3486 : BitVec 32 := Scalar.addi c0_i32_2830 v3485
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2831 : BitVec 32 := 1#32
  let v3487 : BitVec 32 := Scalar.muli v5 c1_i32_2831
  let v3488 : BitVec 32 := Scalar.addi v3486 v3487
  v3488.toNat
def k0_dev123 (d0 : Dev nD) : Nat :=
  let c0_i32_2870 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2869 : BitVec 32 := 2#32
  let v3531 : BitVec 32 := Scalar.muli v7 c2_i32_2869
  let v3532 : BitVec 32 := Scalar.addi c0_i32_2870 v3531
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2871 : BitVec 32 := 1#32
  let v3533 : BitVec 32 := Scalar.muli v5 c1_i32_2871
  let v3534 : BitVec 32 := Scalar.addi v3532 v3533
  v3534.toNat
def k0_dev124 (d0 : Dev nD) : Nat :=
  let c0_i32_2910 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2909 : BitVec 32 := 2#32
  let v3577 : BitVec 32 := Scalar.muli v7 c2_i32_2909
  let v3578 : BitVec 32 := Scalar.addi c0_i32_2910 v3577
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2911 : BitVec 32 := 1#32
  let v3579 : BitVec 32 := Scalar.muli v5 c1_i32_2911
  let v3580 : BitVec 32 := Scalar.addi v3578 v3579
  v3580.toNat
def k0_dev125 (d0 : Dev nD) : Nat :=
  let c0_i32_2950 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2949 : BitVec 32 := 2#32
  let v3623 : BitVec 32 := Scalar.muli v7 c2_i32_2949
  let v3624 : BitVec 32 := Scalar.addi c0_i32_2950 v3623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2951 : BitVec 32 := 1#32
  let v3625 : BitVec 32 := Scalar.muli v5 c1_i32_2951
  let v3626 : BitVec 32 := Scalar.addi v3624 v3625
  v3626.toNat
def k0_dev126 (d0 : Dev nD) : Nat :=
  let c0_i32_2990 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2989 : BitVec 32 := 2#32
  let v3669 : BitVec 32 := Scalar.muli v7 c2_i32_2989
  let v3670 : BitVec 32 := Scalar.addi c0_i32_2990 v3669
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2991 : BitVec 32 := 1#32
  let v3671 : BitVec 32 := Scalar.muli v5 c1_i32_2991
  let v3672 : BitVec 32 := Scalar.addi v3670 v3671
  v3672.toNat
def k0_dev127 (d0 : Dev nD) : Nat :=
  let c0_i32_3030 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3029 : BitVec 32 := 2#32
  let v3715 : BitVec 32 := Scalar.muli v7 c2_i32_3029
  let v3716 : BitVec 32 := Scalar.addi c0_i32_3030 v3715
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3031 : BitVec 32 := 1#32
  let v3717 : BitVec 32 := Scalar.muli v5 c1_i32_3031
  let v3718 : BitVec 32 := Scalar.addi v3716 v3717
  v3718.toNat
def k0_dev128 (d0 : Dev nD) : Nat :=
  let c0_i32_3070 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3069 : BitVec 32 := 2#32
  let v3761 : BitVec 32 := Scalar.muli v7 c2_i32_3069
  let v3762 : BitVec 32 := Scalar.addi c0_i32_3070 v3761
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3071 : BitVec 32 := 1#32
  let v3763 : BitVec 32 := Scalar.muli v5 c1_i32_3071
  let v3764 : BitVec 32 := Scalar.addi v3762 v3763
  v3764.toNat
def k0_dev129 (d0 : Dev nD) : Nat :=
  let c0_i32_3110 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3109 : BitVec 32 := 2#32
  let v3807 : BitVec 32 := Scalar.muli v7 c2_i32_3109
  let v3808 : BitVec 32 := Scalar.addi c0_i32_3110 v3807
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3111 : BitVec 32 := 1#32
  let v3809 : BitVec 32 := Scalar.muli v5 c1_i32_3111
  let v3810 : BitVec 32 := Scalar.addi v3808 v3809
  v3810.toNat
def k0_dev130 (d0 : Dev nD) : Nat :=
  let c0_i32_3143 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3142 : BitVec 32 := 2#32
  let v3845 : BitVec 32 := Scalar.muli v7 c2_i32_3142
  let v3846 : BitVec 32 := Scalar.addi c0_i32_3143 v3845
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3144 : BitVec 32 := 1#32
  let v3847 : BitVec 32 := Scalar.muli v5 c1_i32_3144
  let v3848 : BitVec 32 := Scalar.addi v3846 v3847
  v3848.toNat
def k0_off4 (d0 : Dev nD) (c0_i32_3169 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c4096_i32_5 : BitVec 32 := 4096#32
  let v10 : BitVec 32 := Scalar.muli v9 c4096_i32_5
  let v3873 : BitVec 32 := Scalar.addi v10 c0_i32_3169
  let c0_i32_3175 : BitVec 32 := 0#32
  ![v3873.toNat, 0]

class Facts₀ : Prop where
  inb_S2_S1_0 : ∀ a, (![0] : Fin 1 → Nat) a + S1.size a ≤ S2.size a
  squeezes_S1_S_ : S1.Squeezes S_
  inb_S2x64x1024_S1x64x1024_0_0_0 : ∀ a, (![0, 0, 0] : Fin 3 → Nat) a + S1x64x1024.size a ≤ S2x64x1024.size a
  squeezes_S1x64x1024_S64x1024 : S1x64x1024.Squeezes S64x1024
  hamt_1 : (1#32 : BitVec 32).msb = false
  hamt_2 : (2#32 : BitVec 32).msb = false
  inb_S64_S1_0 : ∀ a, (![0] : Fin 1 → Nat) a + S1.size a ≤ S64.size a
  inb_S4096x1024_S64x1024_0_0 : ∀ a, (![0, 0] : Fin 2 → Nat) a + S64x1024.size a ≤ S4096x1024.size a
  inb_S64_S1_1 : ∀ a, (![1] : Fin 1 → Nat) a + S1.size a ≤ S64.size a
  inb_S4096x1024_S64x1024_64_0 : ∀ a, (![64, 0] : Fin 2 → Nat) a + S64x1024.size a ≤ S4096x1024.size a
  inb_S64_S1_2 : ∀ a, (![2] : Fin 1 → Nat) a + S1.size a ≤ S64.size a
  inb_S4096x1024_S64x1024_128_0 : ∀ a, (![128, 0] : Fin 2 → Nat) a + S64x1024.size a ≤ S4096x1024.size a
  inb_S64_S1_3 : ∀ a, (![3] : Fin 1 → Nat) a + S1.size a ≤ S64.size a
  inb_S4096x1024_S64x1024_192_0 : ∀ a, (![192, 0] : Fin 2 → Nat) a + S64x1024.size a ≤ S4096x1024.size a
  inb_S64_S1_4 : ∀ a, (![4] : Fin 1 → Nat) a + S1.size a ≤ S64.size a
  inb_S4096x1024_S64x1024_256_0 : ∀ a, (![256, 0] : Fin 2 → Nat) a + S64x1024.size a ≤ S4096x1024.size a
  inb_S64_S1_5 : ∀ a, (![5] : Fin 1 → Nat) a + S1.size a ≤ S64.size a
  inb_S4096x1024_S64x1024_320_0 : ∀ a, (![320, 0] : Fin 2 → Nat) a + S64x1024.size a ≤ S4096x1024.size a
  inb_S64_S1_6 : ∀ a, (![6] : Fin 1 → Nat) a + S1.size a ≤ S64.size a
  inb_S4096x1024_S64x1024_384_0 : ∀ a, (![384, 0] : Fin 2 → Nat) a + S64x1024.size a ≤ S4096x1024.size a
  inb_S64_S1_7 : ∀ a, (![7] : Fin 1 → Nat) a + S1.size a ≤ S64.size a
  inb_S4096x1024_S64x1024_448_0 : ∀ a, (![448, 0] : Fin 2 → Nat) a + S64x1024.size a ≤ S4096x1024.size a
  inb_S64_S1_8 : ∀ a, (![8] : Fin 1 → Nat) a + S1.size a ≤ S64.size a
  inb_S4096x1024_S64x1024_512_0 : ∀ a, (![512, 0] : Fin 2 → Nat) a + S64x1024.size a ≤ S4096x1024.size a
  inb_S64_S1_9 : ∀ a, (![9] : Fin 1 → Nat) a + S1.size a ≤ S64.size a
  inb_S4096x1024_S64x1024_576_0 : ∀ a, (![576, 0] : Fin 2 → Nat) a + S64x1024.size a ≤ S4096x1024.size a
  inb_S64_S1_10 : ∀ a, (![10] : Fin 1 → Nat) a + S1.size a ≤ S64.size a
  inb_S4096x1024_S64x1024_640_0 : ∀ a, (![640, 0] : Fin 2 → Nat) a + S64x1024.size a ≤ S4096x1024.size a
  inb_S64_S1_11 : ∀ a, (![11] : Fin 1 → Nat) a + S1.size a ≤ S64.size a
  inb_S4096x1024_S64x1024_704_0 : ∀ a, (![704, 0] : Fin 2 → Nat) a + S64x1024.size a ≤ S4096x1024.size a
  inb_S64_S1_12 : ∀ a, (![12] : Fin 1 → Nat) a + S1.size a ≤ S64.size a
  inb_S4096x1024_S64x1024_768_0 : ∀ a, (![768, 0] : Fin 2 → Nat) a + S64x1024.size a ≤ S4096x1024.size a
  inb_S64_S1_13 : ∀ a, (![13] : Fin 1 → Nat) a + S1.size a ≤ S64.size a
  inb_S4096x1024_S64x1024_832_0 : ∀ a, (![832, 0] : Fin 2 → Nat) a + S64x1024.size a ≤ S4096x1024.size a
  inb_S64_S1_14 : ∀ a, (![14] : Fin 1 → Nat) a + S1.size a ≤ S64.size a
  inb_S4096x1024_S64x1024_896_0 : ∀ a, (![896, 0] : Fin 2 → Nat) a + S64x1024.size a ≤ S4096x1024.size a
  inb_S64_S1_15 : ∀ a, (![15] : Fin 1 → Nat) a + S1.size a ≤ S64.size a
  inb_S4096x1024_S64x1024_960_0 : ∀ a, (![960, 0] : Fin 2 → Nat) a + S64x1024.size a ≤ S4096x1024.size a
  inb_S64_S1_16 : ∀ a, (![16] : Fin 1 → Nat) a + S1.size a ≤ S64.size a
  inb_S4096x1024_S64x1024_1024_0 : ∀ a, (![1024, 0] : Fin 2 → Nat) a + S64x1024.size a ≤ S4096x1024.size a
  inb_S64_S1_17 : ∀ a, (![17] : Fin 1 → Nat) a + S1.size a ≤ S64.size a
  inb_S4096x1024_S64x1024_1088_0 : ∀ a, (![1088, 0] : Fin 2 → Nat) a + S64x1024.size a ≤ S4096x1024.size a
  inb_S64_S1_18 : ∀ a, (![18] : Fin 1 → Nat) a + S1.size a ≤ S64.size a
  inb_S4096x1024_S64x1024_1152_0 : ∀ a, (![1152, 0] : Fin 2 → Nat) a + S64x1024.size a ≤ S4096x1024.size a
  inb_S64_S1_19 : ∀ a, (![19] : Fin 1 → Nat) a + S1.size a ≤ S64.size a
  inb_S4096x1024_S64x1024_1216_0 : ∀ a, (![1216, 0] : Fin 2 → Nat) a + S64x1024.size a ≤ S4096x1024.size a
  inb_S64_S1_20 : ∀ a, (![20] : Fin 1 → Nat) a + S1.size a ≤ S64.size a
  inb_S4096x1024_S64x1024_1280_0 : ∀ a, (![1280, 0] : Fin 2 → Nat) a + S64x1024.size a ≤ S4096x1024.size a
  inb_S64_S1_21 : ∀ a, (![21] : Fin 1 → Nat) a + S1.size a ≤ S64.size a
  inb_S4096x1024_S64x1024_1344_0 : ∀ a, (![1344, 0] : Fin 2 → Nat) a + S64x1024.size a ≤ S4096x1024.size a
  inb_S64_S1_22 : ∀ a, (![22] : Fin 1 → Nat) a + S1.size a ≤ S64.size a
  inb_S4096x1024_S64x1024_1408_0 : ∀ a, (![1408, 0] : Fin 2 → Nat) a + S64x1024.size a ≤ S4096x1024.size a
  inb_S64_S1_23 : ∀ a, (![23] : Fin 1 → Nat) a + S1.size a ≤ S64.size a
  inb_S4096x1024_S64x1024_1472_0 : ∀ a, (![1472, 0] : Fin 2 → Nat) a + S64x1024.size a ≤ S4096x1024.size a
  inb_S64_S1_24 : ∀ a, (![24] : Fin 1 → Nat) a + S1.size a ≤ S64.size a
  inb_S4096x1024_S64x1024_1536_0 : ∀ a, (![1536, 0] : Fin 2 → Nat) a + S64x1024.size a ≤ S4096x1024.size a
  inb_S64_S1_25 : ∀ a, (![25] : Fin 1 → Nat) a + S1.size a ≤ S64.size a
  inb_S4096x1024_S64x1024_1600_0 : ∀ a, (![1600, 0] : Fin 2 → Nat) a + S64x1024.size a ≤ S4096x1024.size a
  inb_S64_S1_26 : ∀ a, (![26] : Fin 1 → Nat) a + S1.size a ≤ S64.size a
  inb_S4096x1024_S64x1024_1664_0 : ∀ a, (![1664, 0] : Fin 2 → Nat) a + S64x1024.size a ≤ S4096x1024.size a
  inb_S64_S1_27 : ∀ a, (![27] : Fin 1 → Nat) a + S1.size a ≤ S64.size a
  inb_S4096x1024_S64x1024_1728_0 : ∀ a, (![1728, 0] : Fin 2 → Nat) a + S64x1024.size a ≤ S4096x1024.size a
  inb_S64_S1_28 : ∀ a, (![28] : Fin 1 → Nat) a + S1.size a ≤ S64.size a
  inb_S4096x1024_S64x1024_1792_0 : ∀ a, (![1792, 0] : Fin 2 → Nat) a + S64x1024.size a ≤ S4096x1024.size a
  inb_S64_S1_29 : ∀ a, (![29] : Fin 1 → Nat) a + S1.size a ≤ S64.size a
  inb_S4096x1024_S64x1024_1856_0 : ∀ a, (![1856, 0] : Fin 2 → Nat) a + S64x1024.size a ≤ S4096x1024.size a
  inb_S64_S1_30 : ∀ a, (![30] : Fin 1 → Nat) a + S1.size a ≤ S64.size a
  inb_S4096x1024_S64x1024_1920_0 : ∀ a, (![1920, 0] : Fin 2 → Nat) a + S64x1024.size a ≤ S4096x1024.size a
  inb_S64_S1_31 : ∀ a, (![31] : Fin 1 → Nat) a + S1.size a ≤ S64.size a
  inb_S4096x1024_S64x1024_1984_0 : ∀ a, (![1984, 0] : Fin 2 → Nat) a + S64x1024.size a ≤ S4096x1024.size a
  inb_S64_S1_32 : ∀ a, (![32] : Fin 1 → Nat) a + S1.size a ≤ S64.size a
  inb_S4096x1024_S64x1024_2048_0 : ∀ a, (![2048, 0] : Fin 2 → Nat) a + S64x1024.size a ≤ S4096x1024.size a
  inb_S64_S1_33 : ∀ a, (![33] : Fin 1 → Nat) a + S1.size a ≤ S64.size a
  inb_S4096x1024_S64x1024_2112_0 : ∀ a, (![2112, 0] : Fin 2 → Nat) a + S64x1024.size a ≤ S4096x1024.size a
  inb_S64_S1_34 : ∀ a, (![34] : Fin 1 → Nat) a + S1.size a ≤ S64.size a
  inb_S4096x1024_S64x1024_2176_0 : ∀ a, (![2176, 0] : Fin 2 → Nat) a + S64x1024.size a ≤ S4096x1024.size a
  inb_S64_S1_35 : ∀ a, (![35] : Fin 1 → Nat) a + S1.size a ≤ S64.size a
  inb_S4096x1024_S64x1024_2240_0 : ∀ a, (![2240, 0] : Fin 2 → Nat) a + S64x1024.size a ≤ S4096x1024.size a
  inb_S64_S1_36 : ∀ a, (![36] : Fin 1 → Nat) a + S1.size a ≤ S64.size a
  inb_S4096x1024_S64x1024_2304_0 : ∀ a, (![2304, 0] : Fin 2 → Nat) a + S64x1024.size a ≤ S4096x1024.size a
  inb_S64_S1_37 : ∀ a, (![37] : Fin 1 → Nat) a + S1.size a ≤ S64.size a
  inb_S4096x1024_S64x1024_2368_0 : ∀ a, (![2368, 0] : Fin 2 → Nat) a + S64x1024.size a ≤ S4096x1024.size a
  inb_S64_S1_38 : ∀ a, (![38] : Fin 1 → Nat) a + S1.size a ≤ S64.size a
  inb_S4096x1024_S64x1024_2432_0 : ∀ a, (![2432, 0] : Fin 2 → Nat) a + S64x1024.size a ≤ S4096x1024.size a
  inb_S64_S1_39 : ∀ a, (![39] : Fin 1 → Nat) a + S1.size a ≤ S64.size a
  inb_S4096x1024_S64x1024_2496_0 : ∀ a, (![2496, 0] : Fin 2 → Nat) a + S64x1024.size a ≤ S4096x1024.size a
  inb_S64_S1_40 : ∀ a, (![40] : Fin 1 → Nat) a + S1.size a ≤ S64.size a
  inb_S4096x1024_S64x1024_2560_0 : ∀ a, (![2560, 0] : Fin 2 → Nat) a + S64x1024.size a ≤ S4096x1024.size a
  inb_S64_S1_41 : ∀ a, (![41] : Fin 1 → Nat) a + S1.size a ≤ S64.size a
  inb_S4096x1024_S64x1024_2624_0 : ∀ a, (![2624, 0] : Fin 2 → Nat) a + S64x1024.size a ≤ S4096x1024.size a
  inb_S64_S1_42 : ∀ a, (![42] : Fin 1 → Nat) a + S1.size a ≤ S64.size a
  inb_S4096x1024_S64x1024_2688_0 : ∀ a, (![2688, 0] : Fin 2 → Nat) a + S64x1024.size a ≤ S4096x1024.size a
  inb_S64_S1_43 : ∀ a, (![43] : Fin 1 → Nat) a + S1.size a ≤ S64.size a
  inb_S4096x1024_S64x1024_2752_0 : ∀ a, (![2752, 0] : Fin 2 → Nat) a + S64x1024.size a ≤ S4096x1024.size a
  inb_S64_S1_44 : ∀ a, (![44] : Fin 1 → Nat) a + S1.size a ≤ S64.size a
  inb_S4096x1024_S64x1024_2816_0 : ∀ a, (![2816, 0] : Fin 2 → Nat) a + S64x1024.size a ≤ S4096x1024.size a
  inb_S64_S1_45 : ∀ a, (![45] : Fin 1 → Nat) a + S1.size a ≤ S64.size a
  inb_S4096x1024_S64x1024_2880_0 : ∀ a, (![2880, 0] : Fin 2 → Nat) a + S64x1024.size a ≤ S4096x1024.size a
  inb_S64_S1_46 : ∀ a, (![46] : Fin 1 → Nat) a + S1.size a ≤ S64.size a
  inb_S4096x1024_S64x1024_2944_0 : ∀ a, (![2944, 0] : Fin 2 → Nat) a + S64x1024.size a ≤ S4096x1024.size a
  inb_S64_S1_47 : ∀ a, (![47] : Fin 1 → Nat) a + S1.size a ≤ S64.size a
  inb_S4096x1024_S64x1024_3008_0 : ∀ a, (![3008, 0] : Fin 2 → Nat) a + S64x1024.size a ≤ S4096x1024.size a
  inb_S64_S1_48 : ∀ a, (![48] : Fin 1 → Nat) a + S1.size a ≤ S64.size a
  inb_S4096x1024_S64x1024_3072_0 : ∀ a, (![3072, 0] : Fin 2 → Nat) a + S64x1024.size a ≤ S4096x1024.size a
  inb_S64_S1_49 : ∀ a, (![49] : Fin 1 → Nat) a + S1.size a ≤ S64.size a
  inb_S4096x1024_S64x1024_3136_0 : ∀ a, (![3136, 0] : Fin 2 → Nat) a + S64x1024.size a ≤ S4096x1024.size a
  inb_S64_S1_50 : ∀ a, (![50] : Fin 1 → Nat) a + S1.size a ≤ S64.size a
  inb_S4096x1024_S64x1024_3200_0 : ∀ a, (![3200, 0] : Fin 2 → Nat) a + S64x1024.size a ≤ S4096x1024.size a
  inb_S64_S1_51 : ∀ a, (![51] : Fin 1 → Nat) a + S1.size a ≤ S64.size a
  inb_S4096x1024_S64x1024_3264_0 : ∀ a, (![3264, 0] : Fin 2 → Nat) a + S64x1024.size a ≤ S4096x1024.size a
  inb_S64_S1_52 : ∀ a, (![52] : Fin 1 → Nat) a + S1.size a ≤ S64.size a
  inb_S4096x1024_S64x1024_3328_0 : ∀ a, (![3328, 0] : Fin 2 → Nat) a + S64x1024.size a ≤ S4096x1024.size a
  inb_S64_S1_53 : ∀ a, (![53] : Fin 1 → Nat) a + S1.size a ≤ S64.size a
  inb_S4096x1024_S64x1024_3392_0 : ∀ a, (![3392, 0] : Fin 2 → Nat) a + S64x1024.size a ≤ S4096x1024.size a
  inb_S64_S1_54 : ∀ a, (![54] : Fin 1 → Nat) a + S1.size a ≤ S64.size a
  inb_S4096x1024_S64x1024_3456_0 : ∀ a, (![3456, 0] : Fin 2 → Nat) a + S64x1024.size a ≤ S4096x1024.size a
  inb_S64_S1_55 : ∀ a, (![55] : Fin 1 → Nat) a + S1.size a ≤ S64.size a
  inb_S4096x1024_S64x1024_3520_0 : ∀ a, (![3520, 0] : Fin 2 → Nat) a + S64x1024.size a ≤ S4096x1024.size a
  inb_S64_S1_56 : ∀ a, (![56] : Fin 1 → Nat) a + S1.size a ≤ S64.size a
  inb_S4096x1024_S64x1024_3584_0 : ∀ a, (![3584, 0] : Fin 2 → Nat) a + S64x1024.size a ≤ S4096x1024.size a
  inb_S64_S1_57 : ∀ a, (![57] : Fin 1 → Nat) a + S1.size a ≤ S64.size a
  inb_S4096x1024_S64x1024_3648_0 : ∀ a, (![3648, 0] : Fin 2 → Nat) a + S64x1024.size a ≤ S4096x1024.size a
  inb_S64_S1_58 : ∀ a, (![58] : Fin 1 → Nat) a + S1.size a ≤ S64.size a
  inb_S4096x1024_S64x1024_3712_0 : ∀ a, (![3712, 0] : Fin 2 → Nat) a + S64x1024.size a ≤ S4096x1024.size a
  inb_S64_S1_59 : ∀ a, (![59] : Fin 1 → Nat) a + S1.size a ≤ S64.size a
  inb_S4096x1024_S64x1024_3776_0 : ∀ a, (![3776, 0] : Fin 2 → Nat) a + S64x1024.size a ≤ S4096x1024.size a
  inb_S64_S1_60 : ∀ a, (![60] : Fin 1 → Nat) a + S1.size a ≤ S64.size a
  inb_S4096x1024_S64x1024_3840_0 : ∀ a, (![3840, 0] : Fin 2 → Nat) a + S64x1024.size a ≤ S4096x1024.size a
  inb_S64_S1_61 : ∀ a, (![61] : Fin 1 → Nat) a + S1.size a ≤ S64.size a
  inb_S4096x1024_S64x1024_3904_0 : ∀ a, (![3904, 0] : Fin 2 → Nat) a + S64x1024.size a ≤ S4096x1024.size a
  inb_S64_S1_62 : ∀ a, (![62] : Fin 1 → Nat) a + S1.size a ≤ S64.size a
  inb_S4096x1024_S64x1024_3968_0 : ∀ a, (![3968, 0] : Fin 2 → Nat) a + S64x1024.size a ≤ S4096x1024.size a
  inb_S64_S1_63 : ∀ a, (![63] : Fin 1 → Nat) a + S1.size a ≤ S64.size a
  inb_S4096x1024_S64x1024_4032_0 : ∀ a, (![4032, 0] : Fin 2 → Nat) a + S64x1024.size a ≤ S4096x1024.size a
  inb_S2_S1_1 : ∀ a, (![1] : Fin 1 → Nat) a + S1.size a ≤ S2.size a
  inb_S2x64x1024_S1x64x1024_1_0_0 : ∀ a, (![1, 0, 0] : Fin 3 → Nat) a + S1x64x1024.size a ≤ S2x64x1024.size a
  h_S64x1024 : 0 < S64x1024.numel
  h_S1x64x1024 : 0 < S1x64x1024.numel
  shapeCasts_S1x64x1024_S64x1024 : S1x64x1024.ShapeCasts S64x1024
  shapeCasts_S64x1024_S64x1024 : S64x1024.ShapeCasts S64x1024
  hcc0_scratch2 : 0 + S64.numel ≤ 322
  hcc0_scratch3 : 64 + S64.numel ≤ 322
  hcc0_scratch4 : 128 + S64.numel ≤ 322
  hcc0_scratch5 : 192 + S64.numel ≤ 322
  hcc0_scratch6 : 256 + S2.numel ≤ 322
  hcc0_scratch7 : 258 + S64.numel ≤ 322
  k0_off1_inb : ∀ d0 : Dev nD, ∀ (r : Fin 64), ∀ a, (k0_off1 d0 (BitVec.ofNat 32 (64 * r.val))) a + S1x64x1024.size a ≤ S1x8192x2048.size a
  k0_dev1_lt : ∀ d0 : Dev nD, (k0_dev1 d0) < nD
  k0_dev2_lt : ∀ d0 : Dev nD, (k0_dev2 d0) < nD
  k0_off2_inb : ∀ d0 : Dev nD, ∀ (r : Fin 64), ∀ a, (k0_off2 d0 (BitVec.ofNat 32 (64 * r.val))) a + S1x64x1024.size a ≤ S1x8192x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off3_inb : ∀ d0 : Dev nD, ∀ (r : Fin 64), ∀ a, (k0_off3 d0 (BitVec.ofNat 32 (64 * r.val))) a + S64x1024.size a ≤ S8192x1024.size a
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD
  k0_off4_inb : ∀ d0 : Dev nD, ∀ (r : Fin 64), ∀ a, (k0_off4 d0 (BitVec.ofNat 32 (64 * r.val))) a + S64x1024.size a ≤ S8192x1024.size a

variable [Facts₀]

abbrev cc0_scratch2 : DmaSems sig S64 := SemArray.consecutive 0 S64 hcc0_scratch2
abbrev cc0_scratch3 : DmaSems sig S64 := SemArray.consecutive 64 S64 hcc0_scratch3
abbrev cc0_scratch4 : DmaSems sig S64 := SemArray.consecutive 128 S64 hcc0_scratch4
abbrev cc0_scratch5 : DmaSems sig S64 := SemArray.consecutive 192 S64 hcc0_scratch5
abbrev cc0_scratch6 : DmaSems sig S2 := SemArray.consecutive 256 S2 hcc0_scratch6
abbrev cc0_scratch7 : DmaSems sig S64 := SemArray.consecutive 258 S64 hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x8192x2048_S8192x2048_d0 : S2x8192x2048.ReducesTo [0] S8192x2048
  h_S_ : 0 < S_.numel

variable [Facts₀]

class Facts : Prop extends Facts₀ where

variable [Facts]
-- ==== Proof.RsKernelIdeal.Mem.lean ====
/-
  Reduce-scatter over a 2×2 mesh, the memory side. Device `c` sits at (c / 2, c % 2). Its two peers: `yp c`, the
  device in the same row with the other column, and `xp c`, the device in the same column with the other row.
  The rows a device reduces are the 4096 rows of its own row-half, cut in 64 chunks of 64 rows; chunk `r` of device `c`
  names: the half-row block it sends to its column peer (`xA`), the half-row block it keeps and stages (`xB`), the
  rows of the receive buffer where its column peer's block lands (`rS`), the staging slot (`lS`), and the rows of the
  result where the sum goes on itself and on its row peer (`oO`).
-/
import proofs.«900313_g7700000000000314_dist_rs_v7x_xy2x2_y_m8192_n1024_f32_1_alg».proof.Proof.Gen.KernelIdeal
import proofs.«900313_g7700000000000314_dist_rs_v7x_xy2x2_y_m8192_n1024_f32_1_alg».proof.Proof.Gen.KernelIdeal.Skeleton
import Idealize.ShloMosaic.Lib.Memref

noncomputable section

namespace Cert.KernelIdeal.RS

open Cert.KernelIdeal Cert.KernelIdeal.Gen
open Idealize.ShloMosaic Idealize.ShloMosaic.TcCoe Idealize.SL.Sem

variable {F : FTy → Type} [FloatOps F]

/-! ## The mesh -/

/-- The column peer: same row, other column. -/
def yp (c : Dev nD) : Dev nD := ⟨(2 * (c.val / 2) + 1) - (c.val % 2), by revert c; decide⟩
/-- The row peer: same column, other row. -/
def xp (c : Dev nD) : Dev nD := ⟨((c.val % 2) + 2) - 2 * (c.val / 2), by revert c; decide⟩

theorem yp_yp (c : Dev nD) : yp (yp c) = c := by revert c; decide
theorem xp_xp (c : Dev nD) : xp (xp c) = c := by revert c; decide
theorem yp_ne (c : Dev nD) : yp c ≠ c := by revert c; decide
theorem xp_ne (c : Dev nD) : xp c ≠ c := by revert c; decide
theorem yp_ne_xp (c : Dev nD) : yp c ≠ xp c := by revert c; decide
theorem xp_yp (c : Dev nD) : xp (yp c) = yp (xp c) := by revert c; decide

def ypEquiv : Dev nD ≃ Dev nD := ⟨yp, yp, yp_yp, yp_yp⟩
def xpEquiv : Dev nD ≃ Dev nD := ⟨xp, xp, xp_xp, xp_xp⟩

/-! ## The memrefs -/

abbrev xM : Memref sig .tc .hbm S1x8192x2048 .f32 := Memref.whole main_arg0
abbrev oM : Memref sig .tc .hbm S8192x1024 .f32 := Memref.whole main_v1
abbrev rM : Memref sig .tc .vmem S4096x1024 .f32 := Memref.whole cc0_scratch0
abbrev lM : Memref sig .tc .vmem S2x64x1024 .f32 := Memref.whole cc0_scratch1

theorem inbR (r : Fin 64) : ∀ a, (![64 * r.val, 0] : Fin 2 → Nat) a + S64x1024.size a ≤ S4096x1024.size a := by
  intro a; have := r.isLt; fin_cases a <;> simp <;> omega
theorem inbL (s : Fin 2) : ∀ a, (![s.val, 0, 0] : Fin 3 → Nat) a + S1x64x1024.size a ≤ S2x64x1024.size a := by
  intro a; have := s.isLt; fin_cases a <;> simp <;> omega

/-- Rows [64 r, 64 r + 64) of the receive buffer. -/
abbrev rRect (r : Fin 64) : Rect S4096x1024 := Rect.unit (s := S4096x1024) ![64 * r.val, 0] S64x1024.size (inbR r)
abbrev rS (r : Fin 64) : Memref sig .tc .vmem S64x1024 .f32 := rM.slice (rRect r) (fun _ => rfl)
/-- Slot `s` of the staging buffer, as the rank-3 block the body loads and as the rank-2 block the copy fills. -/
abbrev lRect (s : Fin 2) : Rect S2x64x1024 := Rect.unit (s := S2x64x1024) ![s.val, 0, 0] S1x64x1024.size (inbL s)
abbrev lS3 (s : Fin 2) : Memref sig .tc .vmem S1x64x1024 .f32 := lM.slice (lRect s) (fun _ => rfl)
abbrev lS (s : Fin 2) : Memref sig .tc .vmem S64x1024 .f32 := (lS3 s).squeeze S64x1024 squeezes_S1x64x1024_S64x1024

/-- Chunk `r` of the half-row block device `c` KEEPS (its own column half). -/
abbrev xB3 (c : Dev nD) (r : Fin 64) : Memref sig .tc .hbm S1x64x1024 .f32 :=
  xM.slice (Rect.unit (s := S1x8192x2048) (k0_off1 c (BitVec.ofNat 32 (64 * r.val))) S1x64x1024.size (k0_off1_inb c r)) (fun _ => rfl)
abbrev xB (c : Dev nD) (r : Fin 64) : Memref sig .tc .hbm S64x1024 .f32 := (xB3 c r).squeeze S64x1024 squeezes_S1x64x1024_S64x1024
/-- Chunk `r` of the half-row block device `c` SENDS to its column peer (the other column half). -/
abbrev xA3 (c : Dev nD) (r : Fin 64) : Memref sig .tc .hbm S1x64x1024 .f32 :=
  xM.slice (Rect.unit (s := S1x8192x2048) (k0_off2 c (BitVec.ofNat 32 (64 * r.val))) S1x64x1024.size (k0_off2_inb c r)) (fun _ => rfl)
abbrev xA (c : Dev nD) (r : Fin 64) : Memref sig .tc .hbm S64x1024 .f32 := (xA3 c r).squeeze S64x1024 squeezes_S1x64x1024_S64x1024
/-- Rows of the result that hold chunk `r` of device `c`'s sums: on `c` itself and on its row peer. -/
abbrev oO (c : Dev nD) (r : Fin 64) : Memref sig .tc .hbm S64x1024 .f32 :=
  oM.slice (Rect.unit (s := S8192x1024) (k0_off3 c (BitVec.ofNat 32 (64 * r.val))) S64x1024.size (k0_off3_inb c r)) (fun _ => rfl)
/-- The same rows named from the receiving side (the wait that closes the row transfer names them so). -/
abbrev oP (c : Dev nD) (r : Fin 64) : Memref sig .tc .hbm S64x1024 .f32 :=
  oM.slice (Rect.unit (s := S8192x1024) (k0_off4 c (BitVec.ofNat 32 (64 * r.val))) S64x1024.size (k0_off4_inb c r)) (fun _ => rfl)

/-! ## The values -/

variable (m : (ℓ : Loc nD τ sig) → Buf (Elt F) ℓ)

/-- Device `c`'s argument block. -/
def X (c : Dev nD) : Buf (Elt F) ((c : Thread nD τ).loc main_arg0) := m ((c : Thread nD τ).loc main_arg0)
/-- What device `c` sends to its column peer for chunk `r`. -/
def aVal (c : Dev nD) (r : Fin 64) : Vec F S64x1024 .f32 := (xA c r).view.read (Elt F) (X m c)
/-- What device `c` stages for chunk `r`. -/
def bVal (c : Dev nD) (r : Fin 64) : Vec F S64x1024 .f32 := (xB c r).view.read (Elt F) (X m c)
/-- What device `c` receives from its column peer for chunk `r`. -/
def yVal (c : Dev nD) (r : Fin 64) : Vec F S64x1024 .f32 := aVal m (yp c) r
/-- Chunk `r` of device `c`'s sums: what it received plus what it kept. -/
def sVal (c : Dev nD) (r : Fin 64) : Vec F S64x1024 .f32 := addf (yVal m c r) (bVal m c r)

end Cert.KernelIdeal.RS

end
-- ==== Proof.RsValue.lean ====
/-
  Reduce-scatter over a 2×2 mesh, the value side. The reference adds the two blocks of axis 0 of the whole array
  f32[2, 8192, 2048]; device `c`, at mesh row `c / 2` and column `c % 2`, holds block `c % 2` and must end with
  column block `c % 2` of the sum. This module runs the reference, names its result `refVal`, and proves the bridge:
  a result array that holds, chunk by chunk, the device's own sums in its own row-half and its row peer's sums in the
  other row-half is that column block. By extensionality: row `i = 4096 a + 64 r + k` is row `k` of chunk `r` of the
  device of mesh row `a` in the same column; the entry is what that device kept (its own block of axis 0) plus what
  its column peer sent (the other block), and a sum of two extended reals does not depend on the order.
-/
import proofs.«900313_g7700000000000314_dist_rs_v7x_xy2x2_y_m8192_n1024_f32_1_alg».proof.Defs
import proofs.«900313_g7700000000000314_dist_rs_v7x_xy2x2_y_m8192_n1024_f32_1_alg».proof.Proof.Gen.ReferenceIdeal.Run
import proofs.«900313_g7700000000000314_dist_rs_v7x_xy2x2_y_m8192_n1024_f32_1_alg».proof.Proof.Gen.ReferenceIdeal.Read
import proofs.«900313_g7700000000000314_dist_rs_v7x_xy2x2_y_m8192_n1024_f32_1_alg».proof.Proof.Gen.Pre_finite_inputs_ReferenceIdeal
import proofs.«900313_g7700000000000314_dist_rs_v7x_xy2x2_y_m8192_n1024_f32_1_alg».proof.Proof.RsKernelIdeal.Mem
import Idealize.ShloMosaic.Lib.Layout
import Idealize.ShloMosaic.Lib.Pipeline.Value
import Idealize.ShloMosaic.Lib.ValueIdx
import Idealize.ShloMosaic.PureOps.Ideal.Laws

noncomputable section

namespace Cert.KernelIdeal.RS

open Cert.KernelIdeal Cert.KernelIdeal.Gen
open Idealize.ShloMosaic Idealize.ShloMosaic.TcCoe Idealize.SL.Sem
open Idealize.ShloMosaic.ValueIdx

/-- The reference runs and leaves its argument unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's argument array and result array, as contents. -/
abbrev RefArg : Type := Buf (Elt Ideal) (((0 : Dev Cert.ReferenceIdeal.nD).tc : Thread Cert.ReferenceIdeal.nD Cert.ReferenceIdeal.τ).loc Cert.ReferenceIdeal.main_arg0)
abbrev RefRes : Type := Buf (Elt Ideal) (((0 : Dev Cert.ReferenceIdeal.nD).tc : Thread Cert.ReferenceIdeal.nD Cert.ReferenceIdeal.τ).loc Cert.ReferenceIdeal.main_v0)

/-- The reference's result as a function of its argument: the sum over axis 0, from zero. -/
def refVal (Xw : RefArg) : RefRes := Cert.ReferenceIdeal.Read.val_main_v0 (F := Ideal) Xw

/-- The reference's run: its result ends at `refVal` of its argument, the argument unchanged. -/
theorem run_ri (m' : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r =>
      r.2.mem (((0 : Dev Cert.ReferenceIdeal.nD).tc : Thread Cert.ReferenceIdeal.nD Cert.ReferenceIdeal.τ).loc Cert.ReferenceIdeal.main_v0)
          = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ)

/-- An entry of the reference's result: the two entries of the argument above it, added. -/
private theorem refVal_apply (Xw : RefArg) (i : Cert.ReferenceIdeal.S8192x2048.Idx) :
    refVal Xw i = (show EReal from Xw (Cert.ReferenceIdeal.Read.idx_main_v0 i 0)) + (show EReal from Xw (Cert.ReferenceIdeal.Read.idx_main_v0 i 1)) := by
  have h := Cert.ReferenceIdeal.Read.val_main_v0_apply Xw i
  rw [Fin.sum_univ_two, Cert.ReferenceIdeal.Read.val_main_cst_apply] at h
  show Cert.ReferenceIdeal.Read.val_main_v0 (F := Ideal) Xw i = _
  rw [h]
  show Ideal.ofBits .f32 0x00000000#32 + _ = _
  rw [Ideal.ofBits_zero_f32, zero_add]

/-! ## Indices by coordinates -/

/-- Two indices of a rank-3 shape with the same coordinates are equal. -/
private theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext (by match a with | ⟨0, _⟩ => exact h0 | ⟨1, _⟩ => exact h1 | ⟨2, _⟩ => exact h2)

/-- The index of a [1, 64, 1024] block that an index of its [64, 1024] squeeze names: the same, behind a zero. -/
private theorem squeeze_idx (x : S64x1024.Idx) :
    Shape.reshapeEquiv squeezes_S1x64x1024_S64x1024.numel_eq x = (Fin.cons ⟨0, Nat.one_pos⟩ x : S1x64x1024.Idx) :=
  Shape.reshapeEquiv_cons_one (d := ![64, 1024]) _ x

/-- Where entry `x` of the block device `c` keeps for chunk `r` sits in its argument. -/
private theorem xB_emb_val (c : Dev nD) (r : Fin 64) (x : S64x1024.Idx) :
    (((xB c r).view.emb x : S1x8192x2048.Idx) 0 : ℕ) = 0
    ∧ (((xB c r).view.emb x : S1x8192x2048.Idx) 1 : ℕ) = 4096 * (c.val / 2) + 64 * r.val + (x 0).val
    ∧ (((xB c r).view.emb x : S1x8192x2048.Idx) 2 : ℕ) = 1024 * (c.val % 2) + (x 1).val := by
  have hx := squeeze_idx x
  have ho := k0_off1_eq c r
  refine ⟨?_, ?_, ?_⟩
  · show k0_off1 c (BitVec.ofNat 32 (64 * r.val)) 0 + 1 * ((Shape.reshapeEquiv squeezes_S1x64x1024_S64x1024.numel_eq x) 0 : ℕ) = _
    rw [ho, hx]; rfl
  · show k0_off1 c (BitVec.ofNat 32 (64 * r.val)) 1 + 1 * ((Shape.reshapeEquiv squeezes_S1x64x1024_S64x1024.numel_eq x) 1 : ℕ) = _
    rw [ho, hx]; show 4096 * (c.val / 2) + 64 * r.val + 1 * (x 0).val = _; omega
  · show k0_off1 c (BitVec.ofNat 32 (64 * r.val)) 2 + 1 * ((Shape.reshapeEquiv squeezes_S1x64x1024_S64x1024.numel_eq x) 2 : ℕ) = _
    rw [ho, hx]; show 1024 * (c.val % 2) + 1 * (x 1).val = _; omega

/-- Where entry `x` of the block device `c` sends to its column peer for chunk `r` sits in its argument. -/
private theorem xA_emb_val (c : Dev nD) (r : Fin 64) (x : S64x1024.Idx) :
    (((xA c r).view.emb x : S1x8192x2048.Idx) 0 : ℕ) = 0
    ∧ (((xA c r).view.emb x : S1x8192x2048.Idx) 1 : ℕ) = 4096 * (c.val / 2) + 64 * r.val + (x 0).val
    ∧ (((xA c r).view.emb x : S1x8192x2048.Idx) 2 : ℕ) = 1024 - 1024 * (c.val % 2) + (x 1).val := by
  have hx := squeeze_idx x
  have ho := k0_off2_eq c r
  refine ⟨?_, ?_, ?_⟩
  · show k0_off2 c (BitVec.ofNat 32 (64 * r.val)) 0 + 1 * ((Shape.reshapeEquiv squeezes_S1x64x1024_S64x1024.numel_eq x) 0 : ℕ) = _
    rw [ho, hx]; rfl
  · show k0_off2 c (BitVec.ofNat 32 (64 * r.val)) 1 + 1 * ((Shape.reshapeEquiv squeezes_S1x64x1024_S64x1024.numel_eq x) 1 : ℕ) = _
    rw [ho, hx]; show 4096 * (c.val / 2) + 64 * r.val + 1 * (x 0).val = _; omega
  · show k0_off2 c (BitVec.ofNat 32 (64 * r.val)) 2 + 1 * ((Shape.reshapeEquiv squeezes_S1x64x1024_S64x1024.numel_eq x) 2 : ℕ) = _
    rw [ho, hx]; show 1024 - 1024 * (c.val % 2) + 1 * (x 1).val = _; omega

/-- Where entry `x` of chunk `r` of device `c`'s sums sits in a result array. -/
private theorem oO_emb_val (c : Dev nD) (r : Fin 64) (x : S64x1024.Idx) :
    (((oO c r).view.emb x : S8192x1024.Idx) 0 : ℕ) = 4096 * (c.val / 2) + 64 * r.val + (x 0).val
    ∧ (((oO c r).view.emb x : S8192x1024.Idx) 1 : ℕ) = (x 1).val := by
  have ho := k0_off3_eq c r
  refine ⟨?_, ?_⟩
  · show k0_off3 c (BitVec.ofNat 32 (64 * r.val)) 0 + 1 * (x 0 : ℕ) = _
    rw [ho]; show 4096 * (c.val / 2) + 64 * r.val + 1 * (x 0).val = _; omega
  · show k0_off3 c (BitVec.ofNat 32 (64 * r.val)) 1 + 1 * (x 1 : ℕ) = _
    rw [ho]; show 0 + 1 * (x 1).val = _; omega

/-! ## The mesh's block coordinates -/

/-- A dimension cut along the mesh's column axis: device `n` holds block `n % 2`. -/
private theorem meshLin_col (n : ℕ) : Layout.meshLin [2, 2] n [1] = n % 2 := by
  simp [Layout.meshLin, Layout.meshCoord, Layout.cutSize]

/-- A dimension that is not cut: one block. -/
private theorem meshLin_nil (n : ℕ) : Layout.meshLin [2, 2] n [] = 0 := rfl

/-! ## Reads at an index -/

/-- An entry of device `c`'s argument block is the entry of the whole array in block `c % 2` of axis 0. -/
private theorem X_apply (Xw : RefArg) (m : (ℓ : Loc nD τ sig) → Buf (Elt Ideal) ℓ)
    (hagree : ∀ c : Dev nD, m ((c.tc : Thread nD τ).loc main_arg0)
      = Layout.blockN ⟨3, ![1, 8192, 2048]⟩ ⟨3, ![2, 8192, 2048]⟩ (Layout.meshBlock [2, 2] ![[1], [], []] c) Xw)
    (c : Dev nD) (J : S1x8192x2048.Idx) (K : Cert.ReferenceIdeal.S2x8192x2048.Idx)
    (h0 : (K 0 : ℕ) = c.val % 2) (h1 : (K 1 : ℕ) = (J 1 : ℕ)) (h2 : (K 2 : ℕ) = (J 2 : ℕ)) :
    X m c J = Xw K := by
  show m ((c.tc : Thread nD τ).loc main_arg0) J = Xw K
  rw [hagree c]
  show Xw _ = Xw K
  have hJ : (J 0 : ℕ) < 1 := (J 0).isLt
  refine congrArg Xw (idx_ext₃ ?_ ?_ ?_)
  · show Layout.meshLin [2, 2] c.val [1] * 1 + (J 0 : ℕ) = (K 0 : ℕ)
    rw [meshLin_col, h0]; omega
  · show Layout.meshLin [2, 2] c.val [] * 8192 + (J 1 : ℕ) = (K 1 : ℕ)
    rw [meshLin_nil, h1]; omega
  · show Layout.meshLin [2, 2] c.val [] * 2048 + (J 2 : ℕ) = (K 2 : ℕ)
    rw [meshLin_nil, h2]; omega

/-- An entry of chunk `r` of device `c`'s sums: the entry its column peer sent plus the entry it kept. -/
private theorem sVal_apply (m : (ℓ : Loc nD τ sig) → Buf (Elt Ideal) ℓ) (c : Dev nD) (r : Fin 64) (x : S64x1024.Idx) :
    sVal m c r x = (show EReal from X m (yp c) ((xA (yp c) r).view.emb x)) + (show EReal from X m c ((xB c r).view.emb x)) := rfl

/-! ## The bridge -/

/-- Two indices of a rank-2 shape with the same coordinates are equal. -/
private theorem idx_ext₂ {n : Fin 2 → ℕ} {x y : (a : Fin 2) → Fin (n a)} (h0 : (x 0 : ℕ) = y 0) (h1 : (x 1 : ℕ) = y 1) : x = y :=
  funext fun a => Fin.ext (by match a with | ⟨0, _⟩ => exact h0 | ⟨1, _⟩ => exact h1)

/-- Entry `x` of chunk `r` of device `c`'s sums is the reference's entry at the row and column it stands for:
    the device's own block of axis 0 and its column peer's are the two blocks, and the sum of two extended reals does
    not depend on the order. -/
private theorem sVal_eq_refVal (Xw : RefArg) (m : (ℓ : Loc nD τ sig) → Buf (Elt Ideal) ℓ)
    (hagree : ∀ c : Dev nD, m ((c.tc : Thread nD τ).loc main_arg0)
      = Layout.blockN ⟨3, ![1, 8192, 2048]⟩ ⟨3, ![2, 8192, 2048]⟩ (Layout.meshBlock [2, 2] ![[1], [], []] c) Xw)
    (c : Dev nD) (r : Fin 64) (x : S64x1024.Idx) (I : Cert.ReferenceIdeal.S8192x2048.Idx)
    (h0 : (I 0 : ℕ) = 4096 * (c.val / 2) + 64 * r.val + (x 0 : ℕ)) (h1 : (I 1 : ℕ) = 1024 * (c.val % 2) + (x 1 : ℕ)) :
    sVal m c r x = refVal Xw I := by
  obtain ⟨a0, a1, a2⟩ := xA_emb_val (yp c) r x
  obtain ⟨b0, b1, b2⟩ := xB_emb_val c r x
  have hy : (yp c).val = 2 * (c.val / 2) + 1 - c.val % 2 := rfl
  have hc : c.val < 4 := c.isLt
  have hx1 : (x 1 : ℕ) < 1024 := idx2_lt1 x
  refine (sVal_apply m c r x).trans (Eq.trans ?_ (refVal_apply Xw I).symm)
  rcases Nat.mod_two_eq_zero_or_one c.val with hz | ho
  · -- column 0: the entry kept is block 0's, the entry received block 1's
    have eA := X_apply Xw m hagree (yp c) ((xA (yp c) r).view.emb x) (Cert.ReferenceIdeal.Read.idx_main_v0 I 1)
      (by show 1 = _; omega) (by show (I 0 : ℕ) = _; omega) (by show (I 1 : ℕ) = _; omega)
    have eB := X_apply Xw m hagree c ((xB c r).view.emb x) (Cert.ReferenceIdeal.Read.idx_main_v0 I 0)
      (by show 0 = _; omega) (by show (I 0 : ℕ) = _; omega) (by show (I 1 : ℕ) = _; omega)
    exact (congrArg₂ (fun a b : EReal => a + b) eA eB).trans (add_comm (G := EReal) _ _)
  · -- column 1: the entry received is block 0's, the entry kept block 1's
    have eA := X_apply Xw m hagree (yp c) ((xA (yp c) r).view.emb x) (Cert.ReferenceIdeal.Read.idx_main_v0 I 0)
      (by show 0 = _; omega) (by show (I 0 : ℕ) = _; omega) (by show (I 1 : ℕ) = _; omega)
    have eB := X_apply Xw m hagree c ((xB c r).view.emb x) (Cert.ReferenceIdeal.Read.idx_main_v0 I 1)
      (by show 1 = _; omega) (by show (I 0 : ℕ) = _; omega) (by show (I 1 : ℕ) = _; omega)
    exact congrArg₂ (fun a b : EReal => a + b) eA eB

/-- THE VALUE BRIDGE. If every device's argument is its block of the whole array, and every device's result holds, in the
    rows of its own row-half, its own sums and, in the rows of the other row-half, its row peer's sums, then every device's
    result is its column block of the reference's result. Row `i` is `4096 a + 64 r + k`: it is row `k` of chunk `r`
    of the device of mesh row `a` in this column. -/
theorem value_bridge (Xw : RefArg) (m : (ℓ : Loc nD τ sig) → Buf (Elt Ideal) ℓ)
    (hagree : ∀ c : Dev nD, m ((c.tc : Thread nD τ).loc main_arg0)
      = Layout.blockN ⟨3, ![1, 8192, 2048]⟩ ⟨3, ![2, 8192, 2048]⟩ (Layout.meshBlock [2, 2] ![[1], [], []] c) Xw)
    (out : (c : Dev nD) → Buf (Elt Ideal) ((c.tc : Thread nD τ).loc main_v1))
    (hO : ∀ (c : Dev nD) (r : Fin 64), (oO c r).view.read (Elt Ideal) (out c) = sVal m c r)
    (hP : ∀ (c : Dev nD) (r : Fin 64), (oO (xp c) r).view.read (Elt Ideal) (out c) = sVal m (xp c) r) :
    ∀ c : Dev nD, out c = Layout.blockN ⟨2, ![8192, 1024]⟩ ⟨2, ![8192, 2048]⟩ (Layout.meshBlock [2, 2] ![[], [1]] c) (refVal Xw) := by
  intro c
  refine funext fun (i : S8192x1024.Idx) => ?_
  have hi0 : (i 0 : ℕ) < 8192 := idx2_lt0 i
  have hi1 : (i 1 : ℕ) < 1024 := idx2_lt1 i
  have hc : c.val < 4 := c.isLt
  have hxp : (xp c).val = c.val % 2 + 2 - 2 * (c.val / 2) := rfl
  -- the chunk and the place in it
  obtain ⟨r, hr⟩ : ∃ r : Fin 64, r.val = (i 0 : ℕ) % 4096 / 64 := ⟨⟨(i 0 : ℕ) % 4096 / 64, by omega⟩, rfl⟩
  obtain ⟨x, hx0, hx1⟩ : ∃ x : S64x1024.Idx, (x 0 : ℕ) = (i 0 : ℕ) % 64 ∧ (x 1 : ℕ) = (i 1 : ℕ) :=
    ⟨ix2 ⟨(i 0 : ℕ) % 64, by omega⟩ ⟨(i 1 : ℕ), hi1⟩, rfl, rfl⟩
  -- the reference's entry
  show out c i = refVal Xw (Layout.TilesN.idx _ (Layout.meshBlock [2, 2] ![[], [1]] c) i)
  have hI0 : ((Layout.TilesN.idx (S := ⟨2, ![8192, 1024]⟩) (T := ⟨2, ![8192, 2048]⟩) (by decide) (Layout.meshBlock [2, 2] ![[], [1]] c) i) 0 : ℕ) = (i 0 : ℕ) := by
    show Layout.meshLin [2, 2] c.val [] * 8192 + (i 0 : ℕ) = _
    rw [meshLin_nil]; omega
  have hI1 : ((Layout.TilesN.idx (S := ⟨2, ![8192, 1024]⟩) (T := ⟨2, ![8192, 2048]⟩) (by decide) (Layout.meshBlock [2, 2] ![[], [1]] c) i) 1 : ℕ) = 1024 * (c.val % 2) + (i 1 : ℕ) := by
    show Layout.meshLin [2, 2] c.val [1] * 1024 + (i 1 : ℕ) = _
    rw [meshLin_col]; omega
  by_cases ha : (i 0 : ℕ) / 4096 = c.val / 2
  · -- a row of the device's own row-half
    obtain ⟨e0, e1⟩ := oO_emb_val c r x
    have hemb : ((oO c r).view.emb x : S8192x1024.Idx) = i := idx_ext₂ (by rw [e0]; omega) (by rw [e1]; omega)
    have hout : out c i = sVal m c r x := (congrArg (out c) hemb.symm).trans (congrFun (hO c r) x)
    rw [hout]
    exact sVal_eq_refVal Xw m hagree c r x _ (by rw [hI0]; omega) (by rw [hI1]; omega)
  · -- a row of the other row-half: the row peer's sums
    obtain ⟨e0, e1⟩ := oO_emb_val (xp c) r x
    have hemb : ((oO (xp c) r).view.emb x : S8192x1024.Idx) = i := idx_ext₂ (by rw [e0]; omega) (by rw [e1]; omega)
    have hout : out c i = sVal m (xp c) r x := (congrArg (out c) hemb.symm).trans (congrFun (hP c r) x)
    rw [hout]
    exact sVal_eq_refVal Xw m hagree (xp c) r x _ (by rw [hI0]; omega) (by rw [hI1]; omega)

/-- info: 'Cert.KernelIdeal.RS.value_bridge' depends on axioms: [propext, Classical.choice, Quot.sound] -/
#guard_msgs in #print axioms value_bridge
/-- info: 'Cert.KernelIdeal.RS.run_ri' depends on axioms: [propext, Classical.choice, Quot.sound] -/
#guard_msgs in #print axioms run_ri
/-- info: 'Cert.KernelIdeal.RS.frame_ri' depends on axioms: [propext, Classical.choice, Quot.sound] -/
#guard_msgs in #print axioms frame_ri

end Cert.KernelIdeal.RS

end
-- ==== Proof.RsKernelIdeal.Proto.lean ====
/-
  The protocol of the reduce-scatter, as a schedule of rounds. Per device: the barrier cell (one round, two unit
  duties: one from the column peer, one from the row peer), and six families of copy cells indexed by the chunk:
  the column send and receive cells, the row send and receive cells, the result-copy cells (one round of one duty
  each), and the two staging cells (32 rounds of one duty each: chunk 2·R + s completes round R of slot s).
  Each duty's payload says what its landing hands the cell's owner, with the CONTENTS: a receive hands over the rows
  written, holding the sender's block or its sums; a send hands the source back; the barrier hands over the peer's
  landing rows, free to be written.
-/
import proofs.«900313_g7700000000000314_dist_rs_v7x_xy2x2_y_m8192_n1024_f32_1_alg».proof.Proof.RsKernelIdeal.Mem
import proofs.«900313_g7700000000000314_dist_rs_v7x_xy2x2_y_m8192_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The runtime's barrier semaphore of collective id 0. -/
abbrev barS : Sem sig := (SemArray.scalar (sig.barrier 0 rfl) : Sems sig S_).sem

abbrev barC (c : Dev nD) : GSem nD τ sig := ((c : Thread nD τ), .reg barS)
abbrev ysendQ (r : Fin 64) : DmaSem sig := ⟨r.val, by show r.val < 322; have := r.isLt; omega⟩
abbrev yrecvQ (r : Fin 64) : DmaSem sig := ⟨64 + r.val, by show 64 + r.val < 322; have := r.isLt; omega⟩
abbrev xsendQ (r : Fin 64) : DmaSem sig := ⟨128 + r.val, by show 128 + r.val < 322; have := r.isLt; omega⟩
abbrev xrecvQ (r : Fin 64) : DmaSem sig := ⟨192 + r.val, by show 192 + r.val < 322; have := r.isLt; omega⟩
abbrev cpinQ (s : Fin 2) : DmaSem sig := ⟨256 + s.val, by show 256 + s.val < 322; have := s.isLt; omega⟩
abbrev cpoutQ (r : Fin 64) : DmaSem sig := ⟨258 + r.val, by show 258 + r.val < 322; have := r.isLt; omega⟩
abbrev ysendC (c : Dev nD) (r : Fin 64) : GSem nD τ sig := ((c : Thread nD τ), .dma (ysendQ r))
abbrev yrecvC (c : Dev nD) (r : Fin 64) : GSem nD τ sig := ((c : Thread nD τ), .dma (yrecvQ r))
abbrev xsendC (c : Dev nD) (r : Fin 64) : GSem nD τ sig := ((c : Thread nD τ), .dma (xsendQ r))
abbrev xrecvC (c : Dev nD) (r : Fin 64) : GSem nD τ sig := ((c : Thread nD τ), .dma (xrecvQ r))
abbrev cpinC (c : Dev nD) (s : Fin 2) : GSem nD τ sig := ((c : Thread nD τ), .dma (cpinQ s))
abbrev cpoutC (c : Dev nD) (r : Fin 64) : GSem nD τ sig := ((c : Thread nD τ), .dma (cpoutQ r))

/-- The credit of one chunk's copy: every copy of the kernel moves one 64 × 1024 block of f32. -/
abbrev N : ℕ := (rS 0).view.dmaCredit
theorem N_pos : 0 < N := View.dmaCredit_pos _ (by decide)

/-- The chunk a staging slot's round serves. -/
def chunkOf (s : Fin 2) (R : ℕ) (h : R < 32) : Fin 64 := ⟨2 * R + s.val, by have := s.isLt; omega⟩

/-! ## What each landing hands over -/

/-- The column send cell: the block sent comes back. -/
def ysendPay (c : Dev nD) (r : Fin 64) : sProp 𝕄 :=
  (xA c r).view.loc (c : Thread nD τ) ↦[(xA c r).view.set]{fullShare} X m c
/-- The column receive cell: the landing rows, holding the column peer's block. -/
def yrecvPay (c : Dev nD) (r : Fin 64) : sProp 𝕄 := owns (c : Thread nD τ) (rS r) fullShare (yVal m c r)
/-- The row send cell: one half of the summed rows comes back. -/
def xsendPay (c : Dev nD) (r : Fin 64) : sProp 𝕄 := owns (c : Thread nD τ) (rS r) fullShare.left (sVal m c r)
/-- The row receive cell: the result rows of the row peer's chunk, holding the row peer's sums. -/
def xrecvPay (c : Dev nD) (r : Fin 64) : sProp 𝕄 := owns (c : Thread nD τ) (oO (xp c) r) fullShare (sVal m (xp c) r)
/-- The result-copy cell: the result rows of the own chunk holding the sums, and the other half of the summed rows. -/
def cpoutPay (c : Dev nD) (r : Fin 64) : sProp 𝕄 :=
  iprop(owns (c : Thread nD τ) (oO c r) fullShare (sVal m c r) ∗ owns (c : Thread nD τ) (rS r) fullShare.right (sVal m c r))
/-- A staging cell, round `R`: the slot holding the kept block of chunk `2 R + s`, and that block of the argument back. -/
def cpinPay (c : Dev nD) (s : Fin 2) (R : ℕ) : sProp 𝕄 :=
  if h : R < 32 then
    iprop(owns (c : Thread nD τ) (lS s) fullShare (bVal m c (chunkOf s R h))
      ∗ ((xB c (chunkOf s R h)).view.loc (c : Thread nD τ) ↦[(xB c (chunkOf s R h)).view.set]{fullShare} X m c))
  else iprop(emp)
/-- The barrier cell's duty from the column peer `p`: `p`'s landing rows, free, and that `p` is at round 0 of its receive cells. -/
def barPayY (c : Dev nD) : sProp 𝕄 :=
  bigSep Finset.univ fun r : Fin 64 =>
    iprop((∃ f, (rS r).view.loc (yp c : Thread nD τ) ↦[(rS r).view.set]{fullShare} f) ∗ reached ER (yrecvC (yp c) r) 0)
/-- The barrier cell's duty from the row peer `p`: the rows of `p`'s result where this device's sums go, free, and that `p`
    is at round 0 of its row receive cells. -/
def barPayX (c : Dev nD) : sProp 𝕄 :=
  bigSep Finset.univ fun r : Fin 64 =>
    iprop((∃ f, (oO c r).view.loc (xp c : Thread nD τ) ↦[(oO c r).view.set]{fullShare} f) ∗ reached ER (xrecvC (xp c) r) 0)

/-! ## The schedule -/

/-- The payload of a copy cell, by the position of its semaphore in the pool. -/
def dmaPay (c : Dev nD) (q : ℕ) (R : ℕ) : sProp 𝕄 :=
  if h : q < 64 then ysendPay m c ⟨q, h⟩
  else if h : q < 128 then yrecvPay m c ⟨q - 64, by omega⟩
  else if h : q < 192 then xsendPay m c ⟨q - 128, by omega⟩
  else if h : q < 256 then xrecvPay m c ⟨q - 192, by omega⟩
  else if h : q < 258 then cpinPay m c ⟨q - 256, by omega⟩ R
  else if h : q < 322 then cpoutPay m c ⟨q - 258, by omega⟩
  else iprop(emp)

def sched : Rounds.Schedule (GSem nD τ sig) Bool 𝕄 where
  duties g R :=
    if g.1.2 = .tc then
      match g.2 with
      | .reg s => if s = barS ∧ R = 0 then Finset.univ else ∅
      | .dma q => if 256 ≤ q.val ∧ q.val < 258 then (if R < 32 then {false} else ∅) else (if R = 0 then {false} else ∅)
    else ∅
  unitless _ := False
  amount g _ _ := match g.2 with | .reg _ => 1 | .dma _ => N
  payload g R d :=
    match g.2 with
    | .reg s => if s = barS then (if d then barPayX (F := F) g.1.1 else barPayY (F := F) g.1.1) else iprop(emp)
    | .dma q => dmaPay m g.1.1 q.val R
  amount_pos g _ _ _ := by
    cases g.2 with
    | reg _ => exact Nat.one_pos
    | dma _ => exact N_pos

/-! ## The schedule's tables, cell by cell -/

section Tables
variable (c : Dev nD) (r : Fin 64) (s : Fin 2)

theorem dmaPay_ysend (R : ℕ) : dmaPay m c r.val R = ysendPay m c r := by
  have := r.isLt; unfold dmaPay; rw [dif_pos this]
theorem dmaPay_yrecv (R : ℕ) : dmaPay m c (64 + r.val) R = yrecvPay m c r := by
  have := r.isLt; unfold dmaPay
  rw [dif_neg (by omega), dif_pos (show 64 + r.val < 128 by omega)]
  exact congrArg (yrecvPay m c) (Fin.ext (Nat.add_sub_cancel_left ..))
theorem dmaPay_xsend (R : ℕ) : dmaPay m c (128 + r.val) R = xsendPay m c r := by
  have := r.isLt; unfold dmaPay
  rw [dif_neg (by omega), dif_neg (by omega), dif_pos (show 128 + r.val < 192 by omega)]
  exact congrArg (xsendPay m c) (Fin.ext (Nat.add_sub_cancel_left ..))
theorem dmaPay_xrecv (R : ℕ) : dmaPay m c (192 + r.val) R = xrecvPay m c r := by
  have := r.isLt; unfold dmaPay
  rw [dif_neg (by omega), dif_neg (by omega), dif_neg (by omega), dif_pos (show 192 + r.val < 256 by omega)]
  exact congrArg (xrecvPay m c) (Fin.ext (Nat.add_sub_cancel_left ..))
theorem dmaPay_cpin (R : ℕ) : dmaPay m c (256 + s.val) R = cpinPay m c s R := by
  have := s.isLt; unfold dmaPay
  rw [dif_neg (by omega), dif_neg (by omega), dif_neg (by omega), dif_neg (by omega), dif_pos (show 256 + s.val < 258 by omega)]
  exact congrArg (fun t => cpinPay m c t R) (Fin.ext (Nat.add_sub_cancel_left ..))
theorem dmaPay_cpout (R : ℕ) : dmaPay m c (258 + r.val) R = cpoutPay m c r := by
  have := r.isLt; unfold dmaPay
  rw [dif_neg (by omega), dif_neg (by omega), dif_neg (by omega), dif_neg (by omega), dif_neg (by omega), dif_pos (show 258 + r.val < 322 by omega)]
  exact congrArg (cpoutPay m c) (Fin.ext (Nat.add_sub_cancel_left ..))

theorem payload_bar_y : (sched (F := F) m).payload (barC c) 0 false = barPayY c := by
  dsimp only [sched]; rw [if_pos rfl]; exact if_neg Bool.false_ne_true
theorem payload_bar_x : (sched (F := F) m).payload (barC c) 0 true = barPayX c := by
  dsimp only [sched]; rw [if_pos rfl, if_pos rfl]
theorem payload_ysend (R : ℕ) (d : Bool) : (sched (F := F) m).payload (ysendC c r) R d = ysendPay m c r := dmaPay_ysend m c r R
theorem payload_yrecv (R : ℕ) (d : Bool) : (sched (F := F) m).payload (yrecvC c r) R d = yrecvPay m c r := dmaPay_yrecv m c r R
theorem payload_xsend (R : ℕ) (d : Bool) : (sched (F := F) m).payload (xsendC c r) R d = xsendPay m c r := dmaPay_xsend m c r R
theorem payload_xrecv (R : ℕ) (d : Bool) : (sched (F := F) m).payload (xrecvC c r) R d = xrecvPay m c r := dmaPay_xrecv m c r R
theorem payload_cpin (R : ℕ) (d : Bool) : (sched (F := F) m).payload (cpinC c s) R d = cpinPay m c s R := dmaPay_cpin m c s R
theorem payload_cpout (R : ℕ) (d : Bool) : (sched (F := F) m).payload (cpoutC c r) R d = cpoutPay m c r := dmaPay_cpout m c r R

theorem duties_bar : (sched (F := F) m).duties (barC c) 0 = Finset.univ := by
  dsimp only [sched]; rw [if_pos rfl]; exact if_pos ⟨rfl, rfl⟩
theorem duties_ysend : (sched (F := F) m).duties (ysendC c r) 0 = {false} := by
  have := r.isLt; dsimp only [sched]; rw [if_pos rfl, if_neg (by omega)]; exact if_pos rfl
theorem duties_yrecv : (sched (F := F) m).duties (yrecvC c r) 0 = {false} := by
  have := r.isLt; dsimp only [sched]; rw [if_pos rfl, if_neg (by omega)]; exact if_pos rfl
theorem duties_xsend : (sched (F := F) m).duties (xsendC c r) 0 = {false} := by
  have := r.isLt; dsimp only [sched]; rw [if_pos rfl, if_neg (by omega)]; exact if_pos rfl
theorem duties_xrecv : (sched (F := F) m).duties (xrecvC c r) 0 = {false} := by
  have := r.isLt; dsimp only [sched]; rw [if_pos rfl, if_neg (by omega)]; exact if_pos rfl
theorem duties_cpout : (sched (F := F) m).duties (cpoutC c r) 0 = {false} := by
  have := r.isLt; dsimp only [sched]; rw [if_pos rfl, if_neg (by omega)]; exact if_pos rfl
theorem duties_cpin (R : ℕ) (h : R < 32) : (sched (F := F) m).duties (cpinC c s) R = {false} := by
  have := s.isLt; dsimp only [sched]; rw [if_pos rfl, if_pos (by omega)]; exact if_pos h

/-- A cell that is no staging cell has one round. -/
theorem duties_later_of_not_cpin (g : GSem nD τ sig) (hg : ∀ q, g.2 = .dma q → ¬ (256 ≤ q.val ∧ q.val < 258)) :
    ∀ R, 1 ≤ R → (sched (F := F) m).duties g R = ∅ := by
  intro R hR
  dsimp only [sched]
  split
  · rcases hg2 : g.2 with sm | q
    · simp only []; rw [if_neg (fun h => by omega)]
    · simp only []; rw [if_neg (hg q hg2), if_neg (by omega)]
  · rfl
/-- A staging cell has 32 rounds. -/
theorem duties_later_cpin : ∀ R, 32 ≤ R → (sched (F := F) m).duties (cpinC c s) R = ∅ := by
  intro R hR
  have := s.isLt; dsimp only [sched]; rw [if_pos rfl, if_pos (by omega)]; exact if_neg (by omega)

theorem amount_bar (R : ℕ) (d : Bool) : (sched (F := F) m).amount (barC c) R d = 1 := rfl
theorem amount_dma (q : DmaSem sig) (R : ℕ) (d : Bool) : (sched (F := F) m).amount ((c : Thread nD τ), .dma q) R d = N := rfl

theorem expect_bar : (sched (F := F) m).expect (barC c) 0 = 2 := by
  unfold Schedule.expect Schedule.amountOf
  rw [duties_bar, Finset.sum_congr rfl fun d _ => amount_bar m c 0 d, Finset.sum_const, Finset.card_univ, Fintype.card_bool, smul_eq_mul]
theorem expect_of_single (q : DmaSem sig) (R : ℕ) (h : (sched (F := F) m).duties ((c : Thread nD τ), .dma q) R = {false}) :
    (sched (F := F) m).expect ((c : Thread nD τ), .dma q) R = N := by
  unfold Schedule.expect Schedule.amountOf; rw [h, Finset.sum_singleton]; rfl

/-- The rest of a one-duty round, nothing taken yet, is that duty's payload. -/
theorem rest_of_single (g : GSem nD τ sig) (R : ℕ) (h : (sched (F := F) m).duties g R = {false}) :
    bigSep ((sched (F := F) m).duties g R \ ∅) (fun d => (sched (F := F) m).payload g R d) = (sched (F := F) m).payload g R false := by
  rw [Finset.sdiff_empty, h, bigSep_singleton]
/-- The rest of the barrier's round, nothing taken yet: both peers' payloads. -/
theorem rest_bar : bigSep ((sched (F := F) m).duties (barC c) 0 \ ∅) (fun d => (sched (F := F) m).payload (barC c) 0 d) = iprop(barPayY c ∗ barPayX c) := by
  rw [Finset.sdiff_empty, duties_bar, bigSep_univ_eq_bigSepL [false, true] (by decide) (by decide), bigSepL_cons_cons, bigSepL_singleton,
    payload_bar_y, payload_bar_x]
  rfl

end Tables

instance sched_payload_storable (g : GSem nD τ sig) (R : ℕ) (d : Bool) :
    BI.Storable (upEmb : UEmb _ 𝕄) ((sched (F := F) m).payload g R d) := by
  dsimp only [sched]
  unfold dmaPay ysendPay yrecvPay xsendPay xrecvPay cpinPay cpoutPay barPayX barPayY
  (repeat' split) <;> infer_instance

end Cert.KernelIdeal.RS

end
-- ==== Proof.RsKernelIdeal.Tally.lean ====
/-
  What a device owes its peers, as tallies over the chunks still to send, and the levels that order the waits:
  barrier cells below the column receive cells below the row receive cells; every other cell at the bottom.
-/
import proofs.«900313_g7700000000000314_dist_rs_v7x_xy2x2_y_m8192_n1024_f32_1_alg».proof.Proof.RsKernelIdeal.Proto

noncomputable section

namespace Cert.KernelIdeal.RS

open Cert.KernelIdeal Cert.KernelIdeal.Gen
open Idealize.ShloMosaic Idealize.ShloMosaic.TcCoe
open Idealize.SL Idealize.SL.Sem

/-- The chunks from `k` on, and the chunks before `k`. -/
def fromK (k : ℕ) : Finset (Fin 64) := Finset.univ.filter (fun x => k ≤ x.val)
def uptoK (k : ℕ) : Finset (Fin 64) := Finset.univ.filter (fun x => x.val < k)

/-- What device `c` still owes its column peer's receive cells when chunks `k …` are yet to be sent; the same for its row peer. -/
def Oy (c : Dev nD) (k : ℕ) : CellTallies nD τ sig Unit := ∑ r ∈ fromK k, tallyAt (yrecvC (yp c) r) () N
def Ox (c : Dev nD) (k : ℕ) : CellTallies nD τ sig Unit := ∑ r ∈ fromK k, tallyAt (xrecvC (xp c) r) () N
/-- What device `c` owes at launch: every chunk to both peers, and one unit to each peer's barrier cell. -/
def O₀ (c : Dev nD) : CellTallies nD τ sig Unit := ((Oy c 0 + Ox c 0) + tallyAt (barC (xp c)) () 1) + tallyAt (barC (yp c)) () 1

def L (g : GSem nD τ sig) : Finset Unit := if g.1.2 = .tc then {()} else ∅
def lv (g : GSem nD τ sig) (_ : Unit) : ℕ :=
  match g.2 with
  | .reg _ => 1
  | .dma q => if 64 ≤ q.val ∧ q.val < 128 then 2 else if 192 ≤ q.val ∧ q.val < 256 then 3 else 0

end Cert.KernelIdeal.RS

end
-- ==== Proof.RsKernelIdeal.Regions.lean ====
/-
  Reduce-scatter over a 2×2 mesh, the regions. A device's four buffers cut into the chunk regions the copies move, and
  glued back: the receive buffer into its 64 row blocks, the staging buffer into its two slots, the result into the 64
  row blocks of the device's own row-half and the 64 of the other row-half, the argument into the 64 blocks it sends,
  the 64 blocks it keeps, and the other row-half, which nothing touches.
-/
import proofs.«900313_g7700000000000314_dist_rs_v7x_xy2x2_y_m8192_n1024_f32_1_alg».proof.Proof.RsKernelIdeal.Mem
import Idealize.ShloMosaic.Lib.Memref

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-! ## Gluing regions of one buffer -/

section Glue

variable {ℓ : Loc nD τ sig} {q : PosShare TreeShare}

/-- Pairwise disjoint regions of one buffer, each held at some contents, are their union held at some contents
    (given some contents to name where there is no region). -/
theorem glue_aux {T : Type} (S : Finset T) (K : T → Finset (Idx ℓ)) (f₀ : Buf (Elt F) ℓ)
    (h : ∀ t ∈ S, ∀ t' ∈ S, t ≠ t' → Disjoint (K t) (K t')) :
    bigSep S (fun t => (iprop(∃ f, ℓ ↦[K t]{q} f) : sProp 𝕄)) ⊢ (iprop(∃ g, ℓ ↦[S.biUnion K]{q} g) : sProp 𝕄) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f, ℓ ↦[K t]{q} f) ∗ bigSep S (fun t => (iprop(∃ f, ℓ ↦[K t]{q} f) : sProp 𝕄))) ⊢ _ from ?_)
    iintro ⟨Ht, HS⟩
    ihave H := (ih fun t₁ h₁ t₂ h₂ => h t₁ (Finset.mem_insert_of_mem h₁) t₂ (Finset.mem_insert_of_mem h₂)) $$ HS
    icases H with ⟨%g, HS⟩
    icases Ht with ⟨%ft, Ht⟩
    iexists (S.biUnion K).piecewise g ft
    iapply (pointsTo_join hd)
    isplitl [Ht]; · iexact Ht
    iexact HS

/-- The same over a family that has a member, whose contents name the rest. -/
theorem glue {T : Type} [DecidableEq T] (S : Finset T) (K : T → Finset (Idx ℓ)) {t₀ : T} (ht₀ : t₀ ∈ S)
    (h : ∀ t ∈ S, ∀ t' ∈ S, t ≠ t' → Disjoint (K t) (K t')) :
    bigSep S (fun t => (iprop(∃ f, ℓ ↦[K t]{q} f) : sProp 𝕄)) ⊢ (iprop(∃ g, ℓ ↦[S.biUnion K]{q} g) : sProp 𝕄) := by
  rw [bigSep_erase ht₀]
  have hu : S.biUnion K = K t₀ ∪ (S.erase t₀).biUnion K := by
    rw [← Finset.biUnion_insert, Finset.insert_erase ht₀]
  have hd : Disjoint (K t₀) ((S.erase t₀).biUnion K) :=
    (Finset.disjoint_biUnion_right _ _ _).mpr fun t' ht' =>
      h t₀ ht₀ t' (Finset.mem_of_mem_erase ht') (fun e => Finset.ne_of_mem_erase ht' e.symm)
  refine (show iprop((∃ f, ℓ ↦[K t₀]{q} f) ∗ bigSep (S.erase t₀) (fun t => (iprop(∃ f, ℓ ↦[K t]{q} f) : sProp 𝕄))) ⊢ _ from ?_)
  iintro ⟨H0, HS⟩
  icases H0 with ⟨%f0, H0⟩
  ihave H := (glue_aux (F := F) (U := U) (q := q) (S.erase t₀) K f0 fun t₁ h₁ t₂ h₂ =>
    h t₁ (Finset.mem_of_mem_erase h₁) t₂ (Finset.mem_of_mem_erase h₂)) $$ HS
  icases H with ⟨%g, HS⟩
  iexists ((S.erase t₀).biUnion K).piecewise g f0
  rw [hu]
  iapply (pointsTo_join hd)
  isplitl [H0]; · iexact H0
  iexact HS

end Glue

/-! ## The receive buffer: 64 blocks of 64 rows -/

theorem rS_set (r : Fin 64) : (rS r).view.set = (rRect r).set := View.set_slice_whole cc0_scratch0 (rRect r)

/-- Different chunks' rows are disjoint. -/
theorem rRect_disjoint (r r' : Fin 64) (h : r ≠ r') : Disjoint (rRect r).set (rRect r').set := by
  refine Rect.unit_disjoint 0 ?_
  have : r.val ≠ r'.val := fun e => h (Fin.ext e)
  simp; omega

theorem rS_disjoint (r r' : Fin 64) (h : r ≠ r') : Disjoint (rS r).view.set (rS r').view.set := by
  rw [rS_set, rS_set]; exact rRect_disjoint r r' h

/-- The chunks' rows are all the rows. -/
theorem rRect_cover : (Finset.univ : Finset (Fin 64)).biUnion (fun r => (rRect r).set) = Finset.univ := by
  ext i
  simp only [Finset.mem_biUnion, Finset.mem_univ, true_and, iff_true]
  have hi : (i 0).val < 4096 := (i 0).isLt
  have hj : (i 1).val < 1024 := (i 1).isLt
  refine ⟨⟨(i 0).val / 64, by omega⟩, ?_⟩
  rw [Rect.mem_set_unit]
  intro a; fin_cases a <;> simp <;> omega

theorem rS_cover : @Finset.biUnion (Fin 64) cc0_scratch0.ty.Idx _ Finset.univ (fun r => (rS r).view.set) = Finset.univ := by
  rw [show (fun r : Fin 64 => ((rS r).view.set : Finset cc0_scratch0.ty.Idx)) = fun r => (rRect r).set from funext rS_set]; exact rRect_cover

theorem recv_split (c : Dev nD) (f : Buf (Elt F) ((c : Thread nD τ).loc cc0_scratch0)) :
    (((c : Thread nD τ).loc cc0_scratch0) ↦{fullShare} f : sProp 𝕄)
      ⊢ bigSep Finset.univ (fun r : Fin 64 => (rS r).view.loc (c : Thread nD τ) ↦[(rS r).view.set]{fullShare} f) := by
  have h := pointsTo_biUnion (Ix := Unit) (Val := Elt F) (Name := ℕ) (U := U) (Lvl := ℕ)
    (ℓ := (c : Thread nD τ).loc cc0_scratch0) (q := fullShare) (f := f) Finset.univ (fun r : Fin 64 => (rS r).view.set)
    (fun r _ r' _ h => rS_disjoint r r' h)
  rw [rS_cover] at h
  exact Entails.of_eq h

theorem recv_join (c : Dev nD) :
    bigSep Finset.univ (fun r : Fin 64 => (iprop(∃ f, (rS r).view.loc (c : Thread nD τ) ↦[(rS r).view.set]{fullShare} f) : sProp 𝕄))
      ⊢ (iprop(∃ f, ((c : Thread nD τ).loc cc0_scratch0) ↦{fullShare} f) : sProp 𝕄) := by
  have h := glue (F := F) (U := U) (ℓ := (c : Thread nD τ).loc cc0_scratch0) (q := fullShare) Finset.univ
    (fun r : Fin 64 => (rS r).view.set) (Finset.mem_univ 0) (fun r _ r' _ h => rS_disjoint r r' h)
  rw [rS_cover] at h
  exact h

/-! ## The staging buffer: two slots -/

theorem lS_set (s : Fin 2) : (lS s).view.set = (lRect s).set :=
  (View.set_reshape _ _).trans (View.set_slice_whole cc0_scratch1 (lRect s))

theorem lRect_disjoint (s s' : Fin 2) (h : s ≠ s') : Disjoint (lRect s).set (lRect s').set := by
  refine Rect.unit_disjoint 0 ?_
  have : s.val ≠ s'.val := fun e => h (Fin.ext e)
  simp; omega

theorem lS_disjoint (s s' : Fin 2) (h : s ≠ s') : Disjoint (lS s).view.set (lS s').view.set := by
  rw [lS_set, lS_set]; exact lRect_disjoint s s' h

theorem lRect_cover : (Finset.univ : Finset (Fin 2)).biUnion (fun s => (lRect s).set) = Finset.univ := by
  ext i
  simp only [Finset.mem_biUnion, Finset.mem_univ, true_and, iff_true]
  have h0 : (i 0).val < 2 := (i 0).isLt
  have h1 : (i 1).val < 64 := (i 1).isLt
  have h2 : (i 2).val < 1024 := (i 2).isLt
  refine ⟨⟨(i 0).val, h0⟩, ?_⟩
  rw [Rect.mem_set_unit]
  intro a; fin_cases a <;> simp <;> omega

theorem lS_cover : @Finset.biUnion (Fin 2) cc0_scratch1.ty.Idx _ Finset.univ (fun s => (lS s).view.set) = Finset.univ := by
  rw [show (fun s : Fin 2 => ((lS s).view.set : Finset cc0_scratch1.ty.Idx)) = fun s => (lRect s).set from funext lS_set]; exact lRect_cover

theorem loc_split (c : Dev nD) (f : Buf (Elt F) ((c : Thread nD τ).loc cc0_scratch1)) :
    (((c : Thread nD τ).loc cc0_scratch1) ↦{fullShare} f : sProp 𝕄)
      ⊢ bigSep Finset.univ (fun s : Fin 2 => (lS s).view.loc (c : Thread nD τ) ↦[(lS s).view.set]{fullShare} f) := by
  have h := pointsTo_biUnion (Ix := Unit) (Val := Elt F) (Name := ℕ) (U := U) (Lvl := ℕ)
    (ℓ := (c : Thread nD τ).loc cc0_scratch1) (q := fullShare) (f := f) Finset.univ (fun s : Fin 2 => (lS s).view.set)
    (fun s _ s' _ h => lS_disjoint s s' h)
  rw [lS_cover] at h
  exact Entails.of_eq h

theorem loc_join (c : Dev nD) :
    bigSep Finset.univ (fun s : Fin 2 => (iprop(∃ f, (lS s).view.loc (c : Thread nD τ) ↦[(lS s).view.set]{fullShare} f) : sProp 𝕄))
      ⊢ (iprop(∃ f, ((c : Thread nD τ).loc cc0_scratch1) ↦{fullShare} f) : sProp 𝕄) := by
  have h := glue (F := F) (U := U) (ℓ := (c : Thread nD τ).loc cc0_scratch1) (q := fullShare) Finset.univ
    (fun s : Fin 2 => (lS s).view.set) (Finset.mem_univ 0) (fun s _ s' _ h => lS_disjoint s s' h)
  rw [lS_cover] at h
  exact h

/-! ## The result: the 64 row blocks of the device's own row-half and the 64 of the other -/

/-- The elements of chunk `r` of device `c`'s rows of the result: the rows from `4096 (c / 2) + 64 r`, 64 of them. -/
theorem mem_oO {c : Dev nD} {r : Fin 64} {i : S8192x1024.Idx} :
    i ∈ (oO c r).view.set ↔ 4096 * (c.val / 2) + 64 * r.val ≤ (i 0).val ∧ (i 0).val < 4096 * (c.val / 2) + 64 * r.val + 64 := by
  have e : (oO c r).view.set
      = (Rect.unit (s := S8192x1024) (k0_off3 c (BitVec.ofNat 32 (64 * r.val))) S64x1024.size (k0_off3_inb c r)).set :=
    View.set_slice_whole main_v1 _
  rw [e, Rect.mem_set_unit, k0_off3_eq]
  have hj : (i 1).val < 1024 := (i 1).isLt
  simp [Fin.forall_fin_two]; omega

theorem xp_half (c : Dev nD) : (xp c).val / 2 = 1 - c.val / 2 := by revert c; decide
theorem half_le (c : Dev nD) : c.val / 2 ≤ 1 := by revert c; decide

/-- Chunks of one device are disjoint. -/
theorem oO_disjoint (c : Dev nD) (r r' : Fin 64) (h : r ≠ r') : Disjoint (oO c r).view.set (oO c r').view.set := by
  have hne : r.val ≠ r'.val := fun e => h (Fin.ext e)
  refine Finset.disjoint_left.mpr fun i hi hi' => ?_
  have h1 := mem_oO.mp hi; have h2 := mem_oO.mp hi'
  omega

/-- A device's chunks are disjoint from its row peer's. -/
theorem oO_xp_disjoint (c : Dev nD) (r r' : Fin 64) : Disjoint (oO c r).view.set (oO (xp c) r').view.set := by
  refine Finset.disjoint_left.mpr fun i hi hi' => ?_
  have h1 := mem_oO.mp hi; have h2 := mem_oO.mp hi'
  have := xp_half c; have := half_le c; have := r.isLt; have := r'.isLt
  omega

/-- The elements of all of device `c`'s chunks. -/
abbrev oAll (c : Dev nD) : Finset S8192x1024.Idx :=
  (Finset.univ : Finset (Fin 64)).biUnion (fun r => ((oO c r).view.set : Finset S8192x1024.Idx))

theorem oAll_disjoint (c : Dev nD) : Disjoint (oAll c) (oAll (xp c)) :=
  (Finset.disjoint_biUnion_left _ _ _).mpr fun r _ =>
    (Finset.disjoint_biUnion_right _ _ _).mpr fun r' _ => oO_xp_disjoint c r r'

/-- The chunks of a device and of its row peer are all the rows. -/
theorem oAll_cover (c : Dev nD) : oAll c ∪ oAll (xp c) = Finset.univ := by
  ext i
  simp only [Finset.mem_union, Finset.mem_biUnion, Finset.mem_univ, true_and, iff_true]
  have hi : (i 0).val < 8192 := (i 0).isLt
  have h1 := xp_half c; have h2 := half_le c
  have hr : ((i 0).val % 4096) / 64 < 64 := by omega
  by_cases hc : (i 0).val / 4096 = c.val / 2
  · refine .inl ⟨⟨((i 0).val % 4096) / 64, hr⟩, mem_oO.mpr ?_⟩
    dsimp only; omega
  · refine .inr ⟨⟨((i 0).val % 4096) / 64, hr⟩, mem_oO.mpr ?_⟩
    dsimp only; omega

theorem out_split (c : Dev nD) (f : Buf (Elt F) ((c : Thread nD τ).loc main_v1)) :
    (((c : Thread nD τ).loc main_v1) ↦{fullShare} f : sProp 𝕄)
      ⊢ iprop(bigSep Finset.univ (fun r : Fin 64 => (oO c r).view.loc (c : Thread nD τ) ↦[(oO c r).view.set]{fullShare} f)
          ∗ bigSep Finset.univ (fun r : Fin 64 => (oO (xp c) r).view.loc (c : Thread nD τ) ↦[(oO (xp c) r).view.set]{fullShare} f)) := by
  have hA := pointsTo_biUnion (Ix := Unit) (Val := Elt F) (Name := ℕ) (U := U) (Lvl := ℕ)
    (ℓ := (c : Thread nD τ).loc main_v1) (q := fullShare) (f := f) Finset.univ (fun r : Fin 64 => (oO c r).view.set)
    (fun r _ r' _ h => oO_disjoint c r r' h)
  have hB := pointsTo_biUnion (Ix := Unit) (Val := Elt F) (Name := ℕ) (U := U) (Lvl := ℕ)
    (ℓ := (c : Thread nD τ).loc main_v1) (q := fullShare) (f := f) Finset.univ (fun r : Fin 64 => (oO (xp c) r).view.set)
    (fun r _ r' _ h => oO_disjoint (xp c) r r' h)
  have hu := pointsTo_union (Ix := Unit) (Val := Elt F) (Name := ℕ) (U := U) (Lvl := ℕ)
    (ℓ := (c : Thread nD τ).loc main_v1) (q := fullShare) (f := f) (oAll_disjoint c)
  rw [oAll_cover] at hu
  iintro H
  ihave H' := hu.1 $$ H
  icases H' with ⟨HA, HB⟩
  isplitl [HA]
  · iapply (Entails.of_eq hA); iexact HA
  · iapply (Entails.of_eq hB); iexact HB

theorem out_join (c : Dev nD) (g g' : Fin 64 → Buf (Elt F) ((c : Thread nD τ).loc main_v1)) :
    (iprop(bigSep Finset.univ (fun r : Fin 64 => (oO c r).view.loc (c : Thread nD τ) ↦[(oO c r).view.set]{fullShare} g r)
          ∗ bigSep Finset.univ (fun r : Fin 64 => (oO (xp c) r).view.loc (c : Thread nD τ) ↦[(oO (xp c) r).view.set]{fullShare} g' r)) : sProp 𝕄)
      ⊢ iprop(∃ f, (((c : Thread nD τ).loc main_v1) ↦{fullShare} f)
          ∗ ⌜∀ r, (oO c r).view.read (Elt F) f = (oO c r).view.read (Elt F) (g r)
              ∧ (oO (xp c) r).view.read (Elt F) f = (oO (xp c) r).view.read (Elt F) (g' r)⌝) := by
  have hA := pointsTo_biUnion_join (Ix := Unit) (Val := Elt F) (Name := ℕ) (U := U) (Lvl := ℕ)
    (ℓ := (c : Thread nD τ).loc main_v1) (q := fullShare) Finset.univ (fun r : Fin 64 => (oO c r).view.set) g (g 0)
    (fun r _ r' _ h => oO_disjoint c r r' h)
  have hB := pointsTo_biUnion_join (Ix := Unit) (Val := Elt F) (Name := ℕ) (U := U) (Lvl := ℕ)
    (ℓ := (c : Thread nD τ).loc main_v1) (q := fullShare) Finset.univ (fun r : Fin 64 => (oO (xp c) r).view.set) g' (g 0)
    (fun r _ r' _ h => oO_disjoint (xp c) r r' h)
  have hj := fun gA gB => pointsTo_join (Ix := Unit) (Val := Elt F) (Name := ℕ) (U := U) (Lvl := ℕ)
    (ℓ := (c : Thread nD τ).loc main_v1) (q := fullShare) (f := gA) (g := gB) (oAll_disjoint c)
  rw [oAll_cover] at hj
  iintro ⟨HA, HB⟩
  ihave HA' := hA $$ HA
  ihave HB' := hB $$ HB
  icases HA' with ⟨%gA, %hgA, HA⟩
  icases HB' with ⟨%gB, %hgB, HB⟩
  iexists (oAll (xp c)).piecewise gB gA
  isplitl [HA HB]
  · iapply (hj gA gB)
    isplitl [HA]; · iexact HA
    iexact HB
  · ipureintro
    intro r
    constructor
    · refine View.read_congr fun i hi => ?_
      have hiA : i ∈ oAll c := Finset.mem_biUnion.mpr ⟨r, Finset.mem_univ _, hi⟩
      rw [Finset.piecewise_eq_of_notMem _ _ _ (Finset.disjoint_left.mp (oAll_disjoint c) hiA)]
      exact hgA r (Finset.mem_univ _) i hi
    · refine View.read_congr fun i hi => ?_
      have hiB : i ∈ oAll (xp c) := Finset.mem_biUnion.mpr ⟨r, Finset.mem_univ _, hi⟩
      rw [Finset.piecewise_eq_of_mem _ _ _ hiB]
      exact hgB r (Finset.mem_univ _) i hi

/-! ## The argument: the 64 blocks sent, the 64 blocks kept, and the other row-half -/

/-- The elements of the block of chunk `r` device `c` sends: its rows, in the other column half. -/
theorem mem_xA {c : Dev nD} {r : Fin 64} {i : S1x8192x2048.Idx} :
    i ∈ (xA c r).view.set ↔ (4096 * (c.val / 2) + 64 * r.val ≤ (i 1).val ∧ (i 1).val < 4096 * (c.val / 2) + 64 * r.val + 64)
      ∧ (1024 - 1024 * (c.val % 2) ≤ (i 2).val ∧ (i 2).val < 1024 - 1024 * (c.val % 2) + 1024) := by
  have e : (xA c r).view.set
      = (Rect.unit (s := S1x8192x2048) (k0_off2 c (BitVec.ofNat 32 (64 * r.val))) S1x64x1024.size (k0_off2_inb c r)).set :=
    (View.set_reshape _ _).trans (View.set_slice_whole main_arg0 _)
  rw [e, Rect.mem_set_unit, k0_off2_eq]
  have h0 : (i 0).val < 1 := (i 0).isLt
  simp [Fin.forall_fin_succ]; omega

/-- The elements of the block of chunk `r` device `c` keeps: its rows, in its own column half. -/
theorem mem_xB {c : Dev nD} {r : Fin 64} {i : S1x8192x2048.Idx} :
    i ∈ (xB c r).view.set ↔ (4096 * (c.val / 2) + 64 * r.val ≤ (i 1).val ∧ (i 1).val < 4096 * (c.val / 2) + 64 * r.val + 64)
      ∧ (1024 * (c.val % 2) ≤ (i 2).val ∧ (i 2).val < 1024 * (c.val % 2) + 1024) := by
  have e : (xB c r).view.set
      = (Rect.unit (s := S1x8192x2048) (k0_off1 c (BitVec.ofNat 32 (64 * r.val))) S1x64x1024.size (k0_off1_inb c r)).set :=
    (View.set_reshape _ _).trans (View.set_slice_whole main_arg0 _)
  rw [e, Rect.mem_set_unit, k0_off1_eq]
  have h0 : (i 0).val < 1 := (i 0).isLt
  simp [Fin.forall_fin_succ]; omega

theorem xA_disjoint (c : Dev nD) (r r' : Fin 64) (h : r ≠ r') : Disjoint (xA c r).view.set (xA c r').view.set := by
  have hne : r.val ≠ r'.val := fun e => h (Fin.ext e)
  refine Finset.disjoint_left.mpr fun i hi hi' => ?_
  have h1 := mem_xA.mp hi; have h2 := mem_xA.mp hi'
  omega

theorem xB_disjoint (c : Dev nD) (r r' : Fin 64) (h : r ≠ r') : Disjoint (xB c r).view.set (xB c r').view.set := by
  have hne : r.val ≠ r'.val := fun e => h (Fin.ext e)
  refine Finset.disjoint_left.mpr fun i hi hi' => ?_
  have h1 := mem_xB.mp hi; have h2 := mem_xB.mp hi'
  omega

/-- What a device sends and what it keeps are in different column halves. -/
theorem xA_xB_disjoint (c : Dev nD) (r r' : Fin 64) : Disjoint (xA c r).view.set (xB c r').view.set := by
  refine Finset.disjoint_left.mpr fun i hi hi' => ?_
  have h1 := mem_xA.mp hi; have h2 := mem_xB.mp hi'
  have : c.val % 2 < 2 := Nat.mod_lt _ (by decide)
  omega

/-- The elements of all the blocks device `c` sends, and of all it keeps. -/
abbrev xAAll (c : Dev nD) : Finset S1x8192x2048.Idx :=
  (Finset.univ : Finset (Fin 64)).biUnion (fun r => ((xA c r).view.set : Finset S1x8192x2048.Idx))
abbrev xBAll (c : Dev nD) : Finset S1x8192x2048.Idx :=
  (Finset.univ : Finset (Fin 64)).biUnion (fun r => ((xB c r).view.set : Finset S1x8192x2048.Idx))

theorem xAll_disjoint (c : Dev nD) : Disjoint (xAAll c) (xBAll c) :=
  (Finset.disjoint_biUnion_left _ _ _).mpr fun r _ =>
    (Finset.disjoint_biUnion_right _ _ _).mpr fun r' _ => xA_xB_disjoint c r r'

/-- The elements of the argument the device neither sends nor keeps: the other row-half. -/
abbrev xRestSet (c : Dev nD) : Finset S1x8192x2048.Idx := Finset.univ \ (xAAll c ∪ xBAll c)

/-- The rest of the argument, held whole at contents `f`. -/
abbrev xRest (c : Dev nD) (f : Buf (Elt F) ((c : Thread nD τ).loc main_arg0)) : sProp 𝕄 :=
  ((c : Thread nD τ).loc main_arg0) ↦[xRestSet c]{fullShare} f

/-- The argument is its blocks sent, its blocks kept and the rest, all at the same contents. -/
theorem arg_iff (c : Dev nD) (f : Buf (Elt F) ((c : Thread nD τ).loc main_arg0)) :
    (((c : Thread nD τ).loc main_arg0) ↦{fullShare} f : sProp 𝕄)
      ⊣⊢ iprop(bigSep Finset.univ (fun r : Fin 64 => (xA c r).view.loc (c : Thread nD τ) ↦[(xA c r).view.set]{fullShare} f)
          ∗ bigSep Finset.univ (fun r : Fin 64 => (xB c r).view.loc (c : Thread nD τ) ↦[(xB c r).view.set]{fullShare} f)
          ∗ xRest (F := F) (U := U) c f) := by
  have hA := pointsTo_biUnion (Ix := Unit) (Val := Elt F) (Name := ℕ) (U := U) (Lvl := ℕ)
    (ℓ := (c : Thread nD τ).loc main_arg0) (q := fullShare) (f := f) Finset.univ (fun r : Fin 64 => (xA c r).view.set)
    (fun r _ r' _ h => xA_disjoint c r r' h)
  have hB := pointsTo_biUnion (Ix := Unit) (Val := Elt F) (Name := ℕ) (U := U) (Lvl := ℕ)
    (ℓ := (c : Thread nD τ).loc main_arg0) (q := fullShare) (f := f) Finset.univ (fun r : Fin 64 => (xB c r).view.set)
    (fun r _ r' _ h => xB_disjoint c r r' h)
  have hu := pointsTo_union (Ix := Unit) (Val := Elt F) (Name := ℕ) (U := U) (Lvl := ℕ)
    (ℓ := (c : Thread nD τ).loc main_arg0) (q := fullShare) (f := f) (xAll_disjoint c)
  have hs := pointsTo_split_subset (Ix := Unit) (Val := Elt F) (Name := ℕ) (U := U) (Lvl := ℕ)
    (ℓ := (c : Thread nD τ).loc main_arg0) (q := fullShare) (f := f) (Finset.subset_univ (xAAll c ∪ xBAll c))
  constructor
  · iintro H
    ihave H' := hs.1 $$ H
    icases H' with ⟨HAB, HR⟩
    ihave H'' := hu.1 $$ HAB
    icases H'' with ⟨HA, HB⟩
    isplitl [HA]
    · iapply (Entails.of_eq hA); iexact HA
    isplitl [HB]
    · iapply (Entails.of_eq hB); iexact HB
    iexact HR
  · iintro ⟨HA, HB, HR⟩
    iapply hs.2
    isplitl [HA HB]
    · iapply hu.2
      isplitl [HA]
      · iapply (Entails.of_eq hA.symm); iexact HA
      · iapply (Entails.of_eq hB.symm); iexact HB
    iexact HR

theorem arg_split (c : Dev nD) (f : Buf (Elt F) ((c : Thread nD τ).loc main_arg0)) :
    (((c : Thread nD τ).loc main_arg0) ↦{fullShare} f : sProp 𝕄)
      ⊢ iprop(bigSep Finset.univ (fun r : Fin 64 => (xA c r).view.loc (c : Thread nD τ) ↦[(xA c r).view.set]{fullShare} f)
          ∗ bigSep Finset.univ (fun r : Fin 64 => (xB c r).view.loc (c : Thread nD τ) ↦[(xB c r).view.set]{fullShare} f)
          ∗ xRest (F := F) (U := U) c f) := (arg_iff c f).1

theorem arg_join (c : Dev nD) (f : Buf (Elt F) ((c : Thread nD τ).loc main_arg0)) :
    (iprop(bigSep Finset.univ (fun r : Fin 64 => (xA c r).view.loc (c : Thread nD τ) ↦[(xA c r).view.set]{fullShare} f)
          ∗ bigSep Finset.univ (fun r : Fin 64 => (xB c r).view.loc (c : Thread nD τ) ↦[(xB c r).view.set]{fullShare} f)
          ∗ xRest (F := F) (U := U) c f) : sProp 𝕄)
      ⊢ (((c : Thread nD τ).loc main_arg0) ↦{fullShare} f : sProp 𝕄) := (arg_iff c f).2

/-! ## The result's rows named from the receiving side -/

/-- Slices at equal offsets are the same memref. -/
theorem slice_unit_congr {κ : Kind} {sp : Space} {s : Shape} {e : EltTy} (m : Memref sig κ sp s e) {off off' size : Fin s.rank → Nat}
    (h : off = off') (p : ∀ a, off a + size a ≤ s.size a) (p' : ∀ a, off' a + size a ≤ s.size a) :
    m.slice (Rect.unit off size p) (fun _ => rfl) = m.slice (Rect.unit off' size p') (fun _ => rfl) := by
  subst h; rfl

/-- The rows a device's wait names as arriving from its row peer are the rows its row peer's chunk goes to. -/
theorem oP_eq (c : Dev nD) (r : Fin 64) : oP c r = oO (xp c) r := by
  have h : k0_off4 c (BitVec.ofNat 32 (64 * r.val)) = k0_off3 (xp c) (BitVec.ofNat 32 (64 * r.val)) := by
    rw [k0_off4_eq, k0_off3_eq, xp_half]
    have := half_le c
    have e : (64 * r.val + 4096) - 4096 * (c.val / 2) = 4096 * (1 - c.val / 2) + 64 * r.val := by omega
    rw [e]
  exact slice_unit_congr oM h _ _

/-- info: 'Cert.KernelIdeal.RS.recv_split' depends on axioms: [propext, Classical.choice, Quot.sound] -/
#guard_msgs in #print axioms recv_split

/-- info: 'Cert.KernelIdeal.RS.recv_join' depends on axioms: [propext, Classical.choice, Quot.sound] -/
#guard_msgs in #print axioms recv_join

/-- info: 'Cert.KernelIdeal.RS.loc_split' depends on axioms: [propext, Classical.choice, Quot.sound] -/
#guard_msgs in #print axioms loc_split

/-- info: 'Cert.KernelIdeal.RS.loc_join' depends on axioms: [propext, Classical.choice, Quot.sound] -/
#guard_msgs in #print axioms loc_join

/-- info: 'Cert.KernelIdeal.RS.out_split' depends on axioms: [propext, Classical.choice, Quot.sound] -/
#guard_msgs in #print axioms out_split

/-- info: 'Cert.KernelIdeal.RS.out_join' depends on axioms: [propext, Classical.choice, Quot.sound] -/
#guard_msgs in #print axioms out_join

/-- info: 'Cert.KernelIdeal.RS.arg_iff' depends on axioms: [propext, Classical.choice, Quot.sound] -/
#guard_msgs in #print axioms arg_iff

/-- info: 'Cert.KernelIdeal.RS.arg_split' depends on axioms: [propext, Classical.choice, Quot.sound] -/
#guard_msgs in #print axioms arg_split

/-- info: 'Cert.KernelIdeal.RS.arg_join' depends on axioms: [propext, Classical.choice, Quot.sound] -/
#guard_msgs in #print axioms arg_join

/-- info: 'Cert.KernelIdeal.RS.oP_eq' depends on axioms: [propext, Classical.choice, Quot.sound] -/
#guard_msgs in #print axioms oP_eq

end Cert.KernelIdeal.RS

end
-- ==== Proof.RsKernelIdeal.State.lean ====
/-
  The states of one device's body, between its operations. The body has three loops over the 64 chunks
  (send to the column peer; receive, add, send to the row peer and copy to the result; wait for everything), so
  there are three families of states: `S1 k` (chunks before `k` sent), `S2 r j` (iteration `r` of the middle loop,
  after its `j`-th group of operations) and `S3 r j` (iteration `r` of the last loop, after its `j`-th wait).
  A state is what the device holds: for each chunk its pieces of the buffers and its tokens, in the form the
  chunk's progress has brought them to.
-/
import proofs.«900313_g7700000000000314_dist_rs_v7x_xy2x2_y_m8192_n1024_f32_1_alg».proof.Proof.RsKernelIdeal.Tally
import proofs.«900313_g7700000000000314_dist_rs_v7x_xy2x2_y_m8192_n1024_f32_1_alg».proof.Proof.RsKernelIdeal.Regions

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## All the protocol's cells, indexed: the 322 copy cells of the pool, then the barrier cell -/

abbrev csem (j : Fin 323) : SemLoc sig := if h : j.val < 322 then .dma ⟨j.val, h⟩ else .reg barS
abbrev kcell (cj : Dev nD × Fin 323) : GSem nD τ sig := ((cj.1 : Thread nD τ), csem cj.2)

/-- What every device knows for good, under the names `K` the launch allocated the cells' invariants at: every
    cell's invariant, that every cell is at round 0 or later, and the levels. -/
def Rec (K : Dev nD × Fin 323 → ℕ) : sProp 𝕄 :=
  iprop((bigSep Finset.univ fun cj : Dev nD × Fin 323 => cellInv ER (sched m) (K cj) (kcell cj))
    ∗ (bigSep Finset.univ fun cj : Dev nD × Fin 323 => reached ER (kcell cj) 0)
    ∗ levAts L lv)

/-! ## A chunk's pieces -/

section Pieces
variable (c : Dev nD)

def slotOf (r : ℕ) : Fin 2 := ⟨r % 2, Nat.mod_lt _ (by decide)⟩

def ptsA (r : Fin 64) : sProp 𝕄 := (xA c r).view.loc (c : Thread nD τ) ↦[(xA c r).view.set]{fullShare} X m c
def ptsB (r : Fin 64) : sProp 𝕄 := (xB c r).view.loc (c : Thread nD τ) ↦[(xB c r).view.set]{fullShare} X m c
/-- Rows `r` of device `d`'s receive buffer, free to be written. -/
def freeRows (d : Dev nD) (r : Fin 64) : sProp 𝕄 := iprop(∃ f, (rS r).view.loc (d : Thread nD τ) ↦[(rS r).view.set]{fullShare} f)
/-- The result rows of chunk `r` of device `c'`, on device `d`, free to be written. -/
def freeOut (d c' : Dev nD) (r : Fin 64) : sProp 𝕄 := iprop(∃ f, (oO c' r).view.loc (d : Thread nD τ) ↦[(oO c' r).view.set]{fullShare} f)
def freeSlot (s : Fin 2) : sProp 𝕄 := iprop(∃ f, (lS s).view.loc (c : Thread nD τ) ↦[(lS s).view.set]{fullShare} f)

/-- Before chunk `r` is sent to the column peer: the block to send, the peer's landing rows, the two duty tokens. -/
def y1pre (r : Fin 64) : sProp 𝕄 :=
  iprop(ptsA m c r ∗ freeRows (F := F) (yp c) r ∗ dutyTok ER (ysendC c r) 0 false ∗ dutyTok ER (yrecvC (yp c) r) 0 false)
/-- After: the send cell's credit. -/
def y1post (r : Fin 64) : sProp 𝕄 := cred (tallyAt (ysendC c r) () N)

/-- Before chunk `r` is staged: the block to stage and the duty token of its staging round. -/
def stPre (r : Fin 64) : sProp 𝕄 := iprop(ptsB m c r ∗ dutyTok ER (cpinC c (slotOf r.val)) (r.val / 2) false)
/-- While it is being staged: the staging cell's credit. -/
def stMid (r : Fin 64) : sProp 𝕄 := cred (tallyAt (cpinC c (slotOf r.val)) () N)
/-- Chunk `r`'s staging in flight — or, past the last chunk, its slot free. -/
def curSt (r : ℕ) : sProp 𝕄 := if h : r < 64 then stMid (F := F) c ⟨r, h⟩ else freeSlot (F := F) c (slotOf r)
def stPreO (r : ℕ) : sProp 𝕄 := if h : r < 64 then stPre m c ⟨r, h⟩ else iprop(emp)

/-- What chunk `r`'s iteration of the middle loop needs besides its staging: the receive cell's position and credit;
    for the row send, the row peer's result rows and two duty tokens; for the result copy, the own result rows and a token. -/
def mRest (r : Fin 64) : sProp 𝕄 :=
  iprop(freeOut (F := F) (xp c) c r ∗ dutyTok ER (xsendC c r) 0 false ∗ dutyTok ER (xrecvC (xp c) r) 0 false
    ∗ freeOut (F := F) c c r ∗ dutyTok ER (cpoutC c r) 0 false)
def mPre (r : Fin 64) : sProp 𝕄 :=
  iprop(atPos ER (yrecvC c r) 0 ∅ 0 ∗ cred (tallyAt (yrecvC c r) () N) ∗ mRest (F := F) c r)
def mPreO (r : ℕ) : sProp 𝕄 := if h : r < 64 then mPre (F := F) c ⟨r, h⟩ else iprop(emp)
/-- What it leaves: the two send credits, the staged block of the argument back, the receive cell one round on. -/
def mPost (r : Fin 64) : sProp 𝕄 :=
  iprop(cred (tallyAt (xsendC c r) () N) ∗ cred (tallyAt (cpoutC c r) () N) ∗ ptsB m c r ∗ atPos ER (yrecvC c r) 1 ∅ 0)

/-- What chunk `r`'s iteration of the last loop needs: the four cells' positions and the row receive cell's credit. -/
def fPre (r : Fin 64) : sProp 𝕄 :=
  iprop(atPos ER (cpoutC c r) 0 ∅ 0 ∗ atPos ER (ysendC c r) 0 ∅ 0 ∗ atPos ER (xsendC c r) 0 ∅ 0 ∗ atPos ER (xrecvC c r) 0 ∅ 0
    ∗ cred (tallyAt (xrecvC c r) () N))
/-- The four waits' yields, in the loop's order: the result rows with the sums and half of the summed rows; the block
    sent to the column peer; the other half of the summed rows; the row peer's sums in the result. -/
def w1 (r : Fin 64) : sProp 𝕄 := iprop(atPos ER (cpoutC c r) 1 ∅ 0 ∗ cpoutPay m c r)
def w2 (r : Fin 64) : sProp 𝕄 := iprop(atPos ER (ysendC c r) 1 ∅ 0 ∗ ysendPay m c r)
def w3 (r : Fin 64) : sProp 𝕄 := iprop(atPos ER (xsendC c r) 1 ∅ 0 ∗ xsendPay m c r)
def w4 (r : Fin 64) : sProp 𝕄 := iprop(atPos ER (xrecvC c r) 1 ∅ 0 ∗ xrecvPay m c r)
/-- After chunk `r`'s four waits. -/
def fPost (r : Fin 64) : sProp 𝕄 :=
  iprop(w1 m c r ∗ w2 m c r ∗ w3 m c r ∗ w4 m c r ∗ ptsB m c r ∗ atPos ER (yrecvC c r) 1 ∅ 0)

/-- The staging cell of slot `s` when `r` chunks have been consumed: `(r + 1 - s) / 2` of its rounds are over. -/
def posI (s : Fin 2) (r : ℕ) : ℕ := (r + 1 - s.val) / 2
def cpinAt (s : Fin 2) (r : ℕ) : sProp 𝕄 :=
  iprop(atPos ER (cpinC c s) (posI s r) ∅ 0 ∗ reached ER (cpinC c s) (posI s r))
def cpinsAt (r : ℕ) : sProp 𝕄 := iprop(cpinAt (F := F) c 0 r ∗ cpinAt (F := F) c 1 r)

/-- The part of the argument no copy of this device reads (the other row-half). -/
def argRest : sProp 𝕄 := xRest (F := F) (U := UU) c (X m c)

/-- The device's `owes` at a tally, whatever waits it has recorded. -/
def owesE (O : CellTallies nD τ sig Unit) : sProp 𝕄 := iprop(∃ W : Waits sig Unit, owes (c : Thread nD τ) O W)

end Pieces

/-! ## The three families -/

section States
variable (K : Dev nD × Fin 323 → ℕ) (c : Dev nD)

/-- What the middle loop starts from and the first loop carries untouched: every chunk's middle-loop and last-loop needs,
    chunk 0 being staged, the staging cells at their start. -/
def mid0 : sProp 𝕄 :=
  iprop(argRest m c ∗ (bigSep Finset.univ fun r : Fin 64 => mPre (F := F) c r) ∗ (bigSep (fromK 1) fun r => stPre m c r) ∗ curSt (F := F) c 0
    ∗ freeSlot (F := F) c 1 ∗ cpinsAt (F := F) c 0 ∗ (bigSep Finset.univ fun r : Fin 64 => fPre (F := F) c r))

/-- The first loop, `k` chunks sent. -/
def S1 (k : ℕ) : sProp 𝕄 :=
  iprop(Rec m K ∗ mid0 m c ∗ (bigSep (fromK k) fun r => y1pre m c r) ∗ (bigSep (uptoK k) fun r => y1post (F := F) c r)
    ∗ owesE (F := F) c (Oy c k + Ox c 0))

/-- Iteration `r` of the middle loop, the part that moves within the iteration. -/
def cur2 (r : ℕ) (j : ℕ) : sProp 𝕄 :=
  match j with
  | 0 => iprop(mPreO (F := F) c r ∗ curSt (F := F) c r ∗ stPreO m c (r + 1) ∗ freeSlot (F := F) c (slotOf (r + 1)) ∗ cpinsAt (F := F) c r ∗ owesE (F := F) c (Ox c r))
  | 1 => iprop(mPreO (F := F) c r ∗ curSt (F := F) c r ∗ curSt (F := F) c (r + 1) ∗ cpinsAt (F := F) c r ∗ owesE (F := F) c (Ox c r))
  | 2 => if h : r < 64 then
      iprop(mRest (F := F) c ⟨r, h⟩ ∗ atPos ER (yrecvC c ⟨r, h⟩) 1 ∅ 0 ∗ yrecvPay m c ⟨r, h⟩ ∗ curSt (F := F) c r ∗ curSt (F := F) c (r + 1)
        ∗ cpinsAt (F := F) c r ∗ owesE (F := F) c (Ox c r)) else iprop(emp)
  | 3 => if h : r < 64 then
      iprop(mRest (F := F) c ⟨r, h⟩ ∗ atPos ER (yrecvC c ⟨r, h⟩) 1 ∅ 0 ∗ yrecvPay m c ⟨r, h⟩
        ∗ owns (c : Thread nD τ) (lS (slotOf r)) fullShare (bVal m c ⟨r, h⟩) ∗ ptsB m c ⟨r, h⟩ ∗ curSt (F := F) c (r + 1)
        ∗ cpinsAt (F := F) c (r + 1) ∗ owesE (F := F) c (Ox c r)) else iprop(emp)
  | 4 => if h : r < 64 then
      iprop(mRest (F := F) c ⟨r, h⟩ ∗ atPos ER (yrecvC c ⟨r, h⟩) 1 ∅ 0 ∗ owns (c : Thread nD τ) (rS ⟨r, h⟩) fullShare (sVal m c ⟨r, h⟩)
        ∗ freeSlot (F := F) c (slotOf r) ∗ ptsB m c ⟨r, h⟩ ∗ curSt (F := F) c (r + 1)
        ∗ cpinsAt (F := F) c (r + 1) ∗ owesE (F := F) c (Ox c r)) else iprop(emp)
  | 5 => if h : r < 64 then
      iprop((freeOut (F := F) c c ⟨r, h⟩ ∗ dutyTok ER (cpoutC c ⟨r, h⟩) 0 false) ∗ atPos ER (yrecvC c ⟨r, h⟩) 1 ∅ 0
        ∗ owns (c : Thread nD τ) (rS ⟨r, h⟩) fullShare.right (sVal m c ⟨r, h⟩) ∗ cred (tallyAt (xsendC c ⟨r, h⟩) () N)
        ∗ freeSlot (F := F) c (slotOf r) ∗ ptsB m c ⟨r, h⟩ ∗ curSt (F := F) c (r + 1)
        ∗ cpinsAt (F := F) c (r + 1) ∗ owesE (F := F) c (Ox c (r + 1))) else iprop(emp)
  | _ => if h : r < 64 then
      iprop(mPost m c ⟨r, h⟩ ∗ freeSlot (F := F) c (slotOf r) ∗ curSt (F := F) c (r + 1)
        ∗ cpinsAt (F := F) c (r + 1) ∗ owesE (F := F) c (Ox c (r + 1))) else iprop(emp)

/-- The middle loop: iteration `r`, after its `j`-th group (0: start; 1: next chunk's staging started; 2: the column peer's
    block received; 3: the staged block landed; 4: the sum stored; 5: sent to the row peer; 6: copied to the result). -/
def S2 (r : ℕ) (j : ℕ) : sProp 𝕄 :=
  iprop(Rec m K ∗ argRest m c ∗ (bigSep Finset.univ fun x : Fin 64 => y1post (F := F) c x) ∗ (bigSep Finset.univ fun x : Fin 64 => fPre (F := F) c x)
    ∗ (bigSep (uptoK r) fun x => mPost m c x) ∗ (bigSep (fromK (r + 1)) fun x => mPre (F := F) c x)
    ∗ (bigSep (fromK (r + 2)) fun x => stPre m c x) ∗ cur2 m c r j)

/-- Iteration `r` of the last loop, the part that moves: chunk `r`'s needs, less what its first `j` waits have turned
    into their yields. -/
def cur3 (r : Fin 64) (j : ℕ) : sProp 𝕄 :=
  match j with
  | 0 => iprop(fPre (F := F) c r ∗ y1post (F := F) c r ∗ mPost m c r)
  | 1 => iprop(w1 m c r ∗ (atPos ER (ysendC c r) 0 ∅ 0 ∗ atPos ER (xsendC c r) 0 ∅ 0 ∗ atPos ER (xrecvC c r) 0 ∅ 0 ∗ cred (tallyAt (xrecvC c r) () N))
      ∗ y1post (F := F) c r ∗ (cred (tallyAt (xsendC c r) () N) ∗ ptsB m c r ∗ atPos ER (yrecvC c r) 1 ∅ 0))
  | 2 => iprop(w1 m c r ∗ w2 m c r ∗ (atPos ER (xsendC c r) 0 ∅ 0 ∗ atPos ER (xrecvC c r) 0 ∅ 0 ∗ cred (tallyAt (xrecvC c r) () N))
      ∗ (cred (tallyAt (xsendC c r) () N) ∗ ptsB m c r ∗ atPos ER (yrecvC c r) 1 ∅ 0))
  | 3 => iprop(w1 m c r ∗ w2 m c r ∗ w3 m c r ∗ (atPos ER (xrecvC c r) 0 ∅ 0 ∗ cred (tallyAt (xrecvC c r) () N))
      ∗ (ptsB m c r ∗ atPos ER (yrecvC c r) 1 ∅ 0))
  | _ => fPost m c r

/-- What the last loop carries from chunk to chunk: the staging slots and cells, at rest, and nothing owed. -/
def rest3 : sProp 𝕄 :=
  iprop(argRest m c ∗ freeSlot (F := F) c 0 ∗ freeSlot (F := F) c 1 ∗ cpinsAt (F := F) c 64 ∗ owesE (F := F) c 0)

/-- The last loop: iteration `r`, after its `j`-th wait. -/
def S3 (r : Fin 64) (j : ℕ) : sProp 𝕄 :=
  iprop(Rec m K ∗ rest3 m c ∗ (bigSep (uptoK r.val) fun x => fPost m c x)
    ∗ (bigSep (fromK (r.val + 1)) fun x => iprop(fPre (F := F) c x ∗ y1post (F := F) c x ∗ mPost m c x)) ∗ cur3 m c r j)
/-- After the last loop. -/
def S4 : sProp 𝕄 := iprop(Rec m K ∗ rest3 m c ∗ bigSep Finset.univ fun x : Fin 64 => fPost m c x)

end States

/-! ## Where the body starts -/

section Start
variable (K : Dev nD × Fin 323 → ℕ) (c : Dev nD)

/-- The duty tokens device `c` pays with: both peers' barrier duties; per chunk the column send and the peer's column
    receive, the row send and the peer's row receive, the result copy, and the chunk's staging round. -/
def toks : sProp 𝕄 :=
  iprop(dutyTok ER (barC (yp c)) 0 false ∗ dutyTok ER (barC (xp c)) 0 true
    ∗ bigSep Finset.univ fun r : Fin 64 =>
        iprop(dutyTok ER (ysendC c r) 0 false ∗ dutyTok ER (yrecvC (yp c) r) 0 false ∗ dutyTok ER (xsendC c r) 0 false
          ∗ dutyTok ER (xrecvC (xp c) r) 0 false ∗ dutyTok ER (cpoutC c r) 0 false ∗ dutyTok ER (cpinC c (slotOf r.val)) (r.val / 2) false))
/-- Its positions: every own cell at the start of round 0. -/
def poss : sProp 𝕄 :=
  iprop(atPos ER (barC c) 0 ∅ 0 ∗ atPos ER (cpinC c 0) 0 ∅ 0 ∗ atPos ER (cpinC c 1) 0 ∅ 0
    ∗ bigSep Finset.univ fun r : Fin 64 =>
        iprop(atPos ER (ysendC c r) 0 ∅ 0 ∗ atPos ER (yrecvC c r) 0 ∅ 0 ∗ atPos ER (xsendC c r) 0 ∅ 0 ∗ atPos ER (xrecvC c r) 0 ∅ 0
          ∗ atPos ER (cpoutC c r) 0 ∅ 0))
/-- The credit tokens for what its peers owe its cells. -/
def creds0 : sProp 𝕄 :=
  iprop(cred (tallyAt (barC c) () 2) ∗ (bigSep Finset.univ fun r : Fin 64 => cred (tallyAt (yrecvC c r) () N))
    ∗ (bigSep Finset.univ fun r : Fin 64 => cred (tallyAt (xrecvC c r) () N)))
/-- Its buffers, cut into the chunks' pieces. -/
def bufs0 : sProp 𝕄 :=
  iprop((bigSep Finset.univ fun r : Fin 64 => ptsA m c r) ∗ (bigSep Finset.univ fun r : Fin 64 => ptsB m c r) ∗ argRest m c
    ∗ (bigSep Finset.univ fun r : Fin 64 => freeRows (F := F) c r)
    ∗ (bigSep Finset.univ fun r : Fin 64 => freeOut (F := F) c c r) ∗ (bigSep Finset.univ fun r : Fin 64 => freeOut (F := F) c (xp c) r)
    ∗ freeSlot (F := F) c 0 ∗ freeSlot (F := F) c 1)

/-- The body's start. -/
def Start : sProp 𝕄 :=
  iprop(Rec m K ∗ bufs0 m c ∗ toks (F := F) c ∗ poss (F := F) c ∗ creds0 (F := F) c ∗ owesE (F := F) c (O₀ c))

end Start

/-! ## What the launch hands a device, and what the device hands back -/

section Data
variable (c : Dev nD)

/-- The kernel's own (scoped) semaphores, as the launch theorem indexes them: the 322 copy semaphores of the pool. -/
abbrev osem : Fin 322 → SemLoc sig := fun j => .dma j

/-- What the device hands back of its unscoped buffers: the argument as it was, and the result reading, through each
    chunk's rows, that chunk's sums. -/
def Yc : sProp 𝕄 :=
  iprop(((c : Thread nD τ).loc main_arg0 ↦{fullShare} X m c)
    ∗ ∃ f : Buf (Elt F) ((c : Thread nD τ).loc main_v1), ((c : Thread nD τ).loc main_v1 ↦{fullShare} f)
        ∗ ⌜∀ r : Fin 64, (oO c r).view.read (Elt F) f = sVal m c r ∧ (oO (xp c) r).view.read (Elt F) f = sVal m (xp c) r⌝)

/-- Before the body: the start state at some names, less what is owed (the pipeline holds that). -/
def Φ₀ : sProp 𝕄 :=
  iprop(∃ K : Dev nD × Fin 323 → ℕ, Rec m K ∗ bufs0 m c ∗ toks (F := F) c ∗ poss (F := F) c ∗ creds0 (F := F) c)
/-- After the body: the unscoped buffers as `Yc`, every own semaphore at zero with its cell closed, the two scratch
    buffers whole. -/
def Φ₁ : sProp 𝕄 :=
  iprop(Yc m c ∗ (bigSep Finset.univ fun j : Fin 322 => semVal ((c : Thread nD τ), osem j) 0)
    ∗ (∃ f, (c : Thread nD τ).loc cc0_scratch0 ↦{fullShare} f) ∗ (∃ f, (c : Thread nD τ).loc cc0_scratch1 ↦{fullShare} f))

/-- The pipeline's proof data: no window, one point; what is owed before the point is the launch's, after it nothing. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Data

/-! ## What the run delivers -/

/-- Device `c`'s memory after the run: the argument as it was; the result reads, through each chunk's rows, that chunk's
    sums: the own chunks' on the own rows, the row peer's chunks' on the row peer's rows. -/
def QY (c : Dev nD) (s : MemSt nD τ sig (Elt F)) : Prop :=
  s.mem ((c.tc : Thread nD τ).loc main_arg0) = m ((c.tc : Thread nD τ).loc main_arg0)
  ∧ ∀ r : Fin 64, (oO c r).view.read (Elt F) (s.mem ((c.tc : Thread nD τ).loc main_v1)) = sVal m c r
      ∧ (oO (xp c) r).view.read (Elt F) (s.mem ((c.tc : Thread nD τ).loc main_v1)) = sVal m (xp c) r

end Cert.KernelIdeal.RS

end
-- ==== Proof.RsKernelIdeal.Levels.lean ====
/-
  The chunk sets a device's tallies range over, peeled one chunk at a time; where each tally can be positive; the
  levels of the cells, and that every wait of the protocol sits below everything its device owes at that wait;
  the credit the launch deals a device: two units on its barrier cell (one from each peer), one block's credit on
  each column receive cell (from the column peer) and on each row receive cell (from the row peer).
-/
import proofs.«900313_g7700000000000314_dist_rs_v7x_xy2x2_y_m8192_n1024_f32_1_alg».proof.Proof.RsKernelIdeal.Tally

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunk sets -/

theorem mem_fromK {k : ℕ} {x : Fin 64} : x ∈ fromK k ↔ k ≤ x.val := by
  unfold fromK; rw [Finset.mem_filter]; exact ⟨fun h => h.2, fun h => ⟨Finset.mem_univ _, h⟩⟩
theorem mem_uptoK {k : ℕ} {x : Fin 64} : x ∈ uptoK k ↔ x.val < k := by
  unfold uptoK; rw [Finset.mem_filter]; exact ⟨fun h => h.2, fun h => ⟨Finset.mem_univ _, h⟩⟩

theorem fromK_zero : fromK 0 = Finset.univ := Finset.ext fun x => by rw [mem_fromK]; exact ⟨fun _ => Finset.mem_univ _, fun _ => Nat.zero_le _⟩
theorem fromK_64 : fromK 64 = ∅ := Finset.ext fun x => by
  rw [mem_fromK]; exact ⟨fun h => absurd x.isLt (by omega), fun h => absurd h (Finset.notMem_empty _)⟩
theorem uptoK_zero : uptoK 0 = ∅ := Finset.ext fun x => by
  rw [mem_uptoK]; exact ⟨fun h => absurd h (Nat.not_lt_zero _), fun h => absurd h (Finset.notMem_empty _)⟩
theorem uptoK_64 : uptoK 64 = Finset.univ := Finset.ext fun x => by rw [mem_uptoK]; exact ⟨fun _ => Finset.mem_univ _, fun _ => x.isLt⟩

theorem notMem_fromK_succ (r : Fin 64) : r ∉ fromK (r.val + 1) := by rw [mem_fromK]; omega
theorem notMem_uptoK_self (r : Fin 64) : r ∉ uptoK r.val := by rw [mem_uptoK]; omega

/-- The chunks from \`r\` on: chunk \`r\` and the chunks after it. -/
theorem fromK_peel (r : Fin 64) : fromK r.val = insert r (fromK (r.val + 1)) := Finset.ext fun x => by
  rw [Finset.mem_insert, mem_fromK, mem_fromK]
  constructor
  · intro h
    by_cases hx : x = r
    · exact Or.inl hx
    · exact Or.inr (by have : x.val ≠ r.val := fun h' => hx (Fin.ext h'); omega)
  · rintro (h | h)
    · rw [h]
    · omega
/-- The chunks up to and including \`r\`: chunk \`r\` and the chunks before it. -/
theorem uptoK_push (r : Fin 64) : uptoK (r.val + 1) = insert r (uptoK r.val) := Finset.ext fun x => by
  rw [Finset.mem_insert, mem_uptoK, mem_uptoK]
  constructor
  · intro h
    by_cases hx : x = r
    · exact Or.inl hx
    · exact Or.inr (by have : x.val ≠ r.val := fun h' => hx (Fin.ext h'); omega)
  · rintro (h | h)
    · rw [h]; omega
    · omega

theorem bigSep_fromK_peel (Φ : Fin 64 → sProp 𝕄) (r : Fin 64) :
    bigSep (fromK r.val) Φ = iprop(Φ r ∗ bigSep (fromK (r.val + 1)) Φ) := by
  rw [fromK_peel r, bigSep_insert (notMem_fromK_succ r)]; rfl
theorem bigSep_uptoK_push (Φ : Fin 64 → sProp 𝕄) (r : Fin 64) :
    bigSep (uptoK (r.val + 1)) Φ = iprop(Φ r ∗ bigSep (uptoK r.val) Φ) := by
  rw [uptoK_push r, bigSep_insert (notMem_uptoK_self r)]; rfl

/-! ## The tallies, chunk by chunk -/

theorem Oy_peel (c : Dev nD) (r : Fin 64) : Oy c r.val = Oy c (r.val + 1) + tallyAt (yrecvC (yp c) r) () N := by
  unfold Oy; rw [fromK_peel r, Finset.sum_insert (notMem_fromK_succ r), add_comm]
theorem Ox_peel (c : Dev nD) (r : Fin 64) : Ox c r.val = Ox c (r.val + 1) + tallyAt (xrecvC (xp c) r) () N := by
  unfold Ox; rw [fromK_peel r, Finset.sum_insert (notMem_fromK_succ r), add_comm]
theorem Oy_64 (c : Dev nD) : Oy c 64 = 0 := by unfold Oy; rw [fromK_64, Finset.sum_empty]
theorem Ox_64 (c : Dev nD) : Ox c 64 = 0 := by unfold Ox; rw [fromK_64, Finset.sum_empty]

/-! ## The cells are distinct -/

theorem bar_inj {a b : Dev nD} (h : barC a = barC b) : a = b := congrArg (fun g : GSem nD τ sig => g.1.1) h
theorem yrecv_inj {a b : Dev nD} {r r' : Fin 64} (h : yrecvC a r = yrecvC b r') : a = b ∧ r = r' := by
  refine ⟨congrArg (fun g : GSem nD τ sig => g.1.1) h, ?_⟩
  have h2 : (SemLoc.dma (yrecvQ r) : SemLoc sig) = .dma (yrecvQ r') := congrArg Prod.snd h
  have h3 : 64 + r.val = 64 + r'.val := congrArg Fin.val (SemLoc.dma.inj h2)
  exact Fin.ext (Nat.add_left_cancel h3)
theorem xrecv_inj {a b : Dev nD} {r r' : Fin 64} (h : xrecvC a r = xrecvC b r') : a = b ∧ r = r' := by
  refine ⟨congrArg (fun g : GSem nD τ sig => g.1.1) h, ?_⟩
  have h2 : (SemLoc.dma (xrecvQ r) : SemLoc sig) = .dma (xrecvQ r') := congrArg Prod.snd h
  have h3 : 192 + r.val = 192 + r'.val := congrArg Fin.val (SemLoc.dma.inj h2)
  exact Fin.ext (Nat.add_left_cancel h3)
theorem yrecv_ne_bar (a b : Dev nD) (r : Fin 64) : yrecvC a r ≠ barC b := fun h => by
  have h2 : (SemLoc.dma (yrecvQ r) : SemLoc sig) = .reg barS := congrArg Prod.snd h
  cases h2
theorem xrecv_ne_bar (a b : Dev nD) (r : Fin 64) : xrecvC a r ≠ barC b := fun h => by
  have h2 : (SemLoc.dma (xrecvQ r) : SemLoc sig) = .reg barS := congrArg Prod.snd h
  cases h2
theorem yrecv_ne_xrecv (a b : Dev nD) (r r' : Fin 64) : yrecvC a r ≠ xrecvC b r' := fun h => by
  have h2 : (SemLoc.dma (yrecvQ r) : SemLoc sig) = .dma (xrecvQ r') := congrArg Prod.snd h
  have h3 : 64 + r.val = 192 + r'.val := congrArg Fin.val (SemLoc.dma.inj h2)
  have := r.isLt; omega

theorem eq_yp_iff {c d : Dev nD} : c = yp d ↔ d = yp c := ⟨fun h => by rw [h, yp_yp], fun h => by rw [h, yp_yp]⟩
theorem eq_xp_iff {c d : Dev nD} : c = xp d ↔ d = xp c := ⟨fun h => by rw [h, xp_xp], fun h => by rw [h, xp_xp]⟩

/-! ## Where the tallies are positive -/

theorem tallyAt_unit (g' : GSem nD τ sig) (k : ℕ) (g : GSem nD τ sig) (u : Unit) :
    (tallyAt g' () k : CellTallies nD τ sig Unit) g u = if g = g' then k else 0 := by
  rw [tallyAt_apply]
  by_cases h : g = g'
  · rw [if_pos ⟨h, rfl⟩, if_pos h]
  · rw [if_neg (fun h' => h h'.1), if_neg h]

/-- A sum of one-cell tallies, read at a cell. -/
theorem sum_tally_apply (s : Finset (Fin 64)) (f : Fin 64 → GSem nD τ sig) (k : ℕ) (g : GSem nD τ sig) (u : Unit) :
    (∑ r ∈ s, (tallyAt (f r) () k : CellTallies nD τ sig Unit)) g u = ∑ r ∈ s, if g = f r then k else 0 := by
  rw [Finset.sum_apply, Finsupp.finset_sum_apply]
  exact Finset.sum_congr rfl fun r _ => tallyAt_unit (f r) k g u

theorem sum_tally_pos {s : Finset (Fin 64)} {f : Fin 64 → GSem nD τ sig} {k : ℕ} {g : GSem nD τ sig} {u : Unit}
    (h : 0 < (∑ r ∈ s, (tallyAt (f r) () k : CellTallies nD τ sig Unit)) g u) : ∃ r, g = f r := by
  by_contra hn
  rw [not_exists] at hn
  rw [sum_tally_apply, Finset.sum_eq_zero fun r _ => if_neg (hn r)] at h
  exact Nat.lt_irrefl 0 h

theorem Oy_pos {c : Dev nD} {k : ℕ} {g : GSem nD τ sig} {u : Unit} (h : 0 < Oy c k g u) : ∃ r, g = yrecvC (yp c) r := sum_tally_pos h
theorem Ox_pos {c : Dev nD} {k : ℕ} {g : GSem nD τ sig} {u : Unit} (h : 0 < Ox c k g u) : ∃ r, g = xrecvC (xp c) r := sum_tally_pos h
theorem add_tally_pos {A B : CellTallies nD τ sig Unit} {g : GSem nD τ sig} {u : Unit} (h : 0 < (A + B) g u) : 0 < A g u ∨ 0 < B g u := by
  rw [Pi.add_apply, Finsupp.add_apply] at h; omega

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_reg (t : Thread nD τ) (s : Sem sig) (u : Unit) : lv (t, .reg s) u = 1 := rfl
theorem lv_yrecv (c : Dev nD) (r : Fin 64) (u : Unit) : lv (yrecvC c r) u = 2 := by
  have := r.isLt
  show (if 64 ≤ 64 + r.val ∧ 64 + r.val < 128 then 2 else if 192 ≤ 64 + r.val ∧ 64 + r.val < 256 then 3 else 0) = 2
  rw [if_pos ⟨by omega, by omega⟩]
theorem lv_xrecv (c : Dev nD) (r : Fin 64) (u : Unit) : lv (xrecvC c r) u = 3 := by
  have := r.isLt
  show (if 64 ≤ 192 + r.val ∧ 192 + r.val < 128 then 2 else if 192 ≤ 192 + r.val ∧ 192 + r.val < 256 then 3 else 0) = 3
  rw [if_neg (fun h => by omega), if_pos ⟨by omega, by omega⟩]
theorem lv_low (t : Thread nD τ) (q : DmaSem sig) (hq : ¬ (64 ≤ q.val ∧ q.val < 128) ∧ ¬ (192 ≤ q.val ∧ q.val < 256)) (u : Unit) :
    lv (t, .dma q) u = 0 := by
  show (if 64 ≤ q.val ∧ q.val < 128 then 2 else if 192 ≤ q.val ∧ q.val < 256 then 3 else 0) = 0
  rw [if_neg hq.1, if_neg hq.2]

omit [FloatOps F] in
/-- At its barrier wait a device owes receive credit only: cells above its barrier cell. -/
theorem mayWait_bar (c : Dev nD) :
    (levAts L lv : sProp 𝕄) ⊢ MayWait (c : Thread nD τ) (.reg barS) () (Oy c 0 + Ox c 0) :=
  MayOwe.of_cut (L := L) (lev := lv) 1
    (fun p hp => by rw [Finset.mem_singleton.mp hp, L_tc]; exact Finset.mem_singleton_self _)
    (fun g u hg => by
      rcases add_tally_pos hg with h | h
      · obtain ⟨r, rfl⟩ := Oy_pos h; rw [L_tc]; exact Finset.mem_singleton_self _
      · obtain ⟨r, rfl⟩ := Ox_pos h; rw [L_tc]; exact Finset.mem_singleton_self _)
    (fun p hp => by rw [Finset.mem_singleton.mp hp, lv_reg])
    (fun g u hg => by
      rcases add_tally_pos hg with h | h
      · obtain ⟨r, rfl⟩ := Oy_pos h; rw [lv_yrecv]; decide
      · obtain ⟨r, rfl⟩ := Ox_pos h; rw [lv_xrecv]; decide)

omit [FloatOps F] in
/-- At the wait on a column receive cell a device owes row receive credit only. -/
theorem mayWait_yrecv (c : Dev nD) (r : Fin 64) (k : ℕ) :
    (levAts L lv : sProp 𝕄) ⊢ MayWait (c : Thread nD τ) (.dma (yrecvQ r)) () (Ox c k) :=
  MayOwe.of_cut (L := L) (lev := lv) 2
    (fun p hp => by rw [Finset.mem_singleton.mp hp, L_tc]; exact Finset.mem_singleton_self _)
    (fun g u hg => by obtain ⟨r', rfl⟩ := Ox_pos hg; rw [L_tc]; exact Finset.mem_singleton_self _)
    (fun p hp => by rw [Finset.mem_singleton.mp hp]; exact le_of_eq (lv_yrecv c r ()))
    (fun g u hg => by obtain ⟨r', rfl⟩ := Ox_pos hg; rw [lv_xrecv]; decide)

omit [FloatOps F] in
/-- A cell at the bottom level may be waited on whatever row receive credit is owed. -/
theorem mayWait_low (c : Dev nD) (q : DmaSem sig) (hq : ¬ (64 ≤ q.val ∧ q.val < 128) ∧ ¬ (192 ≤ q.val ∧ q.val < 256)) (k : ℕ) :
    (levAts L lv : sProp 𝕄) ⊢ MayWait (c : Thread nD τ) (.dma q) () (Ox c k) :=
  MayOwe.of_cut (L := L) (lev := lv) 0
    (fun p hp => by rw [Finset.mem_singleton.mp hp, L_tc]; exact Finset.mem_singleton_self _)
    (fun g u hg => by obtain ⟨r', rfl⟩ := Ox_pos hg; rw [L_tc]; exact Finset.mem_singleton_self _)
    (fun p hp => by rw [Finset.mem_singleton.mp hp]; exact le_of_eq (lv_low _ q hq ()))
    (fun g u hg => by obtain ⟨r', rfl⟩ := Ox_pos hg; rw [lv_xrecv]; decide)

/-! ## The launch credit -/

/-- What device \`d\` owes at launch, read at a cell. -/
theorem O₀_apply (d : Dev nD) (g : GSem nD τ sig) (u : Unit) :
    O₀ d g u = (((∑ r : Fin 64, if g = yrecvC (yp d) r then N else 0) + (∑ r : Fin 64, if g = xrecvC (xp d) r then N else 0))
      + (if g = barC (xp d) then 1 else 0)) + (if g = barC (yp d) then 1 else 0) := by
  unfold O₀ Oy Ox
  rw [fromK_zero, Pi.add_apply, Finsupp.add_apply, Pi.add_apply, Finsupp.add_apply, Pi.add_apply, Finsupp.add_apply,
    sum_tally_apply, sum_tally_apply, tallyAt_unit, tallyAt_unit]

/-- What device \`d\` owes device \`c\`'s barrier cell: a unit if it is \`c\`'s row peer, a unit if it is \`c\`'s column peer. -/
theorem owed_bar (d c : Dev nD) : O₀ d (barC c) () = (if d = xp c then 1 else 0) + (if d = yp c then 1 else 0) := by
  rw [O₀_apply, Finset.sum_eq_zero fun r _ => if_neg (fun h => yrecv_ne_bar _ _ _ h.symm),
    Finset.sum_eq_zero fun r _ => if_neg (fun h => xrecv_ne_bar _ _ _ h.symm), Nat.add_zero, Nat.zero_add]
  congr 1
  · exact if_congr ⟨fun h => eq_xp_iff.mp (bar_inj h), fun h => congrArg barC (eq_xp_iff.mp h)⟩ rfl rfl
  · exact if_congr ⟨fun h => eq_yp_iff.mp (bar_inj h), fun h => congrArg barC (eq_yp_iff.mp h)⟩ rfl rfl

/-- What device \`d\` owes device \`c\`'s column receive cell of chunk \`r\`: the block's credit if it is \`c\`'s column peer. -/
theorem owed_yrecv (d c : Dev nD) (r : Fin 64) : O₀ d (yrecvC c r) () = if d = yp c then N else 0 := by
  rw [O₀_apply, Finset.sum_eq_zero (f := fun r' => if yrecvC c r = xrecvC (xp d) r' then N else 0) fun r' _ => if_neg (yrecv_ne_xrecv _ _ _ _),
    if_neg (yrecv_ne_bar _ _ _), if_neg (yrecv_ne_bar _ _ _)]
  simp only [Nat.add_zero]
  by_cases h : d = yp c
  · subst h
    rw [yp_yp, if_pos rfl, Finset.sum_congr rfl fun r' _ => if_congr (P := yrecvC c r = yrecvC c r') (Q := r = r')
      ⟨fun h => (yrecv_inj h).2, fun h => congrArg (yrecvC c) h⟩ rfl rfl,
      Finset.sum_ite_eq Finset.univ r fun _ => N, if_pos (Finset.mem_univ _)]
  · rw [if_neg h, Finset.sum_eq_zero fun r' _ => if_neg (fun h' => h (eq_yp_iff.mp (yrecv_inj h').1))]

/-- What device \`d\` owes device \`c\`'s row receive cell of chunk \`r\`: the block's credit if it is \`c\`'s row peer. -/
theorem owed_xrecv (d c : Dev nD) (r : Fin 64) : O₀ d (xrecvC c r) () = if d = xp c then N else 0 := by
  rw [O₀_apply, Finset.sum_eq_zero (f := fun r' => if xrecvC c r = yrecvC (yp d) r' then N else 0) fun r' _ => if_neg (fun h => yrecv_ne_xrecv _ _ _ _ h.symm),
    if_neg (xrecv_ne_bar _ _ _), if_neg (xrecv_ne_bar _ _ _)]
  simp only [Nat.add_zero, Nat.zero_add]
  by_cases h : d = xp c
  · subst h
    rw [xp_xp, if_pos rfl, Finset.sum_congr rfl fun r' _ => if_congr (P := xrecvC c r = xrecvC c r') (Q := r = r')
      ⟨fun h => (xrecv_inj h).2, fun h => congrArg (xrecvC c) h⟩ rfl rfl,
      Finset.sum_ite_eq Finset.univ r fun _ => N, if_pos (Finset.mem_univ _)]
  · rw [if_neg h, Finset.sum_eq_zero fun r' _ => if_neg (fun h' => h (eq_xp_iff.mp (xrecv_inj h').1))]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

theorem launch_yrecv (c : Dev nD) (r : Fin 64) :
    tallyOn (yrecvC c r) (launchCredit (Pipeline.owing O₀) 0 (yrecvC c r)) = (tallyAt (yrecvC c r) () N : CellTallies nD τ sig Unit) := by
  unfold tallyAt; refine congrArg _ (Finsupp.ext fun u => ?_); cases u
  rw [Pipeline.launchCredit_owing, Finsupp.single_eq_same, Finset.sum_congr rfl fun d _ => owed_yrecv d c r,
    Finset.sum_ite_eq' Finset.univ (yp c) fun _ => N, if_pos (Finset.mem_univ _)]

theorem launch_xrecv (c : Dev nD) (r : Fin 64) :
    tallyOn (xrecvC c r) (launchCredit (Pipeline.owing O₀) 0 (xrecvC c r)) = (tallyAt (xrecvC c r) () N : CellTallies nD τ sig Unit) := by
  unfold tallyAt; refine congrArg _ (Finsupp.ext fun u => ?_); cases u
  rw [Pipeline.launchCredit_owing, Finsupp.single_eq_same, Finset.sum_congr rfl fun d _ => owed_xrecv d c r,
    Finset.sum_ite_eq' Finset.univ (xp c) fun _ => N, if_pos (Finset.mem_univ _)]

/-- The semaphores of the column receive cells, and of the row receive cells. -/
def yq (r : Fin 64) : SemLoc sig := .dma (yrecvQ r)
def xq (r : Fin 64) : SemLoc sig := .dma (xrecvQ r)

theorem yq_inj : Function.Injective yq := fun r r' h => by
  have h3 : 64 + r.val = 64 + r'.val := congrArg Fin.val (SemLoc.dma.inj h)
  exact Fin.ext (Nat.add_left_cancel h3)
theorem xq_inj : Function.Injective xq := fun r r' h => by
  have h3 : 192 + r.val = 192 + r'.val := congrArg Fin.val (SemLoc.dma.inj h)
  exact Fin.ext (Nat.add_left_cancel h3)
theorem yq_ne_xq (r r' : Fin 64) : yq r ≠ xq r' := fun h => by
  have h3 : 64 + r.val = 192 + r'.val := congrArg Fin.val (SemLoc.dma.inj h)
  have := r.isLt; omega

omit [FloatOps F] in
/-- The credit the launch deals device \`c\`: two units on its barrier cell, one block's credit on each receive cell. -/
theorem creds (c : Dev nD) :
    (Pipeline.launchCred O₀ c : sProp 𝕄) ⊢ iprop(cred (tallyAt (barC c) () 2)
      ∗ (bigSep Finset.univ fun r : Fin 64 => cred (tallyAt (yrecvC c r) () N))
      ∗ (bigSep Finset.univ fun r : Fin 64 => cred (tallyAt (xrecvC c r) () N))) := by
  unfold Pipeline.launchCred
  rw [bigSep_univ_at _ (SemLoc.reg barS), launch_bar]
  refine sep_mono_right ?_
  have hsub : (Finset.univ.image yq ∪ Finset.univ.image xq) ⊆ (Finset.univ : Finset (SemLoc sig)).erase (SemLoc.reg barS) := fun sm hsm => by
    refine Finset.mem_erase.mpr ⟨fun h => ?_, Finset.mem_univ _⟩
    rcases Finset.mem_union.mp hsm with h' | h'
    · obtain ⟨r, _, e⟩ := Finset.mem_image.mp h'; rw [h] at e; cases e
    · obtain ⟨r, _, e⟩ := Finset.mem_image.mp h'; rw [h] at e; cases e
  have hdis : Disjoint ((Finset.univ : Finset (Fin 64)).image yq) (Finset.univ.image xq) := Finset.disjoint_left.mpr fun sm h1 h2 => by
    obtain ⟨r, _, e⟩ := Finset.mem_image.mp h1
    obtain ⟨r', _, e'⟩ := Finset.mem_image.mp h2
    exact yq_ne_xq r r' (e.trans e'.symm)
  refine (bigSep_subset hsub).trans ?_
  rw [bigSep_union hdis, bigSep_image_of_injOn (yq_inj.injOn), bigSep_image_of_injOn (xq_inj.injOn)]
  refine BIClass.sep_mono (Entails.of_eq (bigSep_congr fun r _ => ?_)) (Entails.of_eq (bigSep_congr fun r _ => ?_))
  · exact congrArg cred (launch_yrecv c r)
  · exact congrArg cred (launch_xrecv c r)

/-- info: 'Cert.KernelIdeal.RS.mayWait_bar' depends on axioms: [propext, Classical.choice, Quot.sound] -/
#guard_msgs in #print axioms mayWait_bar
/-- info: 'Cert.KernelIdeal.RS.mayWait_yrecv' depends on axioms: [propext, Classical.choice, Quot.sound] -/
#guard_msgs in #print axioms mayWait_yrecv
/-- info: 'Cert.KernelIdeal.RS.mayWait_low' depends on axioms: [propext, Classical.choice, Quot.sound] -/
#guard_msgs in #print axioms mayWait_low
/-- info: 'Cert.KernelIdeal.RS.bigSep_fromK_peel' depends on axioms: [propext, Classical.choice, Quot.sound] -/
#guard_msgs in #print axioms bigSep_fromK_peel
/-- info: 'Cert.KernelIdeal.RS.creds' depends on axioms: [propext, Classical.choice, Quot.sound] -/
#guard_msgs in #print axioms creds

end Cert.KernelIdeal.RS

end
-- ==== Proof.RsKernelIdeal.Views.lean ====
/-
  Reduce-scatter over a 2×2 mesh: the small equations between what the body's operations name and the protocol's names, each
  at a symbolic chunk `r`, staging slot `s` and device `c`.
  The semaphore an operation picks out of an array is the cell at the array's base plus the entry; every copy credits the
  same amount, that of one 64 × 1024 block of f32; a load through a whole buffer at a block's rows reads what the block's
  slice reads; the staging slot read as a rank-3 block is its rank-2 contents in the same row-major order; the stored value
  is the sum of the received and the staged block; and a block read after an unmasked write through it is the payload.
-/
import proofs.«900313_g7700000000000314_dist_rs_v7x_xy2x2_y_m8192_n1024_f32_1_alg».proof.Proof.RsKernelIdeal.Proto
import Idealize.ShloMosaic.Lib.Pipeline.Value
import Idealize.ShloMosaic.Lib.Memref

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The semaphores

Each of the six semaphore arrays is a run of consecutive positions of the pool. Picking entry `r` of a run that starts at
`base` (a slice of one entry, then dropping the axis) names position `base + r`: a one-entry index has coordinate 0, and the
row-major position of a rank-one index is its coordinate. Nothing depends on the in-bounds or the squeeze evidence. -/

/-- The one coordinate of a one-entry index is 0. -/
theorem idx_S1_zero (j : S1.Idx) : (j 0 : Nat) = 0 := Nat.lt_one_iff.mp (j 0).isLt

/-- Entry `r` of a run of 64 from `base` is position `base + r`. -/
theorem sem_run64_val {n : Nat} (base : Nat) (hb : base + S64.numel ≤ n) (r : Fin 64)
    (h : ∀ a, (![r.val] : Fin 1 → Nat) a + S1.size a ≤ S64.size a) (h' : S1.Squeezes S_) :
    ((((SemArray.consecutive base S64 hb : SemArray (Fin n) S64).slice (Rect.unit (s := S64) ![r.val] S1.size h)).squeeze S_ h').sem : Nat)
      = base + r.val := by
  show base + (S64.rowMajor _ : Nat) = base + r.val
  rw [Shape.rowMajor_val_one, Rect.emb_apply, idx_S1_zero]
  rfl

/-- Entry `s` of a run of 2 from `base` is position `base + s`. -/
theorem sem_run2_val {n : Nat} (base : Nat) (hb : base + S2.numel ≤ n) (s : Fin 2)
    (h : ∀ a, (![s.val] : Fin 1 → Nat) a + S1.size a ≤ S2.size a) (h' : S1.Squeezes S_) :
    ((((SemArray.consecutive base S2 hb : SemArray (Fin n) S2).slice (Rect.unit (s := S2) ![s.val] S1.size h)).squeeze S_ h').sem : Nat)
      = base + s.val := by
  show base + (S2.rowMajor _ : Nat) = base + s.val
  rw [Shape.rowMajor_val_one, Rect.emb_apply, idx_S1_zero]
  rfl

theorem sem_ysend (r : Fin 64) (h : ∀ a, (![r.val] : Fin 1 → Nat) a + S1.size a ≤ S64.size a) (h' : S1.Squeezes S_) :
    ((cc0_scratch2.slice (Rect.unit (s := S64) ![r.val] S1.size h)).squeeze S_ h').sem = ysendQ r :=
  Fin.ext ((sem_run64_val 0 _ r h h').trans (Nat.zero_add _))
theorem sem_yrecv (r : Fin 64) (h : ∀ a, (![r.val] : Fin 1 → Nat) a + S1.size a ≤ S64.size a) (h' : S1.Squeezes S_) :
    ((cc0_scratch3.slice (Rect.unit (s := S64) ![r.val] S1.size h)).squeeze S_ h').sem = yrecvQ r :=
  Fin.ext (sem_run64_val 64 _ r h h')
theorem sem_xsend (r : Fin 64) (h : ∀ a, (![r.val] : Fin 1 → Nat) a + S1.size a ≤ S64.size a) (h' : S1.Squeezes S_) :
    ((cc0_scratch4.slice (Rect.unit (s := S64) ![r.val] S1.size h)).squeeze S_ h').sem = xsendQ r :=
  Fin.ext (sem_run64_val 128 _ r h h')
theorem sem_xrecv (r : Fin 64) (h : ∀ a, (![r.val] : Fin 1 → Nat) a + S1.size a ≤ S64.size a) (h' : S1.Squeezes S_) :
    ((cc0_scratch5.slice (Rect.unit (s := S64) ![r.val] S1.size h)).squeeze S_ h').sem = xrecvQ r :=
  Fin.ext (sem_run64_val 192 _ r h h')
theorem sem_cpin (s : Fin 2) (h : ∀ a, (![s.val] : Fin 1 → Nat) a + S1.size a ≤ S2.size a) (h' : S1.Squeezes S_) :
    ((cc0_scratch6.slice (Rect.unit (s := S2) ![s.val] S1.size h)).squeeze S_ h').sem = cpinQ s :=
  Fin.ext (sem_run2_val 256 _ s h h')
theorem sem_cpout (r : Fin 64) (h : ∀ a, (![r.val] : Fin 1 → Nat) a + S1.size a ≤ S64.size a) (h' : S1.Squeezes S_) :
    ((cc0_scratch7.slice (Rect.unit (s := S64) ![r.val] S1.size h)).squeeze S_ h').sem = cpoutQ r :=
  Fin.ext (sem_run64_val 258 _ r h h')

/-! ## The credits

What a copy credits its semaphore depends on the shape and element type moved only, never on the buffer: every copy of the
kernel moves one 64 × 1024 block of f32, so every one credits `N`. -/

theorem credit_rS (r : Fin 64) : (rS r).view.dmaCredit = N := rfl
theorem credit_lS (s : Fin 2) : (lS s).view.dmaCredit = N := rfl
theorem credit_oO (c : Dev nD) (r : Fin 64) : (oO c r).view.dmaCredit = N := rfl
theorem credit_oP (c : Dev nD) (r : Fin 64) : (oP c r).view.dmaCredit = N := rfl
theorem credit_xA (c : Dev nD) (r : Fin 64) : (xA c r).view.dmaCredit = N := rfl
theorem credit_xB (c : Dev nD) (r : Fin 64) : (xB c r).view.dmaCredit = N := rfl

/-- Any 64 × 1024 view of f32, on any buffer of any space, credits `N`. -/
theorem credit_any {sp : Space} (d : Memref sig .tc sp S64x1024 .f32) : d.view.dmaCredit = N := rfl

theorem amount_rS (r : Fin 64) (q : DmaSem sig) : (rS r).view.amount (.dma q) = N := rfl
theorem amount_lS (s : Fin 2) (q : DmaSem sig) : (lS s).view.amount (.dma q) = N := rfl
theorem amount_oO (c : Dev nD) (r : Fin 64) (q : DmaSem sig) : (oO c r).view.amount (.dma q) = N := rfl
theorem amount_oP (c : Dev nD) (r : Fin 64) (q : DmaSem sig) : (oP c r).view.amount (.dma q) = N := rfl
theorem amount_xA (c : Dev nD) (r : Fin 64) (q : DmaSem sig) : (xA c r).view.amount (.dma q) = N := rfl
theorem amount_xB (c : Dev nD) (r : Fin 64) (q : DmaSem sig) : (xB c r).view.amount (.dma q) = N := rfl
theorem amount_any {sp : Space} (d : Memref sig .tc sp S64x1024 .f32) (q : DmaSem sig) : d.view.amount (.dma q) = N := rfl

/-! ## The receive rows

A load through the whole receive buffer at the rows of chunk `r` reads what the slice of those rows reads; a store there goes
through that slice's elements, and reading the slice after an unmasked store gives back what was stored. -/

section Recv
variable (c : Dev nD) (r : Fin 64)

theorem load_recv (f : Buf (Elt F) ((c : Thread nD τ).loc cc0_scratch0)) :
    rM.view.readAt (Elt F) (rRect r).toLoadRect f = (rS r).view.read (Elt F) f := rfl

theorem set_access_recv : (rM.access (rRect r)).set = (rS r).view.set := rfl

theorem read_store_recv (f : Buf (Elt F) ((c : Thread nD τ).loc cc0_scratch0)) (w : Vec F S64x1024 .f32) :
    (rS r).view.read (Elt F) ((rM.access (rRect r)).write (Elt F) f w Finset.univ) = w :=
  View.read_write_univ (v := (rS r).view) f w

end Recv

/-! ## The staging slot

Slot `s` of the staging buffer is one 1 × 64 × 1024 block; with its unit axis dropped it is a 64 × 1024 block with the same
elements in the same row-major order. So the rank-3 load of the slot is the rank-2 contents, re-indexed. -/

theorem shapeCasts_S64x1024_S1x64x1024 : S64x1024.ShapeCasts S1x64x1024 := by decide

theorem load_stage (c : Dev nD) (s : Fin 2) (f : Buf (Elt F) ((c : Thread nD τ).loc cc0_scratch1)) (b : Vec F S64x1024 .f32)
    (hb : (lS s).view.read (Elt F) f = b) (hc : S64x1024.ShapeCasts S1x64x1024) :
    lM.view.readAt (Elt F) (lRect s).toLoadRect f = shapeCast S1x64x1024 b hc := by
  subst hb
  rw [Memref.read_squeeze_slice lM (lRect s) (fun _ => rfl) squeezes_S1x64x1024_S64x1024 shapeCasts_S1x64x1024_S64x1024 f]
  exact (shapeCast_shapeCast _ _ _).symm

theorem set_lS (s : Fin 2) : (lS s).view.set = (lS3 s).view.set := View.set_reshape _ _
theorem set_lS3 (s : Fin 2) : (lS3 s).view.set = (lM.access (lRect s)).set := rfl
theorem set_lS_access (s : Fin 2) : (lS s).view.set = (lM.access (lRect s)).set := View.set_reshape _ _

/-! ## The sum

The stored value: the staged block re-indexed back to 64 × 1024, added to the received block, then cast to its own shape.
Both re-indexings cancel. -/

theorem pay_eq_addf (P : Vec F S64x1024 .f32 → Vec F S1x64x1024 .f32 → FVec F S64x1024 .f32)
    (hP : ∀ y v, P y v = shapeCast S64x1024 (addf y (shapeCast S64x1024 v shapeCasts_S1x64x1024_S64x1024)) shapeCasts_S64x1024_S64x1024)
    (y b : Vec F S64x1024 .f32) (hc : S64x1024.ShapeCasts S1x64x1024) :
    P y (shapeCast S1x64x1024 b hc) = addf y b := by
  rw [hP, shapeCast_self, shapeCast_shapeCast]

theorem k0_pay1_eq_addf (y b : Vec F S64x1024 .f32) (hc : S64x1024.ShapeCasts S1x64x1024) :
    k0_pay1 y (shapeCast S1x64x1024 b hc) = addf y b :=
  pay_eq_addf k0_pay1 (fun _ _ => rfl) y b hc

/-! ## A landing

Reading a view after an unmasked write through it gives the payload; so the written elements are owned at the payload. -/

theorem read_landed (t : Thread nD τ) {sp : Space} {sh : Shape} {e : EltTy} (d : Memref sig t.2.kind sp sh e)
    (fd : d.view.ty.Contents (Elt F)) (w : sh.Idx → Elt F e) :
    d.view.read (Elt F) (d.view.write (Elt F) fd w Finset.univ) = w := View.read_write_univ fd w

theorem owns_of_landed (t : Thread nD τ) {sp : Space} {sh : Shape} {e : EltTy} (d : Memref sig t.2.kind sp sh e) (q : PosShare TreeShare)
    (fd : d.view.ty.Contents (Elt F)) (w : sh.Idx → Elt F e) :
    (d.view.loc t ↦[d.view.set]{q} (d.view.write (Elt F) fd w Finset.univ) : sProp 𝕄) ⊢ owns t d q w := by
  have h := owns_intro (Val := Elt F) (Ix := Unit) (Name := ℕ) (U := UU) (Lvl := ℕ) t d q (d.view.write (Elt F) fd w Finset.univ)
  rw [View.read_write_univ] at h
  exact h

theorem owns_of_landed_rS (c : Dev nD) (r : Fin 64) (q : PosShare TreeShare)
    (fd : Buf (Elt F) ((c : Thread nD τ).loc cc0_scratch0)) (w : Vec F S64x1024 .f32) :
    ((rS r).view.loc (c : Thread nD τ) ↦[(rS r).view.set]{q} ((rS r).view.write (Elt F) fd w Finset.univ) : sProp 𝕄)
      ⊢ owns (c : Thread nD τ) (rS r) q w := owns_of_landed (c : Thread nD τ) (rS r) q fd w
theorem owns_of_landed_lS (c : Dev nD) (s : Fin 2) (q : PosShare TreeShare)
    (fd : Buf (Elt F) ((c : Thread nD τ).loc cc0_scratch1)) (w : Vec F S64x1024 .f32) :
    ((lS s).view.loc (c : Thread nD τ) ↦[(lS s).view.set]{q} ((lS s).view.write (Elt F) fd w Finset.univ) : sProp 𝕄)
      ⊢ owns (c : Thread nD τ) (lS s) q w := owns_of_landed (c : Thread nD τ) (lS s) q fd w
theorem owns_of_landed_oO (c c' : Dev nD) (r : Fin 64) (q : PosShare TreeShare)
    (fd : Buf (Elt F) ((c : Thread nD τ).loc main_v1)) (w : Vec F S64x1024 .f32) :
    ((oO c' r).view.loc (c : Thread nD τ) ↦[(oO c' r).view.set]{q} ((oO c' r).view.write (Elt F) fd w Finset.univ) : sProp 𝕄)
      ⊢ owns (c : Thread nD τ) (oO c' r) q w := owns_of_landed (c : Thread nD τ) (oO c' r) q fd w

/-- info: 'Cert.KernelIdeal.RS.sem_yrecv' depends on axioms: [propext, Classical.choice, Quot.sound] -/
#guard_msgs in #print axioms sem_yrecv

/-- info: 'Cert.KernelIdeal.RS.sem_cpin' depends on axioms: [propext, Classical.choice, Quot.sound] -/
#guard_msgs in #print axioms sem_cpin

/-- info: 'Cert.KernelIdeal.RS.credit_any' depends on axioms: [propext, Classical.choice, Quot.sound] -/
#guard_msgs in #print axioms credit_any

/-- info: 'Cert.KernelIdeal.RS.read_store_recv' depends on axioms: [propext, Classical.choice, Quot.sound] -/
#guard_msgs in #print axioms read_store_recv

/-- info: 'Cert.KernelIdeal.RS.load_stage' depends on axioms: [propext, Classical.choice, Quot.sound] -/
#guard_msgs in #print axioms load_stage

/-- info: 'Cert.KernelIdeal.RS.k0_pay1_eq_addf' depends on axioms: [propext, Classical.choice, Quot.sound] -/
#guard_msgs in #print axioms k0_pay1_eq_addf

/-- info: 'Cert.KernelIdeal.RS.owns_of_landed' depends on axioms: [propext, Classical.choice, Quot.sound] -/
#guard_msgs in #print axioms owns_of_landed

end Cert.KernelIdeal.RS

end
-- ==== Proof.RsKernelIdeal.Edge.lean ====
/-
  Reduce-scatter over a 2×2 mesh, the two ends of a device's body. At entry the device's four buffers, whole, are cut
  into the chunks' pieces the body's states are written in. At exit the pieces, back from the last waits, are glued
  into the whole buffers: the argument as it was, the result reading each chunk's sums through that chunk's rows, the
  two scratch buffers at some contents; and every own copy cell, all its rounds over, is closed with its counter at zero.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Levels
import proofs.«900313_g7700000000000314_dist_rs_v7x_xy2x2_y_m8192_n1024_f32_1_alg».proof.Proof.RsKernelIdeal.Views
import proofs.«900313_g7700000000000314_dist_rs_v7x_xy2x2_y_m8192_n1024_f32_1_alg».proof.Proof.RsKernelIdeal.Regions
import Idealize.ShloMosaic.Lib.StableHlo.CollectiveRules

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Entry -/

/-- A region held at some contents is held at contents to be named. -/
private theorem pts_ex (ℓ : Loc nD τ sig) (I : Finset (Idx ℓ)) (f : Buf (Elt F) ℓ) :
    (ℓ ↦[I]{fullShare} f : sProp 𝕄) ⊢ iprop(∃ f, ℓ ↦[I]{fullShare} f) := by
  iintro H; iexists f; iexact H

private theorem pts_ex_family {T : Type} (S : Finset T) (ℓ : T → Loc nD τ sig) (I : (t : T) → Finset (Idx (ℓ t)))
    (f : (t : T) → Buf (Elt F) (ℓ t)) :
    bigSep S (fun t => (ℓ t ↦[I t]{fullShare} f t : sProp 𝕄)) ⊢ bigSep S (fun t => (iprop(∃ f, ℓ t ↦[I t]{fullShare} f) : sProp 𝕄)) :=
  bigSep_mono fun t _ => pts_ex (F := F) _ _ _

/-- The four buffers, whole, are the chunks' pieces the body starts from. -/
theorem entry_bufs (c : Dev nD) :
    (iprop(((c : Thread nD τ).loc main_arg0 ↦{fullShare} m ((c : Thread nD τ).loc main_arg0))
      ∗ ((c : Thread nD τ).loc main_v1 ↦{fullShare} m ((c : Thread nD τ).loc main_v1))
      ∗ (∃ f, (c : Thread nD τ).loc cc0_scratch0 ↦{fullShare} f)
      ∗ (∃ f, (c : Thread nD τ).loc cc0_scratch1 ↦{fullShare} f)) : sProp 𝕄) ⊢ bufs0 m c := by
  unfold bufs0 argRest ptsA ptsB freeRows freeOut freeSlot X
  have hL := fun fl => loc_split (F := F) (U := UU) c fl
  simp only [bigSep_univ_two] at hL
  iintro ⟨HA, HO, ⟨%fr, HR⟩, ⟨%fl, HL⟩⟩
  ihave HA' := (arg_split (F := F) (U := UU) c (m ((c : Thread nD τ).loc main_arg0))) $$ HA
  icases HA' with ⟨HA1, HA2, HA3⟩
  ihave HO' := (out_split (F := F) (U := UU) c (m ((c : Thread nD τ).loc main_v1))) $$ HO
  icases HO' with ⟨HO1, HO2⟩
  ihave HR' := (recv_split (F := F) (U := UU) c fr) $$ HR
  ihave HL' := (hL fl) $$ HL
  icases HL' with ⟨HL0, HL1⟩
  isplitl [HA1]; · iexact HA1
  isplitl [HA2]; · iexact HA2
  isplitl [HA3]; · iexact HA3
  isplitl [HR']
  · iapply (pts_ex_family (F := F) Finset.univ (fun r : Fin 64 => (rS r).view.loc (c : Thread nD τ)) (fun r => (rS r).view.set) (fun _ => fr))
    iexact HR'
  isplitl [HO1]
  · iapply (pts_ex_family (F := F) Finset.univ (fun r : Fin 64 => (oO c r).view.loc (c : Thread nD τ)) (fun r => (oO c r).view.set)
      (fun _ => m ((c : Thread nD τ).loc main_v1)))
    iexact HO1
  isplitl [HO2]
  · iapply (pts_ex_family (F := F) Finset.univ (fun r : Fin 64 => (oO (xp c) r).view.loc (c : Thread nD τ)) (fun r => (oO (xp c) r).view.set)
      (fun _ => m ((c : Thread nD τ).loc main_v1)))
    iexact HO2
  isplitl [HL0]
  · iapply (pts_ex (F := F)); iexact HL0
  · iapply (pts_ex (F := F)); iexact HL1

/-! ## Exit: the cells closed -/

/-- Every cell's invariant. -/
private abbrev CI (K : Dev nD × Fin 323 → ℕ) : sProp 𝕄 :=
  bigSep Finset.univ fun cj : Dev nD × Fin 323 => cellInv ER (sched m) (K cj) (kcell cj)

private theorem lt323 (q : Fin 322) : q.val < 323 := Nat.lt_succ_of_lt q.isLt

/-- The invariant of a device's copy cell, out of the family. -/
private theorem cellInv_dma (K : Dev nD × Fin 323 → ℕ) (c : Dev nD) (q : Fin 322) :
    CI m K ⊢ cellInv ER (sched m) (K (c, ⟨q.val, lt323 q⟩)) ((c : Thread nD τ), SemLoc.dma q) := by
  have h := bigSep_elim (Φ := fun cj : Dev nD × Fin 323 => cellInv ER (sched m) (K cj) (kcell cj))
    (Finset.mem_univ ((c, ⟨q.val, lt323 q⟩) : Dev nD × Fin 323))
  have e : kcell ((c, ⟨q.val, lt323 q⟩) : Dev nD × Fin 323) = ((c : Thread nD τ), SemLoc.dma q) := by
    show ((c : Thread nD τ), csem _) = _
    congr 1
    exact dif_pos q.isLt
  rw [e] at h
  exact h

/-- A one-round copy cell whose round is over closes, its counter at zero. -/
private theorem close_one (K : Dev nD × Fin 323 → ℕ) (c : Dev nD) (q : Fin 322) (hq : ¬ (256 ≤ q.val ∧ q.val < 258)) :
    iprop(CI m K ∗ atPos ER ((c : Thread nD τ), SemLoc.dma q) 1 ∅ 0)
      ⊢ (iprop(|={Set.univ}=> semVal ((c : Thread nD τ), SemLoc.dma q) 0) : sProp 𝕄) :=
  (sep_mono_left (cellInv_dma m K c q)).trans
    (Rounds.cell_close ER (sched m) (Set.mem_univ _) (fun h => h) (R := 1)
      (duties_later_of_not_cpin m _ (fun q' hq' => by cases hq'; exact hq)))

private theorem posI_64 (s : Fin 2) : posI s 64 = 32 := by revert s; decide

/-- A staging cell whose 32 rounds are over closes, its counter at zero. -/
private theorem close_cpin (K : Dev nD × Fin 323 → ℕ) (c : Dev nD) (s : Fin 2) :
    iprop(CI m K ∗ cpinAt (F := F) c s 64) ⊢ (iprop(|={Set.univ}=> semVal (cpinC c s) 0) : sProp 𝕄) := by
  unfold cpinAt
  rw [posI_64]
  iintro ⟨#HI, P, -⟩
  iapply (Rounds.cell_close ER (sched m) (Set.mem_univ _) (fun h => h) (R := 32) (duties_later_cpin m c s))
  isplitr
  · iapply (cellInv_dma m K c (cpinQ s)); iexact HI
  · iexact P

/-! ## Exit: one chunk -/

/-- What a chunk's four waits leave, its five cells closed: the two blocks of the argument, the own result rows and the
    row peer's holding their sums, the receive rows whole again, five counters at zero. -/
private def chunkOut (c : Dev nD) (r : Fin 64) : sProp 𝕄 :=
  iprop(ptsA m c r ∗ ptsB m c r
    ∗ owns (c : Thread nD τ) (oO c r) fullShare (sVal m c r)
    ∗ owns (c : Thread nD τ) (oO (xp c) r) fullShare (sVal m (xp c) r)
    ∗ owns (c : Thread nD τ) (rS r) fullShare (sVal m c r)
    ∗ semVal (ysendC c r) 0 ∗ semVal (yrecvC c r) 0 ∗ semVal (xsendC c r) 0 ∗ semVal (xrecvC c r) 0 ∗ semVal (cpoutC c r) 0)

private theorem chunk_exit (K : Dev nD × Fin 323 → ℕ) (c : Dev nD) (r : Fin 64) :
    iprop(CI m K ∗ fPost m c r) ⊢ (iprop(|={Set.univ}=> chunkOut m c r) : sProp 𝕄) := by
  have hr := r.isLt
  unfold fPost w1 w2 w3 w4 cpoutPay ysendPay xsendPay xrecvPay chunkOut ptsA
  iintro ⟨#HI, ⟨P1, O1, R1⟩, ⟨P2, A⟩, ⟨P3, R3⟩, ⟨P4, O4⟩, B, P5⟩
  ihave S1 := (close_one m K c (cpoutQ r) (by show ¬ (256 ≤ 258 + r.val ∧ 258 + r.val < 258); omega)) $$ [P1]
  · isplitr; · iexact HI
    iexact P1
  imod S1
  ihave S2 := (close_one m K c (ysendQ r) (by show ¬ (256 ≤ r.val ∧ r.val < 258); omega)) $$ [P2]
  · isplitr; · iexact HI
    iexact P2
  imod S2
  ihave S3 := (close_one m K c (xsendQ r) (by show ¬ (256 ≤ 128 + r.val ∧ 128 + r.val < 258); omega)) $$ [P3]
  · isplitr; · iexact HI
    iexact P3
  imod S3
  ihave S4 := (close_one m K c (xrecvQ r) (by show ¬ (256 ≤ 192 + r.val ∧ 192 + r.val < 258); omega)) $$ [P4]
  · isplitr; · iexact HI
    iexact P4
  imod S4
  ihave S5 := (close_one m K c (yrecvQ r) (by show ¬ (256 ≤ 64 + r.val ∧ 64 + r.val < 258); omega)) $$ [P5]
  · isplitr; · iexact HI
    iexact P5
  imod S5
  imodintro
  isplitl [A]; · iexact A
  isplitl [B]; · iexact B
  isplitl [O1]; · iexact O1
  isplitl [O4]; · iexact O4
  isplitl [R1 R3]
  · iapply (owns_share (c : Thread nD τ) (rS r) (PosShare.mem_left_op_right fullShare) (sVal m c r)).2
    isplitl [R3]; · iexact R3
    iexact R1
  isplitl [S2]; · iexact S2
  isplitl [S5]; · iexact S5
  isplitl [S3]; · iexact S3
  isplitl [S4]; · iexact S4
  iexact S1

/-! ## Exit: the pieces glued -/

/-- The six families of copy semaphores are all the 322 of the pool. -/
private theorem sems_assemble (Φ : Fin 322 → sProp 𝕄) :
    iprop((bigSep Finset.univ fun r : Fin 64 => Φ (ysendQ r)) ∗ (bigSep Finset.univ fun r : Fin 64 => Φ (yrecvQ r))
      ∗ (bigSep Finset.univ fun r : Fin 64 => Φ (xsendQ r)) ∗ (bigSep Finset.univ fun r : Fin 64 => Φ (xrecvQ r))
      ∗ (bigSep Finset.univ fun s : Fin 2 => Φ (cpinQ s)) ∗ (bigSep Finset.univ fun r : Fin 64 => Φ (cpoutQ r)))
      ⊢ bigSep (Finset.univ : Finset (Fin 322)) Φ := by
  classical
  have i1 : Set.InjOn (fun r : Fin 64 => (ysendQ r : Fin 322)) ↑(Finset.univ : Finset (Fin 64)) := fun a _ b _ h =>
    Fin.ext (by have h' := congrArg Fin.val h; exact h')
  have i2 : Set.InjOn (fun r : Fin 64 => (yrecvQ r : Fin 322)) ↑(Finset.univ : Finset (Fin 64)) := fun a _ b _ h =>
    Fin.ext (by have h' := congrArg Fin.val h; have h'' : 64 + a.val = 64 + b.val := h'; omega)
  have i3 : Set.InjOn (fun r : Fin 64 => (xsendQ r : Fin 322)) ↑(Finset.univ : Finset (Fin 64)) := fun a _ b _ h =>
    Fin.ext (by have h' := congrArg Fin.val h; have h'' : 128 + a.val = 128 + b.val := h'; omega)
  have i4 : Set.InjOn (fun r : Fin 64 => (xrecvQ r : Fin 322)) ↑(Finset.univ : Finset (Fin 64)) := fun a _ b _ h =>
    Fin.ext (by have h' := congrArg Fin.val h; have h'' : 192 + a.val = 192 + b.val := h'; omega)
  have i5 : Set.InjOn (fun s : Fin 2 => (cpinQ s : Fin 322)) ↑(Finset.univ : Finset (Fin 2)) := fun a _ b _ h =>
    Fin.ext (by have h' := congrArg Fin.val h; have h'' : 256 + a.val = 256 + b.val := h'; omega)
  have i6 : Set.InjOn (fun r : Fin 64 => (cpoutQ r : Fin 322)) ↑(Finset.univ : Finset (Fin 64)) := fun a _ b _ h =>
    Fin.ext (by have h' := congrArg Fin.val h; have h'' : 258 + a.val = 258 + b.val := h'; omega)
  have hcov : (Finset.univ : Finset (Fin 322))
      ⊆ Finset.univ.image (fun r : Fin 64 => (ysendQ r : Fin 322)) ∪ (Finset.univ.image (fun r : Fin 64 => (yrecvQ r : Fin 322))
        ∪ (Finset.univ.image (fun r : Fin 64 => (xsendQ r : Fin 322)) ∪ (Finset.univ.image (fun r : Fin 64 => (xrecvQ r : Fin 322))
        ∪ (Finset.univ.image (fun s : Fin 2 => (cpinQ s : Fin 322)) ∪ Finset.univ.image (fun r : Fin 64 => (cpoutQ r : Fin 322)))))) := fun j _ => by
    have hj := j.isLt
    simp only [Finset.mem_union, Finset.mem_image, Finset.mem_univ, _root_.true_and]
    by_cases h1 : j.val < 64
    · exact .inl ⟨⟨j.val, h1⟩, Fin.ext rfl⟩
    by_cases h2 : j.val < 128
    · exact .inr (.inl ⟨⟨j.val - 64, by omega⟩, Fin.ext (by show 64 + (j.val - 64) = j.val; omega)⟩)
    by_cases h3 : j.val < 192
    · exact .inr (.inr (.inl ⟨⟨j.val - 128, by omega⟩, Fin.ext (by show 128 + (j.val - 128) = j.val; omega)⟩))
    by_cases h4 : j.val < 256
    · exact .inr (.inr (.inr (.inl ⟨⟨j.val - 192, by omega⟩, Fin.ext (by show 192 + (j.val - 192) = j.val; omega)⟩)))
    by_cases h5 : j.val < 258
    · exact .inr (.inr (.inr (.inr (.inl ⟨⟨j.val - 256, by omega⟩, Fin.ext (by show 256 + (j.val - 256) = j.val; omega)⟩))))
    · exact .inr (.inr (.inr (.inr (.inr ⟨⟨j.val - 258, by omega⟩, Fin.ext (by show 258 + (j.val - 258) = j.val; omega)⟩))))
  refine BIBase.Entails.trans ?_ (bigSep_subset hcov)
  rw [← bigSep_image_of_injOn i1 Φ, ← bigSep_image_of_injOn i2 Φ, ← bigSep_image_of_injOn i3 Φ, ← bigSep_image_of_injOn i4 Φ,
    ← bigSep_image_of_injOn i5 Φ, ← bigSep_image_of_injOn i6 Φ]
  refine (sep_mono_right ?_).trans (bigSep_sep_union _ _)
  refine (sep_mono_right ?_).trans (bigSep_sep_union _ _)
  refine (sep_mono_right ?_).trans (bigSep_sep_union _ _)
  refine (sep_mono_right ?_).trans (bigSep_sep_union _ _)
  exact bigSep_sep_union _ _

/-- A chunk's rows held at contents reading a value are held at contents to be named. -/
private theorem owns_ex (c : Dev nD) {sp : Space} {sh : Shape} {e : EltTy} (d : Memref sig .tc sp sh e) (Xv : sh.Idx → Elt F e) :
    (owns (c : Thread nD τ) d fullShare Xv : sProp 𝕄) ⊢ iprop(∃ f, d.view.loc (c : Thread nD τ) ↦[d.view.set]{fullShare} f) := by
  unfold owns
  iintro ⟨%f, -, H⟩
  iexists f; iexact H

/-- The receive buffer whole again, from its chunks' rows. -/
private theorem recv_glue (c : Dev nD) :
    (bigSep Finset.univ fun r : Fin 64 => (owns (c : Thread nD τ) (rS r) fullShare (sVal m c r) : sProp 𝕄))
      ⊢ iprop(∃ f, (c : Thread nD τ).loc cc0_scratch0 ↦{fullShare} f) :=
  (bigSep_mono fun r _ => owns_ex (F := F) c (rS r) (sVal m c r)).trans (recv_join (F := F) (U := UU) c)

/-- The staging buffer whole again, from its two slots. -/
private theorem loc_glue (c : Dev nD) :
    iprop(freeSlot (F := F) c 0 ∗ freeSlot (F := F) c 1) ⊢ (iprop(∃ f, (c : Thread nD τ).loc cc0_scratch1 ↦{fullShare} f) : sProp 𝕄) := by
  have h := loc_join (F := F) (U := UU) c
  rw [bigSep_univ_two] at h
  unfold freeSlot
  exact h

/-- The result whole, reading each chunk's sums through that chunk's rows. -/
private theorem out_glue (c : Dev nD) :
    iprop((bigSep Finset.univ fun r : Fin 64 => owns (c : Thread nD τ) (oO c r) fullShare (sVal m c r))
      ∗ (bigSep Finset.univ fun r : Fin 64 => owns (c : Thread nD τ) (oO (xp c) r) fullShare (sVal m (xp c) r)))
      ⊢ (iprop(∃ f : Buf (Elt F) ((c : Thread nD τ).loc main_v1), ((c : Thread nD τ).loc main_v1 ↦{fullShare} f)
        ∗ ⌜∀ r : Fin 64, (oO c r).view.read (Elt F) f = sVal m c r ∧ (oO (xp c) r).view.read (Elt F) f = sVal m (xp c) r⌝) : sProp 𝕄) := by
  haveI : ∀ _ : Fin 64, Nonempty (Buf (Elt F) ((c : Thread nD τ).loc main_v1)) := fun _ => ⟨m _⟩
  have e1 := bigSep_exists_pi (M := 𝕄) (Y := fun _ : Fin 64 => Buf (Elt F) ((c : Thread nD τ).loc main_v1)) Finset.univ
    (fun r f => iprop(⌜(oO c r).view.read (Elt F) f = sVal m c r⌝ ∗ ((oO c r).view.loc (c : Thread nD τ) ↦[(oO c r).view.set]{fullShare} f)))
  have e2 := bigSep_exists_pi (M := 𝕄) (Y := fun _ : Fin 64 => Buf (Elt F) ((c : Thread nD τ).loc main_v1)) Finset.univ
    (fun r f => iprop(⌜(oO (xp c) r).view.read (Elt F) f = sVal m (xp c) r⌝ ∗ ((oO (xp c) r).view.loc (c : Thread nD τ) ↦[(oO (xp c) r).view.set]{fullShare} f)))
  unfold owns
  iintro ⟨H1, H2⟩
  ihave H1' := e1 $$ H1
  icases H1' with ⟨%g, H1⟩
  ihave H1'' := (bigSep_pure_sep Finset.univ _ _) $$ H1
  icases H1'' with ⟨%hg, H1⟩
  ihave H2' := e2 $$ H2
  icases H2' with ⟨%g', H2⟩
  ihave H2'' := (bigSep_pure_sep Finset.univ _ _) $$ H2
  icases H2'' with ⟨%hg', H2⟩
  ihave H := (out_join (F := F) (U := UU) c g g') $$ [H1 H2]
  · isplitl [H1]; · iexact H1
    iexact H2
  icases H with ⟨%f, Hf, %hf⟩
  iexists f
  isplitl [Hf]; · iexact Hf
  ipureintro
  intro r
  exact ⟨(hf r).1.trans (hg r (Finset.mem_univ _)), (hf r).2.trans (hg' r (Finset.mem_univ _))⟩

/-! ## Exit: the whole -/

/-- What the chunks leave, family by family. -/
private theorem chunkOut_split (c : Dev nD) :
    (bigSep Finset.univ fun r : Fin 64 => chunkOut m c r)
      = iprop((bigSep Finset.univ fun r : Fin 64 => ptsA m c r) ∗ (bigSep Finset.univ fun r : Fin 64 => ptsB m c r)
        ∗ (bigSep Finset.univ fun r : Fin 64 => owns (c : Thread nD τ) (oO c r) fullShare (sVal m c r))
        ∗ (bigSep Finset.univ fun r : Fin 64 => owns (c : Thread nD τ) (oO (xp c) r) fullShare (sVal m (xp c) r))
        ∗ (bigSep Finset.univ fun r : Fin 64 => owns (c : Thread nD τ) (rS r) fullShare (sVal m c r))
        ∗ (bigSep Finset.univ fun r : Fin 64 => semVal (ysendC c r) 0) ∗ (bigSep Finset.univ fun r : Fin 64 => semVal (yrecvC c r) 0)
        ∗ (bigSep Finset.univ fun r : Fin 64 => semVal (xsendC c r) 0) ∗ (bigSep Finset.univ fun r : Fin 64 => semVal (xrecvC c r) 0)
        ∗ (bigSep Finset.univ fun r : Fin 64 => (semVal (cpoutC c r) 0 : sProp 𝕄))) := by
  unfold chunkOut
  rw [bigSep_sep', bigSep_sep', bigSep_sep', bigSep_sep', bigSep_sep', bigSep_sep', bigSep_sep', bigSep_sep', bigSep_sep']

/-- The pieces at rest are what the device hands back. -/
private theorem exit_glue (c : Dev nD) :
    iprop(argRest m c ∗ freeSlot (F := F) c 0 ∗ freeSlot (F := F) c 1 ∗ semVal (cpinC c 0) 0 ∗ semVal (cpinC c 1) 0
      ∗ bigSep Finset.univ fun r : Fin 64 => chunkOut m c r) ⊢ Φ₁ m c := by
  rw [chunkOut_split]
  have hsem := sems_assemble (F := F) (fun j : Fin 322 => semVal ((c : Thread nD τ), osem j) 0)
  rw [bigSep_univ_two] at hsem
  unfold Φ₁ Yc ptsA ptsB argRest
  iintro ⟨AR, L0, L1, T0, T1, A, B, O1, O4, R, S2, S5, S3, S4, S1⟩
  isplitl [AR A B O1 O4]
  · isplitl [AR A B]
    · iapply (arg_join (F := F) (U := UU) c (X m c))
      isplitl [A]; · iexact A
      isplitl [B]; · iexact B
      iexact AR
    · iapply (out_glue m c)
      isplitl [O1]; · iexact O1
      iexact O4
  isplitl [T0 T1 S1 S2 S3 S4 S5]
  · iapply hsem
    isplitl [S2]; · iexact S2
    isplitl [S5]; · iexact S5
    isplitl [S3]; · iexact S3
    isplitl [S4]; · iexact S4
    isplitl [T0 T1]
    · isplitl [T0]; · iexact T0
      iexact T1
    iexact S1
  isplitl [R]
  · iapply (recv_glue m c); iexact R
  · iapply (loc_glue (F := F) c)
    isplitl [L0]; · iexact L0
    iexact L1

/-- After the last loop the device hands back its buffers whole and its cells closed, owing nothing. -/
theorem exit_S4 (K : Dev nD × Fin 323 → ℕ) (c : Dev nD) :
    S4 m K c ⊢ (iprop(|={Set.univ}=> (Φ₁ m c ∗ owesE (F := F) c 0)) : sProp 𝕄) := by
  have hch : iprop(CI m K ∗ bigSep Finset.univ fun r : Fin 64 => fPost m c r)
      ⊢ (iprop(|={Set.univ}=> bigSep Finset.univ fun r : Fin 64 => chunkOut m c r) : sProp 𝕄) :=
    (bigSep_with_persistent (fun r _ => chunk_exit m K c r)).trans (bigSep_fupd _ _)
  unfold S4 Rec rest3 cpinsAt
  iintro ⟨⟨#HI, -, -⟩, ⟨AR, L0, L1, ⟨C0, C1⟩, OW⟩, HF⟩
  ihave HC := hch $$ [HF]
  · isplitr; · iexact HI
    iexact HF
  imod HC
  ihave T0 := (close_cpin m K c 0) $$ [C0]
  · isplitr; · iexact HI
    iexact C0
  imod T0
  ihave T1 := (close_cpin m K c 1) $$ [C1]
  · isplitr; · iexact HI
    iexact C1
  imod T1
  imodintro
  isplitr [OW]
  · iapply (exit_glue m c)
    isplitl [AR]; · iexact AR
    isplitl [L0]; · iexact L0
    isplitl [L1]; · iexact L1
    isplitl [T0]; · iexact T0
    isplitl [T1]; · iexact T1
    iexact HC
  · iexact OW

/-- info: 'Cert.KernelIdeal.RS.entry_bufs' depends on axioms: [propext, Classical.choice, Quot.sound] -/
#guard_msgs in #print axioms entry_bufs

/-- info: 'Cert.KernelIdeal.RS.exit_S4' depends on axioms: [propext, Classical.choice, Quot.sound] -/
#guard_msgs in #print axioms exit_S4

end Cert.KernelIdeal.RS

end
-- ==== Proof.RsKernelIdeal.BodyBase.lean ====
/-
  Reduce-scatter over a 2×2 mesh: the rules by which the body's proof is put together from the step lemmas. A step lemma
  has the form P ⊢ (A -∗ W') -∗ W, where W is the weakest precondition of an operation followed by a continuation and W'
  that of the continuation; step_apply closes it against a proof of the continuation from A. A part of the body is a
  program that returns; bind_apply runs one part after another, ret_apply and ret_fact end a part at its returned value,
  the second recording a fact about that value for the parts that come after.
-/
import proofs.«900313_g7700000000000314_dist_rs_v7x_xy2x2_y_m8192_n1024_f32_1_alg».proof.Proof.RsKernelIdeal.State

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- From a step P ⊢ (A -∗ B) -∗ C and the rest A ⊢ B: P ⊢ C. -/
theorem step_apply {P A B C : sProp 𝕄} (hs : P ⊢ iprop((A -∗ B) -∗ C)) (h : A ⊢ B) : P ⊢ C :=
  BI.sep_emp_intro.trans ((BI.sep_mono hs (BI.wand_intro (BI.emp_sep_elim.trans h))).trans (BI.wand_elim (BI.Entails.refl _)))

/-- A pure fact in front of a state is a hypothesis. -/
theorem pure_sep_elim {φ : Prop} {P Q : sProp 𝕄} (h : φ → P ⊢ Q) : iprop(⌜φ⌝ ∗ P) ⊢ Q := by
  iintro ⟨%hφ, H⟩
  iapply (h hφ) $$ [H]
  iexact H

/-- A program that returns a, from a state that entails the postcondition at a. -/
theorem ret_apply (c : Dev nD) {α : Type} {a : α} {Q : α → sProp 𝕄} {P : sProp 𝕄} (h : P ⊢ Q a) :
    P ⊢ wp frame (wpE (defs₀ (F := F)) 𝒱₀ (c : Thread nD τ) none) Set.univ (.ret a) Q :=
  h.trans (le_wp_ret _ _ _ a Q)

/-- A program that returns a, recording a fact about a. -/
theorem ret_fact (c : Dev nD) {α : Type} {a : α} {φ : α → Prop} {P : sProp 𝕄} (h : φ a) :
    P ⊢ wp frame (wpE (defs₀ (F := F)) 𝒱₀ (c : Thread nD τ) none) Set.univ (.ret a) (fun ret => iprop(⌜φ ret⌝ ∗ P)) := by
  refine ret_apply c ?_
  iintro H
  isplitr
  · ipureintro; exact h
  iexact H

/-- One program after another: the first from P to R, the second from R at each returned value. -/
theorem bind_apply (c : Dev nD) {α β : Type} {p : Prog (TpuEff nD τ sig (Elt F) Λ₀ .tc) α} {k : α → Prog (TpuEff nD τ sig (Elt F) Λ₀ .tc) β}
    {Q : β → sProp 𝕄} {P : sProp 𝕄} {R : α → sProp 𝕄}
    (hp : P ⊢ wp frame (wpE (defs₀ (F := F)) 𝒱₀ (c : Thread nD τ) none) Set.univ p R) (hk : ∀ a, R a ⊢ wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]; exact hp.trans (wp_mono _ _ _ hk)

/-- info: 'Cert.KernelIdeal.RS.bind_apply' depends on axioms: [propext, Classical.choice, Quot.sound] -/
#guard_msgs in #print axioms bind_apply

/-- info: 'Cert.KernelIdeal.RS.ret_fact' depends on axioms: [propext, Classical.choice, Quot.sound] -/
#guard_msgs in #print axioms ret_fact

end Cert.KernelIdeal.RS

end
-- ==== Proof.RsKernelIdeal.Steps1.lean ====
/-
  The body's first operations, one lemma each: the staging of chunk 0, the two barrier signals, the barrier wait,
  and the first loop's sends to the column peer; then the passage from the first loop's last state to the middle
  loop's first.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Levels
import proofs.«900313_g7700000000000314_dist_rs_v7x_xy2x2_y_m8192_n1024_f32_1_alg».proof.Proof.RsKernelIdeal.Views

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the persistent knowledge holds, cell by cell -/

private instance rec_persistent (K : Dev nD × Fin 323 → ℕ) : Persistent (Rec m K) := by unfold Rec; infer_instance

/-- The index of a copy cell, and of the barrier cell, in the table of all cells. -/
private def jDma (q : DmaSem sig) : Fin 323 := ⟨q.val, Nat.lt_succ_of_lt q.isLt⟩
private def jBar : Fin 323 := ⟨322, by decide⟩

private theorem kcell_dma (c : Dev nD) (q : DmaSem sig) : kcell (c, jDma q) = ((c : Thread nD τ), .dma q) := by
  show ((c : Thread nD τ), (if h : q.val < 322 then SemLoc.dma ⟨q.val, h⟩ else SemLoc.reg barS)) = _
  rw [dif_pos q.isLt]
private theorem kcell_bar (c : Dev nD) : kcell (c, jBar) = barC c := rfl

private theorem inv_at (K : Dev nD × Fin 323 → ℕ) (cj : Dev nD × Fin 323) :
    (bigSep Finset.univ fun cj : Dev nD × Fin 323 => (cellInv ER (sched m) (K cj) (kcell cj) : sProp 𝕄)) ⊢ cellInv ER (sched m) (K cj) (kcell cj) :=
  bigSep_elim (Finset.mem_univ cj)
private theorem reached_at (cj : Dev nD × Fin 323) :
    (bigSep Finset.univ fun cj : Dev nD × Fin 323 => (reached ER (kcell cj) 0 : sProp 𝕄)) ⊢ reached ER (kcell cj) 0 :=
  bigSep_elim (Finset.mem_univ cj)

private theorem inv_dma (K : Dev nD × Fin 323 → ℕ) (c : Dev nD) (q : DmaSem sig) :
    Rec m K ⊢ cellInv ER (sched m) (K (c, jDma q)) ((c : Thread nD τ), .dma q) := by
  rw [← kcell_dma c q]; unfold Rec
  iintro ⟨H, -, -⟩
  iapply (inv_at m K (c, jDma q)) $$ H
private theorem inv_bar (K : Dev nD × Fin 323 → ℕ) (c : Dev nD) :
    Rec m K ⊢ cellInv ER (sched m) (K (c, jBar)) (barC c) := by
  rw [← kcell_bar c]; unfold Rec
  iintro ⟨H, -, -⟩
  iapply (inv_at m K (c, jBar)) $$ H
private theorem reached0_dma (K : Dev nD × Fin 323 → ℕ) (c : Dev nD) (q : DmaSem sig) :
    Rec m K ⊢ reached ER ((c : Thread nD τ), .dma q) 0 := by
  rw [← kcell_dma c q]; unfold Rec
  iintro ⟨-, H, -⟩
  iapply (reached_at (F := F) (c, jDma q)) $$ H
private theorem reached0_bar (K : Dev nD × Fin 323 → ℕ) (c : Dev nD) :
    Rec m K ⊢ reached ER (barC c) 0 := by
  rw [← kcell_bar c]; unfold Rec
  iintro ⟨-, H, -⟩
  iapply (reached_at (F := F) (c, jBar)) $$ H
private theorem lev_rec (K : Dev nD × Fin 323 → ℕ) : Rec m K ⊢ (levAts L lv : sProp 𝕄) := by
  unfold Rec
  iintro ⟨-, -, H⟩
  iexact H

/-! ## The first loop: chunk `r` goes to the column peer -/

theorem step_ysend (K : Dev nD × Fin 323 → ℕ) (c : Dev nD) (r : Fin 64) (n : Dev nD) (hn : n = yp c)
    (qs qr : DmaSem sig) (hqs : qs = ysendQ r) (hqr : qr = yrecvQ r)
    {hsc : (rS r : Memref sig (Dev.tc n : Thread nD τ).2.kind .vmem S64x1024 .f32).view.ref.isScScratch = false}
    {hsrc : (xA c r).view.WordExact} {hdst : (rS r).view.WordExact}
    {hsem : DmaTarget.Typed .hbm (.dma qr) (.remote (Dev.tc n : Thread nD τ) (rS r) (.dma qs) hsc)}
    {α : Type} {Q : α → sProp 𝕄} {k : PUnit → Prog (TpuEff nD τ sig (Elt F) Λ₀ .tc) α} :
    S1 m K c r.val ⊢ iprop((S1 m K c (r.val + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (xA c r) (.remote (Dev.tc n : Thread nD τ) (rS r) (.dma qs) hsc) (.dma qr) hsrc hdst hsem) k) Q) := by
  subst hn hqs hqr
  unfold S1
  rw [bigSep_fromK_peel (y1pre m c) r, bigSep_uptoK_push (y1post (F := F) c) r]
  unfold y1pre y1post owesE freeRows ptsA
  iintro ⟨#HRec, Hmid, ⟨⟨HA, ⟨%fd, Hrows⟩, Hts, Htr⟩, Hpre⟩, Hpost, ⟨%W, HO⟩⟩ Hk
  iapply (Rounds.wp_send_pointsTo 𝒱₀ ER (sched m) (c : Thread nD τ) none (c' := (yp c : Thread nD τ))
      (src := xA c r) (dst := rS r) (sS := .dma (ysendQ r)) (sem := .dma (yrecvQ r)) (q := fullShare) (fs := X m c) (fd := fd)
      (r₁ := 0) (r₂ := 0) (d₁ := false) (d₂ := false) (κ₁ := K (c, jDma (ysendQ r))) (κ₂ := K (yp c, jDma (yrecvQ r)))
      (by rw [duties_ysend]; exact Finset.mem_singleton_self _) (by rw [duties_yrecv]; exact Finset.mem_singleton_self _)
      () () N rfl (amount_dma m c (ysendQ r) 0 false) (amount_dma m (yp c) (yrecvQ r) 0 false)
      (O₀ := Oy c r.val + Ox c 0) (Oy c (r.val + 1) + Ox c 0) (by rw [Oy_peel c r, add_right_comm]) (W := W)
      (by rw [payload_ysend]; exact BI.Entails.refl _)
      (by rw [payload_yrecv]; unfold yrecvPay yVal aVal; rw [yp_yp]; exact owns_of_landed_rS (yp c) r fullShare fd _))
    $$ [HA Hrows HO Hts Htr]
  · isplitr; · iapply (inv_dma m K c (ysendQ r)); iexact HRec
    isplitr; · iapply (inv_dma m K (yp c) (yrecvQ r)); iexact HRec
    isplitl [HA]; · iexact HA
    isplitl [Hrows]; · iexact Hrows
    isplitl [HO]; · iexact HO
    isplitl [Hts]; · iexact Hts
    isplitr; · iapply (reached0_dma m K c (ysendQ r)); iexact HRec
    isplitl [Htr]; · iexact Htr
    iapply (reached0_dma m K (yp c) (yrecvQ r)); iexact HRec
  iintro ⟨Hc, HO⟩
  iapply Hk
  isplitr; · iexact HRec
  isplitl [Hmid]; · iexact Hmid
  isplitl [Hpre]; · iexact Hpre
  isplitl [Hc Hpost]
  · isplitl [Hc]; · iexact Hc
    iexact Hpost
  iexists W
  iexact HO

/-! ## The prologue's states -/

section Prologue
variable (K : Dev nD × Fin 323 → ℕ) (c : Dev nD)

/-- A conjunction over all chunks, chunk 0 first. -/
private theorem bigSep_univ_peel0 (Φ : Fin 64 → sProp 𝕄) : bigSep Finset.univ Φ = iprop(Φ 0 ∗ bigSep (fromK 1) Φ) := by
  rw [← fromK_zero]; exact bigSep_fromK_peel Φ 0

/-- What the prologue's operations after the first leave alone, kind by kind: the blocks of the argument, the own result
    rows, the second staging slot, the duty tokens of the copies, the copy cells' positions, the receive credit. -/
private def proCore : sProp 𝕄 :=
  iprop(argRest m c
    ∗ (bigSep Finset.univ fun r : Fin 64 => ptsA m c r)
    ∗ (bigSep (fromK 1) fun r : Fin 64 => ptsB m c r)
    ∗ (bigSep Finset.univ fun r : Fin 64 => freeOut (F := F) c c r)
    ∗ freeSlot (F := F) c 1
    ∗ (bigSep Finset.univ fun r : Fin 64 => dutyTok ER (ysendC c r) 0 false)
    ∗ (bigSep Finset.univ fun r : Fin 64 => dutyTok ER (yrecvC (yp c) r) 0 false)
    ∗ (bigSep Finset.univ fun r : Fin 64 => dutyTok ER (xsendC c r) 0 false)
    ∗ (bigSep Finset.univ fun r : Fin 64 => dutyTok ER (xrecvC (xp c) r) 0 false)
    ∗ (bigSep Finset.univ fun r : Fin 64 => dutyTok ER (cpoutC c r) 0 false)
    ∗ (bigSep (fromK 1) fun r : Fin 64 => dutyTok ER (cpinC c (slotOf r.val)) (r.val / 2) false)
    ∗ atPos ER (cpinC c 0) 0 ∅ 0 ∗ atPos ER (cpinC c 1) 0 ∅ 0
    ∗ (bigSep Finset.univ fun r : Fin 64 => atPos ER (ysendC c r) 0 ∅ 0)
    ∗ (bigSep Finset.univ fun r : Fin 64 => atPos ER (yrecvC c r) 0 ∅ 0)
    ∗ (bigSep Finset.univ fun r : Fin 64 => atPos ER (xsendC c r) 0 ∅ 0)
    ∗ (bigSep Finset.univ fun r : Fin 64 => atPos ER (xrecvC c r) 0 ∅ 0)
    ∗ (bigSep Finset.univ fun r : Fin 64 => atPos ER (cpoutC c r) 0 ∅ 0)
    ∗ (bigSep Finset.univ fun r : Fin 64 => cred (tallyAt (yrecvC c r) () N))
    ∗ (bigSep Finset.univ fun r : Fin 64 => cred (tallyAt (xrecvC c r) () N)))

/-- The prologue: the start; chunk 0 being staged; the column peer signalled; the row peer signalled. -/
def Pro (j : ℕ) : sProp 𝕄 :=
  match j with
  | 0 => Start m K c
  | 1 => iprop(Rec m K ∗ stMid (F := F) c 0 ∗ owesE (F := F) c (O₀ c) ∗ proCore m c
      ∗ (bigSep Finset.univ fun r : Fin 64 => freeRows (F := F) c r) ∗ (bigSep Finset.univ fun r : Fin 64 => freeOut (F := F) c (xp c) r)
      ∗ dutyTok ER (barC (yp c)) 0 false ∗ dutyTok ER (barC (xp c)) 0 true
      ∗ atPos ER (barC c) 0 ∅ 0 ∗ cred (tallyAt (barC c) () 2))
  | 2 => iprop(Rec m K ∗ stMid (F := F) c 0 ∗ owesE (F := F) c ((Oy c 0 + Ox c 0) + tallyAt (barC (xp c)) () 1) ∗ proCore m c
      ∗ (bigSep Finset.univ fun r : Fin 64 => freeOut (F := F) c (xp c) r)
      ∗ dutyTok ER (barC (xp c)) 0 true
      ∗ atPos ER (barC c) 0 ∅ 0 ∗ cred (tallyAt (barC c) () 2))
  | _ => iprop(Rec m K ∗ stMid (F := F) c 0 ∗ owesE (F := F) c (Oy c 0 + Ox c 0) ∗ proCore m c
      ∗ atPos ER (barC c) 0 ∅ 0 ∗ cred (tallyAt (barC c) () 2))

private theorem stMid_zero : stMid (F := F) c 0 = cred (tallyAt (cpinC c 0) () N) := rfl
private theorem posI_zero (s : Fin 2) : posI s 0 = 0 := by revert s; decide

private theorem reached_yrecv_all : Rec m K ⊢ bigSep Finset.univ fun r : Fin 64 => (reached ER (yrecvC c r) 0 : sProp 𝕄) :=
  bigSep_intro_persistent (R := Rec m K) fun r _ => reached0_dma m K c (yrecvQ r)
private theorem reached_xrecv_all : Rec m K ⊢ bigSep Finset.univ fun r : Fin 64 => (reached ER (xrecvC c r) 0 : sProp 𝕄) :=
  bigSep_intro_persistent (R := Rec m K) fun r _ => reached0_dma m K c (xrecvQ r)
private theorem curSt_zero : curSt (F := F) c 0 = cred (tallyAt (cpinC c 0) () N) := by
  unfold curSt; rw [dif_pos (by decide : (0 : ℕ) < 64)]; rfl
private theorem owesE_intro (O : CellTallies nD τ sig Unit) (W : Waits sig Unit) : owes (c : Thread nD τ) O W ⊢ owesE (F := F) c O := by
  unfold owesE; iintro H; iexists W; iexact H

private theorem raw_sep (P R : sProp 𝕄) : Idealize.SL.BI.sep P R ⊢ iprop(P ∗ R) := Entails.of_eq rfl

/-- The staging of chunk 0 starts: its kept block and the first slot go to the copy, the copy's credit comes back. -/
theorem step_pro_stage0 (q : DmaSem sig) (hq : q = cpinQ 0)
    {hsrc : (xB c 0).view.WordExact} {hdst : (lS 0).view.WordExact}
    {hsem : DmaTarget.Typed (nD := nD) (τ := τ) (p := .tc) .hbm (.dma q) (.here (lS 0))}
    {α : Type} {Q : α → sProp 𝕄} {k : PUnit → Prog (TpuEff nD τ sig (Elt F) Λ₀ .tc) α} :
    Pro m K c 0 ⊢ iprop((Pro m K c 1 -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (xB c 0) (.here (lS 0)) (.dma q) hsrc hdst hsem) k) Q) := by
  subst hq
  unfold Pro Start bufs0 toks poss creds0 proCore
  simp only [bigSep_sep']
  rw [bigSep_univ_peel0 (fun r : Fin 64 => ptsB m c r),
    bigSep_univ_peel0 (fun r : Fin 64 => dutyTok ER (cpinC c (slotOf r.val)) (r.val / 2) false)]
  unfold ptsB freeSlot owesE
  rw [stMid_zero]
  iintro ⟨#HRec, ⟨HA, ⟨HB0, HB⟩, Harg, HFR, HFOc, HFOx, ⟨%f0, Hsl0⟩, Hsl1⟩, ⟨Htby, Htbx, Htys, Htyr, Htxs, Htxr, Htco, Htci0, Htci⟩,
    ⟨Hpb, Hpci0, Hpci1, Hpys, Hpyr, Hpxs, Hpxr, Hpco⟩, ⟨Hcb, Hcyr, Hcxr⟩, ⟨%W, HO⟩⟩ Hk
  iapply (Rounds.wp_copy_pointsTo 𝒱₀ ER (sched m) (c : Thread nD τ) none (src := xB c 0) (dst := lS 0) (sem := .dma (cpinQ 0))
      (q := fullShare) (fs := X m c) (fd := f0) (r := 0) (d := false) (κ := K (c, jDma (cpinQ 0)))
      (by rw [duties_cpin m c 0 0 (by decide)]; exact Finset.mem_singleton_self _)
      () N rfl (amount_dma m c (cpinQ 0) 0 false)
      (by
        rw [payload_cpin]; unfold cpinPay; rw [dif_pos (by decide : 0 < 32)]
        iintro ⟨H1, H2⟩
        isplitl [H1]
        · iapply (owns_of_landed_lS c 0 fullShare f0 _) $$ H1
        · iexact H2))
    $$ [HB0 Hsl0 Htci0]
  · isplitr; · iapply (inv_dma m K c (cpinQ 0)); iexact HRec
    isplitl [HB0]; · iexact HB0
    isplitl [Hsl0]; · iexact Hsl0
    isplitl [Htci0]; · iexact Htci0
    iapply (reached0_dma m K c (cpinQ 0)); iexact HRec
  iintro Hc
  iapply Hk
  isplitr; · iexact HRec
  isplitl [Hc]; · iexact Hc
  isplitl [HO]; · iexists W; iexact HO
  iframe

/-! ## The schedule's tables at the prologue's cells, spelt open -/

private theorem duties_bar_lit (c : Dev nD) : (sched (F := F) m).duties (barC c) 0 = {false, true} := by
  rw [duties_bar]; decide

section Signals
/-- What a peer's barrier duty hands over, in this device's own terms. -/
private theorem payload_bar_y_open : (sched (F := F) m).payload (barC (yp c)) 0 false
    = iprop((bigSep Finset.univ fun r : Fin 64 => freeRows (F := F) c r) ∗ (bigSep Finset.univ fun r : Fin 64 => reached ER (yrecvC c r) 0)) := by
  rw [payload_bar_y]; unfold barPayY freeRows; rw [yp_yp, bigSep_sep']
private theorem payload_bar_x_open : (sched (F := F) m).payload (barC (xp c)) 0 true
    = iprop((bigSep Finset.univ fun r : Fin 64 => freeOut (F := F) c (xp c) r) ∗ (bigSep Finset.univ fun r : Fin 64 => reached ER (xrecvC c r) 0)) := by
  rw [payload_bar_x]; unfold barPayX freeOut; rw [xp_xp, bigSep_sep']
attribute [local sl_rounds] duties_bar_lit amount_bar payload_bar_y_open payload_bar_x_open

/-- The signal to the column peer's barrier: the own landing rows go with it. -/
theorem step_pro_sigy (n : Dev nD) (hn : n = yp c)
    {α : Type} {Q : α → sProp 𝕄} {k : PUnit → Prog (TpuEff nD τ sig (Elt F) Λ₀ .tc) α} :
    Pro m K c 1 ⊢ iprop((Pro m K c 2 -∗ wp frame (wpE (defs₀ (F := F)) 𝒱₀ (c : Thread nD τ) none) Set.univ (k ⟨⟩) Q)
      -∗ wp frame (wpE (defs₀ (F := F)) 𝒱₀ (c : Thread nD τ) none) Set.univ
          (.op (.semSignal (Dev.tc n : Thread nD τ) barS 1) k) Q) := by
  subst hn
  simp only [Pro]
  unfold owesE O₀
  iintro ⟨#HRec, Hst, ⟨%W, HO⟩, Hcore, HFR, HFOx, Htby, Htbx, Hpb, Hcb⟩ Hk
  ihave HI := (inv_bar m K (yp c)) $$ HRec
  ihave Hr := (reached0_bar m K (yp c)) $$ HRec
  ihave Hra := (reached_yrecv_all m K c) $$ HRec
  sl_exec
  iapply Hk
  isplitr; · iexact HRec
  isplitl [Hst]; · iexact Hst
  isplitl [HO]; · iexists W; iexact HO
  iframe

/-- The signal to the row peer's barrier: the result rows where the row peer's sums go, go with it. -/
theorem step_pro_sigx (n : Dev nD) (hn : n = xp c)
    {α : Type} {Q : α → sProp 𝕄} {k : PUnit → Prog (TpuEff nD τ sig (Elt F) Λ₀ .tc) α} :
    Pro m K c 2 ⊢ iprop((Pro m K c 3 -∗ wp frame (wpE (defs₀ (F := F)) 𝒱₀ (c : Thread nD τ) none) Set.univ (k ⟨⟩) Q)
      -∗ wp frame (wpE (defs₀ (F := F)) 𝒱₀ (c : Thread nD τ) none) Set.univ
          (.op (.semSignal (Dev.tc n : Thread nD τ) barS 1) k) Q) := by
  subst hn
  simp only [Pro]
  unfold owesE
  iintro ⟨#HRec, Hst, ⟨%W, HO⟩, Hcore, HFOx, Htbx, Hpb, Hcb⟩ Hk
  ihave HI := (inv_bar m K (xp c)) $$ HRec
  ihave Hr := (reached0_bar m K (xp c)) $$ HRec
  ihave Hra := (reached_xrecv_all m K c) $$ HRec
  sl_exec
  iapply Hk
  isplitr; · iexact HRec
  isplitl [Hst]; · iexact Hst
  isplitl [HO]; · iexists W; iexact HO
  iframe
end Signals

section Wait
/-- What the own barrier cell's two duties hand over. -/
private theorem payload_bar_own_y : (sched (F := F) m).payload (barC c) 0 false
    = iprop((bigSep Finset.univ fun r : Fin 64 => freeRows (F := F) (yp c) r) ∗ (bigSep Finset.univ fun r : Fin 64 => reached ER (yrecvC (yp c) r) 0)) := by
  rw [payload_bar_y]; unfold barPayY freeRows; rw [bigSep_sep']
private theorem payload_bar_own_x : (sched (F := F) m).payload (barC c) 0 true
    = iprop((bigSep Finset.univ fun r : Fin 64 => freeOut (F := F) (xp c) c r) ∗ (bigSep Finset.univ fun r : Fin 64 => reached ER (xrecvC (xp c) r) 0)) := by
  rw [payload_bar_x]; unfold barPayX freeOut; rw [bigSep_sep']
attribute [local sl_rounds] duties_bar_lit amount_bar expect_bar payload_bar_own_y payload_bar_own_x

/-- The barrier wait: both peers' signals bring the rows this device writes on them; every chunk's needs are then complete. -/
theorem step_pro_wait
    {α : Type} {Q : α → sProp 𝕄} {k : PUnit → Prog (TpuEff nD τ sig (Elt F) Λ₀ .tc) α} :
    Pro m K c 3 ⊢ iprop((S1 m K c 0 -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS 2) k) Q) := by
  simp only [Pro]
  unfold proCore owesE
  rw [stMid_zero]
  iintro ⟨#HRec, Hst, ⟨%W, HO⟩, ⟨Harg, HA, HB, HFOc, Hsl1, Htys, Htyr, Htxs, Htxr, Htco, Htci, Hpci0, Hpci1, Hpys, Hpyr, Hpxs, Hpxr, Hpco, Hcyr, Hcxr⟩,
    Hpb, Hcb⟩ Hk
  have hmw := mayWait_bar (F := F) c
  ihave HI := (inv_bar m K c) $$ HRec
  ihave Hlev := (lev_rec m K) $$ HRec
  sl_exec
  ihave Hp := (raw_sep _ _) $$ Hpb_pay1
  icases Hp with ⟨⟨HFRy, -⟩, ⟨HFOx, -⟩⟩
  ihave HOE := (owesE_intro c (Oy c 0 + Ox c 0) (insert (SemLoc.reg barS, ()) W)) $$ HO
  ihave #Hr0 := (reached0_dma m K c (cpinQ 0)) $$ HRec
  ihave #Hr1 := (reached0_dma m K c (cpinQ 1)) $$ HRec
  iapply Hk
  unfold S1 mid0 y1pre mPre mRest stPre fPre cpinsAt cpinAt
  rw [fromK_zero, uptoK_zero, bigSep_empty, posI_zero, posI_zero, curSt_zero]
  simp only [bigSep_sep']
  isplitr; · iexact HRec
  iframe # ∗
  iempintro
end Wait

end Prologue

/-- info: 'Cert.KernelIdeal.RS.step_ysend' depends on axioms: [propext, Classical.choice, Quot.sound] -/
#guard_msgs in #print axioms step_ysend

/-- info: 'Cert.KernelIdeal.RS.step_pro_stage0' depends on axioms: [propext, Classical.choice, Quot.sound] -/
#guard_msgs in #print axioms step_pro_stage0

/-- info: 'Cert.KernelIdeal.RS.step_pro_sigy' depends on axioms: [propext, Classical.choice, Quot.sound] -/
#guard_msgs in #print axioms step_pro_sigy

/-- info: 'Cert.KernelIdeal.RS.step_pro_sigx' depends on axioms: [propext, Classical.choice, Quot.sound] -/
#guard_msgs in #print axioms step_pro_sigx

/-- info: 'Cert.KernelIdeal.RS.step_pro_wait' depends on axioms: [propext, Classical.choice, Quot.sound] -/
#guard_msgs in #print axioms step_pro_wait

end Cert.KernelIdeal.RS

end
-- ==== Proof.RsKernelIdeal.Body01.lean ====
/-
  The body of the reduce-scatter, part by part: the parts 1 to 16 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps1
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_1 (m : (ℓ : Loc nD τ sig) → Buf (Elt F) ℓ) (K : Dev nD × Fin 323 → ℕ) (c : Dev nD) :
    Start m K c ⊢ wp frame (wpE (defs₀ (F := F)) 𝒱₀ (c : Thread nD τ) none) Set.univ
      (k0_part1 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun ret => iprop(⌜c = ret.1⌝ ∗ S1 m K c 0)) := by
  rw [k0_part1_eq_skeleton]; unfold k0_part1_skel
  simp only [semSignalWord, semWaitWord, Prog.lift, Prog.bind_op, Prog.bind_ret, Prog.pure_eq_ret, wp_deviceId]
  refine step_apply (step_pro_stage0 m K c _ (sem_cpin ⟨0, by decide⟩ _ _)) ?_
  refine step_apply (step_pro_sigy m K c _ (Fin.ext (k0_dev1_eq c))) ?_
  refine step_apply (step_pro_sigx m K c _ (Fin.ext (k0_dev2_eq c))) ?_
  refine step_apply (step_pro_wait m K c) ?_
  exact ret_fact c rfl

set_option maxRecDepth 65536 in
theorem part_2 (m : (ℓ : Loc nD τ sig) → Buf (Elt F) ℓ) (K : Dev nD × Fin 323 → ℕ) (c : Dev nD) (v2 : BitVec 32) (v5 : BitVec 32) (v6 : BitVec 32) (v8 : BitVec 32) (c0_i32_20 : BitVec 32) :
    S1 m K c 0 ⊢ wp frame (wpE (defs₀ (F := F)) 𝒱₀ (c : Thread nD τ) none) Set.univ
      (k0_part2 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c0_i32_20)
      (fun _ => S1 m K c 2) := by
  rw [k0_part2_eq_skeleton]; unfold k0_part2_skel
  simp only [Prog.lift, Prog.bind_op, Prog.bind_ret, Prog.pure_eq_ret]
  refine step_apply (step_ysend m K c ⟨0, by decide⟩ _ (Fin.ext (k0_dev3_eq c)) _ _ (sem_ysend ⟨0, by decide⟩ _ _) (sem_yrecv ⟨0, by decide⟩ _ _)) ?_
  refine step_apply (step_ysend m K c ⟨1, by decide⟩ _ (Fin.ext (k0_dev4_eq c)) _ _ (sem_ysend ⟨1, by decide⟩ _ _) (sem_yrecv ⟨1, by decide⟩ _ _)) ?_
  exact ret_apply c (BI.Entails.refl _)

set_option maxRecDepth 65536 in
theorem part_3 (m : (ℓ : Loc nD τ sig) → Buf (Elt F) ℓ) (K : Dev nD × Fin 323 → ℕ) (c : Dev nD) (v2 : BitVec 32) (v5 : BitVec 32) (v6 : BitVec 32) (v8 : BitVec 32) :
    S1 m K c 2 ⊢ wp frame (wpE (defs₀ (F := F)) 𝒱₀ (c : Thread nD τ) none) Set.univ
      (k0_part3 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 4) := by
  rw [k0_part3_eq_skeleton]; unfold k0_part3_skel
  simp only [Prog.lift, Prog.bind_op, Prog.bind_ret, Prog.pure_eq_ret]
  refine step_apply (step_ysend m K c ⟨2, by decide⟩ _ (Fin.ext (k0_dev5_eq c)) _ _ (sem_ysend ⟨2, by decide⟩ _ _) (sem_yrecv ⟨2, by decide⟩ _ _)) ?_
  refine step_apply (step_ysend m K c ⟨3, by decide⟩ _ (Fin.ext (k0_dev6_eq c)) _ _ (sem_ysend ⟨3, by decide⟩ _ _) (sem_yrecv ⟨3, by decide⟩ _ _)) ?_
  exact ret_apply c (BI.Entails.refl _)

set_option maxRecDepth 65536 in
theorem part_4 (m : (ℓ : Loc nD τ sig) → Buf (Elt F) ℓ) (K : Dev nD × Fin 323 → ℕ) (c : Dev nD) (v2 : BitVec 32) (v5 : BitVec 32) (v6 : BitVec 32) (v8 : BitVec 32) :
    S1 m K c 4 ⊢ wp frame (wpE (defs₀ (F := F)) 𝒱₀ (c : Thread nD τ) none) Set.univ
      (k0_part4 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 6) := by
  rw [k0_part4_eq_skeleton]; unfold k0_part4_skel
  simp only [Prog.lift, Prog.bind_op, Prog.bind_ret, Prog.pure_eq_ret]
  refine step_apply (step_ysend m K c ⟨4, by decide⟩ _ (Fin.ext (k0_dev7_eq c)) _ _ (sem_ysend ⟨4, by decide⟩ _ _) (sem_yrecv ⟨4, by decide⟩ _ _)) ?_
  refine step_apply (step_ysend m K c ⟨5, by decide⟩ _ (Fin.ext (k0_dev8_eq c)) _ _ (sem_ysend ⟨5, by decide⟩ _ _) (sem_yrecv ⟨5, by decide⟩ _ _)) ?_
  exact ret_apply c (BI.Entails.refl _)

set_option maxRecDepth 65536 in
theorem part_5 (m : (ℓ : Loc nD τ sig) → Buf (Elt F) ℓ) (K : Dev nD × Fin 323 → ℕ) (c : Dev nD) (v2 : BitVec 32) (v5 : BitVec 32) (v6 : BitVec 32) (v8 : BitVec 32) :
    S1 m K c 6 ⊢ wp frame (wpE (defs₀ (F := F)) 𝒱₀ (c : Thread nD τ) none) Set.univ
      (k0_part5 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 9) := by
  rw [k0_part5_eq_skeleton]; unfold k0_part5_skel
  simp only [Prog.lift, Prog.bind_op, Prog.bind_ret, Prog.pure_eq_ret]
  refine step_apply (step_ysend m K c ⟨6, by decide⟩ _ (Fin.ext (k0_dev9_eq c)) _ _ (sem_ysend ⟨6, by decide⟩ _ _) (sem_yrecv ⟨6, by decide⟩ _ _)) ?_
  refine step_apply (step_ysend m K c ⟨7, by decide⟩ _ (Fin.ext (k0_dev10_eq c)) _ _ (sem_ysend ⟨7, by decide⟩ _ _) (sem_yrecv ⟨7, by decide⟩ _ _)) ?_
  refine step_apply (step_ysend m K c ⟨8, by decide⟩ _ (Fin.ext (k0_dev11_eq c)) _ _ (sem_ysend ⟨8, by decide⟩ _ _) (sem_yrecv ⟨8, by decide⟩ _ _)) ?_
  exact ret_apply c (BI.Entails.refl _)

set_option maxRecDepth 65536 in
theorem part_6 (m : (ℓ : Loc nD τ sig) → Buf (Elt F) ℓ) (K : Dev nD × Fin 323 → ℕ) (c : Dev nD) (v2 : BitVec 32) (v5 : BitVec 32) (v6 : BitVec 32) (v8 : BitVec 32) :
    S1 m K c 9 ⊢ wp frame (wpE (defs₀ (F := F)) 𝒱₀ (c : Thread nD τ) none) Set.univ
      (k0_part6 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 11) := by
  rw [k0_part6_eq_skeleton]; unfold k0_part6_skel
  simp only [Prog.lift, Prog.bind_op, Prog.bind_ret, Prog.pure_eq_ret]
  refine step_apply (step_ysend m K c ⟨9, by decide⟩ _ (Fin.ext (k0_dev12_eq c)) _ _ (sem_ysend ⟨9, by decide⟩ _ _) (sem_yrecv ⟨9, by decide⟩ _ _)) ?_
  refine step_apply (step_ysend m K c ⟨10, by decide⟩ _ (Fin.ext (k0_dev13_eq c)) _ _ (sem_ysend ⟨10, by decide⟩ _ _) (sem_yrecv ⟨10, by decide⟩ _ _)) ?_
  exact ret_apply c (BI.Entails.refl _)

set_option maxRecDepth 65536 in
theorem part_7 (m : (ℓ : Loc nD τ sig) → Buf (Elt F) ℓ) (K : Dev nD × Fin 323 → ℕ) (c : Dev nD) (v2 : BitVec 32) (v5 : BitVec 32) (v6 : BitVec 32) (v8 : BitVec 32) (v186 : BitVec 32) (v187 : BitVec 32) :
    S1 m K c 11 ⊢ wp frame (wpE (defs₀ (F := F)) 𝒱₀ (c : Thread nD τ) none) Set.univ
      (k0_part7 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v186 v187)
      (fun _ => S1 m K c 13) := by
  rw [k0_part7_eq_skeleton]; unfold k0_part7_skel
  simp only [Prog.lift, Prog.bind_op, Prog.bind_ret, Prog.pure_eq_ret]
  refine step_apply (step_ysend m K c ⟨11, by decide⟩ _ (Fin.ext (k0_dev14_eq c)) _ _ (sem_ysend ⟨11, by decide⟩ _ _) (sem_yrecv ⟨11, by decide⟩ _ _)) ?_
  refine step_apply (step_ysend m K c ⟨12, by decide⟩ _ (Fin.ext (k0_dev15_eq c)) _ _ (sem_ysend ⟨12, by decide⟩ _ _) (sem_yrecv ⟨12, by decide⟩ _ _)) ?_
  exact ret_apply c (BI.Entails.refl _)

set_option maxRecDepth 65536 in
theorem part_8 (m : (ℓ : Loc nD τ sig) → Buf (Elt F) ℓ) (K : Dev nD × Fin 323 → ℕ) (c : Dev nD) (v2 : BitVec 32) (v5 : BitVec 32) (v6 : BitVec 32) (v8 : BitVec 32) :
    S1 m K c 13 ⊢ wp frame (wpE (defs₀ (F := F)) 𝒱₀ (c : Thread nD τ) none) Set.univ
      (k0_part8 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 16) := by
  rw [k0_part8_eq_skeleton]; unfold k0_part8_skel
  simp only [Prog.lift, Prog.bind_op, Prog.bind_ret, Prog.pure_eq_ret]
  refine step_apply (step_ysend m K c ⟨13, by decide⟩ _ (Fin.ext (k0_dev16_eq c)) _ _ (sem_ysend ⟨13, by decide⟩ _ _) (sem_yrecv ⟨13, by decide⟩ _ _)) ?_
  refine step_apply (step_ysend m K c ⟨14, by decide⟩ _ (Fin.ext (k0_dev17_eq c)) _ _ (sem_ysend ⟨14, by decide⟩ _ _) (sem_yrecv ⟨14, by decide⟩ _ _)) ?_
  refine step_apply (step_ysend m K c ⟨15, by decide⟩ _ (Fin.ext (k0_dev18_eq c)) _ _ (sem_ysend ⟨15, by decide⟩ _ _) (sem_yrecv ⟨15, by decide⟩ _ _)) ?_
  exact ret_apply c (BI.Entails.refl _)

set_option maxRecDepth 65536 in
theorem part_9 (m : (ℓ : Loc nD τ sig) → Buf (Elt F) ℓ) (K : Dev nD × Fin 323 → ℕ) (c : Dev nD) (v2 : BitVec 32) (v5 : BitVec 32) (v6 : BitVec 32) (v8 : BitVec 32) (v253 : BitVec 32) (c1024_i32_170 : BitVec 32) :
    S1 m K c 16 ⊢ wp frame (wpE (defs₀ (F := F)) 𝒱₀ (c : Thread nD τ) none) Set.univ
      (k0_part9 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v253 c1024_i32_170)
      (fun _ => S1 m K c 18) := by
  rw [k0_part9_eq_skeleton]; unfold k0_part9_skel
  simp only [Prog.lift, Prog.bind_op, Prog.bind_ret, Prog.pure_eq_ret]
  refine step_apply (step_ysend m K c ⟨16, by decide⟩ _ (Fin.ext (k0_dev19_eq c)) _ _ (sem_ysend ⟨16, by decide⟩ _ _) (sem_yrecv ⟨16, by decide⟩ _ _)) ?_
  refine step_apply (step_ysend m K c ⟨17, by decide⟩ _ (Fin.ext (k0_dev20_eq c)) _ _ (sem_ysend ⟨17, by decide⟩ _ _) (sem_yrecv ⟨17, by decide⟩ _ _)) ?_
  exact ret_apply c (BI.Entails.refl _)

set_option maxRecDepth 65536 in
theorem part_10 (m : (ℓ : Loc nD τ sig) → Buf (Elt F) ℓ) (K : Dev nD × Fin 323 → ℕ) (c : Dev nD) (v2 : BitVec 32) (v5 : BitVec 32) (v6 : BitVec 32) (v8 : BitVec 32) (v284 : BitVec 32) :
    S1 m K c 18 ⊢ wp frame (wpE (defs₀ (F := F)) 𝒱₀ (c : Thread nD τ) none) Set.univ
      (k0_part10 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v284)
      (fun _ => S1 m K c 20) := by
  rw [k0_part10_eq_skeleton]; unfold k0_part10_skel
  simp only [Prog.lift, Prog.bind_op, Prog.bind_ret, Prog.pure_eq_ret]
  refine step_apply (step_ysend m K c ⟨18, by decide⟩ _ (Fin.ext (k0_dev21_eq c)) _ _ (sem_ysend ⟨18, by decide⟩ _ _) (sem_yrecv ⟨18, by decide⟩ _ _)) ?_
  refine step_apply (step_ysend m K c ⟨19, by decide⟩ _ (Fin.ext (k0_dev22_eq c)) _ _ (sem_ysend ⟨19, by decide⟩ _ _) (sem_yrecv ⟨19, by decide⟩ _ _)) ?_
  exact ret_apply c (BI.Entails.refl _)

set_option maxRecDepth 65536 in
theorem part_11 (m : (ℓ : Loc nD τ sig) → Buf (Elt F) ℓ) (K : Dev nD × Fin 323 → ℕ) (c : Dev nD) (v2 : BitVec 32) (v5 : BitVec 32) (v6 : BitVec 32) (v8 : BitVec 32) :
    S1 m K c 20 ⊢ wp frame (wpE (defs₀ (F := F)) 𝒱₀ (c : Thread nD τ) none) Set.univ
      (k0_part11 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 23) := by
  rw [k0_part11_eq_skeleton]; unfold k0_part11_skel
  simp only [Prog.lift, Prog.bind_op, Prog.bind_ret, Prog.pure_eq_ret]
  refine step_apply (step_ysend m K c ⟨20, by decide⟩ _ (Fin.ext (k0_dev23_eq c)) _ _ (sem_ysend ⟨20, by decide⟩ _ _) (sem_yrecv ⟨20, by decide⟩ _ _)) ?_
  refine step_apply (step_ysend m K c ⟨21, by decide⟩ _ (Fin.ext (k0_dev24_eq c)) _ _ (sem_ysend ⟨21, by decide⟩ _ _) (sem_yrecv ⟨21, by decide⟩ _ _)) ?_
  refine step_apply (step_ysend m K c ⟨22, by decide⟩ _ (Fin.ext (k0_dev25_eq c)) _ _ (sem_ysend ⟨22, by decide⟩ _ _) (sem_yrecv ⟨22, by decide⟩ _ _)) ?_
  exact ret_apply c (BI.Entails.refl _)

set_option maxRecDepth 65536 in
theorem part_12 (m : (ℓ : Loc nD τ sig) → Buf (Elt F) ℓ) (K : Dev nD × Fin 323 → ℕ) (c : Dev nD) (v2 : BitVec 32) (v5 : BitVec 32) (v6 : BitVec 32) (v8 : BitVec 32) (c1_i32_232 : BitVec 32) :
    S1 m K c 23 ⊢ wp frame (wpE (defs₀ (F := F)) 𝒱₀ (c : Thread nD τ) none) Set.univ
      (k0_part12 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1_i32_232)
      (fun _ => S1 m K c 25) := by
  rw [k0_part12_eq_skeleton]; unfold k0_part12_skel
  simp only [Prog.lift, Prog.bind_op, Prog.bind_ret, Prog.pure_eq_ret]
  refine step_apply (step_ysend m K c ⟨23, by decide⟩ _ (Fin.ext (k0_dev26_eq c)) _ _ (sem_ysend ⟨23, by decide⟩ _ _) (sem_yrecv ⟨23, by decide⟩ _ _)) ?_
  refine step_apply (step_ysend m K c ⟨24, by decide⟩ _ (Fin.ext (k0_dev27_eq c)) _ _ (sem_ysend ⟨24, by decide⟩ _ _) (sem_yrecv ⟨24, by decide⟩ _ _)) ?_
  exact ret_apply c (BI.Entails.refl _)

set_option maxRecDepth 65536 in
theorem part_13 (m : (ℓ : Loc nD τ sig) → Buf (Elt F) ℓ) (K : Dev nD × Fin 323 → ℕ) (c : Dev nD) (v2 : BitVec 32) (v5 : BitVec 32) (v6 : BitVec 32) (v8 : BitVec 32) (v381 : BitVec 32) :
    S1 m K c 25 ⊢ wp frame (wpE (defs₀ (F := F)) 𝒱₀ (c : Thread nD τ) none) Set.univ
      (k0_part13 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v381)
      (fun _ => S1 m K c 27) := by
  rw [k0_part13_eq_skeleton]; unfold k0_part13_skel
  simp only [Prog.lift, Prog.bind_op, Prog.bind_ret, Prog.pure_eq_ret]
  refine step_apply (step_ysend m K c ⟨25, by decide⟩ _ (Fin.ext (k0_dev28_eq c)) _ _ (sem_ysend ⟨25, by decide⟩ _ _) (sem_yrecv ⟨25, by decide⟩ _ _)) ?_
  refine step_apply (step_ysend m K c ⟨26, by decide⟩ _ (Fin.ext (k0_dev29_eq c)) _ _ (sem_ysend ⟨26, by decide⟩ _ _) (sem_yrecv ⟨26, by decide⟩ _ _)) ?_
  exact ret_apply c (BI.Entails.refl _)

set_option maxRecDepth 65536 in
theorem part_14 (m : (ℓ : Loc nD τ sig) → Buf (Elt F) ℓ) (K : Dev nD × Fin 323 → ℕ) (c : Dev nD) (v2 : BitVec 32) (v5 : BitVec 32) (v6 : BitVec 32) (v8 : BitVec 32) :
    S1 m K c 27 ⊢ wp frame (wpE (defs₀ (F := F)) 𝒱₀ (c : Thread nD τ) none) Set.univ
      (k0_part14 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 30) := by
  rw [k0_part14_eq_skeleton]; unfold k0_part14_skel
  simp only [Prog.lift, Prog.bind_op, Prog.bind_ret, Prog.pure_eq_ret]
  refine step_apply (step_ysend m K c ⟨27, by decide⟩ _ (Fin.ext (k0_dev30_eq c)) _ _ (sem_ysend ⟨27, by decide⟩ _ _) (sem_yrecv ⟨27, by decide⟩ _ _)) ?_
  refine step_apply (step_ysend m K c ⟨28, by decide⟩ _ (Fin.ext (k0_dev31_eq c)) _ _ (sem_ysend ⟨28, by decide⟩ _ _) (sem_yrecv ⟨28, by decide⟩ _ _)) ?_
  refine step_apply (step_ysend m K c ⟨29, by decide⟩ _ (Fin.ext (k0_dev32_eq c)) _ _ (sem_ysend ⟨29, by decide⟩ _ _) (sem_yrecv ⟨29, by decide⟩ _ _)) ?_
  exact ret_apply c (BI.Entails.refl _)

set_option maxRecDepth 65536 in
theorem part_15 (m : (ℓ : Loc nD τ sig) → Buf (Elt F) ℓ) (K : Dev nD × Fin 323 → ℕ) (c : Dev nD) (v2 : BitVec 32) (v5 : BitVec 32) (v6 : BitVec 32) (v8 : BitVec 32) (c1920_i32 : BitVec 32) :
    S1 m K c 30 ⊢ wp frame (wpE (defs₀ (F := F)) 𝒱₀ (c : Thread nD τ) none) Set.univ
      (k0_part15 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1920_i32)
      (fun _ => S1 m K c 32) := by
  rw [k0_part15_eq_skeleton]; unfold k0_part15_skel
  simp only [Prog.lift, Prog.bind_op, Prog.bind_ret, Prog.pure_eq_ret]
  refine step_apply (step_ysend m K c ⟨30, by decide⟩ _ (Fin.ext (k0_dev33_eq c)) _ _ (sem_ysend ⟨30, by decide⟩ _ _) (sem_yrecv ⟨30, by decide⟩ _ _)) ?_
  refine step_apply (step_ysend m K c ⟨31, by decide⟩ _ (Fin.ext (k0_dev34_eq c)) _ _ (sem_ysend ⟨31, by decide⟩ _ _) (sem_yrecv ⟨31, by decide⟩ _ _)) ?_
  exact ret_apply c (BI.Entails.refl _)

set_option maxRecDepth 65536 in
theorem part_16 (m : (ℓ : Loc nD τ sig) → Buf (Elt F) ℓ) (K : Dev nD × Fin 323 → ℕ) (c : Dev nD) (v2 : BitVec 32) (v5 : BitVec 32) (v6 : BitVec 32) (v8 : BitVec 32) :
    S1 m K c 32 ⊢ wp frame (wpE (defs₀ (F := F)) 𝒱₀ (c : Thread nD τ) none) Set.univ
      (k0_part16 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 34) := by
  rw [k0_part16_eq_skeleton]; unfold k0_part16_skel
  simp only [Prog.lift, Prog.bind_op, Prog.bind_ret, Prog.pure_eq_ret]
  refine step_apply (step_ysend m K c ⟨32, by decide⟩ _ (Fin.ext (k0_dev35_eq c)) _ _ (sem_ysend ⟨32, by decide⟩ _ _) (sem_yrecv ⟨32, by decide⟩ _ _)) ?_
  refine step_apply (step_ysend m K c ⟨33, by decide⟩ _ (Fin.ext (k0_dev36_eq c)) _ _ (sem_ysend ⟨33, by decide⟩ _ _) (sem_yrecv ⟨33, by decide⟩ _ _)) ?_
  exact ret_apply c (BI.Entails.refl _)

/-- info: 'Cert.KernelIdeal.RS.part_16' depends on axioms: [propext, Classical.choice, Quot.sound] -/
#guard_msgs in #print axioms part_16

end Cert.KernelIdeal.RS

end
-- ==== Proof.RsKernelIdeal.Steps1g.lean ====
/-
  Between the first loop and the middle loop. When every chunk has been sent to the column peer, nothing is owed to the
  column peer any more, every chunk's send credit is in hand, and the middle loop starts at chunk 0: its needs are taken
  out of those of all the chunks, and the staging needs of chunk 1 out of those of the chunks after chunk 0.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Levels

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private instance rec_persistent (K : Dev nD × Fin 323 → ℕ) : Persistent (Rec m K) := by unfold Rec; infer_instance

/-- From the first loop's end to the middle loop's start. -/
theorem S1_S2 (K : Dev nD × Fin 323 → ℕ) (c : Dev nD) : S1 m K c 64 ⊢ S2 m K c 0 0 := by
  have h0 : 0 < 64 := by decide
  have h1 : 0 + 1 < 64 := by decide
  have emp1 : bigSep (uptoK 0) (fun x => mPost m c x) = iprop(emp) :=
    (congrArg (fun s => bigSep s fun x => mPost m c x) uptoK_zero).trans bigSep_empty
  have ey : bigSep (uptoK 64) (fun x => y1post (F := F) c x) = bigSep Finset.univ (fun x : Fin 64 => y1post (F := F) c x) :=
    congrArg (fun s => bigSep s fun x => y1post (F := F) c x) uptoK_64
  have epre : bigSep Finset.univ (fun x : Fin 64 => mPre (F := F) c x)
      = iprop(mPre (F := F) c ⟨0, h0⟩ ∗ bigSep (fromK (0 + 1)) fun x => mPre (F := F) c x) :=
    (congrArg (fun s => bigSep s fun x => mPre (F := F) c x) fromK_zero.symm).trans
      (bigSep_fromK_peel (fun x => mPre (F := F) c x) (0 : Fin 64))
  have est : bigSep (fromK 1) (fun x => stPre m c x)
      = iprop(stPre m c ⟨0 + 1, h1⟩ ∗ bigSep (fromK (0 + 2)) fun x => stPre m c x) :=
    bigSep_fromK_peel (fun x => stPre m c x) (1 : Fin 64)
  unfold S1 S2 mid0
  simp only [cur2]
  unfold mPreO stPreO
  rw [dif_pos h0, dif_pos h1, Oy_64, zero_add, show slotOf (0 + 1) = (1 : Fin 2) from rfl, emp1]
  iintro ⟨#HR, ⟨Harg, Hpre, Hst, Hcur, Hs1, Hcp, Hf⟩, -, Hy, HO⟩
  ihave Hy' := (Entails.of_eq ey) $$ Hy
  ihave Hp := (Entails.of_eq epre) $$ Hpre
  icases Hp with ⟨Hp0, Hpre⟩
  ihave Hs := (Entails.of_eq est) $$ Hst
  icases Hs with ⟨Hst1, Hst⟩
  isplitr; · iexact HR
  isplitl [Harg]; · iexact Harg
  isplitl [Hy']; · iexact Hy'
  isplitl [Hf]; · iexact Hf
  isplitr; · iempintro
  isplitl [Hpre]; · iexact Hpre
  isplitl [Hst]; · iexact Hst
  isplitl [Hp0]; · iexact Hp0
  isplitl [Hcur]; · iexact Hcur
  isplitl [Hst1]; · iexact Hst1
  isplitl [Hs1]; · iexact Hs1
  isplitl [Hcp]; · iexact Hcp
  iexact HO

/-- info: 'Cert.KernelIdeal.RS.S1_S2' depends on axioms: [propext, Classical.choice, Quot.sound] -/
#guard_msgs in #print axioms S1_S2

end Cert.KernelIdeal.RS

end
-- ==== Proof.RsKernelIdeal.Steps2.lean ====
/-
  The middle loop of one device's body, operation by operation: starting the next chunk's staging, the wait for the column
  peer's block, the wait for the staged block, the send of the summed rows to the row peer, the copy of the summed rows to
  the result. Each step takes the state before the operation to the state after it.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Levels
import proofs.«900313_g7700000000000314_dist_rs_v7x_xy2x2_y_m8192_n1024_f32_1_alg».proof.Proof.RsKernelIdeal.Views

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows for good, cell by cell -/

private instance Rec_persistent (K : Dev nD × Fin 323 → ℕ) : BI.Persistent (Rec m K) := by unfold Rec; infer_instance

/-- The index of a copy cell among the protocol's cells. -/
private def ixq (q : DmaSem sig) : Fin 323 := ⟨q.val, Nat.lt_succ_of_lt q.isLt⟩

private theorem kcell_ixq (c : Dev nD) (q : DmaSem sig) : kcell (c, ixq q) = ((c : Thread nD τ), SemLoc.dma q) := by
  have h : (ixq q).val < 322 := q.isLt
  show ((c : Thread nD τ), (if h : (ixq q).val < 322 then SemLoc.dma ⟨(ixq q).val, h⟩ else .reg barS)) = _
  rw [dif_pos h]; rfl

private theorem inv_dma (K : Dev nD × Fin 323 → ℕ) (c : Dev nD) (q : DmaSem sig) :
    Rec m K ⊢ cellInv ER (sched m) (K (c, ixq q)) ((c : Thread nD τ), .dma q) := by
  unfold Rec
  have h : (bigSep Finset.univ (fun cj : Dev nD × Fin 323 => cellInv ER (sched m) (K cj) (kcell cj)) : sProp 𝕄)
      ⊢ cellInv ER (sched m) (K (c, ixq q)) (kcell (c, ixq q)) := bigSep_elim (Finset.mem_univ (c, ixq q))
  rw [kcell_ixq] at h
  iintro ⟨HI, -, -⟩
  iapply h; iexact HI

private theorem reached0_dma (K : Dev nD × Fin 323 → ℕ) (c : Dev nD) (q : DmaSem sig) :
    Rec m K ⊢ reached ER ((c : Thread nD τ), .dma q) 0 := by
  unfold Rec
  have h : (bigSep Finset.univ (fun cj : Dev nD × Fin 323 => reached ER (kcell cj) 0) : sProp 𝕄)
      ⊢ reached ER (kcell (c, ixq q)) 0 := bigSep_elim (Finset.mem_univ (c, ixq q))
  rw [kcell_ixq] at h
  iintro ⟨-, HR, -⟩
  iapply h; iexact HR

private theorem lev_rec (K : Dev nD × Fin 323 → ℕ) : Rec m K ⊢ (levAts L lv : sProp 𝕄) := by
  unfold Rec
  iintro ⟨-, -, H⟩
  iexact H

/-! ## The states of the middle loop at a chunk in range -/

section Unfold
variable (c : Dev nD) (r : Fin 64)

private theorem mPreO_lt : mPreO (F := F) c r.val = mPre (F := F) c r := dif_pos r.isLt
private theorem curSt_lt : curSt (F := F) c r.val = stMid (F := F) c r := dif_pos r.isLt
private theorem stPreO_lt : stPreO m c r.val = stPre m c r := dif_pos r.isLt

private theorem cur2_0 (k : ℕ) : cur2 m c k 0 = iprop(mPreO (F := F) c k ∗ curSt (F := F) c k ∗ stPreO m c (k + 1) ∗ freeSlot (F := F) c (slotOf (k + 1)) ∗ cpinsAt (F := F) c k ∗ owesE (F := F) c (Ox c k)) := rfl
private theorem cur2_1 (k : ℕ) : cur2 m c k 1 = iprop(mPreO (F := F) c k ∗ curSt (F := F) c k ∗ curSt (F := F) c (k + 1) ∗ cpinsAt (F := F) c k ∗ owesE (F := F) c (Ox c k)) := rfl
private theorem cur2_2 : cur2 m c r.val 2 = iprop(mRest (F := F) c r ∗ atPos ER (yrecvC c r) 1 ∅ 0 ∗ yrecvPay m c r ∗ curSt (F := F) c r.val ∗ curSt (F := F) c (r.val + 1)
        ∗ cpinsAt (F := F) c r.val ∗ owesE (F := F) c (Ox c r.val)) := dif_pos r.isLt
private theorem cur2_3 : cur2 m c r.val 3 = iprop(mRest (F := F) c r ∗ atPos ER (yrecvC c r) 1 ∅ 0 ∗ yrecvPay m c r
        ∗ owns (c : Thread nD τ) (lS (slotOf r.val)) fullShare (bVal m c r) ∗ ptsB m c r ∗ curSt (F := F) c (r.val + 1)
        ∗ cpinsAt (F := F) c (r.val + 1) ∗ owesE (F := F) c (Ox c r.val)) := dif_pos r.isLt
private theorem cur2_4 : cur2 m c r.val 4 = iprop(mRest (F := F) c r ∗ atPos ER (yrecvC c r) 1 ∅ 0 ∗ owns (c : Thread nD τ) (rS r) fullShare (sVal m c r)
        ∗ freeSlot (F := F) c (slotOf r.val) ∗ ptsB m c r ∗ curSt (F := F) c (r.val + 1)
        ∗ cpinsAt (F := F) c (r.val + 1) ∗ owesE (F := F) c (Ox c r.val)) := dif_pos r.isLt
private theorem cur2_5 : cur2 m c r.val 5 = iprop((freeOut (F := F) c c r ∗ dutyTok ER (cpoutC c r) 0 false) ∗ atPos ER (yrecvC c r) 1 ∅ 0
        ∗ owns (c : Thread nD τ) (rS r) fullShare.right (sVal m c r) ∗ cred (tallyAt (xsendC c r) () N)
        ∗ freeSlot (F := F) c (slotOf r.val) ∗ ptsB m c r ∗ curSt (F := F) c (r.val + 1)
        ∗ cpinsAt (F := F) c (r.val + 1) ∗ owesE (F := F) c (Ox c (r.val + 1))) := dif_pos r.isLt
private theorem cur2_6 : cur2 m c r.val 6 = iprop(mPost m c r ∗ freeSlot (F := F) c (slotOf r.val) ∗ curSt (F := F) c (r.val + 1)
        ∗ cpinsAt (F := F) c (r.val + 1) ∗ owesE (F := F) c (Ox c (r.val + 1))) := dif_pos r.isLt

end Unfold

/-- The weakest precondition of device `c`'s body. -/
local notation "WP" c => wp frame (wpE (defs₀ (F := F)) 𝒱₀ (c : Thread nD τ) none) Set.univ

/-! ## A wait for a whole one-duty round of one of the device's copy cells -/

/-- The device waits on its copy cell `q`, at the start of a round `R` of one duty, for one block's credit, which it holds
    as a token: it comes back one round on, with the duty's payload, the wait recorded. -/
private theorem wp_wait_cell (K : Dev nD × Fin 323 → ℕ) (c : Dev nD) (q : DmaSem sig) (R : ℕ)
    (hd : (sched m).duties ((c : Thread nD τ), .dma q) R = {false})
    {sp' sp : Space} {s' : Shape} {e' : EltTy} {κ : Kind} (src : Memref sig .tc sp' s' e') (dst : Memref sig κ sp S64x1024 .f32)
    {h1 : src.view.WordExact} {h2 : dst.view.WordExact} (hN : dst.view.dmaCredit = N)
    (O : CellTallies nD τ sig Unit) (W : Waits sig Unit)
    {α : Type} {Q : α → sProp 𝕄} {k : PUnit → Prog (TpuEff nD τ sig (Elt F) Λ₀ .tc) α} :
    iprop(Rec m K ∗ cred (tallyAt ((c : Thread nD τ), .dma q) () N) ∗ owes (c : Thread nD τ) O W
        ∗ MayWait (c : Thread nD τ) (.dma q) () O ∗ atPos ER ((c : Thread nD τ), .dma q) R ∅ 0)
      ⊢ iprop(((owes (c : Thread nD τ) O (insert (SemLoc.dma q, ()) W) ∗ atPos ER ((c : Thread nD τ), .dma q) (R + 1) ∅ 0
              ∗ reached ER ((c : Thread nD τ), .dma q) (R + 1) ∗ (sched m).payload ((c : Thread nD τ), .dma q) R false)
            -∗ (WP c) (k ⟨⟩) Q)
          -∗ (WP c) (.op (.waitDma2 q src dst h1 h2) k) Q) := by
  iintro ⟨#HRec, Hcr, HO, HM, Hat⟩ Hk
  iapply (Rounds.wp_wait_rest_token 𝒱₀ ER (sched m) (c : Thread nD τ) none (κ := K (c, ixq q))
      (w := .waitDma2 q src dst h1 h2) (sm := .dma q) (k' := dst.view.dmaCredit)
      (wpE_waitDma2_eq 𝒱₀ (c : Thread nD τ) none Set.univ) (Set.mem_univ _) () (O := O) (W := W) (R := R) (m := 0) (T := ∅)
      (by rw [Nat.zero_add, expect_of_single m c q R hd]; exact hN)) $$ [Hcr HO HM Hat]
  · isplitr; · iapply (inv_dma m K c q); iexact HRec
    isplitl [Hcr]; · rw [hN]; iexact Hcr
    isplitl [HO]; · iexact HO
    isplitl [HM]; · iexact HM
    iexact Hat
  iintro ⟨HO, Hat, Hr, Hpay⟩
  ihave Hp := (Entails.of_eq (rest_of_single m ((c : Thread nD τ), .dma q) R hd)) $$ Hpay
  iapply Hk
  isplitl [HO]; · iexact HO
  isplitl [Hat]; · iexact Hat
  isplitl [Hr]; · iexact Hr
  iexact Hp

/-! ## The staging slots: which slot a chunk uses, and where a slot's cell stands -/

private theorem slotOf_add_two (k : ℕ) : slotOf (k + 2) = slotOf k := Fin.ext (Nat.add_mod_right k 2)

/-- The other staging slot. -/
private def oth (s : Fin 2) : Fin 2 := ⟨1 - s.val, by omega⟩

/-- When chunk `k + 1` is staged, its slot's cell is at the round that chunk completes. -/
private theorem posI_stage (k k' : ℕ) (h : k' = k + 1) : posI (slotOf k') k = k' / 2 := by
  subst h; unfold posI slotOf; show (k + 1 - (k + 1) % 2) / 2 = (k + 1) / 2; omega
/-- When chunk `k`'s staged block is waited for, its slot's cell is at the round that chunk completes … -/
private theorem posI_cur (k : ℕ) : posI (slotOf k) k = k / 2 := by
  unfold posI slotOf; show (k + 1 - k % 2) / 2 = k / 2; omega
/-- … and after the wait one round on, … -/
private theorem posI_cur_succ (k : ℕ) : posI (slotOf k) (k + 1) = k / 2 + 1 := by
  unfold posI slotOf; show (k + 1 + 1 - k % 2) / 2 = k / 2 + 1; omega
/-- … while the other slot's cell stays where it is. -/
private theorem posI_other (k : ℕ) : posI (oth (slotOf k)) (k + 1) = posI (oth (slotOf k)) k := by
  unfold posI slotOf oth; show (k + 1 + 1 - (1 - k % 2)) / 2 = (k + 1 - (1 - k % 2)) / 2; omega

/-- The chunk that round `k / 2` of slot `k % 2` serves is chunk `k`. -/
private theorem chunkOf_slot (r : Fin 64) (h : r.val / 2 < 32) : chunkOf (slotOf r.val) (r.val / 2) h = r :=
  Fin.ext (by show 2 * (r.val / 2) + r.val % 2 = r.val; omega)

/-- What the staging of chunk `r` hands over: the slot holding the kept block, and that block of the argument back. -/
private theorem cpinPay_eq (c : Dev nD) (r : Fin 64) :
    cpinPay m c (slotOf r.val) (r.val / 2)
      = iprop(owns (c : Thread nD τ) (lS (slotOf r.val)) fullShare (bVal m c r) ∗ ptsB m c r) := by
  have h : r.val / 2 < 32 := by have := r.isLt; omega
  unfold cpinPay ptsB; rw [dif_pos h, chunkOf_slot r h]

private theorem curSt_ge (c : Dev nD) (k : ℕ) (h : 64 ≤ k) : curSt (F := F) c k = freeSlot (F := F) c (slotOf k) := dif_neg (by omega)
private theorem stPreO_ge (c : Dev nD) (k : ℕ) (h : 64 ≤ k) : stPreO m c k = iprop(emp) := dif_neg (by omega)
private theorem mPreO_ge (c : Dev nD) (k : ℕ) (h : 64 ≤ k) : mPreO (F := F) c k = iprop(emp) := dif_neg (by omega)
private theorem fromK_ge (k : ℕ) (h : 64 ≤ k) : fromK k = ∅ := Finset.ext fun x => by
  rw [mem_fromK]; have := x.isLt; exact ⟨fun h' => by omega, fun h' => absurd h' (Finset.notMem_empty x)⟩

/-- The two staging cells' positions, with slot `s`'s taken apart. -/
private theorem cpinsAt_open (c : Dev nD) (s : Fin 2) (k : ℕ) :
    cpinsAt (F := F) c k ⊢ iprop(atPos ER (cpinC c s) (posI s k) ∅ 0 ∗ reached ER (cpinC c s) (posI s k) ∗ cpinAt (F := F) c (oth s) k) := by
  have hs : s = 0 ∨ s = 1 := by revert s; decide
  unfold cpinsAt
  rcases hs with rfl | rfl
  · iintro ⟨H0, H1⟩
    unfold cpinAt
    icases H0 with ⟨Ha, Hr⟩
    isplitl [Ha]; · iexact Ha
    isplitl [Hr]; · iexact Hr
    iexact H1
  · iintro ⟨H0, H1⟩
    unfold cpinAt
    icases H1 with ⟨Ha, Hr⟩
    isplitl [Ha]; · iexact Ha
    isplitl [Hr]; · iexact Hr
    iexact H0
private theorem cpinsAt_close (c : Dev nD) (s : Fin 2) (k : ℕ) :
    iprop(atPos ER (cpinC c s) (posI s k) ∅ 0 ∗ reached ER (cpinC c s) (posI s k) ∗ cpinAt (F := F) c (oth s) k) ⊢ cpinsAt (F := F) c k := by
  have hs : s = 0 ∨ s = 1 := by revert s; decide
  unfold cpinsAt
  rcases hs with rfl | rfl
  · iintro ⟨Ha, Hr, H1⟩
    isplitl [Ha Hr]
    · unfold cpinAt; isplitl [Ha]; · iexact Ha
      iexact Hr
    iexact H1
  · iintro ⟨Ha, Hr, H0⟩
    isplitl [H0]; · iexact H0
    unfold cpinAt; isplitl [Ha]; · iexact Ha
    iexact Hr

/-! ## The schedule's tables as the steps' rewrites read them -/

attribute [local sl_rounds] duties_ysend duties_yrecv duties_xsend duties_xrecv duties_cpout duties_cpin amount_bar amount_dma duties_bar

/-- A column receive cell expects one block's credit in its round. -/
private theorem expect_yrecv (c : Dev nD) (r : Fin 64) : (sched (F := F) m).expect (yrecvC c r) 0 = N :=
  expect_of_single m c (yrecvQ r) 0 (duties_yrecv m c r)
/-- What the column receive cell's round hands over, spelt out: the landing rows at some contents that read as the column
    peer's block. -/
private theorem payload_yrecv_open (c : Dev nD) (r : Fin 64) (R : ℕ) (d : Bool) :
    (sched (F := F) m).payload (yrecvC c r) R d
      = iprop(∃ f, ⌜(rS r).view.read (Elt F) f = yVal m c r⌝ ∗ ((rS r).view.loc (c : Thread nD τ) ↦[(rS r).view.set]{fullShare} f)) := by
  rw [payload_yrecv]; unfold yrecvPay owns; rfl
/-- A staging cell expects one block's credit in each of its 32 rounds. -/
private theorem expect_cpin (c : Dev nD) (s : Fin 2) (R : ℕ) (h : R < 32) : (sched (F := F) m).expect (cpinC c s) R = N :=
  expect_of_single m c (cpinQ s) R (duties_cpin m c s R h)
/-- What chunk `r`'s staging round hands over, spelt out: the slot at some contents that read as the kept block, and that
    block of the argument. -/
private theorem payload_cpin_open (c : Dev nD) (r : Fin 64) (d : Bool) :
    (sched (F := F) m).payload (cpinC c (slotOf r.val)) (r.val / 2) d
      = iprop((∃ f, ⌜(lS (slotOf r.val)).view.read (Elt F) f = bVal m c r⌝
            ∗ ((lS (slotOf r.val)).view.loc (c : Thread nD τ) ↦[(lS (slotOf r.val)).view.set]{fullShare} f))
          ∗ ((xB c r).view.loc (c : Thread nD τ) ↦[(xB c r).view.set]{fullShare} X m c)) := by
  rw [payload_cpin, cpinPay_eq]; unfold owns ptsB; rfl
attribute [local sl_rounds] expect_yrecv payload_yrecv_open expect_cpin payload_cpin_open

/-! ## Staging the next chunk -/

/-- The kept block of chunk `r + 1` goes to its staging slot: the device hands in the block of the argument and the slot,
    free; both come back with the staging cell's round, which the copy pays; the device gets the cell's credit. -/
theorem step_stage (K : Dev nD × Fin 323 → ℕ) (c : Dev nD) (r r' : Fin 64) (hr' : r'.val = r.val + 1)
    (s : Fin 2) (hs : s = slotOf r'.val) (q : DmaSem sig) (hq : q = cpinQ s)
    {hsrc : (xB c r').view.WordExact} {hdst : (lS s).view.WordExact}
    {hsem : (DmaTarget.here (lS s) : DmaTarget nD τ sig .tc .vmem S64x1024 .f32).Typed .hbm (.dma q)}
    {α : Type} {Q : α → sProp 𝕄} {k : PUnit → Prog (TpuEff nD τ sig (Elt F) Λ₀ .tc) α} :
    S2 m K c r.val 0 ⊢ iprop((S2 m K c r.val 1 -∗ (WP c) (k ⟨⟩) Q)
      -∗ (WP c) (.op (.enqueueDma (xB c r') (.here (lS s)) (.dma q) hsrc hdst hsem) k) Q) := by
  subst hq hs
  have hR : r'.val / 2 < 32 := by have := r'.isLt; omega
  unfold S2
  rw [cur2_0, cur2_1, ← hr', stPreO_lt, curSt_lt c r']; unfold stPre stMid ptsB freeSlot
  iintro ⟨#HRec, Harg, Hy1, HfP, HmPost, HmPre, HstPre, HmP, Hcs, ⟨HpB, Htk⟩, ⟨%fd, Hfs⟩, Hcp, HO⟩ Hk
  ihave Hcp2 := (cpinsAt_open c (slotOf r'.val) r.val) $$ Hcp
  rw [posI_stage r.val r'.val hr']
  icases Hcp2 with ⟨Hats, #Hrs, Hoth⟩
  iapply (Rounds.wp_copy_pointsTo 𝒱₀ ER (sched m) (c : Thread nD τ) none (src := xB c r') (dst := lS (slotOf r'.val))
      (sem := .dma (cpinQ (slotOf r'.val))) (κ := K (c, ixq (cpinQ (slotOf r'.val)))) (r := r'.val / 2) (d := false)
      (q := fullShare) (fs := X m c) (fd := fd)
      (by rw [duties_cpin m c (slotOf r'.val) (r'.val / 2) hR]; exact Finset.mem_singleton_self _) () N rfl
      (amount_dma m c (cpinQ (slotOf r'.val)) (r'.val / 2) false)
      (by rw [payload_cpin, cpinPay_eq]; unfold ptsB
          exact BIClass.sep_mono (owns_of_landed_lS c (slotOf r'.val) fullShare fd (bVal m c r')) (BI.Entails.refl _)))
    $$ [HpB Hfs Htk]
  · isplitr; · iapply (inv_dma m K c (cpinQ (slotOf r'.val))); iexact HRec
    isplitl [HpB]; · iexact HpB
    isplitl [Hfs]; · iexact Hfs
    isplitl [Htk]; · iexact Htk
    iexact Hrs
  iintro Hcr
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmP]; · iexact HmP
  isplitl [Hcs]; · iexact Hcs
  isplitl [Hcr]; · iexact Hcr
  isplitl [Hats Hoth]
  · iapply (cpinsAt_close c (slotOf r'.val) r.val)
    rw [posI_stage r.val r'.val hr']
    isplitl [Hats]; · iexact Hats
    isplitr; · iexact Hrs
    iexact Hoth
  iexact HO

/-! ## The wait for the column peer's block -/

/-- The wait on chunk `r`'s column receive cell: the device hands in the cell's credit and comes back with the landing
    rows, holding the column peer's block; the cell is one round on. -/
theorem step_yrecv_wait (K : Dev nD × Fin 323 → ℕ) (c : Dev nD) (r : Fin 64) (q : DmaSem sig) (hq : q = yrecvQ r)
    {h1 : (xA c r).view.WordExact} {h2 : (rS r).view.WordExact}
    {α : Type} {Q : α → sProp 𝕄} {k : PUnit → Prog (TpuEff nD τ sig (Elt F) Λ₀ .tc) α} :
    S2 m K c r.val 1 ⊢ iprop((S2 m K c r.val 2 -∗ (WP c) (k ⟨⟩) Q) -∗ (WP c) (.op (.waitDma2 q (xA c r) (rS r) h1 h2) k) Q) := by
  subst hq
  unfold S2
  rw [cur2_1, cur2_2, mPreO_lt]; unfold mPre owesE
  iintro ⟨#HRec, Harg, Hy1, HfP, HmPost, HmPre, HstPre, ⟨Hat, Hcr, HmRest⟩, Hcs, Hcs1, Hcp, ⟨%W, HO⟩⟩ Hk
  have hmw := mayWait_yrecv (F := F) c r r.val
  ihave HI := (inv_dma m K c (yrecvQ r)) $$ HRec
  ihave Hlev := (lev_rec m K) $$ HRec
  sl_exec
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmRest]; · iexact HmRest
  isplitl [Hat]; · iexact Hat
  isplitl [Hat_pay1]
  · unfold yrecvPay owns; iexists Hat_pay1_v; iexact Hat_pay1
  isplitl [Hcs]; · iexact Hcs
  isplitl [Hcs1]; · iexact Hcs1
  isplitl [Hcp]; · iexact Hcp
  iexists _; iexact HO

/-! ## The wait for the staged block -/

/-- The wait on chunk `r`'s staging cell: the device hands in the cell's credit and comes back with the slot, holding the
    kept block, and that block of the argument; the slot's cell is one round on, the other slot's where it was. -/
theorem step_stage_wait (K : Dev nD × Fin 323 → ℕ) (c : Dev nD) (r : Fin 64) (s : Fin 2) (hs : s = slotOf r.val)
    (q : DmaSem sig) (hq : q = cpinQ s)
    {h1 : (xB c r).view.WordExact} {h2 : (lS s).view.WordExact}
    {α : Type} {Q : α → sProp 𝕄} {k : PUnit → Prog (TpuEff nD τ sig (Elt F) Λ₀ .tc) α} :
    S2 m K c r.val 2 ⊢ iprop((S2 m K c r.val 3 -∗ (WP c) (k ⟨⟩) Q) -∗ (WP c) (.op (.waitDma2 q (xB c r) (lS s) h1 h2) k) Q) := by
  subst hq hs
  have hR : r.val / 2 < 32 := by have := r.isLt; omega
  unfold S2
  rw [cur2_2, cur2_3, curSt_lt]; unfold stMid owesE
  iintro ⟨#HRec, Harg, Hy1, HfP, HmPost, HmPre, HstPre, HmRest, Hat, Hyp, Hcr, Hcs1, Hcp, ⟨%W, HO⟩⟩ Hk
  ihave Hcp2 := (cpinsAt_open c (slotOf r.val) r.val) $$ Hcp
  rw [posI_cur]
  icases Hcp2 with ⟨Hats, -, Hoth⟩
  have hmw := mayWait_low (F := F) c (cpinQ (slotOf r.val))
    (by have e : (cpinQ (slotOf r.val)).val = 256 + (slotOf r.val).val := rfl
        constructor <;> (intro h; omega)) r.val
  ihave HI := (inv_dma m K c (cpinQ (slotOf r.val))) $$ HRec
  ihave Hlev := (lev_rec m K) $$ HRec
  sl_exec
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmRest]; · iexact HmRest
  isplitl [Hat]; · iexact Hat
  isplitl [Hyp]; · iexact Hyp
  isplitl [Hats_pay1]
  · unfold owns; iexists Hats_pay1_v; iexact Hats_pay1
  isplitl [Hats_pay2]
  · unfold ptsB; iexact Hats_pay2
  isplitl [Hcs1]; · iexact Hcs1
  isplitl [Hats Hats_reached Hoth]
  · iapply (cpinsAt_close c (slotOf r.val) (r.val + 1))
    rw [posI_cur_succ]
    isplitl [Hats]; · iexact Hats
    isplitl [Hats_reached]; · iexact Hats_reached
    unfold cpinAt; rw [posI_other]; iexact Hoth
  iexists _; iexact HO

/-! ## The send of the summed rows to the row peer -/

/-- The summed rows of chunk `r` go to the row peer's result: the device hands in one half of the rows (to come back with
    its row send cell's credit) and the row peer's result rows, free; the row peer's receive cell gets those rows holding the
    sums. What the device owes its row peer goes down by the chunk. -/
theorem step_xsend (K : Dev nD × Fin 323 → ℕ) (c : Dev nD) (r : Fin 64) (n : Dev nD) (hn : n = xp c)
    (qs qr : DmaSem sig) (hqs : qs = xsendQ r) (hqr : qr = xrecvQ r)
    {hsc : (oO c r : Memref sig (Dev.tc n : Thread nD τ).2.kind .hbm S64x1024 .f32).view.ref.isScScratch = false}
    {hsrc : (rS r).view.WordExact} {hdst : (oO c r).view.WordExact}
    {hsem : DmaTarget.Typed .vmem (.dma qr) (.remote (Dev.tc n : Thread nD τ) (oO c r) (.dma qs) hsc)}
    {α : Type} {Q : α → sProp 𝕄} {k : PUnit → Prog (TpuEff nD τ sig (Elt F) Λ₀ .tc) α} :
    S2 m K c r.val 4 ⊢ iprop((S2 m K c r.val 5 -∗ (WP c) (k ⟨⟩) Q)
      -∗ (WP c) (.op (.enqueueDma (rS r) (.remote (Dev.tc n : Thread nD τ) (oO c r) (.dma qs) hsc) (.dma qr) hsrc hdst hsem) k) Q) := by
  subst hn hqs hqr
  unfold S2
  rw [cur2_4, cur2_5]; unfold mRest owesE owns
  iintro ⟨#HRec, Harg, Hy1, HfP, HmPost, HmPre, HstPre, ⟨Hfo, Hts, Htr, Hfoc, Htc⟩, Hat, ⟨%f, %hf, Hrs⟩, Hfs, HpB, Hcs1, Hcp, ⟨%W, HO⟩⟩ Hk
  unfold freeOut
  icases Hfo with ⟨%fd, Hfo⟩
  ihave Hsp := (pointsTo_share (PosShare.mem_left_op_right fullShare)).1 $$ Hrs
  icases Hsp with ⟨Hl, Hr⟩
  iapply (Rounds.wp_send_pointsTo 𝒱₀ ER (sched m) (c : Thread nD τ) none (c' := (xp c : Thread nD τ)) (src := rS r) (dst := oO c r)
      (sS := .dma (xsendQ r)) (sem := .dma (xrecvQ r))
      (κ₁ := K (c, ixq (xsendQ r))) (κ₂ := K (xp c, ixq (xrecvQ r))) (r₁ := 0) (r₂ := 0) (d₁ := false) (d₂ := false)
      (q := fullShare.left) (fs := f) (fd := fd)
      (by rw [duties_xsend]; exact Finset.mem_singleton_self _) (by rw [duties_xrecv]; exact Finset.mem_singleton_self _)
      () () N rfl (amount_dma m c (xsendQ r) 0 false) (amount_dma m (xp c) (xrecvQ r) 0 false)
      (Ox c (r.val + 1)) (Ox_peel c r) (W := W)
      (by rw [payload_xsend]; unfold xsendPay; rw [← hf]; exact owns_intro (c : Thread nD τ) (rS r) fullShare.left f)
      (by rw [payload_xrecv]; unfold xrecvPay; rw [xp_xp, hf]; exact owns_of_landed_oO (xp c) c r fullShare fd (sVal m c r)))
    $$ [Hl Hfo HO Hts Htr]
  · isplitr; · iapply (inv_dma m K c (xsendQ r)); iexact HRec
    isplitr; · iapply (inv_dma m K (xp c) (xrecvQ r)); iexact HRec
    isplitl [Hl]; · iexact Hl
    isplitl [Hfo]; · iexact Hfo
    isplitl [HO]; · iexact HO
    isplitl [Hts]; · iexact Hts
    isplitr; · iapply (reached0_dma m K c (xsendQ r)); iexact HRec
    isplitl [Htr]; · iexact Htr
    iapply (reached0_dma m K (xp c) (xrecvQ r)); iexact HRec
  iintro ⟨Hcx, HO⟩
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [Hfoc Htc]
  · isplitl [Hfoc]; · iexact Hfoc
    iexact Htc
  isplitl [Hat]; · iexact Hat
  isplitl [Hr]
  · iexists f; isplitr; · ipureintro; exact hf
    iexact Hr
  isplitl [Hcx]; · iexact Hcx
  isplitl [Hfs]; · iexact Hfs
  isplitl [HpB]; · iexact HpB
  isplitl [Hcs1]; · iexact Hcs1
  isplitl [Hcp]; · iexact Hcp
  iexists _; iexact HO

/-! ## The copy of the summed rows to the result -/

/-- The summed rows of chunk `r` go to the device's own result rows: the device hands in the other half of the rows and its
    result rows, free; both come back, the result rows holding the sums, with the result-copy cell's credit. -/
theorem step_outcopy (K : Dev nD × Fin 323 → ℕ) (c : Dev nD) (r : Fin 64) (q : DmaSem sig) (hq : q = cpoutQ r)
    {hsrc : (rS r).view.WordExact} {hdst : (oO c r).view.WordExact}
    {hsem : (DmaTarget.here (oO c r) : DmaTarget nD τ sig .tc .hbm S64x1024 .f32).Typed .vmem (.dma q)}
    {α : Type} {Q : α → sProp 𝕄} {k : PUnit → Prog (TpuEff nD τ sig (Elt F) Λ₀ .tc) α} :
    S2 m K c r.val 5 ⊢ iprop((S2 m K c r.val 6 -∗ (WP c) (k ⟨⟩) Q)
      -∗ (WP c) (.op (.enqueueDma (rS r) (.here (oO c r)) (.dma q) hsrc hdst hsem) k) Q) := by
  subst hq
  unfold S2
  rw [cur2_5, cur2_6]; unfold mPost owns
  iintro ⟨#HRec, Harg, Hy1, HfP, HmPost, HmPre, HstPre, ⟨Hfoc, Htc⟩, Hat, ⟨%f, %hf, Hr⟩, Hcx, Hfs, HpB, Hcs1, Hcp, HO⟩ Hk
  unfold freeOut
  icases Hfoc with ⟨%fd, Hfoc⟩
  iapply (Rounds.wp_copy_pointsTo 𝒱₀ ER (sched m) (c : Thread nD τ) none (src := rS r) (dst := oO c r) (sem := .dma (cpoutQ r))
      (κ := K (c, ixq (cpoutQ r))) (r := 0) (d := false) (q := fullShare.right) (fs := f) (fd := fd)
      (by rw [duties_cpout]; exact Finset.mem_singleton_self _) () N rfl (amount_dma m c (cpoutQ r) 0 false)
      (by rw [payload_cpout]; unfold cpoutPay; rw [hf]
          exact BIClass.sep_mono (owns_of_landed_oO c c r fullShare fd (sVal m c r))
            (by rw [← hf]; exact owns_intro (c : Thread nD τ) (rS r) fullShare.right f)))
    $$ [Hr Hfoc Htc]
  · isplitr; · iapply (inv_dma m K c (cpoutQ r)); iexact HRec
    isplitl [Hr]; · iexact Hr
    isplitl [Hfoc]; · iexact Hfoc
    isplitl [Htc]; · iexact Htc
    iapply (reached0_dma m K c (cpoutQ r)); iexact HRec
  iintro Hco
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [Hcx Hco HpB Hat]
  · isplitl [Hcx]; · iexact Hcx
    isplitl [Hco]; · iexact Hco
    isplitl [HpB]; · iexact HpB
    iexact Hat
  isplitl [Hfs]; · iexact Hfs
  isplitl [Hcs1]; · iexact Hcs1
  isplitl [Hcp]; · iexact Hcp
  iexact HO

/-- info: 'Cert.KernelIdeal.RS.step_stage' depends on axioms: [propext, Classical.choice, Quot.sound] -/
#guard_msgs in #print axioms step_stage

/-- info: 'Cert.KernelIdeal.RS.step_yrecv_wait' depends on axioms: [propext, Classical.choice, Quot.sound] -/
#guard_msgs in #print axioms step_yrecv_wait

/-- info: 'Cert.KernelIdeal.RS.step_stage_wait' depends on axioms: [propext, Classical.choice, Quot.sound] -/
#guard_msgs in #print axioms step_stage_wait

/-- info: 'Cert.KernelIdeal.RS.step_xsend' depends on axioms: [propext, Classical.choice, Quot.sound] -/
#guard_msgs in #print axioms step_xsend

/-- info: 'Cert.KernelIdeal.RS.step_outcopy' depends on axioms: [propext, Classical.choice, Quot.sound] -/
#guard_msgs in #print axioms step_outcopy

end Cert.KernelIdeal.RS

end
-- ==== Proof.RsKernelIdeal.Steps2n.lean ====
/-
  The middle loop of one device's body, between its iterations: after the last chunk nothing more is staged, and the state
  at the end of an iteration is the state at the start of the next.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Levels
import proofs.«900313_g7700000000000314_dist_rs_v7x_xy2x2_y_m8192_n1024_f32_1_alg».proof.Proof.RsKernelIdeal.Views

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows for good, cell by cell -/

private instance Rec_persistent (K : Dev nD × Fin 323 → ℕ) : BI.Persistent (Rec m K) := by unfold Rec; infer_instance

/-- The index of a copy cell among the protocol's cells. -/
private def ixq (q : DmaSem sig) : Fin 323 := ⟨q.val, Nat.lt_succ_of_lt q.isLt⟩

private theorem kcell_ixq (c : Dev nD) (q : DmaSem sig) : kcell (c, ixq q) = ((c : Thread nD τ), SemLoc.dma q) := by
  have h : (ixq q).val < 322 := q.isLt
  show ((c : Thread nD τ), (if h : (ixq q).val < 322 then SemLoc.dma ⟨(ixq q).val, h⟩ else .reg barS)) = _
  rw [dif_pos h]; rfl

private theorem inv_dma (K : Dev nD × Fin 323 → ℕ) (c : Dev nD) (q : DmaSem sig) :
    Rec m K ⊢ cellInv ER (sched m) (K (c, ixq q)) ((c : Thread nD τ), .dma q) := by
  unfold Rec
  have h : (bigSep Finset.univ (fun cj : Dev nD × Fin 323 => cellInv ER (sched m) (K cj) (kcell cj)) : sProp 𝕄)
      ⊢ cellInv ER (sched m) (K (c, ixq q)) (kcell (c, ixq q)) := bigSep_elim (Finset.mem_univ (c, ixq q))
  rw [kcell_ixq] at h
  iintro ⟨HI, -, -⟩
  iapply h; iexact HI

private theorem reached0_dma (K : Dev nD × Fin 323 → ℕ) (c : Dev nD) (q : DmaSem sig) :
    Rec m K ⊢ reached ER ((c : Thread nD τ), .dma q) 0 := by
  unfold Rec
  have h : (bigSep Finset.univ (fun cj : Dev nD × Fin 323 => reached ER (kcell cj) 0) : sProp 𝕄)
      ⊢ reached ER (kcell (c, ixq q)) 0 := bigSep_elim (Finset.mem_univ (c, ixq q))
  rw [kcell_ixq] at h
  iintro ⟨-, HR, -⟩
  iapply h; iexact HR

private theorem lev_rec (K : Dev nD × Fin 323 → ℕ) : Rec m K ⊢ (levAts L lv : sProp 𝕄) := by
  unfold Rec
  iintro ⟨-, -, H⟩
  iexact H

/-! ## The states of the middle loop at a chunk in range -/

section Unfold
variable (c : Dev nD) (r : Fin 64)

private theorem mPreO_lt : mPreO (F := F) c r.val = mPre (F := F) c r := dif_pos r.isLt
private theorem curSt_lt : curSt (F := F) c r.val = stMid (F := F) c r := dif_pos r.isLt
private theorem stPreO_lt : stPreO m c r.val = stPre m c r := dif_pos r.isLt

private theorem cur2_0 (k : ℕ) : cur2 m c k 0 = iprop(mPreO (F := F) c k ∗ curSt (F := F) c k ∗ stPreO m c (k + 1) ∗ freeSlot (F := F) c (slotOf (k + 1)) ∗ cpinsAt (F := F) c k ∗ owesE (F := F) c (Ox c k)) := rfl
private theorem cur2_1 (k : ℕ) : cur2 m c k 1 = iprop(mPreO (F := F) c k ∗ curSt (F := F) c k ∗ curSt (F := F) c (k + 1) ∗ cpinsAt (F := F) c k ∗ owesE (F := F) c (Ox c k)) := rfl
private theorem cur2_2 : cur2 m c r.val 2 = iprop(mRest (F := F) c r ∗ atPos ER (yrecvC c r) 1 ∅ 0 ∗ yrecvPay m c r ∗ curSt (F := F) c r.val ∗ curSt (F := F) c (r.val + 1)
        ∗ cpinsAt (F := F) c r.val ∗ owesE (F := F) c (Ox c r.val)) := dif_pos r.isLt
private theorem cur2_3 : cur2 m c r.val 3 = iprop(mRest (F := F) c r ∗ atPos ER (yrecvC c r) 1 ∅ 0 ∗ yrecvPay m c r
        ∗ owns (c : Thread nD τ) (lS (slotOf r.val)) fullShare (bVal m c r) ∗ ptsB m c r ∗ curSt (F := F) c (r.val + 1)
        ∗ cpinsAt (F := F) c (r.val + 1) ∗ owesE (F := F) c (Ox c r.val)) := dif_pos r.isLt
private theorem cur2_4 : cur2 m c r.val 4 = iprop(mRest (F := F) c r ∗ atPos ER (yrecvC c r) 1 ∅ 0 ∗ owns (c : Thread nD τ) (rS r) fullShare (sVal m c r)
        ∗ freeSlot (F := F) c (slotOf r.val) ∗ ptsB m c r ∗ curSt (F := F) c (r.val + 1)
        ∗ cpinsAt (F := F) c (r.val + 1) ∗ owesE (F := F) c (Ox c r.val)) := dif_pos r.isLt
private theorem cur2_5 : cur2 m c r.val 5 = iprop((freeOut (F := F) c c r ∗ dutyTok ER (cpoutC c r) 0 false) ∗ atPos ER (yrecvC c r) 1 ∅ 0
        ∗ owns (c : Thread nD τ) (rS r) fullShare.right (sVal m c r) ∗ cred (tallyAt (xsendC c r) () N)
        ∗ freeSlot (F := F) c (slotOf r.val) ∗ ptsB m c r ∗ curSt (F := F) c (r.val + 1)
        ∗ cpinsAt (F := F) c (r.val + 1) ∗ owesE (F := F) c (Ox c (r.val + 1))) := dif_pos r.isLt
private theorem cur2_6 : cur2 m c r.val 6 = iprop(mPost m c r ∗ freeSlot (F := F) c (slotOf r.val) ∗ curSt (F := F) c (r.val + 1)
        ∗ cpinsAt (F := F) c (r.val + 1) ∗ owesE (F := F) c (Ox c (r.val + 1))) := dif_pos r.isLt

end Unfold

/-- The weakest precondition of device `c`'s body. -/
local notation "WP" c => wp frame (wpE (defs₀ (F := F)) 𝒱₀ (c : Thread nD τ) none) Set.univ

/-! ## The staging slots: which slot a chunk uses, and where a slot's cell stands -/

private theorem slotOf_add_two (k : ℕ) : slotOf (k + 2) = slotOf k := Fin.ext (Nat.add_mod_right k 2)

/-- The other staging slot. -/
private def oth (s : Fin 2) : Fin 2 := ⟨1 - s.val, by omega⟩

/-- When chunk `k + 1` is staged, its slot's cell is at the round that chunk completes. -/
private theorem posI_stage (k k' : ℕ) (h : k' = k + 1) : posI (slotOf k') k = k' / 2 := by
  subst h; unfold posI slotOf; show (k + 1 - (k + 1) % 2) / 2 = (k + 1) / 2; omega
/-- When chunk `k`'s staged block is waited for, its slot's cell is at the round that chunk completes … -/
private theorem posI_cur (k : ℕ) : posI (slotOf k) k = k / 2 := by
  unfold posI slotOf; show (k + 1 - k % 2) / 2 = k / 2; omega
/-- … and after the wait one round on, … -/
private theorem posI_cur_succ (k : ℕ) : posI (slotOf k) (k + 1) = k / 2 + 1 := by
  unfold posI slotOf; show (k + 1 + 1 - k % 2) / 2 = k / 2 + 1; omega
/-- … while the other slot's cell stays where it is. -/
private theorem posI_other (k : ℕ) : posI (oth (slotOf k)) (k + 1) = posI (oth (slotOf k)) k := by
  unfold posI slotOf oth; show (k + 1 + 1 - (1 - k % 2)) / 2 = (k + 1 - (1 - k % 2)) / 2; omega

/-- The chunk that round `k / 2` of slot `k % 2` serves is chunk `k`. -/
private theorem chunkOf_slot (r : Fin 64) (h : r.val / 2 < 32) : chunkOf (slotOf r.val) (r.val / 2) h = r :=
  Fin.ext (by show 2 * (r.val / 2) + r.val % 2 = r.val; omega)

/-- What the staging of chunk `r` hands over: the slot holding the kept block, and that block of the argument back. -/
private theorem cpinPay_eq (c : Dev nD) (r : Fin 64) :
    cpinPay m c (slotOf r.val) (r.val / 2)
      = iprop(owns (c : Thread nD τ) (lS (slotOf r.val)) fullShare (bVal m c r) ∗ ptsB m c r) := by
  have h : r.val / 2 < 32 := by have := r.isLt; omega
  unfold cpinPay ptsB; rw [dif_pos h, chunkOf_slot r h]

private theorem curSt_ge (c : Dev nD) (k : ℕ) (h : 64 ≤ k) : curSt (F := F) c k = freeSlot (F := F) c (slotOf k) := dif_neg (by omega)
private theorem stPreO_ge (c : Dev nD) (k : ℕ) (h : 64 ≤ k) : stPreO m c k = iprop(emp) := dif_neg (by omega)
private theorem mPreO_ge (c : Dev nD) (k : ℕ) (h : 64 ≤ k) : mPreO (F := F) c k = iprop(emp) := dif_neg (by omega)
private theorem fromK_ge (k : ℕ) (h : 64 ≤ k) : fromK k = ∅ := Finset.ext fun x => by
  rw [mem_fromK]; have := x.isLt; exact ⟨fun h' => by omega, fun h' => absurd h' (Finset.notMem_empty x)⟩

/-- The two staging cells' positions, with slot `s`'s taken apart. -/
private theorem cpinsAt_open (c : Dev nD) (s : Fin 2) (k : ℕ) :
    cpinsAt (F := F) c k ⊢ iprop(atPos ER (cpinC c s) (posI s k) ∅ 0 ∗ reached ER (cpinC c s) (posI s k) ∗ cpinAt (F := F) c (oth s) k) := by
  have hs : s = 0 ∨ s = 1 := by revert s; decide
  unfold cpinsAt
  rcases hs with rfl | rfl
  · iintro ⟨H0, H1⟩
    unfold cpinAt
    icases H0 with ⟨Ha, Hr⟩
    isplitl [Ha]; · iexact Ha
    isplitl [Hr]; · iexact Hr
    iexact H1
  · iintro ⟨H0, H1⟩
    unfold cpinAt
    icases H1 with ⟨Ha, Hr⟩
    isplitl [Ha]; · iexact Ha
    isplitl [Hr]; · iexact Hr
    iexact H0
private theorem cpinsAt_close (c : Dev nD) (s : Fin 2) (k : ℕ) :
    iprop(atPos ER (cpinC c s) (posI s k) ∅ 0 ∗ reached ER (cpinC c s) (posI s k) ∗ cpinAt (F := F) c (oth s) k) ⊢ cpinsAt (F := F) c k := by
  have hs : s = 0 ∨ s = 1 := by revert s; decide
  unfold cpinsAt
  rcases hs with rfl | rfl
  · iintro ⟨Ha, Hr, H1⟩
    isplitl [Ha Hr]
    · unfold cpinAt; isplitl [Ha]; · iexact Ha
      iexact Hr
    iexact H1
  · iintro ⟨Ha, Hr, H0⟩
    isplitl [H0]; · iexact H0
    unfold cpinAt; isplitl [Ha]; · iexact Ha
    iexact Hr

/-! ## Nothing to stage after the last chunk -/

/-- After the last chunk there is nothing to stage: the free slot stands for the staging in flight. -/
theorem skip_stage (K : Dev nD × Fin 323 → ℕ) (c : Dev nD) : S2 m K c 63 0 ⊢ S2 m K c 63 1 := by
  unfold S2
  rw [cur2_0, cur2_1, stPreO_ge m c (63 + 1) (by decide), curSt_ge c (63 + 1) (by decide)]
  iintro ⟨#HRec, Harg, Hy1, HfP, HmPost, HmPre, HstPre, HmP, Hcs, -, Hfs, Hcp, HO⟩
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmP]; · iexact HmP
  isplitl [Hcs]; · iexact Hcs
  isplitl [Hfs]; · iexact Hfs
  isplitl [Hcp]; · iexact Hcp
  iexact HO

/-! ## From one iteration to the next -/

/-- A big conjunction over the chunks from `k` on gives its piece at `k` (nothing, past the last chunk) and the rest. -/
private theorem fromK_peelO (Φ : Fin 64 → sProp 𝕄) (ΦO : ℕ → sProp 𝕄) (hΦ : ∀ r : Fin 64, ΦO r.val = Φ r)
    (hO : ∀ k, 64 ≤ k → ΦO k = iprop(emp)) (k k' : ℕ) (hk : k' = k + 1) :
    bigSep (fromK k) Φ ⊢ iprop(ΦO k ∗ bigSep (fromK k') Φ) := by
  subst hk
  by_cases h : k < 64
  · have e := bigSep_fromK_peel Φ ⟨k, h⟩
    rw [← hΦ ⟨k, h⟩] at e
    exact Entails.of_eq e
  · rw [fromK_ge k (by omega), fromK_ge (k + 1) (by omega), hO k (by omega), bigSep_empty]
    iintro H
    isplitl [H]; · iexact H
    iempintro

/-- Iteration `r` done, iteration `r + 1` starts: chunk `r`'s yields join those of the chunks before it; chunk
    `r + 1`'s needs and chunk `r + 2`'s staging needs leave their conjunctions (nothing, past the last chunk); the slot
    chunk `r` used is the one chunk `r + 2` will use. -/
theorem S2_next (K : Dev nD × Fin 323 → ℕ) (c : Dev nD) (r : Fin 64) : S2 m K c r.val 6 ⊢ S2 m K c (r.val + 1) 0 := by
  unfold S2
  rw [cur2_6, cur2_0, show r.val + 1 + 1 = r.val + 2 from rfl, show r.val + 1 + 2 = r.val + 3 from rfl, bigSep_uptoK_push,
    slotOf_add_two]
  iintro ⟨#HRec, Harg, Hy1, HfP, HmPost, HmPre, HstPre, HmP, Hfs, Hcs1, Hcp, HO⟩
  ihave HmPre2 := (fromK_peelO (fun x => mPre (F := F) c x) (fun k => mPreO (F := F) c k) (fun x => mPreO_lt c x)
    (fun k h => mPreO_ge c k h) (r.val + 1) (r.val + 2) rfl) $$ HmPre
  ihave HstPre2 := (fromK_peelO (fun x => stPre m c x) (fun k => stPreO m c k) (fun x => stPreO_lt m c x)
    (fun k h => stPreO_ge m c k h) (r.val + 2) (r.val + 3) rfl) $$ HstPre
  icases HmPre2 with ⟨HmPr, HmPre⟩
  icases HstPre2 with ⟨HstPr, HstPre⟩
  isplitr; · iexact HRec
  isplitl [Harg]; · iexact Harg
  isplitl [Hy1]; · iexact Hy1
  isplitl [HfP]; · iexact HfP
  isplitl [HmP HmPost]
  · isplitl [HmP]; · iexact HmP
    iexact HmPost
  isplitl [HmPre]; · iexact HmPre
  isplitl [HstPre]; · iexact HstPre
  isplitl [HmPr]; · iexact HmPr
  isplitl [Hcs1]; · iexact Hcs1
  isplitl [HstPr]; · iexact HstPr
  isplitl [Hfs]; · iexact Hfs
  isplitl [Hcp]; · iexact Hcp
  iexact HO

/-- info: 'Cert.KernelIdeal.RS.skip_stage' depends on axioms: [propext, Classical.choice, Quot.sound] -/
#guard_msgs in #print axioms skip_stage

/-- info: 'Cert.KernelIdeal.RS.S2_next' depends on axioms: [propext, Classical.choice, Quot.sound] -/
#guard_msgs in #print axioms S2_next

end Cert.KernelIdeal.RS

end
-- ==== Proof.RsKernelIdeal.Steps2v.lean ====
/-
  Reduce-scatter over a 2×2 mesh: iteration `r` of the middle loop, between its two waits and its sends. The device holds
  the rows of chunk `r` of its receive buffer with its column peer's block, and a staging slot with the block it kept. It
  loads both, and stores their sum over the receive rows: these then hold chunk `r` of the device's sums, and the staging
  slot is free again. The loads change nothing; the store moves the state from "both blocks landed" to "the sum stored".
  The stored value is written in the body in one of a few ways (all casts between shapes with the same elements in the same
  order, around one addition); each is the sum.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Views
import Idealize.ShloMosaic.Rules.Step
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "WP" c => wp frame (wpE (defs₀ (F := F)) 𝒱₀ (c : Thread nD τ) none) Set.univ

variable (m : (ℓ : Loc nD τ sig) → Buf (Elt F) ℓ)

/-! ## The moving part of the state, after the two waits and after the store -/

section Cur
variable (c : Dev nD) (r : Fin 64)

/-- After both waits of iteration `r`: the receive rows hold the column peer's block, the staging slot the kept block. -/
theorem cur2_three : cur2 m c r.val 3
    = iprop(mRest (F := F) c r ∗ atPos ER (yrecvC c r) 1 ∅ 0 ∗ yrecvPay m c r
        ∗ owns (c : Thread nD τ) (lS (slotOf r.val)) fullShare (bVal m c r) ∗ ptsB m c r ∗ curSt (F := F) c (r.val + 1)
        ∗ cpinsAt (F := F) c (r.val + 1) ∗ owesE (F := F) c (Ox c r.val)) := dif_pos r.isLt

/-- After the store: the receive rows hold the sums, the staging slot is free. -/
theorem cur2_four : cur2 m c r.val 4
    = iprop(mRest (F := F) c r ∗ atPos ER (yrecvC c r) 1 ∅ 0 ∗ owns (c : Thread nD τ) (rS r) fullShare (sVal m c r)
        ∗ freeSlot (F := F) c (slotOf r.val) ∗ ptsB m c r ∗ curSt (F := F) c (r.val + 1)
        ∗ cpinsAt (F := F) c (r.val + 1) ∗ owesE (F := F) c (Ox c r.val)) := dif_pos r.isLt

end Cur

/-- A step that touches the moving part only carries the rest of the state along. -/
theorem S2_frame (K : Dev nD × Fin 323 → ℕ) (c : Dev nD) (r j j' : ℕ) (G G' : sProp 𝕄)
    (h : cur2 m c r j ⊢ iprop((cur2 m c r j' -∗ G) -∗ G')) :
    S2 m K c r j ⊢ iprop((S2 m K c r j' -∗ G) -∗ G') := by
  unfold S2
  iintro ⟨H1, H2, H3, H4, H5, H6, H7, Hc⟩ Hk
  iapply h $$ Hc
  iintro Hc
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hc

/-! ## The receive rows are loaded

After both waits of iteration `r` the device owns the rows of chunk `r` of its receive buffer, holding its column peer's
block. A load through the whole receive buffer at those rows reads that block, and leaves the state as it was. -/

theorem step_load_recv (K : Dev nD × Fin 323 → ℕ) (c : Dev nD) (r : Fin 64)
    {hl : (rM : Memref sig .tc .vmem S4096x1024 .f32).view.LoadsAt (rRect r).toLoadRect}
    {α : Type} {Q : α → sProp 𝕄} {k : Vec F S64x1024 .f32 → Prog (TpuEff nD τ sig (Elt F) Λ₀ .tc) α} :
    S2 m K c r.val 3 ⊢ iprop((S2 m K c r.val 3 -∗ (WP c) (k (yVal m c r)) Q) -∗ (WP c) (.op (.load rM (rRect r).toLoadRect hl) k) Q) := by
  refine S2_frame m K c r.val 3 3 _ _ ?_
  rw [cur2_three]
  iintro ⟨H1, H2, Hy, Hrest⟩ Hk
  unfold yrecvPay owns
  icases Hy with ⟨%f, %hf, Hy⟩
  sl_exec
  rw [show View.readAt (Elt F) rM.view (rRect r).toLoadRect f = yVal m c r from hf]
  iapply Hk
  isplitl [H1]; · iexact H1
  isplitl [H2]; · iexact H2
  isplitl [Hy]
  · iexists f; isplitr; · ipureintro; exact hf
    iexact Hy
  iexact Hrest

/-! ## The staged block is loaded

The staging slot of iteration `r` holds the block the device kept. The body loads it as a 1 × 64 × 1024 block: the same
elements in the same order. -/

theorem step_load_stage (K : Dev nD × Fin 323 → ℕ) (c : Dev nD) (r : Fin 64) (s : Fin 2) (hs : s = slotOf r.val)
    {hl : (lM : Memref sig .tc .vmem S2x64x1024 .f32).view.LoadsAt (lRect s).toLoadRect}
    {α : Type} {Q : α → sProp 𝕄} {k : Vec F S1x64x1024 .f32 → Prog (TpuEff nD τ sig (Elt F) Λ₀ .tc) α} :
    S2 m K c r.val 3 ⊢ iprop((S2 m K c r.val 3 -∗ (WP c) (k (shapeCast S1x64x1024 (bVal m c r) shapeCasts_S64x1024_S1x64x1024)) Q)
      -∗ (WP c) (.op (.load lM (lRect s).toLoadRect hl) k) Q) := by
  subst hs
  refine S2_frame m K c r.val 3 3 _ _ ?_
  rw [cur2_three]
  iintro ⟨H1, H2, Hy, Hl, Hrest⟩ Hk
  unfold owns
  icases Hl with ⟨%f, %hf, Hl⟩
  sl_exec
  rw [show View.readAt (Elt F) lM.view (lRect (slotOf r.val)).toLoadRect f = shapeCast S1x64x1024 (bVal m c r) shapeCasts_S64x1024_S1x64x1024
    from load_stage c (slotOf r.val) f _ hf _]
  iapply Hk
  isplitl [H1]; · iexact H1
  isplitl [H2]; · iexact H2
  isplitl [Hy]; · iexact Hy
  isplitl [Hl]
  · iexists f; isplitr; · ipureintro; exact hf
    iexact Hl
  iexact Hrest

/-! ## The sum is stored

The store writes the sum of the received and the staged block over the receive rows of chunk `r`, which then hold chunk
`r` of the device's sums. The staging slot has served: what it holds no longer matters. -/

theorem step_store (K : Dev nD × Fin 323 → ℕ) (c : Dev nD) (r : Fin 64) (w : FVec F S64x1024 .f32) (hw : w = sVal m c r)
    {hx : ((rM : Memref sig .tc .vmem S4096x1024 .f32).access (rRect r)).Stores Finset.univ}
    {hm : (Finset.univ : Finset (rRect r).shape.Idx) = Finset.univ ∨ ∀ a, (rRect r).stride a = 1}
    {α : Type} {Q : α → sProp 𝕄} {k : PUnit → Prog (TpuEff nD τ sig (Elt F) Λ₀ .tc) α} :
    S2 m K c r.val 3 ⊢ iprop((S2 m K c r.val 4 -∗ (WP c) (k ⟨⟩) Q) -∗ (WP c) (.op (.store rM (rRect r) w Finset.univ hx hm) k) Q) := by
  subst hw
  refine S2_frame m K c r.val 3 4 _ _ ?_
  rw [cur2_three, cur2_four]
  iintro ⟨H1, H2, Hy, Hl, Hrest⟩ Hk
  unfold yrecvPay freeSlot owns
  icases Hy with ⟨%f, -, Hy⟩
  icases Hl with ⟨%g, -, Hl⟩
  sl_exec
  iapply Hk
  isplitl [H1]; · iexact H1
  isplitl [H2]; · iexact H2
  isplitl [Hy]
  · iexists _; isplitr; · ipureintro; exact read_store_recv c r f _
    iexact Hy
  isplitl [Hl]
  · iexists g; iexact Hl
  iexact Hrest

/-! ## The stored value is the chunk's sum -/

/-- A payload with the body's text, at the received and the staged block, is chunk `r` of the device's sums. -/
theorem pay_sVal (P : Vec F S64x1024 .f32 → Vec F S1x64x1024 .f32 → FVec F S64x1024 .f32)
    (hP : ∀ y v, P y v = shapeCast S64x1024 (addf y (shapeCast S64x1024 v shapeCasts_S1x64x1024_S64x1024)) shapeCasts_S64x1024_S64x1024)
    (c : Dev nD) (r : Fin 64) :
    P (yVal m c r) (shapeCast S1x64x1024 (bVal m c r) shapeCasts_S64x1024_S1x64x1024) = sVal m c r :=
  (pay_eq_addf P hP _ _ _).trans rfl

/-! ### Where the body's text is cut

In some iterations the sum is formed in one piece of the body and cast to its own shape in the next, and in the last
iteration the staged block is re-indexed in one piece and added in the next. Each piece's value, and the composites. -/

/-- A cast of a 64 × 1024 block to its own shape is the block. -/
theorem pay_cast (P : FVec F S64x1024 .f32 → FVec F S64x1024 .f32)
    (hP : ∀ x, P x = shapeCast S64x1024 x shapeCasts_S64x1024_S64x1024) (x : FVec F S64x1024 .f32) : P x = x := by
  rw [hP, shapeCast_self]

/-- The staged block, re-indexed there and back, is the staged block. -/
theorem pay_unstage (P : Vec F S1x64x1024 .f32 → FVec F S64x1024 .f32)
    (hP : ∀ v, P v = shapeCast S64x1024 v shapeCasts_S1x64x1024_S64x1024) (b : Vec F S64x1024 .f32) (hc : S64x1024.ShapeCasts S1x64x1024) :
    P (shapeCast S1x64x1024 b hc) = b := by
  rw [hP, shapeCast_shapeCast]

/-- The sum without its final cast, at the received and the staged block, is chunk `r` of the device's sums. -/
theorem pay_sVal_nocast (P : Vec F S64x1024 .f32 → Vec F S1x64x1024 .f32 → FVec F S64x1024 .f32)
    (hP : ∀ y v, P y v = addf y (shapeCast S64x1024 v shapeCasts_S1x64x1024_S64x1024)) (c : Dev nD) (r : Fin 64) :
    P (yVal m c r) (shapeCast S1x64x1024 (bVal m c r) shapeCasts_S64x1024_S1x64x1024) = sVal m c r := by
  rw [hP, shapeCast_shapeCast]; rfl

/-- The sum formed in one piece and cast in the next. -/
theorem pay_sVal_cut (P₂ : FVec F S64x1024 .f32 → FVec F S64x1024 .f32)
    (P₁ : Vec F S64x1024 .f32 → Vec F S1x64x1024 .f32 → FVec F S64x1024 .f32)
    (h₂ : ∀ x, P₂ x = shapeCast S64x1024 x shapeCasts_S64x1024_S64x1024)
    (h₁ : ∀ y v, P₁ y v = addf y (shapeCast S64x1024 v shapeCasts_S1x64x1024_S64x1024)) (c : Dev nD) (r : Fin 64) :
    P₂ (P₁ (yVal m c r) (shapeCast S1x64x1024 (bVal m c r) shapeCasts_S64x1024_S1x64x1024)) = sVal m c r :=
  (pay_cast P₂ h₂ _).trans (pay_sVal_nocast m P₁ h₁ c r)

/-- The sum of the received block and an already re-indexed block, cast to its own shape, is their sum. -/
theorem pay_add_cast (P : Vec F S64x1024 .f32 → FVec F S64x1024 .f32 → FVec F S64x1024 .f32)
    (hP : ∀ y x, P y x = shapeCast S64x1024 (addf y x) shapeCasts_S64x1024_S64x1024) (y : Vec F S64x1024 .f32) (x : FVec F S64x1024 .f32) :
    P y x = addf y x := by
  rw [hP, shapeCast_self]

/-- The staged block re-indexed in one piece and added in the next. -/
theorem pay_sVal_cut_last (P₄ : Vec F S64x1024 .f32 → FVec F S64x1024 .f32 → FVec F S64x1024 .f32)
    (P₃ : Vec F S1x64x1024 .f32 → FVec F S64x1024 .f32)
    (h₄ : ∀ y x, P₄ y x = shapeCast S64x1024 (addf y x) shapeCasts_S64x1024_S64x1024)
    (h₃ : ∀ v, P₃ v = shapeCast S64x1024 v shapeCasts_S1x64x1024_S64x1024) (c : Dev nD) (r : Fin 64) :
    P₄ (yVal m c r) (P₃ (shapeCast S1x64x1024 (bVal m c r) shapeCasts_S64x1024_S1x64x1024)) = sVal m c r := by
  rw [pay_add_cast P₄ h₄, pay_unstage P₃ h₃]; rfl

-- every class of payload name, through its equation
example (c : Dev nD) (r : Fin 64) := pay_sVal m k0_pay69 (fun _ _ => rfl) c r
example (c : Dev nD) (r : Fin 64) := pay_sVal_nocast m k0_pay7 (fun _ _ => rfl) c r
example (c : Dev nD) (r : Fin 64) := pay_sVal_cut m k0_pay8 k0_pay7 (fun _ => rfl) (fun _ _ => rfl) c r
example (c : Dev nD) (r : Fin 64) := pay_sVal_cut m k0_pay64 k0_pay63 (fun _ => rfl) (fun _ _ => rfl) c r
example (c : Dev nD) (r : Fin 64) := pay_sVal_cut_last m k0_pay71 k0_pay70 (fun _ _ => rfl) (fun _ => rfl) c r

/-- info: 'Cert.KernelIdeal.RS.step_load_recv' depends on axioms: [propext, Classical.choice, Quot.sound] -/
#guard_msgs in #print axioms step_load_recv

/-- info: 'Cert.KernelIdeal.RS.step_load_stage' depends on axioms: [propext, Classical.choice, Quot.sound] -/
#guard_msgs in #print axioms step_load_stage

/-- info: 'Cert.KernelIdeal.RS.step_store' depends on axioms: [propext, Classical.choice, Quot.sound] -/
#guard_msgs in #print axioms step_store

/-- info: 'Cert.KernelIdeal.RS.pay_sVal' depends on axioms: [propext, Classical.choice, Quot.sound] -/
#guard_msgs in #print axioms pay_sVal

/-- info: 'Cert.KernelIdeal.RS.pay_sVal_cut' depends on axioms: [propext, Classical.choice, Quot.sound] -/
#guard_msgs in #print axioms pay_sVal_cut

/-- info: 'Cert.KernelIdeal.RS.pay_sVal_cut_last' depends on axioms: [propext, Classical.choice, Quot.sound] -/
#guard_msgs in #print axioms pay_sVal_cut_last

end Cert.KernelIdeal.RS

end
-- ==== Proof.RsKernelIdeal.Body02.lean ====
/-
  The body of the reduce-scatter, part by part: the parts 17 to 32 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps1
import proofs.«900313_g7700000000000314_dist_rs_v7x_xy2x2_y_m8192_n1024_f32_1_alg».proof.Proof.RsKernelIdeal.Steps1g
import proofs.«900313_g7700000000000314_dist_rs_v7x_xy2x2_y_m8192_n1024_f32_1_alg».proof.Proof.RsKernelIdeal.Steps2
import proofs.«900313_g7700000000000314_dist_rs_v7x_xy2x2_y_m8192_n1024_f32_1_alg».proof.Proof.RsKernelIdeal.Steps2n
import proofs.«900313_g7700000000000314_dist_rs_v7x_xy2x2_y_m8192_n1024_f32_1_alg».proof.Proof.RsKernelIdeal.Steps2v
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_17 (m : (ℓ : Loc nD τ sig) → Buf (Elt F) ℓ) (K : Dev nD × Fin 323 → ℕ) (c : Dev nD) (v2 : BitVec 32) (v5 : BitVec 32) (v6 : BitVec 32) (v8 : BitVec 32) :
    S1 m K c 34 ⊢ wp frame (wpE (defs₀ (F := F)) 𝒱₀ (c : Thread nD τ) none) Set.univ
      (k0_part17 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 36) := by
  rw [k0_part17_eq_skeleton]; unfold k0_part17_skel
  simp only [Prog.lift, Prog.bind_op, Prog.bind_ret, Prog.pure_eq_ret]
  refine step_apply (step_ysend m K c ⟨34, by decide⟩ _ (Fin.ext (k0_dev37_eq c)) _ _ (sem_ysend ⟨34, by decide⟩ _ _) (sem_yrecv ⟨34, by decide⟩ _ _)) ?_
  refine step_apply (step_ysend m K c ⟨35, by decide⟩ _ (Fin.ext (k0_dev38_eq c)) _ _ (sem_ysend ⟨35, by decide⟩ _ _) (sem_yrecv ⟨35, by decide⟩ _ _)) ?_
  exact ret_apply c (BI.Entails.refl _)

set_option maxRecDepth 65536 in
theorem part_18 (m : (ℓ : Loc nD τ sig) → Buf (Elt F) ℓ) (K : Dev nD × Fin 323 → ℕ) (c : Dev nD) (v2 : BitVec 32) (v5 : BitVec 32) (v6 : BitVec 32) (v8 : BitVec 32) :
    S1 m K c 36 ⊢ wp frame (wpE (defs₀ (F := F)) 𝒱₀ (c : Thread nD τ) none) Set.univ
      (k0_part18 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 39) := by
  rw [k0_part18_eq_skeleton]; unfold k0_part18_skel
  simp only [Prog.lift, Prog.bind_op, Prog.bind_ret, Prog.pure_eq_ret]
  refine step_apply (step_ysend m K c ⟨36, by decide⟩ _ (Fin.ext (k0_dev39_eq c)) _ _ (sem_ysend ⟨36, by decide⟩ _ _) (sem_yrecv ⟨36, by decide⟩ _ _)) ?_
  refine step_apply (step_ysend m K c ⟨37, by decide⟩ _ (Fin.ext (k0_dev40_eq c)) _ _ (sem_ysend ⟨37, by decide⟩ _ _) (sem_yrecv ⟨37, by decide⟩ _ _)) ?_
  refine step_apply (step_ysend m K c ⟨38, by decide⟩ _ (Fin.ext (k0_dev41_eq c)) _ _ (sem_ysend ⟨38, by decide⟩ _ _) (sem_yrecv ⟨38, by decide⟩ _ _)) ?_
  exact ret_apply c (BI.Entails.refl _)

set_option maxRecDepth 65536 in
theorem part_19 (m : (ℓ : Loc nD τ sig) → Buf (Elt F) ℓ) (K : Dev nD × Fin 323 → ℕ) (c : Dev nD) (v2 : BitVec 32) (v5 : BitVec 32) (v6 : BitVec 32) (v8 : BitVec 32) :
    S1 m K c 39 ⊢ wp frame (wpE (defs₀ (F := F)) 𝒱₀ (c : Thread nD τ) none) Set.univ
      (k0_part19 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 41) := by
  rw [k0_part19_eq_skeleton]; unfold k0_part19_skel
  simp only [Prog.lift, Prog.bind_op, Prog.bind_ret, Prog.pure_eq_ret]
  refine step_apply (step_ysend m K c ⟨39, by decide⟩ _ (Fin.ext (k0_dev42_eq c)) _ _ (sem_ysend ⟨39, by decide⟩ _ _) (sem_yrecv ⟨39, by decide⟩ _ _)) ?_
  refine step_apply (step_ysend m K c ⟨40, by decide⟩ _ (Fin.ext (k0_dev43_eq c)) _ _ (sem_ysend ⟨40, by decide⟩ _ _) (sem_yrecv ⟨40, by decide⟩ _ _)) ?_
  exact ret_apply c (BI.Entails.refl _)

set_option maxRecDepth 65536 in
theorem part_20 (m : (ℓ : Loc nD τ sig) → Buf (Elt F) ℓ) (K : Dev nD × Fin 323 → ℕ) (c : Dev nD) (v2 : BitVec 32) (v5 : BitVec 32) (v6 : BitVec 32) (v8 : BitVec 32) (v606 : BitVec 32) (v607 : BitVec 32) :
    S1 m K c 41 ⊢ wp frame (wpE (defs₀ (F := F)) 𝒱₀ (c : Thread nD τ) none) Set.univ
      (k0_part20 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v606 v607)
      (fun _ => S1 m K c 43) := by
  rw [k0_part20_eq_skeleton]; unfold k0_part20_skel
  simp only [Prog.lift, Prog.bind_op, Prog.bind_ret, Prog.pure_eq_ret]
  refine step_apply (step_ysend m K c ⟨41, by decide⟩ _ (Fin.ext (k0_dev44_eq c)) _ _ (sem_ysend ⟨41, by decide⟩ _ _) (sem_yrecv ⟨41, by decide⟩ _ _)) ?_
  refine step_apply (step_ysend m K c ⟨42, by decide⟩ _ (Fin.ext (k0_dev45_eq c)) _ _ (sem_ysend ⟨42, by decide⟩ _ _) (sem_yrecv ⟨42, by decide⟩ _ _)) ?_
  exact ret_apply c (BI.Entails.refl _)

set_option maxRecDepth 65536 in
theorem part_21 (m : (ℓ : Loc nD τ sig) → Buf (Elt F) ℓ) (K : Dev nD × Fin 323 → ℕ) (c : Dev nD) (v2 : BitVec 32) (v5 : BitVec 32) (v6 : BitVec 32) (v8 : BitVec 32) :
    S1 m K c 43 ⊢ wp frame (wpE (defs₀ (F := F)) 𝒱₀ (c : Thread nD τ) none) Set.univ
      (k0_part21 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 46) := by
  rw [k0_part21_eq_skeleton]; unfold k0_part21_skel
  simp only [Prog.lift, Prog.bind_op, Prog.bind_ret, Prog.pure_eq_ret]
  refine step_apply (step_ysend m K c ⟨43, by decide⟩ _ (Fin.ext (k0_dev46_eq c)) _ _ (sem_ysend ⟨43, by decide⟩ _ _) (sem_yrecv ⟨43, by decide⟩ _ _)) ?_
  refine step_apply (step_ysend m K c ⟨44, by decide⟩ _ (Fin.ext (k0_dev47_eq c)) _ _ (sem_ysend ⟨44, by decide⟩ _ _) (sem_yrecv ⟨44, by decide⟩ _ _)) ?_
  refine step_apply (step_ysend m K c ⟨45, by decide⟩ _ (Fin.ext (k0_dev48_eq c)) _ _ (sem_ysend ⟨45, by decide⟩ _ _) (sem_yrecv ⟨45, by decide⟩ _ _)) ?_
  exact ret_apply c (BI.Entails.refl _)

set_option maxRecDepth 65536 in
theorem part_22 (m : (ℓ : Loc nD τ sig) → Buf (Elt F) ℓ) (K : Dev nD × Fin 323 → ℕ) (c : Dev nD) (v2 : BitVec 32) (v5 : BitVec 32) (v6 : BitVec 32) (v8 : BitVec 32) (v673 : BitVec 32) (c1024_i32_440 : BitVec 32) :
    S1 m K c 46 ⊢ wp frame (wpE (defs₀ (F := F)) 𝒱₀ (c : Thread nD τ) none) Set.univ
      (k0_part22 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v673 c1024_i32_440)
      (fun _ => S1 m K c 48) := by
  rw [k0_part22_eq_skeleton]; unfold k0_part22_skel
  simp only [Prog.lift, Prog.bind_op, Prog.bind_ret, Prog.pure_eq_ret]
  refine step_apply (step_ysend m K c ⟨46, by decide⟩ _ (Fin.ext (k0_dev49_eq c)) _ _ (sem_ysend ⟨46, by decide⟩ _ _) (sem_yrecv ⟨46, by decide⟩ _ _)) ?_
  refine step_apply (step_ysend m K c ⟨47, by decide⟩ _ (Fin.ext (k0_dev50_eq c)) _ _ (sem_ysend ⟨47, by decide⟩ _ _) (sem_yrecv ⟨47, by decide⟩ _ _)) ?_
  exact ret_apply c (BI.Entails.refl _)

set_option maxRecDepth 65536 in
theorem part_23 (m : (ℓ : Loc nD τ sig) → Buf (Elt F) ℓ) (K : Dev nD × Fin 323 → ℕ) (c : Dev nD) (v2 : BitVec 32) (v5 : BitVec 32) (v6 : BitVec 32) (v8 : BitVec 32) (v704 : BitVec 32) :
    S1 m K c 48 ⊢ wp frame (wpE (defs₀ (F := F)) 𝒱₀ (c : Thread nD τ) none) Set.univ
      (k0_part23 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v704)
      (fun _ => S1 m K c 50) := by
  rw [k0_part23_eq_skeleton]; unfold k0_part23_skel
  simp only [Prog.lift, Prog.bind_op, Prog.bind_ret, Prog.pure_eq_ret]
  refine step_apply (step_ysend m K c ⟨48, by decide⟩ _ (Fin.ext (k0_dev51_eq c)) _ _ (sem_ysend ⟨48, by decide⟩ _ _) (sem_yrecv ⟨48, by decide⟩ _ _)) ?_
  refine step_apply (step_ysend m K c ⟨49, by decide⟩ _ (Fin.ext (k0_dev52_eq c)) _ _ (sem_ysend ⟨49, by decide⟩ _ _) (sem_yrecv ⟨49, by decide⟩ _ _)) ?_
  exact ret_apply c (BI.Entails.refl _)

set_option maxRecDepth 65536 in
theorem part_24 (m : (ℓ : Loc nD τ sig) → Buf (Elt F) ℓ) (K : Dev nD × Fin 323 → ℕ) (c : Dev nD) (v2 : BitVec 32) (v5 : BitVec 32) (v6 : BitVec 32) (v8 : BitVec 32) :
    S1 m K c 50 ⊢ wp frame (wpE (defs₀ (F := F)) 𝒱₀ (c : Thread nD τ) none) Set.univ
      (k0_part24 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 53) := by
  rw [k0_part24_eq_skeleton]; unfold k0_part24_skel
  simp only [Prog.lift, Prog.bind_op, Prog.bind_ret, Prog.pure_eq_ret]
  refine step_apply (step_ysend m K c ⟨50, by decide⟩ _ (Fin.ext (k0_dev53_eq c)) _ _ (sem_ysend ⟨50, by decide⟩ _ _) (sem_yrecv ⟨50, by decide⟩ _ _)) ?_
  refine step_apply (step_ysend m K c ⟨51, by decide⟩ _ (Fin.ext (k0_dev54_eq c)) _ _ (sem_ysend ⟨51, by decide⟩ _ _) (sem_yrecv ⟨51, by decide⟩ _ _)) ?_
  refine step_apply (step_ysend m K c ⟨52, by decide⟩ _ (Fin.ext (k0_dev55_eq c)) _ _ (sem_ysend ⟨52, by decide⟩ _ _) (sem_yrecv ⟨52, by decide⟩ _ _)) ?_
  exact ret_apply c (BI.Entails.refl _)

set_option maxRecDepth 65536 in
theorem part_25 (m : (ℓ : Loc nD τ sig) → Buf (Elt F) ℓ) (K : Dev nD × Fin 323 → ℕ) (c : Dev nD) (v2 : BitVec 32) (v5 : BitVec 32) (v6 : BitVec 32) (v8 : BitVec 32) (c1_i32_502 : BitVec 32) :
    S1 m K c 53 ⊢ wp frame (wpE (defs₀ (F := F)) 𝒱₀ (c : Thread nD τ) none) Set.univ
      (k0_part25 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1_i32_502)
      (fun _ => S1 m K c 55) := by
  rw [k0_part25_eq_skeleton]; unfold k0_part25_skel
  simp only [Prog.lift, Prog.bind_op, Prog.bind_ret, Prog.pure_eq_ret]
  refine step_apply (step_ysend m K c ⟨53, by decide⟩ _ (Fin.ext (k0_dev56_eq c)) _ _ (sem_ysend ⟨53, by decide⟩ _ _) (sem_yrecv ⟨53, by decide⟩ _ _)) ?_
  refine step_apply (step_ysend m K c ⟨54, by decide⟩ _ (Fin.ext (k0_dev57_eq c)) _ _ (sem_ysend ⟨54, by decide⟩ _ _) (sem_yrecv ⟨54, by decide⟩ _ _)) ?_
  exact ret_apply c (BI.Entails.refl _)

set_option maxRecDepth 65536 in
theorem part_26 (m : (ℓ : Loc nD τ sig) → Buf (Elt F) ℓ) (K : Dev nD × Fin 323 → ℕ) (c : Dev nD) (v2 : BitVec 32) (v5 : BitVec 32) (v6 : BitVec 32) (v8 : BitVec 32) (v801 : BitVec 32) :
    S1 m K c 55 ⊢ wp frame (wpE (defs₀ (F := F)) 𝒱₀ (c : Thread nD τ) none) Set.univ
      (k0_part26 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v801)
      (fun _ => S1 m K c 57) := by
  rw [k0_part26_eq_skeleton]; unfold k0_part26_skel
  simp only [Prog.lift, Prog.bind_op, Prog.bind_ret, Prog.pure_eq_ret]
  refine step_apply (step_ysend m K c ⟨55, by decide⟩ _ (Fin.ext (k0_dev58_eq c)) _ _ (sem_ysend ⟨55, by decide⟩ _ _) (sem_yrecv ⟨55, by decide⟩ _ _)) ?_
  refine step_apply (step_ysend m K c ⟨56, by decide⟩ _ (Fin.ext (k0_dev59_eq c)) _ _ (sem_ysend ⟨56, by decide⟩ _ _) (sem_yrecv ⟨56, by decide⟩ _ _)) ?_
  exact ret_apply c (BI.Entails.refl _)

set_option maxRecDepth 65536 in
theorem part_27 (m : (ℓ : Loc nD τ sig) → Buf (Elt F) ℓ) (K : Dev nD × Fin 323 → ℕ) (c : Dev nD) (v2 : BitVec 32) (v5 : BitVec 32) (v6 : BitVec 32) (v8 : BitVec 32) :
    S1 m K c 57 ⊢ wp frame (wpE (defs₀ (F := F)) 𝒱₀ (c : Thread nD τ) none) Set.univ
      (k0_part27 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 60) := by
  rw [k0_part27_eq_skeleton]; unfold k0_part27_skel
  simp only [Prog.lift, Prog.bind_op, Prog.bind_ret, Prog.pure_eq_ret]
  refine step_apply (step_ysend m K c ⟨57, by decide⟩ _ (Fin.ext (k0_dev60_eq c)) _ _ (sem_ysend ⟨57, by decide⟩ _ _) (sem_yrecv ⟨57, by decide⟩ _ _)) ?_
  refine step_apply (step_ysend m K c ⟨58, by decide⟩ _ (Fin.ext (k0_dev61_eq c)) _ _ (sem_ysend ⟨58, by decide⟩ _ _) (sem_yrecv ⟨58, by decide⟩ _ _)) ?_
  refine step_apply (step_ysend m K c ⟨59, by decide⟩ _ (Fin.ext (k0_dev62_eq c)) _ _ (sem_ysend ⟨59, by decide⟩ _ _) (sem_yrecv ⟨59, by decide⟩ _ _)) ?_
  exact ret_apply c (BI.Entails.refl _)

set_option maxRecDepth 65536 in
theorem part_28 (m : (ℓ : Loc nD τ sig) → Buf (Elt F) ℓ) (K : Dev nD × Fin 323 → ℕ) (c : Dev nD) (v2 : BitVec 32) (v5 : BitVec 32) (v6 : BitVec 32) (v8 : BitVec 32) (c3840_i32 : BitVec 32) :
    S1 m K c 60 ⊢ wp frame (wpE (defs₀ (F := F)) 𝒱₀ (c : Thread nD τ) none) Set.univ
      (k0_part28 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c3840_i32)
      (fun _ => S1 m K c 62) := by
  rw [k0_part28_eq_skeleton]; unfold k0_part28_skel
  simp only [Prog.lift, Prog.bind_op, Prog.bind_ret, Prog.pure_eq_ret]
  refine step_apply (step_ysend m K c ⟨60, by decide⟩ _ (Fin.ext (k0_dev63_eq c)) _ _ (sem_ysend ⟨60, by decide⟩ _ _) (sem_yrecv ⟨60, by decide⟩ _ _)) ?_
  refine step_apply (step_ysend m K c ⟨61, by decide⟩ _ (Fin.ext (k0_dev64_eq c)) _ _ (sem_ysend ⟨61, by decide⟩ _ _) (sem_yrecv ⟨61, by decide⟩ _ _)) ?_
  exact ret_apply c (BI.Entails.refl _)

set_option maxRecDepth 65536 in
theorem part_29 (m : (ℓ : Loc nD τ sig) → Buf (Elt F) ℓ) (K : Dev nD × Fin 323 → ℕ) (c : Dev nD) (v2 : BitVec 32) (v5 : BitVec 32) (v6 : BitVec 32) (v8 : BitVec 32) :
    S1 m K c 62 ⊢ wp frame (wpE (defs₀ (F := F)) 𝒱₀ (c : Thread nD τ) none) Set.univ
      (k0_part29 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 0 1) := by
  rw [k0_part29_eq_skeleton]; unfold k0_part29_skel
  simp only [Prog.lift, Prog.bind_op, Prog.bind_ret, Prog.pure_eq_ret]
  refine step_apply (step_ysend m K c ⟨62, by decide⟩ _ (Fin.ext (k0_dev65_eq c)) _ _ (sem_ysend ⟨62, by decide⟩ _ _) (sem_yrecv ⟨62, by decide⟩ _ _)) ?_
  refine step_apply (step_ysend m K c ⟨63, by decide⟩ _ (Fin.ext (k0_dev66_eq c)) _ _ (sem_ysend ⟨63, by decide⟩ _ _) (sem_yrecv ⟨63, by decide⟩ _ _)) ?_
  refine (S1_S2 m K c).trans ?_
  refine step_apply (step_stage m K c ⟨0, by decide⟩ ⟨1, by decide⟩ rfl ⟨1, by decide⟩ (by decide) _ (sem_cpin ⟨1, by decide⟩ _ _)) ?_
  exact ret_apply c (BI.Entails.refl _)

set_option maxRecDepth 65536 in
theorem part_30 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 0 1 ⊢ wp frame (wpE (defs₀ (F := F)) 𝒱₀ (c : Thread nD τ) none) Set.univ
      (k0_part30 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 0 4) := by
  rw [k0_part30_eq_skeleton]; unfold k0_part30_skel
  simp only [Prog.lift, Prog.bind_op, Prog.bind_ret, Prog.pure_eq_ret]
  refine step_apply (step_yrecv_wait m K c ⟨0, by decide⟩ _ (sem_yrecv ⟨0, by decide⟩ _ _)) ?_
  refine step_apply (step_stage_wait m K c ⟨0, by decide⟩ ⟨0, by decide⟩ (by decide) _ (sem_cpin ⟨0, by decide⟩ _ _)) ?_
  refine step_apply (step_load_recv m K c ⟨0, by decide⟩) ?_
  refine step_apply (step_load_stage m K c ⟨0, by decide⟩ ⟨0, by decide⟩ (by decide)) ?_
  refine step_apply (step_load_recv m K c ⟨0, by decide⟩) ?_
  refine step_apply (step_store m K c ⟨0, by decide⟩ _ (pay_sVal m k0_pay1 (fun _ _ => rfl) c ⟨0, by decide⟩)) ?_
  exact ret_apply c (BI.Entails.refl _)

set_option maxRecDepth 65536 in
theorem part_31 (m : (ℓ : Loc nD τ sig) → Buf (Elt F) ℓ) (K : Dev nD × Fin 323 → ℕ) (c : Dev nD) (v2 : BitVec 32) (v5 : BitVec 32) (v6 : BitVec 32) (v8 : BitVec 32) :
    S2 m K c 0 4 ⊢ wp frame (wpE (defs₀ (F := F)) 𝒱₀ (c : Thread nD τ) none) Set.univ
      (k0_part31 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 1 2) := by
  rw [k0_part31_eq_skeleton]; unfold k0_part31_skel
  simp only [Prog.lift, Prog.bind_op, Prog.bind_ret, Prog.pure_eq_ret]
  refine step_apply (step_xsend m K c ⟨0, by decide⟩ _ (Fin.ext (k0_dev67_eq c)) _ _ (sem_xsend ⟨0, by decide⟩ _ _) (sem_xrecv ⟨0, by decide⟩ _ _)) ?_
  refine step_apply (step_outcopy m K c ⟨0, by decide⟩ _ (sem_cpout ⟨0, by decide⟩ _ _)) ?_
  refine (S2_next m K c ⟨0, by decide⟩).trans ?_
  refine step_apply (step_stage m K c ⟨1, by decide⟩ ⟨2, by decide⟩ rfl ⟨0, by decide⟩ (by decide) _ (sem_cpin ⟨0, by decide⟩ _ _)) ?_
  refine step_apply (step_yrecv_wait m K c ⟨1, by decide⟩ _ (sem_yrecv ⟨1, by decide⟩ _ _)) ?_
  exact ret_apply c (BI.Entails.refl _)

set_option maxRecDepth 65536 in
theorem part_32 (m : (ℓ : Loc nD τ sig) → Buf (Elt F) ℓ) (K : Dev nD × Fin 323 → ℕ) (c : Dev nD) (v5 : BitVec 32) (v7 : BitVec 32) (v8 : BitVec 32) :
    S2 m K c 1 2 ⊢ wp frame (wpE (defs₀ (F := F)) 𝒱₀ (c : Thread nD τ) none) Set.univ
      (k0_part32 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 2 0) := by
  rw [k0_part32_eq_skeleton]; unfold k0_part32_skel
  simp only [Prog.lift, Prog.bind_op, Prog.bind_ret, Prog.pure_eq_ret]
  refine step_apply (step_stage_wait m K c ⟨1, by decide⟩ ⟨1, by decide⟩ (by decide) _ (sem_cpin ⟨1, by decide⟩ _ _)) ?_
  refine step_apply (step_load_recv m K c ⟨1, by decide⟩) ?_
  refine step_apply (step_load_stage m K c ⟨1, by decide⟩ ⟨1, by decide⟩ (by decide)) ?_
  refine step_apply (step_load_recv m K c ⟨1, by decide⟩) ?_
  refine step_apply (step_store m K c ⟨1, by decide⟩ _ (pay_sVal m k0_pay2 (fun _ _ => rfl) c ⟨1, by decide⟩)) ?_
  refine step_apply (step_xsend m K c ⟨1, by decide⟩ _ (Fin.ext (k0_dev68_eq c)) _ _ (sem_xsend ⟨1, by decide⟩ _ _) (sem_xrecv ⟨1, by decide⟩ _ _)) ?_
  refine step_apply (step_outcopy m K c ⟨1, by decide⟩ _ (sem_cpout ⟨1, by decide⟩ _ _)) ?_
  refine (S2_next m K c ⟨1, by decide⟩).trans ?_
  exact ret_apply c (BI.Entails.refl _)

/-- info: 'Cert.KernelIdeal.RS.part_32' depends on axioms: [propext, Classical.choice, Quot.sound] -/
#guard_msgs in #print axioms part_32

end Cert.KernelIdeal.RS

end
-- ==== Proof.RsKernelIdeal.Body03.lean ====
/-
  The body of the reduce-scatter, part by part: the parts 33 to 48 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps2
import proofs.«900313_g7700000000000314_dist_rs_v7x_xy2x2_y_m8192_n1024_f32_1_alg».proof.Proof.RsKernelIdeal.Steps2n
import proofs.«900313_g7700000000000314_dist_rs_v7x_xy2x2_y_m8192_n1024_f32_1_alg».proof.Proof.RsKernelIdeal.Steps2v
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_33 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 2 0 ⊢ wp frame (wpE (defs₀ (F := F)) 𝒱₀ (c : Thread nD τ) none) Set.univ
      (k0_part33 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 2 4) := by
  rw [k0_part33_eq_skeleton]; unfold k0_part33_skel
  simp only [Prog.lift, Prog.bind_op, Prog.bind_ret, Prog.pure_eq_ret]
  refine step_apply (step_stage m K c ⟨2, by decide⟩ ⟨3, by decide⟩ rfl ⟨1, by decide⟩ (by decide) _ (sem_cpin ⟨1, by decide⟩ _ _)) ?_
  refine step_apply (step_yrecv_wait m K c ⟨2, by decide⟩ _ (sem_yrecv ⟨2, by decide⟩ _ _)) ?_
  refine step_apply (step_stage_wait m K c ⟨2, by decide⟩ ⟨0, by decide⟩ (by decide) _ (sem_cpin ⟨0, by decide⟩ _ _)) ?_
  refine step_apply (step_load_recv m K c ⟨2, by decide⟩) ?_
  refine step_apply (step_load_stage m K c ⟨2, by decide⟩ ⟨0, by decide⟩ (by decide)) ?_
  refine step_apply (step_load_recv m K c ⟨2, by decide⟩) ?_
  refine step_apply (step_store m K c ⟨2, by decide⟩ _ (pay_sVal m k0_pay3 (fun _ _ => rfl) c ⟨2, by decide⟩)) ?_
  exact ret_apply c (BI.Entails.refl _)

set_option maxRecDepth 65536 in
theorem part_34 (m : (ℓ : Loc nD τ sig) → Buf (Elt F) ℓ) (K : Dev nD × Fin 323 → ℕ) (c : Dev nD) (v2 : BitVec 32) (v5 : BitVec 32) (v6 : BitVec 32) (v8 : BitVec 32) (v1048 : BitVec 32) (v1049 : BitVec 32) :
    S2 m K c 2 4 ⊢ wp frame (wpE (defs₀ (F := F)) 𝒱₀ (c : Thread nD τ) none) Set.univ
      (k0_part34 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v1048 v1049)
      (fun _ => S2 m K c 3 2) := by
  rw [k0_part34_eq_skeleton]; unfold k0_part34_skel
  simp only [Prog.lift, Prog.bind_op, Prog.bind_ret, Prog.pure_eq_ret]
  refine step_apply (step_xsend m K c ⟨2, by decide⟩ _ (Fin.ext (k0_dev69_eq c)) _ _ (sem_xsend ⟨2, by decide⟩ _ _) (sem_xrecv ⟨2, by decide⟩ _ _)) ?_
  refine step_apply (step_outcopy m K c ⟨2, by decide⟩ _ (sem_cpout ⟨2, by decide⟩ _ _)) ?_
  refine (S2_next m K c ⟨2, by decide⟩).trans ?_
  refine step_apply (step_stage m K c ⟨3, by decide⟩ ⟨4, by decide⟩ rfl ⟨0, by decide⟩ (by decide) _ (sem_cpin ⟨0, by decide⟩ _ _)) ?_
  refine step_apply (step_yrecv_wait m K c ⟨3, by decide⟩ _ (sem_yrecv ⟨3, by decide⟩ _ _)) ?_
  exact ret_apply c (BI.Entails.refl _)

set_option maxRecDepth 65536 in
theorem part_35 (m : (ℓ : Loc nD τ sig) → Buf (Elt F) ℓ) (K : Dev nD × Fin 323 → ℕ) (c : Dev nD) (v5 : BitVec 32) (v7 : BitVec 32) (v8 : BitVec 32) :
    S2 m K c 3 2 ⊢ wp frame (wpE (defs₀ (F := F)) 𝒱₀ (c : Thread nD τ) none) Set.univ
      (k0_part35 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 4 0) := by
  rw [k0_part35_eq_skeleton]; unfold k0_part35_skel
  simp only [Prog.lift, Prog.bind_op, Prog.bind_ret, Prog.pure_eq_ret]
  refine step_apply (step_stage_wait m K c ⟨3, by decide⟩ ⟨1, by decide⟩ (by decide) _ (sem_cpin ⟨1, by decide⟩ _ _)) ?_
  refine step_apply (step_load_recv m K c ⟨3, by decide⟩) ?_
  refine step_apply (step_load_stage m K c ⟨3, by decide⟩ ⟨1, by decide⟩ (by decide)) ?_
  refine step_apply (step_load_recv m K c ⟨3, by decide⟩) ?_
  refine step_apply (step_store m K c ⟨3, by decide⟩ _ (pay_sVal m k0_pay4 (fun _ _ => rfl) c ⟨3, by decide⟩)) ?_
  refine step_apply (step_xsend m K c ⟨3, by decide⟩ _ (Fin.ext (k0_dev70_eq c)) _ _ (sem_xsend ⟨3, by decide⟩ _ _) (sem_xrecv ⟨3, by decide⟩ _ _)) ?_
  refine step_apply (step_outcopy m K c ⟨3, by decide⟩ _ (sem_cpout ⟨3, by decide⟩ _ _)) ?_
  refine (S2_next m K c ⟨3, by decide⟩).trans ?_
  exact ret_apply c (BI.Entails.refl _)

set_option maxRecDepth 65536 in
theorem part_36 (m : (ℓ : Loc nD τ sig) → Buf (Elt F) ℓ) (K : Dev nD × Fin 323 → ℕ) (c : Dev nD) (v2 : BitVec 32) (v6 : BitVec 32) (v8 : BitVec 32) :
    S2 m K c 4 0 ⊢ wp frame (wpE (defs₀ (F := F)) 𝒱₀ (c : Thread nD τ) none) Set.univ
      (k0_part36 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8)
      (fun _ => S2 m K c 4 4) := by
  rw [k0_part36_eq_skeleton]; unfold k0_part36_skel
  simp only [Prog.lift, Prog.bind_op, Prog.bind_ret, Prog.pure_eq_ret]
  refine step_apply (step_stage m K c ⟨4, by decide⟩ ⟨5, by decide⟩ rfl ⟨1, by decide⟩ (by decide) _ (sem_cpin ⟨1, by decide⟩ _ _)) ?_
  refine step_apply (step_yrecv_wait m K c ⟨4, by decide⟩ _ (sem_yrecv ⟨4, by decide⟩ _ _)) ?_
  refine step_apply (step_stage_wait m K c ⟨4, by decide⟩ ⟨0, by decide⟩ (by decide) _ (sem_cpin ⟨0, by decide⟩ _ _)) ?_
  refine step_apply (step_load_recv m K c ⟨4, by decide⟩) ?_
  refine step_apply (step_load_stage m K c ⟨4, by decide⟩ ⟨0, by decide⟩ (by decide)) ?_
  refine step_apply (step_load_recv m K c ⟨4, by decide⟩) ?_
  refine step_apply (step_store m K c ⟨4, by decide⟩ _ (pay_sVal m k0_pay5 (fun _ _ => rfl) c ⟨4, by decide⟩)) ?_
  exact ret_apply c (BI.Entails.refl _)

set_option maxRecDepth 65536 in
theorem part_37 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 4 4 ⊢ wp frame (wpE (defs₀ (F := F)) 𝒱₀ (c : Thread nD τ) none) Set.univ
      (k0_part37 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 5 1) := by
  rw [k0_part37_eq_skeleton]; unfold k0_part37_skel
  simp only [Prog.lift, Prog.bind_op, Prog.bind_ret, Prog.pure_eq_ret]
  refine step_apply (step_xsend m K c ⟨4, by decide⟩ _ (Fin.ext (k0_dev71_eq c)) _ _ (sem_xsend ⟨4, by decide⟩ _ _) (sem_xrecv ⟨4, by decide⟩ _ _)) ?_
  refine step_apply (step_outcopy m K c ⟨4, by decide⟩ _ (sem_cpout ⟨4, by decide⟩ _ _)) ?_
  refine (S2_next m K c ⟨4, by decide⟩).trans ?_
  refine step_apply (step_stage m K c ⟨5, by decide⟩ ⟨6, by decide⟩ rfl ⟨0, by decide⟩ (by decide) _ (sem_cpin ⟨0, by decide⟩ _ _)) ?_
  exact ret_apply c (BI.Entails.refl _)

set_option maxRecDepth 65536 in
theorem part_38 (m : (ℓ : Loc nD τ sig) → Buf (Elt F) ℓ) (K : Dev nD × Fin 323 → ℕ) (c : Dev nD) (v5 : BitVec 32) (v7 : BitVec 32) (v8 : BitVec 32) :
    S2 m K c 5 1 ⊢ wp frame (wpE (defs₀ (F := F)) 𝒱₀ (c : Thread nD τ) none) Set.univ
      (k0_part38 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 5 5) := by
  rw [k0_part38_eq_skeleton]; unfold k0_part38_skel
  simp only [Prog.lift, Prog.bind_op, Prog.bind_ret, Prog.pure_eq_ret]
  refine step_apply (step_yrecv_wait m K c ⟨5, by decide⟩ _ (sem_yrecv ⟨5, by decide⟩ _ _)) ?_
  refine step_apply (step_stage_wait m K c ⟨5, by decide⟩ ⟨1, by decide⟩ (by decide) _ (sem_cpin ⟨1, by decide⟩ _ _)) ?_
  refine step_apply (step_load_recv m K c ⟨5, by decide⟩) ?_
  refine step_apply (step_load_stage m K c ⟨5, by decide⟩ ⟨1, by decide⟩ (by decide)) ?_
  refine step_apply (step_load_recv m K c ⟨5, by decide⟩) ?_
  refine step_apply (step_store m K c ⟨5, by decide⟩ _ (pay_sVal m k0_pay6 (fun _ _ => rfl) c ⟨5, by decide⟩)) ?_
  refine step_apply (step_xsend m K c ⟨5, by decide⟩ _ (Fin.ext (k0_dev72_eq c)) _ _ (sem_xsend ⟨5, by decide⟩ _ _) (sem_xrecv ⟨5, by decide⟩ _ _)) ?_
  exact ret_apply c (BI.Entails.refl _)

set_option maxRecDepth 65536 in
theorem part_39 (m : (ℓ : Loc nD τ sig) → Buf (Elt F) ℓ) (K : Dev nD × Fin 323 → ℕ) (c : Dev nD) (v2 : BitVec 32) (v5 : BitVec 32) (v6 : BitVec 32) (v8 : BitVec 32) :
    S2 m K c 5 5 ⊢ wp frame (wpE (defs₀ (F := F)) 𝒱₀ (c : Thread nD τ) none) Set.univ
      (k0_part39 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay7 (yVal m c ⟨6, by decide⟩) (shapeCast S1x64x1024 (bVal m c ⟨6, by decide⟩) shapeCasts_S64x1024_S1x64x1024))⌝ ∗ S2 m K c 6 3)) := by
  rw [k0_part39_eq_skeleton]; unfold k0_part39_skel
  simp only [Prog.lift, Prog.bind_op, Prog.bind_ret, Prog.pure_eq_ret]
  refine step_apply (step_outcopy m K c ⟨5, by decide⟩ _ (sem_cpout ⟨5, by decide⟩ _ _)) ?_
  refine (S2_next m K c ⟨5, by decide⟩).trans ?_
  refine step_apply (step_stage m K c ⟨6, by decide⟩ ⟨7, by decide⟩ rfl ⟨1, by decide⟩ (by decide) _ (sem_cpin ⟨1, by decide⟩ _ _)) ?_
  refine step_apply (step_yrecv_wait m K c ⟨6, by decide⟩ _ (sem_yrecv ⟨6, by decide⟩ _ _)) ?_
  refine step_apply (step_stage_wait m K c ⟨6, by decide⟩ ⟨0, by decide⟩ (by decide) _ (sem_cpin ⟨0, by decide⟩ _ _)) ?_
  refine step_apply (step_load_recv m K c ⟨6, by decide⟩) ?_
  refine step_apply (step_load_stage m K c ⟨6, by decide⟩ ⟨0, by decide⟩ (by decide)) ?_
  refine step_apply (step_load_recv m K c ⟨6, by decide⟩) ?_
  exact ret_fact c rfl

set_option maxRecDepth 65536 in
theorem part_40 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 6 3 ⊢ wp frame (wpE (defs₀ (F := F)) 𝒱₀ (c : Thread nD τ) none) Set.univ
      (k0_part40 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 (k0_pay7 (yVal m c ⟨6, by decide⟩) (shapeCast S1x64x1024 (bVal m c ⟨6, by decide⟩) shapeCasts_S64x1024_S1x64x1024)))
      (fun _ => S2 m K c 7 1) := by
  rw [k0_part40_eq_skeleton]; unfold k0_part40_skel
  simp only [Prog.lift, Prog.bind_op, Prog.bind_ret, Prog.pure_eq_ret]
  refine step_apply (step_store m K c ⟨6, by decide⟩ _ (pay_sVal_cut m k0_pay8 k0_pay7 (fun _ => rfl) (fun _ _ => rfl) c ⟨6, by decide⟩)) ?_
  refine step_apply (step_xsend m K c ⟨6, by decide⟩ _ (Fin.ext (k0_dev73_eq c)) _ _ (sem_xsend ⟨6, by decide⟩ _ _) (sem_xrecv ⟨6, by decide⟩ _ _)) ?_
  refine step_apply (step_outcopy m K c ⟨6, by decide⟩ _ (sem_cpout ⟨6, by decide⟩ _ _)) ?_
  refine (S2_next m K c ⟨6, by decide⟩).trans ?_
  refine step_apply (step_stage m K c ⟨7, by decide⟩ ⟨8, by decide⟩ rfl ⟨0, by decide⟩ (by decide) _ (sem_cpin ⟨0, by decide⟩ _ _)) ?_
  exact ret_apply c (BI.Entails.refl _)

set_option maxRecDepth 65536 in
theorem part_41 (m : (ℓ : Loc nD τ sig) → Buf (Elt F) ℓ) (K : Dev nD × Fin 323 → ℕ) (c : Dev nD) (v5 : BitVec 32) (v7 : BitVec 32) (v8 : BitVec 32) :
    S2 m K c 7 1 ⊢ wp frame (wpE (defs₀ (F := F)) 𝒱₀ (c : Thread nD τ) none) Set.univ
      (k0_part41 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 7 5) := by
  rw [k0_part41_eq_skeleton]; unfold k0_part41_skel
  simp only [Prog.lift, Prog.bind_op, Prog.bind_ret, Prog.pure_eq_ret]
  refine step_apply (step_yrecv_wait m K c ⟨7, by decide⟩ _ (sem_yrecv ⟨7, by decide⟩ _ _)) ?_
  refine step_apply (step_stage_wait m K c ⟨7, by decide⟩ ⟨1, by decide⟩ (by decide) _ (sem_cpin ⟨1, by decide⟩ _ _)) ?_
  refine step_apply (step_load_recv m K c ⟨7, by decide⟩) ?_
  refine step_apply (step_load_stage m K c ⟨7, by decide⟩ ⟨1, by decide⟩ (by decide)) ?_
  refine step_apply (step_load_recv m K c ⟨7, by decide⟩) ?_
  refine step_apply (step_store m K c ⟨7, by decide⟩ _ (pay_sVal m k0_pay9 (fun _ _ => rfl) c ⟨7, by decide⟩)) ?_
  refine step_apply (step_xsend m K c ⟨7, by decide⟩ _ (Fin.ext (k0_dev74_eq c)) _ _ (sem_xsend ⟨7, by decide⟩ _ _) (sem_xrecv ⟨7, by decide⟩ _ _)) ?_
  exact ret_apply c (BI.Entails.refl _)

set_option maxRecDepth 65536 in
theorem part_42 (m : (ℓ : Loc nD τ sig) → Buf (Elt F) ℓ) (K : Dev nD × Fin 323 → ℕ) (c : Dev nD) (v2 : BitVec 32) (v5 : BitVec 32) (v6 : BitVec 32) (v8 : BitVec 32) :
    S2 m K c 7 5 ⊢ wp frame (wpE (defs₀ (F := F)) 𝒱₀ (c : Thread nD τ) none) Set.univ
      (k0_part42 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = ⟨(yVal m c ⟨8, by decide⟩), (shapeCast S1x64x1024 (bVal m c ⟨8, by decide⟩) shapeCasts_S64x1024_S1x64x1024)⟩⌝ ∗ S2 m K c 8 3)) := by
  rw [k0_part42_eq_skeleton]; unfold k0_part42_skel
  simp only [Prog.lift, Prog.bind_op, Prog.bind_ret, Prog.pure_eq_ret]
  refine step_apply (step_outcopy m K c ⟨7, by decide⟩ _ (sem_cpout ⟨7, by decide⟩ _ _)) ?_
  refine (S2_next m K c ⟨7, by decide⟩).trans ?_
  refine step_apply (step_stage m K c ⟨8, by decide⟩ ⟨9, by decide⟩ rfl ⟨1, by decide⟩ (by decide) _ (sem_cpin ⟨1, by decide⟩ _ _)) ?_
  refine step_apply (step_yrecv_wait m K c ⟨8, by decide⟩ _ (sem_yrecv ⟨8, by decide⟩ _ _)) ?_
  refine step_apply (step_stage_wait m K c ⟨8, by decide⟩ ⟨0, by decide⟩ (by decide) _ (sem_cpin ⟨0, by decide⟩ _ _)) ?_
  refine step_apply (step_load_recv m K c ⟨8, by decide⟩) ?_
  refine step_apply (step_load_stage m K c ⟨8, by decide⟩ ⟨0, by decide⟩ (by decide)) ?_
  exact ret_fact c rfl

set_option maxRecDepth 65536 in
theorem part_43 (m : (ℓ : Loc nD τ sig) → Buf (Elt F) ℓ) (K : Dev nD × Fin 323 → ℕ) (c : Dev nD) (v5 : BitVec 32) (v7 : BitVec 32) (v8 : BitVec 32) :
    S2 m K c 8 3 ⊢ wp frame (wpE (defs₀ (F := F)) 𝒱₀ (c : Thread nD τ) none) Set.univ
      (k0_part43 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨8, by decide⟩) (shapeCast S1x64x1024 (bVal m c ⟨8, by decide⟩) shapeCasts_S64x1024_S1x64x1024))
      (fun _ => S2 m K c 9 1) := by
  rw [k0_part43_eq_skeleton]; unfold k0_part43_skel
  simp only [Prog.lift, Prog.bind_op, Prog.bind_ret, Prog.pure_eq_ret]
  refine step_apply (step_load_recv m K c ⟨8, by decide⟩) ?_
  refine step_apply (step_store m K c ⟨8, by decide⟩ _ (pay_sVal m k0_pay10 (fun _ _ => rfl) c ⟨8, by decide⟩)) ?_
  refine step_apply (step_xsend m K c ⟨8, by decide⟩ _ (Fin.ext (k0_dev75_eq c)) _ _ (sem_xsend ⟨8, by decide⟩ _ _) (sem_xrecv ⟨8, by decide⟩ _ _)) ?_
  refine step_apply (step_outcopy m K c ⟨8, by decide⟩ _ (sem_cpout ⟨8, by decide⟩ _ _)) ?_
  refine (S2_next m K c ⟨8, by decide⟩).trans ?_
  refine step_apply (step_stage m K c ⟨9, by decide⟩ ⟨10, by decide⟩ rfl ⟨0, by decide⟩ (by decide) _ (sem_cpin ⟨0, by decide⟩ _ _)) ?_
  exact ret_apply c (BI.Entails.refl _)

set_option maxRecDepth 65536 in
theorem part_44 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2_i32_970 : BitVec 32) :
    S2 m K c 9 1 ⊢ wp frame (wpE (defs₀ (F := F)) 𝒱₀ (c : Thread nD τ) none) Set.univ
      (k0_part44 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2_i32_970)
      (fun _ => S2 m K c 9 4) := by
  rw [k0_part44_eq_skeleton]; unfold k0_part44_skel
  simp only [Prog.lift, Prog.bind_op, Prog.bind_ret, Prog.pure_eq_ret]
  refine step_apply (step_yrecv_wait m K c ⟨9, by decide⟩ _ (sem_yrecv ⟨9, by decide⟩ _ _)) ?_
  refine step_apply (step_stage_wait m K c ⟨9, by decide⟩ ⟨1, by decide⟩ (by decide) _ (sem_cpin ⟨1, by decide⟩ _ _)) ?_
  refine step_apply (step_load_recv m K c ⟨9, by decide⟩) ?_
  refine step_apply (step_load_stage m K c ⟨9, by decide⟩ ⟨1, by decide⟩ (by decide)) ?_
  refine step_apply (step_load_recv m K c ⟨9, by decide⟩) ?_
  refine step_apply (step_store m K c ⟨9, by decide⟩ _ (pay_sVal m k0_pay11 (fun _ _ => rfl) c ⟨9, by decide⟩)) ?_
  exact ret_apply c (BI.Entails.refl _)

set_option maxRecDepth 65536 in
theorem part_45 (m : (ℓ : Loc nD τ sig) → Buf (Elt F) ℓ) (K : Dev nD × Fin 323 → ℕ) (c : Dev nD) (v2 : BitVec 32) (v5 : BitVec 32) (v6 : BitVec 32) (v8 : BitVec 32) :
    S2 m K c 9 4 ⊢ wp frame (wpE (defs₀ (F := F)) 𝒱₀ (c : Thread nD τ) none) Set.univ
      (k0_part45 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 10 3) := by
  rw [k0_part45_eq_skeleton]; unfold k0_part45_skel
  simp only [Prog.lift, Prog.bind_op, Prog.bind_ret, Prog.pure_eq_ret]
  refine step_apply (step_xsend m K c ⟨9, by decide⟩ _ (Fin.ext (k0_dev76_eq c)) _ _ (sem_xsend ⟨9, by decide⟩ _ _) (sem_xrecv ⟨9, by decide⟩ _ _)) ?_
  refine step_apply (step_outcopy m K c ⟨9, by decide⟩ _ (sem_cpout ⟨9, by decide⟩ _ _)) ?_
  refine (S2_next m K c ⟨9, by decide⟩).trans ?_
  refine step_apply (step_stage m K c ⟨10, by decide⟩ ⟨11, by decide⟩ rfl ⟨1, by decide⟩ (by decide) _ (sem_cpin ⟨1, by decide⟩ _ _)) ?_
  refine step_apply (step_yrecv_wait m K c ⟨10, by decide⟩ _ (sem_yrecv ⟨10, by decide⟩ _ _)) ?_
  refine step_apply (step_stage_wait m K c ⟨10, by decide⟩ ⟨0, by decide⟩ (by decide) _ (sem_cpin ⟨0, by decide⟩ _ _)) ?_
  exact ret_apply c (BI.Entails.refl _)

set_option maxRecDepth 65536 in
theorem part_46 (m : (ℓ : Loc nD τ sig) → Buf (Elt F) ℓ) (K : Dev nD × Fin 323 → ℕ) (c : Dev nD) (v5 : BitVec 32) (v7 : BitVec 32) (v8 : BitVec 32) :
    S2 m K c 10 3 ⊢ wp frame (wpE (defs₀ (F := F)) 𝒱₀ (c : Thread nD τ) none) Set.univ
      (k0_part46 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 11 0) := by
  rw [k0_part46_eq_skeleton]; unfold k0_part46_skel
  simp only [Prog.lift, Prog.bind_op, Prog.bind_ret, Prog.pure_eq_ret]
  refine step_apply (step_load_recv m K c ⟨10, by decide⟩) ?_
  refine step_apply (step_load_stage m K c ⟨10, by decide⟩ ⟨0, by decide⟩ (by decide)) ?_
  refine step_apply (step_load_recv m K c ⟨10, by decide⟩) ?_
  refine step_apply (step_store m K c ⟨10, by decide⟩ _ (pay_sVal m k0_pay12 (fun _ _ => rfl) c ⟨10, by decide⟩)) ?_
  refine step_apply (step_xsend m K c ⟨10, by decide⟩ _ (Fin.ext (k0_dev77_eq c)) _ _ (sem_xsend ⟨10, by decide⟩ _ _) (sem_xrecv ⟨10, by decide⟩ _ _)) ?_
  refine step_apply (step_outcopy m K c ⟨10, by decide⟩ _ (sem_cpout ⟨10, by decide⟩ _ _)) ?_
  refine (S2_next m K c ⟨10, by decide⟩).trans ?_
  exact ret_apply c (BI.Entails.refl _)

set_option maxRecDepth 65536 in
theorem part_47 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 11 0 ⊢ wp frame (wpE (defs₀ (F := F)) 𝒱₀ (c : Thread nD τ) none) Set.univ
      (k0_part47 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 11 4) := by
  rw [k0_part47_eq_skeleton]; unfold k0_part47_skel
  simp only [Prog.lift, Prog.bind_op, Prog.bind_ret, Prog.pure_eq_ret]
  refine step_apply (step_stage m K c ⟨11, by decide⟩ ⟨12, by decide⟩ rfl ⟨0, by decide⟩ (by decide) _ (sem_cpin ⟨0, by decide⟩ _ _)) ?_
  refine step_apply (step_yrecv_wait m K c ⟨11, by decide⟩ _ (sem_yrecv ⟨11, by decide⟩ _ _)) ?_
  refine step_apply (step_stage_wait m K c ⟨11, by decide⟩ ⟨1, by decide⟩ (by decide) _ (sem_cpin ⟨1, by decide⟩ _ _)) ?_
  refine step_apply (step_load_recv m K c ⟨11, by decide⟩) ?_
  refine step_apply (step_load_stage m K c ⟨11, by decide⟩ ⟨1, by decide⟩ (by decide)) ?_
  refine step_apply (step_load_recv m K c ⟨11, by decide⟩) ?_
  refine step_apply (step_store m K c ⟨11, by decide⟩ _ (pay_sVal m k0_pay13 (fun _ _ => rfl) c ⟨11, by decide⟩)) ?_
  exact ret_apply c (BI.Entails.refl _)

set_option maxRecDepth 65536 in
theorem part_48 (m : (ℓ : Loc nD τ sig) → Buf (Elt F) ℓ) (K : Dev nD × Fin 323 → ℕ) (c : Dev nD) (v2 : BitVec 32) (v5 : BitVec 32) (v6 : BitVec 32) (v8 : BitVec 32) :
    S2 m K c 11 4 ⊢ wp frame (wpE (defs₀ (F := F)) 𝒱₀ (c : Thread nD τ) none) Set.univ
      (k0_part48 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 12 2) := by
  rw [k0_part48_eq_skeleton]; unfold k0_part48_skel
  simp only [Prog.lift, Prog.bind_op, Prog.bind_ret, Prog.pure_eq_ret]
  refine step_apply (step_xsend m K c ⟨11, by decide⟩ _ (Fin.ext (k0_dev78_eq c)) _ _ (sem_xsend ⟨11, by decide⟩ _ _) (sem_xrecv ⟨11, by decide⟩ _ _)) ?_
  refine step_apply (step_outcopy m K c ⟨11, by decide⟩ _ (sem_cpout ⟨11, by decide⟩ _ _)) ?_
  refine (S2_next m K c ⟨11, by decide⟩).trans ?_
  refine step_apply (step_stage m K c ⟨12, by decide⟩ ⟨13, by decide⟩ rfl ⟨1, by decide⟩ (by decide) _ (sem_cpin ⟨1, by decide⟩ _ _)) ?_
  refine step_apply (step_yrecv_wait m K c ⟨12, by decide⟩ _ (sem_yrecv ⟨12, by decide⟩ _ _)) ?_
  exact ret_apply c (BI.Entails.refl _)

/-- info: 'Cert.KernelIdeal.RS.part_48' depends on axioms: [propext, Classical.choice, Quot.sound] -/
#guard_msgs in #print axioms part_48

end Cert.KernelIdeal.RS

end
-- ==== Proof.RsKernelIdeal.Body04.lean ====
/-
  The body of the reduce-scatter, part by part: the parts 49 to 64 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps2
import proofs.«900313_g7700000000000314_dist_rs_v7x_xy2x2_y_m8192_n1024_f32_1_alg».proof.Proof.RsKernelIdeal.Steps2n
import proofs.«900313_g7700000000000314_dist_rs_v7x_xy2x2_y_m8192_n1024_f32_1_alg».proof.Proof.RsKernelIdeal.Steps2v
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_49 (m : (ℓ : Loc nD τ sig) → Buf (Elt F) ℓ) (K : Dev nD × Fin 323 → ℕ) (c : Dev nD) (v5 : BitVec 32) (v7 : BitVec 32) (v8 : BitVec 32) :
    S2 m K c 12 2 ⊢ wp frame (wpE (defs₀ (F := F)) 𝒱₀ (c : Thread nD τ) none) Set.univ
      (k0_part49 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 13 0) := by
  rw [k0_part49_eq_skeleton]; unfold k0_part49_skel
  simp only [Prog.lift, Prog.bind_op, Prog.bind_ret, Prog.pure_eq_ret]
  refine step_apply (step_stage_wait m K c ⟨12, by decide⟩ ⟨0, by decide⟩ (by decide) _ (sem_cpin ⟨0, by decide⟩ _ _)) ?_
  refine step_apply (step_load_recv m K c ⟨12, by decide⟩) ?_
  refine step_apply (step_load_stage m K c ⟨12, by decide⟩ ⟨0, by decide⟩ (by decide)) ?_
  refine step_apply (step_load_recv m K c ⟨12, by decide⟩) ?_
  refine step_apply (step_store m K c ⟨12, by decide⟩ _ (pay_sVal m k0_pay14 (fun _ _ => rfl) c ⟨12, by decide⟩)) ?_
  refine step_apply (step_xsend m K c ⟨12, by decide⟩ _ (Fin.ext (k0_dev79_eq c)) _ _ (sem_xsend ⟨12, by decide⟩ _ _) (sem_xrecv ⟨12, by decide⟩ _ _)) ?_
  refine step_apply (step_outcopy m K c ⟨12, by decide⟩ _ (sem_cpout ⟨12, by decide⟩ _ _)) ?_
  refine (S2_next m K c ⟨12, by decide⟩).trans ?_
  exact ret_apply c (BI.Entails.refl _)

set_option maxRecDepth 65536 in
theorem part_50 (m : (ℓ : Loc nD τ sig) → Buf (Elt F) ℓ) (K : Dev nD × Fin 323 → ℕ) (c : Dev nD) (v2 : BitVec 32) (v6 : BitVec 32) (v7 : BitVec 32) (v8 : BitVec 32) :
    S2 m K c 13 0 ⊢ wp frame (wpE (defs₀ (F := F)) 𝒱₀ (c : Thread nD τ) none) Set.univ
      (k0_part50 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v7 v8)
      (fun _ => S2 m K c 13 4) := by
  rw [k0_part50_eq_skeleton]; unfold k0_part50_skel
  simp only [Prog.lift, Prog.bind_op, Prog.bind_ret, Prog.pure_eq_ret]
  refine step_apply (step_stage m K c ⟨13, by decide⟩ ⟨14, by decide⟩ rfl ⟨0, by decide⟩ (by decide) _ (sem_cpin ⟨0, by decide⟩ _ _)) ?_
  refine step_apply (step_yrecv_wait m K c ⟨13, by decide⟩ _ (sem_yrecv ⟨13, by decide⟩ _ _)) ?_
  refine step_apply (step_stage_wait m K c ⟨13, by decide⟩ ⟨1, by decide⟩ (by decide) _ (sem_cpin ⟨1, by decide⟩ _ _)) ?_
  refine step_apply (step_load_recv m K c ⟨13, by decide⟩) ?_
  refine step_apply (step_load_stage m K c ⟨13, by decide⟩ ⟨1, by decide⟩ (by decide)) ?_
  refine step_apply (step_load_recv m K c ⟨13, by decide⟩) ?_
  refine step_apply (step_store m K c ⟨13, by decide⟩ _ (pay_sVal m k0_pay15 (fun _ _ => rfl) c ⟨13, by decide⟩)) ?_
  exact ret_apply c (BI.Entails.refl _)

set_option maxRecDepth 65536 in
theorem part_51 (m : (ℓ : Loc nD τ sig) → Buf (Elt F) ℓ) (K : Dev nD × Fin 323 → ℕ) (c : Dev nD) (v2 : BitVec 32) (v5 : BitVec 32) (v6 : BitVec 32) (v8 : BitVec 32) (v1553 : BitVec 32) (c0_i32_1150 : BitVec 32) :
    S2 m K c 13 4 ⊢ wp frame (wpE (defs₀ (F := F)) 𝒱₀ (c : Thread nD τ) none) Set.univ
      (k0_part51 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v1553 c0_i32_1150)
      (fun _ => S2 m K c 14 2) := by
  rw [k0_part51_eq_skeleton]; unfold k0_part51_skel
  simp only [Prog.lift, Prog.bind_op, Prog.bind_ret, Prog.pure_eq_ret]
  refine step_apply (step_xsend m K c ⟨13, by decide⟩ _ (Fin.ext (k0_dev80_eq c)) _ _ (sem_xsend ⟨13, by decide⟩ _ _) (sem_xrecv ⟨13, by decide⟩ _ _)) ?_
  refine step_apply (step_outcopy m K c ⟨13, by decide⟩ _ (sem_cpout ⟨13, by decide⟩ _ _)) ?_
  refine (S2_next m K c ⟨13, by decide⟩).trans ?_
  refine step_apply (step_stage m K c ⟨14, by decide⟩ ⟨15, by decide⟩ rfl ⟨1, by decide⟩ (by decide) _ (sem_cpin ⟨1, by decide⟩ _ _)) ?_
  refine step_apply (step_yrecv_wait m K c ⟨14, by decide⟩ _ (sem_yrecv ⟨14, by decide⟩ _ _)) ?_
  exact ret_apply c (BI.Entails.refl _)

set_option maxRecDepth 65536 in
theorem part_52 (m : (ℓ : Loc nD τ sig) → Buf (Elt F) ℓ) (K : Dev nD × Fin 323 → ℕ) (c : Dev nD) (v5 : BitVec 32) (v7 : BitVec 32) (v8 : BitVec 32) :
    S2 m K c 14 2 ⊢ wp frame (wpE (defs₀ (F := F)) 𝒱₀ (c : Thread nD τ) none) Set.univ
      (k0_part52 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 15 0) := by
  rw [k0_part52_eq_skeleton]; unfold k0_part52_skel
  simp only [Prog.lift, Prog.bind_op, Prog.bind_ret, Prog.pure_eq_ret]
  refine step_apply (step_stage_wait m K c ⟨14, by decide⟩ ⟨0, by decide⟩ (by decide) _ (sem_cpin ⟨0, by decide⟩ _ _)) ?_
  refine step_apply (step_load_recv m K c ⟨14, by decide⟩) ?_
  refine step_apply (step_load_stage m K c ⟨14, by decide⟩ ⟨0, by decide⟩ (by decide)) ?_
  refine step_apply (step_load_recv m K c ⟨14, by decide⟩) ?_
  refine step_apply (step_store m K c ⟨14, by decide⟩ _ (pay_sVal m k0_pay16 (fun _ _ => rfl) c ⟨14, by decide⟩)) ?_
  refine step_apply (step_xsend m K c ⟨14, by decide⟩ _ (Fin.ext (k0_dev81_eq c)) _ _ (sem_xsend ⟨14, by decide⟩ _ _) (sem_xrecv ⟨14, by decide⟩ _ _)) ?_
  refine step_apply (step_outcopy m K c ⟨14, by decide⟩ _ (sem_cpout ⟨14, by decide⟩ _ _)) ?_
  refine (S2_next m K c ⟨14, by decide⟩).trans ?_
  exact ret_apply c (BI.Entails.refl _)

set_option maxRecDepth 65536 in
theorem part_53 (m : (ℓ : Loc nD τ sig) → Buf (Elt F) ℓ) (K : Dev nD × Fin 323 → ℕ) (c : Dev nD) (v2 : BitVec 32) (v5 : BitVec 32) (v6 : BitVec 32) :
    S2 m K c 15 0 ⊢ wp frame (wpE (defs₀ (F := F)) 𝒱₀ (c : Thread nD τ) none) Set.univ
      (k0_part53 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6)
      (fun _ => S2 m K c 15 4) := by
  rw [k0_part53_eq_skeleton]; unfold k0_part53_skel
  simp only [Prog.lift, Prog.bind_op, Prog.bind_ret, Prog.pure_eq_ret]
  refine step_apply (step_stage m K c ⟨15, by decide⟩ ⟨16, by decide⟩ rfl ⟨0, by decide⟩ (by decide) _ (sem_cpin ⟨0, by decide⟩ _ _)) ?_
  refine step_apply (step_yrecv_wait m K c ⟨15, by decide⟩ _ (sem_yrecv ⟨15, by decide⟩ _ _)) ?_
  refine step_apply (step_stage_wait m K c ⟨15, by decide⟩ ⟨1, by decide⟩ (by decide) _ (sem_cpin ⟨1, by decide⟩ _ _)) ?_
  refine step_apply (step_load_recv m K c ⟨15, by decide⟩) ?_
  refine step_apply (step_load_stage m K c ⟨15, by decide⟩ ⟨1, by decide⟩ (by decide)) ?_
  refine step_apply (step_load_recv m K c ⟨15, by decide⟩) ?_
  refine step_apply (step_store m K c ⟨15, by decide⟩ _ (pay_sVal m k0_pay17 (fun _ _ => rfl) c ⟨15, by decide⟩)) ?_
  exact ret_apply c (BI.Entails.refl _)

set_option maxRecDepth 65536 in
theorem part_54 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c960_i32_1226 : BitVec 32) :
    S2 m K c 15 4 ⊢ wp frame (wpE (defs₀ (F := F)) 𝒱₀ (c : Thread nD τ) none) Set.univ
      (k0_part54 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c960_i32_1226)
      (fun _ => S2 m K c 16 1) := by
  rw [k0_part54_eq_skeleton]; unfold k0_part54_skel
  simp only [Prog.lift, Prog.bind_op, Prog.bind_ret, Prog.pure_eq_ret]
  refine step_apply (step_xsend m K c ⟨15, by decide⟩ _ (Fin.ext (k0_dev82_eq c)) _ _ (sem_xsend ⟨15, by decide⟩ _ _) (sem_xrecv ⟨15, by decide⟩ _ _)) ?_
  refine step_apply (step_outcopy m K c ⟨15, by decide⟩ _ (sem_cpout ⟨15, by decide⟩ _ _)) ?_
  refine (S2_next m K c ⟨15, by decide⟩).trans ?_
  refine step_apply (step_stage m K c ⟨16, by decide⟩ ⟨17, by decide⟩ rfl ⟨1, by decide⟩ (by decide) _ (sem_cpin ⟨1, by decide⟩ _ _)) ?_
  exact ret_apply c (BI.Entails.refl _)

set_option maxRecDepth 65536 in
theorem part_55 (m : (ℓ : Loc nD τ sig) → Buf (Elt F) ℓ) (K : Dev nD × Fin 323 → ℕ) (c : Dev nD) (v5 : BitVec 32) (v7 : BitVec 32) (v8 : BitVec 32) :
    S2 m K c 16 1 ⊢ wp frame (wpE (defs₀ (F := F)) 𝒱₀ (c : Thread nD τ) none) Set.univ
      (k0_part55 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 16 5) := by
  rw [k0_part55_eq_skeleton]; unfold k0_part55_skel
  simp only [Prog.lift, Prog.bind_op, Prog.bind_ret, Prog.pure_eq_ret]
  refine step_apply (step_yrecv_wait m K c ⟨16, by decide⟩ _ (sem_yrecv ⟨16, by decide⟩ _ _)) ?_
  refine step_apply (step_stage_wait m K c ⟨16, by decide⟩ ⟨0, by decide⟩ (by decide) _ (sem_cpin ⟨0, by decide⟩ _ _)) ?_
  refine step_apply (step_load_recv m K c ⟨16, by decide⟩) ?_
  refine step_apply (step_load_stage m K c ⟨16, by decide⟩ ⟨0, by decide⟩ (by decide)) ?_
  refine step_apply (step_load_recv m K c ⟨16, by decide⟩) ?_
  refine step_apply (step_store m K c ⟨16, by decide⟩ _ (pay_sVal m k0_pay18 (fun _ _ => rfl) c ⟨16, by decide⟩)) ?_
  refine step_apply (step_xsend m K c ⟨16, by decide⟩ _ (Fin.ext (k0_dev83_eq c)) _ _ (sem_xsend ⟨16, by decide⟩ _ _) (sem_xrecv ⟨16, by decide⟩ _ _)) ?_
  exact ret_apply c (BI.Entails.refl _)

set_option maxRecDepth 65536 in
theorem part_56 (m : (ℓ : Loc nD τ sig) → Buf (Elt F) ℓ) (K : Dev nD × Fin 323 → ℕ) (c : Dev nD) (v2 : BitVec 32) (v5 : BitVec 32) (v6 : BitVec 32) (v8 : BitVec 32) :
    S2 m K c 16 5 ⊢ wp frame (wpE (defs₀ (F := F)) 𝒱₀ (c : Thread nD τ) none) Set.univ
      (k0_part56 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay19 (yVal m c ⟨17, by decide⟩) (shapeCast S1x64x1024 (bVal m c ⟨17, by decide⟩) shapeCasts_S64x1024_S1x64x1024))⌝ ∗ S2 m K c 17 3)) := by
  rw [k0_part56_eq_skeleton]; unfold k0_part56_skel
  simp only [Prog.lift, Prog.bind_op, Prog.bind_ret, Prog.pure_eq_ret]
  refine step_apply (step_outcopy m K c ⟨16, by decide⟩ _ (sem_cpout ⟨16, by decide⟩ _ _)) ?_
  refine (S2_next m K c ⟨16, by decide⟩).trans ?_
  refine step_apply (step_stage m K c ⟨17, by decide⟩ ⟨18, by decide⟩ rfl ⟨0, by decide⟩ (by decide) _ (sem_cpin ⟨0, by decide⟩ _ _)) ?_
  refine step_apply (step_yrecv_wait m K c ⟨17, by decide⟩ _ (sem_yrecv ⟨17, by decide⟩ _ _)) ?_
  refine step_apply (step_stage_wait m K c ⟨17, by decide⟩ ⟨1, by decide⟩ (by decide) _ (sem_cpin ⟨1, by decide⟩ _ _)) ?_
  refine step_apply (step_load_recv m K c ⟨17, by decide⟩) ?_
  refine step_apply (step_load_stage m K c ⟨17, by decide⟩ ⟨1, by decide⟩ (by decide)) ?_
  exact ret_fact c rfl

set_option maxRecDepth 65536 in
theorem part_57 (m : (ℓ : Loc nD τ sig) → Buf (Elt F) ℓ) (K : Dev nD × Fin 323 → ℕ) (c : Dev nD) (v2 : BitVec 32) (v5 : BitVec 32) (v7 : BitVec 32) (v8 : BitVec 32) :
    S2 m K c 17 3 ⊢ wp frame (wpE (defs₀ (F := F)) 𝒱₀ (c : Thread nD τ) none) Set.univ
      (k0_part57 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v7 v8 (k0_pay19 (yVal m c ⟨17, by decide⟩) (shapeCast S1x64x1024 (bVal m c ⟨17, by decide⟩) shapeCasts_S64x1024_S1x64x1024)))
      (fun _ => S2 m K c 18 1) := by
  rw [k0_part57_eq_skeleton]; unfold k0_part57_skel
  simp only [Prog.lift, Prog.bind_op, Prog.bind_ret, Prog.pure_eq_ret]
  refine step_apply (step_load_recv m K c ⟨17, by decide⟩) ?_
  refine step_apply (step_store m K c ⟨17, by decide⟩ _ (pay_sVal_cut m k0_pay20 k0_pay19 (fun _ => rfl) (fun _ _ => rfl) c ⟨17, by decide⟩)) ?_
  refine step_apply (step_xsend m K c ⟨17, by decide⟩ _ (Fin.ext (k0_dev84_eq c)) _ _ (sem_xsend ⟨17, by decide⟩ _ _) (sem_xrecv ⟨17, by decide⟩ _ _)) ?_
  refine step_apply (step_outcopy m K c ⟨17, by decide⟩ _ (sem_cpout ⟨17, by decide⟩ _ _)) ?_
  refine (S2_next m K c ⟨17, by decide⟩).trans ?_
  refine step_apply (step_stage m K c ⟨18, by decide⟩ ⟨19, by decide⟩ rfl ⟨1, by decide⟩ (by decide) _ (sem_cpin ⟨1, by decide⟩ _ _)) ?_
  exact ret_apply c (BI.Entails.refl _)

set_option maxRecDepth 65536 in
theorem part_58 (m : (ℓ : Loc nD τ sig) → Buf (Elt F) ℓ) (K : Dev nD × Fin 323 → ℕ) (c : Dev nD) (v5 : BitVec 32) (v6 : BitVec 32) (v7 : BitVec 32) (v8 : BitVec 32) (v1761 : BitVec 32) :
    S2 m K c 18 1 ⊢ wp frame (wpE (defs₀ (F := F)) 𝒱₀ (c : Thread nD τ) none) Set.univ
      (k0_part58 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v7 v8 v1761)
      (fun _ => S2 m K c 18 5) := by
  rw [k0_part58_eq_skeleton]; unfold k0_part58_skel
  simp only [Prog.lift, Prog.bind_op, Prog.bind_ret, Prog.pure_eq_ret]
  refine step_apply (step_yrecv_wait m K c ⟨18, by decide⟩ _ (sem_yrecv ⟨18, by decide⟩ _ _)) ?_
  refine step_apply (step_stage_wait m K c ⟨18, by decide⟩ ⟨0, by decide⟩ (by decide) _ (sem_cpin ⟨0, by decide⟩ _ _)) ?_
  refine step_apply (step_load_recv m K c ⟨18, by decide⟩) ?_
  refine step_apply (step_load_stage m K c ⟨18, by decide⟩ ⟨0, by decide⟩ (by decide)) ?_
  refine step_apply (step_load_recv m K c ⟨18, by decide⟩) ?_
  refine step_apply (step_store m K c ⟨18, by decide⟩ _ (pay_sVal m k0_pay21 (fun _ _ => rfl) c ⟨18, by decide⟩)) ?_
  refine step_apply (step_xsend m K c ⟨18, by decide⟩ _ (Fin.ext (k0_dev85_eq c)) _ _ (sem_xsend ⟨18, by decide⟩ _ _) (sem_xrecv ⟨18, by decide⟩ _ _)) ?_
  exact ret_apply c (BI.Entails.refl _)

set_option maxRecDepth 65536 in
theorem part_59 (m : (ℓ : Loc nD τ sig) → Buf (Elt F) ℓ) (K : Dev nD × Fin 323 → ℕ) (c : Dev nD) (v2 : BitVec 32) (v5 : BitVec 32) (v6 : BitVec 32) (v8 : BitVec 32) (c1152_i32_1355 : BitVec 32) :
    S2 m K c 18 5 ⊢ wp frame (wpE (defs₀ (F := F)) 𝒱₀ (c : Thread nD τ) none) Set.univ
      (k0_part59 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1152_i32_1355)
      (fun ret => iprop(⌜ret = (yVal m c ⟨19, by decide⟩)⌝ ∗ S2 m K c 19 3)) := by
  rw [k0_part59_eq_skeleton]; unfold k0_part59_skel
  simp only [Prog.lift, Prog.bind_op, Prog.bind_ret, Prog.pure_eq_ret]
  refine step_apply (step_outcopy m K c ⟨18, by decide⟩ _ (sem_cpout ⟨18, by decide⟩ _ _)) ?_
  refine (S2_next m K c ⟨18, by decide⟩).trans ?_
  refine step_apply (step_stage m K c ⟨19, by decide⟩ ⟨20, by decide⟩ rfl ⟨0, by decide⟩ (by decide) _ (sem_cpin ⟨0, by decide⟩ _ _)) ?_
  refine step_apply (step_yrecv_wait m K c ⟨19, by decide⟩ _ (sem_yrecv ⟨19, by decide⟩ _ _)) ?_
  refine step_apply (step_stage_wait m K c ⟨19, by decide⟩ ⟨1, by decide⟩ (by decide) _ (sem_cpin ⟨1, by decide⟩ _ _)) ?_
  refine step_apply (step_load_recv m K c ⟨19, by decide⟩) ?_
  exact ret_fact c rfl

set_option maxRecDepth 65536 in
theorem part_60 (m : (ℓ : Loc nD τ sig) → Buf (Elt F) ℓ) (K : Dev nD × Fin 323 → ℕ) (c : Dev nD) (v5 : BitVec 32) (v7 : BitVec 32) (v8 : BitVec 32) :
    S2 m K c 19 3 ⊢ wp frame (wpE (defs₀ (F := F)) 𝒱₀ (c : Thread nD τ) none) Set.univ
      (k0_part60 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨19, by decide⟩))
      (fun _ => S2 m K c 20 1) := by
  rw [k0_part60_eq_skeleton]; unfold k0_part60_skel
  simp only [Prog.lift, Prog.bind_op, Prog.bind_ret, Prog.pure_eq_ret]
  refine step_apply (step_load_stage m K c ⟨19, by decide⟩ ⟨1, by decide⟩ (by decide)) ?_
  refine step_apply (step_load_recv m K c ⟨19, by decide⟩) ?_
  refine step_apply (step_store m K c ⟨19, by decide⟩ _ (pay_sVal m k0_pay22 (fun _ _ => rfl) c ⟨19, by decide⟩)) ?_
  refine step_apply (step_xsend m K c ⟨19, by decide⟩ _ (Fin.ext (k0_dev86_eq c)) _ _ (sem_xsend ⟨19, by decide⟩ _ _) (sem_xrecv ⟨19, by decide⟩ _ _)) ?_
  refine step_apply (step_outcopy m K c ⟨19, by decide⟩ _ (sem_cpout ⟨19, by decide⟩ _ _)) ?_
  refine (S2_next m K c ⟨19, by decide⟩).trans ?_
  refine step_apply (step_stage m K c ⟨20, by decide⟩ ⟨21, by decide⟩ rfl ⟨1, by decide⟩ (by decide) _ (sem_cpin ⟨1, by decide⟩ _ _)) ?_
  exact ret_apply c (BI.Entails.refl _)

set_option maxRecDepth 65536 in
theorem part_61 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 20 1 ⊢ wp frame (wpE (defs₀ (F := F)) 𝒱₀ (c : Thread nD τ) none) Set.univ
      (k0_part61 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 20 4) := by
  rw [k0_part61_eq_skeleton]; unfold k0_part61_skel
  simp only [Prog.lift, Prog.bind_op, Prog.bind_ret, Prog.pure_eq_ret]
  refine step_apply (step_yrecv_wait m K c ⟨20, by decide⟩ _ (sem_yrecv ⟨20, by decide⟩ _ _)) ?_
  refine step_apply (step_stage_wait m K c ⟨20, by decide⟩ ⟨0, by decide⟩ (by decide) _ (sem_cpin ⟨0, by decide⟩ _ _)) ?_
  refine step_apply (step_load_recv m K c ⟨20, by decide⟩) ?_
  refine step_apply (step_load_stage m K c ⟨20, by decide⟩ ⟨0, by decide⟩ (by decide)) ?_
  refine step_apply (step_load_recv m K c ⟨20, by decide⟩) ?_
  refine step_apply (step_store m K c ⟨20, by decide⟩ _ (pay_sVal m k0_pay23 (fun _ _ => rfl) c ⟨20, by decide⟩)) ?_
  exact ret_apply c (BI.Entails.refl _)

set_option maxRecDepth 65536 in
theorem part_62 (m : (ℓ : Loc nD τ sig) → Buf (Elt F) ℓ) (K : Dev nD × Fin 323 → ℕ) (c : Dev nD) (v2 : BitVec 32) (v5 : BitVec 32) (v6 : BitVec 32) (v8 : BitVec 32) :
    S2 m K c 20 4 ⊢ wp frame (wpE (defs₀ (F := F)) 𝒱₀ (c : Thread nD τ) none) Set.univ
      (k0_part62 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 21 2) := by
  rw [k0_part62_eq_skeleton]; unfold k0_part62_skel
  simp only [Prog.lift, Prog.bind_op, Prog.bind_ret, Prog.pure_eq_ret]
  refine step_apply (step_xsend m K c ⟨20, by decide⟩ _ (Fin.ext (k0_dev87_eq c)) _ _ (sem_xsend ⟨20, by decide⟩ _ _) (sem_xrecv ⟨20, by decide⟩ _ _)) ?_
  refine step_apply (step_outcopy m K c ⟨20, by decide⟩ _ (sem_cpout ⟨20, by decide⟩ _ _)) ?_
  refine (S2_next m K c ⟨20, by decide⟩).trans ?_
  refine step_apply (step_stage m K c ⟨21, by decide⟩ ⟨22, by decide⟩ rfl ⟨0, by decide⟩ (by decide) _ (sem_cpin ⟨0, by decide⟩ _ _)) ?_
  refine step_apply (step_yrecv_wait m K c ⟨21, by decide⟩ _ (sem_yrecv ⟨21, by decide⟩ _ _)) ?_
  exact ret_apply c (BI.Entails.refl _)

set_option maxRecDepth 65536 in
theorem part_63 (m : (ℓ : Loc nD τ sig) → Buf (Elt F) ℓ) (K : Dev nD × Fin 323 → ℕ) (c : Dev nD) (v5 : BitVec 32) (v7 : BitVec 32) (v8 : BitVec 32) :
    S2 m K c 21 2 ⊢ wp frame (wpE (defs₀ (F := F)) 𝒱₀ (c : Thread nD τ) none) Set.univ
      (k0_part63 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 22 0) := by
  rw [k0_part63_eq_skeleton]; unfold k0_part63_skel
  simp only [Prog.lift, Prog.bind_op, Prog.bind_ret, Prog.pure_eq_ret]
  refine step_apply (step_stage_wait m K c ⟨21, by decide⟩ ⟨1, by decide⟩ (by decide) _ (sem_cpin ⟨1, by decide⟩ _ _)) ?_
  refine step_apply (step_load_recv m K c ⟨21, by decide⟩) ?_
  refine step_apply (step_load_stage m K c ⟨21, by decide⟩ ⟨1, by decide⟩ (by decide)) ?_
  refine step_apply (step_load_recv m K c ⟨21, by decide⟩) ?_
  refine step_apply (step_store m K c ⟨21, by decide⟩ _ (pay_sVal m k0_pay24 (fun _ _ => rfl) c ⟨21, by decide⟩)) ?_
  refine step_apply (step_xsend m K c ⟨21, by decide⟩ _ (Fin.ext (k0_dev88_eq c)) _ _ (sem_xsend ⟨21, by decide⟩ _ _) (sem_xrecv ⟨21, by decide⟩ _ _)) ?_
  refine step_apply (step_outcopy m K c ⟨21, by decide⟩ _ (sem_cpout ⟨21, by decide⟩ _ _)) ?_
  refine (S2_next m K c ⟨21, by decide⟩).trans ?_
  exact ret_apply c (BI.Entails.refl _)

set_option maxRecDepth 65536 in
theorem part_64 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 22 0 ⊢ wp frame (wpE (defs₀ (F := F)) 𝒱₀ (c : Thread nD τ) none) Set.univ
      (k0_part64 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 22 4) := by
  rw [k0_part64_eq_skeleton]; unfold k0_part64_skel
  simp only [Prog.lift, Prog.bind_op, Prog.bind_ret, Prog.pure_eq_ret]
  refine step_apply (step_stage m K c ⟨22, by decide⟩ ⟨23, by decide⟩ rfl ⟨1, by decide⟩ (by decide) _ (sem_cpin ⟨1, by decide⟩ _ _)) ?_
  refine step_apply (step_yrecv_wait m K c ⟨22, by decide⟩ _ (sem_yrecv ⟨22, by decide⟩ _ _)) ?_
  refine step_apply (step_stage_wait m K c ⟨22, by decide⟩ ⟨0, by decide⟩ (by decide) _ (sem_cpin ⟨0, by decide⟩ _ _)) ?_
  refine step_apply (step_load_recv m K c ⟨22, by decide⟩) ?_
  refine step_apply (step_load_stage m K c ⟨22, by decide⟩ ⟨0, by decide⟩ (by decide)) ?_
  refine step_apply (step_load_recv m K c ⟨22, by decide⟩) ?_
  refine step_apply (step_store m K c ⟨22, by decide⟩ _ (pay_sVal m k0_pay25 (fun _ _ => rfl) c ⟨22, by decide⟩)) ?_
  exact ret_apply c (BI.Entails.refl _)

/-- info: 'Cert.KernelIdeal.RS.part_64' depends on axioms: [propext, Classical.choice, Quot.sound] -/
#guard_msgs in #print axioms part_64

end Cert.KernelIdeal.RS

end
-- ==== Proof.RsKernelIdeal.Body05.lean ====
/-
  The body of the reduce-scatter, part by part: the parts 65 to 80 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps2
import proofs.«900313_g7700000000000314_dist_rs_v7x_xy2x2_y_m8192_n1024_f32_1_alg».proof.Proof.RsKernelIdeal.Steps2n
import proofs.«900313_g7700000000000314_dist_rs_v7x_xy2x2_y_m8192_n1024_f32_1_alg».proof.Proof.RsKernelIdeal.Steps2v
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_65 (m : (ℓ : Loc nD τ sig) → Buf (Elt F) ℓ) (K : Dev nD × Fin 323 → ℕ) (c : Dev nD) (v2 : BitVec 32) (v5 : BitVec 32) (v6 : BitVec 32) (v8 : BitVec 32) (v1968 : BitVec 32) (v1969 : BitVec 32) :
    S2 m K c 22 4 ⊢ wp frame (wpE (defs₀ (F := F)) 𝒱₀ (c : Thread nD τ) none) Set.univ
      (k0_part65 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v1968 v1969)
      (fun _ => S2 m K c 23 2) := by
  rw [k0_part65_eq_skeleton]; unfold k0_part65_skel
  simp only [Prog.lift, Prog.bind_op, Prog.bind_ret, Prog.pure_eq_ret]
  refine step_apply (step_xsend m K c ⟨22, by decide⟩ _ (Fin.ext (k0_dev89_eq c)) _ _ (sem_xsend ⟨22, by decide⟩ _ _) (sem_xrecv ⟨22, by decide⟩ _ _)) ?_
  refine step_apply (step_outcopy m K c ⟨22, by decide⟩ _ (sem_cpout ⟨22, by decide⟩ _ _)) ?_
  refine (S2_next m K c ⟨22, by decide⟩).trans ?_
  refine step_apply (step_stage m K c ⟨23, by decide⟩ ⟨24, by decide⟩ rfl ⟨0, by decide⟩ (by decide) _ (sem_cpin ⟨0, by decide⟩ _ _)) ?_
  refine step_apply (step_yrecv_wait m K c ⟨23, by decide⟩ _ (sem_yrecv ⟨23, by decide⟩ _ _)) ?_
  exact ret_apply c (BI.Entails.refl _)

set_option maxRecDepth 65536 in
theorem part_66 (m : (ℓ : Loc nD τ sig) → Buf (Elt F) ℓ) (K : Dev nD × Fin 323 → ℕ) (c : Dev nD) (v5 : BitVec 32) (v7 : BitVec 32) (v8 : BitVec 32) :
    S2 m K c 23 2 ⊢ wp frame (wpE (defs₀ (F := F)) 𝒱₀ (c : Thread nD τ) none) Set.univ
      (k0_part66 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 24 0) := by
  rw [k0_part66_eq_skeleton]; unfold k0_part66_skel
  simp only [Prog.lift, Prog.bind_op, Prog.bind_ret, Prog.pure_eq_ret]
  refine step_apply (step_stage_wait m K c ⟨23, by decide⟩ ⟨1, by decide⟩ (by decide) _ (sem_cpin ⟨1, by decide⟩ _ _)) ?_
  refine step_apply (step_load_recv m K c ⟨23, by decide⟩) ?_
  refine step_apply (step_load_stage m K c ⟨23, by decide⟩ ⟨1, by decide⟩ (by decide)) ?_
  refine step_apply (step_load_recv m K c ⟨23, by decide⟩) ?_
  refine step_apply (step_store m K c ⟨23, by decide⟩ _ (pay_sVal m k0_pay26 (fun _ _ => rfl) c ⟨23, by decide⟩)) ?_
  refine step_apply (step_xsend m K c ⟨23, by decide⟩ _ (Fin.ext (k0_dev90_eq c)) _ _ (sem_xsend ⟨23, by decide⟩ _ _) (sem_xrecv ⟨23, by decide⟩ _ _)) ?_
  refine step_apply (step_outcopy m K c ⟨23, by decide⟩ _ (sem_cpout ⟨23, by decide⟩ _ _)) ?_
  refine (S2_next m K c ⟨23, by decide⟩).trans ?_
  exact ret_apply c (BI.Entails.refl _)

set_option maxRecDepth 65536 in
theorem part_67 (m : (ℓ : Loc nD τ sig) → Buf (Elt F) ℓ) (K : Dev nD × Fin 323 → ℕ) (c : Dev nD) (v2 : BitVec 32) (v6 : BitVec 32) (v8 : BitVec 32) :
    S2 m K c 24 0 ⊢ wp frame (wpE (defs₀ (F := F)) 𝒱₀ (c : Thread nD τ) none) Set.univ
      (k0_part67 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8)
      (fun _ => S2 m K c 24 4) := by
  rw [k0_part67_eq_skeleton]; unfold k0_part67_skel
  simp only [Prog.lift, Prog.bind_op, Prog.bind_ret, Prog.pure_eq_ret]
  refine step_apply (step_stage m K c ⟨24, by decide⟩ ⟨25, by decide⟩ rfl ⟨1, by decide⟩ (by decide) _ (sem_cpin ⟨1, by decide⟩ _ _)) ?_
  refine step_apply (step_yrecv_wait m K c ⟨24, by decide⟩ _ (sem_yrecv ⟨24, by decide⟩ _ _)) ?_
  refine step_apply (step_stage_wait m K c ⟨24, by decide⟩ ⟨0, by decide⟩ (by decide) _ (sem_cpin ⟨0, by decide⟩ _ _)) ?_
  refine step_apply (step_load_recv m K c ⟨24, by decide⟩) ?_
  refine step_apply (step_load_stage m K c ⟨24, by decide⟩ ⟨0, by decide⟩ (by decide)) ?_
  refine step_apply (step_load_recv m K c ⟨24, by decide⟩) ?_
  refine step_apply (step_store m K c ⟨24, by decide⟩ _ (pay_sVal m k0_pay27 (fun _ _ => rfl) c ⟨24, by decide⟩)) ?_
  exact ret_apply c (BI.Entails.refl _)

set_option maxRecDepth 65536 in
theorem part_68 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 24 4 ⊢ wp frame (wpE (defs₀ (F := F)) 𝒱₀ (c : Thread nD τ) none) Set.univ
      (k0_part68 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 25 1) := by
  rw [k0_part68_eq_skeleton]; unfold k0_part68_skel
  simp only [Prog.lift, Prog.bind_op, Prog.bind_ret, Prog.pure_eq_ret]
  refine step_apply (step_xsend m K c ⟨24, by decide⟩ _ (Fin.ext (k0_dev91_eq c)) _ _ (sem_xsend ⟨24, by decide⟩ _ _) (sem_xrecv ⟨24, by decide⟩ _ _)) ?_
  refine step_apply (step_outcopy m K c ⟨24, by decide⟩ _ (sem_cpout ⟨24, by decide⟩ _ _)) ?_
  refine (S2_next m K c ⟨24, by decide⟩).trans ?_
  refine step_apply (step_stage m K c ⟨25, by decide⟩ ⟨26, by decide⟩ rfl ⟨0, by decide⟩ (by decide) _ (sem_cpin ⟨0, by decide⟩ _ _)) ?_
  exact ret_apply c (BI.Entails.refl _)

set_option maxRecDepth 65536 in
theorem part_69 (m : (ℓ : Loc nD τ sig) → Buf (Elt F) ℓ) (K : Dev nD × Fin 323 → ℕ) (c : Dev nD) (v5 : BitVec 32) (v7 : BitVec 32) (v8 : BitVec 32) :
    S2 m K c 25 1 ⊢ wp frame (wpE (defs₀ (F := F)) 𝒱₀ (c : Thread nD τ) none) Set.univ
      (k0_part69 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 25 5) := by
  rw [k0_part69_eq_skeleton]; unfold k0_part69_skel
  simp only [Prog.lift, Prog.bind_op, Prog.bind_ret, Prog.pure_eq_ret]
  refine step_apply (step_yrecv_wait m K c ⟨25, by decide⟩ _ (sem_yrecv ⟨25, by decide⟩ _ _)) ?_
  refine step_apply (step_stage_wait m K c ⟨25, by decide⟩ ⟨1, by decide⟩ (by decide) _ (sem_cpin ⟨1, by decide⟩ _ _)) ?_
  refine step_apply (step_load_recv m K c ⟨25, by decide⟩) ?_
  refine step_apply (step_load_stage m K c ⟨25, by decide⟩ ⟨1, by decide⟩ (by decide)) ?_
  refine step_apply (step_load_recv m K c ⟨25, by decide⟩) ?_
  refine step_apply (step_store m K c ⟨25, by decide⟩ _ (pay_sVal m k0_pay28 (fun _ _ => rfl) c ⟨25, by decide⟩)) ?_
  refine step_apply (step_xsend m K c ⟨25, by decide⟩ _ (Fin.ext (k0_dev92_eq c)) _ _ (sem_xsend ⟨25, by decide⟩ _ _) (sem_xrecv ⟨25, by decide⟩ _ _)) ?_
  exact ret_apply c (BI.Entails.refl _)

set_option maxRecDepth 65536 in
theorem part_70 (m : (ℓ : Loc nD τ sig) → Buf (Elt F) ℓ) (K : Dev nD × Fin 323 → ℕ) (c : Dev nD) (v2 : BitVec 32) (v5 : BitVec 32) (v6 : BitVec 32) (v8 : BitVec 32) :
    S2 m K c 25 5 ⊢ wp frame (wpE (defs₀ (F := F)) 𝒱₀ (c : Thread nD τ) none) Set.univ
      (k0_part70 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay29 (yVal m c ⟨26, by decide⟩) (shapeCast S1x64x1024 (bVal m c ⟨26, by decide⟩) shapeCasts_S64x1024_S1x64x1024))⌝ ∗ S2 m K c 26 3)) := by
  rw [k0_part70_eq_skeleton]; unfold k0_part70_skel
  simp only [Prog.lift, Prog.bind_op, Prog.bind_ret, Prog.pure_eq_ret]
  refine step_apply (step_outcopy m K c ⟨25, by decide⟩ _ (sem_cpout ⟨25, by decide⟩ _ _)) ?_
  refine (S2_next m K c ⟨25, by decide⟩).trans ?_
  refine step_apply (step_stage m K c ⟨26, by decide⟩ ⟨27, by decide⟩ rfl ⟨1, by decide⟩ (by decide) _ (sem_cpin ⟨1, by decide⟩ _ _)) ?_
  refine step_apply (step_yrecv_wait m K c ⟨26, by decide⟩ _ (sem_yrecv ⟨26, by decide⟩ _ _)) ?_
  refine step_apply (step_stage_wait m K c ⟨26, by decide⟩ ⟨0, by decide⟩ (by decide) _ (sem_cpin ⟨0, by decide⟩ _ _)) ?_
  refine step_apply (step_load_recv m K c ⟨26, by decide⟩) ?_
  refine step_apply (step_load_stage m K c ⟨26, by decide⟩ ⟨0, by decide⟩ (by decide)) ?_
  refine step_apply (step_load_recv m K c ⟨26, by decide⟩) ?_
  exact ret_fact c rfl

set_option maxRecDepth 65536 in
theorem part_71 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 26 3 ⊢ wp frame (wpE (defs₀ (F := F)) 𝒱₀ (c : Thread nD τ) none) Set.univ
      (k0_part71 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 (k0_pay29 (yVal m c ⟨26, by decide⟩) (shapeCast S1x64x1024 (bVal m c ⟨26, by decide⟩) shapeCasts_S64x1024_S1x64x1024)))
      (fun _ => S2 m K c 27 1) := by
  rw [k0_part71_eq_skeleton]; unfold k0_part71_skel
  simp only [Prog.lift, Prog.bind_op, Prog.bind_ret, Prog.pure_eq_ret]
  refine step_apply (step_store m K c ⟨26, by decide⟩ _ (pay_sVal_cut m k0_pay30 k0_pay29 (fun _ => rfl) (fun _ _ => rfl) c ⟨26, by decide⟩)) ?_
  refine step_apply (step_xsend m K c ⟨26, by decide⟩ _ (Fin.ext (k0_dev93_eq c)) _ _ (sem_xsend ⟨26, by decide⟩ _ _) (sem_xrecv ⟨26, by decide⟩ _ _)) ?_
  refine step_apply (step_outcopy m K c ⟨26, by decide⟩ _ (sem_cpout ⟨26, by decide⟩ _ _)) ?_
  refine (S2_next m K c ⟨26, by decide⟩).trans ?_
  refine step_apply (step_stage m K c ⟨27, by decide⟩ ⟨28, by decide⟩ rfl ⟨0, by decide⟩ (by decide) _ (sem_cpin ⟨0, by decide⟩ _ _)) ?_
  exact ret_apply c (BI.Entails.refl _)

set_option maxRecDepth 65536 in
theorem part_72 (m : (ℓ : Loc nD τ sig) → Buf (Elt F) ℓ) (K : Dev nD × Fin 323 → ℕ) (c : Dev nD) (v5 : BitVec 32) (v7 : BitVec 32) (v8 : BitVec 32) :
    S2 m K c 27 1 ⊢ wp frame (wpE (defs₀ (F := F)) 𝒱₀ (c : Thread nD τ) none) Set.univ
      (k0_part72 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 27 5) := by
  rw [k0_part72_eq_skeleton]; unfold k0_part72_skel
  simp only [Prog.lift, Prog.bind_op, Prog.bind_ret, Prog.pure_eq_ret]
  refine step_apply (step_yrecv_wait m K c ⟨27, by decide⟩ _ (sem_yrecv ⟨27, by decide⟩ _ _)) ?_
  refine step_apply (step_stage_wait m K c ⟨27, by decide⟩ ⟨1, by decide⟩ (by decide) _ (sem_cpin ⟨1, by decide⟩ _ _)) ?_
  refine step_apply (step_load_recv m K c ⟨27, by decide⟩) ?_
  refine step_apply (step_load_stage m K c ⟨27, by decide⟩ ⟨1, by decide⟩ (by decide)) ?_
  refine step_apply (step_load_recv m K c ⟨27, by decide⟩) ?_
  refine step_apply (step_store m K c ⟨27, by decide⟩ _ (pay_sVal m k0_pay31 (fun _ _ => rfl) c ⟨27, by decide⟩)) ?_
  refine step_apply (step_xsend m K c ⟨27, by decide⟩ _ (Fin.ext (k0_dev94_eq c)) _ _ (sem_xsend ⟨27, by decide⟩ _ _) (sem_xrecv ⟨27, by decide⟩ _ _)) ?_
  exact ret_apply c (BI.Entails.refl _)

set_option maxRecDepth 65536 in
theorem part_73 (m : (ℓ : Loc nD τ sig) → Buf (Elt F) ℓ) (K : Dev nD × Fin 323 → ℕ) (c : Dev nD) (v2 : BitVec 32) (v5 : BitVec 32) (v6 : BitVec 32) (v8 : BitVec 32) :
    S2 m K c 27 5 ⊢ wp frame (wpE (defs₀ (F := F)) 𝒱₀ (c : Thread nD τ) none) Set.univ
      (k0_part73 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = ⟨(yVal m c ⟨28, by decide⟩), (shapeCast S1x64x1024 (bVal m c ⟨28, by decide⟩) shapeCasts_S64x1024_S1x64x1024)⟩⌝ ∗ S2 m K c 28 3)) := by
  rw [k0_part73_eq_skeleton]; unfold k0_part73_skel
  simp only [Prog.lift, Prog.bind_op, Prog.bind_ret, Prog.pure_eq_ret]
  refine step_apply (step_outcopy m K c ⟨27, by decide⟩ _ (sem_cpout ⟨27, by decide⟩ _ _)) ?_
  refine (S2_next m K c ⟨27, by decide⟩).trans ?_
  refine step_apply (step_stage m K c ⟨28, by decide⟩ ⟨29, by decide⟩ rfl ⟨1, by decide⟩ (by decide) _ (sem_cpin ⟨1, by decide⟩ _ _)) ?_
  refine step_apply (step_yrecv_wait m K c ⟨28, by decide⟩ _ (sem_yrecv ⟨28, by decide⟩ _ _)) ?_
  refine step_apply (step_stage_wait m K c ⟨28, by decide⟩ ⟨0, by decide⟩ (by decide) _ (sem_cpin ⟨0, by decide⟩ _ _)) ?_
  refine step_apply (step_load_recv m K c ⟨28, by decide⟩) ?_
  refine step_apply (step_load_stage m K c ⟨28, by decide⟩ ⟨0, by decide⟩ (by decide)) ?_
  exact ret_fact c rfl

set_option maxRecDepth 65536 in
theorem part_74 (m : (ℓ : Loc nD τ sig) → Buf (Elt F) ℓ) (K : Dev nD × Fin 323 → ℕ) (c : Dev nD) (v5 : BitVec 32) (v7 : BitVec 32) (v8 : BitVec 32) :
    S2 m K c 28 3 ⊢ wp frame (wpE (defs₀ (F := F)) 𝒱₀ (c : Thread nD τ) none) Set.univ
      (k0_part74 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨28, by decide⟩) (shapeCast S1x64x1024 (bVal m c ⟨28, by decide⟩) shapeCasts_S64x1024_S1x64x1024))
      (fun _ => S2 m K c 29 1) := by
  rw [k0_part74_eq_skeleton]; unfold k0_part74_skel
  simp only [Prog.lift, Prog.bind_op, Prog.bind_ret, Prog.pure_eq_ret]
  refine step_apply (step_load_recv m K c ⟨28, by decide⟩) ?_
  refine step_apply (step_store m K c ⟨28, by decide⟩ _ (pay_sVal m k0_pay32 (fun _ _ => rfl) c ⟨28, by decide⟩)) ?_
  refine step_apply (step_xsend m K c ⟨28, by decide⟩ _ (Fin.ext (k0_dev95_eq c)) _ _ (sem_xsend ⟨28, by decide⟩ _ _) (sem_xrecv ⟨28, by decide⟩ _ _)) ?_
  refine step_apply (step_outcopy m K c ⟨28, by decide⟩ _ (sem_cpout ⟨28, by decide⟩ _ _)) ?_
  refine (S2_next m K c ⟨28, by decide⟩).trans ?_
  refine step_apply (step_stage m K c ⟨29, by decide⟩ ⟨30, by decide⟩ rfl ⟨0, by decide⟩ (by decide) _ (sem_cpin ⟨0, by decide⟩ _ _)) ?_
  exact ret_apply c (BI.Entails.refl _)

set_option maxRecDepth 65536 in
theorem part_75 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2_i32_1770 : BitVec 32) :
    S2 m K c 29 1 ⊢ wp frame (wpE (defs₀ (F := F)) 𝒱₀ (c : Thread nD τ) none) Set.univ
      (k0_part75 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2_i32_1770)
      (fun _ => S2 m K c 29 4) := by
  rw [k0_part75_eq_skeleton]; unfold k0_part75_skel
  simp only [Prog.lift, Prog.bind_op, Prog.bind_ret, Prog.pure_eq_ret]
  refine step_apply (step_yrecv_wait m K c ⟨29, by decide⟩ _ (sem_yrecv ⟨29, by decide⟩ _ _)) ?_
  refine step_apply (step_stage_wait m K c ⟨29, by decide⟩ ⟨1, by decide⟩ (by decide) _ (sem_cpin ⟨1, by decide⟩ _ _)) ?_
  refine step_apply (step_load_recv m K c ⟨29, by decide⟩) ?_
  refine step_apply (step_load_stage m K c ⟨29, by decide⟩ ⟨1, by decide⟩ (by decide)) ?_
  refine step_apply (step_load_recv m K c ⟨29, by decide⟩) ?_
  refine step_apply (step_store m K c ⟨29, by decide⟩ _ (pay_sVal m k0_pay33 (fun _ _ => rfl) c ⟨29, by decide⟩)) ?_
  exact ret_apply c (BI.Entails.refl _)

set_option maxRecDepth 65536 in
theorem part_76 (m : (ℓ : Loc nD τ sig) → Buf (Elt F) ℓ) (K : Dev nD × Fin 323 → ℕ) (c : Dev nD) (v2 : BitVec 32) (v5 : BitVec 32) (v6 : BitVec 32) (v8 : BitVec 32) :
    S2 m K c 29 4 ⊢ wp frame (wpE (defs₀ (F := F)) 𝒱₀ (c : Thread nD τ) none) Set.univ
      (k0_part76 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 30 3) := by
  rw [k0_part76_eq_skeleton]; unfold k0_part76_skel
  simp only [Prog.lift, Prog.bind_op, Prog.bind_ret, Prog.pure_eq_ret]
  refine step_apply (step_xsend m K c ⟨29, by decide⟩ _ (Fin.ext (k0_dev96_eq c)) _ _ (sem_xsend ⟨29, by decide⟩ _ _) (sem_xrecv ⟨29, by decide⟩ _ _)) ?_
  refine step_apply (step_outcopy m K c ⟨29, by decide⟩ _ (sem_cpout ⟨29, by decide⟩ _ _)) ?_
  refine (S2_next m K c ⟨29, by decide⟩).trans ?_
  refine step_apply (step_stage m K c ⟨30, by decide⟩ ⟨31, by decide⟩ rfl ⟨1, by decide⟩ (by decide) _ (sem_cpin ⟨1, by decide⟩ _ _)) ?_
  refine step_apply (step_yrecv_wait m K c ⟨30, by decide⟩ _ (sem_yrecv ⟨30, by decide⟩ _ _)) ?_
  refine step_apply (step_stage_wait m K c ⟨30, by decide⟩ ⟨0, by decide⟩ (by decide) _ (sem_cpin ⟨0, by decide⟩ _ _)) ?_
  exact ret_apply c (BI.Entails.refl _)

set_option maxRecDepth 65536 in
theorem part_77 (m : (ℓ : Loc nD τ sig) → Buf (Elt F) ℓ) (K : Dev nD × Fin 323 → ℕ) (c : Dev nD) (v5 : BitVec 32) (v7 : BitVec 32) (v8 : BitVec 32) :
    S2 m K c 30 3 ⊢ wp frame (wpE (defs₀ (F := F)) 𝒱₀ (c : Thread nD τ) none) Set.univ
      (k0_part77 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 31 0) := by
  rw [k0_part77_eq_skeleton]; unfold k0_part77_skel
  simp only [Prog.lift, Prog.bind_op, Prog.bind_ret, Prog.pure_eq_ret]
  refine step_apply (step_load_recv m K c ⟨30, by decide⟩) ?_
  refine step_apply (step_load_stage m K c ⟨30, by decide⟩ ⟨0, by decide⟩ (by decide)) ?_
  refine step_apply (step_load_recv m K c ⟨30, by decide⟩) ?_
  refine step_apply (step_store m K c ⟨30, by decide⟩ _ (pay_sVal m k0_pay34 (fun _ _ => rfl) c ⟨30, by decide⟩)) ?_
  refine step_apply (step_xsend m K c ⟨30, by decide⟩ _ (Fin.ext (k0_dev97_eq c)) _ _ (sem_xsend ⟨30, by decide⟩ _ _) (sem_xrecv ⟨30, by decide⟩ _ _)) ?_
  refine step_apply (step_outcopy m K c ⟨30, by decide⟩ _ (sem_cpout ⟨30, by decide⟩ _ _)) ?_
  refine (S2_next m K c ⟨30, by decide⟩).trans ?_
  exact ret_apply c (BI.Entails.refl _)

set_option maxRecDepth 65536 in
theorem part_78 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 31 0 ⊢ wp frame (wpE (defs₀ (F := F)) 𝒱₀ (c : Thread nD τ) none) Set.univ
      (k0_part78 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 31 4) := by
  rw [k0_part78_eq_skeleton]; unfold k0_part78_skel
  simp only [Prog.lift, Prog.bind_op, Prog.bind_ret, Prog.pure_eq_ret]
  refine step_apply (step_stage m K c ⟨31, by decide⟩ ⟨32, by decide⟩ rfl ⟨0, by decide⟩ (by decide) _ (sem_cpin ⟨0, by decide⟩ _ _)) ?_
  refine step_apply (step_yrecv_wait m K c ⟨31, by decide⟩ _ (sem_yrecv ⟨31, by decide⟩ _ _)) ?_
  refine step_apply (step_stage_wait m K c ⟨31, by decide⟩ ⟨1, by decide⟩ (by decide) _ (sem_cpin ⟨1, by decide⟩ _ _)) ?_
  refine step_apply (step_load_recv m K c ⟨31, by decide⟩) ?_
  refine step_apply (step_load_stage m K c ⟨31, by decide⟩ ⟨1, by decide⟩ (by decide)) ?_
  refine step_apply (step_load_recv m K c ⟨31, by decide⟩) ?_
  refine step_apply (step_store m K c ⟨31, by decide⟩ _ (pay_sVal m k0_pay35 (fun _ _ => rfl) c ⟨31, by decide⟩)) ?_
  exact ret_apply c (BI.Entails.refl _)

set_option maxRecDepth 65536 in
theorem part_79 (m : (ℓ : Loc nD τ sig) → Buf (Elt F) ℓ) (K : Dev nD × Fin 323 → ℕ) (c : Dev nD) (v2 : BitVec 32) (v5 : BitVec 32) (v6 : BitVec 32) (v8 : BitVec 32) :
    S2 m K c 31 4 ⊢ wp frame (wpE (defs₀ (F := F)) 𝒱₀ (c : Thread nD τ) none) Set.univ
      (k0_part79 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 32 2) := by
  rw [k0_part79_eq_skeleton]; unfold k0_part79_skel
  simp only [Prog.lift, Prog.bind_op, Prog.bind_ret, Prog.pure_eq_ret]
  refine step_apply (step_xsend m K c ⟨31, by decide⟩ _ (Fin.ext (k0_dev98_eq c)) _ _ (sem_xsend ⟨31, by decide⟩ _ _) (sem_xrecv ⟨31, by decide⟩ _ _)) ?_
  refine step_apply (step_outcopy m K c ⟨31, by decide⟩ _ (sem_cpout ⟨31, by decide⟩ _ _)) ?_
  refine (S2_next m K c ⟨31, by decide⟩).trans ?_
  refine step_apply (step_stage m K c ⟨32, by decide⟩ ⟨33, by decide⟩ rfl ⟨1, by decide⟩ (by decide) _ (sem_cpin ⟨1, by decide⟩ _ _)) ?_
  refine step_apply (step_yrecv_wait m K c ⟨32, by decide⟩ _ (sem_yrecv ⟨32, by decide⟩ _ _)) ?_
  exact ret_apply c (BI.Entails.refl _)

set_option maxRecDepth 65536 in
theorem part_80 (m : (ℓ : Loc nD τ sig) → Buf (Elt F) ℓ) (K : Dev nD × Fin 323 → ℕ) (c : Dev nD) (v5 : BitVec 32) (v7 : BitVec 32) (v8 : BitVec 32) :
    S2 m K c 32 2 ⊢ wp frame (wpE (defs₀ (F := F)) 𝒱₀ (c : Thread nD τ) none) Set.univ
      (k0_part80 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 33 0) := by
  rw [k0_part80_eq_skeleton]; unfold k0_part80_skel
  simp only [Prog.lift, Prog.bind_op, Prog.bind_ret, Prog.pure_eq_ret]
  refine step_apply (step_stage_wait m K c ⟨32, by decide⟩ ⟨0, by decide⟩ (by decide) _ (sem_cpin ⟨0, by decide⟩ _ _)) ?_
  refine step_apply (step_load_recv m K c ⟨32, by decide⟩) ?_
  refine step_apply (step_load_stage m K c ⟨32, by decide⟩ ⟨0, by decide⟩ (by decide)) ?_
  refine step_apply (step_load_recv m K c ⟨32, by decide⟩) ?_
  refine step_apply (step_store m K c ⟨32, by decide⟩ _ (pay_sVal m k0_pay36 (fun _ _ => rfl) c ⟨32, by decide⟩)) ?_
  refine step_apply (step_xsend m K c ⟨32, by decide⟩ _ (Fin.ext (k0_dev99_eq c)) _ _ (sem_xsend ⟨32, by decide⟩ _ _) (sem_xrecv ⟨32, by decide⟩ _ _)) ?_
  refine step_apply (step_outcopy m K c ⟨32, by decide⟩ _ (sem_cpout ⟨32, by decide⟩ _ _)) ?_
  refine (S2_next m K c ⟨32, by decide⟩).trans ?_
  exact ret_apply c (BI.Entails.refl _)

/-- info: 'Cert.KernelIdeal.RS.part_80' depends on axioms: [propext, Classical.choice, Quot.sound] -/
#guard_msgs in #print axioms part_80

end Cert.KernelIdeal.RS

end
-- ==== Proof.RsKernelIdeal.Body06.lean ====
/-
  The body of the reduce-scatter, part by part: the parts 81 to 96 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps2
import proofs.«900313_g7700000000000314_dist_rs_v7x_xy2x2_y_m8192_n1024_f32_1_alg».proof.Proof.RsKernelIdeal.Steps2n
import proofs.«900313_g7700000000000314_dist_rs_v7x_xy2x2_y_m8192_n1024_f32_1_alg».proof.Proof.RsKernelIdeal.Steps2v
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_81 (m : (ℓ : Loc nD τ sig) → Buf (Elt F) ℓ) (K : Dev nD × Fin 323 → ℕ) (c : Dev nD) (v2 : BitVec 32) (v6 : BitVec 32) (v7 : BitVec 32) (v8 : BitVec 32) :
    S2 m K c 33 0 ⊢ wp frame (wpE (defs₀ (F := F)) 𝒱₀ (c : Thread nD τ) none) Set.univ
      (k0_part81 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v7 v8)
      (fun _ => S2 m K c 33 4) := by
  rw [k0_part81_eq_skeleton]; unfold k0_part81_skel
  simp only [Prog.lift, Prog.bind_op, Prog.bind_ret, Prog.pure_eq_ret]
  refine step_apply (step_stage m K c ⟨33, by decide⟩ ⟨34, by decide⟩ rfl ⟨0, by decide⟩ (by decide) _ (sem_cpin ⟨0, by decide⟩ _ _)) ?_
  refine step_apply (step_yrecv_wait m K c ⟨33, by decide⟩ _ (sem_yrecv ⟨33, by decide⟩ _ _)) ?_
  refine step_apply (step_stage_wait m K c ⟨33, by decide⟩ ⟨1, by decide⟩ (by decide) _ (sem_cpin ⟨1, by decide⟩ _ _)) ?_
  refine step_apply (step_load_recv m K c ⟨33, by decide⟩) ?_
  refine step_apply (step_load_stage m K c ⟨33, by decide⟩ ⟨1, by decide⟩ (by decide)) ?_
  refine step_apply (step_load_recv m K c ⟨33, by decide⟩) ?_
  refine step_apply (step_store m K c ⟨33, by decide⟩ _ (pay_sVal m k0_pay37 (fun _ _ => rfl) c ⟨33, by decide⟩)) ?_
  exact ret_apply c (BI.Entails.refl _)

set_option maxRecDepth 65536 in
theorem part_82 (m : (ℓ : Loc nD τ sig) → Buf (Elt F) ℓ) (K : Dev nD × Fin 323 → ℕ) (c : Dev nD) (v2 : BitVec 32) (v5 : BitVec 32) (v6 : BitVec 32) (v8 : BitVec 32) (v2473 : BitVec 32) (c0_i32_1950 : BitVec 32) :
    S2 m K c 33 4 ⊢ wp frame (wpE (defs₀ (F := F)) 𝒱₀ (c : Thread nD τ) none) Set.univ
      (k0_part82 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v2473 c0_i32_1950)
      (fun _ => S2 m K c 34 2) := by
  rw [k0_part82_eq_skeleton]; unfold k0_part82_skel
  simp only [Prog.lift, Prog.bind_op, Prog.bind_ret, Prog.pure_eq_ret]
  refine step_apply (step_xsend m K c ⟨33, by decide⟩ _ (Fin.ext (k0_dev100_eq c)) _ _ (sem_xsend ⟨33, by decide⟩ _ _) (sem_xrecv ⟨33, by decide⟩ _ _)) ?_
  refine step_apply (step_outcopy m K c ⟨33, by decide⟩ _ (sem_cpout ⟨33, by decide⟩ _ _)) ?_
  refine (S2_next m K c ⟨33, by decide⟩).trans ?_
  refine step_apply (step_stage m K c ⟨34, by decide⟩ ⟨35, by decide⟩ rfl ⟨1, by decide⟩ (by decide) _ (sem_cpin ⟨1, by decide⟩ _ _)) ?_
  refine step_apply (step_yrecv_wait m K c ⟨34, by decide⟩ _ (sem_yrecv ⟨34, by decide⟩ _ _)) ?_
  exact ret_apply c (BI.Entails.refl _)

set_option maxRecDepth 65536 in
theorem part_83 (m : (ℓ : Loc nD τ sig) → Buf (Elt F) ℓ) (K : Dev nD × Fin 323 → ℕ) (c : Dev nD) (v5 : BitVec 32) (v7 : BitVec 32) (v8 : BitVec 32) :
    S2 m K c 34 2 ⊢ wp frame (wpE (defs₀ (F := F)) 𝒱₀ (c : Thread nD τ) none) Set.univ
      (k0_part83 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 35 0) := by
  rw [k0_part83_eq_skeleton]; unfold k0_part83_skel
  simp only [Prog.lift, Prog.bind_op, Prog.bind_ret, Prog.pure_eq_ret]
  refine step_apply (step_stage_wait m K c ⟨34, by decide⟩ ⟨0, by decide⟩ (by decide) _ (sem_cpin ⟨0, by decide⟩ _ _)) ?_
  refine step_apply (step_load_recv m K c ⟨34, by decide⟩) ?_
  refine step_apply (step_load_stage m K c ⟨34, by decide⟩ ⟨0, by decide⟩ (by decide)) ?_
  refine step_apply (step_load_recv m K c ⟨34, by decide⟩) ?_
  refine step_apply (step_store m K c ⟨34, by decide⟩ _ (pay_sVal m k0_pay38 (fun _ _ => rfl) c ⟨34, by decide⟩)) ?_
  refine step_apply (step_xsend m K c ⟨34, by decide⟩ _ (Fin.ext (k0_dev101_eq c)) _ _ (sem_xsend ⟨34, by decide⟩ _ _) (sem_xrecv ⟨34, by decide⟩ _ _)) ?_
  refine step_apply (step_outcopy m K c ⟨34, by decide⟩ _ (sem_cpout ⟨34, by decide⟩ _ _)) ?_
  refine (S2_next m K c ⟨34, by decide⟩).trans ?_
  exact ret_apply c (BI.Entails.refl _)

set_option maxRecDepth 65536 in
theorem part_84 (m : (ℓ : Loc nD τ sig) → Buf (Elt F) ℓ) (K : Dev nD × Fin 323 → ℕ) (c : Dev nD) (v2 : BitVec 32) (v5 : BitVec 32) (v6 : BitVec 32) :
    S2 m K c 35 0 ⊢ wp frame (wpE (defs₀ (F := F)) 𝒱₀ (c : Thread nD τ) none) Set.univ
      (k0_part84 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6)
      (fun _ => S2 m K c 35 4) := by
  rw [k0_part84_eq_skeleton]; unfold k0_part84_skel
  simp only [Prog.lift, Prog.bind_op, Prog.bind_ret, Prog.pure_eq_ret]
  refine step_apply (step_stage m K c ⟨35, by decide⟩ ⟨36, by decide⟩ rfl ⟨0, by decide⟩ (by decide) _ (sem_cpin ⟨0, by decide⟩ _ _)) ?_
  refine step_apply (step_yrecv_wait m K c ⟨35, by decide⟩ _ (sem_yrecv ⟨35, by decide⟩ _ _)) ?_
  refine step_apply (step_stage_wait m K c ⟨35, by decide⟩ ⟨1, by decide⟩ (by decide) _ (sem_cpin ⟨1, by decide⟩ _ _)) ?_
  refine step_apply (step_load_recv m K c ⟨35, by decide⟩) ?_
  refine step_apply (step_load_stage m K c ⟨35, by decide⟩ ⟨1, by decide⟩ (by decide)) ?_
  refine step_apply (step_load_recv m K c ⟨35, by decide⟩) ?_
  refine step_apply (step_store m K c ⟨35, by decide⟩ _ (pay_sVal m k0_pay39 (fun _ _ => rfl) c ⟨35, by decide⟩)) ?_
  exact ret_apply c (BI.Entails.refl _)

set_option maxRecDepth 65536 in
theorem part_85 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2240_i32_2026 : BitVec 32) :
    S2 m K c 35 4 ⊢ wp frame (wpE (defs₀ (F := F)) 𝒱₀ (c : Thread nD τ) none) Set.univ
      (k0_part85 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2240_i32_2026)
      (fun _ => S2 m K c 36 1) := by
  rw [k0_part85_eq_skeleton]; unfold k0_part85_skel
  simp only [Prog.lift, Prog.bind_op, Prog.bind_ret, Prog.pure_eq_ret]
  refine step_apply (step_xsend m K c ⟨35, by decide⟩ _ (Fin.ext (k0_dev102_eq c)) _ _ (sem_xsend ⟨35, by decide⟩ _ _) (sem_xrecv ⟨35, by decide⟩ _ _)) ?_
  refine step_apply (step_outcopy m K c ⟨35, by decide⟩ _ (sem_cpout ⟨35, by decide⟩ _ _)) ?_
  refine (S2_next m K c ⟨35, by decide⟩).trans ?_
  refine step_apply (step_stage m K c ⟨36, by decide⟩ ⟨37, by decide⟩ rfl ⟨1, by decide⟩ (by decide) _ (sem_cpin ⟨1, by decide⟩ _ _)) ?_
  exact ret_apply c (BI.Entails.refl _)

set_option maxRecDepth 65536 in
theorem part_86 (m : (ℓ : Loc nD τ sig) → Buf (Elt F) ℓ) (K : Dev nD × Fin 323 → ℕ) (c : Dev nD) (v5 : BitVec 32) (v7 : BitVec 32) (v8 : BitVec 32) :
    S2 m K c 36 1 ⊢ wp frame (wpE (defs₀ (F := F)) 𝒱₀ (c : Thread nD τ) none) Set.univ
      (k0_part86 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 36 5) := by
  rw [k0_part86_eq_skeleton]; unfold k0_part86_skel
  simp only [Prog.lift, Prog.bind_op, Prog.bind_ret, Prog.pure_eq_ret]
  refine step_apply (step_yrecv_wait m K c ⟨36, by decide⟩ _ (sem_yrecv ⟨36, by decide⟩ _ _)) ?_
  refine step_apply (step_stage_wait m K c ⟨36, by decide⟩ ⟨0, by decide⟩ (by decide) _ (sem_cpin ⟨0, by decide⟩ _ _)) ?_
  refine step_apply (step_load_recv m K c ⟨36, by decide⟩) ?_
  refine step_apply (step_load_stage m K c ⟨36, by decide⟩ ⟨0, by decide⟩ (by decide)) ?_
  refine step_apply (step_load_recv m K c ⟨36, by decide⟩) ?_
  refine step_apply (step_store m K c ⟨36, by decide⟩ _ (pay_sVal m k0_pay40 (fun _ _ => rfl) c ⟨36, by decide⟩)) ?_
  refine step_apply (step_xsend m K c ⟨36, by decide⟩ _ (Fin.ext (k0_dev103_eq c)) _ _ (sem_xsend ⟨36, by decide⟩ _ _) (sem_xrecv ⟨36, by decide⟩ _ _)) ?_
  exact ret_apply c (BI.Entails.refl _)

set_option maxRecDepth 65536 in
theorem part_87 (m : (ℓ : Loc nD τ sig) → Buf (Elt F) ℓ) (K : Dev nD × Fin 323 → ℕ) (c : Dev nD) (v2 : BitVec 32) (v5 : BitVec 32) (v6 : BitVec 32) (v8 : BitVec 32) :
    S2 m K c 36 5 ⊢ wp frame (wpE (defs₀ (F := F)) 𝒱₀ (c : Thread nD τ) none) Set.univ
      (k0_part87 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay41 (yVal m c ⟨37, by decide⟩) (shapeCast S1x64x1024 (bVal m c ⟨37, by decide⟩) shapeCasts_S64x1024_S1x64x1024))⌝ ∗ S2 m K c 37 3)) := by
  rw [k0_part87_eq_skeleton]; unfold k0_part87_skel
  simp only [Prog.lift, Prog.bind_op, Prog.bind_ret, Prog.pure_eq_ret]
  refine step_apply (step_outcopy m K c ⟨36, by decide⟩ _ (sem_cpout ⟨36, by decide⟩ _ _)) ?_
  refine (S2_next m K c ⟨36, by decide⟩).trans ?_
  refine step_apply (step_stage m K c ⟨37, by decide⟩ ⟨38, by decide⟩ rfl ⟨0, by decide⟩ (by decide) _ (sem_cpin ⟨0, by decide⟩ _ _)) ?_
  refine step_apply (step_yrecv_wait m K c ⟨37, by decide⟩ _ (sem_yrecv ⟨37, by decide⟩ _ _)) ?_
  refine step_apply (step_stage_wait m K c ⟨37, by decide⟩ ⟨1, by decide⟩ (by decide) _ (sem_cpin ⟨1, by decide⟩ _ _)) ?_
  refine step_apply (step_load_recv m K c ⟨37, by decide⟩) ?_
  refine step_apply (step_load_stage m K c ⟨37, by decide⟩ ⟨1, by decide⟩ (by decide)) ?_
  exact ret_fact c rfl

set_option maxRecDepth 65536 in
theorem part_88 (m : (ℓ : Loc nD τ sig) → Buf (Elt F) ℓ) (K : Dev nD × Fin 323 → ℕ) (c : Dev nD) (v2 : BitVec 32) (v5 : BitVec 32) (v7 : BitVec 32) (v8 : BitVec 32) :
    S2 m K c 37 3 ⊢ wp frame (wpE (defs₀ (F := F)) 𝒱₀ (c : Thread nD τ) none) Set.univ
      (k0_part88 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v7 v8 (k0_pay41 (yVal m c ⟨37, by decide⟩) (shapeCast S1x64x1024 (bVal m c ⟨37, by decide⟩) shapeCasts_S64x1024_S1x64x1024)))
      (fun _ => S2 m K c 38 1) := by
  rw [k0_part88_eq_skeleton]; unfold k0_part88_skel
  simp only [Prog.lift, Prog.bind_op, Prog.bind_ret, Prog.pure_eq_ret]
  refine step_apply (step_load_recv m K c ⟨37, by decide⟩) ?_
  refine step_apply (step_store m K c ⟨37, by decide⟩ _ (pay_sVal_cut m k0_pay42 k0_pay41 (fun _ => rfl) (fun _ _ => rfl) c ⟨37, by decide⟩)) ?_
  refine step_apply (step_xsend m K c ⟨37, by decide⟩ _ (Fin.ext (k0_dev104_eq c)) _ _ (sem_xsend ⟨37, by decide⟩ _ _) (sem_xrecv ⟨37, by decide⟩ _ _)) ?_
  refine step_apply (step_outcopy m K c ⟨37, by decide⟩ _ (sem_cpout ⟨37, by decide⟩ _ _)) ?_
  refine (S2_next m K c ⟨37, by decide⟩).trans ?_
  refine step_apply (step_stage m K c ⟨38, by decide⟩ ⟨39, by decide⟩ rfl ⟨1, by decide⟩ (by decide) _ (sem_cpin ⟨1, by decide⟩ _ _)) ?_
  exact ret_apply c (BI.Entails.refl _)

set_option maxRecDepth 65536 in
theorem part_89 (m : (ℓ : Loc nD τ sig) → Buf (Elt F) ℓ) (K : Dev nD × Fin 323 → ℕ) (c : Dev nD) (v5 : BitVec 32) (v6 : BitVec 32) (v7 : BitVec 32) (v8 : BitVec 32) (v2681 : BitVec 32) :
    S2 m K c 38 1 ⊢ wp frame (wpE (defs₀ (F := F)) 𝒱₀ (c : Thread nD τ) none) Set.univ
      (k0_part89 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v7 v8 v2681)
      (fun _ => S2 m K c 38 5) := by
  rw [k0_part89_eq_skeleton]; unfold k0_part89_skel
  simp only [Prog.lift, Prog.bind_op, Prog.bind_ret, Prog.pure_eq_ret]
  refine step_apply (step_yrecv_wait m K c ⟨38, by decide⟩ _ (sem_yrecv ⟨38, by decide⟩ _ _)) ?_
  refine step_apply (step_stage_wait m K c ⟨38, by decide⟩ ⟨0, by decide⟩ (by decide) _ (sem_cpin ⟨0, by decide⟩ _ _)) ?_
  refine step_apply (step_load_recv m K c ⟨38, by decide⟩) ?_
  refine step_apply (step_load_stage m K c ⟨38, by decide⟩ ⟨0, by decide⟩ (by decide)) ?_
  refine step_apply (step_load_recv m K c ⟨38, by decide⟩) ?_
  refine step_apply (step_store m K c ⟨38, by decide⟩ _ (pay_sVal m k0_pay43 (fun _ _ => rfl) c ⟨38, by decide⟩)) ?_
  refine step_apply (step_xsend m K c ⟨38, by decide⟩ _ (Fin.ext (k0_dev105_eq c)) _ _ (sem_xsend ⟨38, by decide⟩ _ _) (sem_xrecv ⟨38, by decide⟩ _ _)) ?_
  exact ret_apply c (BI.Entails.refl _)

set_option maxRecDepth 65536 in
theorem part_90 (m : (ℓ : Loc nD τ sig) → Buf (Elt F) ℓ) (K : Dev nD × Fin 323 → ℕ) (c : Dev nD) (v2 : BitVec 32) (v5 : BitVec 32) (v6 : BitVec 32) (v8 : BitVec 32) (c2432_i32_2155 : BitVec 32) :
    S2 m K c 38 5 ⊢ wp frame (wpE (defs₀ (F := F)) 𝒱₀ (c : Thread nD τ) none) Set.univ
      (k0_part90 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c2432_i32_2155)
      (fun ret => iprop(⌜ret = (yVal m c ⟨39, by decide⟩)⌝ ∗ S2 m K c 39 3)) := by
  rw [k0_part90_eq_skeleton]; unfold k0_part90_skel
  simp only [Prog.lift, Prog.bind_op, Prog.bind_ret, Prog.pure_eq_ret]
  refine step_apply (step_outcopy m K c ⟨38, by decide⟩ _ (sem_cpout ⟨38, by decide⟩ _ _)) ?_
  refine (S2_next m K c ⟨38, by decide⟩).trans ?_
  refine step_apply (step_stage m K c ⟨39, by decide⟩ ⟨40, by decide⟩ rfl ⟨0, by decide⟩ (by decide) _ (sem_cpin ⟨0, by decide⟩ _ _)) ?_
  refine step_apply (step_yrecv_wait m K c ⟨39, by decide⟩ _ (sem_yrecv ⟨39, by decide⟩ _ _)) ?_
  refine step_apply (step_stage_wait m K c ⟨39, by decide⟩ ⟨1, by decide⟩ (by decide) _ (sem_cpin ⟨1, by decide⟩ _ _)) ?_
  refine step_apply (step_load_recv m K c ⟨39, by decide⟩) ?_
  exact ret_fact c rfl

set_option maxRecDepth 65536 in
theorem part_91 (m : (ℓ : Loc nD τ sig) → Buf (Elt F) ℓ) (K : Dev nD × Fin 323 → ℕ) (c : Dev nD) (v5 : BitVec 32) (v7 : BitVec 32) (v8 : BitVec 32) :
    S2 m K c 39 3 ⊢ wp frame (wpE (defs₀ (F := F)) 𝒱₀ (c : Thread nD τ) none) Set.univ
      (k0_part91 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨39, by decide⟩))
      (fun _ => S2 m K c 40 1) := by
  rw [k0_part91_eq_skeleton]; unfold k0_part91_skel
  simp only [Prog.lift, Prog.bind_op, Prog.bind_ret, Prog.pure_eq_ret]
  refine step_apply (step_load_stage m K c ⟨39, by decide⟩ ⟨1, by decide⟩ (by decide)) ?_
  refine step_apply (step_load_recv m K c ⟨39, by decide⟩) ?_
  refine step_apply (step_store m K c ⟨39, by decide⟩ _ (pay_sVal m k0_pay44 (fun _ _ => rfl) c ⟨39, by decide⟩)) ?_
  refine step_apply (step_xsend m K c ⟨39, by decide⟩ _ (Fin.ext (k0_dev106_eq c)) _ _ (sem_xsend ⟨39, by decide⟩ _ _) (sem_xrecv ⟨39, by decide⟩ _ _)) ?_
  refine step_apply (step_outcopy m K c ⟨39, by decide⟩ _ (sem_cpout ⟨39, by decide⟩ _ _)) ?_
  refine (S2_next m K c ⟨39, by decide⟩).trans ?_
  refine step_apply (step_stage m K c ⟨40, by decide⟩ ⟨41, by decide⟩ rfl ⟨1, by decide⟩ (by decide) _ (sem_cpin ⟨1, by decide⟩ _ _)) ?_
  exact ret_apply c (BI.Entails.refl _)

set_option maxRecDepth 65536 in
theorem part_92 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 40 1 ⊢ wp frame (wpE (defs₀ (F := F)) 𝒱₀ (c : Thread nD τ) none) Set.univ
      (k0_part92 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 40 4) := by
  rw [k0_part92_eq_skeleton]; unfold k0_part92_skel
  simp only [Prog.lift, Prog.bind_op, Prog.bind_ret, Prog.pure_eq_ret]
  refine step_apply (step_yrecv_wait m K c ⟨40, by decide⟩ _ (sem_yrecv ⟨40, by decide⟩ _ _)) ?_
  refine step_apply (step_stage_wait m K c ⟨40, by decide⟩ ⟨0, by decide⟩ (by decide) _ (sem_cpin ⟨0, by decide⟩ _ _)) ?_
  refine step_apply (step_load_recv m K c ⟨40, by decide⟩) ?_
  refine step_apply (step_load_stage m K c ⟨40, by decide⟩ ⟨0, by decide⟩ (by decide)) ?_
  refine step_apply (step_load_recv m K c ⟨40, by decide⟩) ?_
  refine step_apply (step_store m K c ⟨40, by decide⟩ _ (pay_sVal m k0_pay45 (fun _ _ => rfl) c ⟨40, by decide⟩)) ?_
  exact ret_apply c (BI.Entails.refl _)

set_option maxRecDepth 65536 in
theorem part_93 (m : (ℓ : Loc nD τ sig) → Buf (Elt F) ℓ) (K : Dev nD × Fin 323 → ℕ) (c : Dev nD) (v2 : BitVec 32) (v5 : BitVec 32) (v6 : BitVec 32) (v8 : BitVec 32) :
    S2 m K c 40 4 ⊢ wp frame (wpE (defs₀ (F := F)) 𝒱₀ (c : Thread nD τ) none) Set.univ
      (k0_part93 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 41 2) := by
  rw [k0_part93_eq_skeleton]; unfold k0_part93_skel
  simp only [Prog.lift, Prog.bind_op, Prog.bind_ret, Prog.pure_eq_ret]
  refine step_apply (step_xsend m K c ⟨40, by decide⟩ _ (Fin.ext (k0_dev107_eq c)) _ _ (sem_xsend ⟨40, by decide⟩ _ _) (sem_xrecv ⟨40, by decide⟩ _ _)) ?_
  refine step_apply (step_outcopy m K c ⟨40, by decide⟩ _ (sem_cpout ⟨40, by decide⟩ _ _)) ?_
  refine (S2_next m K c ⟨40, by decide⟩).trans ?_
  refine step_apply (step_stage m K c ⟨41, by decide⟩ ⟨42, by decide⟩ rfl ⟨0, by decide⟩ (by decide) _ (sem_cpin ⟨0, by decide⟩ _ _)) ?_
  refine step_apply (step_yrecv_wait m K c ⟨41, by decide⟩ _ (sem_yrecv ⟨41, by decide⟩ _ _)) ?_
  exact ret_apply c (BI.Entails.refl _)

set_option maxRecDepth 65536 in
theorem part_94 (m : (ℓ : Loc nD τ sig) → Buf (Elt F) ℓ) (K : Dev nD × Fin 323 → ℕ) (c : Dev nD) (v5 : BitVec 32) (v7 : BitVec 32) (v8 : BitVec 32) :
    S2 m K c 41 2 ⊢ wp frame (wpE (defs₀ (F := F)) 𝒱₀ (c : Thread nD τ) none) Set.univ
      (k0_part94 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 42 0) := by
  rw [k0_part94_eq_skeleton]; unfold k0_part94_skel
  simp only [Prog.lift, Prog.bind_op, Prog.bind_ret, Prog.pure_eq_ret]
  refine step_apply (step_stage_wait m K c ⟨41, by decide⟩ ⟨1, by decide⟩ (by decide) _ (sem_cpin ⟨1, by decide⟩ _ _)) ?_
  refine step_apply (step_load_recv m K c ⟨41, by decide⟩) ?_
  refine step_apply (step_load_stage m K c ⟨41, by decide⟩ ⟨1, by decide⟩ (by decide)) ?_
  refine step_apply (step_load_recv m K c ⟨41, by decide⟩) ?_
  refine step_apply (step_store m K c ⟨41, by decide⟩ _ (pay_sVal m k0_pay46 (fun _ _ => rfl) c ⟨41, by decide⟩)) ?_
  refine step_apply (step_xsend m K c ⟨41, by decide⟩ _ (Fin.ext (k0_dev108_eq c)) _ _ (sem_xsend ⟨41, by decide⟩ _ _) (sem_xrecv ⟨41, by decide⟩ _ _)) ?_
  refine step_apply (step_outcopy m K c ⟨41, by decide⟩ _ (sem_cpout ⟨41, by decide⟩ _ _)) ?_
  refine (S2_next m K c ⟨41, by decide⟩).trans ?_
  exact ret_apply c (BI.Entails.refl _)

set_option maxRecDepth 65536 in
theorem part_95 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 42 0 ⊢ wp frame (wpE (defs₀ (F := F)) 𝒱₀ (c : Thread nD τ) none) Set.univ
      (k0_part95 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 42 4) := by
  rw [k0_part95_eq_skeleton]; unfold k0_part95_skel
  simp only [Prog.lift, Prog.bind_op, Prog.bind_ret, Prog.pure_eq_ret]
  refine step_apply (step_stage m K c ⟨42, by decide⟩ ⟨43, by decide⟩ rfl ⟨1, by decide⟩ (by decide) _ (sem_cpin ⟨1, by decide⟩ _ _)) ?_
  refine step_apply (step_yrecv_wait m K c ⟨42, by decide⟩ _ (sem_yrecv ⟨42, by decide⟩ _ _)) ?_
  refine step_apply (step_stage_wait m K c ⟨42, by decide⟩ ⟨0, by decide⟩ (by decide) _ (sem_cpin ⟨0, by decide⟩ _ _)) ?_
  refine step_apply (step_load_recv m K c ⟨42, by decide⟩) ?_
  refine step_apply (step_load_stage m K c ⟨42, by decide⟩ ⟨0, by decide⟩ (by decide)) ?_
  refine step_apply (step_load_recv m K c ⟨42, by decide⟩) ?_
  refine step_apply (step_store m K c ⟨42, by decide⟩ _ (pay_sVal m k0_pay47 (fun _ _ => rfl) c ⟨42, by decide⟩)) ?_
  exact ret_apply c (BI.Entails.refl _)

set_option maxRecDepth 65536 in
theorem part_96 (m : (ℓ : Loc nD τ sig) → Buf (Elt F) ℓ) (K : Dev nD × Fin 323 → ℕ) (c : Dev nD) (v2 : BitVec 32) (v5 : BitVec 32) (v6 : BitVec 32) (v8 : BitVec 32) (v2888 : BitVec 32) (v2889 : BitVec 32) :
    S2 m K c 42 4 ⊢ wp frame (wpE (defs₀ (F := F)) 𝒱₀ (c : Thread nD τ) none) Set.univ
      (k0_part96 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v2888 v2889)
      (fun _ => S2 m K c 43 2) := by
  rw [k0_part96_eq_skeleton]; unfold k0_part96_skel
  simp only [Prog.lift, Prog.bind_op, Prog.bind_ret, Prog.pure_eq_ret]
  refine step_apply (step_xsend m K c ⟨42, by decide⟩ _ (Fin.ext (k0_dev109_eq c)) _ _ (sem_xsend ⟨42, by decide⟩ _ _) (sem_xrecv ⟨42, by decide⟩ _ _)) ?_
  refine step_apply (step_outcopy m K c ⟨42, by decide⟩ _ (sem_cpout ⟨42, by decide⟩ _ _)) ?_
  refine (S2_next m K c ⟨42, by decide⟩).trans ?_
  refine step_apply (step_stage m K c ⟨43, by decide⟩ ⟨44, by decide⟩ rfl ⟨0, by decide⟩ (by decide) _ (sem_cpin ⟨0, by decide⟩ _ _)) ?_
  refine step_apply (step_yrecv_wait m K c ⟨43, by decide⟩ _ (sem_yrecv ⟨43, by decide⟩ _ _)) ?_
  exact ret_apply c (BI.Entails.refl _)

/-- info: 'Cert.KernelIdeal.RS.part_96' depends on axioms: [propext, Classical.choice, Quot.sound] -/
#guard_msgs in #print axioms part_96

end Cert.KernelIdeal.RS

end
-- ==== Proof.RsKernelIdeal.Body07.lean ====
/-
  The body of the reduce-scatter, part by part: the parts 97 to 112 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps2
import proofs.«900313_g7700000000000314_dist_rs_v7x_xy2x2_y_m8192_n1024_f32_1_alg».proof.Proof.RsKernelIdeal.Steps2n
import proofs.«900313_g7700000000000314_dist_rs_v7x_xy2x2_y_m8192_n1024_f32_1_alg».proof.Proof.RsKernelIdeal.Steps2v
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_97 (m : (ℓ : Loc nD τ sig) → Buf (Elt F) ℓ) (K : Dev nD × Fin 323 → ℕ) (c : Dev nD) (v5 : BitVec 32) (v7 : BitVec 32) (v8 : BitVec 32) :
    S2 m K c 43 2 ⊢ wp frame (wpE (defs₀ (F := F)) 𝒱₀ (c : Thread nD τ) none) Set.univ
      (k0_part97 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 44 0) := by
  rw [k0_part97_eq_skeleton]; unfold k0_part97_skel
  simp only [Prog.lift, Prog.bind_op, Prog.bind_ret, Prog.pure_eq_ret]
  refine step_apply (step_stage_wait m K c ⟨43, by decide⟩ ⟨1, by decide⟩ (by decide) _ (sem_cpin ⟨1, by decide⟩ _ _)) ?_
  refine step_apply (step_load_recv m K c ⟨43, by decide⟩) ?_
  refine step_apply (step_load_stage m K c ⟨43, by decide⟩ ⟨1, by decide⟩ (by decide)) ?_
  refine step_apply (step_load_recv m K c ⟨43, by decide⟩) ?_
  refine step_apply (step_store m K c ⟨43, by decide⟩ _ (pay_sVal m k0_pay48 (fun _ _ => rfl) c ⟨43, by decide⟩)) ?_
  refine step_apply (step_xsend m K c ⟨43, by decide⟩ _ (Fin.ext (k0_dev110_eq c)) _ _ (sem_xsend ⟨43, by decide⟩ _ _) (sem_xrecv ⟨43, by decide⟩ _ _)) ?_
  refine step_apply (step_outcopy m K c ⟨43, by decide⟩ _ (sem_cpout ⟨43, by decide⟩ _ _)) ?_
  refine (S2_next m K c ⟨43, by decide⟩).trans ?_
  exact ret_apply c (BI.Entails.refl _)

set_option maxRecDepth 65536 in
theorem part_98 (m : (ℓ : Loc nD τ sig) → Buf (Elt F) ℓ) (K : Dev nD × Fin 323 → ℕ) (c : Dev nD) (v2 : BitVec 32) (v6 : BitVec 32) (v8 : BitVec 32) :
    S2 m K c 44 0 ⊢ wp frame (wpE (defs₀ (F := F)) 𝒱₀ (c : Thread nD τ) none) Set.univ
      (k0_part98 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8)
      (fun _ => S2 m K c 44 4) := by
  rw [k0_part98_eq_skeleton]; unfold k0_part98_skel
  simp only [Prog.lift, Prog.bind_op, Prog.bind_ret, Prog.pure_eq_ret]
  refine step_apply (step_stage m K c ⟨44, by decide⟩ ⟨45, by decide⟩ rfl ⟨1, by decide⟩ (by decide) _ (sem_cpin ⟨1, by decide⟩ _ _)) ?_
  refine step_apply (step_yrecv_wait m K c ⟨44, by decide⟩ _ (sem_yrecv ⟨44, by decide⟩ _ _)) ?_
  refine step_apply (step_stage_wait m K c ⟨44, by decide⟩ ⟨0, by decide⟩ (by decide) _ (sem_cpin ⟨0, by decide⟩ _ _)) ?_
  refine step_apply (step_load_recv m K c ⟨44, by decide⟩) ?_
  refine step_apply (step_load_stage m K c ⟨44, by decide⟩ ⟨0, by decide⟩ (by decide)) ?_
  refine step_apply (step_load_recv m K c ⟨44, by decide⟩) ?_
  refine step_apply (step_store m K c ⟨44, by decide⟩ _ (pay_sVal m k0_pay49 (fun _ _ => rfl) c ⟨44, by decide⟩)) ?_
  exact ret_apply c (BI.Entails.refl _)

set_option maxRecDepth 65536 in
theorem part_99 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 44 4 ⊢ wp frame (wpE (defs₀ (F := F)) 𝒱₀ (c : Thread nD τ) none) Set.univ
      (k0_part99 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 45 1) := by
  rw [k0_part99_eq_skeleton]; unfold k0_part99_skel
  simp only [Prog.lift, Prog.bind_op, Prog.bind_ret, Prog.pure_eq_ret]
  refine step_apply (step_xsend m K c ⟨44, by decide⟩ _ (Fin.ext (k0_dev111_eq c)) _ _ (sem_xsend ⟨44, by decide⟩ _ _) (sem_xrecv ⟨44, by decide⟩ _ _)) ?_
  refine step_apply (step_outcopy m K c ⟨44, by decide⟩ _ (sem_cpout ⟨44, by decide⟩ _ _)) ?_
  refine (S2_next m K c ⟨44, by decide⟩).trans ?_
  refine step_apply (step_stage m K c ⟨45, by decide⟩ ⟨46, by decide⟩ rfl ⟨0, by decide⟩ (by decide) _ (sem_cpin ⟨0, by decide⟩ _ _)) ?_
  exact ret_apply c (BI.Entails.refl _)

set_option maxRecDepth 65536 in
theorem part_100 (m : (ℓ : Loc nD τ sig) → Buf (Elt F) ℓ) (K : Dev nD × Fin 323 → ℕ) (c : Dev nD) (v5 : BitVec 32) (v7 : BitVec 32) (v8 : BitVec 32) :
    S2 m K c 45 1 ⊢ wp frame (wpE (defs₀ (F := F)) 𝒱₀ (c : Thread nD τ) none) Set.univ
      (k0_part100 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 45 5) := by
  rw [k0_part100_eq_skeleton]; unfold k0_part100_skel
  simp only [Prog.lift, Prog.bind_op, Prog.bind_ret, Prog.pure_eq_ret]
  refine step_apply (step_yrecv_wait m K c ⟨45, by decide⟩ _ (sem_yrecv ⟨45, by decide⟩ _ _)) ?_
  refine step_apply (step_stage_wait m K c ⟨45, by decide⟩ ⟨1, by decide⟩ (by decide) _ (sem_cpin ⟨1, by decide⟩ _ _)) ?_
  refine step_apply (step_load_recv m K c ⟨45, by decide⟩) ?_
  refine step_apply (step_load_stage m K c ⟨45, by decide⟩ ⟨1, by decide⟩ (by decide)) ?_
  refine step_apply (step_load_recv m K c ⟨45, by decide⟩) ?_
  refine step_apply (step_store m K c ⟨45, by decide⟩ _ (pay_sVal m k0_pay50 (fun _ _ => rfl) c ⟨45, by decide⟩)) ?_
  refine step_apply (step_xsend m K c ⟨45, by decide⟩ _ (Fin.ext (k0_dev112_eq c)) _ _ (sem_xsend ⟨45, by decide⟩ _ _) (sem_xrecv ⟨45, by decide⟩ _ _)) ?_
  exact ret_apply c (BI.Entails.refl _)

set_option maxRecDepth 65536 in
theorem part_101 (m : (ℓ : Loc nD τ sig) → Buf (Elt F) ℓ) (K : Dev nD × Fin 323 → ℕ) (c : Dev nD) (v2 : BitVec 32) (v5 : BitVec 32) (v6 : BitVec 32) (v8 : BitVec 32) :
    S2 m K c 45 5 ⊢ wp frame (wpE (defs₀ (F := F)) 𝒱₀ (c : Thread nD τ) none) Set.univ
      (k0_part101 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay51 (yVal m c ⟨46, by decide⟩) (shapeCast S1x64x1024 (bVal m c ⟨46, by decide⟩) shapeCasts_S64x1024_S1x64x1024))⌝ ∗ S2 m K c 46 3)) := by
  rw [k0_part101_eq_skeleton]; unfold k0_part101_skel
  simp only [Prog.lift, Prog.bind_op, Prog.bind_ret, Prog.pure_eq_ret]
  refine step_apply (step_outcopy m K c ⟨45, by decide⟩ _ (sem_cpout ⟨45, by decide⟩ _ _)) ?_
  refine (S2_next m K c ⟨45, by decide⟩).trans ?_
  refine step_apply (step_stage m K c ⟨46, by decide⟩ ⟨47, by decide⟩ rfl ⟨1, by decide⟩ (by decide) _ (sem_cpin ⟨1, by decide⟩ _ _)) ?_
  refine step_apply (step_yrecv_wait m K c ⟨46, by decide⟩ _ (sem_yrecv ⟨46, by decide⟩ _ _)) ?_
  refine step_apply (step_stage_wait m K c ⟨46, by decide⟩ ⟨0, by decide⟩ (by decide) _ (sem_cpin ⟨0, by decide⟩ _ _)) ?_
  refine step_apply (step_load_recv m K c ⟨46, by decide⟩) ?_
  refine step_apply (step_load_stage m K c ⟨46, by decide⟩ ⟨0, by decide⟩ (by decide)) ?_
  refine step_apply (step_load_recv m K c ⟨46, by decide⟩) ?_
  exact ret_fact c rfl

set_option maxRecDepth 65536 in
theorem part_102 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 46 3 ⊢ wp frame (wpE (defs₀ (F := F)) 𝒱₀ (c : Thread nD τ) none) Set.univ
      (k0_part102 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 (k0_pay51 (yVal m c ⟨46, by decide⟩) (shapeCast S1x64x1024 (bVal m c ⟨46, by decide⟩) shapeCasts_S64x1024_S1x64x1024)))
      (fun _ => S2 m K c 47 1) := by
  rw [k0_part102_eq_skeleton]; unfold k0_part102_skel
  simp only [Prog.lift, Prog.bind_op, Prog.bind_ret, Prog.pure_eq_ret]
  refine step_apply (step_store m K c ⟨46, by decide⟩ _ (pay_sVal_cut m k0_pay52 k0_pay51 (fun _ => rfl) (fun _ _ => rfl) c ⟨46, by decide⟩)) ?_
  refine step_apply (step_xsend m K c ⟨46, by decide⟩ _ (Fin.ext (k0_dev113_eq c)) _ _ (sem_xsend ⟨46, by decide⟩ _ _) (sem_xrecv ⟨46, by decide⟩ _ _)) ?_
  refine step_apply (step_outcopy m K c ⟨46, by decide⟩ _ (sem_cpout ⟨46, by decide⟩ _ _)) ?_
  refine (S2_next m K c ⟨46, by decide⟩).trans ?_
  refine step_apply (step_stage m K c ⟨47, by decide⟩ ⟨48, by decide⟩ rfl ⟨0, by decide⟩ (by decide) _ (sem_cpin ⟨0, by decide⟩ _ _)) ?_
  exact ret_apply c (BI.Entails.refl _)

set_option maxRecDepth 65536 in
theorem part_103 (m : (ℓ : Loc nD τ sig) → Buf (Elt F) ℓ) (K : Dev nD × Fin 323 → ℕ) (c : Dev nD) (v5 : BitVec 32) (v7 : BitVec 32) (v8 : BitVec 32) :
    S2 m K c 47 1 ⊢ wp frame (wpE (defs₀ (F := F)) 𝒱₀ (c : Thread nD τ) none) Set.univ
      (k0_part103 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 47 5) := by
  rw [k0_part103_eq_skeleton]; unfold k0_part103_skel
  simp only [Prog.lift, Prog.bind_op, Prog.bind_ret, Prog.pure_eq_ret]
  refine step_apply (step_yrecv_wait m K c ⟨47, by decide⟩ _ (sem_yrecv ⟨47, by decide⟩ _ _)) ?_
  refine step_apply (step_stage_wait m K c ⟨47, by decide⟩ ⟨1, by decide⟩ (by decide) _ (sem_cpin ⟨1, by decide⟩ _ _)) ?_
  refine step_apply (step_load_recv m K c ⟨47, by decide⟩) ?_
  refine step_apply (step_load_stage m K c ⟨47, by decide⟩ ⟨1, by decide⟩ (by decide)) ?_
  refine step_apply (step_load_recv m K c ⟨47, by decide⟩) ?_
  refine step_apply (step_store m K c ⟨47, by decide⟩ _ (pay_sVal m k0_pay53 (fun _ _ => rfl) c ⟨47, by decide⟩)) ?_
  refine step_apply (step_xsend m K c ⟨47, by decide⟩ _ (Fin.ext (k0_dev114_eq c)) _ _ (sem_xsend ⟨47, by decide⟩ _ _) (sem_xrecv ⟨47, by decide⟩ _ _)) ?_
  exact ret_apply c (BI.Entails.refl _)

set_option maxRecDepth 65536 in
theorem part_104 (m : (ℓ : Loc nD τ sig) → Buf (Elt F) ℓ) (K : Dev nD × Fin 323 → ℕ) (c : Dev nD) (v2 : BitVec 32) (v5 : BitVec 32) (v6 : BitVec 32) (v8 : BitVec 32) :
    S2 m K c 47 5 ⊢ wp frame (wpE (defs₀ (F := F)) 𝒱₀ (c : Thread nD τ) none) Set.univ
      (k0_part104 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = ⟨(yVal m c ⟨48, by decide⟩), (shapeCast S1x64x1024 (bVal m c ⟨48, by decide⟩) shapeCasts_S64x1024_S1x64x1024)⟩⌝ ∗ S2 m K c 48 3)) := by
  rw [k0_part104_eq_skeleton]; unfold k0_part104_skel
  simp only [Prog.lift, Prog.bind_op, Prog.bind_ret, Prog.pure_eq_ret]
  refine step_apply (step_outcopy m K c ⟨47, by decide⟩ _ (sem_cpout ⟨47, by decide⟩ _ _)) ?_
  refine (S2_next m K c ⟨47, by decide⟩).trans ?_
  refine step_apply (step_stage m K c ⟨48, by decide⟩ ⟨49, by decide⟩ rfl ⟨1, by decide⟩ (by decide) _ (sem_cpin ⟨1, by decide⟩ _ _)) ?_
  refine step_apply (step_yrecv_wait m K c ⟨48, by decide⟩ _ (sem_yrecv ⟨48, by decide⟩ _ _)) ?_
  refine step_apply (step_stage_wait m K c ⟨48, by decide⟩ ⟨0, by decide⟩ (by decide) _ (sem_cpin ⟨0, by decide⟩ _ _)) ?_
  refine step_apply (step_load_recv m K c ⟨48, by decide⟩) ?_
  refine step_apply (step_load_stage m K c ⟨48, by decide⟩ ⟨0, by decide⟩ (by decide)) ?_
  exact ret_fact c rfl

set_option maxRecDepth 65536 in
theorem part_105 (m : (ℓ : Loc nD τ sig) → Buf (Elt F) ℓ) (K : Dev nD × Fin 323 → ℕ) (c : Dev nD) (v5 : BitVec 32) (v7 : BitVec 32) (v8 : BitVec 32) :
    S2 m K c 48 3 ⊢ wp frame (wpE (defs₀ (F := F)) 𝒱₀ (c : Thread nD τ) none) Set.univ
      (k0_part105 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨48, by decide⟩) (shapeCast S1x64x1024 (bVal m c ⟨48, by decide⟩) shapeCasts_S64x1024_S1x64x1024))
      (fun _ => S2 m K c 49 1) := by
  rw [k0_part105_eq_skeleton]; unfold k0_part105_skel
  simp only [Prog.lift, Prog.bind_op, Prog.bind_ret, Prog.pure_eq_ret]
  refine step_apply (step_load_recv m K c ⟨48, by decide⟩) ?_
  refine step_apply (step_store m K c ⟨48, by decide⟩ _ (pay_sVal m k0_pay54 (fun _ _ => rfl) c ⟨48, by decide⟩)) ?_
  refine step_apply (step_xsend m K c ⟨48, by decide⟩ _ (Fin.ext (k0_dev115_eq c)) _ _ (sem_xsend ⟨48, by decide⟩ _ _) (sem_xrecv ⟨48, by decide⟩ _ _)) ?_
  refine step_apply (step_outcopy m K c ⟨48, by decide⟩ _ (sem_cpout ⟨48, by decide⟩ _ _)) ?_
  refine (S2_next m K c ⟨48, by decide⟩).trans ?_
  refine step_apply (step_stage m K c ⟨49, by decide⟩ ⟨50, by decide⟩ rfl ⟨0, by decide⟩ (by decide) _ (sem_cpin ⟨0, by decide⟩ _ _)) ?_
  exact ret_apply c (BI.Entails.refl _)

set_option maxRecDepth 65536 in
theorem part_106 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2_i32_2570 : BitVec 32) :
    S2 m K c 49 1 ⊢ wp frame (wpE (defs₀ (F := F)) 𝒱₀ (c : Thread nD τ) none) Set.univ
      (k0_part106 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2_i32_2570)
      (fun _ => S2 m K c 49 4) := by
  rw [k0_part106_eq_skeleton]; unfold k0_part106_skel
  simp only [Prog.lift, Prog.bind_op, Prog.bind_ret, Prog.pure_eq_ret]
  refine step_apply (step_yrecv_wait m K c ⟨49, by decide⟩ _ (sem_yrecv ⟨49, by decide⟩ _ _)) ?_
  refine step_apply (step_stage_wait m K c ⟨49, by decide⟩ ⟨1, by decide⟩ (by decide) _ (sem_cpin ⟨1, by decide⟩ _ _)) ?_
  refine step_apply (step_load_recv m K c ⟨49, by decide⟩) ?_
  refine step_apply (step_load_stage m K c ⟨49, by decide⟩ ⟨1, by decide⟩ (by decide)) ?_
  refine step_apply (step_load_recv m K c ⟨49, by decide⟩) ?_
  refine step_apply (step_store m K c ⟨49, by decide⟩ _ (pay_sVal m k0_pay55 (fun _ _ => rfl) c ⟨49, by decide⟩)) ?_
  exact ret_apply c (BI.Entails.refl _)

set_option maxRecDepth 65536 in
theorem part_107 (m : (ℓ : Loc nD τ sig) → Buf (Elt F) ℓ) (K : Dev nD × Fin 323 → ℕ) (c : Dev nD) (v2 : BitVec 32) (v5 : BitVec 32) (v6 : BitVec 32) (v8 : BitVec 32) :
    S2 m K c 49 4 ⊢ wp frame (wpE (defs₀ (F := F)) 𝒱₀ (c : Thread nD τ) none) Set.univ
      (k0_part107 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 50 3) := by
  rw [k0_part107_eq_skeleton]; unfold k0_part107_skel
  simp only [Prog.lift, Prog.bind_op, Prog.bind_ret, Prog.pure_eq_ret]
  refine step_apply (step_xsend m K c ⟨49, by decide⟩ _ (Fin.ext (k0_dev116_eq c)) _ _ (sem_xsend ⟨49, by decide⟩ _ _) (sem_xrecv ⟨49, by decide⟩ _ _)) ?_
  refine step_apply (step_outcopy m K c ⟨49, by decide⟩ _ (sem_cpout ⟨49, by decide⟩ _ _)) ?_
  refine (S2_next m K c ⟨49, by decide⟩).trans ?_
  refine step_apply (step_stage m K c ⟨50, by decide⟩ ⟨51, by decide⟩ rfl ⟨1, by decide⟩ (by decide) _ (sem_cpin ⟨1, by decide⟩ _ _)) ?_
  refine step_apply (step_yrecv_wait m K c ⟨50, by decide⟩ _ (sem_yrecv ⟨50, by decide⟩ _ _)) ?_
  refine step_apply (step_stage_wait m K c ⟨50, by decide⟩ ⟨0, by decide⟩ (by decide) _ (sem_cpin ⟨0, by decide⟩ _ _)) ?_
  exact ret_apply c (BI.Entails.refl _)

set_option maxRecDepth 65536 in
theorem part_108 (m : (ℓ : Loc nD τ sig) → Buf (Elt F) ℓ) (K : Dev nD × Fin 323 → ℕ) (c : Dev nD) (v5 : BitVec 32) (v7 : BitVec 32) (v8 : BitVec 32) :
    S2 m K c 50 3 ⊢ wp frame (wpE (defs₀ (F := F)) 𝒱₀ (c : Thread nD τ) none) Set.univ
      (k0_part108 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 51 0) := by
  rw [k0_part108_eq_skeleton]; unfold k0_part108_skel
  simp only [Prog.lift, Prog.bind_op, Prog.bind_ret, Prog.pure_eq_ret]
  refine step_apply (step_load_recv m K c ⟨50, by decide⟩) ?_
  refine step_apply (step_load_stage m K c ⟨50, by decide⟩ ⟨0, by decide⟩ (by decide)) ?_
  refine step_apply (step_load_recv m K c ⟨50, by decide⟩) ?_
  refine step_apply (step_store m K c ⟨50, by decide⟩ _ (pay_sVal m k0_pay56 (fun _ _ => rfl) c ⟨50, by decide⟩)) ?_
  refine step_apply (step_xsend m K c ⟨50, by decide⟩ _ (Fin.ext (k0_dev117_eq c)) _ _ (sem_xsend ⟨50, by decide⟩ _ _) (sem_xrecv ⟨50, by decide⟩ _ _)) ?_
  refine step_apply (step_outcopy m K c ⟨50, by decide⟩ _ (sem_cpout ⟨50, by decide⟩ _ _)) ?_
  refine (S2_next m K c ⟨50, by decide⟩).trans ?_
  exact ret_apply c (BI.Entails.refl _)

set_option maxRecDepth 65536 in
theorem part_109 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 51 0 ⊢ wp frame (wpE (defs₀ (F := F)) 𝒱₀ (c : Thread nD τ) none) Set.univ
      (k0_part109 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 51 4) := by
  rw [k0_part109_eq_skeleton]; unfold k0_part109_skel
  simp only [Prog.lift, Prog.bind_op, Prog.bind_ret, Prog.pure_eq_ret]
  refine step_apply (step_stage m K c ⟨51, by decide⟩ ⟨52, by decide⟩ rfl ⟨0, by decide⟩ (by decide) _ (sem_cpin ⟨0, by decide⟩ _ _)) ?_
  refine step_apply (step_yrecv_wait m K c ⟨51, by decide⟩ _ (sem_yrecv ⟨51, by decide⟩ _ _)) ?_
  refine step_apply (step_stage_wait m K c ⟨51, by decide⟩ ⟨1, by decide⟩ (by decide) _ (sem_cpin ⟨1, by decide⟩ _ _)) ?_
  refine step_apply (step_load_recv m K c ⟨51, by decide⟩) ?_
  refine step_apply (step_load_stage m K c ⟨51, by decide⟩ ⟨1, by decide⟩ (by decide)) ?_
  refine step_apply (step_load_recv m K c ⟨51, by decide⟩) ?_
  refine step_apply (step_store m K c ⟨51, by decide⟩ _ (pay_sVal m k0_pay57 (fun _ _ => rfl) c ⟨51, by decide⟩)) ?_
  exact ret_apply c (BI.Entails.refl _)

set_option maxRecDepth 65536 in
theorem part_110 (m : (ℓ : Loc nD τ sig) → Buf (Elt F) ℓ) (K : Dev nD × Fin 323 → ℕ) (c : Dev nD) (v2 : BitVec 32) (v5 : BitVec 32) (v6 : BitVec 32) (v8 : BitVec 32) :
    S2 m K c 51 4 ⊢ wp frame (wpE (defs₀ (F := F)) 𝒱₀ (c : Thread nD τ) none) Set.univ
      (k0_part110 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 52 2) := by
  rw [k0_part110_eq_skeleton]; unfold k0_part110_skel
  simp only [Prog.lift, Prog.bind_op, Prog.bind_ret, Prog.pure_eq_ret]
  refine step_apply (step_xsend m K c ⟨51, by decide⟩ _ (Fin.ext (k0_dev118_eq c)) _ _ (sem_xsend ⟨51, by decide⟩ _ _) (sem_xrecv ⟨51, by decide⟩ _ _)) ?_
  refine step_apply (step_outcopy m K c ⟨51, by decide⟩ _ (sem_cpout ⟨51, by decide⟩ _ _)) ?_
  refine (S2_next m K c ⟨51, by decide⟩).trans ?_
  refine step_apply (step_stage m K c ⟨52, by decide⟩ ⟨53, by decide⟩ rfl ⟨1, by decide⟩ (by decide) _ (sem_cpin ⟨1, by decide⟩ _ _)) ?_
  refine step_apply (step_yrecv_wait m K c ⟨52, by decide⟩ _ (sem_yrecv ⟨52, by decide⟩ _ _)) ?_
  exact ret_apply c (BI.Entails.refl _)

set_option maxRecDepth 65536 in
theorem part_111 (m : (ℓ : Loc nD τ sig) → Buf (Elt F) ℓ) (K : Dev nD × Fin 323 → ℕ) (c : Dev nD) (v5 : BitVec 32) (v7 : BitVec 32) (v8 : BitVec 32) :
    S2 m K c 52 2 ⊢ wp frame (wpE (defs₀ (F := F)) 𝒱₀ (c : Thread nD τ) none) Set.univ
      (k0_part111 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 53 0) := by
  rw [k0_part111_eq_skeleton]; unfold k0_part111_skel
  simp only [Prog.lift, Prog.bind_op, Prog.bind_ret, Prog.pure_eq_ret]
  refine step_apply (step_stage_wait m K c ⟨52, by decide⟩ ⟨0, by decide⟩ (by decide) _ (sem_cpin ⟨0, by decide⟩ _ _)) ?_
  refine step_apply (step_load_recv m K c ⟨52, by decide⟩) ?_
  refine step_apply (step_load_stage m K c ⟨52, by decide⟩ ⟨0, by decide⟩ (by decide)) ?_
  refine step_apply (step_load_recv m K c ⟨52, by decide⟩) ?_
  refine step_apply (step_store m K c ⟨52, by decide⟩ _ (pay_sVal m k0_pay58 (fun _ _ => rfl) c ⟨52, by decide⟩)) ?_
  refine step_apply (step_xsend m K c ⟨52, by decide⟩ _ (Fin.ext (k0_dev119_eq c)) _ _ (sem_xsend ⟨52, by decide⟩ _ _) (sem_xrecv ⟨52, by decide⟩ _ _)) ?_
  refine step_apply (step_outcopy m K c ⟨52, by decide⟩ _ (sem_cpout ⟨52, by decide⟩ _ _)) ?_
  refine (S2_next m K c ⟨52, by decide⟩).trans ?_
  exact ret_apply c (BI.Entails.refl _)

set_option maxRecDepth 65536 in
theorem part_112 (m : (ℓ : Loc nD τ sig) → Buf (Elt F) ℓ) (K : Dev nD × Fin 323 → ℕ) (c : Dev nD) (v2 : BitVec 32) (v6 : BitVec 32) (v7 : BitVec 32) (v8 : BitVec 32) :
    S2 m K c 53 0 ⊢ wp frame (wpE (defs₀ (F := F)) 𝒱₀ (c : Thread nD τ) none) Set.univ
      (k0_part112 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v7 v8)
      (fun _ => S2 m K c 53 4) := by
  rw [k0_part112_eq_skeleton]; unfold k0_part112_skel
  simp only [Prog.lift, Prog.bind_op, Prog.bind_ret, Prog.pure_eq_ret]
  refine step_apply (step_stage m K c ⟨53, by decide⟩ ⟨54, by decide⟩ rfl ⟨0, by decide⟩ (by decide) _ (sem_cpin ⟨0, by decide⟩ _ _)) ?_
  refine step_apply (step_yrecv_wait m K c ⟨53, by decide⟩ _ (sem_yrecv ⟨53, by decide⟩ _ _)) ?_
  refine step_apply (step_stage_wait m K c ⟨53, by decide⟩ ⟨1, by decide⟩ (by decide) _ (sem_cpin ⟨1, by decide⟩ _ _)) ?_
  refine step_apply (step_load_recv m K c ⟨53, by decide⟩) ?_
  refine step_apply (step_load_stage m K c ⟨53, by decide⟩ ⟨1, by decide⟩ (by decide)) ?_
  refine step_apply (step_load_recv m K c ⟨53, by decide⟩) ?_
  refine step_apply (step_store m K c ⟨53, by decide⟩ _ (pay_sVal m k0_pay59 (fun _ _ => rfl) c ⟨53, by decide⟩)) ?_
  exact ret_apply c (BI.Entails.refl _)

/-- info: 'Cert.KernelIdeal.RS.part_112' depends on axioms: [propext, Classical.choice, Quot.sound] -/
#guard_msgs in #print axioms part_112

end Cert.KernelIdeal.RS

end
-- ==== Proof.RsKernelIdeal.Steps3.lean ====
/-
  The last loop: for each chunk, the four waits that close its copies. Each wait is for the whole of a one-duty round
  whose credit the device has held since it issued the copy; nothing is owed any more, so each may be waited for; each
  hands back what its copy's landing promised: the result rows holding the sums and half of the summed rows; the block
  sent to the column peer; the other half of the summed rows; the row peer's sums in the result.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Levels
import proofs.«900313_g7700000000000314_dist_rs_v7x_xy2x2_y_m8192_n1024_f32_1_alg».proof.Proof.RsKernelIdeal.Views
import Idealize.ShloMosaic.Lib.Rounds
import Idealize.ShloMosaic.Lib.Tactic

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_ysend duties_yrecv duties_xsend duties_xrecv duties_cpout duties_cpin
  amount_bar amount_dma duties_bar

/-! ## What every device knows, cell by cell -/

private instance rec_persistent (K : Dev nD × Fin 323 → ℕ) : Persistent (Rec m K) := by unfold Rec; infer_instance

/-- A copy cell of the pool, by its position. -/
private theorem kcell_dma (c : Dev nD) (n : ℕ) (h : n < 322) :
    kcell (c, (⟨n, Nat.lt_succ_of_lt h⟩ : Fin 323)) = ((c : Thread nD τ), SemLoc.dma ⟨n, h⟩) := by
  show ((c : Thread nD τ), (if h' : n < 322 then SemLoc.dma ⟨n, h'⟩ else SemLoc.reg barS)) = _
  rw [dif_pos h]

private theorem inv_at (K : Dev nD × Fin 323 → ℕ) (cj : Dev nD × Fin 323) :
    (bigSep Finset.univ fun cj : Dev nD × Fin 323 => (cellInv ER (sched m) (K cj) (kcell cj) : sProp 𝕄)) ⊢ cellInv ER (sched m) (K cj) (kcell cj) :=
  bigSep_elim (Finset.mem_univ cj)

/-- The invariant of a copy cell of the pool. -/
private theorem inv_dma (K : Dev nD × Fin 323 → ℕ) (c : Dev nD) (n : ℕ) (h : n < 322) :
    Rec m K ⊢ cellInv ER (sched m) (K (c, ⟨n, Nat.lt_succ_of_lt h⟩)) ((c : Thread nD τ), SemLoc.dma ⟨n, h⟩) := by
  unfold Rec
  iintro ⟨H, -, -⟩
  rw [← kcell_dma c n h]
  iapply (inv_at m K (c, (⟨n, Nat.lt_succ_of_lt h⟩ : Fin 323))) $$ H

private theorem inv_q (K : Dev nD × Fin 323 → ℕ) (c : Dev nD) (q : DmaSem sig) :
    Rec m K ⊢ cellInv ER (sched m) (K (c, ⟨q.val, Nat.lt_succ_of_lt q.isLt⟩)) ((c : Thread nD τ), SemLoc.dma q) :=
  inv_dma m K c q.val q.isLt

/-- The levels. -/
private theorem lev_rec (K : Dev nD × Fin 323 → ℕ) : Rec m K ⊢ (levAts L lv : sProp 𝕄) := by
  unfold Rec
  iintro ⟨-, -, H⟩
  iexact H

/-! ## The rounds' tables at the four cells, spelt open -/

private theorem expect_cpout (c : Dev nD) (r : Fin 64) : (sched (F := F) m).expect (cpoutC c r) 0 = N :=
  expect_of_single m c (cpoutQ r) 0 (duties_cpout m c r)
private theorem expect_ysend (c : Dev nD) (r : Fin 64) : (sched (F := F) m).expect (ysendC c r) 0 = N :=
  expect_of_single m c (ysendQ r) 0 (duties_ysend m c r)
private theorem expect_xsend (c : Dev nD) (r : Fin 64) : (sched (F := F) m).expect (xsendC c r) 0 = N :=
  expect_of_single m c (xsendQ r) 0 (duties_xsend m c r)
private theorem expect_xrecv (c : Dev nD) (r : Fin 64) : (sched (F := F) m).expect (xrecvC c r) 0 = N :=
  expect_of_single m c (xrecvQ r) 0 (duties_xrecv m c r)

private theorem payload_cpout_open (c : Dev nD) (r : Fin 64) (R : ℕ) (d : Bool) :
    (sched (F := F) m).payload (cpoutC c r) R d
      = iprop((∃ f, ⌜(oO c r).view.read (Elt F) f = sVal m c r⌝ ∗ ((oO c r).view.loc (c : Thread nD τ) ↦[(oO c r).view.set]{fullShare} f))
          ∗ (∃ f, ⌜(rS r).view.read (Elt F) f = sVal m c r⌝ ∗ ((rS r).view.loc (c : Thread nD τ) ↦[(rS r).view.set]{fullShare.right} f))) := by
  rw [payload_cpout]; unfold cpoutPay owns; rfl
private theorem payload_ysend_open (c : Dev nD) (r : Fin 64) (R : ℕ) (d : Bool) :
    (sched (F := F) m).payload (ysendC c r) R d = ((xA c r).view.loc (c : Thread nD τ) ↦[(xA c r).view.set]{fullShare} X m c) :=
  payload_ysend m c r R d
private theorem payload_xsend_open (c : Dev nD) (r : Fin 64) (R : ℕ) (d : Bool) :
    (sched (F := F) m).payload (xsendC c r) R d
      = iprop(∃ f, ⌜(rS r).view.read (Elt F) f = sVal m c r⌝ ∗ ((rS r).view.loc (c : Thread nD τ) ↦[(rS r).view.set]{fullShare.left} f)) := by
  rw [payload_xsend]; unfold xsendPay owns; rfl
private theorem payload_xrecv_open (c : Dev nD) (r : Fin 64) (R : ℕ) (d : Bool) :
    (sched (F := F) m).payload (xrecvC c r) R d
      = iprop(∃ f, ⌜(oO (xp c) r).view.read (Elt F) f = sVal m (xp c) r⌝ ∗ ((oO (xp c) r).view.loc (c : Thread nD τ) ↦[(oO (xp c) r).view.set]{fullShare} f)) := by
  rw [payload_xrecv]; unfold xrecvPay owns; rfl
attribute [local sl_rounds] expect_cpout expect_ysend expect_xsend expect_xrecv
  payload_cpout_open payload_ysend_open payload_xsend_open payload_xrecv_open

/-! ## The four waits of chunk `r` -/

/-- The wait for the copy of chunk `r`'s sums to the result: the result rows holding the sums, and half of the summed rows. -/
theorem step_out_wait (K : Dev nD × Fin 323 → ℕ) (c : Dev nD) (r : Fin 64) (q : DmaSem sig) (hq : q = cpoutQ r)
    {h1 : (rS r).view.WordExact} {h2 : (oO c r).view.WordExact}
    {α : Type} {Q : α → sProp 𝕄} {k : PUnit → Prog (TpuEff nD τ sig (Elt F) Λ₀ .tc) α} :
    S3 m K c r 0 ⊢ iprop((S3 m K c r 1 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (rS r) (oO c r) h1 h2) k) Q) := by
  subst hq
  unfold S3 rest3
  simp only [cur3]
  unfold fPre y1post mPost w1 owesE cpoutPay owns
  iintro ⟨#HRec, ⟨Harg, Hs0, Hs1, Hcp, ⟨%W, HO⟩⟩, Hdone, Htodo, ⟨HatO, HatY, HatX, HatR, HcR⟩, HcY, ⟨HcX, HcO, HB, HatYr⟩⟩ Hk
  ihave HI := (inv_q m K c (cpoutQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [HatO HatO_pay1 HatO_pay2]
  · isplitl [HatO]; · iexact HatO
    isplitl [HatO_pay1]
    · iexists _; iexact HatO_pay1
    · iexists _; iexact HatO_pay2
  isplitl [HatY HatX HatR HcR]
  · isplitl [HatY]; · iexact HatY
    isplitl [HatX]; · iexact HatX
    isplitl [HatR]; · iexact HatR
    iexact HcR
  isplitl [HcY]; · iexact HcY
  isplitl [HcX]; · iexact HcX
  isplitl [HB]; · iexact HB
  iexact HatYr

/-- The wait for the send of chunk `r` to the column peer: the block sent comes back. -/
theorem step_ysend_wait (K : Dev nD × Fin 323 → ℕ) (c : Dev nD) (r : Fin 64) (q : DmaSem sig) (hq : q = ysendQ r)
    {h1 : (rS r).view.WordExact} {h2 : (xA c r).view.WordExact}
    {α : Type} {Q : α → sProp 𝕄} {k : PUnit → Prog (TpuEff nD τ sig (Elt F) Λ₀ .tc) α} :
    S3 m K c r 1 ⊢ iprop((S3 m K c r 2 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (rS r) (xA c r) h1 h2) k) Q) := by
  subst hq
  unfold S3 rest3
  simp only [cur3]
  unfold y1post w2 owesE ysendPay
  iintro ⟨#HRec, ⟨Harg, Hs0, Hs1, Hcp, ⟨%W, HO⟩⟩, Hdone, Htodo, Hw1, ⟨HatY, HatX, HatR, HcR⟩, HcY, Hm⟩ Hk
  ihave HI := (inv_q m K c (ysendQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [Hw1]; · iexact Hw1
  isplitl [HatY HatY_pay1]
  · isplitl [HatY]; · iexact HatY
    iexact HatY_pay1
  isplitl [HatX HatR HcR]
  · isplitl [HatX]; · iexact HatX
    isplitl [HatR]; · iexact HatR
    iexact HcR
  iexact Hm

/-- The wait for the send of chunk `r`'s sums to the row peer: the other half of the summed rows comes back. -/
theorem step_xsend_wait (K : Dev nD × Fin 323 → ℕ) (c : Dev nD) (r : Fin 64) (q : DmaSem sig) (hq : q = xsendQ r)
    {h1 : (oO c r).view.WordExact} {h2 : (rS r).view.WordExact}
    {α : Type} {Q : α → sProp 𝕄} {k : PUnit → Prog (TpuEff nD τ sig (Elt F) Λ₀ .tc) α} :
    S3 m K c r 2 ⊢ iprop((S3 m K c r 3 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (oO c r) (rS r) h1 h2) k) Q) := by
  subst hq
  unfold S3 rest3
  simp only [cur3]
  unfold w3 owesE xsendPay owns
  iintro ⟨#HRec, ⟨Harg, Hs0, Hs1, Hcp, ⟨%W, HO⟩⟩, Hdone, Htodo, Hw1, Hw2, ⟨HatX, HatR, HcR⟩, ⟨HcX, HB, HatYr⟩⟩ Hk
  ihave HI := (inv_q m K c (xsendQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [Hw1]; · iexact Hw1
  isplitl [Hw2]; · iexact Hw2
  isplitl [HatX HatX_pay1]
  · isplitl [HatX]; · iexact HatX
    iexists _; iexact HatX_pay1
  isplitl [HatR HcR]
  · isplitl [HatR]; · iexact HatR
    iexact HcR
  isplitl [HB]; · iexact HB
  iexact HatYr

/-- The wait for the row peer's sums of chunk `r`: the result rows of the row peer's chunk, holding its sums. -/
theorem step_xrecv_wait (K : Dev nD × Fin 323 → ℕ) (c : Dev nD) (r : Fin 64) (q : DmaSem sig) (hq : q = xrecvQ r)
    {h1 : (rS r).view.WordExact} {h2 : (oP c r).view.WordExact}
    {α : Type} {Q : α → sProp 𝕄} {k : PUnit → Prog (TpuEff nD τ sig (Elt F) Λ₀ .tc) α} :
    S3 m K c r 3 ⊢ iprop((S3 m K c r 4 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (rS r) (oP c r) h1 h2) k) Q) := by
  subst hq
  unfold S3 rest3
  simp only [cur3]
  unfold fPost w4 owesE xrecvPay owns
  iintro ⟨#HRec, ⟨Harg, Hs0, Hs1, Hcp, ⟨%W, HO⟩⟩, Hdone, Htodo, Hw1, Hw2, Hw3, ⟨HatR, HcR⟩, ⟨HB, HatYr⟩⟩ Hk
  ihave HI := (inv_q m K c (xrecvQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [Hw1]; · iexact Hw1
  isplitl [Hw2]; · iexact Hw2
  isplitl [Hw3]; · iexact Hw3
  isplitl [HatR HatR_pay1]
  · isplitl [HatR]; · iexact HatR
    iexists _; iexact HatR_pay1
  isplitl [HB]; · iexact HB
  iexact HatYr

/-! ## Between the iterations -/

/-- After chunk `r`'s four waits the next chunk's needs are taken out of those still to come. -/
theorem S3_next (K : Dev nD × Fin 323 → ℕ) (c : Dev nD) (r : Fin 64) (h : r.val + 1 < 64) :
    S3 m K c r 4 ⊢ S3 m K c ⟨r.val + 1, h⟩ 0 := by
  unfold S3
  simp only [cur3]
  iintro ⟨#HR, Hrest, Hdone, Htodo, Hcur⟩
  ihave Ht := (Entails.of_eq (bigSep_fromK_peel (fun x => iprop(fPre (F := F) c x ∗ y1post (F := F) c x ∗ mPost m c x)) ⟨r.val + 1, h⟩)) $$ Htodo
  icases Ht with ⟨Hnext, Htodo⟩
  isplitr; · iexact HR
  isplitl [Hrest]; · iexact Hrest
  isplitl [Hdone Hcur]
  · iapply (Entails.of_eq (bigSep_uptoK_push (fun x => fPost m c x) r).symm)
    isplitl [Hcur]; · iexact Hcur
    iexact Hdone
  isplitl [Htodo]; · iexact Htodo
  iexact Hnext

/-- After the last chunk's waits every chunk is done. -/
theorem S3_end (K : Dev nD × Fin 323 → ℕ) (c : Dev nD) : S3 m K c 63 4 ⊢ S4 m K c := by
  unfold S3 S4
  simp only [cur3]
  iintro ⟨#HR, Hrest, Hdone, -, Hcur⟩
  isplitr; · iexact HR
  isplitl [Hrest]; · iexact Hrest
  iapply (Entails.of_eq ((congrArg (fun s => bigSep s fun x => fPost m c x) uptoK_64.symm).trans
    (bigSep_uptoK_push (fun x => fPost m c x) (63 : Fin 64))).symm)
  isplitl [Hcur]; · iexact Hcur
  iexact Hdone

/-- From the middle loop's end to the last loop's start: the staging slots are free, nothing is owed, and every chunk's
    three groups of needs are zipped chunk by chunk. -/
theorem S2_S3 (K : Dev nD × Fin 323 → ℕ) (c : Dev nD) : S2 m K c 64 0 ⊢ S3 m K c 0 0 := by
  have ezip : bigSep Finset.univ (fun x : Fin 64 => iprop(fPre (F := F) c x ∗ y1post (F := F) c x ∗ mPost m c x))
      = iprop((bigSep Finset.univ fun x : Fin 64 => fPre (F := F) c x) ∗ (bigSep Finset.univ fun x : Fin 64 => y1post (F := F) c x)
          ∗ (bigSep Finset.univ fun x : Fin 64 => mPost m c x)) :=
    (bigSep_sep Finset.univ (fun x => fPre (F := F) c x) (fun x => iprop(y1post (F := F) c x ∗ mPost m c x))).trans
      (congrArg (fun P => iprop((bigSep Finset.univ fun x => fPre (F := F) c x) ∗ P))
        (bigSep_sep Finset.univ (fun x => y1post (F := F) c x) (fun x => mPost m c x)))
  have epeel : bigSep Finset.univ (fun x : Fin 64 => iprop(fPre (F := F) c x ∗ y1post (F := F) c x ∗ mPost m c x))
      = iprop((fPre (F := F) c 0 ∗ y1post (F := F) c 0 ∗ mPost m c 0)
          ∗ bigSep (fromK ((0 : Fin 64).val + 1)) (fun x : Fin 64 => iprop(fPre (F := F) c x ∗ y1post (F := F) c x ∗ mPost m c x))) :=
    (congrArg (fun s => bigSep s fun x : Fin 64 => iprop(fPre (F := F) c x ∗ y1post (F := F) c x ∗ mPost m c x)) fromK_zero.symm).trans
      (bigSep_fromK_peel (fun x => iprop(fPre (F := F) c x ∗ y1post (F := F) c x ∗ mPost m c x)) (0 : Fin 64))
  have eup : bigSep (uptoK (0 : Fin 64).val) (fun x => fPost m c x) = iprop(emp) :=
    (congrArg (fun s => bigSep s fun x => fPost m c x) uptoK_zero).trans bigSep_empty
  unfold S2 S3 rest3
  simp only [cur2, cur3]
  unfold mPreO curSt stPreO
  rw [dif_neg (show ¬ (64 < 64) by decide), dif_neg (show ¬ (64 < 64) by decide), dif_neg (show ¬ (64 + 1 < 64) by decide), Ox_64,
    show slotOf 64 = (0 : Fin 2) from rfl, show slotOf (64 + 1) = (1 : Fin 2) from rfl, eup]
  iintro ⟨#HR, Harg, Hy, Hf, Hm, -, -, -, Hs0, -, Hs1, Hcp, HO⟩
  ihave Hm' := (Entails.of_eq (congrArg (fun s => bigSep s fun x => mPost m c x) uptoK_64)) $$ Hm
  ihave Hall := (Entails.of_eq ezip.symm) $$ [Hf Hy Hm']
  · isplitl [Hf]; · iexact Hf
    isplitl [Hy]; · iexact Hy
    iexact Hm'
  ihave Hp := (Entails.of_eq epeel) $$ Hall
  icases Hp with ⟨Hhead, Htail⟩
  isplitr; · iexact HR
  isplitl [Harg Hs0 Hs1 Hcp HO]
  · isplitl [Harg]; · iexact Harg
    isplitl [Hs0]; · iexact Hs0
    isplitl [Hs1]; · iexact Hs1
    isplitl [Hcp]; · iexact Hcp
    iexact HO
  isplitr; · iempintro
  isplitl [Htail]; · iexact Htail
  iexact Hhead

/-- info: 'Cert.KernelIdeal.RS.step_out_wait' depends on axioms: [propext, Classical.choice, Quot.sound] -/
#guard_msgs in #print axioms step_out_wait
/-- info: 'Cert.KernelIdeal.RS.step_ysend_wait' depends on axioms: [propext, Classical.choice, Quot.sound] -/
#guard_msgs in #print axioms step_ysend_wait
/-- info: 'Cert.KernelIdeal.RS.step_xsend_wait' depends on axioms: [propext, Classical.choice, Quot.sound] -/
#guard_msgs in #print axioms step_xsend_wait
/-- info: 'Cert.KernelIdeal.RS.step_xrecv_wait' depends on axioms: [propext, Classical.choice, Quot.sound] -/
#guard_msgs in #print axioms step_xrecv_wait
/-- info: 'Cert.KernelIdeal.RS.S2_S3' depends on axioms: [propext, Classical.choice, Quot.sound] -/
#guard_msgs in #print axioms S2_S3
/-- info: 'Cert.KernelIdeal.RS.S3_next' depends on axioms: [propext, Classical.choice, Quot.sound] -/
#guard_msgs in #print axioms S3_next
/-- info: 'Cert.KernelIdeal.RS.S3_end' depends on axioms: [propext, Classical.choice, Quot.sound] -/
#guard_msgs in #print axioms S3_end

end Cert.KernelIdeal.RS
end
-- ==== Proof.RsKernelIdeal.Body08.lean ====
/-
  The body of the reduce-scatter, part by part: the parts 113 to 128 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps2
import proofs.«900313_g7700000000000314_dist_rs_v7x_xy2x2_y_m8192_n1024_f32_1_alg».proof.Proof.RsKernelIdeal.Steps2n
import proofs.«900313_g7700000000000314_dist_rs_v7x_xy2x2_y_m8192_n1024_f32_1_alg».proof.Proof.RsKernelIdeal.Steps2v
import proofs.«900313_g7700000000000314_dist_rs_v7x_xy2x2_y_m8192_n1024_f32_1_alg».proof.Proof.RsKernelIdeal.Steps3
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_113 (m : (ℓ : Loc nD τ sig) → Buf (Elt F) ℓ) (K : Dev nD × Fin 323 → ℕ) (c : Dev nD) (v2 : BitVec 32) (v5 : BitVec 32) (v6 : BitVec 32) (v8 : BitVec 32) (v3393 : BitVec 32) (c0_i32_2750 : BitVec 32) :
    S2 m K c 53 4 ⊢ wp frame (wpE (defs₀ (F := F)) 𝒱₀ (c : Thread nD τ) none) Set.univ
      (k0_part113 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v3393 c0_i32_2750)
      (fun _ => S2 m K c 54 2) := by
  rw [k0_part113_eq_skeleton]; unfold k0_part113_skel
  simp only [Prog.lift, Prog.bind_op, Prog.bind_ret, Prog.pure_eq_ret]
  refine step_apply (step_xsend m K c ⟨53, by decide⟩ _ (Fin.ext (k0_dev120_eq c)) _ _ (sem_xsend ⟨53, by decide⟩ _ _) (sem_xrecv ⟨53, by decide⟩ _ _)) ?_
  refine step_apply (step_outcopy m K c ⟨53, by decide⟩ _ (sem_cpout ⟨53, by decide⟩ _ _)) ?_
  refine (S2_next m K c ⟨53, by decide⟩).trans ?_
  refine step_apply (step_stage m K c ⟨54, by decide⟩ ⟨55, by decide⟩ rfl ⟨1, by decide⟩ (by decide) _ (sem_cpin ⟨1, by decide⟩ _ _)) ?_
  refine step_apply (step_yrecv_wait m K c ⟨54, by decide⟩ _ (sem_yrecv ⟨54, by decide⟩ _ _)) ?_
  exact ret_apply c (BI.Entails.refl _)

set_option maxRecDepth 65536 in
theorem part_114 (m : (ℓ : Loc nD τ sig) → Buf (Elt F) ℓ) (K : Dev nD × Fin 323 → ℕ) (c : Dev nD) (v5 : BitVec 32) (v7 : BitVec 32) (v8 : BitVec 32) :
    S2 m K c 54 2 ⊢ wp frame (wpE (defs₀ (F := F)) 𝒱₀ (c : Thread nD τ) none) Set.univ
      (k0_part114 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 55 0) := by
  rw [k0_part114_eq_skeleton]; unfold k0_part114_skel
  simp only [Prog.lift, Prog.bind_op, Prog.bind_ret, Prog.pure_eq_ret]
  refine step_apply (step_stage_wait m K c ⟨54, by decide⟩ ⟨0, by decide⟩ (by decide) _ (sem_cpin ⟨0, by decide⟩ _ _)) ?_
  refine step_apply (step_load_recv m K c ⟨54, by decide⟩) ?_
  refine step_apply (step_load_stage m K c ⟨54, by decide⟩ ⟨0, by decide⟩ (by decide)) ?_
  refine step_apply (step_load_recv m K c ⟨54, by decide⟩) ?_
  refine step_apply (step_store m K c ⟨54, by decide⟩ _ (pay_sVal m k0_pay60 (fun _ _ => rfl) c ⟨54, by decide⟩)) ?_
  refine step_apply (step_xsend m K c ⟨54, by decide⟩ _ (Fin.ext (k0_dev121_eq c)) _ _ (sem_xsend ⟨54, by decide⟩ _ _) (sem_xrecv ⟨54, by decide⟩ _ _)) ?_
  refine step_apply (step_outcopy m K c ⟨54, by decide⟩ _ (sem_cpout ⟨54, by decide⟩ _ _)) ?_
  refine (S2_next m K c ⟨54, by decide⟩).trans ?_
  exact ret_apply c (BI.Entails.refl _)

set_option maxRecDepth 65536 in
theorem part_115 (m : (ℓ : Loc nD τ sig) → Buf (Elt F) ℓ) (K : Dev nD × Fin 323 → ℕ) (c : Dev nD) (v2 : BitVec 32) (v5 : BitVec 32) (v6 : BitVec 32) :
    S2 m K c 55 0 ⊢ wp frame (wpE (defs₀ (F := F)) 𝒱₀ (c : Thread nD τ) none) Set.univ
      (k0_part115 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6)
      (fun _ => S2 m K c 55 4) := by
  rw [k0_part115_eq_skeleton]; unfold k0_part115_skel
  simp only [Prog.lift, Prog.bind_op, Prog.bind_ret, Prog.pure_eq_ret]
  refine step_apply (step_stage m K c ⟨55, by decide⟩ ⟨56, by decide⟩ rfl ⟨0, by decide⟩ (by decide) _ (sem_cpin ⟨0, by decide⟩ _ _)) ?_
  refine step_apply (step_yrecv_wait m K c ⟨55, by decide⟩ _ (sem_yrecv ⟨55, by decide⟩ _ _)) ?_
  refine step_apply (step_stage_wait m K c ⟨55, by decide⟩ ⟨1, by decide⟩ (by decide) _ (sem_cpin ⟨1, by decide⟩ _ _)) ?_
  refine step_apply (step_load_recv m K c ⟨55, by decide⟩) ?_
  refine step_apply (step_load_stage m K c ⟨55, by decide⟩ ⟨1, by decide⟩ (by decide)) ?_
  refine step_apply (step_load_recv m K c ⟨55, by decide⟩) ?_
  refine step_apply (step_store m K c ⟨55, by decide⟩ _ (pay_sVal m k0_pay61 (fun _ _ => rfl) c ⟨55, by decide⟩)) ?_
  exact ret_apply c (BI.Entails.refl _)

set_option maxRecDepth 65536 in
theorem part_116 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c3520_i32_2826 : BitVec 32) :
    S2 m K c 55 4 ⊢ wp frame (wpE (defs₀ (F := F)) 𝒱₀ (c : Thread nD τ) none) Set.univ
      (k0_part116 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c3520_i32_2826)
      (fun _ => S2 m K c 56 1) := by
  rw [k0_part116_eq_skeleton]; unfold k0_part116_skel
  simp only [Prog.lift, Prog.bind_op, Prog.bind_ret, Prog.pure_eq_ret]
  refine step_apply (step_xsend m K c ⟨55, by decide⟩ _ (Fin.ext (k0_dev122_eq c)) _ _ (sem_xsend ⟨55, by decide⟩ _ _) (sem_xrecv ⟨55, by decide⟩ _ _)) ?_
  refine step_apply (step_outcopy m K c ⟨55, by decide⟩ _ (sem_cpout ⟨55, by decide⟩ _ _)) ?_
  refine (S2_next m K c ⟨55, by decide⟩).trans ?_
  refine step_apply (step_stage m K c ⟨56, by decide⟩ ⟨57, by decide⟩ rfl ⟨1, by decide⟩ (by decide) _ (sem_cpin ⟨1, by decide⟩ _ _)) ?_
  exact ret_apply c (BI.Entails.refl _)

set_option maxRecDepth 65536 in
theorem part_117 (m : (ℓ : Loc nD τ sig) → Buf (Elt F) ℓ) (K : Dev nD × Fin 323 → ℕ) (c : Dev nD) (v5 : BitVec 32) (v7 : BitVec 32) (v8 : BitVec 32) :
    S2 m K c 56 1 ⊢ wp frame (wpE (defs₀ (F := F)) 𝒱₀ (c : Thread nD τ) none) Set.univ
      (k0_part117 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 56 5) := by
  rw [k0_part117_eq_skeleton]; unfold k0_part117_skel
  simp only [Prog.lift, Prog.bind_op, Prog.bind_ret, Prog.pure_eq_ret]
  refine step_apply (step_yrecv_wait m K c ⟨56, by decide⟩ _ (sem_yrecv ⟨56, by decide⟩ _ _)) ?_
  refine step_apply (step_stage_wait m K c ⟨56, by decide⟩ ⟨0, by decide⟩ (by decide) _ (sem_cpin ⟨0, by decide⟩ _ _)) ?_
  refine step_apply (step_load_recv m K c ⟨56, by decide⟩) ?_
  refine step_apply (step_load_stage m K c ⟨56, by decide⟩ ⟨0, by decide⟩ (by decide)) ?_
  refine step_apply (step_load_recv m K c ⟨56, by decide⟩) ?_
  refine step_apply (step_store m K c ⟨56, by decide⟩ _ (pay_sVal m k0_pay62 (fun _ _ => rfl) c ⟨56, by decide⟩)) ?_
  refine step_apply (step_xsend m K c ⟨56, by decide⟩ _ (Fin.ext (k0_dev123_eq c)) _ _ (sem_xsend ⟨56, by decide⟩ _ _) (sem_xrecv ⟨56, by decide⟩ _ _)) ?_
  exact ret_apply c (BI.Entails.refl _)

set_option maxRecDepth 65536 in
theorem part_118 (m : (ℓ : Loc nD τ sig) → Buf (Elt F) ℓ) (K : Dev nD × Fin 323 → ℕ) (c : Dev nD) (v2 : BitVec 32) (v5 : BitVec 32) (v6 : BitVec 32) (v8 : BitVec 32) :
    S2 m K c 56 5 ⊢ wp frame (wpE (defs₀ (F := F)) 𝒱₀ (c : Thread nD τ) none) Set.univ
      (k0_part118 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay63 (yVal m c ⟨57, by decide⟩) (shapeCast S1x64x1024 (bVal m c ⟨57, by decide⟩) shapeCasts_S64x1024_S1x64x1024))⌝ ∗ S2 m K c 57 3)) := by
  rw [k0_part118_eq_skeleton]; unfold k0_part118_skel
  simp only [Prog.lift, Prog.bind_op, Prog.bind_ret, Prog.pure_eq_ret]
  refine step_apply (step_outcopy m K c ⟨56, by decide⟩ _ (sem_cpout ⟨56, by decide⟩ _ _)) ?_
  refine (S2_next m K c ⟨56, by decide⟩).trans ?_
  refine step_apply (step_stage m K c ⟨57, by decide⟩ ⟨58, by decide⟩ rfl ⟨0, by decide⟩ (by decide) _ (sem_cpin ⟨0, by decide⟩ _ _)) ?_
  refine step_apply (step_yrecv_wait m K c ⟨57, by decide⟩ _ (sem_yrecv ⟨57, by decide⟩ _ _)) ?_
  refine step_apply (step_stage_wait m K c ⟨57, by decide⟩ ⟨1, by decide⟩ (by decide) _ (sem_cpin ⟨1, by decide⟩ _ _)) ?_
  refine step_apply (step_load_recv m K c ⟨57, by decide⟩) ?_
  refine step_apply (step_load_stage m K c ⟨57, by decide⟩ ⟨1, by decide⟩ (by decide)) ?_
  exact ret_fact c rfl

set_option maxRecDepth 65536 in
theorem part_119 (m : (ℓ : Loc nD τ sig) → Buf (Elt F) ℓ) (K : Dev nD × Fin 323 → ℕ) (c : Dev nD) (v2 : BitVec 32) (v5 : BitVec 32) (v7 : BitVec 32) (v8 : BitVec 32) :
    S2 m K c 57 3 ⊢ wp frame (wpE (defs₀ (F := F)) 𝒱₀ (c : Thread nD τ) none) Set.univ
      (k0_part119 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v7 v8 (k0_pay63 (yVal m c ⟨57, by decide⟩) (shapeCast S1x64x1024 (bVal m c ⟨57, by decide⟩) shapeCasts_S64x1024_S1x64x1024)))
      (fun _ => S2 m K c 58 1) := by
  rw [k0_part119_eq_skeleton]; unfold k0_part119_skel
  simp only [Prog.lift, Prog.bind_op, Prog.bind_ret, Prog.pure_eq_ret]
  refine step_apply (step_load_recv m K c ⟨57, by decide⟩) ?_
  refine step_apply (step_store m K c ⟨57, by decide⟩ _ (pay_sVal_cut m k0_pay64 k0_pay63 (fun _ => rfl) (fun _ _ => rfl) c ⟨57, by decide⟩)) ?_
  refine step_apply (step_xsend m K c ⟨57, by decide⟩ _ (Fin.ext (k0_dev124_eq c)) _ _ (sem_xsend ⟨57, by decide⟩ _ _) (sem_xrecv ⟨57, by decide⟩ _ _)) ?_
  refine step_apply (step_outcopy m K c ⟨57, by decide⟩ _ (sem_cpout ⟨57, by decide⟩ _ _)) ?_
  refine (S2_next m K c ⟨57, by decide⟩).trans ?_
  refine step_apply (step_stage m K c ⟨58, by decide⟩ ⟨59, by decide⟩ rfl ⟨1, by decide⟩ (by decide) _ (sem_cpin ⟨1, by decide⟩ _ _)) ?_
  exact ret_apply c (BI.Entails.refl _)

set_option maxRecDepth 65536 in
theorem part_120 (m : (ℓ : Loc nD τ sig) → Buf (Elt F) ℓ) (K : Dev nD × Fin 323 → ℕ) (c : Dev nD) (v5 : BitVec 32) (v6 : BitVec 32) (v7 : BitVec 32) (v8 : BitVec 32) (v3601 : BitVec 32) :
    S2 m K c 58 1 ⊢ wp frame (wpE (defs₀ (F := F)) 𝒱₀ (c : Thread nD τ) none) Set.univ
      (k0_part120 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v7 v8 v3601)
      (fun _ => S2 m K c 58 5) := by
  rw [k0_part120_eq_skeleton]; unfold k0_part120_skel
  simp only [Prog.lift, Prog.bind_op, Prog.bind_ret, Prog.pure_eq_ret]
  refine step_apply (step_yrecv_wait m K c ⟨58, by decide⟩ _ (sem_yrecv ⟨58, by decide⟩ _ _)) ?_
  refine step_apply (step_stage_wait m K c ⟨58, by decide⟩ ⟨0, by decide⟩ (by decide) _ (sem_cpin ⟨0, by decide⟩ _ _)) ?_
  refine step_apply (step_load_recv m K c ⟨58, by decide⟩) ?_
  refine step_apply (step_load_stage m K c ⟨58, by decide⟩ ⟨0, by decide⟩ (by decide)) ?_
  refine step_apply (step_load_recv m K c ⟨58, by decide⟩) ?_
  refine step_apply (step_store m K c ⟨58, by decide⟩ _ (pay_sVal m k0_pay65 (fun _ _ => rfl) c ⟨58, by decide⟩)) ?_
  refine step_apply (step_xsend m K c ⟨58, by decide⟩ _ (Fin.ext (k0_dev125_eq c)) _ _ (sem_xsend ⟨58, by decide⟩ _ _) (sem_xrecv ⟨58, by decide⟩ _ _)) ?_
  exact ret_apply c (BI.Entails.refl _)

set_option maxRecDepth 65536 in
theorem part_121 (m : (ℓ : Loc nD τ sig) → Buf (Elt F) ℓ) (K : Dev nD × Fin 323 → ℕ) (c : Dev nD) (v2 : BitVec 32) (v5 : BitVec 32) (v6 : BitVec 32) (v8 : BitVec 32) (c3712_i32_2955 : BitVec 32) :
    S2 m K c 58 5 ⊢ wp frame (wpE (defs₀ (F := F)) 𝒱₀ (c : Thread nD τ) none) Set.univ
      (k0_part121 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c3712_i32_2955)
      (fun ret => iprop(⌜ret = (yVal m c ⟨59, by decide⟩)⌝ ∗ S2 m K c 59 3)) := by
  rw [k0_part121_eq_skeleton]; unfold k0_part121_skel
  simp only [Prog.lift, Prog.bind_op, Prog.bind_ret, Prog.pure_eq_ret]
  refine step_apply (step_outcopy m K c ⟨58, by decide⟩ _ (sem_cpout ⟨58, by decide⟩ _ _)) ?_
  refine (S2_next m K c ⟨58, by decide⟩).trans ?_
  refine step_apply (step_stage m K c ⟨59, by decide⟩ ⟨60, by decide⟩ rfl ⟨0, by decide⟩ (by decide) _ (sem_cpin ⟨0, by decide⟩ _ _)) ?_
  refine step_apply (step_yrecv_wait m K c ⟨59, by decide⟩ _ (sem_yrecv ⟨59, by decide⟩ _ _)) ?_
  refine step_apply (step_stage_wait m K c ⟨59, by decide⟩ ⟨1, by decide⟩ (by decide) _ (sem_cpin ⟨1, by decide⟩ _ _)) ?_
  refine step_apply (step_load_recv m K c ⟨59, by decide⟩) ?_
  exact ret_fact c rfl

set_option maxRecDepth 65536 in
theorem part_122 (m : (ℓ : Loc nD τ sig) → Buf (Elt F) ℓ) (K : Dev nD × Fin 323 → ℕ) (c : Dev nD) (v5 : BitVec 32) (v7 : BitVec 32) (v8 : BitVec 32) :
    S2 m K c 59 3 ⊢ wp frame (wpE (defs₀ (F := F)) 𝒱₀ (c : Thread nD τ) none) Set.univ
      (k0_part122 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨59, by decide⟩))
      (fun _ => S2 m K c 60 1) := by
  rw [k0_part122_eq_skeleton]; unfold k0_part122_skel
  simp only [Prog.lift, Prog.bind_op, Prog.bind_ret, Prog.pure_eq_ret]
  refine step_apply (step_load_stage m K c ⟨59, by decide⟩ ⟨1, by decide⟩ (by decide)) ?_
  refine step_apply (step_load_recv m K c ⟨59, by decide⟩) ?_
  refine step_apply (step_store m K c ⟨59, by decide⟩ _ (pay_sVal m k0_pay66 (fun _ _ => rfl) c ⟨59, by decide⟩)) ?_
  refine step_apply (step_xsend m K c ⟨59, by decide⟩ _ (Fin.ext (k0_dev126_eq c)) _ _ (sem_xsend ⟨59, by decide⟩ _ _) (sem_xrecv ⟨59, by decide⟩ _ _)) ?_
  refine step_apply (step_outcopy m K c ⟨59, by decide⟩ _ (sem_cpout ⟨59, by decide⟩ _ _)) ?_
  refine (S2_next m K c ⟨59, by decide⟩).trans ?_
  refine step_apply (step_stage m K c ⟨60, by decide⟩ ⟨61, by decide⟩ rfl ⟨1, by decide⟩ (by decide) _ (sem_cpin ⟨1, by decide⟩ _ _)) ?_
  exact ret_apply c (BI.Entails.refl _)

set_option maxRecDepth 65536 in
theorem part_123 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 60 1 ⊢ wp frame (wpE (defs₀ (F := F)) 𝒱₀ (c : Thread nD τ) none) Set.univ
      (k0_part123 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 60 4) := by
  rw [k0_part123_eq_skeleton]; unfold k0_part123_skel
  simp only [Prog.lift, Prog.bind_op, Prog.bind_ret, Prog.pure_eq_ret]
  refine step_apply (step_yrecv_wait m K c ⟨60, by decide⟩ _ (sem_yrecv ⟨60, by decide⟩ _ _)) ?_
  refine step_apply (step_stage_wait m K c ⟨60, by decide⟩ ⟨0, by decide⟩ (by decide) _ (sem_cpin ⟨0, by decide⟩ _ _)) ?_
  refine step_apply (step_load_recv m K c ⟨60, by decide⟩) ?_
  refine step_apply (step_load_stage m K c ⟨60, by decide⟩ ⟨0, by decide⟩ (by decide)) ?_
  refine step_apply (step_load_recv m K c ⟨60, by decide⟩) ?_
  refine step_apply (step_store m K c ⟨60, by decide⟩ _ (pay_sVal m k0_pay67 (fun _ _ => rfl) c ⟨60, by decide⟩)) ?_
  exact ret_apply c (BI.Entails.refl _)

set_option maxRecDepth 65536 in
theorem part_124 (m : (ℓ : Loc nD τ sig) → Buf (Elt F) ℓ) (K : Dev nD × Fin 323 → ℕ) (c : Dev nD) (v2 : BitVec 32) (v5 : BitVec 32) (v6 : BitVec 32) (v8 : BitVec 32) :
    S2 m K c 60 4 ⊢ wp frame (wpE (defs₀ (F := F)) 𝒱₀ (c : Thread nD τ) none) Set.univ
      (k0_part124 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 61 2) := by
  rw [k0_part124_eq_skeleton]; unfold k0_part124_skel
  simp only [Prog.lift, Prog.bind_op, Prog.bind_ret, Prog.pure_eq_ret]
  refine step_apply (step_xsend m K c ⟨60, by decide⟩ _ (Fin.ext (k0_dev127_eq c)) _ _ (sem_xsend ⟨60, by decide⟩ _ _) (sem_xrecv ⟨60, by decide⟩ _ _)) ?_
  refine step_apply (step_outcopy m K c ⟨60, by decide⟩ _ (sem_cpout ⟨60, by decide⟩ _ _)) ?_
  refine (S2_next m K c ⟨60, by decide⟩).trans ?_
  refine step_apply (step_stage m K c ⟨61, by decide⟩ ⟨62, by decide⟩ rfl ⟨0, by decide⟩ (by decide) _ (sem_cpin ⟨0, by decide⟩ _ _)) ?_
  refine step_apply (step_yrecv_wait m K c ⟨61, by decide⟩ _ (sem_yrecv ⟨61, by decide⟩ _ _)) ?_
  exact ret_apply c (BI.Entails.refl _)

set_option maxRecDepth 65536 in
theorem part_125 (m : (ℓ : Loc nD τ sig) → Buf (Elt F) ℓ) (K : Dev nD × Fin 323 → ℕ) (c : Dev nD) (v5 : BitVec 32) (v7 : BitVec 32) (v8 : BitVec 32) :
    S2 m K c 61 2 ⊢ wp frame (wpE (defs₀ (F := F)) 𝒱₀ (c : Thread nD τ) none) Set.univ
      (k0_part125 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 62 0) := by
  rw [k0_part125_eq_skeleton]; unfold k0_part125_skel
  simp only [Prog.lift, Prog.bind_op, Prog.bind_ret, Prog.pure_eq_ret]
  refine step_apply (step_stage_wait m K c ⟨61, by decide⟩ ⟨1, by decide⟩ (by decide) _ (sem_cpin ⟨1, by decide⟩ _ _)) ?_
  refine step_apply (step_load_recv m K c ⟨61, by decide⟩) ?_
  refine step_apply (step_load_stage m K c ⟨61, by decide⟩ ⟨1, by decide⟩ (by decide)) ?_
  refine step_apply (step_load_recv m K c ⟨61, by decide⟩) ?_
  refine step_apply (step_store m K c ⟨61, by decide⟩ _ (pay_sVal m k0_pay68 (fun _ _ => rfl) c ⟨61, by decide⟩)) ?_
  refine step_apply (step_xsend m K c ⟨61, by decide⟩ _ (Fin.ext (k0_dev128_eq c)) _ _ (sem_xsend ⟨61, by decide⟩ _ _) (sem_xrecv ⟨61, by decide⟩ _ _)) ?_
  refine step_apply (step_outcopy m K c ⟨61, by decide⟩ _ (sem_cpout ⟨61, by decide⟩ _ _)) ?_
  refine (S2_next m K c ⟨61, by decide⟩).trans ?_
  exact ret_apply c (BI.Entails.refl _)

set_option maxRecDepth 65536 in
theorem part_126 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 62 0 ⊢ wp frame (wpE (defs₀ (F := F)) 𝒱₀ (c : Thread nD τ) none) Set.univ
      (k0_part126 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 62 4) := by
  rw [k0_part126_eq_skeleton]; unfold k0_part126_skel
  simp only [Prog.lift, Prog.bind_op, Prog.bind_ret, Prog.pure_eq_ret]
  refine step_apply (step_stage m K c ⟨62, by decide⟩ ⟨63, by decide⟩ rfl ⟨1, by decide⟩ (by decide) _ (sem_cpin ⟨1, by decide⟩ _ _)) ?_
  refine step_apply (step_yrecv_wait m K c ⟨62, by decide⟩ _ (sem_yrecv ⟨62, by decide⟩ _ _)) ?_
  refine step_apply (step_stage_wait m K c ⟨62, by decide⟩ ⟨0, by decide⟩ (by decide) _ (sem_cpin ⟨0, by decide⟩ _ _)) ?_
  refine step_apply (step_load_recv m K c ⟨62, by decide⟩) ?_
  refine step_apply (step_load_stage m K c ⟨62, by decide⟩ ⟨0, by decide⟩ (by decide)) ?_
  refine step_apply (step_load_recv m K c ⟨62, by decide⟩) ?_
  refine step_apply (step_store m K c ⟨62, by decide⟩ _ (pay_sVal m k0_pay69 (fun _ _ => rfl) c ⟨62, by decide⟩)) ?_
  exact ret_apply c (BI.Entails.refl _)

set_option maxRecDepth 65536 in
theorem part_127 (m : (ℓ : Loc nD τ sig) → Buf (Elt F) ℓ) (K : Dev nD × Fin 323 → ℕ) (c : Dev nD) (v2 : BitVec 32) (v6 : BitVec 32) (v8 : BitVec 32) (v3808 : BitVec 32) (v3809 : BitVec 32) :
    S2 m K c 62 4 ⊢ wp frame (wpE (defs₀ (F := F)) 𝒱₀ (c : Thread nD τ) none) Set.univ
      (k0_part127 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8 v3808 v3809)
      (fun ret => iprop(⌜ret = ⟨(yVal m c ⟨63, by decide⟩), (k0_pay70 (shapeCast S1x64x1024 (bVal m c ⟨63, by decide⟩) shapeCasts_S64x1024_S1x64x1024))⟩⌝ ∗ S2 m K c 63 3)) := by
  rw [k0_part127_eq_skeleton]; unfold k0_part127_skel
  simp only [Prog.lift, Prog.bind_op, Prog.bind_ret, Prog.pure_eq_ret]
  refine step_apply (step_xsend m K c ⟨62, by decide⟩ _ (Fin.ext (k0_dev129_eq c)) _ _ (sem_xsend ⟨62, by decide⟩ _ _) (sem_xrecv ⟨62, by decide⟩ _ _)) ?_
  refine step_apply (step_outcopy m K c ⟨62, by decide⟩ _ (sem_cpout ⟨62, by decide⟩ _ _)) ?_
  refine (S2_next m K c ⟨62, by decide⟩).trans ?_
  refine (skip_stage m K c).trans ?_
  refine step_apply (step_yrecv_wait m K c ⟨63, by decide⟩ _ (sem_yrecv ⟨63, by decide⟩ _ _)) ?_
  refine step_apply (step_stage_wait m K c ⟨63, by decide⟩ ⟨1, by decide⟩ (by decide) _ (sem_cpin ⟨1, by decide⟩ _ _)) ?_
  refine step_apply (step_load_recv m K c ⟨63, by decide⟩) ?_
  refine step_apply (step_load_stage m K c ⟨63, by decide⟩ ⟨1, by decide⟩ (by decide)) ?_
  exact ret_fact c rfl

set_option maxRecDepth 65536 in
theorem part_128 (m : (ℓ : Loc nD τ sig) → Buf (Elt F) ℓ) (K : Dev nD × Fin 323 → ℕ) (c : Dev nD) (v5 : BitVec 32) (v7 : BitVec 32) (v8 : BitVec 32) :
    S2 m K c 63 3 ⊢ wp frame (wpE (defs₀ (F := F)) 𝒱₀ (c : Thread nD τ) none) Set.univ
      (k0_part128 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨63, by decide⟩) (k0_pay70 (shapeCast S1x64x1024 (bVal m c ⟨63, by decide⟩) shapeCasts_S64x1024_S1x64x1024)))
      (fun _ => S3 m K c ⟨0, by decide⟩ 2) := by
  rw [k0_part128_eq_skeleton]; unfold k0_part128_skel
  simp only [Prog.lift, Prog.bind_op, Prog.bind_ret, Prog.pure_eq_ret]
  refine step_apply (step_load_recv m K c ⟨63, by decide⟩) ?_
  refine step_apply (step_store m K c ⟨63, by decide⟩ _ (pay_sVal_cut_last m k0_pay71 k0_pay70 (fun _ _ => rfl) (fun _ => rfl) c ⟨63, by decide⟩)) ?_
  refine step_apply (step_xsend m K c ⟨63, by decide⟩ _ (Fin.ext (k0_dev130_eq c)) _ _ (sem_xsend ⟨63, by decide⟩ _ _) (sem_xrecv ⟨63, by decide⟩ _ _)) ?_
  refine step_apply (step_outcopy m K c ⟨63, by decide⟩ _ (sem_cpout ⟨63, by decide⟩ _ _)) ?_
  refine (S2_next m K c ⟨63, by decide⟩).trans ?_
  refine (S2_S3 m K c).trans ?_
  refine step_apply (step_out_wait m K c ⟨0, by decide⟩ _ (sem_cpout ⟨0, by decide⟩ _ _)) ?_
  refine step_apply (step_ysend_wait m K c ⟨0, by decide⟩ _ (sem_ysend ⟨0, by decide⟩ _ _)) ?_
  exact ret_apply c (BI.Entails.refl _)

/-- info: 'Cert.KernelIdeal.RS.part_128' depends on axioms: [propext, Classical.choice, Quot.sound] -/
#guard_msgs in #print axioms part_128

end Cert.KernelIdeal.RS

end
-- ==== Proof.RsKernelIdeal.Body09.lean ====
/-
  The body of the reduce-scatter, part by part: the parts 129 to 144 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps3
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_129 (m : (ℓ : Loc nD τ sig) → Buf (Elt F) ℓ) (K : Dev nD × Fin 323 → ℕ) (c : Dev nD) (v5 : BitVec 32) (v7 : BitVec 32) (v10 : BitVec 32) :
    S3 m K c ⟨0, by decide⟩ 2 ⊢ wp frame (wpE (defs₀ (F := F)) 𝒱₀ (c : Thread nD τ) none) Set.univ
      (k0_part129 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨1, by decide⟩ 2) := by
  rw [k0_part129_eq_skeleton]; unfold k0_part129_skel
  simp only [Prog.lift, Prog.bind_op, Prog.bind_ret, Prog.pure_eq_ret]
  refine step_apply (step_xsend_wait m K c ⟨0, by decide⟩ _ (sem_xsend ⟨0, by decide⟩ _ _)) ?_
  refine step_apply (step_xrecv_wait m K c ⟨0, by decide⟩ _ (sem_xrecv ⟨0, by decide⟩ _ _)) ?_
  refine (S3_next m K c ⟨0, by decide⟩ (by decide)).trans ?_
  refine step_apply (step_out_wait m K c ⟨1, by decide⟩ _ (sem_cpout ⟨1, by decide⟩ _ _)) ?_
  refine step_apply (step_ysend_wait m K c ⟨1, by decide⟩ _ (sem_ysend ⟨1, by decide⟩ _ _)) ?_
  exact ret_apply c (BI.Entails.refl _)

set_option maxRecDepth 65536 in
theorem part_130 (m : (ℓ : Loc nD τ sig) → Buf (Elt F) ℓ) (K : Dev nD × Fin 323 → ℕ) (c : Dev nD) (v5 : BitVec 32) (v7 : BitVec 32) (v10 : BitVec 32) :
    S3 m K c ⟨1, by decide⟩ 2 ⊢ wp frame (wpE (defs₀ (F := F)) 𝒱₀ (c : Thread nD τ) none) Set.univ
      (k0_part130 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨2, by decide⟩ 3) := by
  rw [k0_part130_eq_skeleton]; unfold k0_part130_skel
  simp only [Prog.lift, Prog.bind_op, Prog.bind_ret, Prog.pure_eq_ret]
  refine step_apply (step_xsend_wait m K c ⟨1, by decide⟩ _ (sem_xsend ⟨1, by decide⟩ _ _)) ?_
  refine step_apply (step_xrecv_wait m K c ⟨1, by decide⟩ _ (sem_xrecv ⟨1, by decide⟩ _ _)) ?_
  refine (S3_next m K c ⟨1, by decide⟩ (by decide)).trans ?_
  refine step_apply (step_out_wait m K c ⟨2, by decide⟩ _ (sem_cpout ⟨2, by decide⟩ _ _)) ?_
  refine step_apply (step_ysend_wait m K c ⟨2, by decide⟩ _ (sem_ysend ⟨2, by decide⟩ _ _)) ?_
  refine step_apply (step_xsend_wait m K c ⟨2, by decide⟩ _ (sem_xsend ⟨2, by decide⟩ _ _)) ?_
  exact ret_apply c (BI.Entails.refl _)

set_option maxRecDepth 65536 in
theorem part_131 (m : (ℓ : Loc nD τ sig) → Buf (Elt F) ℓ) (K : Dev nD × Fin 323 → ℕ) (c : Dev nD) (v5 : BitVec 32) (v7 : BitVec 32) (v10 : BitVec 32) (v3918 : BitVec 32) (c0_i32_3223 : BitVec 32) :
    S3 m K c ⟨2, by decide⟩ 3 ⊢ wp frame (wpE (defs₀ (F := F)) 𝒱₀ (c : Thread nD τ) none) Set.univ
      (k0_part131 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v3918 c0_i32_3223)
      (fun _ => S3 m K c ⟨3, by decide⟩ 3) := by
  rw [k0_part131_eq_skeleton]; unfold k0_part131_skel
  simp only [Prog.lift, Prog.bind_op, Prog.bind_ret, Prog.pure_eq_ret]
  refine step_apply (step_xrecv_wait m K c ⟨2, by decide⟩ _ (sem_xrecv ⟨2, by decide⟩ _ _)) ?_
  refine (S3_next m K c ⟨2, by decide⟩ (by decide)).trans ?_
  refine step_apply (step_out_wait m K c ⟨3, by decide⟩ _ (sem_cpout ⟨3, by decide⟩ _ _)) ?_
  refine step_apply (step_ysend_wait m K c ⟨3, by decide⟩ _ (sem_ysend ⟨3, by decide⟩ _ _)) ?_
  refine step_apply (step_xsend_wait m K c ⟨3, by decide⟩ _ (sem_xsend ⟨3, by decide⟩ _ _)) ?_
  exact ret_apply c (BI.Entails.refl _)

set_option maxRecDepth 65536 in
theorem part_132 (m : (ℓ : Loc nD τ sig) → Buf (Elt F) ℓ) (K : Dev nD × Fin 323 → ℕ) (c : Dev nD) (v5 : BitVec 32) (v7 : BitVec 32) (v10 : BitVec 32) :
    S3 m K c ⟨3, by decide⟩ 3 ⊢ wp frame (wpE (defs₀ (F := F)) 𝒱₀ (c : Thread nD τ) none) Set.univ
      (k0_part132 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨5, by decide⟩ 0) := by
  rw [k0_part132_eq_skeleton]; unfold k0_part132_skel
  simp only [Prog.lift, Prog.bind_op, Prog.bind_ret, Prog.pure_eq_ret]
  refine step_apply (step_xrecv_wait m K c ⟨3, by decide⟩ _ (sem_xrecv ⟨3, by decide⟩ _ _)) ?_
  refine (S3_next m K c ⟨3, by decide⟩ (by decide)).trans ?_
  refine step_apply (step_out_wait m K c ⟨4, by decide⟩ _ (sem_cpout ⟨4, by decide⟩ _ _)) ?_
  refine step_apply (step_ysend_wait m K c ⟨4, by decide⟩ _ (sem_ysend ⟨4, by decide⟩ _ _)) ?_
  refine step_apply (step_xsend_wait m K c ⟨4, by decide⟩ _ (sem_xsend ⟨4, by decide⟩ _ _)) ?_
  refine step_apply (step_xrecv_wait m K c ⟨4, by decide⟩ _ (sem_xrecv ⟨4, by decide⟩ _ _)) ?_
  refine (S3_next m K c ⟨4, by decide⟩ (by decide)).trans ?_
  exact ret_apply c (BI.Entails.refl _)

set_option maxRecDepth 65536 in
theorem part_133 (m : (ℓ : Loc nD τ sig) → Buf (Elt F) ℓ) (K : Dev nD × Fin 323 → ℕ) (c : Dev nD) (v5 : BitVec 32) (v7 : BitVec 32) (v10 : BitVec 32) :
    S3 m K c ⟨5, by decide⟩ 0 ⊢ wp frame (wpE (defs₀ (F := F)) 𝒱₀ (c : Thread nD τ) none) Set.univ
      (k0_part133 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨6, by decide⟩ 1) := by
  rw [k0_part133_eq_skeleton]; unfold k0_part133_skel
  simp only [Prog.lift, Prog.bind_op, Prog.bind_ret, Prog.pure_eq_ret]
  refine step_apply (step_out_wait m K c ⟨5, by decide⟩ _ (sem_cpout ⟨5, by decide⟩ _ _)) ?_
  refine step_apply (step_ysend_wait m K c ⟨5, by decide⟩ _ (sem_ysend ⟨5, by decide⟩ _ _)) ?_
  refine step_apply (step_xsend_wait m K c ⟨5, by decide⟩ _ (sem_xsend ⟨5, by decide⟩ _ _)) ?_
  refine step_apply (step_xrecv_wait m K c ⟨5, by decide⟩ _ (sem_xrecv ⟨5, by decide⟩ _ _)) ?_
  refine (S3_next m K c ⟨5, by decide⟩ (by decide)).trans ?_
  refine step_apply (step_out_wait m K c ⟨6, by decide⟩ _ (sem_cpout ⟨6, by decide⟩ _ _)) ?_
  exact ret_apply c (BI.Entails.refl _)

set_option maxRecDepth 65536 in
theorem part_134 (m : (ℓ : Loc nD τ sig) → Buf (Elt F) ℓ) (K : Dev nD × Fin 323 → ℕ) (c : Dev nD) (v5 : BitVec 32) (v7 : BitVec 32) (v10 : BitVec 32) :
    S3 m K c ⟨6, by decide⟩ 1 ⊢ wp frame (wpE (defs₀ (F := F)) 𝒱₀ (c : Thread nD τ) none) Set.univ
      (k0_part134 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨7, by decide⟩ 2) := by
  rw [k0_part134_eq_skeleton]; unfold k0_part134_skel
  simp only [Prog.lift, Prog.bind_op, Prog.bind_ret, Prog.pure_eq_ret]
  refine step_apply (step_ysend_wait m K c ⟨6, by decide⟩ _ (sem_ysend ⟨6, by decide⟩ _ _)) ?_
  refine step_apply (step_xsend_wait m K c ⟨6, by decide⟩ _ (sem_xsend ⟨6, by decide⟩ _ _)) ?_
  refine step_apply (step_xrecv_wait m K c ⟨6, by decide⟩ _ (sem_xrecv ⟨6, by decide⟩ _ _)) ?_
  refine (S3_next m K c ⟨6, by decide⟩ (by decide)).trans ?_
  refine step_apply (step_out_wait m K c ⟨7, by decide⟩ _ (sem_cpout ⟨7, by decide⟩ _ _)) ?_
  refine step_apply (step_ysend_wait m K c ⟨7, by decide⟩ _ (sem_ysend ⟨7, by decide⟩ _ _)) ?_
  exact ret_apply c (BI.Entails.refl _)

set_option maxRecDepth 65536 in
theorem part_135 (m : (ℓ : Loc nD τ sig) → Buf (Elt F) ℓ) (K : Dev nD × Fin 323 → ℕ) (c : Dev nD) (v5 : BitVec 32) (v7 : BitVec 32) (v10 : BitVec 32) :
    S3 m K c ⟨7, by decide⟩ 2 ⊢ wp frame (wpE (defs₀ (F := F)) 𝒱₀ (c : Thread nD τ) none) Set.univ
      (k0_part135 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨8, by decide⟩ 3) := by
  rw [k0_part135_eq_skeleton]; unfold k0_part135_skel
  simp only [Prog.lift, Prog.bind_op, Prog.bind_ret, Prog.pure_eq_ret]
  refine step_apply (step_xsend_wait m K c ⟨7, by decide⟩ _ (sem_xsend ⟨7, by decide⟩ _ _)) ?_
  refine step_apply (step_xrecv_wait m K c ⟨7, by decide⟩ _ (sem_xrecv ⟨7, by decide⟩ _ _)) ?_
  refine (S3_next m K c ⟨7, by decide⟩ (by decide)).trans ?_
  refine step_apply (step_out_wait m K c ⟨8, by decide⟩ _ (sem_cpout ⟨8, by decide⟩ _ _)) ?_
  refine step_apply (step_ysend_wait m K c ⟨8, by decide⟩ _ (sem_ysend ⟨8, by decide⟩ _ _)) ?_
  refine step_apply (step_xsend_wait m K c ⟨8, by decide⟩ _ (sem_xsend ⟨8, by decide⟩ _ _)) ?_
  exact ret_apply c (BI.Entails.refl _)

set_option maxRecDepth 65536 in
theorem part_136 (m : (ℓ : Loc nD τ sig) → Buf (Elt F) ℓ) (K : Dev nD × Fin 323 → ℕ) (c : Dev nD) (v5 : BitVec 32) (v7 : BitVec 32) (v10 : BitVec 32) (c512_i32_3369 : BitVec 32) :
    S3 m K c ⟨8, by decide⟩ 3 ⊢ wp frame (wpE (defs₀ (F := F)) 𝒱₀ (c : Thread nD τ) none) Set.univ
      (k0_part136 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 c512_i32_3369)
      (fun _ => S3 m K c ⟨9, by decide⟩ 3) := by
  rw [k0_part136_eq_skeleton]; unfold k0_part136_skel
  simp only [Prog.lift, Prog.bind_op, Prog.bind_ret, Prog.pure_eq_ret]
  refine step_apply (step_xrecv_wait m K c ⟨8, by decide⟩ _ (sem_xrecv ⟨8, by decide⟩ _ _)) ?_
  refine (S3_next m K c ⟨8, by decide⟩ (by decide)).trans ?_
  refine step_apply (step_out_wait m K c ⟨9, by decide⟩ _ (sem_cpout ⟨9, by decide⟩ _ _)) ?_
  refine step_apply (step_ysend_wait m K c ⟨9, by decide⟩ _ (sem_ysend ⟨9, by decide⟩ _ _)) ?_
  refine step_apply (step_xsend_wait m K c ⟨9, by decide⟩ _ (sem_xsend ⟨9, by decide⟩ _ _)) ?_
  exact ret_apply c (BI.Entails.refl _)

set_option maxRecDepth 65536 in
theorem part_137 (m : (ℓ : Loc nD τ sig) → Buf (Elt F) ℓ) (K : Dev nD × Fin 323 → ℕ) (c : Dev nD) (v5 : BitVec 32) (v7 : BitVec 32) (v10 : BitVec 32) (v4073 : BitVec 32) (v4074 : BitVec 32) :
    S3 m K c ⟨9, by decide⟩ 3 ⊢ wp frame (wpE (defs₀ (F := F)) 𝒱₀ (c : Thread nD τ) none) Set.univ
      (k0_part137 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4073 v4074)
      (fun _ => S3 m K c ⟨11, by decide⟩ 0) := by
  rw [k0_part137_eq_skeleton]; unfold k0_part137_skel
  simp only [Prog.lift, Prog.bind_op, Prog.bind_ret, Prog.pure_eq_ret]
  refine step_apply (step_xrecv_wait m K c ⟨9, by decide⟩ _ (sem_xrecv ⟨9, by decide⟩ _ _)) ?_
  refine (S3_next m K c ⟨9, by decide⟩ (by decide)).trans ?_
  refine step_apply (step_out_wait m K c ⟨10, by decide⟩ _ (sem_cpout ⟨10, by decide⟩ _ _)) ?_
  refine step_apply (step_ysend_wait m K c ⟨10, by decide⟩ _ (sem_ysend ⟨10, by decide⟩ _ _)) ?_
  refine step_apply (step_xsend_wait m K c ⟨10, by decide⟩ _ (sem_xsend ⟨10, by decide⟩ _ _)) ?_
  refine step_apply (step_xrecv_wait m K c ⟨10, by decide⟩ _ (sem_xrecv ⟨10, by decide⟩ _ _)) ?_
  refine (S3_next m K c ⟨10, by decide⟩ (by decide)).trans ?_
  exact ret_apply c (BI.Entails.refl _)

set_option maxRecDepth 65536 in
theorem part_138 (m : (ℓ : Loc nD τ sig) → Buf (Elt F) ℓ) (K : Dev nD × Fin 323 → ℕ) (c : Dev nD) (v5 : BitVec 32) (v7 : BitVec 32) (v10 : BitVec 32) :
    S3 m K c ⟨11, by decide⟩ 0 ⊢ wp frame (wpE (defs₀ (F := F)) 𝒱₀ (c : Thread nD τ) none) Set.univ
      (k0_part138 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨12, by decide⟩ 1) := by
  rw [k0_part138_eq_skeleton]; unfold k0_part138_skel
  simp only [Prog.lift, Prog.bind_op, Prog.bind_ret, Prog.pure_eq_ret]
  refine step_apply (step_out_wait m K c ⟨11, by decide⟩ _ (sem_cpout ⟨11, by decide⟩ _ _)) ?_
  refine step_apply (step_ysend_wait m K c ⟨11, by decide⟩ _ (sem_ysend ⟨11, by decide⟩ _ _)) ?_
  refine step_apply (step_xsend_wait m K c ⟨11, by decide⟩ _ (sem_xsend ⟨11, by decide⟩ _ _)) ?_
  refine step_apply (step_xrecv_wait m K c ⟨11, by decide⟩ _ (sem_xrecv ⟨11, by decide⟩ _ _)) ?_
  refine (S3_next m K c ⟨11, by decide⟩ (by decide)).trans ?_
  refine step_apply (step_out_wait m K c ⟨12, by decide⟩ _ (sem_cpout ⟨12, by decide⟩ _ _)) ?_
  exact ret_apply c (BI.Entails.refl _)

set_option maxRecDepth 65536 in
theorem part_139 (m : (ℓ : Loc nD τ sig) → Buf (Elt F) ℓ) (K : Dev nD × Fin 323 → ℕ) (c : Dev nD) (v5 : BitVec 32) (v7 : BitVec 32) (v10 : BitVec 32) :
    S3 m K c ⟨12, by decide⟩ 1 ⊢ wp frame (wpE (defs₀ (F := F)) 𝒱₀ (c : Thread nD τ) none) Set.univ
      (k0_part139 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨13, by decide⟩ 1) := by
  rw [k0_part139_eq_skeleton]; unfold k0_part139_skel
  simp only [Prog.lift, Prog.bind_op, Prog.bind_ret, Prog.pure_eq_ret]
  refine step_apply (step_ysend_wait m K c ⟨12, by decide⟩ _ (sem_ysend ⟨12, by decide⟩ _ _)) ?_
  refine step_apply (step_xsend_wait m K c ⟨12, by decide⟩ _ (sem_xsend ⟨12, by decide⟩ _ _)) ?_
  refine step_apply (step_xrecv_wait m K c ⟨12, by decide⟩ _ (sem_xrecv ⟨12, by decide⟩ _ _)) ?_
  refine (S3_next m K c ⟨12, by decide⟩ (by decide)).trans ?_
  refine step_apply (step_out_wait m K c ⟨13, by decide⟩ _ (sem_cpout ⟨13, by decide⟩ _ _)) ?_
  exact ret_apply c (BI.Entails.refl _)

set_option maxRecDepth 65536 in
theorem part_140 (m : (ℓ : Loc nD τ sig) → Buf (Elt F) ℓ) (K : Dev nD × Fin 323 → ℕ) (c : Dev nD) (v5 : BitVec 32) (v7 : BitVec 32) (v10 : BitVec 32) :
    S3 m K c ⟨13, by decide⟩ 1 ⊢ wp frame (wpE (defs₀ (F := F)) 𝒱₀ (c : Thread nD τ) none) Set.univ
      (k0_part140 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨14, by decide⟩ 2) := by
  rw [k0_part140_eq_skeleton]; unfold k0_part140_skel
  simp only [Prog.lift, Prog.bind_op, Prog.bind_ret, Prog.pure_eq_ret]
  refine step_apply (step_ysend_wait m K c ⟨13, by decide⟩ _ (sem_ysend ⟨13, by decide⟩ _ _)) ?_
  refine step_apply (step_xsend_wait m K c ⟨13, by decide⟩ _ (sem_xsend ⟨13, by decide⟩ _ _)) ?_
  refine step_apply (step_xrecv_wait m K c ⟨13, by decide⟩ _ (sem_xrecv ⟨13, by decide⟩ _ _)) ?_
  refine (S3_next m K c ⟨13, by decide⟩ (by decide)).trans ?_
  refine step_apply (step_out_wait m K c ⟨14, by decide⟩ _ (sem_cpout ⟨14, by decide⟩ _ _)) ?_
  refine step_apply (step_ysend_wait m K c ⟨14, by decide⟩ _ (sem_ysend ⟨14, by decide⟩ _ _)) ?_
  exact ret_apply c (BI.Entails.refl _)

set_option maxRecDepth 65536 in
theorem part_141 (m : (ℓ : Loc nD τ sig) → Buf (Elt F) ℓ) (K : Dev nD × Fin 323 → ℕ) (c : Dev nD) (v5 : BitVec 32) (v7 : BitVec 32) (v10 : BitVec 32) :
    S3 m K c ⟨14, by decide⟩ 2 ⊢ wp frame (wpE (defs₀ (F := F)) 𝒱₀ (c : Thread nD τ) none) Set.univ
      (k0_part141 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨15, by decide⟩ 3) := by
  rw [k0_part141_eq_skeleton]; unfold k0_part141_skel
  simp only [Prog.lift, Prog.bind_op, Prog.bind_ret, Prog.pure_eq_ret]
  refine step_apply (step_xsend_wait m K c ⟨14, by decide⟩ _ (sem_xsend ⟨14, by decide⟩ _ _)) ?_
  refine step_apply (step_xrecv_wait m K c ⟨14, by decide⟩ _ (sem_xrecv ⟨14, by decide⟩ _ _)) ?_
  refine (S3_next m K c ⟨14, by decide⟩ (by decide)).trans ?_
  refine step_apply (step_out_wait m K c ⟨15, by decide⟩ _ (sem_cpout ⟨15, by decide⟩ _ _)) ?_
  refine step_apply (step_ysend_wait m K c ⟨15, by decide⟩ _ (sem_ysend ⟨15, by decide⟩ _ _)) ?_
  refine step_apply (step_xsend_wait m K c ⟨15, by decide⟩ _ (sem_xsend ⟨15, by decide⟩ _ _)) ?_
  exact ret_apply c (BI.Entails.refl _)

set_option maxRecDepth 65536 in
theorem part_142 (m : (ℓ : Loc nD τ sig) → Buf (Elt F) ℓ) (K : Dev nD × Fin 323 → ℕ) (c : Dev nD) (v5 : BitVec 32) (v7 : BitVec 32) (v10 : BitVec 32) :
    S3 m K c ⟨15, by decide⟩ 3 ⊢ wp frame (wpE (defs₀ (F := F)) 𝒱₀ (c : Thread nD τ) none) Set.univ
      (k0_part142 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨16, by decide⟩ 3) := by
  rw [k0_part142_eq_skeleton]; unfold k0_part142_skel
  simp only [Prog.lift, Prog.bind_op, Prog.bind_ret, Prog.pure_eq_ret]
  refine step_apply (step_xrecv_wait m K c ⟨15, by decide⟩ _ (sem_xrecv ⟨15, by decide⟩ _ _)) ?_
  refine (S3_next m K c ⟨15, by decide⟩ (by decide)).trans ?_
  refine step_apply (step_out_wait m K c ⟨16, by decide⟩ _ (sem_cpout ⟨16, by decide⟩ _ _)) ?_
  refine step_apply (step_ysend_wait m K c ⟨16, by decide⟩ _ (sem_ysend ⟨16, by decide⟩ _ _)) ?_
  refine step_apply (step_xsend_wait m K c ⟨16, by decide⟩ _ (sem_xsend ⟨16, by decide⟩ _ _)) ?_
  exact ret_apply c (BI.Entails.refl _)

set_option maxRecDepth 65536 in
theorem part_143 (m : (ℓ : Loc nD τ sig) → Buf (Elt F) ℓ) (K : Dev nD × Fin 323 → ℕ) (c : Dev nD) (v5 : BitVec 32) (v7 : BitVec 32) (v10 : BitVec 32) :
    S3 m K c ⟨16, by decide⟩ 3 ⊢ wp frame (wpE (defs₀ (F := F)) 𝒱₀ (c : Thread nD τ) none) Set.univ
      (k0_part143 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨18, by decide⟩ 0) := by
  rw [k0_part143_eq_skeleton]; unfold k0_part143_skel
  simp only [Prog.lift, Prog.bind_op, Prog.bind_ret, Prog.pure_eq_ret]
  refine step_apply (step_xrecv_wait m K c ⟨16, by decide⟩ _ (sem_xrecv ⟨16, by decide⟩ _ _)) ?_
  refine (S3_next m K c ⟨16, by decide⟩ (by decide)).trans ?_
  refine step_apply (step_out_wait m K c ⟨17, by decide⟩ _ (sem_cpout ⟨17, by decide⟩ _ _)) ?_
  refine step_apply (step_ysend_wait m K c ⟨17, by decide⟩ _ (sem_ysend ⟨17, by decide⟩ _ _)) ?_
  refine step_apply (step_xsend_wait m K c ⟨17, by decide⟩ _ (sem_xsend ⟨17, by decide⟩ _ _)) ?_
  refine step_apply (step_xrecv_wait m K c ⟨17, by decide⟩ _ (sem_xrecv ⟨17, by decide⟩ _ _)) ?_
  refine (S3_next m K c ⟨17, by decide⟩ (by decide)).trans ?_
  exact ret_apply c (BI.Entails.refl _)

set_option maxRecDepth 65536 in
theorem part_144 (m : (ℓ : Loc nD τ sig) → Buf (Elt F) ℓ) (K : Dev nD × Fin 323 → ℕ) (c : Dev nD) (v5 : BitVec 32) (v7 : BitVec 32) (v10 : BitVec 32) :
    S3 m K c ⟨18, by decide⟩ 0 ⊢ wp frame (wpE (defs₀ (F := F)) 𝒱₀ (c : Thread nD τ) none) Set.univ
      (k0_part144 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨19, by decide⟩ 1) := by
  rw [k0_part144_eq_skeleton]; unfold k0_part144_skel
  simp only [Prog.lift, Prog.bind_op, Prog.bind_ret, Prog.pure_eq_ret]
  refine step_apply (step_out_wait m K c ⟨18, by decide⟩ _ (sem_cpout ⟨18, by decide⟩ _ _)) ?_
  refine step_apply (step_ysend_wait m K c ⟨18, by decide⟩ _ (sem_ysend ⟨18, by decide⟩ _ _)) ?_
  refine step_apply (step_xsend_wait m K c ⟨18, by decide⟩ _ (sem_xsend ⟨18, by decide⟩ _ _)) ?_
  refine step_apply (step_xrecv_wait m K c ⟨18, by decide⟩ _ (sem_xrecv ⟨18, by decide⟩ _ _)) ?_
  refine (S3_next m K c ⟨18, by decide⟩ (by decide)).trans ?_
  refine step_apply (step_out_wait m K c ⟨19, by decide⟩ _ (sem_cpout ⟨19, by decide⟩ _ _)) ?_
  exact ret_apply c (BI.Entails.refl _)

/-- info: 'Cert.KernelIdeal.RS.part_144' depends on axioms: [propext, Classical.choice, Quot.sound] -/
#guard_msgs in #print axioms part_144

end Cert.KernelIdeal.RS

end
-- ==== Proof.RsKernelIdeal.Body10.lean ====
/-
  The body of the reduce-scatter, part by part: the parts 145 to 160 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps3
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_145 (m : (ℓ : Loc nD τ sig) → Buf (Elt F) ℓ) (K : Dev nD × Fin 323 → ℕ) (c : Dev nD) (v5 : BitVec 32) (v7 : BitVec 32) (v10 : BitVec 32) :
    S3 m K c ⟨19, by decide⟩ 1 ⊢ wp frame (wpE (defs₀ (F := F)) 𝒱₀ (c : Thread nD τ) none) Set.univ
      (k0_part145 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨20, by decide⟩ 2) := by
  rw [k0_part145_eq_skeleton]; unfold k0_part145_skel
  simp only [Prog.lift, Prog.bind_op, Prog.bind_ret, Prog.pure_eq_ret]
  refine step_apply (step_ysend_wait m K c ⟨19, by decide⟩ _ (sem_ysend ⟨19, by decide⟩ _ _)) ?_
  refine step_apply (step_xsend_wait m K c ⟨19, by decide⟩ _ (sem_xsend ⟨19, by decide⟩ _ _)) ?_
  refine step_apply (step_xrecv_wait m K c ⟨19, by decide⟩ _ (sem_xrecv ⟨19, by decide⟩ _ _)) ?_
  refine (S3_next m K c ⟨19, by decide⟩ (by decide)).trans ?_
  refine step_apply (step_out_wait m K c ⟨20, by decide⟩ _ (sem_cpout ⟨20, by decide⟩ _ _)) ?_
  refine step_apply (step_ysend_wait m K c ⟨20, by decide⟩ _ (sem_ysend ⟨20, by decide⟩ _ _)) ?_
  exact ret_apply c (BI.Entails.refl _)

set_option maxRecDepth 65536 in
theorem part_146 (m : (ℓ : Loc nD τ sig) → Buf (Elt F) ℓ) (K : Dev nD × Fin 323 → ℕ) (c : Dev nD) (v5 : BitVec 32) (v7 : BitVec 32) (v10 : BitVec 32) :
    S3 m K c ⟨20, by decide⟩ 2 ⊢ wp frame (wpE (defs₀ (F := F)) 𝒱₀ (c : Thread nD τ) none) Set.univ
      (k0_part146 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨21, by decide⟩ 2) := by
  rw [k0_part146_eq_skeleton]; unfold k0_part146_skel
  simp only [Prog.lift, Prog.bind_op, Prog.bind_ret, Prog.pure_eq_ret]
  refine step_apply (step_xsend_wait m K c ⟨20, by decide⟩ _ (sem_xsend ⟨20, by decide⟩ _ _)) ?_
  refine step_apply (step_xrecv_wait m K c ⟨20, by decide⟩ _ (sem_xrecv ⟨20, by decide⟩ _ _)) ?_
  refine (S3_next m K c ⟨20, by decide⟩ (by decide)).trans ?_
  refine step_apply (step_out_wait m K c ⟨21, by decide⟩ _ (sem_cpout ⟨21, by decide⟩ _ _)) ?_
  refine step_apply (step_ysend_wait m K c ⟨21, by decide⟩ _ (sem_ysend ⟨21, by decide⟩ _ _)) ?_
  exact ret_apply c (BI.Entails.refl _)

set_option maxRecDepth 65536 in
theorem part_147 (m : (ℓ : Loc nD τ sig) → Buf (Elt F) ℓ) (K : Dev nD × Fin 323 → ℕ) (c : Dev nD) (v5 : BitVec 32) (v7 : BitVec 32) (v10 : BitVec 32) :
    S3 m K c ⟨21, by decide⟩ 2 ⊢ wp frame (wpE (defs₀ (F := F)) 𝒱₀ (c : Thread nD τ) none) Set.univ
      (k0_part147 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨22, by decide⟩ 3) := by
  rw [k0_part147_eq_skeleton]; unfold k0_part147_skel
  simp only [Prog.lift, Prog.bind_op, Prog.bind_ret, Prog.pure_eq_ret]
  refine step_apply (step_xsend_wait m K c ⟨21, by decide⟩ _ (sem_xsend ⟨21, by decide⟩ _ _)) ?_
  refine step_apply (step_xrecv_wait m K c ⟨21, by decide⟩ _ (sem_xrecv ⟨21, by decide⟩ _ _)) ?_
  refine (S3_next m K c ⟨21, by decide⟩ (by decide)).trans ?_
  refine step_apply (step_out_wait m K c ⟨22, by decide⟩ _ (sem_cpout ⟨22, by decide⟩ _ _)) ?_
  refine step_apply (step_ysend_wait m K c ⟨22, by decide⟩ _ (sem_ysend ⟨22, by decide⟩ _ _)) ?_
  refine step_apply (step_xsend_wait m K c ⟨22, by decide⟩ _ (sem_xsend ⟨22, by decide⟩ _ _)) ?_
  exact ret_apply c (BI.Entails.refl _)

set_option maxRecDepth 65536 in
theorem part_148 (m : (ℓ : Loc nD τ sig) → Buf (Elt F) ℓ) (K : Dev nD × Fin 323 → ℕ) (c : Dev nD) (v5 : BitVec 32) (v7 : BitVec 32) (v10 : BitVec 32) (v4358 : BitVec 32) (c0_i32_3723 : BitVec 32) :
    S3 m K c ⟨22, by decide⟩ 3 ⊢ wp frame (wpE (defs₀ (F := F)) 𝒱₀ (c : Thread nD τ) none) Set.univ
      (k0_part148 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4358 c0_i32_3723)
      (fun _ => S3 m K c ⟨23, by decide⟩ 3) := by
  rw [k0_part148_eq_skeleton]; unfold k0_part148_skel
  simp only [Prog.lift, Prog.bind_op, Prog.bind_ret, Prog.pure_eq_ret]
  refine step_apply (step_xrecv_wait m K c ⟨22, by decide⟩ _ (sem_xrecv ⟨22, by decide⟩ _ _)) ?_
  refine (S3_next m K c ⟨22, by decide⟩ (by decide)).trans ?_
  refine step_apply (step_out_wait m K c ⟨23, by decide⟩ _ (sem_cpout ⟨23, by decide⟩ _ _)) ?_
  refine step_apply (step_ysend_wait m K c ⟨23, by decide⟩ _ (sem_ysend ⟨23, by decide⟩ _ _)) ?_
  refine step_apply (step_xsend_wait m K c ⟨23, by decide⟩ _ (sem_xsend ⟨23, by decide⟩ _ _)) ?_
  exact ret_apply c (BI.Entails.refl _)

set_option maxRecDepth 65536 in
theorem part_149 (m : (ℓ : Loc nD τ sig) → Buf (Elt F) ℓ) (K : Dev nD × Fin 323 → ℕ) (c : Dev nD) (v5 : BitVec 32) (v7 : BitVec 32) (v10 : BitVec 32) :
    S3 m K c ⟨23, by decide⟩ 3 ⊢ wp frame (wpE (defs₀ (F := F)) 𝒱₀ (c : Thread nD τ) none) Set.univ
      (k0_part149 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨25, by decide⟩ 0) := by
  rw [k0_part149_eq_skeleton]; unfold k0_part149_skel
  simp only [Prog.lift, Prog.bind_op, Prog.bind_ret, Prog.pure_eq_ret]
  refine step_apply (step_xrecv_wait m K c ⟨23, by decide⟩ _ (sem_xrecv ⟨23, by decide⟩ _ _)) ?_
  refine (S3_next m K c ⟨23, by decide⟩ (by decide)).trans ?_
  refine step_apply (step_out_wait m K c ⟨24, by decide⟩ _ (sem_cpout ⟨24, by decide⟩ _ _)) ?_
  refine step_apply (step_ysend_wait m K c ⟨24, by decide⟩ _ (sem_ysend ⟨24, by decide⟩ _ _)) ?_
  refine step_apply (step_xsend_wait m K c ⟨24, by decide⟩ _ (sem_xsend ⟨24, by decide⟩ _ _)) ?_
  refine step_apply (step_xrecv_wait m K c ⟨24, by decide⟩ _ (sem_xrecv ⟨24, by decide⟩ _ _)) ?_
  refine (S3_next m K c ⟨24, by decide⟩ (by decide)).trans ?_
  exact ret_apply c (BI.Entails.refl _)

set_option maxRecDepth 65536 in
theorem part_150 (m : (ℓ : Loc nD τ sig) → Buf (Elt F) ℓ) (K : Dev nD × Fin 323 → ℕ) (c : Dev nD) (v5 : BitVec 32) (v7 : BitVec 32) (v10 : BitVec 32) :
    S3 m K c ⟨25, by decide⟩ 0 ⊢ wp frame (wpE (defs₀ (F := F)) 𝒱₀ (c : Thread nD τ) none) Set.univ
      (k0_part150 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨26, by decide⟩ 1) := by
  rw [k0_part150_eq_skeleton]; unfold k0_part150_skel
  simp only [Prog.lift, Prog.bind_op, Prog.bind_ret, Prog.pure_eq_ret]
  refine step_apply (step_out_wait m K c ⟨25, by decide⟩ _ (sem_cpout ⟨25, by decide⟩ _ _)) ?_
  refine step_apply (step_ysend_wait m K c ⟨25, by decide⟩ _ (sem_ysend ⟨25, by decide⟩ _ _)) ?_
  refine step_apply (step_xsend_wait m K c ⟨25, by decide⟩ _ (sem_xsend ⟨25, by decide⟩ _ _)) ?_
  refine step_apply (step_xrecv_wait m K c ⟨25, by decide⟩ _ (sem_xrecv ⟨25, by decide⟩ _ _)) ?_
  refine (S3_next m K c ⟨25, by decide⟩ (by decide)).trans ?_
  refine step_apply (step_out_wait m K c ⟨26, by decide⟩ _ (sem_cpout ⟨26, by decide⟩ _ _)) ?_
  exact ret_apply c (BI.Entails.refl _)

set_option maxRecDepth 65536 in
theorem part_151 (m : (ℓ : Loc nD τ sig) → Buf (Elt F) ℓ) (K : Dev nD × Fin 323 → ℕ) (c : Dev nD) (v5 : BitVec 32) (v7 : BitVec 32) (v10 : BitVec 32) :
    S3 m K c ⟨26, by decide⟩ 1 ⊢ wp frame (wpE (defs₀ (F := F)) 𝒱₀ (c : Thread nD τ) none) Set.univ
      (k0_part151 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨27, by decide⟩ 2) := by
  rw [k0_part151_eq_skeleton]; unfold k0_part151_skel
  simp only [Prog.lift, Prog.bind_op, Prog.bind_ret, Prog.pure_eq_ret]
  refine step_apply (step_ysend_wait m K c ⟨26, by decide⟩ _ (sem_ysend ⟨26, by decide⟩ _ _)) ?_
  refine step_apply (step_xsend_wait m K c ⟨26, by decide⟩ _ (sem_xsend ⟨26, by decide⟩ _ _)) ?_
  refine step_apply (step_xrecv_wait m K c ⟨26, by decide⟩ _ (sem_xrecv ⟨26, by decide⟩ _ _)) ?_
  refine (S3_next m K c ⟨26, by decide⟩ (by decide)).trans ?_
  refine step_apply (step_out_wait m K c ⟨27, by decide⟩ _ (sem_cpout ⟨27, by decide⟩ _ _)) ?_
  refine step_apply (step_ysend_wait m K c ⟨27, by decide⟩ _ (sem_ysend ⟨27, by decide⟩ _ _)) ?_
  exact ret_apply c (BI.Entails.refl _)

set_option maxRecDepth 65536 in
theorem part_152 (m : (ℓ : Loc nD τ sig) → Buf (Elt F) ℓ) (K : Dev nD × Fin 323 → ℕ) (c : Dev nD) (v5 : BitVec 32) (v7 : BitVec 32) (v10 : BitVec 32) :
    S3 m K c ⟨27, by decide⟩ 2 ⊢ wp frame (wpE (defs₀ (F := F)) 𝒱₀ (c : Thread nD τ) none) Set.univ
      (k0_part152 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨28, by decide⟩ 3) := by
  rw [k0_part152_eq_skeleton]; unfold k0_part152_skel
  simp only [Prog.lift, Prog.bind_op, Prog.bind_ret, Prog.pure_eq_ret]
  refine step_apply (step_xsend_wait m K c ⟨27, by decide⟩ _ (sem_xsend ⟨27, by decide⟩ _ _)) ?_
  refine step_apply (step_xrecv_wait m K c ⟨27, by decide⟩ _ (sem_xrecv ⟨27, by decide⟩ _ _)) ?_
  refine (S3_next m K c ⟨27, by decide⟩ (by decide)).trans ?_
  refine step_apply (step_out_wait m K c ⟨28, by decide⟩ _ (sem_cpout ⟨28, by decide⟩ _ _)) ?_
  refine step_apply (step_ysend_wait m K c ⟨28, by decide⟩ _ (sem_ysend ⟨28, by decide⟩ _ _)) ?_
  refine step_apply (step_xsend_wait m K c ⟨28, by decide⟩ _ (sem_xsend ⟨28, by decide⟩ _ _)) ?_
  exact ret_apply c (BI.Entails.refl _)

set_option maxRecDepth 65536 in
theorem part_153 (m : (ℓ : Loc nD τ sig) → Buf (Elt F) ℓ) (K : Dev nD × Fin 323 → ℕ) (c : Dev nD) (v5 : BitVec 32) (v7 : BitVec 32) (v10 : BitVec 32) (c1792_i32_3869 : BitVec 32) :
    S3 m K c ⟨28, by decide⟩ 3 ⊢ wp frame (wpE (defs₀ (F := F)) 𝒱₀ (c : Thread nD τ) none) Set.univ
      (k0_part153 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 c1792_i32_3869)
      (fun _ => S3 m K c ⟨29, by decide⟩ 3) := by
  rw [k0_part153_eq_skeleton]; unfold k0_part153_skel
  simp only [Prog.lift, Prog.bind_op, Prog.bind_ret, Prog.pure_eq_ret]
  refine step_apply (step_xrecv_wait m K c ⟨28, by decide⟩ _ (sem_xrecv ⟨28, by decide⟩ _ _)) ?_
  refine (S3_next m K c ⟨28, by decide⟩ (by decide)).trans ?_
  refine step_apply (step_out_wait m K c ⟨29, by decide⟩ _ (sem_cpout ⟨29, by decide⟩ _ _)) ?_
  refine step_apply (step_ysend_wait m K c ⟨29, by decide⟩ _ (sem_ysend ⟨29, by decide⟩ _ _)) ?_
  refine step_apply (step_xsend_wait m K c ⟨29, by decide⟩ _ (sem_xsend ⟨29, by decide⟩ _ _)) ?_
  exact ret_apply c (BI.Entails.refl _)

set_option maxRecDepth 65536 in
theorem part_154 (m : (ℓ : Loc nD τ sig) → Buf (Elt F) ℓ) (K : Dev nD × Fin 323 → ℕ) (c : Dev nD) (v5 : BitVec 32) (v7 : BitVec 32) (v10 : BitVec 32) (v4513 : BitVec 32) (v4514 : BitVec 32) :
    S3 m K c ⟨29, by decide⟩ 3 ⊢ wp frame (wpE (defs₀ (F := F)) 𝒱₀ (c : Thread nD τ) none) Set.univ
      (k0_part154 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4513 v4514)
      (fun _ => S3 m K c ⟨31, by decide⟩ 0) := by
  rw [k0_part154_eq_skeleton]; unfold k0_part154_skel
  simp only [Prog.lift, Prog.bind_op, Prog.bind_ret, Prog.pure_eq_ret]
  refine step_apply (step_xrecv_wait m K c ⟨29, by decide⟩ _ (sem_xrecv ⟨29, by decide⟩ _ _)) ?_
  refine (S3_next m K c ⟨29, by decide⟩ (by decide)).trans ?_
  refine step_apply (step_out_wait m K c ⟨30, by decide⟩ _ (sem_cpout ⟨30, by decide⟩ _ _)) ?_
  refine step_apply (step_ysend_wait m K c ⟨30, by decide⟩ _ (sem_ysend ⟨30, by decide⟩ _ _)) ?_
  refine step_apply (step_xsend_wait m K c ⟨30, by decide⟩ _ (sem_xsend ⟨30, by decide⟩ _ _)) ?_
  refine step_apply (step_xrecv_wait m K c ⟨30, by decide⟩ _ (sem_xrecv ⟨30, by decide⟩ _ _)) ?_
  refine (S3_next m K c ⟨30, by decide⟩ (by decide)).trans ?_
  exact ret_apply c (BI.Entails.refl _)

set_option maxRecDepth 65536 in
theorem part_155 (m : (ℓ : Loc nD τ sig) → Buf (Elt F) ℓ) (K : Dev nD × Fin 323 → ℕ) (c : Dev nD) (v5 : BitVec 32) (v7 : BitVec 32) (v10 : BitVec 32) :
    S3 m K c ⟨31, by decide⟩ 0 ⊢ wp frame (wpE (defs₀ (F := F)) 𝒱₀ (c : Thread nD τ) none) Set.univ
      (k0_part155 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨32, by decide⟩ 1) := by
  rw [k0_part155_eq_skeleton]; unfold k0_part155_skel
  simp only [Prog.lift, Prog.bind_op, Prog.bind_ret, Prog.pure_eq_ret]
  refine step_apply (step_out_wait m K c ⟨31, by decide⟩ _ (sem_cpout ⟨31, by decide⟩ _ _)) ?_
  refine step_apply (step_ysend_wait m K c ⟨31, by decide⟩ _ (sem_ysend ⟨31, by decide⟩ _ _)) ?_
  refine step_apply (step_xsend_wait m K c ⟨31, by decide⟩ _ (sem_xsend ⟨31, by decide⟩ _ _)) ?_
  refine step_apply (step_xrecv_wait m K c ⟨31, by decide⟩ _ (sem_xrecv ⟨31, by decide⟩ _ _)) ?_
  refine (S3_next m K c ⟨31, by decide⟩ (by decide)).trans ?_
  refine step_apply (step_out_wait m K c ⟨32, by decide⟩ _ (sem_cpout ⟨32, by decide⟩ _ _)) ?_
  exact ret_apply c (BI.Entails.refl _)

set_option maxRecDepth 65536 in
theorem part_156 (m : (ℓ : Loc nD τ sig) → Buf (Elt F) ℓ) (K : Dev nD × Fin 323 → ℕ) (c : Dev nD) (v5 : BitVec 32) (v7 : BitVec 32) (v10 : BitVec 32) :
    S3 m K c ⟨32, by decide⟩ 1 ⊢ wp frame (wpE (defs₀ (F := F)) 𝒱₀ (c : Thread nD τ) none) Set.univ
      (k0_part156 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨33, by decide⟩ 1) := by
  rw [k0_part156_eq_skeleton]; unfold k0_part156_skel
  simp only [Prog.lift, Prog.bind_op, Prog.bind_ret, Prog.pure_eq_ret]
  refine step_apply (step_ysend_wait m K c ⟨32, by decide⟩ _ (sem_ysend ⟨32, by decide⟩ _ _)) ?_
  refine step_apply (step_xsend_wait m K c ⟨32, by decide⟩ _ (sem_xsend ⟨32, by decide⟩ _ _)) ?_
  refine step_apply (step_xrecv_wait m K c ⟨32, by decide⟩ _ (sem_xrecv ⟨32, by decide⟩ _ _)) ?_
  refine (S3_next m K c ⟨32, by decide⟩ (by decide)).trans ?_
  refine step_apply (step_out_wait m K c ⟨33, by decide⟩ _ (sem_cpout ⟨33, by decide⟩ _ _)) ?_
  exact ret_apply c (BI.Entails.refl _)

set_option maxRecDepth 65536 in
theorem part_157 (m : (ℓ : Loc nD τ sig) → Buf (Elt F) ℓ) (K : Dev nD × Fin 323 → ℕ) (c : Dev nD) (v5 : BitVec 32) (v7 : BitVec 32) (v10 : BitVec 32) :
    S3 m K c ⟨33, by decide⟩ 1 ⊢ wp frame (wpE (defs₀ (F := F)) 𝒱₀ (c : Thread nD τ) none) Set.univ
      (k0_part157 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨34, by decide⟩ 2) := by
  rw [k0_part157_eq_skeleton]; unfold k0_part157_skel
  simp only [Prog.lift, Prog.bind_op, Prog.bind_ret, Prog.pure_eq_ret]
  refine step_apply (step_ysend_wait m K c ⟨33, by decide⟩ _ (sem_ysend ⟨33, by decide⟩ _ _)) ?_
  refine step_apply (step_xsend_wait m K c ⟨33, by decide⟩ _ (sem_xsend ⟨33, by decide⟩ _ _)) ?_
  refine step_apply (step_xrecv_wait m K c ⟨33, by decide⟩ _ (sem_xrecv ⟨33, by decide⟩ _ _)) ?_
  refine (S3_next m K c ⟨33, by decide⟩ (by decide)).trans ?_
  refine step_apply (step_out_wait m K c ⟨34, by decide⟩ _ (sem_cpout ⟨34, by decide⟩ _ _)) ?_
  refine step_apply (step_ysend_wait m K c ⟨34, by decide⟩ _ (sem_ysend ⟨34, by decide⟩ _ _)) ?_
  exact ret_apply c (BI.Entails.refl _)

set_option maxRecDepth 65536 in
theorem part_158 (m : (ℓ : Loc nD τ sig) → Buf (Elt F) ℓ) (K : Dev nD × Fin 323 → ℕ) (c : Dev nD) (v5 : BitVec 32) (v7 : BitVec 32) (v10 : BitVec 32) :
    S3 m K c ⟨34, by decide⟩ 2 ⊢ wp frame (wpE (defs₀ (F := F)) 𝒱₀ (c : Thread nD τ) none) Set.univ
      (k0_part158 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨35, by decide⟩ 3) := by
  rw [k0_part158_eq_skeleton]; unfold k0_part158_skel
  simp only [Prog.lift, Prog.bind_op, Prog.bind_ret, Prog.pure_eq_ret]
  refine step_apply (step_xsend_wait m K c ⟨34, by decide⟩ _ (sem_xsend ⟨34, by decide⟩ _ _)) ?_
  refine step_apply (step_xrecv_wait m K c ⟨34, by decide⟩ _ (sem_xrecv ⟨34, by decide⟩ _ _)) ?_
  refine (S3_next m K c ⟨34, by decide⟩ (by decide)).trans ?_
  refine step_apply (step_out_wait m K c ⟨35, by decide⟩ _ (sem_cpout ⟨35, by decide⟩ _ _)) ?_
  refine step_apply (step_ysend_wait m K c ⟨35, by decide⟩ _ (sem_ysend ⟨35, by decide⟩ _ _)) ?_
  refine step_apply (step_xsend_wait m K c ⟨35, by decide⟩ _ (sem_xsend ⟨35, by decide⟩ _ _)) ?_
  exact ret_apply c (BI.Entails.refl _)

set_option maxRecDepth 65536 in
theorem part_159 (m : (ℓ : Loc nD τ sig) → Buf (Elt F) ℓ) (K : Dev nD × Fin 323 → ℕ) (c : Dev nD) (v5 : BitVec 32) (v7 : BitVec 32) (v10 : BitVec 32) :
    S3 m K c ⟨35, by decide⟩ 3 ⊢ wp frame (wpE (defs₀ (F := F)) 𝒱₀ (c : Thread nD τ) none) Set.univ
      (k0_part159 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨36, by decide⟩ 3) := by
  rw [k0_part159_eq_skeleton]; unfold k0_part159_skel
  simp only [Prog.lift, Prog.bind_op, Prog.bind_ret, Prog.pure_eq_ret]
  refine step_apply (step_xrecv_wait m K c ⟨35, by decide⟩ _ (sem_xrecv ⟨35, by decide⟩ _ _)) ?_
  refine (S3_next m K c ⟨35, by decide⟩ (by decide)).trans ?_
  refine step_apply (step_out_wait m K c ⟨36, by decide⟩ _ (sem_cpout ⟨36, by decide⟩ _ _)) ?_
  refine step_apply (step_ysend_wait m K c ⟨36, by decide⟩ _ (sem_ysend ⟨36, by decide⟩ _ _)) ?_
  refine step_apply (step_xsend_wait m K c ⟨36, by decide⟩ _ (sem_xsend ⟨36, by decide⟩ _ _)) ?_
  exact ret_apply c (BI.Entails.refl _)

set_option maxRecDepth 65536 in
theorem part_160 (m : (ℓ : Loc nD τ sig) → Buf (Elt F) ℓ) (K : Dev nD × Fin 323 → ℕ) (c : Dev nD) (v5 : BitVec 32) (v7 : BitVec 32) (v10 : BitVec 32) :
    S3 m K c ⟨36, by decide⟩ 3 ⊢ wp frame (wpE (defs₀ (F := F)) 𝒱₀ (c : Thread nD τ) none) Set.univ
      (k0_part160 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨38, by decide⟩ 0) := by
  rw [k0_part160_eq_skeleton]; unfold k0_part160_skel
  simp only [Prog.lift, Prog.bind_op, Prog.bind_ret, Prog.pure_eq_ret]
  refine step_apply (step_xrecv_wait m K c ⟨36, by decide⟩ _ (sem_xrecv ⟨36, by decide⟩ _ _)) ?_
  refine (S3_next m K c ⟨36, by decide⟩ (by decide)).trans ?_
  refine step_apply (step_out_wait m K c ⟨37, by decide⟩ _ (sem_cpout ⟨37, by decide⟩ _ _)) ?_
  refine step_apply (step_ysend_wait m K c ⟨37, by decide⟩ _ (sem_ysend ⟨37, by decide⟩ _ _)) ?_
  refine step_apply (step_xsend_wait m K c ⟨37, by decide⟩ _ (sem_xsend ⟨37, by decide⟩ _ _)) ?_
  refine step_apply (step_xrecv_wait m K c ⟨37, by decide⟩ _ (sem_xrecv ⟨37, by decide⟩ _ _)) ?_
  refine (S3_next m K c ⟨37, by decide⟩ (by decide)).trans ?_
  exact ret_apply c (BI.Entails.refl _)

/-- info: 'Cert.KernelIdeal.RS.part_160' depends on axioms: [propext, Classical.choice, Quot.sound] -/
#guard_msgs in #print axioms part_160

end Cert.KernelIdeal.RS

end
-- ==== Proof.RsKernelIdeal.Body11.lean ====
/-
  The body of the reduce-scatter, part by part: the parts 161 to 176 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps3
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_161 (m : (ℓ : Loc nD τ sig) → Buf (Elt F) ℓ) (K : Dev nD × Fin 323 → ℕ) (c : Dev nD) (v5 : BitVec 32) (v7 : BitVec 32) (v10 : BitVec 32) :
    S3 m K c ⟨38, by decide⟩ 0 ⊢ wp frame (wpE (defs₀ (F := F)) 𝒱₀ (c : Thread nD τ) none) Set.univ
      (k0_part161 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨39, by decide⟩ 1) := by
  rw [k0_part161_eq_skeleton]; unfold k0_part161_skel
  simp only [Prog.lift, Prog.bind_op, Prog.bind_ret, Prog.pure_eq_ret]
  refine step_apply (step_out_wait m K c ⟨38, by decide⟩ _ (sem_cpout ⟨38, by decide⟩ _ _)) ?_
  refine step_apply (step_ysend_wait m K c ⟨38, by decide⟩ _ (sem_ysend ⟨38, by decide⟩ _ _)) ?_
  refine step_apply (step_xsend_wait m K c ⟨38, by decide⟩ _ (sem_xsend ⟨38, by decide⟩ _ _)) ?_
  refine step_apply (step_xrecv_wait m K c ⟨38, by decide⟩ _ (sem_xrecv ⟨38, by decide⟩ _ _)) ?_
  refine (S3_next m K c ⟨38, by decide⟩ (by decide)).trans ?_
  refine step_apply (step_out_wait m K c ⟨39, by decide⟩ _ (sem_cpout ⟨39, by decide⟩ _ _)) ?_
  exact ret_apply c (BI.Entails.refl _)

set_option maxRecDepth 65536 in
theorem part_162 (m : (ℓ : Loc nD τ sig) → Buf (Elt F) ℓ) (K : Dev nD × Fin 323 → ℕ) (c : Dev nD) (v5 : BitVec 32) (v7 : BitVec 32) (v10 : BitVec 32) :
    S3 m K c ⟨39, by decide⟩ 1 ⊢ wp frame (wpE (defs₀ (F := F)) 𝒱₀ (c : Thread nD τ) none) Set.univ
      (k0_part162 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨40, by decide⟩ 2) := by
  rw [k0_part162_eq_skeleton]; unfold k0_part162_skel
  simp only [Prog.lift, Prog.bind_op, Prog.bind_ret, Prog.pure_eq_ret]
  refine step_apply (step_ysend_wait m K c ⟨39, by decide⟩ _ (sem_ysend ⟨39, by decide⟩ _ _)) ?_
  refine step_apply (step_xsend_wait m K c ⟨39, by decide⟩ _ (sem_xsend ⟨39, by decide⟩ _ _)) ?_
  refine step_apply (step_xrecv_wait m K c ⟨39, by decide⟩ _ (sem_xrecv ⟨39, by decide⟩ _ _)) ?_
  refine (S3_next m K c ⟨39, by decide⟩ (by decide)).trans ?_
  refine step_apply (step_out_wait m K c ⟨40, by decide⟩ _ (sem_cpout ⟨40, by decide⟩ _ _)) ?_
  refine step_apply (step_ysend_wait m K c ⟨40, by decide⟩ _ (sem_ysend ⟨40, by decide⟩ _ _)) ?_
  exact ret_apply c (BI.Entails.refl _)

set_option maxRecDepth 65536 in
theorem part_163 (m : (ℓ : Loc nD τ sig) → Buf (Elt F) ℓ) (K : Dev nD × Fin 323 → ℕ) (c : Dev nD) (v5 : BitVec 32) (v7 : BitVec 32) (v10 : BitVec 32) :
    S3 m K c ⟨40, by decide⟩ 2 ⊢ wp frame (wpE (defs₀ (F := F)) 𝒱₀ (c : Thread nD τ) none) Set.univ
      (k0_part163 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨41, by decide⟩ 2) := by
  rw [k0_part163_eq_skeleton]; unfold k0_part163_skel
  simp only [Prog.lift, Prog.bind_op, Prog.bind_ret, Prog.pure_eq_ret]
  refine step_apply (step_xsend_wait m K c ⟨40, by decide⟩ _ (sem_xsend ⟨40, by decide⟩ _ _)) ?_
  refine step_apply (step_xrecv_wait m K c ⟨40, by decide⟩ _ (sem_xrecv ⟨40, by decide⟩ _ _)) ?_
  refine (S3_next m K c ⟨40, by decide⟩ (by decide)).trans ?_
  refine step_apply (step_out_wait m K c ⟨41, by decide⟩ _ (sem_cpout ⟨41, by decide⟩ _ _)) ?_
  refine step_apply (step_ysend_wait m K c ⟨41, by decide⟩ _ (sem_ysend ⟨41, by decide⟩ _ _)) ?_
  exact ret_apply c (BI.Entails.refl _)

set_option maxRecDepth 65536 in
theorem part_164 (m : (ℓ : Loc nD τ sig) → Buf (Elt F) ℓ) (K : Dev nD × Fin 323 → ℕ) (c : Dev nD) (v5 : BitVec 32) (v7 : BitVec 32) (v10 : BitVec 32) :
    S3 m K c ⟨41, by decide⟩ 2 ⊢ wp frame (wpE (defs₀ (F := F)) 𝒱₀ (c : Thread nD τ) none) Set.univ
      (k0_part164 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨42, by decide⟩ 3) := by
  rw [k0_part164_eq_skeleton]; unfold k0_part164_skel
  simp only [Prog.lift, Prog.bind_op, Prog.bind_ret, Prog.pure_eq_ret]
  refine step_apply (step_xsend_wait m K c ⟨41, by decide⟩ _ (sem_xsend ⟨41, by decide⟩ _ _)) ?_
  refine step_apply (step_xrecv_wait m K c ⟨41, by decide⟩ _ (sem_xrecv ⟨41, by decide⟩ _ _)) ?_
  refine (S3_next m K c ⟨41, by decide⟩ (by decide)).trans ?_
  refine step_apply (step_out_wait m K c ⟨42, by decide⟩ _ (sem_cpout ⟨42, by decide⟩ _ _)) ?_
  refine step_apply (step_ysend_wait m K c ⟨42, by decide⟩ _ (sem_ysend ⟨42, by decide⟩ _ _)) ?_
  refine step_apply (step_xsend_wait m K c ⟨42, by decide⟩ _ (sem_xsend ⟨42, by decide⟩ _ _)) ?_
  exact ret_apply c (BI.Entails.refl _)

set_option maxRecDepth 65536 in
theorem part_165 (m : (ℓ : Loc nD τ sig) → Buf (Elt F) ℓ) (K : Dev nD × Fin 323 → ℕ) (c : Dev nD) (v5 : BitVec 32) (v7 : BitVec 32) (v10 : BitVec 32) (v4798 : BitVec 32) (c0_i32_4223 : BitVec 32) :
    S3 m K c ⟨42, by decide⟩ 3 ⊢ wp frame (wpE (defs₀ (F := F)) 𝒱₀ (c : Thread nD τ) none) Set.univ
      (k0_part165 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4798 c0_i32_4223)
      (fun _ => S3 m K c ⟨43, by decide⟩ 3) := by
  rw [k0_part165_eq_skeleton]; unfold k0_part165_skel
  simp only [Prog.lift, Prog.bind_op, Prog.bind_ret, Prog.pure_eq_ret]
  refine step_apply (step_xrecv_wait m K c ⟨42, by decide⟩ _ (sem_xrecv ⟨42, by decide⟩ _ _)) ?_
  refine (S3_next m K c ⟨42, by decide⟩ (by decide)).trans ?_
  refine step_apply (step_out_wait m K c ⟨43, by decide⟩ _ (sem_cpout ⟨43, by decide⟩ _ _)) ?_
  refine step_apply (step_ysend_wait m K c ⟨43, by decide⟩ _ (sem_ysend ⟨43, by decide⟩ _ _)) ?_
  refine step_apply (step_xsend_wait m K c ⟨43, by decide⟩ _ (sem_xsend ⟨43, by decide⟩ _ _)) ?_
  exact ret_apply c (BI.Entails.refl _)

set_option maxRecDepth 65536 in
theorem part_166 (m : (ℓ : Loc nD τ sig) → Buf (Elt F) ℓ) (K : Dev nD × Fin 323 → ℕ) (c : Dev nD) (v5 : BitVec 32) (v7 : BitVec 32) (v10 : BitVec 32) :
    S3 m K c ⟨43, by decide⟩ 3 ⊢ wp frame (wpE (defs₀ (F := F)) 𝒱₀ (c : Thread nD τ) none) Set.univ
      (k0_part166 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨45, by decide⟩ 0) := by
  rw [k0_part166_eq_skeleton]; unfold k0_part166_skel
  simp only [Prog.lift, Prog.bind_op, Prog.bind_ret, Prog.pure_eq_ret]
  refine step_apply (step_xrecv_wait m K c ⟨43, by decide⟩ _ (sem_xrecv ⟨43, by decide⟩ _ _)) ?_
  refine (S3_next m K c ⟨43, by decide⟩ (by decide)).trans ?_
  refine step_apply (step_out_wait m K c ⟨44, by decide⟩ _ (sem_cpout ⟨44, by decide⟩ _ _)) ?_
  refine step_apply (step_ysend_wait m K c ⟨44, by decide⟩ _ (sem_ysend ⟨44, by decide⟩ _ _)) ?_
  refine step_apply (step_xsend_wait m K c ⟨44, by decide⟩ _ (sem_xsend ⟨44, by decide⟩ _ _)) ?_
  refine step_apply (step_xrecv_wait m K c ⟨44, by decide⟩ _ (sem_xrecv ⟨44, by decide⟩ _ _)) ?_
  refine (S3_next m K c ⟨44, by decide⟩ (by decide)).trans ?_
  exact ret_apply c (BI.Entails.refl _)

set_option maxRecDepth 65536 in
theorem part_167 (m : (ℓ : Loc nD τ sig) → Buf (Elt F) ℓ) (K : Dev nD × Fin 323 → ℕ) (c : Dev nD) (v5 : BitVec 32) (v7 : BitVec 32) (v10 : BitVec 32) :
    S3 m K c ⟨45, by decide⟩ 0 ⊢ wp frame (wpE (defs₀ (F := F)) 𝒱₀ (c : Thread nD τ) none) Set.univ
      (k0_part167 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨46, by decide⟩ 1) := by
  rw [k0_part167_eq_skeleton]; unfold k0_part167_skel
  simp only [Prog.lift, Prog.bind_op, Prog.bind_ret, Prog.pure_eq_ret]
  refine step_apply (step_out_wait m K c ⟨45, by decide⟩ _ (sem_cpout ⟨45, by decide⟩ _ _)) ?_
  refine step_apply (step_ysend_wait m K c ⟨45, by decide⟩ _ (sem_ysend ⟨45, by decide⟩ _ _)) ?_
  refine step_apply (step_xsend_wait m K c ⟨45, by decide⟩ _ (sem_xsend ⟨45, by decide⟩ _ _)) ?_
  refine step_apply (step_xrecv_wait m K c ⟨45, by decide⟩ _ (sem_xrecv ⟨45, by decide⟩ _ _)) ?_
  refine (S3_next m K c ⟨45, by decide⟩ (by decide)).trans ?_
  refine step_apply (step_out_wait m K c ⟨46, by decide⟩ _ (sem_cpout ⟨46, by decide⟩ _ _)) ?_
  exact ret_apply c (BI.Entails.refl _)

set_option maxRecDepth 65536 in
theorem part_168 (m : (ℓ : Loc nD τ sig) → Buf (Elt F) ℓ) (K : Dev nD × Fin 323 → ℕ) (c : Dev nD) (v5 : BitVec 32) (v7 : BitVec 32) (v10 : BitVec 32) :
    S3 m K c ⟨46, by decide⟩ 1 ⊢ wp frame (wpE (defs₀ (F := F)) 𝒱₀ (c : Thread nD τ) none) Set.univ
      (k0_part168 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨47, by decide⟩ 2) := by
  rw [k0_part168_eq_skeleton]; unfold k0_part168_skel
  simp only [Prog.lift, Prog.bind_op, Prog.bind_ret, Prog.pure_eq_ret]
  refine step_apply (step_ysend_wait m K c ⟨46, by decide⟩ _ (sem_ysend ⟨46, by decide⟩ _ _)) ?_
  refine step_apply (step_xsend_wait m K c ⟨46, by decide⟩ _ (sem_xsend ⟨46, by decide⟩ _ _)) ?_
  refine step_apply (step_xrecv_wait m K c ⟨46, by decide⟩ _ (sem_xrecv ⟨46, by decide⟩ _ _)) ?_
  refine (S3_next m K c ⟨46, by decide⟩ (by decide)).trans ?_
  refine step_apply (step_out_wait m K c ⟨47, by decide⟩ _ (sem_cpout ⟨47, by decide⟩ _ _)) ?_
  refine step_apply (step_ysend_wait m K c ⟨47, by decide⟩ _ (sem_ysend ⟨47, by decide⟩ _ _)) ?_
  exact ret_apply c (BI.Entails.refl _)

set_option maxRecDepth 65536 in
theorem part_169 (m : (ℓ : Loc nD τ sig) → Buf (Elt F) ℓ) (K : Dev nD × Fin 323 → ℕ) (c : Dev nD) (v5 : BitVec 32) (v7 : BitVec 32) (v10 : BitVec 32) :
    S3 m K c ⟨47, by decide⟩ 2 ⊢ wp frame (wpE (defs₀ (F := F)) 𝒱₀ (c : Thread nD τ) none) Set.univ
      (k0_part169 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨48, by decide⟩ 3) := by
  rw [k0_part169_eq_skeleton]; unfold k0_part169_skel
  simp only [Prog.lift, Prog.bind_op, Prog.bind_ret, Prog.pure_eq_ret]
  refine step_apply (step_xsend_wait m K c ⟨47, by decide⟩ _ (sem_xsend ⟨47, by decide⟩ _ _)) ?_
  refine step_apply (step_xrecv_wait m K c ⟨47, by decide⟩ _ (sem_xrecv ⟨47, by decide⟩ _ _)) ?_
  refine (S3_next m K c ⟨47, by decide⟩ (by decide)).trans ?_
  refine step_apply (step_out_wait m K c ⟨48, by decide⟩ _ (sem_cpout ⟨48, by decide⟩ _ _)) ?_
  refine step_apply (step_ysend_wait m K c ⟨48, by decide⟩ _ (sem_ysend ⟨48, by decide⟩ _ _)) ?_
  refine step_apply (step_xsend_wait m K c ⟨48, by decide⟩ _ (sem_xsend ⟨48, by decide⟩ _ _)) ?_
  exact ret_apply c (BI.Entails.refl _)

set_option maxRecDepth 65536 in
theorem part_170 (m : (ℓ : Loc nD τ sig) → Buf (Elt F) ℓ) (K : Dev nD × Fin 323 → ℕ) (c : Dev nD) (v5 : BitVec 32) (v7 : BitVec 32) (v10 : BitVec 32) (c3072_i32_4369 : BitVec 32) :
    S3 m K c ⟨48, by decide⟩ 3 ⊢ wp frame (wpE (defs₀ (F := F)) 𝒱₀ (c : Thread nD τ) none) Set.univ
      (k0_part170 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 c3072_i32_4369)
      (fun _ => S3 m K c ⟨49, by decide⟩ 3) := by
  rw [k0_part170_eq_skeleton]; unfold k0_part170_skel
  simp only [Prog.lift, Prog.bind_op, Prog.bind_ret, Prog.pure_eq_ret]
  refine step_apply (step_xrecv_wait m K c ⟨48, by decide⟩ _ (sem_xrecv ⟨48, by decide⟩ _ _)) ?_
  refine (S3_next m K c ⟨48, by decide⟩ (by decide)).trans ?_
  refine step_apply (step_out_wait m K c ⟨49, by decide⟩ _ (sem_cpout ⟨49, by decide⟩ _ _)) ?_
  refine step_apply (step_ysend_wait m K c ⟨49, by decide⟩ _ (sem_ysend ⟨49, by decide⟩ _ _)) ?_
  refine step_apply (step_xsend_wait m K c ⟨49, by decide⟩ _ (sem_xsend ⟨49, by decide⟩ _ _)) ?_
  exact ret_apply c (BI.Entails.refl _)

set_option maxRecDepth 65536 in
theorem part_171 (m : (ℓ : Loc nD τ sig) → Buf (Elt F) ℓ) (K : Dev nD × Fin 323 → ℕ) (c : Dev nD) (v5 : BitVec 32) (v7 : BitVec 32) (v10 : BitVec 32) (v4953 : BitVec 32) (v4954 : BitVec 32) :
    S3 m K c ⟨49, by decide⟩ 3 ⊢ wp frame (wpE (defs₀ (F := F)) 𝒱₀ (c : Thread nD τ) none) Set.univ
      (k0_part171 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4953 v4954)
      (fun _ => S3 m K c ⟨51, by decide⟩ 0) := by
  rw [k0_part171_eq_skeleton]; unfold k0_part171_skel
  simp only [Prog.lift, Prog.bind_op, Prog.bind_ret, Prog.pure_eq_ret]
  refine step_apply (step_xrecv_wait m K c ⟨49, by decide⟩ _ (sem_xrecv ⟨49, by decide⟩ _ _)) ?_
  refine (S3_next m K c ⟨49, by decide⟩ (by decide)).trans ?_
  refine step_apply (step_out_wait m K c ⟨50, by decide⟩ _ (sem_cpout ⟨50, by decide⟩ _ _)) ?_
  refine step_apply (step_ysend_wait m K c ⟨50, by decide⟩ _ (sem_ysend ⟨50, by decide⟩ _ _)) ?_
  refine step_apply (step_xsend_wait m K c ⟨50, by decide⟩ _ (sem_xsend ⟨50, by decide⟩ _ _)) ?_
  refine step_apply (step_xrecv_wait m K c ⟨50, by decide⟩ _ (sem_xrecv ⟨50, by decide⟩ _ _)) ?_
  refine (S3_next m K c ⟨50, by decide⟩ (by decide)).trans ?_
  exact ret_apply c (BI.Entails.refl _)

set_option maxRecDepth 65536 in
theorem part_172 (m : (ℓ : Loc nD τ sig) → Buf (Elt F) ℓ) (K : Dev nD × Fin 323 → ℕ) (c : Dev nD) (v5 : BitVec 32) (v7 : BitVec 32) (v10 : BitVec 32) :
    S3 m K c ⟨51, by decide⟩ 0 ⊢ wp frame (wpE (defs₀ (F := F)) 𝒱₀ (c : Thread nD τ) none) Set.univ
      (k0_part172 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨52, by decide⟩ 1) := by
  rw [k0_part172_eq_skeleton]; unfold k0_part172_skel
  simp only [Prog.lift, Prog.bind_op, Prog.bind_ret, Prog.pure_eq_ret]
  refine step_apply (step_out_wait m K c ⟨51, by decide⟩ _ (sem_cpout ⟨51, by decide⟩ _ _)) ?_
  refine step_apply (step_ysend_wait m K c ⟨51, by decide⟩ _ (sem_ysend ⟨51, by decide⟩ _ _)) ?_
  refine step_apply (step_xsend_wait m K c ⟨51, by decide⟩ _ (sem_xsend ⟨51, by decide⟩ _ _)) ?_
  refine step_apply (step_xrecv_wait m K c ⟨51, by decide⟩ _ (sem_xrecv ⟨51, by decide⟩ _ _)) ?_
  refine (S3_next m K c ⟨51, by decide⟩ (by decide)).trans ?_
  refine step_apply (step_out_wait m K c ⟨52, by decide⟩ _ (sem_cpout ⟨52, by decide⟩ _ _)) ?_
  exact ret_apply c (BI.Entails.refl _)

set_option maxRecDepth 65536 in
theorem part_173 (m : (ℓ : Loc nD τ sig) → Buf (Elt F) ℓ) (K : Dev nD × Fin 323 → ℕ) (c : Dev nD) (v5 : BitVec 32) (v7 : BitVec 32) (v10 : BitVec 32) :
    S3 m K c ⟨52, by decide⟩ 1 ⊢ wp frame (wpE (defs₀ (F := F)) 𝒱₀ (c : Thread nD τ) none) Set.univ
      (k0_part173 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨53, by decide⟩ 1) := by
  rw [k0_part173_eq_skeleton]; unfold k0_part173_skel
  simp only [Prog.lift, Prog.bind_op, Prog.bind_ret, Prog.pure_eq_ret]
  refine step_apply (step_ysend_wait m K c ⟨52, by decide⟩ _ (sem_ysend ⟨52, by decide⟩ _ _)) ?_
  refine step_apply (step_xsend_wait m K c ⟨52, by decide⟩ _ (sem_xsend ⟨52, by decide⟩ _ _)) ?_
  refine step_apply (step_xrecv_wait m K c ⟨52, by decide⟩ _ (sem_xrecv ⟨52, by decide⟩ _ _)) ?_
  refine (S3_next m K c ⟨52, by decide⟩ (by decide)).trans ?_
  refine step_apply (step_out_wait m K c ⟨53, by decide⟩ _ (sem_cpout ⟨53, by decide⟩ _ _)) ?_
  exact ret_apply c (BI.Entails.refl _)

set_option maxRecDepth 65536 in
theorem part_174 (m : (ℓ : Loc nD τ sig) → Buf (Elt F) ℓ) (K : Dev nD × Fin 323 → ℕ) (c : Dev nD) (v5 : BitVec 32) (v7 : BitVec 32) (v10 : BitVec 32) :
    S3 m K c ⟨53, by decide⟩ 1 ⊢ wp frame (wpE (defs₀ (F := F)) 𝒱₀ (c : Thread nD τ) none) Set.univ
      (k0_part174 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨54, by decide⟩ 2) := by
  rw [k0_part174_eq_skeleton]; unfold k0_part174_skel
  simp only [Prog.lift, Prog.bind_op, Prog.bind_ret, Prog.pure_eq_ret]
  refine step_apply (step_ysend_wait m K c ⟨53, by decide⟩ _ (sem_ysend ⟨53, by decide⟩ _ _)) ?_
  refine step_apply (step_xsend_wait m K c ⟨53, by decide⟩ _ (sem_xsend ⟨53, by decide⟩ _ _)) ?_
  refine step_apply (step_xrecv_wait m K c ⟨53, by decide⟩ _ (sem_xrecv ⟨53, by decide⟩ _ _)) ?_
  refine (S3_next m K c ⟨53, by decide⟩ (by decide)).trans ?_
  refine step_apply (step_out_wait m K c ⟨54, by decide⟩ _ (sem_cpout ⟨54, by decide⟩ _ _)) ?_
  refine step_apply (step_ysend_wait m K c ⟨54, by decide⟩ _ (sem_ysend ⟨54, by decide⟩ _ _)) ?_
  exact ret_apply c (BI.Entails.refl _)

set_option maxRecDepth 65536 in
theorem part_175 (m : (ℓ : Loc nD τ sig) → Buf (Elt F) ℓ) (K : Dev nD × Fin 323 → ℕ) (c : Dev nD) (v5 : BitVec 32) (v7 : BitVec 32) (v10 : BitVec 32) :
    S3 m K c ⟨54, by decide⟩ 2 ⊢ wp frame (wpE (defs₀ (F := F)) 𝒱₀ (c : Thread nD τ) none) Set.univ
      (k0_part175 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨55, by decide⟩ 3) := by
  rw [k0_part175_eq_skeleton]; unfold k0_part175_skel
  simp only [Prog.lift, Prog.bind_op, Prog.bind_ret, Prog.pure_eq_ret]
  refine step_apply (step_xsend_wait m K c ⟨54, by decide⟩ _ (sem_xsend ⟨54, by decide⟩ _ _)) ?_
  refine step_apply (step_xrecv_wait m K c ⟨54, by decide⟩ _ (sem_xrecv ⟨54, by decide⟩ _ _)) ?_
  refine (S3_next m K c ⟨54, by decide⟩ (by decide)).trans ?_
  refine step_apply (step_out_wait m K c ⟨55, by decide⟩ _ (sem_cpout ⟨55, by decide⟩ _ _)) ?_
  refine step_apply (step_ysend_wait m K c ⟨55, by decide⟩ _ (sem_ysend ⟨55, by decide⟩ _ _)) ?_
  refine step_apply (step_xsend_wait m K c ⟨55, by decide⟩ _ (sem_xsend ⟨55, by decide⟩ _ _)) ?_
  exact ret_apply c (BI.Entails.refl _)

set_option maxRecDepth 65536 in
theorem part_176 (m : (ℓ : Loc nD τ sig) → Buf (Elt F) ℓ) (K : Dev nD × Fin 323 → ℕ) (c : Dev nD) (v5 : BitVec 32) (v7 : BitVec 32) (v10 : BitVec 32) :
    S3 m K c ⟨55, by decide⟩ 3 ⊢ wp frame (wpE (defs₀ (F := F)) 𝒱₀ (c : Thread nD τ) none) Set.univ
      (k0_part176 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨56, by decide⟩ 3) := by
  rw [k0_part176_eq_skeleton]; unfold k0_part176_skel
  simp only [Prog.lift, Prog.bind_op, Prog.bind_ret, Prog.pure_eq_ret]
  refine step_apply (step_xrecv_wait m K c ⟨55, by decide⟩ _ (sem_xrecv ⟨55, by decide⟩ _ _)) ?_
  refine (S3_next m K c ⟨55, by decide⟩ (by decide)).trans ?_
  refine step_apply (step_out_wait m K c ⟨56, by decide⟩ _ (sem_cpout ⟨56, by decide⟩ _ _)) ?_
  refine step_apply (step_ysend_wait m K c ⟨56, by decide⟩ _ (sem_ysend ⟨56, by decide⟩ _ _)) ?_
  refine step_apply (step_xsend_wait m K c ⟨56, by decide⟩ _ (sem_xsend ⟨56, by decide⟩ _ _)) ?_
  exact ret_apply c (BI.Entails.refl _)

/-- info: 'Cert.KernelIdeal.RS.part_176' depends on axioms: [propext, Classical.choice, Quot.sound] -/
#guard_msgs in #print axioms part_176

end Cert.KernelIdeal.RS

end
-- ==== Proof.RsKernelIdeal.Body12.lean ====
/-
  The body of the reduce-scatter, part by part: the parts 177 to 182 of the printed body, each from the state before its first
  operation to the state after its last, one step lemma per operation in program order.
-/
import proofs.«900313_g7700000000000314_dist_rs_v7x_xy2x2_y_m8192_n1024_f32_1_alg».proof.Proof.RsKernelIdeal.BodyBase
import proofs.«900313_g7700000000000314_dist_rs_v7x_xy2x2_y_m8192_n1024_f32_1_alg».proof.Proof.RsKernelIdeal.Steps3
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_177 (m : (ℓ : Loc nD τ sig) → Buf (Elt F) ℓ) (K : Dev nD × Fin 323 → ℕ) (c : Dev nD) (v5 : BitVec 32) (v7 : BitVec 32) (v10 : BitVec 32) :
    S3 m K c ⟨56, by decide⟩ 3 ⊢ wp frame (wpE (defs₀ (F := F)) 𝒱₀ (c : Thread nD τ) none) Set.univ
      (k0_part177 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨58, by decide⟩ 0) := by
  rw [k0_part177_eq_skeleton]; unfold k0_part177_skel
  simp only [Prog.lift, Prog.bind_op, Prog.bind_ret, Prog.pure_eq_ret]
  refine step_apply (step_xrecv_wait m K c ⟨56, by decide⟩ _ (sem_xrecv ⟨56, by decide⟩ _ _)) ?_
  refine (S3_next m K c ⟨56, by decide⟩ (by decide)).trans ?_
  refine step_apply (step_out_wait m K c ⟨57, by decide⟩ _ (sem_cpout ⟨57, by decide⟩ _ _)) ?_
  refine step_apply (step_ysend_wait m K c ⟨57, by decide⟩ _ (sem_ysend ⟨57, by decide⟩ _ _)) ?_
  refine step_apply (step_xsend_wait m K c ⟨57, by decide⟩ _ (sem_xsend ⟨57, by decide⟩ _ _)) ?_
  refine step_apply (step_xrecv_wait m K c ⟨57, by decide⟩ _ (sem_xrecv ⟨57, by decide⟩ _ _)) ?_
  refine (S3_next m K c ⟨57, by decide⟩ (by decide)).trans ?_
  exact ret_apply c (BI.Entails.refl _)

set_option maxRecDepth 65536 in
theorem part_178 (m : (ℓ : Loc nD τ sig) → Buf (Elt F) ℓ) (K : Dev nD × Fin 323 → ℕ) (c : Dev nD) (v5 : BitVec 32) (v7 : BitVec 32) (v10 : BitVec 32) :
    S3 m K c ⟨58, by decide⟩ 0 ⊢ wp frame (wpE (defs₀ (F := F)) 𝒱₀ (c : Thread nD τ) none) Set.univ
      (k0_part178 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨59, by decide⟩ 1) := by
  rw [k0_part178_eq_skeleton]; unfold k0_part178_skel
  simp only [Prog.lift, Prog.bind_op, Prog.bind_ret, Prog.pure_eq_ret]
  refine step_apply (step_out_wait m K c ⟨58, by decide⟩ _ (sem_cpout ⟨58, by decide⟩ _ _)) ?_
  refine step_apply (step_ysend_wait m K c ⟨58, by decide⟩ _ (sem_ysend ⟨58, by decide⟩ _ _)) ?_
  refine step_apply (step_xsend_wait m K c ⟨58, by decide⟩ _ (sem_xsend ⟨58, by decide⟩ _ _)) ?_
  refine step_apply (step_xrecv_wait m K c ⟨58, by decide⟩ _ (sem_xrecv ⟨58, by decide⟩ _ _)) ?_
  refine (S3_next m K c ⟨58, by decide⟩ (by decide)).trans ?_
  refine step_apply (step_out_wait m K c ⟨59, by decide⟩ _ (sem_cpout ⟨59, by decide⟩ _ _)) ?_
  exact ret_apply c (BI.Entails.refl _)

set_option maxRecDepth 65536 in
theorem part_179 (m : (ℓ : Loc nD τ sig) → Buf (Elt F) ℓ) (K : Dev nD × Fin 323 → ℕ) (c : Dev nD) (v5 : BitVec 32) (v7 : BitVec 32) (v10 : BitVec 32) :
    S3 m K c ⟨59, by decide⟩ 1 ⊢ wp frame (wpE (defs₀ (F := F)) 𝒱₀ (c : Thread nD τ) none) Set.univ
      (k0_part179 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨60, by decide⟩ 2) := by
  rw [k0_part179_eq_skeleton]; unfold k0_part179_skel
  simp only [Prog.lift, Prog.bind_op, Prog.bind_ret, Prog.pure_eq_ret]
  refine step_apply (step_ysend_wait m K c ⟨59, by decide⟩ _ (sem_ysend ⟨59, by decide⟩ _ _)) ?_
  refine step_apply (step_xsend_wait m K c ⟨59, by decide⟩ _ (sem_xsend ⟨59, by decide⟩ _ _)) ?_
  refine step_apply (step_xrecv_wait m K c ⟨59, by decide⟩ _ (sem_xrecv ⟨59, by decide⟩ _ _)) ?_
  refine (S3_next m K c ⟨59, by decide⟩ (by decide)).trans ?_
  refine step_apply (step_out_wait m K c ⟨60, by decide⟩ _ (sem_cpout ⟨60, by decide⟩ _ _)) ?_
  refine step_apply (step_ysend_wait m K c ⟨60, by decide⟩ _ (sem_ysend ⟨60, by decide⟩ _ _)) ?_
  exact ret_apply c (BI.Entails.refl _)

set_option maxRecDepth 65536 in
theorem part_180 (m : (ℓ : Loc nD τ sig) → Buf (Elt F) ℓ) (K : Dev nD × Fin 323 → ℕ) (c : Dev nD) (v5 : BitVec 32) (v7 : BitVec 32) (v10 : BitVec 32) :
    S3 m K c ⟨60, by decide⟩ 2 ⊢ wp frame (wpE (defs₀ (F := F)) 𝒱₀ (c : Thread nD τ) none) Set.univ
      (k0_part180 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨61, by decide⟩ 2) := by
  rw [k0_part180_eq_skeleton]; unfold k0_part180_skel
  simp only [Prog.lift, Prog.bind_op, Prog.bind_ret, Prog.pure_eq_ret]
  refine step_apply (step_xsend_wait m K c ⟨60, by decide⟩ _ (sem_xsend ⟨60, by decide⟩ _ _)) ?_
  refine step_apply (step_xrecv_wait m K c ⟨60, by decide⟩ _ (sem_xrecv ⟨60, by decide⟩ _ _)) ?_
  refine (S3_next m K c ⟨60, by decide⟩ (by decide)).trans ?_
  refine step_apply (step_out_wait m K c ⟨61, by decide⟩ _ (sem_cpout ⟨61, by decide⟩ _ _)) ?_
  refine step_apply (step_ysend_wait m K c ⟨61, by decide⟩ _ (sem_ysend ⟨61, by decide⟩ _ _)) ?_
  exact ret_apply c (BI.Entails.refl _)

set_option maxRecDepth 65536 in
theorem part_181 (m : (ℓ : Loc nD τ sig) → Buf (Elt F) ℓ) (K : Dev nD × Fin 323 → ℕ) (c : Dev nD) (v5 : BitVec 32) (v7 : BitVec 32) (v10 : BitVec 32) :
    S3 m K c ⟨61, by decide⟩ 2 ⊢ wp frame (wpE (defs₀ (F := F)) 𝒱₀ (c : Thread nD τ) none) Set.univ
      (k0_part181 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨62, by decide⟩ 3) := by
  rw [k0_part181_eq_skeleton]; unfold k0_part181_skel
  simp only [Prog.lift, Prog.bind_op, Prog.bind_ret, Prog.pure_eq_ret]
  refine step_apply (step_xsend_wait m K c ⟨61, by decide⟩ _ (sem_xsend ⟨61, by decide⟩ _ _)) ?_
  refine step_apply (step_xrecv_wait m K c ⟨61, by decide⟩ _ (sem_xrecv ⟨61, by decide⟩ _ _)) ?_
  refine (S3_next m K c ⟨61, by decide⟩ (by decide)).trans ?_
  refine step_apply (step_out_wait m K c ⟨62, by decide⟩ _ (sem_cpout ⟨62, by decide⟩ _ _)) ?_
  refine step_apply (step_ysend_wait m K c ⟨62, by decide⟩ _ (sem_ysend ⟨62, by decide⟩ _ _)) ?_
  refine step_apply (step_xsend_wait m K c ⟨62, by decide⟩ _ (sem_xsend ⟨62, by decide⟩ _ _)) ?_
  exact ret_apply c (BI.Entails.refl _)

set_option maxRecDepth 65536 in
theorem part_182 (m : (ℓ : Loc nD τ sig) → Buf (Elt F) ℓ) (K : Dev nD × Fin 323 → ℕ) (c : Dev nD) (v5 : BitVec 32) (v7 : BitVec 32) (v10 : BitVec 32) (v5238 : BitVec 32) (c0_i32_4723 : BitVec 32) :
    S3 m K c ⟨62, by decide⟩ 3 ⊢ wp frame (wpE (defs₀ (F := F)) 𝒱₀ (c : Thread nD τ) none) Set.univ
      (k0_part182 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v5238 c0_i32_4723)
      (fun _ => S3 m K c ⟨63, by decide⟩ 3) := by
  rw [k0_part182_eq_skeleton]; unfold k0_part182_skel
  simp only [Prog.lift, Prog.bind_op, Prog.bind_ret, Prog.pure_eq_ret]
  refine step_apply (step_xrecv_wait m K c ⟨62, by decide⟩ _ (sem_xrecv ⟨62, by decide⟩ _ _)) ?_
  refine (S3_next m K c ⟨62, by decide⟩ (by decide)).trans ?_
  refine step_apply (step_out_wait m K c ⟨63, by decide⟩ _ (sem_cpout ⟨63, by decide⟩ _ _)) ?_
  refine step_apply (step_ysend_wait m K c ⟨63, by decide⟩ _ (sem_ysend ⟨63, by decide⟩ _ _)) ?_
  refine step_apply (step_xsend_wait m K c ⟨63, by decide⟩ _ (sem_xsend ⟨63, by decide⟩ _ _)) ?_
  exact ret_apply c (BI.Entails.refl _)

/-- info: 'Cert.KernelIdeal.RS.part_182' depends on axioms: [propext, Classical.choice, Quot.sound] -/
#guard_msgs in #print axioms part_182

end Cert.KernelIdeal.RS

end
-- ==== Proof.RsKernelIdeal.Body.lean ====
/-
  The body of the reduce-scatter, whole: the parts run one after another (the three second-level parts, then the body
  itself), from the state the body starts in to the state after its last wait.
-/
import proofs.«900313_g7700000000000314_dist_rs_v7x_xy2x2_y_m8192_n1024_f32_1_alg».proof.Proof.RsKernelIdeal.Body01
import proofs.«900313_g7700000000000314_dist_rs_v7x_xy2x2_y_m8192_n1024_f32_1_alg».proof.Proof.RsKernelIdeal.Body02
import proofs.«900313_g7700000000000314_dist_rs_v7x_xy2x2_y_m8192_n1024_f32_1_alg».proof.Proof.RsKernelIdeal.Body03
import proofs.«900313_g7700000000000314_dist_rs_v7x_xy2x2_y_m8192_n1024_f32_1_alg».proof.Proof.RsKernelIdeal.Body04
import proofs.«900313_g7700000000000314_dist_rs_v7x_xy2x2_y_m8192_n1024_f32_1_alg».proof.Proof.RsKernelIdeal.Body05
import proofs.«900313_g7700000000000314_dist_rs_v7x_xy2x2_y_m8192_n1024_f32_1_alg».proof.Proof.RsKernelIdeal.Body06
import proofs.«900313_g7700000000000314_dist_rs_v7x_xy2x2_y_m8192_n1024_f32_1_alg».proof.Proof.RsKernelIdeal.Body07
import proofs.«900313_g7700000000000314_dist_rs_v7x_xy2x2_y_m8192_n1024_f32_1_alg».proof.Proof.RsKernelIdeal.Body08
import proofs.«900313_g7700000000000314_dist_rs_v7x_xy2x2_y_m8192_n1024_f32_1_alg».proof.Proof.RsKernelIdeal.Body09
import proofs.«900313_g7700000000000314_dist_rs_v7x_xy2x2_y_m8192_n1024_f32_1_alg».proof.Proof.RsKernelIdeal.Body10
import proofs.«900313_g7700000000000314_dist_rs_v7x_xy2x2_y_m8192_n1024_f32_1_alg».proof.Proof.RsKernelIdeal.Body11
import proofs.«900313_g7700000000000314_dist_rs_v7x_xy2x2_y_m8192_n1024_f32_1_alg».proof.Proof.RsKernelIdeal.Body12
import proofs.«900313_g7700000000000314_dist_rs_v7x_xy2x2_y_m8192_n1024_f32_1_alg».proof.Proof.RsKernelIdeal.Steps3
import proofs.«900313_g7700000000000314_dist_rs_v7x_xy2x2_y_m8192_n1024_f32_1_alg».proof.Proof.RsKernelIdeal.Views

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_183 (m : (ℓ : Loc nD τ sig) → Buf (Elt F) ℓ) (K : Dev nD × Fin 323 → ℕ) (c : Dev nD) :
    Start m K c ⊢ wp frame (wpE (defs₀ (F := F)) 𝒱₀ (c : Thread nD τ) none) Set.univ
      (k0_part183 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun ret => iprop(⌜c = ret.1⌝ ∗ S2 m K c 20 1)) := by
  rw [k0_part183_eq_skeleton]; unfold k0_part183_skel
  refine bind_apply c (part_1 m K c) (fun ret => ?_)
  refine pure_sep_elim (fun hret => ?_)
  obtain ⟨d0, v2, v5, v6, v7, v8, v10, c0_i32_20⟩ := ret
  replace hret : c = d0 := hret
  subst hret
  refine bind_apply c (part_2 m K c _ _ _ _ _) (fun ret => ?_)
  refine bind_apply c (part_3 m K c _ _ _ _) (fun ret => ?_)
  refine bind_apply c (part_4 m K c _ _ _ _) (fun ret => ?_)
  refine bind_apply c (part_5 m K c _ _ _ _) (fun ret => ?_)
  refine bind_apply c (part_6 m K c _ _ _ _) (fun ret => ?_)
  obtain ⟨v186, v187⟩ := ret
  refine bind_apply c (part_7 m K c _ _ _ _ _ _) (fun ret => ?_)
  refine bind_apply c (part_8 m K c _ _ _ _) (fun ret => ?_)
  obtain ⟨v253, c1024_i32_170⟩ := ret
  refine bind_apply c (part_9 m K c _ _ _ _ _ _) (fun ret => ?_)
  refine bind_apply c (part_10 m K c _ _ _ _ _) (fun ret => ?_)
  refine bind_apply c (part_11 m K c _ _ _ _) (fun ret => ?_)
  refine bind_apply c (part_12 m K c _ _ _ _ _) (fun ret => ?_)
  refine bind_apply c (part_13 m K c _ _ _ _ _) (fun ret => ?_)
  refine bind_apply c (part_14 m K c _ _ _ _) (fun ret => ?_)
  refine bind_apply c (part_15 m K c _ _ _ _ _) (fun ret => ?_)
  refine bind_apply c (part_16 m K c _ _ _ _) (fun ret => ?_)
  refine bind_apply c (part_17 m K c _ _ _ _) (fun ret => ?_)
  refine bind_apply c (part_18 m K c _ _ _ _) (fun ret => ?_)
  refine bind_apply c (part_19 m K c _ _ _ _) (fun ret => ?_)
  obtain ⟨v606, v607⟩ := ret
  refine bind_apply c (part_20 m K c _ _ _ _ _ _) (fun ret => ?_)
  refine bind_apply c (part_21 m K c _ _ _ _) (fun ret => ?_)
  obtain ⟨v673, c1024_i32_440⟩ := ret
  refine bind_apply c (part_22 m K c _ _ _ _ _ _) (fun ret => ?_)
  refine bind_apply c (part_23 m K c _ _ _ _ _) (fun ret => ?_)
  refine bind_apply c (part_24 m K c _ _ _ _) (fun ret => ?_)
  refine bind_apply c (part_25 m K c _ _ _ _ _) (fun ret => ?_)
  refine bind_apply c (part_26 m K c _ _ _ _ _) (fun ret => ?_)
  refine bind_apply c (part_27 m K c _ _ _ _) (fun ret => ?_)
  refine bind_apply c (part_28 m K c _ _ _ _ _) (fun ret => ?_)
  refine bind_apply c (part_29 m K c _ _ _ _) (fun ret => ?_)
  refine bind_apply c (part_30 m K c _ _ _ _ _) (fun ret => ?_)
  refine bind_apply c (part_31 m K c _ _ _ _) (fun ret => ?_)
  refine bind_apply c (part_32 m K c _ _ _) (fun ret => ?_)
  refine bind_apply c (part_33 m K c _ _ _ _ _) (fun ret => ?_)
  obtain ⟨v1048, v1049⟩ := ret
  refine bind_apply c (part_34 m K c _ _ _ _ _ _) (fun ret => ?_)
  refine bind_apply c (part_35 m K c _ _ _) (fun ret => ?_)
  refine bind_apply c (part_36 m K c _ _ _) (fun ret => ?_)
  refine bind_apply c (part_37 m K c _ _ _ _ _) (fun ret => ?_)
  refine bind_apply c (part_38 m K c _ _ _) (fun ret => ?_)
  refine bind_apply c (part_39 m K c _ _ _ _) (fun ret => ?_)
  refine pure_sep_elim (fun hret => ?_)
  subst hret
  refine bind_apply c (part_40 m K c _ _ _ _ _) (fun ret => ?_)
  refine bind_apply c (part_41 m K c _ _ _) (fun ret => ?_)
  refine bind_apply c (part_42 m K c _ _ _ _) (fun ret => ?_)
  refine pure_sep_elim (fun hret => ?_)
  subst hret
  refine bind_apply c (part_43 m K c _ _ _) (fun ret => ?_)
  refine bind_apply c (part_44 m K c _ _ _ _ _ _) (fun ret => ?_)
  refine bind_apply c (part_45 m K c _ _ _ _) (fun ret => ?_)
  refine bind_apply c (part_46 m K c _ _ _) (fun ret => ?_)
  refine bind_apply c (part_47 m K c _ _ _ _ _) (fun ret => ?_)
  refine bind_apply c (part_48 m K c _ _ _ _) (fun ret => ?_)
  refine bind_apply c (part_49 m K c _ _ _) (fun ret => ?_)
  refine bind_apply c (part_50 m K c _ _ _ _) (fun ret => ?_)
  obtain ⟨v1553, c0_i32_1150⟩ := ret
  refine bind_apply c (part_51 m K c _ _ _ _ _ _) (fun ret => ?_)
  refine bind_apply c (part_52 m K c _ _ _) (fun ret => ?_)
  refine bind_apply c (part_53 m K c _ _ _) (fun ret => ?_)
  refine bind_apply c (part_54 m K c _ _ _ _ _ _) (fun ret => ?_)
  refine bind_apply c (part_55 m K c _ _ _) (fun ret => ?_)
  refine bind_apply c (part_56 m K c _ _ _ _) (fun ret => ?_)
  refine pure_sep_elim (fun hret => ?_)
  subst hret
  refine bind_apply c (part_57 m K c _ _ _ _) (fun ret => ?_)
  refine bind_apply c (part_58 m K c _ _ _ _ _) (fun ret => ?_)
  refine bind_apply c (part_59 m K c _ _ _ _ _) (fun ret => ?_)
  refine pure_sep_elim (fun hret => ?_)
  subst hret
  refine bind_apply c (part_60 m K c _ _ _) (fun ret => ?_)
  exact ret_fact c rfl

set_option maxRecDepth 65536 in
theorem part_184 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 20 1 ⊢ wp frame (wpE (defs₀ (F := F)) 𝒱₀ (c : Thread nD τ) none) Set.univ
      (k0_part184 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 58 5) := by
  rw [k0_part184_eq_skeleton]; unfold k0_part184_skel
  refine bind_apply c (part_61 m K c _ _ _ _ _) (fun ret => ?_)
  refine bind_apply c (part_62 m K c _ _ _ _) (fun ret => ?_)
  refine bind_apply c (part_63 m K c _ _ _) (fun ret => ?_)
  refine bind_apply c (part_64 m K c _ _ _ _ _) (fun ret => ?_)
  obtain ⟨v1968, v1969⟩ := ret
  refine bind_apply c (part_65 m K c _ _ _ _ _ _) (fun ret => ?_)
  refine bind_apply c (part_66 m K c _ _ _) (fun ret => ?_)
  refine bind_apply c (part_67 m K c _ _ _) (fun ret => ?_)
  refine bind_apply c (part_68 m K c _ _ _ _ _) (fun ret => ?_)
  refine bind_apply c (part_69 m K c _ _ _) (fun ret => ?_)
  refine bind_apply c (part_70 m K c _ _ _ _) (fun ret => ?_)
  refine pure_sep_elim (fun hret => ?_)
  subst hret
  refine bind_apply c (part_71 m K c _ _ _ _ _) (fun ret => ?_)
  refine bind_apply c (part_72 m K c _ _ _) (fun ret => ?_)
  refine bind_apply c (part_73 m K c _ _ _ _) (fun ret => ?_)
  refine pure_sep_elim (fun hret => ?_)
  subst hret
  refine bind_apply c (part_74 m K c _ _ _) (fun ret => ?_)
  refine bind_apply c (part_75 m K c _ _ _ _ _ _) (fun ret => ?_)
  refine bind_apply c (part_76 m K c _ _ _ _) (fun ret => ?_)
  refine bind_apply c (part_77 m K c _ _ _) (fun ret => ?_)
  refine bind_apply c (part_78 m K c _ _ _ _ _) (fun ret => ?_)
  refine bind_apply c (part_79 m K c _ _ _ _) (fun ret => ?_)
  refine bind_apply c (part_80 m K c _ _ _) (fun ret => ?_)
  refine bind_apply c (part_81 m K c _ _ _ _) (fun ret => ?_)
  obtain ⟨v2473, c0_i32_1950⟩ := ret
  refine bind_apply c (part_82 m K c _ _ _ _ _ _) (fun ret => ?_)
  refine bind_apply c (part_83 m K c _ _ _) (fun ret => ?_)
  refine bind_apply c (part_84 m K c _ _ _) (fun ret => ?_)
  refine bind_apply c (part_85 m K c _ _ _ _ _ _) (fun ret => ?_)
  refine bind_apply c (part_86 m K c _ _ _) (fun ret => ?_)
  refine bind_apply c (part_87 m K c _ _ _ _) (fun ret => ?_)
  refine pure_sep_elim (fun hret => ?_)
  subst hret
  refine bind_apply c (part_88 m K c _ _ _ _) (fun ret => ?_)
  refine bind_apply c (part_89 m K c _ _ _ _ _) (fun ret => ?_)
  refine bind_apply c (part_90 m K c _ _ _ _ _) (fun ret => ?_)
  refine pure_sep_elim (fun hret => ?_)
  subst hret
  refine bind_apply c (part_91 m K c _ _ _) (fun ret => ?_)
  refine bind_apply c (part_92 m K c _ _ _ _ _) (fun ret => ?_)
  refine bind_apply c (part_93 m K c _ _ _ _) (fun ret => ?_)
  refine bind_apply c (part_94 m K c _ _ _) (fun ret => ?_)
  refine bind_apply c (part_95 m K c _ _ _ _ _) (fun ret => ?_)
  obtain ⟨v2888, v2889⟩ := ret
  refine bind_apply c (part_96 m K c _ _ _ _ _ _) (fun ret => ?_)
  refine bind_apply c (part_97 m K c _ _ _) (fun ret => ?_)
  refine bind_apply c (part_98 m K c _ _ _) (fun ret => ?_)
  refine bind_apply c (part_99 m K c _ _ _ _ _) (fun ret => ?_)
  refine bind_apply c (part_100 m K c _ _ _) (fun ret => ?_)
  refine bind_apply c (part_101 m K c _ _ _ _) (fun ret => ?_)
  refine pure_sep_elim (fun hret => ?_)
  subst hret
  refine bind_apply c (part_102 m K c _ _ _ _ _) (fun ret => ?_)
  refine bind_apply c (part_103 m K c _ _ _) (fun ret => ?_)
  refine bind_apply c (part_104 m K c _ _ _ _) (fun ret => ?_)
  refine pure_sep_elim (fun hret => ?_)
  subst hret
  refine bind_apply c (part_105 m K c _ _ _) (fun ret => ?_)
  refine bind_apply c (part_106 m K c _ _ _ _ _ _) (fun ret => ?_)
  refine bind_apply c (part_107 m K c _ _ _ _) (fun ret => ?_)
  refine bind_apply c (part_108 m K c _ _ _) (fun ret => ?_)
  refine bind_apply c (part_109 m K c _ _ _ _ _) (fun ret => ?_)
  refine bind_apply c (part_110 m K c _ _ _ _) (fun ret => ?_)
  refine bind_apply c (part_111 m K c _ _ _) (fun ret => ?_)
  refine bind_apply c (part_112 m K c _ _ _ _) (fun ret => ?_)
  obtain ⟨v3393, c0_i32_2750⟩ := ret
  refine bind_apply c (part_113 m K c _ _ _ _ _ _) (fun ret => ?_)
  refine bind_apply c (part_114 m K c _ _ _) (fun ret => ?_)
  refine bind_apply c (part_115 m K c _ _ _) (fun ret => ?_)
  refine bind_apply c (part_116 m K c _ _ _ _ _ _) (fun ret => ?_)
  refine bind_apply c (part_117 m K c _ _ _) (fun ret => ?_)
  refine bind_apply c (part_118 m K c _ _ _ _) (fun ret => ?_)
  refine pure_sep_elim (fun hret => ?_)
  subst hret
  refine bind_apply c (part_119 m K c _ _ _ _) (fun ret => ?_)
  exact part_120 m K c _ _ _ _ _

set_option maxRecDepth 65536 in
theorem part_185 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (v10 : BitVec 32) (c3712_i32_2955 : BitVec 32) :
    S2 m K c 58 5 ⊢ wp frame (wpE (defs₀ (F := F)) 𝒱₀ (c : Thread nD τ) none) Set.univ
      (k0_part185 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 v10 c3712_i32_2955)
      (fun _ => S3 m K c ⟨61, by decide⟩ 2) := by
  rw [k0_part185_eq_skeleton]; unfold k0_part185_skel
  refine bind_apply c (part_121 m K c _ _ _ _ _) (fun ret => ?_)
  refine pure_sep_elim (fun hret => ?_)
  subst hret
  refine bind_apply c (part_122 m K c _ _ _) (fun ret => ?_)
  refine bind_apply c (part_123 m K c _ _ _ _ _) (fun ret => ?_)
  refine bind_apply c (part_124 m K c _ _ _ _) (fun ret => ?_)
  refine bind_apply c (part_125 m K c _ _ _) (fun ret => ?_)
  refine bind_apply c (part_126 m K c _ _ _ _ _) (fun ret => ?_)
  obtain ⟨v3808, v3809⟩ := ret
  refine bind_apply c (part_127 m K c _ _ _ _ _) (fun ret => ?_)
  refine pure_sep_elim (fun hret => ?_)
  subst hret
  refine bind_apply c (part_128 m K c _ _ _) (fun ret => ?_)
  refine bind_apply c (part_129 m K c _ _ _) (fun ret => ?_)
  refine bind_apply c (part_130 m K c _ _ _) (fun ret => ?_)
  obtain ⟨v3918, c0_i32_3223⟩ := ret
  refine bind_apply c (part_131 m K c _ _ _ _ _) (fun ret => ?_)
  refine bind_apply c (part_132 m K c _ _ _) (fun ret => ?_)
  refine bind_apply c (part_133 m K c _ _ _) (fun ret => ?_)
  refine bind_apply c (part_134 m K c _ _ _) (fun ret => ?_)
  refine bind_apply c (part_135 m K c _ _ _) (fun ret => ?_)
  refine bind_apply c (part_136 m K c _ _ _ _) (fun ret => ?_)
  obtain ⟨v4073, v4074⟩ := ret
  refine bind_apply c (part_137 m K c _ _ _ _ _) (fun ret => ?_)
  refine bind_apply c (part_138 m K c _ _ _) (fun ret => ?_)
  refine bind_apply c (part_139 m K c _ _ _) (fun ret => ?_)
  refine bind_apply c (part_140 m K c _ _ _) (fun ret => ?_)
  refine bind_apply c (part_141 m K c _ _ _) (fun ret => ?_)
  refine bind_apply c (part_142 m K c _ _ _) (fun ret => ?_)
  refine bind_apply c (part_143 m K c _ _ _) (fun ret => ?_)
  refine bind_apply c (part_144 m K c _ _ _) (fun ret => ?_)
  refine bind_apply c (part_145 m K c _ _ _) (fun ret => ?_)
  refine bind_apply c (part_146 m K c _ _ _) (fun ret => ?_)
  refine bind_apply c (part_147 m K c _ _ _) (fun ret => ?_)
  obtain ⟨v4358, c0_i32_3723⟩ := ret
  refine bind_apply c (part_148 m K c _ _ _ _ _) (fun ret => ?_)
  refine bind_apply c (part_149 m K c _ _ _) (fun ret => ?_)
  refine bind_apply c (part_150 m K c _ _ _) (fun ret => ?_)
  refine bind_apply c (part_151 m K c _ _ _) (fun ret => ?_)
  refine bind_apply c (part_152 m K c _ _ _) (fun ret => ?_)
  refine bind_apply c (part_153 m K c _ _ _ _) (fun ret => ?_)
  obtain ⟨v4513, v4514⟩ := ret
  refine bind_apply c (part_154 m K c _ _ _ _ _) (fun ret => ?_)
  refine bind_apply c (part_155 m K c _ _ _) (fun ret => ?_)
  refine bind_apply c (part_156 m K c _ _ _) (fun ret => ?_)
  refine bind_apply c (part_157 m K c _ _ _) (fun ret => ?_)
  refine bind_apply c (part_158 m K c _ _ _) (fun ret => ?_)
  refine bind_apply c (part_159 m K c _ _ _) (fun ret => ?_)
  refine bind_apply c (part_160 m K c _ _ _) (fun ret => ?_)
  refine bind_apply c (part_161 m K c _ _ _) (fun ret => ?_)
  refine bind_apply c (part_162 m K c _ _ _) (fun ret => ?_)
  refine bind_apply c (part_163 m K c _ _ _) (fun ret => ?_)
  refine bind_apply c (part_164 m K c _ _ _) (fun ret => ?_)
  obtain ⟨v4798, c0_i32_4223⟩ := ret
  refine bind_apply c (part_165 m K c _ _ _ _ _) (fun ret => ?_)
  refine bind_apply c (part_166 m K c _ _ _) (fun ret => ?_)
  refine bind_apply c (part_167 m K c _ _ _) (fun ret => ?_)
  refine bind_apply c (part_168 m K c _ _ _) (fun ret => ?_)
  refine bind_apply c (part_169 m K c _ _ _) (fun ret => ?_)
  refine bind_apply c (part_170 m K c _ _ _ _) (fun ret => ?_)
  obtain ⟨v4953, v4954⟩ := ret
  refine bind_apply c (part_171 m K c _ _ _ _ _) (fun ret => ?_)
  refine bind_apply c (part_172 m K c _ _ _) (fun ret => ?_)
  refine bind_apply c (part_173 m K c _ _ _) (fun ret => ?_)
  refine bind_apply c (part_174 m K c _ _ _) (fun ret => ?_)
  refine bind_apply c (part_175 m K c _ _ _) (fun ret => ?_)
  refine bind_apply c (part_176 m K c _ _ _) (fun ret => ?_)
  refine bind_apply c (part_177 m K c _ _ _) (fun ret => ?_)
  refine bind_apply c (part_178 m K c _ _ _) (fun ret => ?_)
  refine bind_apply c (part_179 m K c _ _ _) (fun ret => ?_)
  refine bind_apply c (part_180 m K c _ _ _) (fun ret => ?_)
  exact ret_apply c (BI.Entails.refl _)

set_option maxRecDepth 65536 in
theorem body_main (m : (ℓ : Loc nD τ sig) → Buf (Elt F) ℓ) (K : Dev nD × Fin 323 → ℕ) (c : Dev nD) :
    Start m K c ⊢ wp frame (wpE (defs₀ (F := F)) 𝒱₀ (c : Thread nD τ) none) Set.univ
      (cc0_body (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun _ => S4 m K c) := by
  rw [cc0_body_eq_skeleton]; unfold cc0_body_skel
  refine bind_apply c (part_183 m K c) (fun ret => ?_)
  refine pure_sep_elim (fun hret => ?_)
  obtain ⟨d0, v2, v5, v6, v7, v8, v10⟩ := ret
  replace hret : c = d0 := hret
  subst hret
  refine bind_apply c (part_184 m K c _ _ _ _ _) (fun ret => ?_)
  refine bind_apply c (part_185 m K c _ _ _ _ _ _ _) (fun ret => ?_)
  refine bind_apply c (part_181 m K c _ _ _) (fun ret => ?_)
  obtain ⟨v5238, c0_i32_4723⟩ := ret
  refine bind_apply c (part_182 m K c _ _ _ _ _) (fun ret => ?_)
  simp only [Prog.lift, Prog.bind_op, Prog.bind_ret, Prog.pure_eq_ret]
  refine step_apply (step_xrecv_wait m K c ⟨63, by decide⟩ _ (sem_xrecv ⟨63, by decide⟩ _ _)) ?_
  refine (S3_end m K c).trans ?_
  exact ret_apply c (BI.Entails.refl _)

/-- info: 'Cert.KernelIdeal.RS.body_main' depends on axioms: [propext, Classical.choice, Quot.sound] -/
#guard_msgs in #print axioms body_main

end Cert.KernelIdeal.RS

end
-- ==== Proof.RsKernelIdeal.Run.lean ====
/-
  The run. The launch mints the protocol's ghost state for every cell of every device under one update: each cell's
  round state, position and reached-mark, and one token per duty. Each cell's invariant is allocated from its counter
  at zero; the tokens are dealt around the mesh, every device receiving the tokens of the duties IT pays: both peers'
  barrier duties, both peers' receive duties, and its own send, copy and staging duties. From what the launch then
  hands a device, its buffers cut into the chunks' pieces, its tokens, positions and launch credit, the body runs,
  and what it leaves is read against the final memory.
-/
import proofs.«900313_g7700000000000314_dist_rs_v7x_xy2x2_y_m8192_n1024_f32_1_alg».proof.Proof.RsKernelIdeal.State
import proofs.«900313_g7700000000000314_dist_rs_v7x_xy2x2_y_m8192_n1024_f32_1_alg».proof.Proof.RsKernelIdeal.Levels
import proofs.«900313_g7700000000000314_dist_rs_v7x_xy2x2_y_m8192_n1024_f32_1_alg».proof.Proof.RsKernelIdeal.Views
import proofs.«900313_g7700000000000314_dist_rs_v7x_xy2x2_y_m8192_n1024_f32_1_alg».proof.Proof.RsKernelIdeal.Regions
import proofs.«900313_g7700000000000314_dist_rs_v7x_xy2x2_y_m8192_n1024_f32_1_alg».proof.Proof.RsKernelIdeal.Edge
import proofs.«900313_g7700000000000314_dist_rs_v7x_xy2x2_y_m8192_n1024_f32_1_alg».proof.Proof.RsKernelIdeal.Body
import proofs.«900313_g7700000000000314_dist_rs_v7x_xy2x2_y_m8192_n1024_f32_1_alg».proof.Proof.Gen.KernelIdeal.Launch
import proofs.«900313_g7700000000000314_dist_rs_v7x_xy2x2_y_m8192_n1024_f32_1_alg».proof.Proof.Gen.KernelIdeal.Points

noncomputable section

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The launch set-up's own lemmas live in `Launch`; the run itself is `run_main`. -/
namespace Launch

/-! ## The cells, and the duty tokens, as finite sets -/

theorem csem_lt (j : Fin 323) (h : j.val < 322) : csem j = .dma ⟨j.val, h⟩ := dif_pos h
theorem csem_last (j : Fin 323) (h : ¬ j.val < 322) : csem j = .reg barS := dif_neg h

theorem csem_injective : Function.Injective csem := fun j j' h => by
  by_cases h1 : j.val < 322 <;> by_cases h2 : j'.val < 322
  · rw [csem_lt j h1, csem_lt j' h2] at h
    have h3 : j.val = j'.val := congrArg (fun q : DmaSem sig => q.val) (SemLoc.dma.inj h)
    exact Fin.ext h3
  · rw [csem_lt j h1, csem_last j' h2] at h; cases h
  · rw [csem_last j h1, csem_lt j' h2] at h; cases h
  · exact Fin.ext (by have := j.isLt; have := j'.isLt; omega)

theorem kcell_injective : Function.Injective (kcell : Dev nD × Fin 323 → GSem nD τ sig) := by
  rintro ⟨c, j⟩ ⟨c', j'⟩ h
  have h1 : c = c' := congrArg (fun g : GSem nD τ sig => g.1.1) h
  have h2 : csem j = csem j' := congrArg Prod.snd h
  rw [h1, csem_injective h2]

def allCells : Finset (GSem nD τ sig) := Finset.univ.map ⟨kcell, kcell_injective⟩

/-- The position of a copy semaphore among the cells. -/
def dj (q : DmaSem sig) : Fin 323 := ⟨q.val, Nat.lt_succ_of_lt (show q.val < 322 from q.isLt)⟩
theorem kcell_dj (c : Dev nD) (q : DmaSem sig) : kcell (c, dj q) = ((c : Thread nD τ), .dma q) := by
  show ((c : Thread nD τ), csem (dj q)) = _
  rw [csem_lt (dj q) (show q.val < 322 from q.isLt)]; rfl
theorem kcell_bar (c : Dev nD) : kcell (c, Fin.last 322) = barC c := by
  show ((c : Thread nD τ), csem (Fin.last 322)) = _
  rw [csem_last (Fin.last 322) (by show ¬ 322 < 322; omega)]

/-- The duties: per chunk the column send, column receive, row send, row receive, result copy and staging duty; and the
    barrier's two. -/
abbrev TIx : Type := (Fin 64 × Fin 6) ⊕ Bool

def tokOf (x : Dev nD × TIx) : GSem nD τ sig × ℕ × Bool :=
  match x.2 with
  | .inl (r, k) =>
    match k with
    | 0 => (ysendC x.1 r, 0, false)
    | 1 => (yrecvC x.1 r, 0, false)
    | 2 => (xsendC x.1 r, 0, false)
    | 3 => (xrecvC x.1 r, 0, false)
    | 4 => (cpoutC x.1 r, 0, false)
    | 5 => (cpinC x.1 (slotOf r.val), r.val / 2, false)
  | .inr b => (barC x.1, 0, b)

/-- A token in numbers: the position of its cell's semaphore, its round, its duty. -/
def semIx : SemLoc sig → ℕ
  | .dma q => q.val
  | .reg _ => 322
def tkey (t : GSem nD τ sig × ℕ × Bool) : ℕ × ℕ × Bool := (semIx t.1.2, t.2.1, t.2.2)
def ykey : TIx → ℕ × ℕ × Bool
  | .inl (r, k) =>
    (if k.val = 0 then r.val else if k.val = 5 then 256 + r.val % 2 else if k.val = 4 then 258 + r.val else 64 * k.val + r.val,
      if k.val = 5 then r.val / 2 else 0, false)
  | .inr b => (322, 0, b)

theorem tokOf_dev (x : Dev nD × TIx) : (tokOf x).1.1.1 = x.1 := by
  rcases x with ⟨c, ⟨r, k⟩ | b⟩
  · fin_cases k <;> rfl
  · rfl
theorem tokOf_key (x : Dev nD × TIx) : tkey (tokOf x) = ykey x.2 := by
  rcases x with ⟨c, ⟨r, k⟩ | b⟩
  · fin_cases k <;> rfl
  · rfl

theorem ykey_injective : Function.Injective ykey := by
  rintro (⟨r, k⟩ | b) (⟨r', k'⟩ | b') h
  · simp only [ykey, Prod.mk.injEq] at h
    obtain ⟨h1, h2, -⟩ := h
    have := r.isLt; have := r'.isLt; have := k.isLt; have := k'.isLt
    have hh : k.val = k'.val ∧ r.val = r'.val := by split_ifs at h1 h2 <;> omega
    exact congrArg Sum.inl (Prod.ext (Fin.ext hh.2) (Fin.ext hh.1))
  · simp only [ykey, Prod.mk.injEq] at h
    obtain ⟨h1, -, -⟩ := h
    have := r.isLt; have := k.isLt
    exfalso; split_ifs at h1 <;> omega
  · simp only [ykey, Prod.mk.injEq] at h
    obtain ⟨h1, -, -⟩ := h
    have := r'.isLt; have := k'.isLt
    exfalso; split_ifs at h1 <;> omega
  · simp only [ykey, Prod.mk.injEq] at h
    exact congrArg Sum.inr h.2.2

theorem tokOf_injective : Function.Injective (tokOf : Dev nD × TIx → GSem nD τ sig × ℕ × Bool) := fun x x' h =>
  Prod.ext (by rw [← tokOf_dev x, h, tokOf_dev]) (ykey_injective (by rw [← tokOf_key, h, tokOf_key]))

def allToks : Finset (GSem nD τ sig × ℕ × Bool) := Finset.univ.map ⟨tokOf, tokOf_injective⟩

/-- The launch's element of the resource algebra: the pipeline library's copy and the protocol's. -/
def u₀ : UU :=
  (initOf (Pipeline.cells cfgs cellOf_inj) (Pipeline.launchToks cfgs cellOf_inj), initOf allCells allToks)

/-! ## What the launch mints, device by device -/

/-- One duty token. -/
abbrev tk (t : GSem nD τ sig × ℕ × Bool) : sProp 𝕄 := dutyTok ER t.1 t.2.1 t.2.2

/-- The duty tokens of device \`c\`'s OWN cells, as minted. -/
def mtoks (c : Dev nD) : sProp 𝕄 := bigSep Finset.univ fun y : TIx => tk (F := F) (tokOf (c, y))

/-- What the launch element deals device \`c\`: its cells' round states, positions and reached-marks, its cells' tokens. -/
def G (c : Dev nD) : sProp 𝕄 :=
  iprop((bigSep Finset.univ fun j : Fin 323 => roundState ER (sched m) (kcell (c, j)) 0)
    ∗ (bigSep Finset.univ fun j : Fin 323 => iprop(atPos ER (kcell (c, j)) 0 ∅ 0 ∗ reached ER (kcell (c, j)) 0)) ∗ mtoks (F := F) c)

/-- What every device knows for good, less the levels. -/
def Rec0 (K : Dev nD × Fin 323 → ℕ) : sProp 𝕄 :=
  iprop((bigSep Finset.univ fun cj : Dev nD × Fin 323 => cellInv ER (sched m) (K cj) (kcell cj))
    ∗ (bigSep Finset.univ fun cj : Dev nD × Fin 323 => reached ER (kcell cj) 0))

instance Rec0_persistent (K : Dev nD × Fin 323 → ℕ) : BI.Persistent (Rec0 m K) := by unfold Rec0; infer_instance

/-- What the global step makes of it. -/
def G' (c : Dev nD) : sProp 𝕄 := iprop(∃ K, Rec0 m K ∗ toks (F := F) c ∗ poss (F := F) c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 323 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => mtoks (F := F) c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens, dealt around the mesh -/

omit [FloatOps F] in
/-- A device's minted tokens, cell by cell. -/
theorem mtoks_eq (c : Dev nD) : mtoks (F := F) c =
    iprop((bigSep Finset.univ fun r : Fin 64 =>
        iprop(dutyTok ER (ysendC c r) 0 false ∗ dutyTok ER (yrecvC c r) 0 false ∗ dutyTok ER (xsendC c r) 0 false
          ∗ dutyTok ER (xrecvC c r) 0 false ∗ dutyTok ER (cpoutC c r) 0 false ∗ dutyTok ER (cpinC c (slotOf r.val)) (r.val / 2) false))
      ∗ (dutyTok ER (barC c) 0 false ∗ dutyTok ER (barC c) 0 true)) := by
  unfold mtoks
  rw [bigSep_univ_sum, bigSep_univ_prod, bigSep_bool]
  congr 1
  exact bigSep_congr fun r _ => by rw [bigSep_fin6]; rfl

omit [FloatOps F] in
theorem deal_y (Φ : Dev nD → sProp 𝕄) : bigSep Finset.univ Φ = bigSep Finset.univ fun c => Φ (yp c) := bigSep_univ_equiv ypEquiv Φ
omit [FloatOps F] in
theorem deal_x (Φ : Dev nD → sProp 𝕄) : bigSep Finset.univ Φ = bigSep Finset.univ fun c => Φ (xp c) := bigSep_univ_equiv xpEquiv Φ

omit [FloatOps F] in
/-- Every device's own tokens, regrouped as every device's tokens to pay with: a barrier's duty of the column peer goes to
    the column peer, its duty of the row peer to the row peer; a receive cell's duty goes to the peer that sends into it. -/
theorem toks_around : (bigSep Finset.univ fun c : Dev nD => mtoks (F := F) c) ⊢ (bigSep Finset.univ fun c : Dev nD => toks (F := F) c : sProp 𝕄) := by
  simp only [mtoks_eq, toks, bigSep_sep']
  iintro ⟨⟨HA, HB, HC, HD, HE, HP⟩, HBf, HBt⟩
  ihave HB' := (Entails.of_eq (deal_y (F := F) fun c => bigSep Finset.univ fun r : Fin 64 => dutyTok ER (yrecvC c r) 0 false)) $$ HB
  ihave HD' := (Entails.of_eq (deal_x (F := F) fun c => bigSep Finset.univ fun r : Fin 64 => dutyTok ER (xrecvC c r) 0 false)) $$ HD
  ihave HBf' := (Entails.of_eq (deal_y (F := F) fun c => dutyTok ER (barC c) 0 false)) $$ HBf
  ihave HBt' := (Entails.of_eq (deal_x (F := F) fun c => dutyTok ER (barC c) 0 true)) $$ HBt
  isplitl [HBf']; · iexact HBf'
  isplitl [HBt']; · iexact HBt'
  isplitl [HA]; · iexact HA
  isplitl [HB']; · iexact HB'
  isplitl [HC]; · iexact HC
  isplitl [HD']; · iexact HD'
  isplitl [HE]; · iexact HE
  iexact HP

/-! ## The cells of one device, family by family -/

/-- The cells that have a position in the body's start: per chunk the five one-round cells; the barrier cell and the two
    staging cells. -/
abbrev PIx : Type := (Fin 64 × Fin 5) ⊕ Fin 3
def pix : PIx → Fin 323
  | .inl (r, k) => dj (match k with | 0 => ysendQ r | 1 => yrecvQ r | 2 => xsendQ r | 3 => xrecvQ r | 4 => cpoutQ r)
  | .inr t => match t with | 0 => Fin.last 322 | 1 => dj (cpinQ 0) | 2 => dj (cpinQ 1)
def pkey : PIx → ℕ
  | .inl (r, k) => if k.val = 0 then r.val else if k.val = 4 then 258 + r.val else 64 * k.val + r.val
  | .inr t => if t.val = 0 then 322 else 255 + t.val
theorem pix_val (y : PIx) : (pix y).val = pkey y := by
  rcases y with ⟨r, k⟩ | t
  · fin_cases k <;> rfl
  · fin_cases t <;> rfl
theorem pix_injective : Function.Injective pix := fun y y' h => by
  have hv : pkey y = pkey y' := by rw [← pix_val, h, pix_val]
  rcases y with ⟨r, k⟩ | t <;> rcases y' with ⟨r', k'⟩ | t'
  · simp only [pkey] at hv
    have := r.isLt; have := r'.isLt; have := k.isLt; have := k'.isLt
    have hh : k.val = k'.val ∧ r.val = r'.val := by split_ifs at hv <;> omega
    exact congrArg Sum.inl (Prod.ext (Fin.ext hh.2) (Fin.ext hh.1))
  · simp only [pkey] at hv
    have := r.isLt; have := k.isLt; have := t'.isLt
    exfalso; split_ifs at hv <;> omega
  · simp only [pkey] at hv
    have := r'.isLt; have := k'.isLt; have := t.isLt
    exfalso; split_ifs at hv <;> omega
  · simp only [pkey] at hv
    have := t.isLt; have := t'.isLt
    exact congrArg Sum.inr (Fin.ext (by split_ifs at hv <;> omega))

omit [FloatOps F] in
theorem split_aux (Ψ : PIx → sProp 𝕄) :
    iprop((bigSep Finset.univ fun r : Fin 64 => bigSep Finset.univ fun k : Fin 5 => Ψ (.inl (r, k))) ∗ (Ψ (.inr 0) ∗ Ψ (.inr 1) ∗ Ψ (.inr 2)))
      ⊢ iprop(Ψ (.inr 0) ∗ Ψ (.inr 1) ∗ Ψ (.inr 2)
        ∗ bigSep Finset.univ fun r : Fin 64 => iprop(Ψ (.inl (r, 0)) ∗ Ψ (.inl (r, 1)) ∗ Ψ (.inl (r, 2)) ∗ Ψ (.inl (r, 3)) ∗ Ψ (.inl (r, 4)))) := by
  iintro ⟨H1, H2, H3, H4⟩
  isplitl [H2]; · iexact H2
  isplitl [H3]; · iexact H3
  isplitl [H4]; · iexact H4
  iapply (Entails.of_eq (bigSep_congr fun r _ => bigSep_fin5 (F := F) fun k => Ψ (.inl (r, k))))
  iexact H1

omit [FloatOps F] in
/-- A family over all cells of a device gives the same family over the cells named in the body's start. -/
theorem split323 (Φ : Fin 323 → sProp 𝕄) :
    bigSep Finset.univ Φ ⊢ iprop(Φ (Fin.last 322) ∗ Φ (dj (cpinQ 0)) ∗ Φ (dj (cpinQ 1))
      ∗ bigSep Finset.univ fun r : Fin 64 =>
          iprop(Φ (dj (ysendQ r)) ∗ Φ (dj (yrecvQ r)) ∗ Φ (dj (xsendQ r)) ∗ Φ (dj (xrecvQ r)) ∗ Φ (dj (cpoutQ r)))) :=
  (bigSep_subset (Finset.subset_univ (Finset.univ.image pix))).trans
    ((Entails.of_eq (by rw [bigSep_image_of_injOn pix_injective.injOn, bigSep_univ_sum, bigSep_univ_prod, bigSep_fin3]; rfl)).trans
      (split_aux (F := F) fun y => Φ (pix y)))

/-! ## The cells' invariants, allocated for all devices at once -/

omit [FloatOps F] in
/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- A family over all cells of a device: the barrier cell's and the copy cells'. -/
theorem bigSep_323 (Φ : Fin 323 → sProp 𝕄) :
    bigSep Finset.univ Φ = iprop(Φ (Fin.last 322) ∗ bigSep Finset.univ fun k : Fin 322 => Φ k.castSucc) := by
  rw [Fin.univ_castSuccEmb, Finset.cons_eq_insert, bigSep_insert (fun h => by
    obtain ⟨x, -, hx⟩ := Finset.mem_map.mp h
    have h2 : x.val = 322 := congrArg Fin.val hx
    have := x.isLt; omega), bigSep_map]; rfl

omit [FloatOps F] in
theorem kcell_castSucc (c : Dev nD) (k : Fin 322) : kcell (c, k.castSucc) = ((c : Thread nD τ), osem k) := by
  show ((c : Thread nD τ), csem k.castSucc) = _
  rw [csem_lt k.castSucc k.isLt]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 323 => semVal (kcell (c, j)) 0 : sProp 𝕄) := by
  rw [unscopedSems0_eq, bigSep_323, kcell_bar]
  unfold Pipeline.ownSems0
  iintro ⟨HS, HB⟩
  isplitl [HB]; · iexact HB
  iapply (Entails.of_eq (bigSep_congr fun k _ => by rw [kcell_castSucc]))
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 323 => iprop(∃ κ : ℕ, cellInv ER (sched m) κ (kcell (c, j))))
          ∗ (bigSep Finset.univ fun j : Fin 323 => iprop(atPos ER (kcell (c, j)) 0 ∅ 0 ∗ reached ER (kcell (c, j)) 0)) ∗ mtoks (F := F) c) := by
  unfold G
  iintro ⟨Hos, Hus, Hst, Hat, Htok⟩
  ihave Hv := (sems0_eq (F := F) c) $$ [Hos Hus]
  · isplitl [Hos] <;> iassumption
  imod (show iprop((bigSep Finset.univ fun j : Fin 323 => semVal (kcell (c, j)) 0) ∗ bigSep Finset.univ fun j : Fin 323 => roundState ER (sched m) (kcell (c, j)) 0)
      ⊢ (|={Set.univ}=> bigSep Finset.univ fun j : Fin 323 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A device's positions at the body's start, from the positions of all its cells. -/
theorem poss_intro (c : Dev nD) : (bigSep Finset.univ fun j : Fin 323 => (atPos ER (kcell (c, j)) 0 ∅ 0 : sProp 𝕄)) ⊢ poss (F := F) c := by
  refine (split323 (F := F) fun j => atPos ER (kcell (c, j)) 0 ∅ 0).trans ?_
  simp only [kcell_dj, kcell_bar]
  unfold poss
  exact .rfl

theorem ghost_intro (K : Dev nD × Fin 323 → ℕ) (c : Dev nD) :
    iprop(Rec0 m K ∗ ((bigSep Finset.univ fun j : Fin 323 => atPos ER (kcell (c, j)) 0 ∅ 0) ∗ toks (F := F) c)) ⊢ G' m c := by
  unfold G'
  iintro ⟨#HR, Hat, Htk⟩
  iexists K
  isplitr; · iexact HR
  isplitl [Htk]; · iexact Htk
  iapply (poss_intro (F := F) c); iexact Hat

theorem regroup :
    (bigSep Finset.univ fun c : Dev nD => iprop((bigSep Finset.univ fun j : Fin 323 => iprop(∃ κ : ℕ, cellInv ER (sched m) κ (kcell (c, j))))
          ∗ (bigSep Finset.univ fun j : Fin 323 => iprop(atPos ER (kcell (c, j)) 0 ∅ 0 ∗ reached ER (kcell (c, j)) 0)) ∗ mtoks (F := F) c) : sProp 𝕄)
      ⊢ bigSep Finset.univ (G' m) := by
  rw [bigSep_sep', bigSep_sep', ← bigSep_univ_prod (fun cj : Dev nD × Fin 323 => iprop(∃ κ : ℕ, cellInv ER (sched m) κ (kcell cj))),
    bigSep_congr (s := Finset.univ) (fun (c : Dev nD) _ => bigSep_sep' Finset.univ (fun j : Fin 323 => (atPos ER (kcell (c, j)) 0 ∅ 0 : sProp 𝕄)) (fun j => reached ER (kcell (c, j)) 0)),
    bigSep_sep', ← bigSep_univ_prod (fun cj : Dev nD × Fin 323 => (reached ER (kcell cj) 0 : sProp 𝕄))]
  iintro ⟨HI, ⟨Hat, #HR⟩, Htok⟩
  ihave HK := (BI.bigSep_exists_pi Finset.univ (fun (cj : Dev nD × Fin 323) (κ : ℕ) => (cellInv ER (sched m) κ (kcell cj) : sProp 𝕄))) $$ HI
  icases HK with ⟨%K, #HI⟩
  ihave Htk := (toks_around (F := F)) $$ Htok
  iapply (bigSep_with_persistent (R := Rec0 m K) fun c _ => ghost_intro m K c)
  isplitr
  · unfold Rec0; isplitl; · iexact HI
    iexact HR
  · iapply (Entails.of_eq (bigSep_sep' Finset.univ (fun c : Dev nD => bigSep Finset.univ fun j : Fin 323 => (atPos ER (kcell (c, j)) 0 ∅ 0 : sProp 𝕄)) (fun c => toks (F := F) c)).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

set_option maxRecDepth 8000 in
theorem ownSemFacts : Pipeline.OwnSemFacts cfg0.spec osem := ⟨by decide, fun a b h => SemLoc.dma.inj h, fun k w s => w.elim0⟩

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

/-- What a device holds once the launch's step is over: the records, its tokens, positions and launch credit, its two
    unscoped buffers whole at the launch's contents. -/
def Xc (c : Dev nD) : sProp 𝕄 :=
  iprop(∃ K, Rec m K ∗ toks (F := F) c ∗ poss (F := F) c ∗ creds0 (F := F) c
    ∗ (((c : Thread nD τ).loc main_arg0) ↦{fullShare} m ((c : Thread nD τ).loc main_arg0))
    ∗ (((c : Thread nD τ).loc main_v1) ↦{fullShare} m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Xc m c ∗ emp) := by
  rw [Pipeline.unscopedRestP_none, unscopedRest0_eq]
  unfold G' Rec0
  iintro ⟨⟨Ha, Hv⟩, #Hlev, Hcr, -, HG⟩
  ihave Hc := (creds (F := F) c) $$ Hcr
  icases HG with ⟨%K, ⟨#HI, #HR⟩, Htk, Hps⟩
  imodintro
  unfold Xc Rec creds0
  isplitl
  · iexists K
    isplitr
    · isplitr; · iexact HI
      isplitr; · iexact HR
      iexact Hlev
    isplitl [Htk]; · iexact Htk
    isplitl [Hps]; · iexact Hps
    isplitl [Hc]; · iexact Hc
    isplitl [Ha]; · iexact Ha
    iexact Hv
  · iempintro

end Launch

section Run

namespace Launch

theorem phi0_intro (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xc
  iintro ⟨⟨%K, HR, Htk, Hps, Hcr, Ha, Hv⟩, -, ⟨Hs0, Hs1⟩⟩
  iexists K
  isplitl [HR]; · iexact HR
  isplitl [Ha Hv Hs0 Hs1]
  · iapply (entry_bufs m c)
    isplitl [Ha]; · iexact Ha
    isplitl [Hv]; · iexact Hv
    isplitl [Hs0]; · iexact Hs0
    iexact Hs1
  isplitl [Htk]; · iexact Htk
  isplitl [Hps]; · iexact Hps
  iexact Hcr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Pipeline.ownSems0
  iintro ⟨HY, Hz, Hs0, Hs1⟩
  isplitl [HY]; · iexact HY
  isplitl [Hz]; · iexact Hz
  isplitl [Hs0]; · iexact Hs0
  iexact Hs1

/-- What the device hands back, read against the final memory. -/
theorem yc_read (c : Dev nD) (s' : Phys nD τ sig (Elt F)) :
    iprop(Yc m c ∗ emp ∗ SI s') ⊢ |={Set.univ}=> iprop(⌜QY m c s'.mem⌝ ∗ SI s') := by
  unfold Yc
  iintro ⟨⟨Hx, %f, Hf, %hf⟩, -, HSI⟩
  icombine HSI Hx gives %hx
  icombine HSI Hf gives %hv
  imodintro
  isplitr
  · ipureintro
    have e1 := Buf.eq_of_forall_mem_univ hx
    have e2 := Buf.eq_of_forall_mem_univ hv
    refine ⟨e1, fun r => ?_⟩
    rw [e2]; exact hf r
  iexact HSI

set_option maxRecDepth 100000 in
/-- The library's body obligation on device \`c\`. -/
theorem body_obligation (c : Dev nD) : BodyObligation (dats (F := F) m 0 c) (defs₀ (F := F)) 𝒱₀ () Set.univ := fun t => by
  rw [fin_N0 t]
  show iprop(Φ₀ m c ∗ (dats (F := F) m 0 c).owesAt () (Fin.castSucc t0_0) ∗ emp) ⊢ wp frame (wpE (defs₀ (F := F)) 𝒱₀ (c : Thread nD τ) none) Set.univ
    (cc0_body (Memref.whole main_arg0) (Memref.isWhole_whole _) (Memref.whole main_v1) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7)
    (fun _ => iprop(Φ₁ m c ∗ (dats (F := F) m 0 c).owesAt () (Fin.succ t0_0) ∗ emp))
  unfold Φ₀
  iintro ⟨⟨%K, HR, Hb, Htk, Hps, Hcr⟩, ⟨%W, -, Ho⟩, -⟩
  iapply (wp_fupd frame (wpE (defs₀ (F := F)) 𝒱₀ (c : Thread nD τ) none) Set.univ)
  iapply (wp_mono frame (wpE (defs₀ (F := F)) 𝒱₀ (c : Thread nD τ) none) Set.univ (Q := fun _ => S4 m K c))
  · intro _
    iintro H4
    imod (exit_S4 m K c) $$ H4 with ⟨H1, Ho2⟩
    ihave Ho3 := (show owesE (F := F) c 0 ⊢ iprop(∃ W : Waits sig Unit, owes (c : Thread nD τ) (0 : CellTallies nD τ sig Unit) W) from by unfold owesE; exact .rfl) $$ Ho2
    icases Ho3 with ⟨%W', Ho'⟩
    imodintro
    isplitl [H1]; · iexact H1
    isplitl
    · iexists W'; isplitr; · ipureintro; exact fun _ _ => Or.inl trivial
      iexact Ho'
    · iempintro
  iapply (body_main m K c)
  unfold Start owesE
  isplitl [HR]; · iexact HR
  isplitl [Hb]; · iexact Hb
  isplitl [Htk]; · iexact Htk
  isplitl [Hps]; · iexact Hps
  isplitl [Hcr]; · iexact Hcr
  iexists W; iexact Ho

end Launch

open Launch in
set_option maxRecDepth 100000 in
/-- At the compiled mesh of four devices, for any float values, from any memory with zero counters: every weakly fair
    execution of @main terminates, and in every final state each device's argument is as it was and its result reads,
    through each chunk's rows, that chunk's sums. -/
theorem run_main : θ_run defs (onTc (τ := τ) (main (F := F))) ⟨m, fun _ => 0, ρ⟩ (fun r => ∀ c : Dev nD, QY m c r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := Xc m) (Y := Yc m) (Z := fun _ => iprop(emp))
    (hX := start_intro m ρ) (hin := phi0_intro m) (hout := phi1_exit m)
    (QY := QY m)
    (hY := yc_read m)
    (hQ := fun _ h c => (h c).2.2)

end Run

/-- info: 'Cert.KernelIdeal.RS.run_main' depends on axioms: [propext, Classical.choice, Quot.sound] -/
#guard_msgs in #print axioms run_main

end Cert.KernelIdeal.RS

end
-- ==== Proof.RsKernel.Mem.lean ====
/-
  Reduce-scatter over a 2×2 mesh, the memory side. Device `c` sits at (c / 2, c % 2). Its two peers: `yp c`, the
  device in the same row with the other column, and `xp c`, the device in the same column with the other row.
  The rows a device reduces are the 4096 rows of its own row-half, cut in 64 chunks of 64 rows; chunk `r` of device `c`
  names: the half-row block it sends to its column peer (`xA`), the half-row block it keeps and stages (`xB`), the
  rows of the receive buffer where its column peer's block lands (`rS`), the staging slot (`lS`), and the rows of the
  result where the sum goes on itself and on its row peer (`oO`).
-/
import proofs.«900313_g7700000000000314_dist_rs_v7x_xy2x2_y_m8192_n1024_f32_1_alg».proof.Proof.Gen.Kernel
import proofs.«900313_g7700000000000314_dist_rs_v7x_xy2x2_y_m8192_n1024_f32_1_alg».proof.Proof.Gen.Kernel.Skeleton
import Idealize.ShloMosaic.Lib.Memref

noncomputable section

namespace Cert.Kernel.RS

open Cert.Kernel Cert.Kernel.Gen
open Idealize.ShloMosaic Idealize.ShloMosaic.TcCoe Idealize.SL.Sem

variable {F : FTy → Type} [FloatOps F]

/-! ## The mesh -/

/-- The column peer: same row, other column. -/
def yp (c : Dev nD) : Dev nD := ⟨(2 * (c.val / 2) + 1) - (c.val % 2), by revert c; decide⟩
/-- The row peer: same column, other row. -/
def xp (c : Dev nD) : Dev nD := ⟨((c.val % 2) + 2) - 2 * (c.val / 2), by revert c; decide⟩

theorem yp_yp (c : Dev nD) : yp (yp c) = c := by revert c; decide
theorem xp_xp (c : Dev nD) : xp (xp c) = c := by revert c; decide
theorem yp_ne (c : Dev nD) : yp c ≠ c := by revert c; decide
theorem xp_ne (c : Dev nD) : xp c ≠ c := by revert c; decide
theorem yp_ne_xp (c : Dev nD) : yp c ≠ xp c := by revert c; decide
theorem xp_yp (c : Dev nD) : xp (yp c) = yp (xp c) := by revert c; decide

def ypEquiv : Dev nD ≃ Dev nD := ⟨yp, yp, yp_yp, yp_yp⟩
def xpEquiv : Dev nD ≃ Dev nD := ⟨xp, xp, xp_xp, xp_xp⟩

/-! ## The memrefs -/

abbrev xM : Memref sig .tc .hbm S1x8192x2048 .f32 := Memref.whole main_arg0
abbrev oM : Memref sig .tc .hbm S8192x1024 .f32 := Memref.whole main_v1
abbrev rM : Memref sig .tc .vmem S4096x1024 .f32 := Memref.whole cc0_scratch0
abbrev lM : Memref sig .tc .vmem S2x64x1024 .f32 := Memref.whole cc0_scratch1

theorem inbR (r : Fin 64) : ∀ a, (![64 * r.val, 0] : Fin 2 → Nat) a + S64x1024.size a ≤ S4096x1024.size a := by
  intro a; have := r.isLt; fin_cases a <;> simp <;> omega
theorem inbL (s : Fin 2) : ∀ a, (![s.val, 0, 0] : Fin 3 → Nat) a + S1x64x1024.size a ≤ S2x64x1024.size a := by
  intro a; have := s.isLt; fin_cases a <;> simp <;> omega

/-- Rows [64 r, 64 r + 64) of the receive buffer. -/
abbrev rRect (r : Fin 64) : Rect S4096x1024 := Rect.unit (s := S4096x1024) ![64 * r.val, 0] S64x1024.size (inbR r)
abbrev rS (r : Fin 64) : Memref sig .tc .vmem S64x1024 .f32 := rM.slice (rRect r) (fun _ => rfl)
/-- Slot `s` of the staging buffer, as the rank-3 block the body loads and as the rank-2 block the copy fills. -/
abbrev lRect (s : Fin 2) : Rect S2x64x1024 := Rect.unit (s := S2x64x1024) ![s.val, 0, 0] S1x64x1024.size (inbL s)
abbrev lS3 (s : Fin 2) : Memref sig .tc .vmem S1x64x1024 .f32 := lM.slice (lRect s) (fun _ => rfl)
abbrev lS (s : Fin 2) : Memref sig .tc .vmem S64x1024 .f32 := (lS3 s).squeeze S64x1024 squeezes_S1x64x1024_S64x1024

/-- Chunk `r` of the half-row block device `c` KEEPS (its own column half). -/
abbrev xB3 (c : Dev nD) (r : Fin 64) : Memref sig .tc .hbm S1x64x1024 .f32 :=
  xM.slice (Rect.unit (s := S1x8192x2048) (k0_off1 c (BitVec.ofNat 32 (64 * r.val))) S1x64x1024.size (k0_off1_inb c r)) (fun _ => rfl)
abbrev xB (c : Dev nD) (r : Fin 64) : Memref sig .tc .hbm S64x1024 .f32 := (xB3 c r).squeeze S64x1024 squeezes_S1x64x1024_S64x1024
/-- Chunk `r` of the half-row block device `c` SENDS to its column peer (the other column half). -/
abbrev xA3 (c : Dev nD) (r : Fin 64) : Memref sig .tc .hbm S1x64x1024 .f32 :=
  xM.slice (Rect.unit (s := S1x8192x2048) (k0_off2 c (BitVec.ofNat 32 (64 * r.val))) S1x64x1024.size (k0_off2_inb c r)) (fun _ => rfl)
abbrev xA (c : Dev nD) (r : Fin 64) : Memref sig .tc .hbm S64x1024 .f32 := (xA3 c r).squeeze S64x1024 squeezes_S1x64x1024_S64x1024
/-- Rows of the result that hold chunk `r` of device `c`'s sums: on `c` itself and on its row peer. -/
abbrev oO (c : Dev nD) (r : Fin 64) : Memref sig .tc .hbm S64x1024 .f32 :=
  oM.slice (Rect.unit (s := S8192x1024) (k0_off3 c (BitVec.ofNat 32 (64 * r.val))) S64x1024.size (k0_off3_inb c r)) (fun _ => rfl)
/-- The same rows named from the receiving side (the wait that closes the row transfer names them so). -/
abbrev oP (c : Dev nD) (r : Fin 64) : Memref sig .tc .hbm S64x1024 .f32 :=
  oM.slice (Rect.unit (s := S8192x1024) (k0_off4 c (BitVec.ofNat 32 (64 * r.val))) S64x1024.size (k0_off4_inb c r)) (fun _ => rfl)

/-! ## The values -/

variable (m : (ℓ : Loc nD τ sig) → Buf (Elt F) ℓ)

/-- Device `c`'s argument block. -/
def X (c : Dev nD) : Buf (Elt F) ((c : Thread nD τ).loc main_arg0) := m ((c : Thread nD τ).loc main_arg0)
/-- What device `c` sends to its column peer for chunk `r`. -/
def aVal (c : Dev nD) (r : Fin 64) : Vec F S64x1024 .f32 := (xA c r).view.read (Elt F) (X m c)
/-- What device `c` stages for chunk `r`. -/
def bVal (c : Dev nD) (r : Fin 64) : Vec F S64x1024 .f32 := (xB c r).view.read (Elt F) (X m c)
/-- What device `c` receives from its column peer for chunk `r`. -/
def yVal (c : Dev nD) (r : Fin 64) : Vec F S64x1024 .f32 := aVal m (yp c) r
/-- Chunk `r` of device `c`'s sums: what it received plus what it kept. -/
def sVal (c : Dev nD) (r : Fin 64) : Vec F S64x1024 .f32 := addf (yVal m c r) (bVal m c r)

end Cert.Kernel.RS

end
-- ==== Proof.RsKernel.Proto.lean ====
/-
  The protocol of the reduce-scatter, as a schedule of rounds. Per device: the barrier cell (one round, two unit
  duties: one from the column peer, one from the row peer), and six families of copy cells indexed by the chunk:
  the column send and receive cells, the row send and receive cells, the result-copy cells (one round of one duty
  each), and the two staging cells (32 rounds of one duty each: chunk 2·R + s completes round R of slot s).
  Each duty's payload says what its landing hands the cell's owner, with the CONTENTS: a receive hands over the rows
  written, holding the sender's block or its sums; a send hands the source back; the barrier hands over the peer's
  landing rows, free to be written.
-/
import proofs.«900313_g7700000000000314_dist_rs_v7x_xy2x2_y_m8192_n1024_f32_1_alg».proof.Proof.RsKernel.Mem
import proofs.«900313_g7700000000000314_dist_rs_v7x_xy2x2_y_m8192_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The runtime's barrier semaphore of collective id 0. -/
abbrev barS : Sem sig := (SemArray.scalar (sig.barrier 0 rfl) : Sems sig S_).sem

abbrev barC (c : Dev nD) : GSem nD τ sig := ((c : Thread nD τ), .reg barS)
abbrev ysendQ (r : Fin 64) : DmaSem sig := ⟨r.val, by show r.val < 322; have := r.isLt; omega⟩
abbrev yrecvQ (r : Fin 64) : DmaSem sig := ⟨64 + r.val, by show 64 + r.val < 322; have := r.isLt; omega⟩
abbrev xsendQ (r : Fin 64) : DmaSem sig := ⟨128 + r.val, by show 128 + r.val < 322; have := r.isLt; omega⟩
abbrev xrecvQ (r : Fin 64) : DmaSem sig := ⟨192 + r.val, by show 192 + r.val < 322; have := r.isLt; omega⟩
abbrev cpinQ (s : Fin 2) : DmaSem sig := ⟨256 + s.val, by show 256 + s.val < 322; have := s.isLt; omega⟩
abbrev cpoutQ (r : Fin 64) : DmaSem sig := ⟨258 + r.val, by show 258 + r.val < 322; have := r.isLt; omega⟩
abbrev ysendC (c : Dev nD) (r : Fin 64) : GSem nD τ sig := ((c : Thread nD τ), .dma (ysendQ r))
abbrev yrecvC (c : Dev nD) (r : Fin 64) : GSem nD τ sig := ((c : Thread nD τ), .dma (yrecvQ r))
abbrev xsendC (c : Dev nD) (r : Fin 64) : GSem nD τ sig := ((c : Thread nD τ), .dma (xsendQ r))
abbrev xrecvC (c : Dev nD) (r : Fin 64) : GSem nD τ sig := ((c : Thread nD τ), .dma (xrecvQ r))
abbrev cpinC (c : Dev nD) (s : Fin 2) : GSem nD τ sig := ((c : Thread nD τ), .dma (cpinQ s))
abbrev cpoutC (c : Dev nD) (r : Fin 64) : GSem nD τ sig := ((c : Thread nD τ), .dma (cpoutQ r))

/-- The credit of one chunk's copy: every copy of the kernel moves one 64 × 1024 block of f32. -/
abbrev N : ℕ := (rS 0).view.dmaCredit
theorem N_pos : 0 < N := View.dmaCredit_pos _ (by decide)

/-- The chunk a staging slot's round serves. -/
def chunkOf (s : Fin 2) (R : ℕ) (h : R < 32) : Fin 64 := ⟨2 * R + s.val, by have := s.isLt; omega⟩

/-! ## What each landing hands over -/

/-- The column send cell: the block sent comes back. -/
def ysendPay (c : Dev nD) (r : Fin 64) : sProp 𝕄 :=
  (xA c r).view.loc (c : Thread nD τ) ↦[(xA c r).view.set]{fullShare} X m c
/-- The column receive cell: the landing rows, holding the column peer's block. -/
def yrecvPay (c : Dev nD) (r : Fin 64) : sProp 𝕄 := owns (c : Thread nD τ) (rS r) fullShare (yVal m c r)
/-- The row send cell: one half of the summed rows comes back. -/
def xsendPay (c : Dev nD) (r : Fin 64) : sProp 𝕄 := owns (c : Thread nD τ) (rS r) fullShare.left (sVal m c r)
/-- The row receive cell: the result rows of the row peer's chunk, holding the row peer's sums. -/
def xrecvPay (c : Dev nD) (r : Fin 64) : sProp 𝕄 := owns (c : Thread nD τ) (oO (xp c) r) fullShare (sVal m (xp c) r)
/-- The result-copy cell: the result rows of the own chunk holding the sums, and the other half of the summed rows. -/
def cpoutPay (c : Dev nD) (r : Fin 64) : sProp 𝕄 :=
  iprop(owns (c : Thread nD τ) (oO c r) fullShare (sVal m c r) ∗ owns (c : Thread nD τ) (rS r) fullShare.right (sVal m c r))
/-- A staging cell, round `R`: the slot holding the kept block of chunk `2 R + s`, and that block of the argument back. -/
def cpinPay (c : Dev nD) (s : Fin 2) (R : ℕ) : sProp 𝕄 :=
  if h : R < 32 then
    iprop(owns (c : Thread nD τ) (lS s) fullShare (bVal m c (chunkOf s R h))
      ∗ ((xB c (chunkOf s R h)).view.loc (c : Thread nD τ) ↦[(xB c (chunkOf s R h)).view.set]{fullShare} X m c))
  else iprop(emp)
/-- The barrier cell's duty from the column peer `p`: `p`'s landing rows, free, and that `p` is at round 0 of its receive cells. -/
def barPayY (c : Dev nD) : sProp 𝕄 :=
  bigSep Finset.univ fun r : Fin 64 =>
    iprop((∃ f, (rS r).view.loc (yp c : Thread nD τ) ↦[(rS r).view.set]{fullShare} f) ∗ reached ER (yrecvC (yp c) r) 0)
/-- The barrier cell's duty from the row peer `p`: the rows of `p`'s result where this device's sums go, free, and that `p`
    is at round 0 of its row receive cells. -/
def barPayX (c : Dev nD) : sProp 𝕄 :=
  bigSep Finset.univ fun r : Fin 64 =>
    iprop((∃ f, (oO c r).view.loc (xp c : Thread nD τ) ↦[(oO c r).view.set]{fullShare} f) ∗ reached ER (xrecvC (xp c) r) 0)

/-! ## The schedule -/

/-- The payload of a copy cell, by the position of its semaphore in the pool. -/
def dmaPay (c : Dev nD) (q : ℕ) (R : ℕ) : sProp 𝕄 :=
  if h : q < 64 then ysendPay m c ⟨q, h⟩
  else if h : q < 128 then yrecvPay m c ⟨q - 64, by omega⟩
  else if h : q < 192 then xsendPay m c ⟨q - 128, by omega⟩
  else if h : q < 256 then xrecvPay m c ⟨q - 192, by omega⟩
  else if h : q < 258 then cpinPay m c ⟨q - 256, by omega⟩ R
  else if h : q < 322 then cpoutPay m c ⟨q - 258, by omega⟩
  else iprop(emp)

def sched : Rounds.Schedule (GSem nD τ sig) Bool 𝕄 where
  duties g R :=
    if g.1.2 = .tc then
      match g.2 with
      | .reg s => if s = barS ∧ R = 0 then Finset.univ else ∅
      | .dma q => if 256 ≤ q.val ∧ q.val < 258 then (if R < 32 then {false} else ∅) else (if R = 0 then {false} else ∅)
    else ∅
  unitless _ := False
  amount g _ _ := match g.2 with | .reg _ => 1 | .dma _ => N
  payload g R d :=
    match g.2 with
    | .reg s => if s = barS then (if d then barPayX (F := F) g.1.1 else barPayY (F := F) g.1.1) else iprop(emp)
    | .dma q => dmaPay m g.1.1 q.val R
  amount_pos g _ _ _ := by
    cases g.2 with
    | reg _ => exact Nat.one_pos
    | dma _ => exact N_pos

/-! ## The schedule's tables, cell by cell -/

section Tables
variable (c : Dev nD) (r : Fin 64) (s : Fin 2)

theorem dmaPay_ysend (R : ℕ) : dmaPay m c r.val R = ysendPay m c r := by
  have := r.isLt; unfold dmaPay; rw [dif_pos this]
theorem dmaPay_yrecv (R : ℕ) : dmaPay m c (64 + r.val) R = yrecvPay m c r := by
  have := r.isLt; unfold dmaPay
  rw [dif_neg (by omega), dif_pos (show 64 + r.val < 128 by omega)]
  exact congrArg (yrecvPay m c) (Fin.ext (Nat.add_sub_cancel_left ..))
theorem dmaPay_xsend (R : ℕ) : dmaPay m c (128 + r.val) R = xsendPay m c r := by
  have := r.isLt; unfold dmaPay
  rw [dif_neg (by omega), dif_neg (by omega), dif_pos (show 128 + r.val < 192 by omega)]
  exact congrArg (xsendPay m c) (Fin.ext (Nat.add_sub_cancel_left ..))
theorem dmaPay_xrecv (R : ℕ) : dmaPay m c (192 + r.val) R = xrecvPay m c r := by
  have := r.isLt; unfold dmaPay
  rw [dif_neg (by omega), dif_neg (by omega), dif_neg (by omega), dif_pos (show 192 + r.val < 256 by omega)]
  exact congrArg (xrecvPay m c) (Fin.ext (Nat.add_sub_cancel_left ..))
theorem dmaPay_cpin (R : ℕ) : dmaPay m c (256 + s.val) R = cpinPay m c s R := by
  have := s.isLt; unfold dmaPay
  rw [dif_neg (by omega), dif_neg (by omega), dif_neg (by omega), dif_neg (by omega), dif_pos (show 256 + s.val < 258 by omega)]
  exact congrArg (fun t => cpinPay m c t R) (Fin.ext (Nat.add_sub_cancel_left ..))
theorem dmaPay_cpout (R : ℕ) : dmaPay m c (258 + r.val) R = cpoutPay m c r := by
  have := r.isLt; unfold dmaPay
  rw [dif_neg (by omega), dif_neg (by omega), dif_neg (by omega), dif_neg (by omega), dif_neg (by omega), dif_pos (show 258 + r.val < 322 by omega)]
  exact congrArg (cpoutPay m c) (Fin.ext (Nat.add_sub_cancel_left ..))

theorem payload_bar_y : (sched (F := F) m).payload (barC c) 0 false = barPayY c := by
  dsimp only [sched]; rw [if_pos rfl]; exact if_neg Bool.false_ne_true
theorem payload_bar_x : (sched (F := F) m).payload (barC c) 0 true = barPayX c := by
  dsimp only [sched]; rw [if_pos rfl, if_pos rfl]
theorem payload_ysend (R : ℕ) (d : Bool) : (sched (F := F) m).payload (ysendC c r) R d = ysendPay m c r := dmaPay_ysend m c r R
theorem payload_yrecv (R : ℕ) (d : Bool) : (sched (F := F) m).payload (yrecvC c r) R d = yrecvPay m c r := dmaPay_yrecv m c r R
theorem payload_xsend (R : ℕ) (d : Bool) : (sched (F := F) m).payload (xsendC c r) R d = xsendPay m c r := dmaPay_xsend m c r R
theorem payload_xrecv (R : ℕ) (d : Bool) : (sched (F := F) m).payload (xrecvC c r) R d = xrecvPay m c r := dmaPay_xrecv m c r R
theorem payload_cpin (R : ℕ) (d : Bool) : (sched (F := F) m).payload (cpinC c s) R d = cpinPay m c s R := dmaPay_cpin m c s R
theorem payload_cpout (R : ℕ) (d : Bool) : (sched (F := F) m).payload (cpoutC c r) R d = cpoutPay m c r := dmaPay_cpout m c r R

theorem duties_bar : (sched (F := F) m).duties (barC c) 0 = Finset.univ := by
  dsimp only [sched]; rw [if_pos rfl]; exact if_pos ⟨rfl, rfl⟩
theorem duties_ysend : (sched (F := F) m).duties (ysendC c r) 0 = {false} := by
  have := r.isLt; dsimp only [sched]; rw [if_pos rfl, if_neg (by omega)]; exact if_pos rfl
theorem duties_yrecv : (sched (F := F) m).duties (yrecvC c r) 0 = {false} := by
  have := r.isLt; dsimp only [sched]; rw [if_pos rfl, if_neg (by omega)]; exact if_pos rfl
theorem duties_xsend : (sched (F := F) m).duties (xsendC c r) 0 = {false} := by
  have := r.isLt; dsimp only [sched]; rw [if_pos rfl, if_neg (by omega)]; exact if_pos rfl
theorem duties_xrecv : (sched (F := F) m).duties (xrecvC c r) 0 = {false} := by
  have := r.isLt; dsimp only [sched]; rw [if_pos rfl, if_neg (by omega)]; exact if_pos rfl
theorem duties_cpout : (sched (F := F) m).duties (cpoutC c r) 0 = {false} := by
  have := r.isLt; dsimp only [sched]; rw [if_pos rfl, if_neg (by omega)]; exact if_pos rfl
theorem duties_cpin (R : ℕ) (h : R < 32) : (sched (F := F) m).duties (cpinC c s) R = {false} := by
  have := s.isLt; dsimp only [sched]; rw [if_pos rfl, if_pos (by omega)]; exact if_pos h

/-- A cell that is no staging cell has one round. -/
theorem duties_later_of_not_cpin (g : GSem nD τ sig) (hg : ∀ q, g.2 = .dma q → ¬ (256 ≤ q.val ∧ q.val < 258)) :
    ∀ R, 1 ≤ R → (sched (F := F) m).duties g R = ∅ := by
  intro R hR
  dsimp only [sched]
  split
  · rcases hg2 : g.2 with sm | q
    · simp only []; rw [if_neg (fun h => by omega)]
    · simp only []; rw [if_neg (hg q hg2), if_neg (by omega)]
  · rfl
/-- A staging cell has 32 rounds. -/
theorem duties_later_cpin : ∀ R, 32 ≤ R → (sched (F := F) m).duties (cpinC c s) R = ∅ := by
  intro R hR
  have := s.isLt; dsimp only [sched]; rw [if_pos rfl, if_pos (by omega)]; exact if_neg (by omega)

theorem amount_bar (R : ℕ) (d : Bool) : (sched (F := F) m).amount (barC c) R d = 1 := rfl
theorem amount_dma (q : DmaSem sig) (R : ℕ) (d : Bool) : (sched (F := F) m).amount ((c : Thread nD τ), .dma q) R d = N := rfl

theorem expect_bar : (sched (F := F) m).expect (barC c) 0 = 2 := by
  unfold Schedule.expect Schedule.amountOf
  rw [duties_bar, Finset.sum_congr rfl fun d _ => amount_bar m c 0 d, Finset.sum_const, Finset.card_univ, Fintype.card_bool, smul_eq_mul]
theorem expect_of_single (q : DmaSem sig) (R : ℕ) (h : (sched (F := F) m).duties ((c : Thread nD τ), .dma q) R = {false}) :
    (sched (F := F) m).expect ((c : Thread nD τ), .dma q) R = N := by
  unfold Schedule.expect Schedule.amountOf; rw [h, Finset.sum_singleton]; rfl

/-- The rest of a one-duty round, nothing taken yet, is that duty's payload. -/
theorem rest_of_single (g : GSem nD τ sig) (R : ℕ) (h : (sched (F := F) m).duties g R = {false}) :
    bigSep ((sched (F := F) m).duties g R \ ∅) (fun d => (sched (F := F) m).payload g R d) = (sched (F := F) m).payload g R false := by
  rw [Finset.sdiff_empty, h, bigSep_singleton]
/-- The rest of the barrier's round, nothing taken yet: both peers' payloads. -/
theorem rest_bar : bigSep ((sched (F := F) m).duties (barC c) 0 \ ∅) (fun d => (sched (F := F) m).payload (barC c) 0 d) = iprop(barPayY c ∗ barPayX c) := by
  rw [Finset.sdiff_empty, duties_bar, bigSep_univ_eq_bigSepL [false, true] (by decide) (by decide), bigSepL_cons_cons, bigSepL_singleton,
    payload_bar_y, payload_bar_x]
  rfl

end Tables

instance sched_payload_storable (g : GSem nD τ sig) (R : ℕ) (d : Bool) :
    BI.Storable (upEmb : UEmb _ 𝕄) ((sched (F := F) m).payload g R d) := by
  dsimp only [sched]
  unfold dmaPay ysendPay yrecvPay xsendPay xrecvPay cpinPay cpoutPay barPayX barPayY
  (repeat' split) <;> infer_instance

end Cert.Kernel.RS

end
-- ==== Proof.RsKernel.Tally.lean ====
/-
  What a device owes its peers, as tallies over the chunks still to send, and the levels that order the waits:
  barrier cells below the column receive cells below the row receive cells; every other cell at the bottom.
-/
import proofs.«900313_g7700000000000314_dist_rs_v7x_xy2x2_y_m8192_n1024_f32_1_alg».proof.Proof.RsKernel.Proto

noncomputable section

namespace Cert.Kernel.RS

open Cert.Kernel Cert.Kernel.Gen
open Idealize.ShloMosaic Idealize.ShloMosaic.TcCoe
open Idealize.SL Idealize.SL.Sem

/-- The chunks from `k` on, and the chunks before `k`. -/
def fromK (k : ℕ) : Finset (Fin 64) := Finset.univ.filter (fun x => k ≤ x.val)
def uptoK (k : ℕ) : Finset (Fin 64) := Finset.univ.filter (fun x => x.val < k)

/-- What device `c` still owes its column peer's receive cells when chunks `k …` are yet to be sent; the same for its row peer. -/
def Oy (c : Dev nD) (k : ℕ) : CellTallies nD τ sig Unit := ∑ r ∈ fromK k, tallyAt (yrecvC (yp c) r) () N
def Ox (c : Dev nD) (k : ℕ) : CellTallies nD τ sig Unit := ∑ r ∈ fromK k, tallyAt (xrecvC (xp c) r) () N
/-- What device `c` owes at launch: every chunk to both peers, and one unit to each peer's barrier cell. -/
def O₀ (c : Dev nD) : CellTallies nD τ sig Unit := ((Oy c 0 + Ox c 0) + tallyAt (barC (xp c)) () 1) + tallyAt (barC (yp c)) () 1

def L (g : GSem nD τ sig) : Finset Unit := if g.1.2 = .tc then {()} else ∅
def lv (g : GSem nD τ sig) (_ : Unit) : ℕ :=
  match g.2 with
  | .reg _ => 1
  | .dma q => if 64 ≤ q.val ∧ q.val < 128 then 2 else if 192 ≤ q.val ∧ q.val < 256 then 3 else 0

end Cert.Kernel.RS

end
-- ==== Proof.RsKernel.Regions.lean ====
/-
  Reduce-scatter over a 2×2 mesh, the regions. A device's four buffers cut into the chunk regions the copies move, and
  glued back: the receive buffer into its 64 row blocks, the staging buffer into its two slots, the result into the 64
  row blocks of the device's own row-half and the 64 of the other row-half, the argument into the 64 blocks it sends,
  the 64 blocks it keeps, and the other row-half, which nothing touches.
-/
import proofs.«900313_g7700000000000314_dist_rs_v7x_xy2x2_y_m8192_n1024_f32_1_alg».proof.Proof.RsKernel.Mem
import Idealize.ShloMosaic.Lib.Memref

noncomputable section

namespace Cert.Kernel.RS

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-! ## Gluing regions of one buffer -/

section Glue

variable {ℓ : Loc nD τ sig} {q : PosShare TreeShare}

/-- Pairwise disjoint regions of one buffer, each held at some contents, are their union held at some contents
    (given some contents to name where there is no region). -/
theorem glue_aux {T : Type} (S : Finset T) (K : T → Finset (Idx ℓ)) (f₀ : Buf (Elt F) ℓ)
    (h : ∀ t ∈ S, ∀ t' ∈ S, t ≠ t' → Disjoint (K t) (K t')) :
    bigSep S (fun t => (iprop(∃ f, ℓ ↦[K t]{q} f) : sProp 𝕄)) ⊢ (iprop(∃ g, ℓ ↦[S.biUnion K]{q} g) : sProp 𝕄) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f, ℓ ↦[K t]{q} f) ∗ bigSep S (fun t => (iprop(∃ f, ℓ ↦[K t]{q} f) : sProp 𝕄))) ⊢ _ from ?_)
    iintro ⟨Ht, HS⟩
    ihave H := (ih fun t₁ h₁ t₂ h₂ => h t₁ (Finset.mem_insert_of_mem h₁) t₂ (Finset.mem_insert_of_mem h₂)) $$ HS
    icases H with ⟨%g, HS⟩
    icases Ht with ⟨%ft, Ht⟩
    iexists (S.biUnion K).piecewise g ft
    iapply (pointsTo_join hd)
    isplitl [Ht]; · iexact Ht
    iexact HS

/-- The same over a family that has a member, whose contents name the rest. -/
theorem glue {T : Type} [DecidableEq T] (S : Finset T) (K : T → Finset (Idx ℓ)) {t₀ : T} (ht₀ : t₀ ∈ S)
    (h : ∀ t ∈ S, ∀ t' ∈ S, t ≠ t' → Disjoint (K t) (K t')) :
    bigSep S (fun t => (iprop(∃ f, ℓ ↦[K t]{q} f) : sProp 𝕄)) ⊢ (iprop(∃ g, ℓ ↦[S.biUnion K]{q} g) : sProp 𝕄) := by
  rw [bigSep_erase ht₀]
  have hu : S.biUnion K = K t₀ ∪ (S.erase t₀).biUnion K := by
    rw [← Finset.biUnion_insert, Finset.insert_erase ht₀]
  have hd : Disjoint (K t₀) ((S.erase t₀).biUnion K) :=
    (Finset.disjoint_biUnion_right _ _ _).mpr fun t' ht' =>
      h t₀ ht₀ t' (Finset.mem_of_mem_erase ht') (fun e => Finset.ne_of_mem_erase ht' e.symm)
  refine (show iprop((∃ f, ℓ ↦[K t₀]{q} f) ∗ bigSep (S.erase t₀) (fun t => (iprop(∃ f, ℓ ↦[K t]{q} f) : sProp 𝕄))) ⊢ _ from ?_)
  iintro ⟨H0, HS⟩
  icases H0 with ⟨%f0, H0⟩
  ihave H := (glue_aux (F := F) (U := U) (q := q) (S.erase t₀) K f0 fun t₁ h₁ t₂ h₂ =>
    h t₁ (Finset.mem_of_mem_erase h₁) t₂ (Finset.mem_of_mem_erase h₂)) $$ HS
  icases H with ⟨%g, HS⟩
  iexists ((S.erase t₀).biUnion K).piecewise g f0
  rw [hu]
  iapply (pointsTo_join hd)
  isplitl [H0]; · iexact H0
  iexact HS

end Glue

/-! ## The receive buffer: 64 blocks of 64 rows -/

theorem rS_set (r : Fin 64) : (rS r).view.set = (rRect r).set := View.set_slice_whole cc0_scratch0 (rRect r)

/-- Different chunks' rows are disjoint. -/
theorem rRect_disjoint (r r' : Fin 64) (h : r ≠ r') : Disjoint (rRect r).set (rRect r').set := by
  refine Rect.unit_disjoint 0 ?_
  have : r.val ≠ r'.val := fun e => h (Fin.ext e)
  simp; omega

theorem rS_disjoint (r r' : Fin 64) (h : r ≠ r') : Disjoint (rS r).view.set (rS r').view.set := by
  rw [rS_set, rS_set]; exact rRect_disjoint r r' h

/-- The chunks' rows are all the rows. -/
theorem rRect_cover : (Finset.univ : Finset (Fin 64)).biUnion (fun r => (rRect r).set) = Finset.univ := by
  ext i
  simp only [Finset.mem_biUnion, Finset.mem_univ, true_and, iff_true]
  have hi : (i 0).val < 4096 := (i 0).isLt
  have hj : (i 1).val < 1024 := (i 1).isLt
  refine ⟨⟨(i 0).val / 64, by omega⟩, ?_⟩
  rw [Rect.mem_set_unit]
  intro a; fin_cases a <;> simp <;> omega

theorem rS_cover : @Finset.biUnion (Fin 64) cc0_scratch0.ty.Idx _ Finset.univ (fun r => (rS r).view.set) = Finset.univ := by
  rw [show (fun r : Fin 64 => ((rS r).view.set : Finset cc0_scratch0.ty.Idx)) = fun r => (rRect r).set from funext rS_set]; exact rRect_cover

theorem recv_split (c : Dev nD) (f : Buf (Elt F) ((c : Thread nD τ).loc cc0_scratch0)) :
    (((c : Thread nD τ).loc cc0_scratch0) ↦{fullShare} f : sProp 𝕄)
      ⊢ bigSep Finset.univ (fun r : Fin 64 => (rS r).view.loc (c : Thread nD τ) ↦[(rS r).view.set]{fullShare} f) := by
  have h := pointsTo_biUnion (Ix := Unit) (Val := Elt F) (Name := ℕ) (U := U) (Lvl := ℕ)
    (ℓ := (c : Thread nD τ).loc cc0_scratch0) (q := fullShare) (f := f) Finset.univ (fun r : Fin 64 => (rS r).view.set)
    (fun r _ r' _ h => rS_disjoint r r' h)
  rw [rS_cover] at h
  exact Entails.of_eq h

theorem recv_join (c : Dev nD) :
    bigSep Finset.univ (fun r : Fin 64 => (iprop(∃ f, (rS r).view.loc (c : Thread nD τ) ↦[(rS r).view.set]{fullShare} f) : sProp 𝕄))
      ⊢ (iprop(∃ f, ((c : Thread nD τ).loc cc0_scratch0) ↦{fullShare} f) : sProp 𝕄) := by
  have h := glue (F := F) (U := U) (ℓ := (c : Thread nD τ).loc cc0_scratch0) (q := fullShare) Finset.univ
    (fun r : Fin 64 => (rS r).view.set) (Finset.mem_univ 0) (fun r _ r' _ h => rS_disjoint r r' h)
  rw [rS_cover] at h
  exact h

/-! ## The staging buffer: two slots -/

theorem lS_set (s : Fin 2) : (lS s).view.set = (lRect s).set :=
  (View.set_reshape _ _).trans (View.set_slice_whole cc0_scratch1 (lRect s))

theorem lRect_disjoint (s s' : Fin 2) (h : s ≠ s') : Disjoint (lRect s).set (lRect s').set := by
  refine Rect.unit_disjoint 0 ?_
  have : s.val ≠ s'.val := fun e => h (Fin.ext e)
  simp; omega

theorem lS_disjoint (s s' : Fin 2) (h : s ≠ s') : Disjoint (lS s).view.set (lS s').view.set := by
  rw [lS_set, lS_set]; exact lRect_disjoint s s' h

theorem lRect_cover : (Finset.univ : Finset (Fin 2)).biUnion (fun s => (lRect s).set) = Finset.univ := by
  ext i
  simp only [Finset.mem_biUnion, Finset.mem_univ, true_and, iff_true]
  have h0 : (i 0).val < 2 := (i 0).isLt
  have h1 : (i 1).val < 64 := (i 1).isLt
  have h2 : (i 2).val < 1024 := (i 2).isLt
  refine ⟨⟨(i 0).val, h0⟩, ?_⟩
  rw [Rect.mem_set_unit]
  intro a; fin_cases a <;> simp <;> omega

theorem lS_cover : @Finset.biUnion (Fin 2) cc0_scratch1.ty.Idx _ Finset.univ (fun s => (lS s).view.set) = Finset.univ := by
  rw [show (fun s : Fin 2 => ((lS s).view.set : Finset cc0_scratch1.ty.Idx)) = fun s => (lRect s).set from funext lS_set]; exact lRect_cover

theorem loc_split (c : Dev nD) (f : Buf (Elt F) ((c : Thread nD τ).loc cc0_scratch1)) :
    (((c : Thread nD τ).loc cc0_scratch1) ↦{fullShare} f : sProp 𝕄)
      ⊢ bigSep Finset.univ (fun s : Fin 2 => (lS s).view.loc (c : Thread nD τ) ↦[(lS s).view.set]{fullShare} f) := by
  have h := pointsTo_biUnion (Ix := Unit) (Val := Elt F) (Name := ℕ) (U := U) (Lvl := ℕ)
    (ℓ := (c : Thread nD τ).loc cc0_scratch1) (q := fullShare) (f := f) Finset.univ (fun s : Fin 2 => (lS s).view.set)
    (fun s _ s' _ h => lS_disjoint s s' h)
  rw [lS_cover] at h
  exact Entails.of_eq h

theorem loc_join (c : Dev nD) :
    bigSep Finset.univ (fun s : Fin 2 => (iprop(∃ f, (lS s).view.loc (c : Thread nD τ) ↦[(lS s).view.set]{fullShare} f) : sProp 𝕄))
      ⊢ (iprop(∃ f, ((c : Thread nD τ).loc cc0_scratch1) ↦{fullShare} f) : sProp 𝕄) := by
  have h := glue (F := F) (U := U) (ℓ := (c : Thread nD τ).loc cc0_scratch1) (q := fullShare) Finset.univ
    (fun s : Fin 2 => (lS s).view.set) (Finset.mem_univ 0) (fun s _ s' _ h => lS_disjoint s s' h)
  rw [lS_cover] at h
  exact h

/-! ## The result: the 64 row blocks of the device's own row-half and the 64 of the other -/

/-- The elements of chunk `r` of device `c`'s rows of the result: the rows from `4096 (c / 2) + 64 r`, 64 of them. -/
theorem mem_oO {c : Dev nD} {r : Fin 64} {i : S8192x1024.Idx} :
    i ∈ (oO c r).view.set ↔ 4096 * (c.val / 2) + 64 * r.val ≤ (i 0).val ∧ (i 0).val < 4096 * (c.val / 2) + 64 * r.val + 64 := by
  have e : (oO c r).view.set
      = (Rect.unit (s := S8192x1024) (k0_off3 c (BitVec.ofNat 32 (64 * r.val))) S64x1024.size (k0_off3_inb c r)).set :=
    View.set_slice_whole main_v1 _
  rw [e, Rect.mem_set_unit, k0_off3_eq]
  have hj : (i 1).val < 1024 := (i 1).isLt
  simp [Fin.forall_fin_two]; omega

theorem xp_half (c : Dev nD) : (xp c).val / 2 = 1 - c.val / 2 := by revert c; decide
theorem half_le (c : Dev nD) : c.val / 2 ≤ 1 := by revert c; decide

/-- Chunks of one device are disjoint. -/
theorem oO_disjoint (c : Dev nD) (r r' : Fin 64) (h : r ≠ r') : Disjoint (oO c r).view.set (oO c r').view.set := by
  have hne : r.val ≠ r'.val := fun e => h (Fin.ext e)
  refine Finset.disjoint_left.mpr fun i hi hi' => ?_
  have h1 := mem_oO.mp hi; have h2 := mem_oO.mp hi'
  omega

/-- A device's chunks are disjoint from its row peer's. -/
theorem oO_xp_disjoint (c : Dev nD) (r r' : Fin 64) : Disjoint (oO c r).view.set (oO (xp c) r').view.set := by
  refine Finset.disjoint_left.mpr fun i hi hi' => ?_
  have h1 := mem_oO.mp hi; have h2 := mem_oO.mp hi'
  have := xp_half c; have := half_le c; have := r.isLt; have := r'.isLt
  omega

/-- The elements of all of device `c`'s chunks. -/
abbrev oAll (c : Dev nD) : Finset S8192x1024.Idx :=
  (Finset.univ : Finset (Fin 64)).biUnion (fun r => ((oO c r).view.set : Finset S8192x1024.Idx))

theorem oAll_disjoint (c : Dev nD) : Disjoint (oAll c) (oAll (xp c)) :=
  (Finset.disjoint_biUnion_left _ _ _).mpr fun r _ =>
    (Finset.disjoint_biUnion_right _ _ _).mpr fun r' _ => oO_xp_disjoint c r r'

/-- The chunks of a device and of its row peer are all the rows. -/
theorem oAll_cover (c : Dev nD) : oAll c ∪ oAll (xp c) = Finset.univ := by
  ext i
  simp only [Finset.mem_union, Finset.mem_biUnion, Finset.mem_univ, true_and, iff_true]
  have hi : (i 0).val < 8192 := (i 0).isLt
  have h1 := xp_half c; have h2 := half_le c
  have hr : ((i 0).val % 4096) / 64 < 64 := by omega
  by_cases hc : (i 0).val / 4096 = c.val / 2
  · refine .inl ⟨⟨((i 0).val % 4096) / 64, hr⟩, mem_oO.mpr ?_⟩
    dsimp only; omega
  · refine .inr ⟨⟨((i 0).val % 4096) / 64, hr⟩, mem_oO.mpr ?_⟩
    dsimp only; omega

theorem out_split (c : Dev nD) (f : Buf (Elt F) ((c : Thread nD τ).loc main_v1)) :
    (((c : Thread nD τ).loc main_v1) ↦{fullShare} f : sProp 𝕄)
      ⊢ iprop(bigSep Finset.univ (fun r : Fin 64 => (oO c r).view.loc (c : Thread nD τ) ↦[(oO c r).view.set]{fullShare} f)
          ∗ bigSep Finset.univ (fun r : Fin 64 => (oO (xp c) r).view.loc (c : Thread nD τ) ↦[(oO (xp c) r).view.set]{fullShare} f)) := by
  have hA := pointsTo_biUnion (Ix := Unit) (Val := Elt F) (Name := ℕ) (U := U) (Lvl := ℕ)
    (ℓ := (c : Thread nD τ).loc main_v1) (q := fullShare) (f := f) Finset.univ (fun r : Fin 64 => (oO c r).view.set)
    (fun r _ r' _ h => oO_disjoint c r r' h)
  have hB := pointsTo_biUnion (Ix := Unit) (Val := Elt F) (Name := ℕ) (U := U) (Lvl := ℕ)
    (ℓ := (c : Thread nD τ).loc main_v1) (q := fullShare) (f := f) Finset.univ (fun r : Fin 64 => (oO (xp c) r).view.set)
    (fun r _ r' _ h => oO_disjoint (xp c) r r' h)
  have hu := pointsTo_union (Ix := Unit) (Val := Elt F) (Name := ℕ) (U := U) (Lvl := ℕ)
    (ℓ := (c : Thread nD τ).loc main_v1) (q := fullShare) (f := f) (oAll_disjoint c)
  rw [oAll_cover] at hu
  iintro H
  ihave H' := hu.1 $$ H
  icases H' with ⟨HA, HB⟩
  isplitl [HA]
  · iapply (Entails.of_eq hA); iexact HA
  · iapply (Entails.of_eq hB); iexact HB

theorem out_join (c : Dev nD) (g g' : Fin 64 → Buf (Elt F) ((c : Thread nD τ).loc main_v1)) :
    (iprop(bigSep Finset.univ (fun r : Fin 64 => (oO c r).view.loc (c : Thread nD τ) ↦[(oO c r).view.set]{fullShare} g r)
          ∗ bigSep Finset.univ (fun r : Fin 64 => (oO (xp c) r).view.loc (c : Thread nD τ) ↦[(oO (xp c) r).view.set]{fullShare} g' r)) : sProp 𝕄)
      ⊢ iprop(∃ f, (((c : Thread nD τ).loc main_v1) ↦{fullShare} f)
          ∗ ⌜∀ r, (oO c r).view.read (Elt F) f = (oO c r).view.read (Elt F) (g r)
              ∧ (oO (xp c) r).view.read (Elt F) f = (oO (xp c) r).view.read (Elt F) (g' r)⌝) := by
  have hA := pointsTo_biUnion_join (Ix := Unit) (Val := Elt F) (Name := ℕ) (U := U) (Lvl := ℕ)
    (ℓ := (c : Thread nD τ).loc main_v1) (q := fullShare) Finset.univ (fun r : Fin 64 => (oO c r).view.set) g (g 0)
    (fun r _ r' _ h => oO_disjoint c r r' h)
  have hB := pointsTo_biUnion_join (Ix := Unit) (Val := Elt F) (Name := ℕ) (U := U) (Lvl := ℕ)
    (ℓ := (c : Thread nD τ).loc main_v1) (q := fullShare) Finset.univ (fun r : Fin 64 => (oO (xp c) r).view.set) g' (g 0)
    (fun r _ r' _ h => oO_disjoint (xp c) r r' h)
  have hj := fun gA gB => pointsTo_join (Ix := Unit) (Val := Elt F) (Name := ℕ) (U := U) (Lvl := ℕ)
    (ℓ := (c : Thread nD τ).loc main_v1) (q := fullShare) (f := gA) (g := gB) (oAll_disjoint c)
  rw [oAll_cover] at hj
  iintro ⟨HA, HB⟩
  ihave HA' := hA $$ HA
  ihave HB' := hB $$ HB
  icases HA' with ⟨%gA, %hgA, HA⟩
  icases HB' with ⟨%gB, %hgB, HB⟩
  iexists (oAll (xp c)).piecewise gB gA
  isplitl [HA HB]
  · iapply (hj gA gB)
    isplitl [HA]; · iexact HA
    iexact HB
  · ipureintro
    intro r
    constructor
    · refine View.read_congr fun i hi => ?_
      have hiA : i ∈ oAll c := Finset.mem_biUnion.mpr ⟨r, Finset.mem_univ _, hi⟩
      rw [Finset.piecewise_eq_of_notMem _ _ _ (Finset.disjoint_left.mp (oAll_disjoint c) hiA)]
      exact hgA r (Finset.mem_univ _) i hi
    · refine View.read_congr fun i hi => ?_
      have hiB : i ∈ oAll (xp c) := Finset.mem_biUnion.mpr ⟨r, Finset.mem_univ _, hi⟩
      rw [Finset.piecewise_eq_of_mem _ _ _ hiB]
      exact hgB r (Finset.mem_univ _) i hi

/-! ## The argument: the 64 blocks sent, the 64 blocks kept, and the other row-half -/

/-- The elements of the block of chunk `r` device `c` sends: its rows, in the other column half. -/
theorem mem_xA {c : Dev nD} {r : Fin 64} {i : S1x8192x2048.Idx} :
    i ∈ (xA c r).view.set ↔ (4096 * (c.val / 2) + 64 * r.val ≤ (i 1).val ∧ (i 1).val < 4096 * (c.val / 2) + 64 * r.val + 64)
      ∧ (1024 - 1024 * (c.val % 2) ≤ (i 2).val ∧ (i 2).val < 1024 - 1024 * (c.val % 2) + 1024) := by
  have e : (xA c r).view.set
      = (Rect.unit (s := S1x8192x2048) (k0_off2 c (BitVec.ofNat 32 (64 * r.val))) S1x64x1024.size (k0_off2_inb c r)).set :=
    (View.set_reshape _ _).trans (View.set_slice_whole main_arg0 _)
  rw [e, Rect.mem_set_unit, k0_off2_eq]
  have h0 : (i 0).val < 1 := (i 0).isLt
  simp [Fin.forall_fin_succ]; omega

/-- The elements of the block of chunk `r` device `c` keeps: its rows, in its own column half. -/
theorem mem_xB {c : Dev nD} {r : Fin 64} {i : S1x8192x2048.Idx} :
    i ∈ (xB c r).view.set ↔ (4096 * (c.val / 2) + 64 * r.val ≤ (i 1).val ∧ (i 1).val < 4096 * (c.val / 2) + 64 * r.val + 64)
      ∧ (1024 * (c.val % 2) ≤ (i 2).val ∧ (i 2).val < 1024 * (c.val % 2) + 1024) := by
  have e : (xB c r).view.set
      = (Rect.unit (s := S1x8192x2048) (k0_off1 c (BitVec.ofNat 32 (64 * r.val))) S1x64x1024.size (k0_off1_inb c r)).set :=
    (View.set_reshape _ _).trans (View.set_slice_whole main_arg0 _)
  rw [e, Rect.mem_set_unit, k0_off1_eq]
  have h0 : (i 0).val < 1 := (i 0).isLt
  simp [Fin.forall_fin_succ]; omega

theorem xA_disjoint (c : Dev nD) (r r' : Fin 64) (h : r ≠ r') : Disjoint (xA c r).view.set (xA c r').view.set := by
  have hne : r.val ≠ r'.val := fun e => h (Fin.ext e)
  refine Finset.disjoint_left.mpr fun i hi hi' => ?_
  have h1 := mem_xA.mp hi; have h2 := mem_xA.mp hi'
  omega

theorem xB_disjoint (c : Dev nD) (r r' : Fin 64) (h : r ≠ r') : Disjoint (xB c r).view.set (xB c r').view.set := by
  have hne : r.val ≠ r'.val := fun e => h (Fin.ext e)
  refine Finset.disjoint_left.mpr fun i hi hi' => ?_
  have h1 := mem_xB.mp hi; have h2 := mem_xB.mp hi'
  omega

/-- What a device sends and what it keeps are in different column halves. -/
theorem xA_xB_disjoint (c : Dev nD) (r r' : Fin 64) : Disjoint (xA c r).view.set (xB c r').view.set := by
  refine Finset.disjoint_left.mpr fun i hi hi' => ?_
  have h1 := mem_xA.mp hi; have h2 := mem_xB.mp hi'
  have : c.val % 2 < 2 := Nat.mod_lt _ (by decide)
  omega

/-- The elements of all the blocks device `c` sends, and of all it keeps. -/
abbrev xAAll (c : Dev nD) : Finset S1x8192x2048.Idx :=
  (Finset.univ : Finset (Fin 64)).biUnion (fun r => ((xA c r).view.set : Finset S1x8192x2048.Idx))
abbrev xBAll (c : Dev nD) : Finset S1x8192x2048.Idx :=
  (Finset.univ : Finset (Fin 64)).biUnion (fun r => ((xB c r).view.set : Finset S1x8192x2048.Idx))

theorem xAll_disjoint (c : Dev nD) : Disjoint (xAAll c) (xBAll c) :=
  (Finset.disjoint_biUnion_left _ _ _).mpr fun r _ =>
    (Finset.disjoint_biUnion_right _ _ _).mpr fun r' _ => xA_xB_disjoint c r r'

/-- The elements of the argument the device neither sends nor keeps: the other row-half. -/
abbrev xRestSet (c : Dev nD) : Finset S1x8192x2048.Idx := Finset.univ \ (xAAll c ∪ xBAll c)

/-- The rest of the argument, held whole at contents `f`. -/
abbrev xRest (c : Dev nD) (f : Buf (Elt F) ((c : Thread nD τ).loc main_arg0)) : sProp 𝕄 :=
  ((c : Thread nD τ).loc main_arg0) ↦[xRestSet c]{fullShare} f

/-- The argument is its blocks sent, its blocks kept and the rest, all at the same contents. -/
theorem arg_iff (c : Dev nD) (f : Buf (Elt F) ((c : Thread nD τ).loc main_arg0)) :
    (((c : Thread nD τ).loc main_arg0) ↦{fullShare} f : sProp 𝕄)
      ⊣⊢ iprop(bigSep Finset.univ (fun r : Fin 64 => (xA c r).view.loc (c : Thread nD τ) ↦[(xA c r).view.set]{fullShare} f)
          ∗ bigSep Finset.univ (fun r : Fin 64 => (xB c r).view.loc (c : Thread nD τ) ↦[(xB c r).view.set]{fullShare} f)
          ∗ xRest (F := F) (U := U) c f) := by
  have hA := pointsTo_biUnion (Ix := Unit) (Val := Elt F) (Name := ℕ) (U := U) (Lvl := ℕ)
    (ℓ := (c : Thread nD τ).loc main_arg0) (q := fullShare) (f := f) Finset.univ (fun r : Fin 64 => (xA c r).view.set)
    (fun r _ r' _ h => xA_disjoint c r r' h)
  have hB := pointsTo_biUnion (Ix := Unit) (Val := Elt F) (Name := ℕ) (U := U) (Lvl := ℕ)
    (ℓ := (c : Thread nD τ).loc main_arg0) (q := fullShare) (f := f) Finset.univ (fun r : Fin 64 => (xB c r).view.set)
    (fun r _ r' _ h => xB_disjoint c r r' h)
  have hu := pointsTo_union (Ix := Unit) (Val := Elt F) (Name := ℕ) (U := U) (Lvl := ℕ)
    (ℓ := (c : Thread nD τ).loc main_arg0) (q := fullShare) (f := f) (xAll_disjoint c)
  have hs := pointsTo_split_subset (Ix := Unit) (Val := Elt F) (Name := ℕ) (U := U) (Lvl := ℕ)
    (ℓ := (c : Thread nD τ).loc main_arg0) (q := fullShare) (f := f) (Finset.subset_univ (xAAll c ∪ xBAll c))
  constructor
  · iintro H
    ihave H' := hs.1 $$ H
    icases H' with ⟨HAB, HR⟩
    ihave H'' := hu.1 $$ HAB
    icases H'' with ⟨HA, HB⟩
    isplitl [HA]
    · iapply (Entails.of_eq hA); iexact HA
    isplitl [HB]
    · iapply (Entails.of_eq hB); iexact HB
    iexact HR
  · iintro ⟨HA, HB, HR⟩
    iapply hs.2
    isplitl [HA HB]
    · iapply hu.2
      isplitl [HA]
      · iapply (Entails.of_eq hA.symm); iexact HA
      · iapply (Entails.of_eq hB.symm); iexact HB
    iexact HR

theorem arg_split (c : Dev nD) (f : Buf (Elt F) ((c : Thread nD τ).loc main_arg0)) :
    (((c : Thread nD τ).loc main_arg0) ↦{fullShare} f : sProp 𝕄)
      ⊢ iprop(bigSep Finset.univ (fun r : Fin 64 => (xA c r).view.loc (c : Thread nD τ) ↦[(xA c r).view.set]{fullShare} f)
          ∗ bigSep Finset.univ (fun r : Fin 64 => (xB c r).view.loc (c : Thread nD τ) ↦[(xB c r).view.set]{fullShare} f)
          ∗ xRest (F := F) (U := U) c f) := (arg_iff c f).1

theorem arg_join (c : Dev nD) (f : Buf (Elt F) ((c : Thread nD τ).loc main_arg0)) :
    (iprop(bigSep Finset.univ (fun r : Fin 64 => (xA c r).view.loc (c : Thread nD τ) ↦[(xA c r).view.set]{fullShare} f)
          ∗ bigSep Finset.univ (fun r : Fin 64 => (xB c r).view.loc (c : Thread nD τ) ↦[(xB c r).view.set]{fullShare} f)
          ∗ xRest (F := F) (U := U) c f) : sProp 𝕄)
      ⊢ (((c : Thread nD τ).loc main_arg0) ↦{fullShare} f : sProp 𝕄) := (arg_iff c f).2

/-! ## The result's rows named from the receiving side -/

/-- Slices at equal offsets are the same memref. -/
theorem slice_unit_congr {κ : Kind} {sp : Space} {s : Shape} {e : EltTy} (m : Memref sig κ sp s e) {off off' size : Fin s.rank → Nat}
    (h : off = off') (p : ∀ a, off a + size a ≤ s.size a) (p' : ∀ a, off' a + size a ≤ s.size a) :
    m.slice (Rect.unit off size p) (fun _ => rfl) = m.slice (Rect.unit off' size p') (fun _ => rfl) := by
  subst h; rfl

/-- The rows a device's wait names as arriving from its row peer are the rows its row peer's chunk goes to. -/
theorem oP_eq (c : Dev nD) (r : Fin 64) : oP c r = oO (xp c) r := by
  have h : k0_off4 c (BitVec.ofNat 32 (64 * r.val)) = k0_off3 (xp c) (BitVec.ofNat 32 (64 * r.val)) := by
    rw [k0_off4_eq, k0_off3_eq, xp_half]
    have := half_le c
    have e : (64 * r.val + 4096) - 4096 * (c.val / 2) = 4096 * (1 - c.val / 2) + 64 * r.val := by omega
    rw [e]
  exact slice_unit_congr oM h _ _

/-- info: 'Cert.Kernel.RS.recv_split' depends on axioms: [propext, Classical.choice, Quot.sound] -/
#guard_msgs in #print axioms recv_split

/-- info: 'Cert.Kernel.RS.recv_join' depends on axioms: [propext, Classical.choice, Quot.sound] -/
#guard_msgs in #print axioms recv_join

/-- info: 'Cert.Kernel.RS.loc_split' depends on axioms: [propext, Classical.choice, Quot.sound] -/
#guard_msgs in #print axioms loc_split

/-- info: 'Cert.Kernel.RS.loc_join' depends on axioms: [propext, Classical.choice, Quot.sound] -/
#guard_msgs in #print axioms loc_join

/-- info: 'Cert.Kernel.RS.out_split' depends on axioms: [propext, Classical.choice, Quot.sound] -/
#guard_msgs in #print axioms out_split

/-- info: 'Cert.Kernel.RS.out_join' depends on axioms: [propext, Classical.choice, Quot.sound] -/
#guard_msgs in #print axioms out_join

/-- info: 'Cert.Kernel.RS.arg_iff' depends on axioms: [propext, Classical.choice, Quot.sound] -/
#guard_msgs in #print axioms arg_iff

/-- info: 'Cert.Kernel.RS.arg_split' depends on axioms: [propext, Classical.choice, Quot.sound] -/
#guard_msgs in #print axioms arg_split

/-- info: 'Cert.Kernel.RS.arg_join' depends on axioms: [propext, Classical.choice, Quot.sound] -/
#guard_msgs in #print axioms arg_join

/-- info: 'Cert.Kernel.RS.oP_eq' depends on axioms: [propext, Classical.choice, Quot.sound] -/
#guard_msgs in #print axioms oP_eq

end Cert.Kernel.RS

end
-- ==== Proof.RsKernel.State.lean ====
/-
  The states of one device's body, between its operations. The body has three loops over the 64 chunks
  (send to the column peer; receive, add, send to the row peer and copy to the result; wait for everything), so
  there are three families of states: `S1 k` (chunks before `k` sent), `S2 r j` (iteration `r` of the middle loop,
  after its `j`-th group of operations) and `S3 r j` (iteration `r` of the last loop, after its `j`-th wait).
  A state is what the device holds: for each chunk its pieces of the buffers and its tokens, in the form the
  chunk's progress has brought them to.
-/
import proofs.«900313_g7700000000000314_dist_rs_v7x_xy2x2_y_m8192_n1024_f32_1_alg».proof.Proof.RsKernel.Tally
import proofs.«900313_g7700000000000314_dist_rs_v7x_xy2x2_y_m8192_n1024_f32_1_alg».proof.Proof.RsKernel.Regions

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## All the protocol's cells, indexed: the 322 copy cells of the pool, then the barrier cell -/

abbrev csem (j : Fin 323) : SemLoc sig := if h : j.val < 322 then .dma ⟨j.val, h⟩ else .reg barS
abbrev kcell (cj : Dev nD × Fin 323) : GSem nD τ sig := ((cj.1 : Thread nD τ), csem cj.2)

/-- What every device knows for good, under the names `K` the launch allocated the cells' invariants at: every
    cell's invariant, that every cell is at round 0 or later, and the levels. -/
def Rec (K : Dev nD × Fin 323 → ℕ) : sProp 𝕄 :=
  iprop((bigSep Finset.univ fun cj : Dev nD × Fin 323 => cellInv ER (sched m) (K cj) (kcell cj))
    ∗ (bigSep Finset.univ fun cj : Dev nD × Fin 323 => reached ER (kcell cj) 0)
    ∗ levAts L lv)

/-! ## A chunk's pieces -/

section Pieces
variable (c : Dev nD)

def slotOf (r : ℕ) : Fin 2 := ⟨r % 2, Nat.mod_lt _ (by decide)⟩

def ptsA (r : Fin 64) : sProp 𝕄 := (xA c r).view.loc (c : Thread nD τ) ↦[(xA c r).view.set]{fullShare} X m c
def ptsB (r : Fin 64) : sProp 𝕄 := (xB c r).view.loc (c : Thread nD τ) ↦[(xB c r).view.set]{fullShare} X m c
/-- Rows `r` of device `d`'s receive buffer, free to be written. -/
def freeRows (d : Dev nD) (r : Fin 64) : sProp 𝕄 := iprop(∃ f, (rS r).view.loc (d : Thread nD τ) ↦[(rS r).view.set]{fullShare} f)
/-- The result rows of chunk `r` of device `c'`, on device `d`, free to be written. -/
def freeOut (d c' : Dev nD) (r : Fin 64) : sProp 𝕄 := iprop(∃ f, (oO c' r).view.loc (d : Thread nD τ) ↦[(oO c' r).view.set]{fullShare} f)
def freeSlot (s : Fin 2) : sProp 𝕄 := iprop(∃ f, (lS s).view.loc (c : Thread nD τ) ↦[(lS s).view.set]{fullShare} f)

/-- Before chunk `r` is sent to the column peer: the block to send, the peer's landing rows, the two duty tokens. -/
def y1pre (r : Fin 64) : sProp 𝕄 :=
  iprop(ptsA m c r ∗ freeRows (F := F) (yp c) r ∗ dutyTok ER (ysendC c r) 0 false ∗ dutyTok ER (yrecvC (yp c) r) 0 false)
/-- After: the send cell's credit. -/
def y1post (r : Fin 64) : sProp 𝕄 := cred (tallyAt (ysendC c r) () N)

/-- Before chunk `r` is staged: the block to stage and the duty token of its staging round. -/
def stPre (r : Fin 64) : sProp 𝕄 := iprop(ptsB m c r ∗ dutyTok ER (cpinC c (slotOf r.val)) (r.val / 2) false)
/-- While it is being staged: the staging cell's credit. -/
def stMid (r : Fin 64) : sProp 𝕄 := cred (tallyAt (cpinC c (slotOf r.val)) () N)
/-- Chunk `r`'s staging in flight — or, past the last chunk, its slot free. -/
def curSt (r : ℕ) : sProp 𝕄 := if h : r < 64 then stMid (F := F) c ⟨r, h⟩ else freeSlot (F := F) c (slotOf r)
def stPreO (r : ℕ) : sProp 𝕄 := if h : r < 64 then stPre m c ⟨r, h⟩ else iprop(emp)

/-- What chunk `r`'s iteration of the middle loop needs besides its staging: the receive cell's position and credit;
    for the row send, the row peer's result rows and two duty tokens; for the result copy, the own result rows and a token. -/
def mRest (r : Fin 64) : sProp 𝕄 :=
  iprop(freeOut (F := F) (xp c) c r ∗ dutyTok ER (xsendC c r) 0 false ∗ dutyTok ER (xrecvC (xp c) r) 0 false
    ∗ freeOut (F := F) c c r ∗ dutyTok ER (cpoutC c r) 0 false)
def mPre (r : Fin 64) : sProp 𝕄 :=
  iprop(atPos ER (yrecvC c r) 0 ∅ 0 ∗ cred (tallyAt (yrecvC c r) () N) ∗ mRest (F := F) c r)
def mPreO (r : ℕ) : sProp 𝕄 := if h : r < 64 then mPre (F := F) c ⟨r, h⟩ else iprop(emp)
/-- What it leaves: the two send credits, the staged block of the argument back, the receive cell one round on. -/
def mPost (r : Fin 64) : sProp 𝕄 :=
  iprop(cred (tallyAt (xsendC c r) () N) ∗ cred (tallyAt (cpoutC c r) () N) ∗ ptsB m c r ∗ atPos ER (yrecvC c r) 1 ∅ 0)

/-- What chunk `r`'s iteration of the last loop needs: the four cells' positions and the row receive cell's credit. -/
def fPre (r : Fin 64) : sProp 𝕄 :=
  iprop(atPos ER (cpoutC c r) 0 ∅ 0 ∗ atPos ER (ysendC c r) 0 ∅ 0 ∗ atPos ER (xsendC c r) 0 ∅ 0 ∗ atPos ER (xrecvC c r) 0 ∅ 0
    ∗ cred (tallyAt (xrecvC c r) () N))
/-- The four waits' yields, in the loop's order: the result rows with the sums and half of the summed rows; the block
    sent to the column peer; the other half of the summed rows; the row peer's sums in the result. -/
def w1 (r : Fin 64) : sProp 𝕄 := iprop(atPos ER (cpoutC c r) 1 ∅ 0 ∗ cpoutPay m c r)
def w2 (r : Fin 64) : sProp 𝕄 := iprop(atPos ER (ysendC c r) 1 ∅ 0 ∗ ysendPay m c r)
def w3 (r : Fin 64) : sProp 𝕄 := iprop(atPos ER (xsendC c r) 1 ∅ 0 ∗ xsendPay m c r)
def w4 (r : Fin 64) : sProp 𝕄 := iprop(atPos ER (xrecvC c r) 1 ∅ 0 ∗ xrecvPay m c r)
/-- After chunk `r`'s four waits. -/
def fPost (r : Fin 64) : sProp 𝕄 :=
  iprop(w1 m c r ∗ w2 m c r ∗ w3 m c r ∗ w4 m c r ∗ ptsB m c r ∗ atPos ER (yrecvC c r) 1 ∅ 0)

/-- The staging cell of slot `s` when `r` chunks have been consumed: `(r + 1 - s) / 2` of its rounds are over. -/
def posI (s : Fin 2) (r : ℕ) : ℕ := (r + 1 - s.val) / 2
def cpinAt (s : Fin 2) (r : ℕ) : sProp 𝕄 :=
  iprop(atPos ER (cpinC c s) (posI s r) ∅ 0 ∗ reached ER (cpinC c s) (posI s r))
def cpinsAt (r : ℕ) : sProp 𝕄 := iprop(cpinAt (F := F) c 0 r ∗ cpinAt (F := F) c 1 r)

/-- The part of the argument no copy of this device reads (the other row-half). -/
def argRest : sProp 𝕄 := xRest (F := F) (U := UU) c (X m c)

/-- The device's `owes` at a tally, whatever waits it has recorded. -/
def owesE (O : CellTallies nD τ sig Unit) : sProp 𝕄 := iprop(∃ W : Waits sig Unit, owes (c : Thread nD τ) O W)

end Pieces

/-! ## The three families -/

section States
variable (K : Dev nD × Fin 323 → ℕ) (c : Dev nD)

/-- What the middle loop starts from and the first loop carries untouched: every chunk's middle-loop and last-loop needs,
    chunk 0 being staged, the staging cells at their start. -/
def mid0 : sProp 𝕄 :=
  iprop(argRest m c ∗ (bigSep Finset.univ fun r : Fin 64 => mPre (F := F) c r) ∗ (bigSep (fromK 1) fun r => stPre m c r) ∗ curSt (F := F) c 0
    ∗ freeSlot (F := F) c 1 ∗ cpinsAt (F := F) c 0 ∗ (bigSep Finset.univ fun r : Fin 64 => fPre (F := F) c r))

/-- The first loop, `k` chunks sent. -/
def S1 (k : ℕ) : sProp 𝕄 :=
  iprop(Rec m K ∗ mid0 m c ∗ (bigSep (fromK k) fun r => y1pre m c r) ∗ (bigSep (uptoK k) fun r => y1post (F := F) c r)
    ∗ owesE (F := F) c (Oy c k + Ox c 0))

/-- Iteration `r` of the middle loop, the part that moves within the iteration. -/
def cur2 (r : ℕ) (j : ℕ) : sProp 𝕄 :=
  match j with
  | 0 => iprop(mPreO (F := F) c r ∗ curSt (F := F) c r ∗ stPreO m c (r + 1) ∗ freeSlot (F := F) c (slotOf (r + 1)) ∗ cpinsAt (F := F) c r ∗ owesE (F := F) c (Ox c r))
  | 1 => iprop(mPreO (F := F) c r ∗ curSt (F := F) c r ∗ curSt (F := F) c (r + 1) ∗ cpinsAt (F := F) c r ∗ owesE (F := F) c (Ox c r))
  | 2 => if h : r < 64 then
      iprop(mRest (F := F) c ⟨r, h⟩ ∗ atPos ER (yrecvC c ⟨r, h⟩) 1 ∅ 0 ∗ yrecvPay m c ⟨r, h⟩ ∗ curSt (F := F) c r ∗ curSt (F := F) c (r + 1)
        ∗ cpinsAt (F := F) c r ∗ owesE (F := F) c (Ox c r)) else iprop(emp)
  | 3 => if h : r < 64 then
      iprop(mRest (F := F) c ⟨r, h⟩ ∗ atPos ER (yrecvC c ⟨r, h⟩) 1 ∅ 0 ∗ yrecvPay m c ⟨r, h⟩
        ∗ owns (c : Thread nD τ) (lS (slotOf r)) fullShare (bVal m c ⟨r, h⟩) ∗ ptsB m c ⟨r, h⟩ ∗ curSt (F := F) c (r + 1)
        ∗ cpinsAt (F := F) c (r + 1) ∗ owesE (F := F) c (Ox c r)) else iprop(emp)
  | 4 => if h : r < 64 then
      iprop(mRest (F := F) c ⟨r, h⟩ ∗ atPos ER (yrecvC c ⟨r, h⟩) 1 ∅ 0 ∗ owns (c : Thread nD τ) (rS ⟨r, h⟩) fullShare (sVal m c ⟨r, h⟩)
        ∗ freeSlot (F := F) c (slotOf r) ∗ ptsB m c ⟨r, h⟩ ∗ curSt (F := F) c (r + 1)
        ∗ cpinsAt (F := F) c (r + 1) ∗ owesE (F := F) c (Ox c r)) else iprop(emp)
  | 5 => if h : r < 64 then
      iprop((freeOut (F := F) c c ⟨r, h⟩ ∗ dutyTok ER (cpoutC c ⟨r, h⟩) 0 false) ∗ atPos ER (yrecvC c ⟨r, h⟩) 1 ∅ 0
        ∗ owns (c : Thread nD τ) (rS ⟨r, h⟩) fullShare.right (sVal m c ⟨r, h⟩) ∗ cred (tallyAt (xsendC c ⟨r, h⟩) () N)
        ∗ freeSlot (F := F) c (slotOf r) ∗ ptsB m c ⟨r, h⟩ ∗ curSt (F := F) c (r + 1)
        ∗ cpinsAt (F := F) c (r + 1) ∗ owesE (F := F) c (Ox c (r + 1))) else iprop(emp)
  | _ => if h : r < 64 then
      iprop(mPost m c ⟨r, h⟩ ∗ freeSlot (F := F) c (slotOf r) ∗ curSt (F := F) c (r + 1)
        ∗ cpinsAt (F := F) c (r + 1) ∗ owesE (F := F) c (Ox c (r + 1))) else iprop(emp)

/-- The middle loop: iteration `r`, after its `j`-th group (0: start; 1: next chunk's staging started; 2: the column peer's
    block received; 3: the staged block landed; 4: the sum stored; 5: sent to the row peer; 6: copied to the result). -/
def S2 (r : ℕ) (j : ℕ) : sProp 𝕄 :=
  iprop(Rec m K ∗ argRest m c ∗ (bigSep Finset.univ fun x : Fin 64 => y1post (F := F) c x) ∗ (bigSep Finset.univ fun x : Fin 64 => fPre (F := F) c x)
    ∗ (bigSep (uptoK r) fun x => mPost m c x) ∗ (bigSep (fromK (r + 1)) fun x => mPre (F := F) c x)
    ∗ (bigSep (fromK (r + 2)) fun x => stPre m c x) ∗ cur2 m c r j)

/-- Iteration `r` of the last loop, the part that moves: chunk `r`'s needs, less what its first `j` waits have turned
    into their yields. -/
def cur3 (r : Fin 64) (j : ℕ) : sProp 𝕄 :=
  match j with
  | 0 => iprop(fPre (F := F) c r ∗ y1post (F := F) c r ∗ mPost m c r)
  | 1 => iprop(w1 m c r ∗ (atPos ER (ysendC c r) 0 ∅ 0 ∗ atPos ER (xsendC c r) 0 ∅ 0 ∗ atPos ER (xrecvC c r) 0 ∅ 0 ∗ cred (tallyAt (xrecvC c r) () N))
      ∗ y1post (F := F) c r ∗ (cred (tallyAt (xsendC c r) () N) ∗ ptsB m c r ∗ atPos ER (yrecvC c r) 1 ∅ 0))
  | 2 => iprop(w1 m c r ∗ w2 m c r ∗ (atPos ER (xsendC c r) 0 ∅ 0 ∗ atPos ER (xrecvC c r) 0 ∅ 0 ∗ cred (tallyAt (xrecvC c r) () N))
      ∗ (cred (tallyAt (xsendC c r) () N) ∗ ptsB m c r ∗ atPos ER (yrecvC c r) 1 ∅ 0))
  | 3 => iprop(w1 m c r ∗ w2 m c r ∗ w3 m c r ∗ (atPos ER (xrecvC c r) 0 ∅ 0 ∗ cred (tallyAt (xrecvC c r) () N))
      ∗ (ptsB m c r ∗ atPos ER (yrecvC c r) 1 ∅ 0))
  | _ => fPost m c r

/-- What the last loop carries from chunk to chunk: the staging slots and cells, at rest, and nothing owed. -/
def rest3 : sProp 𝕄 :=
  iprop(argRest m c ∗ freeSlot (F := F) c 0 ∗ freeSlot (F := F) c 1 ∗ cpinsAt (F := F) c 64 ∗ owesE (F := F) c 0)

/-- The last loop: iteration `r`, after its `j`-th wait. -/
def S3 (r : Fin 64) (j : ℕ) : sProp 𝕄 :=
  iprop(Rec m K ∗ rest3 m c ∗ (bigSep (uptoK r.val) fun x => fPost m c x)
    ∗ (bigSep (fromK (r.val + 1)) fun x => iprop(fPre (F := F) c x ∗ y1post (F := F) c x ∗ mPost m c x)) ∗ cur3 m c r j)
/-- After the last loop. -/
def S4 : sProp 𝕄 := iprop(Rec m K ∗ rest3 m c ∗ bigSep Finset.univ fun x : Fin 64 => fPost m c x)

end States

/-! ## Where the body starts -/

section Start
variable (K : Dev nD × Fin 323 → ℕ) (c : Dev nD)

/-- The duty tokens device `c` pays with: both peers' barrier duties; per chunk the column send and the peer's column
    receive, the row send and the peer's row receive, the result copy, and the chunk's staging round. -/
def toks : sProp 𝕄 :=
  iprop(dutyTok ER (barC (yp c)) 0 false ∗ dutyTok ER (barC (xp c)) 0 true
    ∗ bigSep Finset.univ fun r : Fin 64 =>
        iprop(dutyTok ER (ysendC c r) 0 false ∗ dutyTok ER (yrecvC (yp c) r) 0 false ∗ dutyTok ER (xsendC c r) 0 false
          ∗ dutyTok ER (xrecvC (xp c) r) 0 false ∗ dutyTok ER (cpoutC c r) 0 false ∗ dutyTok ER (cpinC c (slotOf r.val)) (r.val / 2) false))
/-- Its positions: every own cell at the start of round 0. -/
def poss : sProp 𝕄 :=
  iprop(atPos ER (barC c) 0 ∅ 0 ∗ atPos ER (cpinC c 0) 0 ∅ 0 ∗ atPos ER (cpinC c 1) 0 ∅ 0
    ∗ bigSep Finset.univ fun r : Fin 64 =>
        iprop(atPos ER (ysendC c r) 0 ∅ 0 ∗ atPos ER (yrecvC c r) 0 ∅ 0 ∗ atPos ER (xsendC c r) 0 ∅ 0 ∗ atPos ER (xrecvC c r) 0 ∅ 0
          ∗ atPos ER (cpoutC c r) 0 ∅ 0))
/-- The credit tokens for what its peers owe its cells. -/
def creds0 : sProp 𝕄 :=
  iprop(cred (tallyAt (barC c) () 2) ∗ (bigSep Finset.univ fun r : Fin 64 => cred (tallyAt (yrecvC c r) () N))
    ∗ (bigSep Finset.univ fun r : Fin 64 => cred (tallyAt (xrecvC c r) () N)))
/-- Its buffers, cut into the chunks' pieces. -/
def bufs0 : sProp 𝕄 :=
  iprop((bigSep Finset.univ fun r : Fin 64 => ptsA m c r) ∗ (bigSep Finset.univ fun r : Fin 64 => ptsB m c r) ∗ argRest m c
    ∗ (bigSep Finset.univ fun r : Fin 64 => freeRows (F := F) c r)
    ∗ (bigSep Finset.univ fun r : Fin 64 => freeOut (F := F) c c r) ∗ (bigSep Finset.univ fun r : Fin 64 => freeOut (F := F) c (xp c) r)
    ∗ freeSlot (F := F) c 0 ∗ freeSlot (F := F) c 1)

/-- The body's start. -/
def Start : sProp 𝕄 :=
  iprop(Rec m K ∗ bufs0 m c ∗ toks (F := F) c ∗ poss (F := F) c ∗ creds0 (F := F) c ∗ owesE (F := F) c (O₀ c))

end Start

/-! ## What the launch hands a device, and what the device hands back -/

section Data
variable (c : Dev nD)

/-- The kernel's own (scoped) semaphores, as the launch theorem indexes them: the 322 copy semaphores of the pool. -/
abbrev osem : Fin 322 → SemLoc sig := fun j => .dma j

/-- What the device hands back of its unscoped buffers: the argument as it was, and the result reading, through each
    chunk's rows, that chunk's sums. -/
def Yc : sProp 𝕄 :=
  iprop(((c : Thread nD τ).loc main_arg0 ↦{fullShare} X m c)
    ∗ ∃ f : Buf (Elt F) ((c : Thread nD τ).loc main_v1), ((c : Thread nD τ).loc main_v1 ↦{fullShare} f)
        ∗ ⌜∀ r : Fin 64, (oO c r).view.read (Elt F) f = sVal m c r ∧ (oO (xp c) r).view.read (Elt F) f = sVal m (xp c) r⌝)

/-- Before the body: the start state at some names, less what is owed (the pipeline holds that). -/
def Φ₀ : sProp 𝕄 :=
  iprop(∃ K : Dev nD × Fin 323 → ℕ, Rec m K ∗ bufs0 m c ∗ toks (F := F) c ∗ poss (F := F) c ∗ creds0 (F := F) c)
/-- After the body: the unscoped buffers as `Yc`, every own semaphore at zero with its cell closed, the two scratch
    buffers whole. -/
def Φ₁ : sProp 𝕄 :=
  iprop(Yc m c ∗ (bigSep Finset.univ fun j : Fin 322 => semVal ((c : Thread nD τ), osem j) 0)
    ∗ (∃ f, (c : Thread nD τ).loc cc0_scratch0 ↦{fullShare} f) ∗ (∃ f, (c : Thread nD τ).loc cc0_scratch1 ↦{fullShare} f))

/-- The pipeline's proof data: no window, one point; what is owed before the point is the launch's, after it nothing. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Data

/-! ## What the run delivers -/

/-- Device `c`'s memory after the run: the argument as it was; the result reads, through each chunk's rows, that chunk's
    sums: the own chunks' on the own rows, the row peer's chunks' on the row peer's rows. -/
def QY (c : Dev nD) (s : MemSt nD τ sig (Elt F)) : Prop :=
  s.mem ((c.tc : Thread nD τ).loc main_arg0) = m ((c.tc : Thread nD τ).loc main_arg0)
  ∧ ∀ r : Fin 64, (oO c r).view.read (Elt F) (s.mem ((c.tc : Thread nD τ).loc main_v1)) = sVal m c r
      ∧ (oO (xp c) r).view.read (Elt F) (s.mem ((c.tc : Thread nD τ).loc main_v1)) = sVal m (xp c) r

end Cert.Kernel.RS

end
-- ==== Proof.RsKernel.Levels.lean ====
/-
  The chunk sets a device's tallies range over, peeled one chunk at a time; where each tally can be positive; the
  levels of the cells, and that every wait of the protocol sits below everything its device owes at that wait;
  the credit the launch deals a device: two units on its barrier cell (one from each peer), one block's credit on
  each column receive cell (from the column peer) and on each row receive cell (from the row peer).
-/
import proofs.«900313_g7700000000000314_dist_rs_v7x_xy2x2_y_m8192_n1024_f32_1_alg».proof.Proof.RsKernel.Tally

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The chunk sets -/

theorem mem_fromK {k : ℕ} {x : Fin 64} : x ∈ fromK k ↔ k ≤ x.val := by
  unfold fromK; rw [Finset.mem_filter]; exact ⟨fun h => h.2, fun h => ⟨Finset.mem_univ _, h⟩⟩
theorem mem_uptoK {k : ℕ} {x : Fin 64} : x ∈ uptoK k ↔ x.val < k := by
  unfold uptoK; rw [Finset.mem_filter]; exact ⟨fun h => h.2, fun h => ⟨Finset.mem_univ _, h⟩⟩

theorem fromK_zero : fromK 0 = Finset.univ := Finset.ext fun x => by rw [mem_fromK]; exact ⟨fun _ => Finset.mem_univ _, fun _ => Nat.zero_le _⟩
theorem fromK_64 : fromK 64 = ∅ := Finset.ext fun x => by
  rw [mem_fromK]; exact ⟨fun h => absurd x.isLt (by omega), fun h => absurd h (Finset.notMem_empty _)⟩
theorem uptoK_zero : uptoK 0 = ∅ := Finset.ext fun x => by
  rw [mem_uptoK]; exact ⟨fun h => absurd h (Nat.not_lt_zero _), fun h => absurd h (Finset.notMem_empty _)⟩
theorem uptoK_64 : uptoK 64 = Finset.univ := Finset.ext fun x => by rw [mem_uptoK]; exact ⟨fun _ => Finset.mem_univ _, fun _ => x.isLt⟩

theorem notMem_fromK_succ (r : Fin 64) : r ∉ fromK (r.val + 1) := by rw [mem_fromK]; omega
theorem notMem_uptoK_self (r : Fin 64) : r ∉ uptoK r.val := by rw [mem_uptoK]; omega

/-- The chunks from \`r\` on: chunk \`r\` and the chunks after it. -/
theorem fromK_peel (r : Fin 64) : fromK r.val = insert r (fromK (r.val + 1)) := Finset.ext fun x => by
  rw [Finset.mem_insert, mem_fromK, mem_fromK]
  constructor
  · intro h
    by_cases hx : x = r
    · exact Or.inl hx
    · exact Or.inr (by have : x.val ≠ r.val := fun h' => hx (Fin.ext h'); omega)
  · rintro (h | h)
    · rw [h]
    · omega
/-- The chunks up to and including \`r\`: chunk \`r\` and the chunks before it. -/
theorem uptoK_push (r : Fin 64) : uptoK (r.val + 1) = insert r (uptoK r.val) := Finset.ext fun x => by
  rw [Finset.mem_insert, mem_uptoK, mem_uptoK]
  constructor
  · intro h
    by_cases hx : x = r
    · exact Or.inl hx
    · exact Or.inr (by have : x.val ≠ r.val := fun h' => hx (Fin.ext h'); omega)
  · rintro (h | h)
    · rw [h]; omega
    · omega

theorem bigSep_fromK_peel (Φ : Fin 64 → sProp 𝕄) (r : Fin 64) :
    bigSep (fromK r.val) Φ = iprop(Φ r ∗ bigSep (fromK (r.val + 1)) Φ) := by
  rw [fromK_peel r, bigSep_insert (notMem_fromK_succ r)]; rfl
theorem bigSep_uptoK_push (Φ : Fin 64 → sProp 𝕄) (r : Fin 64) :
    bigSep (uptoK (r.val + 1)) Φ = iprop(Φ r ∗ bigSep (uptoK r.val) Φ) := by
  rw [uptoK_push r, bigSep_insert (notMem_uptoK_self r)]; rfl

/-! ## The tallies, chunk by chunk -/

theorem Oy_peel (c : Dev nD) (r : Fin 64) : Oy c r.val = Oy c (r.val + 1) + tallyAt (yrecvC (yp c) r) () N := by
  unfold Oy; rw [fromK_peel r, Finset.sum_insert (notMem_fromK_succ r), add_comm]
theorem Ox_peel (c : Dev nD) (r : Fin 64) : Ox c r.val = Ox c (r.val + 1) + tallyAt (xrecvC (xp c) r) () N := by
  unfold Ox; rw [fromK_peel r, Finset.sum_insert (notMem_fromK_succ r), add_comm]
theorem Oy_64 (c : Dev nD) : Oy c 64 = 0 := by unfold Oy; rw [fromK_64, Finset.sum_empty]
theorem Ox_64 (c : Dev nD) : Ox c 64 = 0 := by unfold Ox; rw [fromK_64, Finset.sum_empty]

/-! ## The cells are distinct -/

theorem bar_inj {a b : Dev nD} (h : barC a = barC b) : a = b := congrArg (fun g : GSem nD τ sig => g.1.1) h
theorem yrecv_inj {a b : Dev nD} {r r' : Fin 64} (h : yrecvC a r = yrecvC b r') : a = b ∧ r = r' := by
  refine ⟨congrArg (fun g : GSem nD τ sig => g.1.1) h, ?_⟩
  have h2 : (SemLoc.dma (yrecvQ r) : SemLoc sig) = .dma (yrecvQ r') := congrArg Prod.snd h
  have h3 : 64 + r.val = 64 + r'.val := congrArg Fin.val (SemLoc.dma.inj h2)
  exact Fin.ext (Nat.add_left_cancel h3)
theorem xrecv_inj {a b : Dev nD} {r r' : Fin 64} (h : xrecvC a r = xrecvC b r') : a = b ∧ r = r' := by
  refine ⟨congrArg (fun g : GSem nD τ sig => g.1.1) h, ?_⟩
  have h2 : (SemLoc.dma (xrecvQ r) : SemLoc sig) = .dma (xrecvQ r') := congrArg Prod.snd h
  have h3 : 192 + r.val = 192 + r'.val := congrArg Fin.val (SemLoc.dma.inj h2)
  exact Fin.ext (Nat.add_left_cancel h3)
theorem yrecv_ne_bar (a b : Dev nD) (r : Fin 64) : yrecvC a r ≠ barC b := fun h => by
  have h2 : (SemLoc.dma (yrecvQ r) : SemLoc sig) = .reg barS := congrArg Prod.snd h
  cases h2
theorem xrecv_ne_bar (a b : Dev nD) (r : Fin 64) : xrecvC a r ≠ barC b := fun h => by
  have h2 : (SemLoc.dma (xrecvQ r) : SemLoc sig) = .reg barS := congrArg Prod.snd h
  cases h2
theorem yrecv_ne_xrecv (a b : Dev nD) (r r' : Fin 64) : yrecvC a r ≠ xrecvC b r' := fun h => by
  have h2 : (SemLoc.dma (yrecvQ r) : SemLoc sig) = .dma (xrecvQ r') := congrArg Prod.snd h
  have h3 : 64 + r.val = 192 + r'.val := congrArg Fin.val (SemLoc.dma.inj h2)
  have := r.isLt; omega

theorem eq_yp_iff {c d : Dev nD} : c = yp d ↔ d = yp c := ⟨fun h => by rw [h, yp_yp], fun h => by rw [h, yp_yp]⟩
theorem eq_xp_iff {c d : Dev nD} : c = xp d ↔ d = xp c := ⟨fun h => by rw [h, xp_xp], fun h => by rw [h, xp_xp]⟩

/-! ## Where the tallies are positive -/

theorem tallyAt_unit (g' : GSem nD τ sig) (k : ℕ) (g : GSem nD τ sig) (u : Unit) :
    (tallyAt g' () k : CellTallies nD τ sig Unit) g u = if g = g' then k else 0 := by
  rw [tallyAt_apply]
  by_cases h : g = g'
  · rw [if_pos ⟨h, rfl⟩, if_pos h]
  · rw [if_neg (fun h' => h h'.1), if_neg h]

/-- A sum of one-cell tallies, read at a cell. -/
theorem sum_tally_apply (s : Finset (Fin 64)) (f : Fin 64 → GSem nD τ sig) (k : ℕ) (g : GSem nD τ sig) (u : Unit) :
    (∑ r ∈ s, (tallyAt (f r) () k : CellTallies nD τ sig Unit)) g u = ∑ r ∈ s, if g = f r then k else 0 := by
  rw [Finset.sum_apply, Finsupp.finset_sum_apply]
  exact Finset.sum_congr rfl fun r _ => tallyAt_unit (f r) k g u

theorem sum_tally_pos {s : Finset (Fin 64)} {f : Fin 64 → GSem nD τ sig} {k : ℕ} {g : GSem nD τ sig} {u : Unit}
    (h : 0 < (∑ r ∈ s, (tallyAt (f r) () k : CellTallies nD τ sig Unit)) g u) : ∃ r, g = f r := by
  by_contra hn
  rw [not_exists] at hn
  rw [sum_tally_apply, Finset.sum_eq_zero fun r _ => if_neg (hn r)] at h
  exact Nat.lt_irrefl 0 h

theorem Oy_pos {c : Dev nD} {k : ℕ} {g : GSem nD τ sig} {u : Unit} (h : 0 < Oy c k g u) : ∃ r, g = yrecvC (yp c) r := sum_tally_pos h
theorem Ox_pos {c : Dev nD} {k : ℕ} {g : GSem nD τ sig} {u : Unit} (h : 0 < Ox c k g u) : ∃ r, g = xrecvC (xp c) r := sum_tally_pos h
theorem add_tally_pos {A B : CellTallies nD τ sig Unit} {g : GSem nD τ sig} {u : Unit} (h : 0 < (A + B) g u) : 0 < A g u ∨ 0 < B g u := by
  rw [Pi.add_apply, Finsupp.add_apply] at h; omega

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_reg (t : Thread nD τ) (s : Sem sig) (u : Unit) : lv (t, .reg s) u = 1 := rfl
theorem lv_yrecv (c : Dev nD) (r : Fin 64) (u : Unit) : lv (yrecvC c r) u = 2 := by
  have := r.isLt
  show (if 64 ≤ 64 + r.val ∧ 64 + r.val < 128 then 2 else if 192 ≤ 64 + r.val ∧ 64 + r.val < 256 then 3 else 0) = 2
  rw [if_pos ⟨by omega, by omega⟩]
theorem lv_xrecv (c : Dev nD) (r : Fin 64) (u : Unit) : lv (xrecvC c r) u = 3 := by
  have := r.isLt
  show (if 64 ≤ 192 + r.val ∧ 192 + r.val < 128 then 2 else if 192 ≤ 192 + r.val ∧ 192 + r.val < 256 then 3 else 0) = 3
  rw [if_neg (fun h => by omega), if_pos ⟨by omega, by omega⟩]
theorem lv_low (t : Thread nD τ) (q : DmaSem sig) (hq : ¬ (64 ≤ q.val ∧ q.val < 128) ∧ ¬ (192 ≤ q.val ∧ q.val < 256)) (u : Unit) :
    lv (t, .dma q) u = 0 := by
  show (if 64 ≤ q.val ∧ q.val < 128 then 2 else if 192 ≤ q.val ∧ q.val < 256 then 3 else 0) = 0
  rw [if_neg hq.1, if_neg hq.2]

omit [FloatOps F] in
/-- At its barrier wait a device owes receive credit only: cells above its barrier cell. -/
theorem mayWait_bar (c : Dev nD) :
    (levAts L lv : sProp 𝕄) ⊢ MayWait (c : Thread nD τ) (.reg barS) () (Oy c 0 + Ox c 0) :=
  MayOwe.of_cut (L := L) (lev := lv) 1
    (fun p hp => by rw [Finset.mem_singleton.mp hp, L_tc]; exact Finset.mem_singleton_self _)
    (fun g u hg => by
      rcases add_tally_pos hg with h | h
      · obtain ⟨r, rfl⟩ := Oy_pos h; rw [L_tc]; exact Finset.mem_singleton_self _
      · obtain ⟨r, rfl⟩ := Ox_pos h; rw [L_tc]; exact Finset.mem_singleton_self _)
    (fun p hp => by rw [Finset.mem_singleton.mp hp, lv_reg])
    (fun g u hg => by
      rcases add_tally_pos hg with h | h
      · obtain ⟨r, rfl⟩ := Oy_pos h; rw [lv_yrecv]; decide
      · obtain ⟨r, rfl⟩ := Ox_pos h; rw [lv_xrecv]; decide)

omit [FloatOps F] in
/-- At the wait on a column receive cell a device owes row receive credit only. -/
theorem mayWait_yrecv (c : Dev nD) (r : Fin 64) (k : ℕ) :
    (levAts L lv : sProp 𝕄) ⊢ MayWait (c : Thread nD τ) (.dma (yrecvQ r)) () (Ox c k) :=
  MayOwe.of_cut (L := L) (lev := lv) 2
    (fun p hp => by rw [Finset.mem_singleton.mp hp, L_tc]; exact Finset.mem_singleton_self _)
    (fun g u hg => by obtain ⟨r', rfl⟩ := Ox_pos hg; rw [L_tc]; exact Finset.mem_singleton_self _)
    (fun p hp => by rw [Finset.mem_singleton.mp hp]; exact le_of_eq (lv_yrecv c r ()))
    (fun g u hg => by obtain ⟨r', rfl⟩ := Ox_pos hg; rw [lv_xrecv]; decide)

omit [FloatOps F] in
/-- A cell at the bottom level may be waited on whatever row receive credit is owed. -/
theorem mayWait_low (c : Dev nD) (q : DmaSem sig) (hq : ¬ (64 ≤ q.val ∧ q.val < 128) ∧ ¬ (192 ≤ q.val ∧ q.val < 256)) (k : ℕ) :
    (levAts L lv : sProp 𝕄) ⊢ MayWait (c : Thread nD τ) (.dma q) () (Ox c k) :=
  MayOwe.of_cut (L := L) (lev := lv) 0
    (fun p hp => by rw [Finset.mem_singleton.mp hp, L_tc]; exact Finset.mem_singleton_self _)
    (fun g u hg => by obtain ⟨r', rfl⟩ := Ox_pos hg; rw [L_tc]; exact Finset.mem_singleton_self _)
    (fun p hp => by rw [Finset.mem_singleton.mp hp]; exact le_of_eq (lv_low _ q hq ()))
    (fun g u hg => by obtain ⟨r', rfl⟩ := Ox_pos hg; rw [lv_xrecv]; decide)

/-! ## The launch credit -/

/-- What device \`d\` owes at launch, read at a cell. -/
theorem O₀_apply (d : Dev nD) (g : GSem nD τ sig) (u : Unit) :
    O₀ d g u = (((∑ r : Fin 64, if g = yrecvC (yp d) r then N else 0) + (∑ r : Fin 64, if g = xrecvC (xp d) r then N else 0))
      + (if g = barC (xp d) then 1 else 0)) + (if g = barC (yp d) then 1 else 0) := by
  unfold O₀ Oy Ox
  rw [fromK_zero, Pi.add_apply, Finsupp.add_apply, Pi.add_apply, Finsupp.add_apply, Pi.add_apply, Finsupp.add_apply,
    sum_tally_apply, sum_tally_apply, tallyAt_unit, tallyAt_unit]

/-- What device \`d\` owes device \`c\`'s barrier cell: a unit if it is \`c\`'s row peer, a unit if it is \`c\`'s column peer. -/
theorem owed_bar (d c : Dev nD) : O₀ d (barC c) () = (if d = xp c then 1 else 0) + (if d = yp c then 1 else 0) := by
  rw [O₀_apply, Finset.sum_eq_zero fun r _ => if_neg (fun h => yrecv_ne_bar _ _ _ h.symm),
    Finset.sum_eq_zero fun r _ => if_neg (fun h => xrecv_ne_bar _ _ _ h.symm), Nat.add_zero, Nat.zero_add]
  congr 1
  · exact if_congr ⟨fun h => eq_xp_iff.mp (bar_inj h), fun h => congrArg barC (eq_xp_iff.mp h)⟩ rfl rfl
  · exact if_congr ⟨fun h => eq_yp_iff.mp (bar_inj h), fun h => congrArg barC (eq_yp_iff.mp h)⟩ rfl rfl

/-- What device \`d\` owes device \`c\`'s column receive cell of chunk \`r\`: the block's credit if it is \`c\`'s column peer. -/
theorem owed_yrecv (d c : Dev nD) (r : Fin 64) : O₀ d (yrecvC c r) () = if d = yp c then N else 0 := by
  rw [O₀_apply, Finset.sum_eq_zero (f := fun r' => if yrecvC c r = xrecvC (xp d) r' then N else 0) fun r' _ => if_neg (yrecv_ne_xrecv _ _ _ _),
    if_neg (yrecv_ne_bar _ _ _), if_neg (yrecv_ne_bar _ _ _)]
  simp only [Nat.add_zero]
  by_cases h : d = yp c
  · subst h
    rw [yp_yp, if_pos rfl, Finset.sum_congr rfl fun r' _ => if_congr (P := yrecvC c r = yrecvC c r') (Q := r = r')
      ⟨fun h => (yrecv_inj h).2, fun h => congrArg (yrecvC c) h⟩ rfl rfl,
      Finset.sum_ite_eq Finset.univ r fun _ => N, if_pos (Finset.mem_univ _)]
  · rw [if_neg h, Finset.sum_eq_zero fun r' _ => if_neg (fun h' => h (eq_yp_iff.mp (yrecv_inj h').1))]

/-- What device \`d\` owes device \`c\`'s row receive cell of chunk \`r\`: the block's credit if it is \`c\`'s row peer. -/
theorem owed_xrecv (d c : Dev nD) (r : Fin 64) : O₀ d (xrecvC c r) () = if d = xp c then N else 0 := by
  rw [O₀_apply, Finset.sum_eq_zero (f := fun r' => if xrecvC c r = yrecvC (yp d) r' then N else 0) fun r' _ => if_neg (fun h => yrecv_ne_xrecv _ _ _ _ h.symm),
    if_neg (xrecv_ne_bar _ _ _), if_neg (xrecv_ne_bar _ _ _)]
  simp only [Nat.add_zero, Nat.zero_add]
  by_cases h : d = xp c
  · subst h
    rw [xp_xp, if_pos rfl, Finset.sum_congr rfl fun r' _ => if_congr (P := xrecvC c r = xrecvC c r') (Q := r = r')
      ⟨fun h => (xrecv_inj h).2, fun h => congrArg (xrecvC c) h⟩ rfl rfl,
      Finset.sum_ite_eq Finset.univ r fun _ => N, if_pos (Finset.mem_univ _)]
  · rw [if_neg h, Finset.sum_eq_zero fun r' _ => if_neg (fun h' => h (eq_xp_iff.mp (xrecv_inj h').1))]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

theorem launch_yrecv (c : Dev nD) (r : Fin 64) :
    tallyOn (yrecvC c r) (launchCredit (Pipeline.owing O₀) 0 (yrecvC c r)) = (tallyAt (yrecvC c r) () N : CellTallies nD τ sig Unit) := by
  unfold tallyAt; refine congrArg _ (Finsupp.ext fun u => ?_); cases u
  rw [Pipeline.launchCredit_owing, Finsupp.single_eq_same, Finset.sum_congr rfl fun d _ => owed_yrecv d c r,
    Finset.sum_ite_eq' Finset.univ (yp c) fun _ => N, if_pos (Finset.mem_univ _)]

theorem launch_xrecv (c : Dev nD) (r : Fin 64) :
    tallyOn (xrecvC c r) (launchCredit (Pipeline.owing O₀) 0 (xrecvC c r)) = (tallyAt (xrecvC c r) () N : CellTallies nD τ sig Unit) := by
  unfold tallyAt; refine congrArg _ (Finsupp.ext fun u => ?_); cases u
  rw [Pipeline.launchCredit_owing, Finsupp.single_eq_same, Finset.sum_congr rfl fun d _ => owed_xrecv d c r,
    Finset.sum_ite_eq' Finset.univ (xp c) fun _ => N, if_pos (Finset.mem_univ _)]

/-- The semaphores of the column receive cells, and of the row receive cells. -/
def yq (r : Fin 64) : SemLoc sig := .dma (yrecvQ r)
def xq (r : Fin 64) : SemLoc sig := .dma (xrecvQ r)

theorem yq_inj : Function.Injective yq := fun r r' h => by
  have h3 : 64 + r.val = 64 + r'.val := congrArg Fin.val (SemLoc.dma.inj h)
  exact Fin.ext (Nat.add_left_cancel h3)
theorem xq_inj : Function.Injective xq := fun r r' h => by
  have h3 : 192 + r.val = 192 + r'.val := congrArg Fin.val (SemLoc.dma.inj h)
  exact Fin.ext (Nat.add_left_cancel h3)
theorem yq_ne_xq (r r' : Fin 64) : yq r ≠ xq r' := fun h => by
  have h3 : 64 + r.val = 192 + r'.val := congrArg Fin.val (SemLoc.dma.inj h)
  have := r.isLt; omega

omit [FloatOps F] in
/-- The credit the launch deals device \`c\`: two units on its barrier cell, one block's credit on each receive cell. -/
theorem creds (c : Dev nD) :
    (Pipeline.launchCred O₀ c : sProp 𝕄) ⊢ iprop(cred (tallyAt (barC c) () 2)
      ∗ (bigSep Finset.univ fun r : Fin 64 => cred (tallyAt (yrecvC c r) () N))
      ∗ (bigSep Finset.univ fun r : Fin 64 => cred (tallyAt (xrecvC c r) () N))) := by
  unfold Pipeline.launchCred
  rw [bigSep_univ_at _ (SemLoc.reg barS), launch_bar]
  refine sep_mono_right ?_
  have hsub : (Finset.univ.image yq ∪ Finset.univ.image xq) ⊆ (Finset.univ : Finset (SemLoc sig)).erase (SemLoc.reg barS) := fun sm hsm => by
    refine Finset.mem_erase.mpr ⟨fun h => ?_, Finset.mem_univ _⟩
    rcases Finset.mem_union.mp hsm with h' | h'
    · obtain ⟨r, _, e⟩ := Finset.mem_image.mp h'; rw [h] at e; cases e
    · obtain ⟨r, _, e⟩ := Finset.mem_image.mp h'; rw [h] at e; cases e
  have hdis : Disjoint ((Finset.univ : Finset (Fin 64)).image yq) (Finset.univ.image xq) := Finset.disjoint_left.mpr fun sm h1 h2 => by
    obtain ⟨r, _, e⟩ := Finset.mem_image.mp h1
    obtain ⟨r', _, e'⟩ := Finset.mem_image.mp h2
    exact yq_ne_xq r r' (e.trans e'.symm)
  refine (bigSep_subset hsub).trans ?_
  rw [bigSep_union hdis, bigSep_image_of_injOn (yq_inj.injOn), bigSep_image_of_injOn (xq_inj.injOn)]
  refine BIClass.sep_mono (Entails.of_eq (bigSep_congr fun r _ => ?_)) (Entails.of_eq (bigSep_congr fun r _ => ?_))
  · exact congrArg cred (launch_yrecv c r)
  · exact congrArg cred (launch_xrecv c r)

/-- info: 'Cert.Kernel.RS.mayWait_bar' depends on axioms: [propext, Classical.choice, Quot.sound] -/
#guard_msgs in #print axioms mayWait_bar
/-- info: 'Cert.Kernel.RS.mayWait_yrecv' depends on axioms: [propext, Classical.choice, Quot.sound] -/
#guard_msgs in #print axioms mayWait_yrecv
/-- info: 'Cert.Kernel.RS.mayWait_low' depends on axioms: [propext, Classical.choice, Quot.sound] -/
#guard_msgs in #print axioms mayWait_low
/-- info: 'Cert.Kernel.RS.bigSep_fromK_peel' depends on axioms: [propext, Classical.choice, Quot.sound] -/
#guard_msgs in #print axioms bigSep_fromK_peel
/-- info: 'Cert.Kernel.RS.creds' depends on axioms: [propext, Classical.choice, Quot.sound] -/
#guard_msgs in #print axioms creds

end Cert.Kernel.RS

end
-- ==== Proof.RsKernel.Views.lean ====
/-
  Reduce-scatter over a 2×2 mesh: the small equations between what the body's operations name and the protocol's names, each
  at a symbolic chunk `r`, staging slot `s` and device `c`.
  The semaphore an operation picks out of an array is the cell at the array's base plus the entry; every copy credits the
  same amount, that of one 64 × 1024 block of f32; a load through a whole buffer at a block's rows reads what the block's
  slice reads; the staging slot read as a rank-3 block is its rank-2 contents in the same row-major order; the stored value
  is the sum of the received and the staged block; and a block read after an unmasked write through it is the payload.
-/
import proofs.«900313_g7700000000000314_dist_rs_v7x_xy2x2_y_m8192_n1024_f32_1_alg».proof.Proof.RsKernel.Proto
import Idealize.ShloMosaic.Lib.Pipeline.Value
import Idealize.ShloMosaic.Lib.Memref

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The semaphores

Each of the six semaphore arrays is a run of consecutive positions of the pool. Picking entry `r` of a run that starts at
`base` (a slice of one entry, then dropping the axis) names position `base + r`: a one-entry index has coordinate 0, and the
row-major position of a rank-one index is its coordinate. Nothing depends on the in-bounds or the squeeze evidence. -/

/-- The one coordinate of a one-entry index is 0. -/
theorem idx_S1_zero (j : S1.Idx) : (j 0 : Nat) = 0 := Nat.lt_one_iff.mp (j 0).isLt

/-- Entry `r` of a run of 64 from `base` is position `base + r`. -/
theorem sem_run64_val {n : Nat} (base : Nat) (hb : base + S64.numel ≤ n) (r : Fin 64)
    (h : ∀ a, (![r.val] : Fin 1 → Nat) a + S1.size a ≤ S64.size a) (h' : S1.Squeezes S_) :
    ((((SemArray.consecutive base S64 hb : SemArray (Fin n) S64).slice (Rect.unit (s := S64) ![r.val] S1.size h)).squeeze S_ h').sem : Nat)
      = base + r.val := by
  show base + (S64.rowMajor _ : Nat) = base + r.val
  rw [Shape.rowMajor_val_one, Rect.emb_apply, idx_S1_zero]
  rfl

/-- Entry `s` of a run of 2 from `base` is position `base + s`. -/
theorem sem_run2_val {n : Nat} (base : Nat) (hb : base + S2.numel ≤ n) (s : Fin 2)
    (h : ∀ a, (![s.val] : Fin 1 → Nat) a + S1.size a ≤ S2.size a) (h' : S1.Squeezes S_) :
    ((((SemArray.consecutive base S2 hb : SemArray (Fin n) S2).slice (Rect.unit (s := S2) ![s.val] S1.size h)).squeeze S_ h').sem : Nat)
      = base + s.val := by
  show base + (S2.rowMajor _ : Nat) = base + s.val
  rw [Shape.rowMajor_val_one, Rect.emb_apply, idx_S1_zero]
  rfl

theorem sem_ysend (r : Fin 64) (h : ∀ a, (![r.val] : Fin 1 → Nat) a + S1.size a ≤ S64.size a) (h' : S1.Squeezes S_) :
    ((cc0_scratch2.slice (Rect.unit (s := S64) ![r.val] S1.size h)).squeeze S_ h').sem = ysendQ r :=
  Fin.ext ((sem_run64_val 0 _ r h h').trans (Nat.zero_add _))
theorem sem_yrecv (r : Fin 64) (h : ∀ a, (![r.val] : Fin 1 → Nat) a + S1.size a ≤ S64.size a) (h' : S1.Squeezes S_) :
    ((cc0_scratch3.slice (Rect.unit (s := S64) ![r.val] S1.size h)).squeeze S_ h').sem = yrecvQ r :=
  Fin.ext (sem_run64_val 64 _ r h h')
theorem sem_xsend (r : Fin 64) (h : ∀ a, (![r.val] : Fin 1 → Nat) a + S1.size a ≤ S64.size a) (h' : S1.Squeezes S_) :
    ((cc0_scratch4.slice (Rect.unit (s := S64) ![r.val] S1.size h)).squeeze S_ h').sem = xsendQ r :=
  Fin.ext (sem_run64_val 128 _ r h h')
theorem sem_xrecv (r : Fin 64) (h : ∀ a, (![r.val] : Fin 1 → Nat) a + S1.size a ≤ S64.size a) (h' : S1.Squeezes S_) :
    ((cc0_scratch5.slice (Rect.unit (s := S64) ![r.val] S1.size h)).squeeze S_ h').sem = xrecvQ r :=
  Fin.ext (sem_run64_val 192 _ r h h')
theorem sem_cpin (s : Fin 2) (h : ∀ a, (![s.val] : Fin 1 → Nat) a + S1.size a ≤ S2.size a) (h' : S1.Squeezes S_) :
    ((cc0_scratch6.slice (Rect.unit (s := S2) ![s.val] S1.size h)).squeeze S_ h').sem = cpinQ s :=
  Fin.ext (sem_run2_val 256 _ s h h')
theorem sem_cpout (r : Fin 64) (h : ∀ a, (![r.val] : Fin 1 → Nat) a + S1.size a ≤ S64.size a) (h' : S1.Squeezes S_) :
    ((cc0_scratch7.slice (Rect.unit (s := S64) ![r.val] S1.size h)).squeeze S_ h').sem = cpoutQ r :=
  Fin.ext (sem_run64_val 258 _ r h h')

/-! ## The credits

What a copy credits its semaphore depends on the shape and element type moved only, never on the buffer: every copy of the
kernel moves one 64 × 1024 block of f32, so every one credits `N`. -/

theorem credit_rS (r : Fin 64) : (rS r).view.dmaCredit = N := rfl
theorem credit_lS (s : Fin 2) : (lS s).view.dmaCredit = N := rfl
theorem credit_oO (c : Dev nD) (r : Fin 64) : (oO c r).view.dmaCredit = N := rfl
theorem credit_oP (c : Dev nD) (r : Fin 64) : (oP c r).view.dmaCredit = N := rfl
theorem credit_xA (c : Dev nD) (r : Fin 64) : (xA c r).view.dmaCredit = N := rfl
theorem credit_xB (c : Dev nD) (r : Fin 64) : (xB c r).view.dmaCredit = N := rfl

/-- Any 64 × 1024 view of f32, on any buffer of any space, credits `N`. -/
theorem credit_any {sp : Space} (d : Memref sig .tc sp S64x1024 .f32) : d.view.dmaCredit = N := rfl

theorem amount_rS (r : Fin 64) (q : DmaSem sig) : (rS r).view.amount (.dma q) = N := rfl
theorem amount_lS (s : Fin 2) (q : DmaSem sig) : (lS s).view.amount (.dma q) = N := rfl
theorem amount_oO (c : Dev nD) (r : Fin 64) (q : DmaSem sig) : (oO c r).view.amount (.dma q) = N := rfl
theorem amount_oP (c : Dev nD) (r : Fin 64) (q : DmaSem sig) : (oP c r).view.amount (.dma q) = N := rfl
theorem amount_xA (c : Dev nD) (r : Fin 64) (q : DmaSem sig) : (xA c r).view.amount (.dma q) = N := rfl
theorem amount_xB (c : Dev nD) (r : Fin 64) (q : DmaSem sig) : (xB c r).view.amount (.dma q) = N := rfl
theorem amount_any {sp : Space} (d : Memref sig .tc sp S64x1024 .f32) (q : DmaSem sig) : d.view.amount (.dma q) = N := rfl

/-! ## The receive rows

A load through the whole receive buffer at the rows of chunk `r` reads what the slice of those rows reads; a store there goes
through that slice's elements, and reading the slice after an unmasked store gives back what was stored. -/

section Recv
variable (c : Dev nD) (r : Fin 64)

theorem load_recv (f : Buf (Elt F) ((c : Thread nD τ).loc cc0_scratch0)) :
    rM.view.readAt (Elt F) (rRect r).toLoadRect f = (rS r).view.read (Elt F) f := rfl

theorem set_access_recv : (rM.access (rRect r)).set = (rS r).view.set := rfl

theorem read_store_recv (f : Buf (Elt F) ((c : Thread nD τ).loc cc0_scratch0)) (w : Vec F S64x1024 .f32) :
    (rS r).view.read (Elt F) ((rM.access (rRect r)).write (Elt F) f w Finset.univ) = w :=
  View.read_write_univ (v := (rS r).view) f w

end Recv

/-! ## The staging slot

Slot `s` of the staging buffer is one 1 × 64 × 1024 block; with its unit axis dropped it is a 64 × 1024 block with the same
elements in the same row-major order. So the rank-3 load of the slot is the rank-2 contents, re-indexed. -/

theorem shapeCasts_S64x1024_S1x64x1024 : S64x1024.ShapeCasts S1x64x1024 := by decide

theorem load_stage (c : Dev nD) (s : Fin 2) (f : Buf (Elt F) ((c : Thread nD τ).loc cc0_scratch1)) (b : Vec F S64x1024 .f32)
    (hb : (lS s).view.read (Elt F) f = b) (hc : S64x1024.ShapeCasts S1x64x1024) :
    lM.view.readAt (Elt F) (lRect s).toLoadRect f = shapeCast S1x64x1024 b hc := by
  subst hb
  rw [Memref.read_squeeze_slice lM (lRect s) (fun _ => rfl) squeezes_S1x64x1024_S64x1024 shapeCasts_S1x64x1024_S64x1024 f]
  exact (shapeCast_shapeCast _ _ _).symm

theorem set_lS (s : Fin 2) : (lS s).view.set = (lS3 s).view.set := View.set_reshape _ _
theorem set_lS3 (s : Fin 2) : (lS3 s).view.set = (lM.access (lRect s)).set := rfl
theorem set_lS_access (s : Fin 2) : (lS s).view.set = (lM.access (lRect s)).set := View.set_reshape _ _

/-! ## The sum

The stored value: the staged block re-indexed back to 64 × 1024, added to the received block, then cast to its own shape.
Both re-indexings cancel. -/

theorem pay_eq_addf (P : Vec F S64x1024 .f32 → Vec F S1x64x1024 .f32 → FVec F S64x1024 .f32)
    (hP : ∀ y v, P y v = shapeCast S64x1024 (addf y (shapeCast S64x1024 v shapeCasts_S1x64x1024_S64x1024)) shapeCasts_S64x1024_S64x1024)
    (y b : Vec F S64x1024 .f32) (hc : S64x1024.ShapeCasts S1x64x1024) :
    P y (shapeCast S1x64x1024 b hc) = addf y b := by
  rw [hP, shapeCast_self, shapeCast_shapeCast]

theorem k0_pay1_eq_addf (y b : Vec F S64x1024 .f32) (hc : S64x1024.ShapeCasts S1x64x1024) :
    k0_pay1 y (shapeCast S1x64x1024 b hc) = addf y b :=
  pay_eq_addf k0_pay1 (fun _ _ => rfl) y b hc

/-! ## A landing

Reading a view after an unmasked write through it gives the payload; so the written elements are owned at the payload. -/

theorem read_landed (t : Thread nD τ) {sp : Space} {sh : Shape} {e : EltTy} (d : Memref sig t.2.kind sp sh e)
    (fd : d.view.ty.Contents (Elt F)) (w : sh.Idx → Elt F e) :
    d.view.read (Elt F) (d.view.write (Elt F) fd w Finset.univ) = w := View.read_write_univ fd w

theorem owns_of_landed (t : Thread nD τ) {sp : Space} {sh : Shape} {e : EltTy} (d : Memref sig t.2.kind sp sh e) (q : PosShare TreeShare)
    (fd : d.view.ty.Contents (Elt F)) (w : sh.Idx → Elt F e) :
    (d.view.loc t ↦[d.view.set]{q} (d.view.write (Elt F) fd w Finset.univ) : sProp 𝕄) ⊢ owns t d q w := by
  have h := owns_intro (Val := Elt F) (Ix := Unit) (Name := ℕ) (U := UU) (Lvl := ℕ) t d q (d.view.write (Elt F) fd w Finset.univ)
  rw [View.read_write_univ] at h
  exact h

theorem owns_of_landed_rS (c : Dev nD) (r : Fin 64) (q : PosShare TreeShare)
    (fd : Buf (Elt F) ((c : Thread nD τ).loc cc0_scratch0)) (w : Vec F S64x1024 .f32) :
    ((rS r).view.loc (c : Thread nD τ) ↦[(rS r).view.set]{q} ((rS r).view.write (Elt F) fd w Finset.univ) : sProp 𝕄)
      ⊢ owns (c : Thread nD τ) (rS r) q w := owns_of_landed (c : Thread nD τ) (rS r) q fd w
theorem owns_of_landed_lS (c : Dev nD) (s : Fin 2) (q : PosShare TreeShare)
    (fd : Buf (Elt F) ((c : Thread nD τ).loc cc0_scratch1)) (w : Vec F S64x1024 .f32) :
    ((lS s).view.loc (c : Thread nD τ) ↦[(lS s).view.set]{q} ((lS s).view.write (Elt F) fd w Finset.univ) : sProp 𝕄)
      ⊢ owns (c : Thread nD τ) (lS s) q w := owns_of_landed (c : Thread nD τ) (lS s) q fd w
theorem owns_of_landed_oO (c c' : Dev nD) (r : Fin 64) (q : PosShare TreeShare)
    (fd : Buf (Elt F) ((c : Thread nD τ).loc main_v1)) (w : Vec F S64x1024 .f32) :
    ((oO c' r).view.loc (c : Thread nD τ) ↦[(oO c' r).view.set]{q} ((oO c' r).view.write (Elt F) fd w Finset.univ) : sProp 𝕄)
      ⊢ owns (c : Thread nD τ) (oO c' r) q w := owns_of_landed (c : Thread nD τ) (oO c' r) q fd w

/-- info: 'Cert.Kernel.RS.sem_yrecv' depends on axioms: [propext, Classical.choice, Quot.sound] -/
#guard_msgs in #print axioms sem_yrecv

/-- info: 'Cert.Kernel.RS.sem_cpin' depends on axioms: [propext, Classical.choice, Quot.sound] -/
#guard_msgs in #print axioms sem_cpin

/-- info: 'Cert.Kernel.RS.credit_any' depends on axioms: [propext, Classical.choice, Quot.sound] -/
#guard_msgs in #print axioms credit_any

/-- info: 'Cert.Kernel.RS.read_store_recv' depends on axioms: [propext, Classical.choice, Quot.sound] -/
#guard_msgs in #print axioms read_store_recv

/-- info: 'Cert.Kernel.RS.load_stage' depends on axioms: [propext, Classical.choice, Quot.sound] -/
#guard_msgs in #print axioms load_stage

/-- info: 'Cert.Kernel.RS.k0_pay1_eq_addf' depends on axioms: [propext, Classical.choice, Quot.sound] -/
#guard_msgs in #print axioms k0_pay1_eq_addf

/-- info: 'Cert.Kernel.RS.owns_of_landed' depends on axioms: [propext, Classical.choice, Quot.sound] -/
#guard_msgs in #print axioms owns_of_landed

end Cert.Kernel.RS

end
-- ==== Proof.RsKernel.Edge.lean ====
/-
  Reduce-scatter over a 2×2 mesh, the two ends of a device's body. At entry the device's four buffers, whole, are cut
  into the chunks' pieces the body's states are written in. At exit the pieces, back from the last waits, are glued
  into the whole buffers: the argument as it was, the result reading each chunk's sums through that chunk's rows, the
  two scratch buffers at some contents; and every own copy cell, all its rounds over, is closed with its counter at zero.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Levels
import proofs.«900313_g7700000000000314_dist_rs_v7x_xy2x2_y_m8192_n1024_f32_1_alg».proof.Proof.RsKernel.Views
import proofs.«900313_g7700000000000314_dist_rs_v7x_xy2x2_y_m8192_n1024_f32_1_alg».proof.Proof.RsKernel.Regions
import Idealize.ShloMosaic.Lib.StableHlo.CollectiveRules

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Entry -/

/-- A region held at some contents is held at contents to be named. -/
private theorem pts_ex (ℓ : Loc nD τ sig) (I : Finset (Idx ℓ)) (f : Buf (Elt F) ℓ) :
    (ℓ ↦[I]{fullShare} f : sProp 𝕄) ⊢ iprop(∃ f, ℓ ↦[I]{fullShare} f) := by
  iintro H; iexists f; iexact H

private theorem pts_ex_family {T : Type} (S : Finset T) (ℓ : T → Loc nD τ sig) (I : (t : T) → Finset (Idx (ℓ t)))
    (f : (t : T) → Buf (Elt F) (ℓ t)) :
    bigSep S (fun t => (ℓ t ↦[I t]{fullShare} f t : sProp 𝕄)) ⊢ bigSep S (fun t => (iprop(∃ f, ℓ t ↦[I t]{fullShare} f) : sProp 𝕄)) :=
  bigSep_mono fun t _ => pts_ex (F := F) _ _ _

/-- The four buffers, whole, are the chunks' pieces the body starts from. -/
theorem entry_bufs (c : Dev nD) :
    (iprop(((c : Thread nD τ).loc main_arg0 ↦{fullShare} m ((c : Thread nD τ).loc main_arg0))
      ∗ ((c : Thread nD τ).loc main_v1 ↦{fullShare} m ((c : Thread nD τ).loc main_v1))
      ∗ (∃ f, (c : Thread nD τ).loc cc0_scratch0 ↦{fullShare} f)
      ∗ (∃ f, (c : Thread nD τ).loc cc0_scratch1 ↦{fullShare} f)) : sProp 𝕄) ⊢ bufs0 m c := by
  unfold bufs0 argRest ptsA ptsB freeRows freeOut freeSlot X
  have hL := fun fl => loc_split (F := F) (U := UU) c fl
  simp only [bigSep_univ_two] at hL
  iintro ⟨HA, HO, ⟨%fr, HR⟩, ⟨%fl, HL⟩⟩
  ihave HA' := (arg_split (F := F) (U := UU) c (m ((c : Thread nD τ).loc main_arg0))) $$ HA
  icases HA' with ⟨HA1, HA2, HA3⟩
  ihave HO' := (out_split (F := F) (U := UU) c (m ((c : Thread nD τ).loc main_v1))) $$ HO
  icases HO' with ⟨HO1, HO2⟩
  ihave HR' := (recv_split (F := F) (U := UU) c fr) $$ HR
  ihave HL' := (hL fl) $$ HL
  icases HL' with ⟨HL0, HL1⟩
  isplitl [HA1]; · iexact HA1
  isplitl [HA2]; · iexact HA2
  isplitl [HA3]; · iexact HA3
  isplitl [HR']
  · iapply (pts_ex_family (F := F) Finset.univ (fun r : Fin 64 => (rS r).view.loc (c : Thread nD τ)) (fun r => (rS r).view.set) (fun _ => fr))
    iexact HR'
  isplitl [HO1]
  · iapply (pts_ex_family (F := F) Finset.univ (fun r : Fin 64 => (oO c r).view.loc (c : Thread nD τ)) (fun r => (oO c r).view.set)
      (fun _ => m ((c : Thread nD τ).loc main_v1)))
    iexact HO1
  isplitl [HO2]
  · iapply (pts_ex_family (F := F) Finset.univ (fun r : Fin 64 => (oO (xp c) r).view.loc (c : Thread nD τ)) (fun r => (oO (xp c) r).view.set)
      (fun _ => m ((c : Thread nD τ).loc main_v1)))
    iexact HO2
  isplitl [HL0]
  · iapply (pts_ex (F := F)); iexact HL0
  · iapply (pts_ex (F := F)); iexact HL1

/-! ## Exit: the cells closed -/

/-- Every cell's invariant. -/
private abbrev CI (K : Dev nD × Fin 323 → ℕ) : sProp 𝕄 :=
  bigSep Finset.univ fun cj : Dev nD × Fin 323 => cellInv ER (sched m) (K cj) (kcell cj)

private theorem lt323 (q : Fin 322) : q.val < 323 := Nat.lt_succ_of_lt q.isLt

/-- The invariant of a device's copy cell, out of the family. -/
private theorem cellInv_dma (K : Dev nD × Fin 323 → ℕ) (c : Dev nD) (q : Fin 322) :
    CI m K ⊢ cellInv ER (sched m) (K (c, ⟨q.val, lt323 q⟩)) ((c : Thread nD τ), SemLoc.dma q) := by
  have h := bigSep_elim (Φ := fun cj : Dev nD × Fin 323 => cellInv ER (sched m) (K cj) (kcell cj))
    (Finset.mem_univ ((c, ⟨q.val, lt323 q⟩) : Dev nD × Fin 323))
  have e : kcell ((c, ⟨q.val, lt323 q⟩) : Dev nD × Fin 323) = ((c : Thread nD τ), SemLoc.dma q) := by
    show ((c : Thread nD τ), csem _) = _
    congr 1
    exact dif_pos q.isLt
  rw [e] at h
  exact h

/-- A one-round copy cell whose round is over closes, its counter at zero. -/
private theorem close_one (K : Dev nD × Fin 323 → ℕ) (c : Dev nD) (q : Fin 322) (hq : ¬ (256 ≤ q.val ∧ q.val < 258)) :
    iprop(CI m K ∗ atPos ER ((c : Thread nD τ), SemLoc.dma q) 1 ∅ 0)
      ⊢ (iprop(|={Set.univ}=> semVal ((c : Thread nD τ), SemLoc.dma q) 0) : sProp 𝕄) :=
  (sep_mono_left (cellInv_dma m K c q)).trans
    (Rounds.cell_close ER (sched m) (Set.mem_univ _) (fun h => h) (R := 1)
      (duties_later_of_not_cpin m _ (fun q' hq' => by cases hq'; exact hq)))

private theorem posI_64 (s : Fin 2) : posI s 64 = 32 := by revert s; decide

/-- A staging cell whose 32 rounds are over closes, its counter at zero. -/
private theorem close_cpin (K : Dev nD × Fin 323 → ℕ) (c : Dev nD) (s : Fin 2) :
    iprop(CI m K ∗ cpinAt (F := F) c s 64) ⊢ (iprop(|={Set.univ}=> semVal (cpinC c s) 0) : sProp 𝕄) := by
  unfold cpinAt
  rw [posI_64]
  iintro ⟨#HI, P, -⟩
  iapply (Rounds.cell_close ER (sched m) (Set.mem_univ _) (fun h => h) (R := 32) (duties_later_cpin m c s))
  isplitr
  · iapply (cellInv_dma m K c (cpinQ s)); iexact HI
  · iexact P

/-! ## Exit: one chunk -/

/-- What a chunk's four waits leave, its five cells closed: the two blocks of the argument, the own result rows and the
    row peer's holding their sums, the receive rows whole again, five counters at zero. -/
private def chunkOut (c : Dev nD) (r : Fin 64) : sProp 𝕄 :=
  iprop(ptsA m c r ∗ ptsB m c r
    ∗ owns (c : Thread nD τ) (oO c r) fullShare (sVal m c r)
    ∗ owns (c : Thread nD τ) (oO (xp c) r) fullShare (sVal m (xp c) r)
    ∗ owns (c : Thread nD τ) (rS r) fullShare (sVal m c r)
    ∗ semVal (ysendC c r) 0 ∗ semVal (yrecvC c r) 0 ∗ semVal (xsendC c r) 0 ∗ semVal (xrecvC c r) 0 ∗ semVal (cpoutC c r) 0)

private theorem chunk_exit (K : Dev nD × Fin 323 → ℕ) (c : Dev nD) (r : Fin 64) :
    iprop(CI m K ∗ fPost m c r) ⊢ (iprop(|={Set.univ}=> chunkOut m c r) : sProp 𝕄) := by
  have hr := r.isLt
  unfold fPost w1 w2 w3 w4 cpoutPay ysendPay xsendPay xrecvPay chunkOut ptsA
  iintro ⟨#HI, ⟨P1, O1, R1⟩, ⟨P2, A⟩, ⟨P3, R3⟩, ⟨P4, O4⟩, B, P5⟩
  ihave S1 := (close_one m K c (cpoutQ r) (by show ¬ (256 ≤ 258 + r.val ∧ 258 + r.val < 258); omega)) $$ [P1]
  · isplitr; · iexact HI
    iexact P1
  imod S1
  ihave S2 := (close_one m K c (ysendQ r) (by show ¬ (256 ≤ r.val ∧ r.val < 258); omega)) $$ [P2]
  · isplitr; · iexact HI
    iexact P2
  imod S2
  ihave S3 := (close_one m K c (xsendQ r) (by show ¬ (256 ≤ 128 + r.val ∧ 128 + r.val < 258); omega)) $$ [P3]
  · isplitr; · iexact HI
    iexact P3
  imod S3
  ihave S4 := (close_one m K c (xrecvQ r) (by show ¬ (256 ≤ 192 + r.val ∧ 192 + r.val < 258); omega)) $$ [P4]
  · isplitr; · iexact HI
    iexact P4
  imod S4
  ihave S5 := (close_one m K c (yrecvQ r) (by show ¬ (256 ≤ 64 + r.val ∧ 64 + r.val < 258); omega)) $$ [P5]
  · isplitr; · iexact HI
    iexact P5
  imod S5
  imodintro
  isplitl [A]; · iexact A
  isplitl [B]; · iexact B
  isplitl [O1]; · iexact O1
  isplitl [O4]; · iexact O4
  isplitl [R1 R3]
  · iapply (owns_share (c : Thread nD τ) (rS r) (PosShare.mem_left_op_right fullShare) (sVal m c r)).2
    isplitl [R3]; · iexact R3
    iexact R1
  isplitl [S2]; · iexact S2
  isplitl [S5]; · iexact S5
  isplitl [S3]; · iexact S3
  isplitl [S4]; · iexact S4
  iexact S1

/-! ## Exit: the pieces glued -/

/-- The six families of copy semaphores are all the 322 of the pool. -/
private theorem sems_assemble (Φ : Fin 322 → sProp 𝕄) :
    iprop((bigSep Finset.univ fun r : Fin 64 => Φ (ysendQ r)) ∗ (bigSep Finset.univ fun r : Fin 64 => Φ (yrecvQ r))
      ∗ (bigSep Finset.univ fun r : Fin 64 => Φ (xsendQ r)) ∗ (bigSep Finset.univ fun r : Fin 64 => Φ (xrecvQ r))
      ∗ (bigSep Finset.univ fun s : Fin 2 => Φ (cpinQ s)) ∗ (bigSep Finset.univ fun r : Fin 64 => Φ (cpoutQ r)))
      ⊢ bigSep (Finset.univ : Finset (Fin 322)) Φ := by
  classical
  have i1 : Set.InjOn (fun r : Fin 64 => (ysendQ r : Fin 322)) ↑(Finset.univ : Finset (Fin 64)) := fun a _ b _ h =>
    Fin.ext (by have h' := congrArg Fin.val h; exact h')
  have i2 : Set.InjOn (fun r : Fin 64 => (yrecvQ r : Fin 322)) ↑(Finset.univ : Finset (Fin 64)) := fun a _ b _ h =>
    Fin.ext (by have h' := congrArg Fin.val h; have h'' : 64 + a.val = 64 + b.val := h'; omega)
  have i3 : Set.InjOn (fun r : Fin 64 => (xsendQ r : Fin 322)) ↑(Finset.univ : Finset (Fin 64)) := fun a _ b _ h =>
    Fin.ext (by have h' := congrArg Fin.val h; have h'' : 128 + a.val = 128 + b.val := h'; omega)
  have i4 : Set.InjOn (fun r : Fin 64 => (xrecvQ r : Fin 322)) ↑(Finset.univ : Finset (Fin 64)) := fun a _ b _ h =>
    Fin.ext (by have h' := congrArg Fin.val h; have h'' : 192 + a.val = 192 + b.val := h'; omega)
  have i5 : Set.InjOn (fun s : Fin 2 => (cpinQ s : Fin 322)) ↑(Finset.univ : Finset (Fin 2)) := fun a _ b _ h =>
    Fin.ext (by have h' := congrArg Fin.val h; have h'' : 256 + a.val = 256 + b.val := h'; omega)
  have i6 : Set.InjOn (fun r : Fin 64 => (cpoutQ r : Fin 322)) ↑(Finset.univ : Finset (Fin 64)) := fun a _ b _ h =>
    Fin.ext (by have h' := congrArg Fin.val h; have h'' : 258 + a.val = 258 + b.val := h'; omega)
  have hcov : (Finset.univ : Finset (Fin 322))
      ⊆ Finset.univ.image (fun r : Fin 64 => (ysendQ r : Fin 322)) ∪ (Finset.univ.image (fun r : Fin 64 => (yrecvQ r : Fin 322))
        ∪ (Finset.univ.image (fun r : Fin 64 => (xsendQ r : Fin 322)) ∪ (Finset.univ.image (fun r : Fin 64 => (xrecvQ r : Fin 322))
        ∪ (Finset.univ.image (fun s : Fin 2 => (cpinQ s : Fin 322)) ∪ Finset.univ.image (fun r : Fin 64 => (cpoutQ r : Fin 322)))))) := fun j _ => by
    have hj := j.isLt
    simp only [Finset.mem_union, Finset.mem_image, Finset.mem_univ, _root_.true_and]
    by_cases h1 : j.val < 64
    · exact .inl ⟨⟨j.val, h1⟩, Fin.ext rfl⟩
    by_cases h2 : j.val < 128
    · exact .inr (.inl ⟨⟨j.val - 64, by omega⟩, Fin.ext (by show 64 + (j.val - 64) = j.val; omega)⟩)
    by_cases h3 : j.val < 192
    · exact .inr (.inr (.inl ⟨⟨j.val - 128, by omega⟩, Fin.ext (by show 128 + (j.val - 128) = j.val; omega)⟩))
    by_cases h4 : j.val < 256
    · exact .inr (.inr (.inr (.inl ⟨⟨j.val - 192, by omega⟩, Fin.ext (by show 192 + (j.val - 192) = j.val; omega)⟩)))
    by_cases h5 : j.val < 258
    · exact .inr (.inr (.inr (.inr (.inl ⟨⟨j.val - 256, by omega⟩, Fin.ext (by show 256 + (j.val - 256) = j.val; omega)⟩))))
    · exact .inr (.inr (.inr (.inr (.inr ⟨⟨j.val - 258, by omega⟩, Fin.ext (by show 258 + (j.val - 258) = j.val; omega)⟩))))
  refine BIBase.Entails.trans ?_ (bigSep_subset hcov)
  rw [← bigSep_image_of_injOn i1 Φ, ← bigSep_image_of_injOn i2 Φ, ← bigSep_image_of_injOn i3 Φ, ← bigSep_image_of_injOn i4 Φ,
    ← bigSep_image_of_injOn i5 Φ, ← bigSep_image_of_injOn i6 Φ]
  refine (sep_mono_right ?_).trans (bigSep_sep_union _ _)
  refine (sep_mono_right ?_).trans (bigSep_sep_union _ _)
  refine (sep_mono_right ?_).trans (bigSep_sep_union _ _)
  refine (sep_mono_right ?_).trans (bigSep_sep_union _ _)
  exact bigSep_sep_union _ _

/-- A chunk's rows held at contents reading a value are held at contents to be named. -/
private theorem owns_ex (c : Dev nD) {sp : Space} {sh : Shape} {e : EltTy} (d : Memref sig .tc sp sh e) (Xv : sh.Idx → Elt F e) :
    (owns (c : Thread nD τ) d fullShare Xv : sProp 𝕄) ⊢ iprop(∃ f, d.view.loc (c : Thread nD τ) ↦[d.view.set]{fullShare} f) := by
  unfold owns
  iintro ⟨%f, -, H⟩
  iexists f; iexact H

/-- The receive buffer whole again, from its chunks' rows. -/
private theorem recv_glue (c : Dev nD) :
    (bigSep Finset.univ fun r : Fin 64 => (owns (c : Thread nD τ) (rS r) fullShare (sVal m c r) : sProp 𝕄))
      ⊢ iprop(∃ f, (c : Thread nD τ).loc cc0_scratch0 ↦{fullShare} f) :=
  (bigSep_mono fun r _ => owns_ex (F := F) c (rS r) (sVal m c r)).trans (recv_join (F := F) (U := UU) c)

/-- The staging buffer whole again, from its two slots. -/
private theorem loc_glue (c : Dev nD) :
    iprop(freeSlot (F := F) c 0 ∗ freeSlot (F := F) c 1) ⊢ (iprop(∃ f, (c : Thread nD τ).loc cc0_scratch1 ↦{fullShare} f) : sProp 𝕄) := by
  have h := loc_join (F := F) (U := UU) c
  rw [bigSep_univ_two] at h
  unfold freeSlot
  exact h

/-- The result whole, reading each chunk's sums through that chunk's rows. -/
private theorem out_glue (c : Dev nD) :
    iprop((bigSep Finset.univ fun r : Fin 64 => owns (c : Thread nD τ) (oO c r) fullShare (sVal m c r))
      ∗ (bigSep Finset.univ fun r : Fin 64 => owns (c : Thread nD τ) (oO (xp c) r) fullShare (sVal m (xp c) r)))
      ⊢ (iprop(∃ f : Buf (Elt F) ((c : Thread nD τ).loc main_v1), ((c : Thread nD τ).loc main_v1 ↦{fullShare} f)
        ∗ ⌜∀ r : Fin 64, (oO c r).view.read (Elt F) f = sVal m c r ∧ (oO (xp c) r).view.read (Elt F) f = sVal m (xp c) r⌝) : sProp 𝕄) := by
  haveI : ∀ _ : Fin 64, Nonempty (Buf (Elt F) ((c : Thread nD τ).loc main_v1)) := fun _ => ⟨m _⟩
  have e1 := bigSep_exists_pi (M := 𝕄) (Y := fun _ : Fin 64 => Buf (Elt F) ((c : Thread nD τ).loc main_v1)) Finset.univ
    (fun r f => iprop(⌜(oO c r).view.read (Elt F) f = sVal m c r⌝ ∗ ((oO c r).view.loc (c : Thread nD τ) ↦[(oO c r).view.set]{fullShare} f)))
  have e2 := bigSep_exists_pi (M := 𝕄) (Y := fun _ : Fin 64 => Buf (Elt F) ((c : Thread nD τ).loc main_v1)) Finset.univ
    (fun r f => iprop(⌜(oO (xp c) r).view.read (Elt F) f = sVal m (xp c) r⌝ ∗ ((oO (xp c) r).view.loc (c : Thread nD τ) ↦[(oO (xp c) r).view.set]{fullShare} f)))
  unfold owns
  iintro ⟨H1, H2⟩
  ihave H1' := e1 $$ H1
  icases H1' with ⟨%g, H1⟩
  ihave H1'' := (bigSep_pure_sep Finset.univ _ _) $$ H1
  icases H1'' with ⟨%hg, H1⟩
  ihave H2' := e2 $$ H2
  icases H2' with ⟨%g', H2⟩
  ihave H2'' := (bigSep_pure_sep Finset.univ _ _) $$ H2
  icases H2'' with ⟨%hg', H2⟩
  ihave H := (out_join (F := F) (U := UU) c g g') $$ [H1 H2]
  · isplitl [H1]; · iexact H1
    iexact H2
  icases H with ⟨%f, Hf, %hf⟩
  iexists f
  isplitl [Hf]; · iexact Hf
  ipureintro
  intro r
  exact ⟨(hf r).1.trans (hg r (Finset.mem_univ _)), (hf r).2.trans (hg' r (Finset.mem_univ _))⟩

/-! ## Exit: the whole -/

/-- What the chunks leave, family by family. -/
private theorem chunkOut_split (c : Dev nD) :
    (bigSep Finset.univ fun r : Fin 64 => chunkOut m c r)
      = iprop((bigSep Finset.univ fun r : Fin 64 => ptsA m c r) ∗ (bigSep Finset.univ fun r : Fin 64 => ptsB m c r)
        ∗ (bigSep Finset.univ fun r : Fin 64 => owns (c : Thread nD τ) (oO c r) fullShare (sVal m c r))
        ∗ (bigSep Finset.univ fun r : Fin 64 => owns (c : Thread nD τ) (oO (xp c) r) fullShare (sVal m (xp c) r))
        ∗ (bigSep Finset.univ fun r : Fin 64 => owns (c : Thread nD τ) (rS r) fullShare (sVal m c r))
        ∗ (bigSep Finset.univ fun r : Fin 64 => semVal (ysendC c r) 0) ∗ (bigSep Finset.univ fun r : Fin 64 => semVal (yrecvC c r) 0)
        ∗ (bigSep Finset.univ fun r : Fin 64 => semVal (xsendC c r) 0) ∗ (bigSep Finset.univ fun r : Fin 64 => semVal (xrecvC c r) 0)
        ∗ (bigSep Finset.univ fun r : Fin 64 => (semVal (cpoutC c r) 0 : sProp 𝕄))) := by
  unfold chunkOut
  rw [bigSep_sep', bigSep_sep', bigSep_sep', bigSep_sep', bigSep_sep', bigSep_sep', bigSep_sep', bigSep_sep', bigSep_sep']

/-- The pieces at rest are what the device hands back. -/
private theorem exit_glue (c : Dev nD) :
    iprop(argRest m c ∗ freeSlot (F := F) c 0 ∗ freeSlot (F := F) c 1 ∗ semVal (cpinC c 0) 0 ∗ semVal (cpinC c 1) 0
      ∗ bigSep Finset.univ fun r : Fin 64 => chunkOut m c r) ⊢ Φ₁ m c := by
  rw [chunkOut_split]
  have hsem := sems_assemble (F := F) (fun j : Fin 322 => semVal ((c : Thread nD τ), osem j) 0)
  rw [bigSep_univ_two] at hsem
  unfold Φ₁ Yc ptsA ptsB argRest
  iintro ⟨AR, L0, L1, T0, T1, A, B, O1, O4, R, S2, S5, S3, S4, S1⟩
  isplitl [AR A B O1 O4]
  · isplitl [AR A B]
    · iapply (arg_join (F := F) (U := UU) c (X m c))
      isplitl [A]; · iexact A
      isplitl [B]; · iexact B
      iexact AR
    · iapply (out_glue m c)
      isplitl [O1]; · iexact O1
      iexact O4
  isplitl [T0 T1 S1 S2 S3 S4 S5]
  · iapply hsem
    isplitl [S2]; · iexact S2
    isplitl [S5]; · iexact S5
    isplitl [S3]; · iexact S3
    isplitl [S4]; · iexact S4
    isplitl [T0 T1]
    · isplitl [T0]; · iexact T0
      iexact T1
    iexact S1
  isplitl [R]
  · iapply (recv_glue m c); iexact R
  · iapply (loc_glue (F := F) c)
    isplitl [L0]; · iexact L0
    iexact L1

/-- After the last loop the device hands back its buffers whole and its cells closed, owing nothing. -/
theorem exit_S4 (K : Dev nD × Fin 323 → ℕ) (c : Dev nD) :
    S4 m K c ⊢ (iprop(|={Set.univ}=> (Φ₁ m c ∗ owesE (F := F) c 0)) : sProp 𝕄) := by
  have hch : iprop(CI m K ∗ bigSep Finset.univ fun r : Fin 64 => fPost m c r)
      ⊢ (iprop(|={Set.univ}=> bigSep Finset.univ fun r : Fin 64 => chunkOut m c r) : sProp 𝕄) :=
    (bigSep_with_persistent (fun r _ => chunk_exit m K c r)).trans (bigSep_fupd _ _)
  unfold S4 Rec rest3 cpinsAt
  iintro ⟨⟨#HI, -, -⟩, ⟨AR, L0, L1, ⟨C0, C1⟩, OW⟩, HF⟩
  ihave HC := hch $$ [HF]
  · isplitr; · iexact HI
    iexact HF
  imod HC
  ihave T0 := (close_cpin m K c 0) $$ [C0]
  · isplitr; · iexact HI
    iexact C0
  imod T0
  ihave T1 := (close_cpin m K c 1) $$ [C1]
  · isplitr; · iexact HI
    iexact C1
  imod T1
  imodintro
  isplitr [OW]
  · iapply (exit_glue m c)
    isplitl [AR]; · iexact AR
    isplitl [L0]; · iexact L0
    isplitl [L1]; · iexact L1
    isplitl [T0]; · iexact T0
    isplitl [T1]; · iexact T1
    iexact HC
  · iexact OW

/-- info: 'Cert.Kernel.RS.entry_bufs' depends on axioms: [propext, Classical.choice, Quot.sound] -/
#guard_msgs in #print axioms entry_bufs

/-- info: 'Cert.Kernel.RS.exit_S4' depends on axioms: [propext, Classical.choice, Quot.sound] -/
#guard_msgs in #print axioms exit_S4

end Cert.Kernel.RS

end
-- ==== Proof.RsKernel.BodyBase.lean ====
/-
  Reduce-scatter over a 2×2 mesh: the rules by which the body's proof is put together from the step lemmas. A step lemma
  has the form P ⊢ (A -∗ W') -∗ W, where W is the weakest precondition of an operation followed by a continuation and W'
  that of the continuation; step_apply closes it against a proof of the continuation from A. A part of the body is a
  program that returns; bind_apply runs one part after another, ret_apply and ret_fact end a part at its returned value,
  the second recording a fact about that value for the parts that come after.
-/
import proofs.«900313_g7700000000000314_dist_rs_v7x_xy2x2_y_m8192_n1024_f32_1_alg».proof.Proof.RsKernel.State

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- From a step P ⊢ (A -∗ B) -∗ C and the rest A ⊢ B: P ⊢ C. -/
theorem step_apply {P A B C : sProp 𝕄} (hs : P ⊢ iprop((A -∗ B) -∗ C)) (h : A ⊢ B) : P ⊢ C :=
  BI.sep_emp_intro.trans ((BI.sep_mono hs (BI.wand_intro (BI.emp_sep_elim.trans h))).trans (BI.wand_elim (BI.Entails.refl _)))

/-- A pure fact in front of a state is a hypothesis. -/
theorem pure_sep_elim {φ : Prop} {P Q : sProp 𝕄} (h : φ → P ⊢ Q) : iprop(⌜φ⌝ ∗ P) ⊢ Q := by
  iintro ⟨%hφ, H⟩
  iapply (h hφ) $$ [H]
  iexact H

/-- A program that returns a, from a state that entails the postcondition at a. -/
theorem ret_apply (c : Dev nD) {α : Type} {a : α} {Q : α → sProp 𝕄} {P : sProp 𝕄} (h : P ⊢ Q a) :
    P ⊢ wp frame (wpE (defs₀ (F := F)) 𝒱₀ (c : Thread nD τ) none) Set.univ (.ret a) Q :=
  h.trans (le_wp_ret _ _ _ a Q)

/-- A program that returns a, recording a fact about a. -/
theorem ret_fact (c : Dev nD) {α : Type} {a : α} {φ : α → Prop} {P : sProp 𝕄} (h : φ a) :
    P ⊢ wp frame (wpE (defs₀ (F := F)) 𝒱₀ (c : Thread nD τ) none) Set.univ (.ret a) (fun ret => iprop(⌜φ ret⌝ ∗ P)) := by
  refine ret_apply c ?_
  iintro H
  isplitr
  · ipureintro; exact h
  iexact H

/-- One program after another: the first from P to R, the second from R at each returned value. -/
theorem bind_apply (c : Dev nD) {α β : Type} {p : Prog (TpuEff nD τ sig (Elt F) Λ₀ .tc) α} {k : α → Prog (TpuEff nD τ sig (Elt F) Λ₀ .tc) β}
    {Q : β → sProp 𝕄} {P : sProp 𝕄} {R : α → sProp 𝕄}
    (hp : P ⊢ wp frame (wpE (defs₀ (F := F)) 𝒱₀ (c : Thread nD τ) none) Set.univ p R) (hk : ∀ a, R a ⊢ wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]; exact hp.trans (wp_mono _ _ _ hk)

/-- info: 'Cert.Kernel.RS.bind_apply' depends on axioms: [propext, Classical.choice, Quot.sound] -/
#guard_msgs in #print axioms bind_apply

/-- info: 'Cert.Kernel.RS.ret_fact' depends on axioms: [propext, Classical.choice, Quot.sound] -/
#guard_msgs in #print axioms ret_fact

end Cert.Kernel.RS

end
-- ==== Proof.RsKernel.Steps1.lean ====
/-
  The body's first operations, one lemma each: the staging of chunk 0, the two barrier signals, the barrier wait,
  and the first loop's sends to the column peer; then the passage from the first loop's last state to the middle
  loop's first.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Levels
import proofs.«900313_g7700000000000314_dist_rs_v7x_xy2x2_y_m8192_n1024_f32_1_alg».proof.Proof.RsKernel.Views

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the persistent knowledge holds, cell by cell -/

private instance rec_persistent (K : Dev nD × Fin 323 → ℕ) : Persistent (Rec m K) := by unfold Rec; infer_instance

/-- The index of a copy cell, and of the barrier cell, in the table of all cells. -/
private def jDma (q : DmaSem sig) : Fin 323 := ⟨q.val, Nat.lt_succ_of_lt q.isLt⟩
private def jBar : Fin 323 := ⟨322, by decide⟩

private theorem kcell_dma (c : Dev nD) (q : DmaSem sig) : kcell (c, jDma q) = ((c : Thread nD τ), .dma q) := by
  show ((c : Thread nD τ), (if h : q.val < 322 then SemLoc.dma ⟨q.val, h⟩ else SemLoc.reg barS)) = _
  rw [dif_pos q.isLt]
private theorem kcell_bar (c : Dev nD) : kcell (c, jBar) = barC c := rfl

private theorem inv_at (K : Dev nD × Fin 323 → ℕ) (cj : Dev nD × Fin 323) :
    (bigSep Finset.univ fun cj : Dev nD × Fin 323 => (cellInv ER (sched m) (K cj) (kcell cj) : sProp 𝕄)) ⊢ cellInv ER (sched m) (K cj) (kcell cj) :=
  bigSep_elim (Finset.mem_univ cj)
private theorem reached_at (cj : Dev nD × Fin 323) :
    (bigSep Finset.univ fun cj : Dev nD × Fin 323 => (reached ER (kcell cj) 0 : sProp 𝕄)) ⊢ reached ER (kcell cj) 0 :=
  bigSep_elim (Finset.mem_univ cj)

private theorem inv_dma (K : Dev nD × Fin 323 → ℕ) (c : Dev nD) (q : DmaSem sig) :
    Rec m K ⊢ cellInv ER (sched m) (K (c, jDma q)) ((c : Thread nD τ), .dma q) := by
  rw [← kcell_dma c q]; unfold Rec
  iintro ⟨H, -, -⟩
  iapply (inv_at m K (c, jDma q)) $$ H
private theorem inv_bar (K : Dev nD × Fin 323 → ℕ) (c : Dev nD) :
    Rec m K ⊢ cellInv ER (sched m) (K (c, jBar)) (barC c) := by
  rw [← kcell_bar c]; unfold Rec
  iintro ⟨H, -, -⟩
  iapply (inv_at m K (c, jBar)) $$ H
private theorem reached0_dma (K : Dev nD × Fin 323 → ℕ) (c : Dev nD) (q : DmaSem sig) :
    Rec m K ⊢ reached ER ((c : Thread nD τ), .dma q) 0 := by
  rw [← kcell_dma c q]; unfold Rec
  iintro ⟨-, H, -⟩
  iapply (reached_at (F := F) (c, jDma q)) $$ H
private theorem reached0_bar (K : Dev nD × Fin 323 → ℕ) (c : Dev nD) :
    Rec m K ⊢ reached ER (barC c) 0 := by
  rw [← kcell_bar c]; unfold Rec
  iintro ⟨-, H, -⟩
  iapply (reached_at (F := F) (c, jBar)) $$ H
private theorem lev_rec (K : Dev nD × Fin 323 → ℕ) : Rec m K ⊢ (levAts L lv : sProp 𝕄) := by
  unfold Rec
  iintro ⟨-, -, H⟩
  iexact H

/-! ## The first loop: chunk `r` goes to the column peer -/

theorem step_ysend (K : Dev nD × Fin 323 → ℕ) (c : Dev nD) (r : Fin 64) (n : Dev nD) (hn : n = yp c)
    (qs qr : DmaSem sig) (hqs : qs = ysendQ r) (hqr : qr = yrecvQ r)
    {hsc : (rS r : Memref sig (Dev.tc n : Thread nD τ).2.kind .vmem S64x1024 .f32).view.ref.isScScratch = false}
    {hsrc : (xA c r).view.WordExact} {hdst : (rS r).view.WordExact}
    {hsem : DmaTarget.Typed .hbm (.dma qr) (.remote (Dev.tc n : Thread nD τ) (rS r) (.dma qs) hsc)}
    {α : Type} {Q : α → sProp 𝕄} {k : PUnit → Prog (TpuEff nD τ sig (Elt F) Λ₀ .tc) α} :
    S1 m K c r.val ⊢ iprop((S1 m K c (r.val + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (xA c r) (.remote (Dev.tc n : Thread nD τ) (rS r) (.dma qs) hsc) (.dma qr) hsrc hdst hsem) k) Q) := by
  subst hn hqs hqr
  unfold S1
  rw [bigSep_fromK_peel (y1pre m c) r, bigSep_uptoK_push (y1post (F := F) c) r]
  unfold y1pre y1post owesE freeRows ptsA
  iintro ⟨#HRec, Hmid, ⟨⟨HA, ⟨%fd, Hrows⟩, Hts, Htr⟩, Hpre⟩, Hpost, ⟨%W, HO⟩⟩ Hk
  iapply (Rounds.wp_send_pointsTo 𝒱₀ ER (sched m) (c : Thread nD τ) none (c' := (yp c : Thread nD τ))
      (src := xA c r) (dst := rS r) (sS := .dma (ysendQ r)) (sem := .dma (yrecvQ r)) (q := fullShare) (fs := X m c) (fd := fd)
      (r₁ := 0) (r₂ := 0) (d₁ := false) (d₂ := false) (κ₁ := K (c, jDma (ysendQ r))) (κ₂ := K (yp c, jDma (yrecvQ r)))
      (by rw [duties_ysend]; exact Finset.mem_singleton_self _) (by rw [duties_yrecv]; exact Finset.mem_singleton_self _)
      () () N rfl (amount_dma m c (ysendQ r) 0 false) (amount_dma m (yp c) (yrecvQ r) 0 false)
      (O₀ := Oy c r.val + Ox c 0) (Oy c (r.val + 1) + Ox c 0) (by rw [Oy_peel c r, add_right_comm]) (W := W)
      (by rw [payload_ysend]; exact BI.Entails.refl _)
      (by rw [payload_yrecv]; unfold yrecvPay yVal aVal; rw [yp_yp]; exact owns_of_landed_rS (yp c) r fullShare fd _))
    $$ [HA Hrows HO Hts Htr]
  · isplitr; · iapply (inv_dma m K c (ysendQ r)); iexact HRec
    isplitr; · iapply (inv_dma m K (yp c) (yrecvQ r)); iexact HRec
    isplitl [HA]; · iexact HA
    isplitl [Hrows]; · iexact Hrows
    isplitl [HO]; · iexact HO
    isplitl [Hts]; · iexact Hts
    isplitr; · iapply (reached0_dma m K c (ysendQ r)); iexact HRec
    isplitl [Htr]; · iexact Htr
    iapply (reached0_dma m K (yp c) (yrecvQ r)); iexact HRec
  iintro ⟨Hc, HO⟩
  iapply Hk
  isplitr; · iexact HRec
  isplitl [Hmid]; · iexact Hmid
  isplitl [Hpre]; · iexact Hpre
  isplitl [Hc Hpost]
  · isplitl [Hc]; · iexact Hc
    iexact Hpost
  iexists W
  iexact HO

/-! ## The prologue's states -/

section Prologue
variable (K : Dev nD × Fin 323 → ℕ) (c : Dev nD)

/-- A conjunction over all chunks, chunk 0 first. -/
private theorem bigSep_univ_peel0 (Φ : Fin 64 → sProp 𝕄) : bigSep Finset.univ Φ = iprop(Φ 0 ∗ bigSep (fromK 1) Φ) := by
  rw [← fromK_zero]; exact bigSep_fromK_peel Φ 0

/-- What the prologue's operations after the first leave alone, kind by kind: the blocks of the argument, the own result
    rows, the second staging slot, the duty tokens of the copies, the copy cells' positions, the receive credit. -/
private def proCore : sProp 𝕄 :=
  iprop(argRest m c
    ∗ (bigSep Finset.univ fun r : Fin 64 => ptsA m c r)
    ∗ (bigSep (fromK 1) fun r : Fin 64 => ptsB m c r)
    ∗ (bigSep Finset.univ fun r : Fin 64 => freeOut (F := F) c c r)
    ∗ freeSlot (F := F) c 1
    ∗ (bigSep Finset.univ fun r : Fin 64 => dutyTok ER (ysendC c r) 0 false)
    ∗ (bigSep Finset.univ fun r : Fin 64 => dutyTok ER (yrecvC (yp c) r) 0 false)
    ∗ (bigSep Finset.univ fun r : Fin 64 => dutyTok ER (xsendC c r) 0 false)
    ∗ (bigSep Finset.univ fun r : Fin 64 => dutyTok ER (xrecvC (xp c) r) 0 false)
    ∗ (bigSep Finset.univ fun r : Fin 64 => dutyTok ER (cpoutC c r) 0 false)
    ∗ (bigSep (fromK 1) fun r : Fin 64 => dutyTok ER (cpinC c (slotOf r.val)) (r.val / 2) false)
    ∗ atPos ER (cpinC c 0) 0 ∅ 0 ∗ atPos ER (cpinC c 1) 0 ∅ 0
    ∗ (bigSep Finset.univ fun r : Fin 64 => atPos ER (ysendC c r) 0 ∅ 0)
    ∗ (bigSep Finset.univ fun r : Fin 64 => atPos ER (yrecvC c r) 0 ∅ 0)
    ∗ (bigSep Finset.univ fun r : Fin 64 => atPos ER (xsendC c r) 0 ∅ 0)
    ∗ (bigSep Finset.univ fun r : Fin 64 => atPos ER (xrecvC c r) 0 ∅ 0)
    ∗ (bigSep Finset.univ fun r : Fin 64 => atPos ER (cpoutC c r) 0 ∅ 0)
    ∗ (bigSep Finset.univ fun r : Fin 64 => cred (tallyAt (yrecvC c r) () N))
    ∗ (bigSep Finset.univ fun r : Fin 64 => cred (tallyAt (xrecvC c r) () N)))

/-- The prologue: the start; chunk 0 being staged; the column peer signalled; the row peer signalled. -/
def Pro (j : ℕ) : sProp 𝕄 :=
  match j with
  | 0 => Start m K c
  | 1 => iprop(Rec m K ∗ stMid (F := F) c 0 ∗ owesE (F := F) c (O₀ c) ∗ proCore m c
      ∗ (bigSep Finset.univ fun r : Fin 64 => freeRows (F := F) c r) ∗ (bigSep Finset.univ fun r : Fin 64 => freeOut (F := F) c (xp c) r)
      ∗ dutyTok ER (barC (yp c)) 0 false ∗ dutyTok ER (barC (xp c)) 0 true
      ∗ atPos ER (barC c) 0 ∅ 0 ∗ cred (tallyAt (barC c) () 2))
  | 2 => iprop(Rec m K ∗ stMid (F := F) c 0 ∗ owesE (F := F) c ((Oy c 0 + Ox c 0) + tallyAt (barC (xp c)) () 1) ∗ proCore m c
      ∗ (bigSep Finset.univ fun r : Fin 64 => freeOut (F := F) c (xp c) r)
      ∗ dutyTok ER (barC (xp c)) 0 true
      ∗ atPos ER (barC c) 0 ∅ 0 ∗ cred (tallyAt (barC c) () 2))
  | _ => iprop(Rec m K ∗ stMid (F := F) c 0 ∗ owesE (F := F) c (Oy c 0 + Ox c 0) ∗ proCore m c
      ∗ atPos ER (barC c) 0 ∅ 0 ∗ cred (tallyAt (barC c) () 2))

private theorem stMid_zero : stMid (F := F) c 0 = cred (tallyAt (cpinC c 0) () N) := rfl
private theorem posI_zero (s : Fin 2) : posI s 0 = 0 := by revert s; decide

private theorem reached_yrecv_all : Rec m K ⊢ bigSep Finset.univ fun r : Fin 64 => (reached ER (yrecvC c r) 0 : sProp 𝕄) :=
  bigSep_intro_persistent (R := Rec m K) fun r _ => reached0_dma m K c (yrecvQ r)
private theorem reached_xrecv_all : Rec m K ⊢ bigSep Finset.univ fun r : Fin 64 => (reached ER (xrecvC c r) 0 : sProp 𝕄) :=
  bigSep_intro_persistent (R := Rec m K) fun r _ => reached0_dma m K c (xrecvQ r)
private theorem curSt_zero : curSt (F := F) c 0 = cred (tallyAt (cpinC c 0) () N) := by
  unfold curSt; rw [dif_pos (by decide : (0 : ℕ) < 64)]; rfl
private theorem owesE_intro (O : CellTallies nD τ sig Unit) (W : Waits sig Unit) : owes (c : Thread nD τ) O W ⊢ owesE (F := F) c O := by
  unfold owesE; iintro H; iexists W; iexact H

private theorem raw_sep (P R : sProp 𝕄) : Idealize.SL.BI.sep P R ⊢ iprop(P ∗ R) := Entails.of_eq rfl

/-- The staging of chunk 0 starts: its kept block and the first slot go to the copy, the copy's credit comes back. -/
theorem step_pro_stage0 (q : DmaSem sig) (hq : q = cpinQ 0)
    {hsrc : (xB c 0).view.WordExact} {hdst : (lS 0).view.WordExact}
    {hsem : DmaTarget.Typed (nD := nD) (τ := τ) (p := .tc) .hbm (.dma q) (.here (lS 0))}
    {α : Type} {Q : α → sProp 𝕄} {k : PUnit → Prog (TpuEff nD τ sig (Elt F) Λ₀ .tc) α} :
    Pro m K c 0 ⊢ iprop((Pro m K c 1 -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (xB c 0) (.here (lS 0)) (.dma q) hsrc hdst hsem) k) Q) := by
  subst hq
  unfold Pro Start bufs0 toks poss creds0 proCore
  simp only [bigSep_sep']
  rw [bigSep_univ_peel0 (fun r : Fin 64 => ptsB m c r),
    bigSep_univ_peel0 (fun r : Fin 64 => dutyTok ER (cpinC c (slotOf r.val)) (r.val / 2) false)]
  unfold ptsB freeSlot owesE
  rw [stMid_zero]
  iintro ⟨#HRec, ⟨HA, ⟨HB0, HB⟩, Harg, HFR, HFOc, HFOx, ⟨%f0, Hsl0⟩, Hsl1⟩, ⟨Htby, Htbx, Htys, Htyr, Htxs, Htxr, Htco, Htci0, Htci⟩,
    ⟨Hpb, Hpci0, Hpci1, Hpys, Hpyr, Hpxs, Hpxr, Hpco⟩, ⟨Hcb, Hcyr, Hcxr⟩, ⟨%W, HO⟩⟩ Hk
  iapply (Rounds.wp_copy_pointsTo 𝒱₀ ER (sched m) (c : Thread nD τ) none (src := xB c 0) (dst := lS 0) (sem := .dma (cpinQ 0))
      (q := fullShare) (fs := X m c) (fd := f0) (r := 0) (d := false) (κ := K (c, jDma (cpinQ 0)))
      (by rw [duties_cpin m c 0 0 (by decide)]; exact Finset.mem_singleton_self _)
      () N rfl (amount_dma m c (cpinQ 0) 0 false)
      (by
        rw [payload_cpin]; unfold cpinPay; rw [dif_pos (by decide : 0 < 32)]
        iintro ⟨H1, H2⟩
        isplitl [H1]
        · iapply (owns_of_landed_lS c 0 fullShare f0 _) $$ H1
        · iexact H2))
    $$ [HB0 Hsl0 Htci0]
  · isplitr; · iapply (inv_dma m K c (cpinQ 0)); iexact HRec
    isplitl [HB0]; · iexact HB0
    isplitl [Hsl0]; · iexact Hsl0
    isplitl [Htci0]; · iexact Htci0
    iapply (reached0_dma m K c (cpinQ 0)); iexact HRec
  iintro Hc
  iapply Hk
  isplitr; · iexact HRec
  isplitl [Hc]; · iexact Hc
  isplitl [HO]; · iexists W; iexact HO
  iframe

/-! ## The schedule's tables at the prologue's cells, spelt open -/

private theorem duties_bar_lit (c : Dev nD) : (sched (F := F) m).duties (barC c) 0 = {false, true} := by
  rw [duties_bar]; decide

section Signals
/-- What a peer's barrier duty hands over, in this device's own terms. -/
private theorem payload_bar_y_open : (sched (F := F) m).payload (barC (yp c)) 0 false
    = iprop((bigSep Finset.univ fun r : Fin 64 => freeRows (F := F) c r) ∗ (bigSep Finset.univ fun r : Fin 64 => reached ER (yrecvC c r) 0)) := by
  rw [payload_bar_y]; unfold barPayY freeRows; rw [yp_yp, bigSep_sep']
private theorem payload_bar_x_open : (sched (F := F) m).payload (barC (xp c)) 0 true
    = iprop((bigSep Finset.univ fun r : Fin 64 => freeOut (F := F) c (xp c) r) ∗ (bigSep Finset.univ fun r : Fin 64 => reached ER (xrecvC c r) 0)) := by
  rw [payload_bar_x]; unfold barPayX freeOut; rw [xp_xp, bigSep_sep']
attribute [local sl_rounds] duties_bar_lit amount_bar payload_bar_y_open payload_bar_x_open

/-- The signal to the column peer's barrier: the own landing rows go with it. -/
theorem step_pro_sigy (n : Dev nD) (hn : n = yp c)
    {α : Type} {Q : α → sProp 𝕄} {k : PUnit → Prog (TpuEff nD τ sig (Elt F) Λ₀ .tc) α} :
    Pro m K c 1 ⊢ iprop((Pro m K c 2 -∗ wp frame (wpE (defs₀ (F := F)) 𝒱₀ (c : Thread nD τ) none) Set.univ (k ⟨⟩) Q)
      -∗ wp frame (wpE (defs₀ (F := F)) 𝒱₀ (c : Thread nD τ) none) Set.univ
          (.op (.semSignal (Dev.tc n : Thread nD τ) barS 1) k) Q) := by
  subst hn
  simp only [Pro]
  unfold owesE O₀
  iintro ⟨#HRec, Hst, ⟨%W, HO⟩, Hcore, HFR, HFOx, Htby, Htbx, Hpb, Hcb⟩ Hk
  ihave HI := (inv_bar m K (yp c)) $$ HRec
  ihave Hr := (reached0_bar m K (yp c)) $$ HRec
  ihave Hra := (reached_yrecv_all m K c) $$ HRec
  sl_exec
  iapply Hk
  isplitr; · iexact HRec
  isplitl [Hst]; · iexact Hst
  isplitl [HO]; · iexists W; iexact HO
  iframe

/-- The signal to the row peer's barrier: the result rows where the row peer's sums go, go with it. -/
theorem step_pro_sigx (n : Dev nD) (hn : n = xp c)
    {α : Type} {Q : α → sProp 𝕄} {k : PUnit → Prog (TpuEff nD τ sig (Elt F) Λ₀ .tc) α} :
    Pro m K c 2 ⊢ iprop((Pro m K c 3 -∗ wp frame (wpE (defs₀ (F := F)) 𝒱₀ (c : Thread nD τ) none) Set.univ (k ⟨⟩) Q)
      -∗ wp frame (wpE (defs₀ (F := F)) 𝒱₀ (c : Thread nD τ) none) Set.univ
          (.op (.semSignal (Dev.tc n : Thread nD τ) barS 1) k) Q) := by
  subst hn
  simp only [Pro]
  unfold owesE
  iintro ⟨#HRec, Hst, ⟨%W, HO⟩, Hcore, HFOx, Htbx, Hpb, Hcb⟩ Hk
  ihave HI := (inv_bar m K (xp c)) $$ HRec
  ihave Hr := (reached0_bar m K (xp c)) $$ HRec
  ihave Hra := (reached_xrecv_all m K c) $$ HRec
  sl_exec
  iapply Hk
  isplitr; · iexact HRec
  isplitl [Hst]; · iexact Hst
  isplitl [HO]; · iexists W; iexact HO
  iframe
end Signals

section Wait
/-- What the own barrier cell's two duties hand over. -/
private theorem payload_bar_own_y : (sched (F := F) m).payload (barC c) 0 false
    = iprop((bigSep Finset.univ fun r : Fin 64 => freeRows (F := F) (yp c) r) ∗ (bigSep Finset.univ fun r : Fin 64 => reached ER (yrecvC (yp c) r) 0)) := by
  rw [payload_bar_y]; unfold barPayY freeRows; rw [bigSep_sep']
private theorem payload_bar_own_x : (sched (F := F) m).payload (barC c) 0 true
    = iprop((bigSep Finset.univ fun r : Fin 64 => freeOut (F := F) (xp c) c r) ∗ (bigSep Finset.univ fun r : Fin 64 => reached ER (xrecvC (xp c) r) 0)) := by
  rw [payload_bar_x]; unfold barPayX freeOut; rw [bigSep_sep']
attribute [local sl_rounds] duties_bar_lit amount_bar expect_bar payload_bar_own_y payload_bar_own_x

/-- The barrier wait: both peers' signals bring the rows this device writes on them; every chunk's needs are then complete. -/
theorem step_pro_wait
    {α : Type} {Q : α → sProp 𝕄} {k : PUnit → Prog (TpuEff nD τ sig (Elt F) Λ₀ .tc) α} :
    Pro m K c 3 ⊢ iprop((S1 m K c 0 -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS 2) k) Q) := by
  simp only [Pro]
  unfold proCore owesE
  rw [stMid_zero]
  iintro ⟨#HRec, Hst, ⟨%W, HO⟩, ⟨Harg, HA, HB, HFOc, Hsl1, Htys, Htyr, Htxs, Htxr, Htco, Htci, Hpci0, Hpci1, Hpys, Hpyr, Hpxs, Hpxr, Hpco, Hcyr, Hcxr⟩,
    Hpb, Hcb⟩ Hk
  have hmw := mayWait_bar (F := F) c
  ihave HI := (inv_bar m K c) $$ HRec
  ihave Hlev := (lev_rec m K) $$ HRec
  sl_exec
  ihave Hp := (raw_sep _ _) $$ Hpb_pay1
  icases Hp with ⟨⟨HFRy, -⟩, ⟨HFOx, -⟩⟩
  ihave HOE := (owesE_intro c (Oy c 0 + Ox c 0) (insert (SemLoc.reg barS, ()) W)) $$ HO
  ihave #Hr0 := (reached0_dma m K c (cpinQ 0)) $$ HRec
  ihave #Hr1 := (reached0_dma m K c (cpinQ 1)) $$ HRec
  iapply Hk
  unfold S1 mid0 y1pre mPre mRest stPre fPre cpinsAt cpinAt
  rw [fromK_zero, uptoK_zero, bigSep_empty, posI_zero, posI_zero, curSt_zero]
  simp only [bigSep_sep']
  isplitr; · iexact HRec
  iframe # ∗
  iempintro
end Wait

end Prologue

/-- info: 'Cert.Kernel.RS.step_ysend' depends on axioms: [propext, Classical.choice, Quot.sound] -/
#guard_msgs in #print axioms step_ysend

/-- info: 'Cert.Kernel.RS.step_pro_stage0' depends on axioms: [propext, Classical.choice, Quot.sound] -/
#guard_msgs in #print axioms step_pro_stage0

/-- info: 'Cert.Kernel.RS.step_pro_sigy' depends on axioms: [propext, Classical.choice, Quot.sound] -/
#guard_msgs in #print axioms step_pro_sigy

/-- info: 'Cert.Kernel.RS.step_pro_sigx' depends on axioms: [propext, Classical.choice, Quot.sound] -/
#guard_msgs in #print axioms step_pro_sigx

/-- info: 'Cert.Kernel.RS.step_pro_wait' depends on axioms: [propext, Classical.choice, Quot.sound] -/
#guard_msgs in #print axioms step_pro_wait

end Cert.Kernel.RS

end
-- ==== Proof.RsKernel.Body01.lean ====
/-
  The body of the reduce-scatter, part by part: the parts 1 to 16 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps1
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_1 (m : (ℓ : Loc nD τ sig) → Buf (Elt F) ℓ) (K : Dev nD × Fin 323 → ℕ) (c : Dev nD) :
    Start m K c ⊢ wp frame (wpE (defs₀ (F := F)) 𝒱₀ (c : Thread nD τ) none) Set.univ
      (k0_part1 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun ret => iprop(⌜c = ret.1⌝ ∗ S1 m K c 0)) := by
  rw [k0_part1_eq_skeleton]; unfold k0_part1_skel
  simp only [semSignalWord, semWaitWord, Prog.lift, Prog.bind_op, Prog.bind_ret, Prog.pure_eq_ret, wp_deviceId]
  refine step_apply (step_pro_stage0 m K c _ (sem_cpin ⟨0, by decide⟩ _ _)) ?_
  refine step_apply (step_pro_sigy m K c _ (Fin.ext (k0_dev1_eq c))) ?_
  refine step_apply (step_pro_sigx m K c _ (Fin.ext (k0_dev2_eq c))) ?_
  refine step_apply (step_pro_wait m K c) ?_
  exact ret_fact c rfl

set_option maxRecDepth 65536 in
theorem part_2 (m : (ℓ : Loc nD τ sig) → Buf (Elt F) ℓ) (K : Dev nD × Fin 323 → ℕ) (c : Dev nD) (v2 : BitVec 32) (v5 : BitVec 32) (v6 : BitVec 32) (v8 : BitVec 32) (c0_i32_20 : BitVec 32) :
    S1 m K c 0 ⊢ wp frame (wpE (defs₀ (F := F)) 𝒱₀ (c : Thread nD τ) none) Set.univ
      (k0_part2 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c0_i32_20)
      (fun _ => S1 m K c 2) := by
  rw [k0_part2_eq_skeleton]; unfold k0_part2_skel
  simp only [Prog.lift, Prog.bind_op, Prog.bind_ret, Prog.pure_eq_ret]
  refine step_apply (step_ysend m K c ⟨0, by decide⟩ _ (Fin.ext (k0_dev3_eq c)) _ _ (sem_ysend ⟨0, by decide⟩ _ _) (sem_yrecv ⟨0, by decide⟩ _ _)) ?_
  refine step_apply (step_ysend m K c ⟨1, by decide⟩ _ (Fin.ext (k0_dev4_eq c)) _ _ (sem_ysend ⟨1, by decide⟩ _ _) (sem_yrecv ⟨1, by decide⟩ _ _)) ?_
  exact ret_apply c (BI.Entails.refl _)

set_option maxRecDepth 65536 in
theorem part_3 (m : (ℓ : Loc nD τ sig) → Buf (Elt F) ℓ) (K : Dev nD × Fin 323 → ℕ) (c : Dev nD) (v2 : BitVec 32) (v5 : BitVec 32) (v6 : BitVec 32) (v8 : BitVec 32) :
    S1 m K c 2 ⊢ wp frame (wpE (defs₀ (F := F)) 𝒱₀ (c : Thread nD τ) none) Set.univ
      (k0_part3 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 4) := by
  rw [k0_part3_eq_skeleton]; unfold k0_part3_skel
  simp only [Prog.lift, Prog.bind_op, Prog.bind_ret, Prog.pure_eq_ret]
  refine step_apply (step_ysend m K c ⟨2, by decide⟩ _ (Fin.ext (k0_dev5_eq c)) _ _ (sem_ysend ⟨2, by decide⟩ _ _) (sem_yrecv ⟨2, by decide⟩ _ _)) ?_
  refine step_apply (step_ysend m K c ⟨3, by decide⟩ _ (Fin.ext (k0_dev6_eq c)) _ _ (sem_ysend ⟨3, by decide⟩ _ _) (sem_yrecv ⟨3, by decide⟩ _ _)) ?_
  exact ret_apply c (BI.Entails.refl _)

set_option maxRecDepth 65536 in
theorem part_4 (m : (ℓ : Loc nD τ sig) → Buf (Elt F) ℓ) (K : Dev nD × Fin 323 → ℕ) (c : Dev nD) (v2 : BitVec 32) (v5 : BitVec 32) (v6 : BitVec 32) (v8 : BitVec 32) :
    S1 m K c 4 ⊢ wp frame (wpE (defs₀ (F := F)) 𝒱₀ (c : Thread nD τ) none) Set.univ
      (k0_part4 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 6) := by
  rw [k0_part4_eq_skeleton]; unfold k0_part4_skel
  simp only [Prog.lift, Prog.bind_op, Prog.bind_ret, Prog.pure_eq_ret]
  refine step_apply (step_ysend m K c ⟨4, by decide⟩ _ (Fin.ext (k0_dev7_eq c)) _ _ (sem_ysend ⟨4, by decide⟩ _ _) (sem_yrecv ⟨4, by decide⟩ _ _)) ?_
  refine step_apply (step_ysend m K c ⟨5, by decide⟩ _ (Fin.ext (k0_dev8_eq c)) _ _ (sem_ysend ⟨5, by decide⟩ _ _) (sem_yrecv ⟨5, by decide⟩ _ _)) ?_
  exact ret_apply c (BI.Entails.refl _)

set_option maxRecDepth 65536 in
theorem part_5 (m : (ℓ : Loc nD τ sig) → Buf (Elt F) ℓ) (K : Dev nD × Fin 323 → ℕ) (c : Dev nD) (v2 : BitVec 32) (v5 : BitVec 32) (v6 : BitVec 32) (v8 : BitVec 32) :
    S1 m K c 6 ⊢ wp frame (wpE (defs₀ (F := F)) 𝒱₀ (c : Thread nD τ) none) Set.univ
      (k0_part5 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 9) := by
  rw [k0_part5_eq_skeleton]; unfold k0_part5_skel
  simp only [Prog.lift, Prog.bind_op, Prog.bind_ret, Prog.pure_eq_ret]
  refine step_apply (step_ysend m K c ⟨6, by decide⟩ _ (Fin.ext (k0_dev9_eq c)) _ _ (sem_ysend ⟨6, by decide⟩ _ _) (sem_yrecv ⟨6, by decide⟩ _ _)) ?_
  refine step_apply (step_ysend m K c ⟨7, by decide⟩ _ (Fin.ext (k0_dev10_eq c)) _ _ (sem_ysend ⟨7, by decide⟩ _ _) (sem_yrecv ⟨7, by decide⟩ _ _)) ?_
  refine step_apply (step_ysend m K c ⟨8, by decide⟩ _ (Fin.ext (k0_dev11_eq c)) _ _ (sem_ysend ⟨8, by decide⟩ _ _) (sem_yrecv ⟨8, by decide⟩ _ _)) ?_
  exact ret_apply c (BI.Entails.refl _)

set_option maxRecDepth 65536 in
theorem part_6 (m : (ℓ : Loc nD τ sig) → Buf (Elt F) ℓ) (K : Dev nD × Fin 323 → ℕ) (c : Dev nD) (v2 : BitVec 32) (v5 : BitVec 32) (v6 : BitVec 32) (v8 : BitVec 32) :
    S1 m K c 9 ⊢ wp frame (wpE (defs₀ (F := F)) 𝒱₀ (c : Thread nD τ) none) Set.univ
      (k0_part6 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 11) := by
  rw [k0_part6_eq_skeleton]; unfold k0_part6_skel
  simp only [Prog.lift, Prog.bind_op, Prog.bind_ret, Prog.pure_eq_ret]
  refine step_apply (step_ysend m K c ⟨9, by decide⟩ _ (Fin.ext (k0_dev12_eq c)) _ _ (sem_ysend ⟨9, by decide⟩ _ _) (sem_yrecv ⟨9, by decide⟩ _ _)) ?_
  refine step_apply (step_ysend m K c ⟨10, by decide⟩ _ (Fin.ext (k0_dev13_eq c)) _ _ (sem_ysend ⟨10, by decide⟩ _ _) (sem_yrecv ⟨10, by decide⟩ _ _)) ?_
  exact ret_apply c (BI.Entails.refl _)

set_option maxRecDepth 65536 in
theorem part_7 (m : (ℓ : Loc nD τ sig) → Buf (Elt F) ℓ) (K : Dev nD × Fin 323 → ℕ) (c : Dev nD) (v2 : BitVec 32) (v5 : BitVec 32) (v6 : BitVec 32) (v8 : BitVec 32) (v186 : BitVec 32) (v187 : BitVec 32) :
    S1 m K c 11 ⊢ wp frame (wpE (defs₀ (F := F)) 𝒱₀ (c : Thread nD τ) none) Set.univ
      (k0_part7 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v186 v187)
      (fun _ => S1 m K c 13) := by
  rw [k0_part7_eq_skeleton]; unfold k0_part7_skel
  simp only [Prog.lift, Prog.bind_op, Prog.bind_ret, Prog.pure_eq_ret]
  refine step_apply (step_ysend m K c ⟨11, by decide⟩ _ (Fin.ext (k0_dev14_eq c)) _ _ (sem_ysend ⟨11, by decide⟩ _ _) (sem_yrecv ⟨11, by decide⟩ _ _)) ?_
  refine step_apply (step_ysend m K c ⟨12, by decide⟩ _ (Fin.ext (k0_dev15_eq c)) _ _ (sem_ysend ⟨12, by decide⟩ _ _) (sem_yrecv ⟨12, by decide⟩ _ _)) ?_
  exact ret_apply c (BI.Entails.refl _)

set_option maxRecDepth 65536 in
theorem part_8 (m : (ℓ : Loc nD τ sig) → Buf (Elt F) ℓ) (K : Dev nD × Fin 323 → ℕ) (c : Dev nD) (v2 : BitVec 32) (v5 : BitVec 32) (v6 : BitVec 32) (v8 : BitVec 32) :
    S1 m K c 13 ⊢ wp frame (wpE (defs₀ (F := F)) 𝒱₀ (c : Thread nD τ) none) Set.univ
      (k0_part8 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 16) := by
  rw [k0_part8_eq_skeleton]; unfold k0_part8_skel
  simp only [Prog.lift, Prog.bind_op, Prog.bind_ret, Prog.pure_eq_ret]
  refine step_apply (step_ysend m K c ⟨13, by decide⟩ _ (Fin.ext (k0_dev16_eq c)) _ _ (sem_ysend ⟨13, by decide⟩ _ _) (sem_yrecv ⟨13, by decide⟩ _ _)) ?_
  refine step_apply (step_ysend m K c ⟨14, by decide⟩ _ (Fin.ext (k0_dev17_eq c)) _ _ (sem_ysend ⟨14, by decide⟩ _ _) (sem_yrecv ⟨14, by decide⟩ _ _)) ?_
  refine step_apply (step_ysend m K c ⟨15, by decide⟩ _ (Fin.ext (k0_dev18_eq c)) _ _ (sem_ysend ⟨15, by decide⟩ _ _) (sem_yrecv ⟨15, by decide⟩ _ _)) ?_
  exact ret_apply c (BI.Entails.refl _)

set_option maxRecDepth 65536 in
theorem part_9 (m : (ℓ : Loc nD τ sig) → Buf (Elt F) ℓ) (K : Dev nD × Fin 323 → ℕ) (c : Dev nD) (v2 : BitVec 32) (v5 : BitVec 32) (v6 : BitVec 32) (v8 : BitVec 32) (v253 : BitVec 32) (c1024_i32_170 : BitVec 32) :
    S1 m K c 16 ⊢ wp frame (wpE (defs₀ (F := F)) 𝒱₀ (c : Thread nD τ) none) Set.univ
      (k0_part9 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v253 c1024_i32_170)
      (fun _ => S1 m K c 18) := by
  rw [k0_part9_eq_skeleton]; unfold k0_part9_skel
  simp only [Prog.lift, Prog.bind_op, Prog.bind_ret, Prog.pure_eq_ret]
  refine step_apply (step_ysend m K c ⟨16, by decide⟩ _ (Fin.ext (k0_dev19_eq c)) _ _ (sem_ysend ⟨16, by decide⟩ _ _) (sem_yrecv ⟨16, by decide⟩ _ _)) ?_
  refine step_apply (step_ysend m K c ⟨17, by decide⟩ _ (Fin.ext (k0_dev20_eq c)) _ _ (sem_ysend ⟨17, by decide⟩ _ _) (sem_yrecv ⟨17, by decide⟩ _ _)) ?_
  exact ret_apply c (BI.Entails.refl _)

set_option maxRecDepth 65536 in
theorem part_10 (m : (ℓ : Loc nD τ sig) → Buf (Elt F) ℓ) (K : Dev nD × Fin 323 → ℕ) (c : Dev nD) (v2 : BitVec 32) (v5 : BitVec 32) (v6 : BitVec 32) (v8 : BitVec 32) (v284 : BitVec 32) :
    S1 m K c 18 ⊢ wp frame (wpE (defs₀ (F := F)) 𝒱₀ (c : Thread nD τ) none) Set.univ
      (k0_part10 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v284)
      (fun _ => S1 m K c 20) := by
  rw [k0_part10_eq_skeleton]; unfold k0_part10_skel
  simp only [Prog.lift, Prog.bind_op, Prog.bind_ret, Prog.pure_eq_ret]
  refine step_apply (step_ysend m K c ⟨18, by decide⟩ _ (Fin.ext (k0_dev21_eq c)) _ _ (sem_ysend ⟨18, by decide⟩ _ _) (sem_yrecv ⟨18, by decide⟩ _ _)) ?_
  refine step_apply (step_ysend m K c ⟨19, by decide⟩ _ (Fin.ext (k0_dev22_eq c)) _ _ (sem_ysend ⟨19, by decide⟩ _ _) (sem_yrecv ⟨19, by decide⟩ _ _)) ?_
  exact ret_apply c (BI.Entails.refl _)

set_option maxRecDepth 65536 in
theorem part_11 (m : (ℓ : Loc nD τ sig) → Buf (Elt F) ℓ) (K : Dev nD × Fin 323 → ℕ) (c : Dev nD) (v2 : BitVec 32) (v5 : BitVec 32) (v6 : BitVec 32) (v8 : BitVec 32) :
    S1 m K c 20 ⊢ wp frame (wpE (defs₀ (F := F)) 𝒱₀ (c : Thread nD τ) none) Set.univ
      (k0_part11 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 23) := by
  rw [k0_part11_eq_skeleton]; unfold k0_part11_skel
  simp only [Prog.lift, Prog.bind_op, Prog.bind_ret, Prog.pure_eq_ret]
  refine step_apply (step_ysend m K c ⟨20, by decide⟩ _ (Fin.ext (k0_dev23_eq c)) _ _ (sem_ysend ⟨20, by decide⟩ _ _) (sem_yrecv ⟨20, by decide⟩ _ _)) ?_
  refine step_apply (step_ysend m K c ⟨21, by decide⟩ _ (Fin.ext (k0_dev24_eq c)) _ _ (sem_ysend ⟨21, by decide⟩ _ _) (sem_yrecv ⟨21, by decide⟩ _ _)) ?_
  refine step_apply (step_ysend m K c ⟨22, by decide⟩ _ (Fin.ext (k0_dev25_eq c)) _ _ (sem_ysend ⟨22, by decide⟩ _ _) (sem_yrecv ⟨22, by decide⟩ _ _)) ?_
  exact ret_apply c (BI.Entails.refl _)

set_option maxRecDepth 65536 in
theorem part_12 (m : (ℓ : Loc nD τ sig) → Buf (Elt F) ℓ) (K : Dev nD × Fin 323 → ℕ) (c : Dev nD) (v2 : BitVec 32) (v5 : BitVec 32) (v6 : BitVec 32) (v8 : BitVec 32) (c1_i32_232 : BitVec 32) :
    S1 m K c 23 ⊢ wp frame (wpE (defs₀ (F := F)) 𝒱₀ (c : Thread nD τ) none) Set.univ
      (k0_part12 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1_i32_232)
      (fun _ => S1 m K c 25) := by
  rw [k0_part12_eq_skeleton]; unfold k0_part12_skel
  simp only [Prog.lift, Prog.bind_op, Prog.bind_ret, Prog.pure_eq_ret]
  refine step_apply (step_ysend m K c ⟨23, by decide⟩ _ (Fin.ext (k0_dev26_eq c)) _ _ (sem_ysend ⟨23, by decide⟩ _ _) (sem_yrecv ⟨23, by decide⟩ _ _)) ?_
  refine step_apply (step_ysend m K c ⟨24, by decide⟩ _ (Fin.ext (k0_dev27_eq c)) _ _ (sem_ysend ⟨24, by decide⟩ _ _) (sem_yrecv ⟨24, by decide⟩ _ _)) ?_
  exact ret_apply c (BI.Entails.refl _)

set_option maxRecDepth 65536 in
theorem part_13 (m : (ℓ : Loc nD τ sig) → Buf (Elt F) ℓ) (K : Dev nD × Fin 323 → ℕ) (c : Dev nD) (v2 : BitVec 32) (v5 : BitVec 32) (v6 : BitVec 32) (v8 : BitVec 32) (v381 : BitVec 32) :
    S1 m K c 25 ⊢ wp frame (wpE (defs₀ (F := F)) 𝒱₀ (c : Thread nD τ) none) Set.univ
      (k0_part13 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v381)
      (fun _ => S1 m K c 27) := by
  rw [k0_part13_eq_skeleton]; unfold k0_part13_skel
  simp only [Prog.lift, Prog.bind_op, Prog.bind_ret, Prog.pure_eq_ret]
  refine step_apply (step_ysend m K c ⟨25, by decide⟩ _ (Fin.ext (k0_dev28_eq c)) _ _ (sem_ysend ⟨25, by decide⟩ _ _) (sem_yrecv ⟨25, by decide⟩ _ _)) ?_
  refine step_apply (step_ysend m K c ⟨26, by decide⟩ _ (Fin.ext (k0_dev29_eq c)) _ _ (sem_ysend ⟨26, by decide⟩ _ _) (sem_yrecv ⟨26, by decide⟩ _ _)) ?_
  exact ret_apply c (BI.Entails.refl _)

set_option maxRecDepth 65536 in
theorem part_14 (m : (ℓ : Loc nD τ sig) → Buf (Elt F) ℓ) (K : Dev nD × Fin 323 → ℕ) (c : Dev nD) (v2 : BitVec 32) (v5 : BitVec 32) (v6 : BitVec 32) (v8 : BitVec 32) :
    S1 m K c 27 ⊢ wp frame (wpE (defs₀ (F := F)) 𝒱₀ (c : Thread nD τ) none) Set.univ
      (k0_part14 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 30) := by
  rw [k0_part14_eq_skeleton]; unfold k0_part14_skel
  simp only [Prog.lift, Prog.bind_op, Prog.bind_ret, Prog.pure_eq_ret]
  refine step_apply (step_ysend m K c ⟨27, by decide⟩ _ (Fin.ext (k0_dev30_eq c)) _ _ (sem_ysend ⟨27, by decide⟩ _ _) (sem_yrecv ⟨27, by decide⟩ _ _)) ?_
  refine step_apply (step_ysend m K c ⟨28, by decide⟩ _ (Fin.ext (k0_dev31_eq c)) _ _ (sem_ysend ⟨28, by decide⟩ _ _) (sem_yrecv ⟨28, by decide⟩ _ _)) ?_
  refine step_apply (step_ysend m K c ⟨29, by decide⟩ _ (Fin.ext (k0_dev32_eq c)) _ _ (sem_ysend ⟨29, by decide⟩ _ _) (sem_yrecv ⟨29, by decide⟩ _ _)) ?_
  exact ret_apply c (BI.Entails.refl _)

set_option maxRecDepth 65536 in
theorem part_15 (m : (ℓ : Loc nD τ sig) → Buf (Elt F) ℓ) (K : Dev nD × Fin 323 → ℕ) (c : Dev nD) (v2 : BitVec 32) (v5 : BitVec 32) (v6 : BitVec 32) (v8 : BitVec 32) (c1920_i32 : BitVec 32) :
    S1 m K c 30 ⊢ wp frame (wpE (defs₀ (F := F)) 𝒱₀ (c : Thread nD τ) none) Set.univ
      (k0_part15 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1920_i32)
      (fun _ => S1 m K c 32) := by
  rw [k0_part15_eq_skeleton]; unfold k0_part15_skel
  simp only [Prog.lift, Prog.bind_op, Prog.bind_ret, Prog.pure_eq_ret]
  refine step_apply (step_ysend m K c ⟨30, by decide⟩ _ (Fin.ext (k0_dev33_eq c)) _ _ (sem_ysend ⟨30, by decide⟩ _ _) (sem_yrecv ⟨30, by decide⟩ _ _)) ?_
  refine step_apply (step_ysend m K c ⟨31, by decide⟩ _ (Fin.ext (k0_dev34_eq c)) _ _ (sem_ysend ⟨31, by decide⟩ _ _) (sem_yrecv ⟨31, by decide⟩ _ _)) ?_
  exact ret_apply c (BI.Entails.refl _)

set_option maxRecDepth 65536 in
theorem part_16 (m : (ℓ : Loc nD τ sig) → Buf (Elt F) ℓ) (K : Dev nD × Fin 323 → ℕ) (c : Dev nD) (v2 : BitVec 32) (v5 : BitVec 32) (v6 : BitVec 32) (v8 : BitVec 32) :
    S1 m K c 32 ⊢ wp frame (wpE (defs₀ (F := F)) 𝒱₀ (c : Thread nD τ) none) Set.univ
      (k0_part16 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 34) := by
  rw [k0_part16_eq_skeleton]; unfold k0_part16_skel
  simp only [Prog.lift, Prog.bind_op, Prog.bind_ret, Prog.pure_eq_ret]
  refine step_apply (step_ysend m K c ⟨32, by decide⟩ _ (Fin.ext (k0_dev35_eq c)) _ _ (sem_ysend ⟨32, by decide⟩ _ _) (sem_yrecv ⟨32, by decide⟩ _ _)) ?_
  refine step_apply (step_ysend m K c ⟨33, by decide⟩ _ (Fin.ext (k0_dev36_eq c)) _ _ (sem_ysend ⟨33, by decide⟩ _ _) (sem_yrecv ⟨33, by decide⟩ _ _)) ?_
  exact ret_apply c (BI.Entails.refl _)

/-- info: 'Cert.Kernel.RS.part_16' depends on axioms: [propext, Classical.choice, Quot.sound] -/
#guard_msgs in #print axioms part_16

end Cert.Kernel.RS

end
-- ==== Proof.RsKernel.Steps1g.lean ====
/-
  Between the first loop and the middle loop. When every chunk has been sent to the column peer, nothing is owed to the
  column peer any more, every chunk's send credit is in hand, and the middle loop starts at chunk 0: its needs are taken
  out of those of all the chunks, and the staging needs of chunk 1 out of those of the chunks after chunk 0.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Levels

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private instance rec_persistent (K : Dev nD × Fin 323 → ℕ) : Persistent (Rec m K) := by unfold Rec; infer_instance

/-- From the first loop's end to the middle loop's start. -/
theorem S1_S2 (K : Dev nD × Fin 323 → ℕ) (c : Dev nD) : S1 m K c 64 ⊢ S2 m K c 0 0 := by
  have h0 : 0 < 64 := by decide
  have h1 : 0 + 1 < 64 := by decide
  have emp1 : bigSep (uptoK 0) (fun x => mPost m c x) = iprop(emp) :=
    (congrArg (fun s => bigSep s fun x => mPost m c x) uptoK_zero).trans bigSep_empty
  have ey : bigSep (uptoK 64) (fun x => y1post (F := F) c x) = bigSep Finset.univ (fun x : Fin 64 => y1post (F := F) c x) :=
    congrArg (fun s => bigSep s fun x => y1post (F := F) c x) uptoK_64
  have epre : bigSep Finset.univ (fun x : Fin 64 => mPre (F := F) c x)
      = iprop(mPre (F := F) c ⟨0, h0⟩ ∗ bigSep (fromK (0 + 1)) fun x => mPre (F := F) c x) :=
    (congrArg (fun s => bigSep s fun x => mPre (F := F) c x) fromK_zero.symm).trans
      (bigSep_fromK_peel (fun x => mPre (F := F) c x) (0 : Fin 64))
  have est : bigSep (fromK 1) (fun x => stPre m c x)
      = iprop(stPre m c ⟨0 + 1, h1⟩ ∗ bigSep (fromK (0 + 2)) fun x => stPre m c x) :=
    bigSep_fromK_peel (fun x => stPre m c x) (1 : Fin 64)
  unfold S1 S2 mid0
  simp only [cur2]
  unfold mPreO stPreO
  rw [dif_pos h0, dif_pos h1, Oy_64, zero_add, show slotOf (0 + 1) = (1 : Fin 2) from rfl, emp1]
  iintro ⟨#HR, ⟨Harg, Hpre, Hst, Hcur, Hs1, Hcp, Hf⟩, -, Hy, HO⟩
  ihave Hy' := (Entails.of_eq ey) $$ Hy
  ihave Hp := (Entails.of_eq epre) $$ Hpre
  icases Hp with ⟨Hp0, Hpre⟩
  ihave Hs := (Entails.of_eq est) $$ Hst
  icases Hs with ⟨Hst1, Hst⟩
  isplitr; · iexact HR
  isplitl [Harg]; · iexact Harg
  isplitl [Hy']; · iexact Hy'
  isplitl [Hf]; · iexact Hf
  isplitr; · iempintro
  isplitl [Hpre]; · iexact Hpre
  isplitl [Hst]; · iexact Hst
  isplitl [Hp0]; · iexact Hp0
  isplitl [Hcur]; · iexact Hcur
  isplitl [Hst1]; · iexact Hst1
  isplitl [Hs1]; · iexact Hs1
  isplitl [Hcp]; · iexact Hcp
  iexact HO

/-- info: 'Cert.Kernel.RS.S1_S2' depends on axioms: [propext, Classical.choice, Quot.sound] -/
#guard_msgs in #print axioms S1_S2

end Cert.Kernel.RS

end
-- ==== Proof.RsKernel.Steps2.lean ====
/-
  The middle loop of one device's body, operation by operation: starting the next chunk's staging, the wait for the column
  peer's block, the wait for the staged block, the send of the summed rows to the row peer, the copy of the summed rows to
  the result. Each step takes the state before the operation to the state after it.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Levels
import proofs.«900313_g7700000000000314_dist_rs_v7x_xy2x2_y_m8192_n1024_f32_1_alg».proof.Proof.RsKernel.Views

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows for good, cell by cell -/

private instance Rec_persistent (K : Dev nD × Fin 323 → ℕ) : BI.Persistent (Rec m K) := by unfold Rec; infer_instance

/-- The index of a copy cell among the protocol's cells. -/
private def ixq (q : DmaSem sig) : Fin 323 := ⟨q.val, Nat.lt_succ_of_lt q.isLt⟩

private theorem kcell_ixq (c : Dev nD) (q : DmaSem sig) : kcell (c, ixq q) = ((c : Thread nD τ), SemLoc.dma q) := by
  have h : (ixq q).val < 322 := q.isLt
  show ((c : Thread nD τ), (if h : (ixq q).val < 322 then SemLoc.dma ⟨(ixq q).val, h⟩ else .reg barS)) = _
  rw [dif_pos h]; rfl

private theorem inv_dma (K : Dev nD × Fin 323 → ℕ) (c : Dev nD) (q : DmaSem sig) :
    Rec m K ⊢ cellInv ER (sched m) (K (c, ixq q)) ((c : Thread nD τ), .dma q) := by
  unfold Rec
  have h : (bigSep Finset.univ (fun cj : Dev nD × Fin 323 => cellInv ER (sched m) (K cj) (kcell cj)) : sProp 𝕄)
      ⊢ cellInv ER (sched m) (K (c, ixq q)) (kcell (c, ixq q)) := bigSep_elim (Finset.mem_univ (c, ixq q))
  rw [kcell_ixq] at h
  iintro ⟨HI, -, -⟩
  iapply h; iexact HI

private theorem reached0_dma (K : Dev nD × Fin 323 → ℕ) (c : Dev nD) (q : DmaSem sig) :
    Rec m K ⊢ reached ER ((c : Thread nD τ), .dma q) 0 := by
  unfold Rec
  have h : (bigSep Finset.univ (fun cj : Dev nD × Fin 323 => reached ER (kcell cj) 0) : sProp 𝕄)
      ⊢ reached ER (kcell (c, ixq q)) 0 := bigSep_elim (Finset.mem_univ (c, ixq q))
  rw [kcell_ixq] at h
  iintro ⟨-, HR, -⟩
  iapply h; iexact HR

private theorem lev_rec (K : Dev nD × Fin 323 → ℕ) : Rec m K ⊢ (levAts L lv : sProp 𝕄) := by
  unfold Rec
  iintro ⟨-, -, H⟩
  iexact H

/-! ## The states of the middle loop at a chunk in range -/

section Unfold
variable (c : Dev nD) (r : Fin 64)

private theorem mPreO_lt : mPreO (F := F) c r.val = mPre (F := F) c r := dif_pos r.isLt
private theorem curSt_lt : curSt (F := F) c r.val = stMid (F := F) c r := dif_pos r.isLt
private theorem stPreO_lt : stPreO m c r.val = stPre m c r := dif_pos r.isLt

private theorem cur2_0 (k : ℕ) : cur2 m c k 0 = iprop(mPreO (F := F) c k ∗ curSt (F := F) c k ∗ stPreO m c (k + 1) ∗ freeSlot (F := F) c (slotOf (k + 1)) ∗ cpinsAt (F := F) c k ∗ owesE (F := F) c (Ox c k)) := rfl
private theorem cur2_1 (k : ℕ) : cur2 m c k 1 = iprop(mPreO (F := F) c k ∗ curSt (F := F) c k ∗ curSt (F := F) c (k + 1) ∗ cpinsAt (F := F) c k ∗ owesE (F := F) c (Ox c k)) := rfl
private theorem cur2_2 : cur2 m c r.val 2 = iprop(mRest (F := F) c r ∗ atPos ER (yrecvC c r) 1 ∅ 0 ∗ yrecvPay m c r ∗ curSt (F := F) c r.val ∗ curSt (F := F) c (r.val + 1)
        ∗ cpinsAt (F := F) c r.val ∗ owesE (F := F) c (Ox c r.val)) := dif_pos r.isLt
private theorem cur2_3 : cur2 m c r.val 3 = iprop(mRest (F := F) c r ∗ atPos ER (yrecvC c r) 1 ∅ 0 ∗ yrecvPay m c r
        ∗ owns (c : Thread nD τ) (lS (slotOf r.val)) fullShare (bVal m c r) ∗ ptsB m c r ∗ curSt (F := F) c (r.val + 1)
        ∗ cpinsAt (F := F) c (r.val + 1) ∗ owesE (F := F) c (Ox c r.val)) := dif_pos r.isLt
private theorem cur2_4 : cur2 m c r.val 4 = iprop(mRest (F := F) c r ∗ atPos ER (yrecvC c r) 1 ∅ 0 ∗ owns (c : Thread nD τ) (rS r) fullShare (sVal m c r)
        ∗ freeSlot (F := F) c (slotOf r.val) ∗ ptsB m c r ∗ curSt (F := F) c (r.val + 1)
        ∗ cpinsAt (F := F) c (r.val + 1) ∗ owesE (F := F) c (Ox c r.val)) := dif_pos r.isLt
private theorem cur2_5 : cur2 m c r.val 5 = iprop((freeOut (F := F) c c r ∗ dutyTok ER (cpoutC c r) 0 false) ∗ atPos ER (yrecvC c r) 1 ∅ 0
        ∗ owns (c : Thread nD τ) (rS r) fullShare.right (sVal m c r) ∗ cred (tallyAt (xsendC c r) () N)
        ∗ freeSlot (F := F) c (slotOf r.val) ∗ ptsB m c r ∗ curSt (F := F) c (r.val + 1)
        ∗ cpinsAt (F := F) c (r.val + 1) ∗ owesE (F := F) c (Ox c (r.val + 1))) := dif_pos r.isLt
private theorem cur2_6 : cur2 m c r.val 6 = iprop(mPost m c r ∗ freeSlot (F := F) c (slotOf r.val) ∗ curSt (F := F) c (r.val + 1)
        ∗ cpinsAt (F := F) c (r.val + 1) ∗ owesE (F := F) c (Ox c (r.val + 1))) := dif_pos r.isLt

end Unfold

/-- The weakest precondition of device `c`'s body. -/
local notation "WP" c => wp frame (wpE (defs₀ (F := F)) 𝒱₀ (c : Thread nD τ) none) Set.univ

/-! ## A wait for a whole one-duty round of one of the device's copy cells -/

/-- The device waits on its copy cell `q`, at the start of a round `R` of one duty, for one block's credit, which it holds
    as a token: it comes back one round on, with the duty's payload, the wait recorded. -/
private theorem wp_wait_cell (K : Dev nD × Fin 323 → ℕ) (c : Dev nD) (q : DmaSem sig) (R : ℕ)
    (hd : (sched m).duties ((c : Thread nD τ), .dma q) R = {false})
    {sp' sp : Space} {s' : Shape} {e' : EltTy} {κ : Kind} (src : Memref sig .tc sp' s' e') (dst : Memref sig κ sp S64x1024 .f32)
    {h1 : src.view.WordExact} {h2 : dst.view.WordExact} (hN : dst.view.dmaCredit = N)
    (O : CellTallies nD τ sig Unit) (W : Waits sig Unit)
    {α : Type} {Q : α → sProp 𝕄} {k : PUnit → Prog (TpuEff nD τ sig (Elt F) Λ₀ .tc) α} :
    iprop(Rec m K ∗ cred (tallyAt ((c : Thread nD τ), .dma q) () N) ∗ owes (c : Thread nD τ) O W
        ∗ MayWait (c : Thread nD τ) (.dma q) () O ∗ atPos ER ((c : Thread nD τ), .dma q) R ∅ 0)
      ⊢ iprop(((owes (c : Thread nD τ) O (insert (SemLoc.dma q, ()) W) ∗ atPos ER ((c : Thread nD τ), .dma q) (R + 1) ∅ 0
              ∗ reached ER ((c : Thread nD τ), .dma q) (R + 1) ∗ (sched m).payload ((c : Thread nD τ), .dma q) R false)
            -∗ (WP c) (k ⟨⟩) Q)
          -∗ (WP c) (.op (.waitDma2 q src dst h1 h2) k) Q) := by
  iintro ⟨#HRec, Hcr, HO, HM, Hat⟩ Hk
  iapply (Rounds.wp_wait_rest_token 𝒱₀ ER (sched m) (c : Thread nD τ) none (κ := K (c, ixq q))
      (w := .waitDma2 q src dst h1 h2) (sm := .dma q) (k' := dst.view.dmaCredit)
      (wpE_waitDma2_eq 𝒱₀ (c : Thread nD τ) none Set.univ) (Set.mem_univ _) () (O := O) (W := W) (R := R) (m := 0) (T := ∅)
      (by rw [Nat.zero_add, expect_of_single m c q R hd]; exact hN)) $$ [Hcr HO HM Hat]
  · isplitr; · iapply (inv_dma m K c q); iexact HRec
    isplitl [Hcr]; · rw [hN]; iexact Hcr
    isplitl [HO]; · iexact HO
    isplitl [HM]; · iexact HM
    iexact Hat
  iintro ⟨HO, Hat, Hr, Hpay⟩
  ihave Hp := (Entails.of_eq (rest_of_single m ((c : Thread nD τ), .dma q) R hd)) $$ Hpay
  iapply Hk
  isplitl [HO]; · iexact HO
  isplitl [Hat]; · iexact Hat
  isplitl [Hr]; · iexact Hr
  iexact Hp

/-! ## The staging slots: which slot a chunk uses, and where a slot's cell stands -/

private theorem slotOf_add_two (k : ℕ) : slotOf (k + 2) = slotOf k := Fin.ext (Nat.add_mod_right k 2)

/-- The other staging slot. -/
private def oth (s : Fin 2) : Fin 2 := ⟨1 - s.val, by omega⟩

/-- When chunk `k + 1` is staged, its slot's cell is at the round that chunk completes. -/
private theorem posI_stage (k k' : ℕ) (h : k' = k + 1) : posI (slotOf k') k = k' / 2 := by
  subst h; unfold posI slotOf; show (k + 1 - (k + 1) % 2) / 2 = (k + 1) / 2; omega
/-- When chunk `k`'s staged block is waited for, its slot's cell is at the round that chunk completes … -/
private theorem posI_cur (k : ℕ) : posI (slotOf k) k = k / 2 := by
  unfold posI slotOf; show (k + 1 - k % 2) / 2 = k / 2; omega
/-- … and after the wait one round on, … -/
private theorem posI_cur_succ (k : ℕ) : posI (slotOf k) (k + 1) = k / 2 + 1 := by
  unfold posI slotOf; show (k + 1 + 1 - k % 2) / 2 = k / 2 + 1; omega
/-- … while the other slot's cell stays where it is. -/
private theorem posI_other (k : ℕ) : posI (oth (slotOf k)) (k + 1) = posI (oth (slotOf k)) k := by
  unfold posI slotOf oth; show (k + 1 + 1 - (1 - k % 2)) / 2 = (k + 1 - (1 - k % 2)) / 2; omega

/-- The chunk that round `k / 2` of slot `k % 2` serves is chunk `k`. -/
private theorem chunkOf_slot (r : Fin 64) (h : r.val / 2 < 32) : chunkOf (slotOf r.val) (r.val / 2) h = r :=
  Fin.ext (by show 2 * (r.val / 2) + r.val % 2 = r.val; omega)

/-- What the staging of chunk `r` hands over: the slot holding the kept block, and that block of the argument back. -/
private theorem cpinPay_eq (c : Dev nD) (r : Fin 64) :
    cpinPay m c (slotOf r.val) (r.val / 2)
      = iprop(owns (c : Thread nD τ) (lS (slotOf r.val)) fullShare (bVal m c r) ∗ ptsB m c r) := by
  have h : r.val / 2 < 32 := by have := r.isLt; omega
  unfold cpinPay ptsB; rw [dif_pos h, chunkOf_slot r h]

private theorem curSt_ge (c : Dev nD) (k : ℕ) (h : 64 ≤ k) : curSt (F := F) c k = freeSlot (F := F) c (slotOf k) := dif_neg (by omega)
private theorem stPreO_ge (c : Dev nD) (k : ℕ) (h : 64 ≤ k) : stPreO m c k = iprop(emp) := dif_neg (by omega)
private theorem mPreO_ge (c : Dev nD) (k : ℕ) (h : 64 ≤ k) : mPreO (F := F) c k = iprop(emp) := dif_neg (by omega)
private theorem fromK_ge (k : ℕ) (h : 64 ≤ k) : fromK k = ∅ := Finset.ext fun x => by
  rw [mem_fromK]; have := x.isLt; exact ⟨fun h' => by omega, fun h' => absurd h' (Finset.notMem_empty x)⟩

/-- The two staging cells' positions, with slot `s`'s taken apart. -/
private theorem cpinsAt_open (c : Dev nD) (s : Fin 2) (k : ℕ) :
    cpinsAt (F := F) c k ⊢ iprop(atPos ER (cpinC c s) (posI s k) ∅ 0 ∗ reached ER (cpinC c s) (posI s k) ∗ cpinAt (F := F) c (oth s) k) := by
  have hs : s = 0 ∨ s = 1 := by revert s; decide
  unfold cpinsAt
  rcases hs with rfl | rfl
  · iintro ⟨H0, H1⟩
    unfold cpinAt
    icases H0 with ⟨Ha, Hr⟩
    isplitl [Ha]; · iexact Ha
    isplitl [Hr]; · iexact Hr
    iexact H1
  · iintro ⟨H0, H1⟩
    unfold cpinAt
    icases H1 with ⟨Ha, Hr⟩
    isplitl [Ha]; · iexact Ha
    isplitl [Hr]; · iexact Hr
    iexact H0
private theorem cpinsAt_close (c : Dev nD) (s : Fin 2) (k : ℕ) :
    iprop(atPos ER (cpinC c s) (posI s k) ∅ 0 ∗ reached ER (cpinC c s) (posI s k) ∗ cpinAt (F := F) c (oth s) k) ⊢ cpinsAt (F := F) c k := by
  have hs : s = 0 ∨ s = 1 := by revert s; decide
  unfold cpinsAt
  rcases hs with rfl | rfl
  · iintro ⟨Ha, Hr, H1⟩
    isplitl [Ha Hr]
    · unfold cpinAt; isplitl [Ha]; · iexact Ha
      iexact Hr
    iexact H1
  · iintro ⟨Ha, Hr, H0⟩
    isplitl [H0]; · iexact H0
    unfold cpinAt; isplitl [Ha]; · iexact Ha
    iexact Hr

/-! ## The schedule's tables as the steps' rewrites read them -/

attribute [local sl_rounds] duties_ysend duties_yrecv duties_xsend duties_xrecv duties_cpout duties_cpin amount_bar amount_dma duties_bar

/-- A column receive cell expects one block's credit in its round. -/
private theorem expect_yrecv (c : Dev nD) (r : Fin 64) : (sched (F := F) m).expect (yrecvC c r) 0 = N :=
  expect_of_single m c (yrecvQ r) 0 (duties_yrecv m c r)
/-- What the column receive cell's round hands over, spelt out: the landing rows at some contents that read as the column
    peer's block. -/
private theorem payload_yrecv_open (c : Dev nD) (r : Fin 64) (R : ℕ) (d : Bool) :
    (sched (F := F) m).payload (yrecvC c r) R d
      = iprop(∃ f, ⌜(rS r).view.read (Elt F) f = yVal m c r⌝ ∗ ((rS r).view.loc (c : Thread nD τ) ↦[(rS r).view.set]{fullShare} f)) := by
  rw [payload_yrecv]; unfold yrecvPay owns; rfl
/-- A staging cell expects one block's credit in each of its 32 rounds. -/
private theorem expect_cpin (c : Dev nD) (s : Fin 2) (R : ℕ) (h : R < 32) : (sched (F := F) m).expect (cpinC c s) R = N :=
  expect_of_single m c (cpinQ s) R (duties_cpin m c s R h)
/-- What chunk `r`'s staging round hands over, spelt out: the slot at some contents that read as the kept block, and that
    block of the argument. -/
private theorem payload_cpin_open (c : Dev nD) (r : Fin 64) (d : Bool) :
    (sched (F := F) m).payload (cpinC c (slotOf r.val)) (r.val / 2) d
      = iprop((∃ f, ⌜(lS (slotOf r.val)).view.read (Elt F) f = bVal m c r⌝
            ∗ ((lS (slotOf r.val)).view.loc (c : Thread nD τ) ↦[(lS (slotOf r.val)).view.set]{fullShare} f))
          ∗ ((xB c r).view.loc (c : Thread nD τ) ↦[(xB c r).view.set]{fullShare} X m c)) := by
  rw [payload_cpin, cpinPay_eq]; unfold owns ptsB; rfl
attribute [local sl_rounds] expect_yrecv payload_yrecv_open expect_cpin payload_cpin_open

/-! ## Staging the next chunk -/

/-- The kept block of chunk `r + 1` goes to its staging slot: the device hands in the block of the argument and the slot,
    free; both come back with the staging cell's round, which the copy pays; the device gets the cell's credit. -/
theorem step_stage (K : Dev nD × Fin 323 → ℕ) (c : Dev nD) (r r' : Fin 64) (hr' : r'.val = r.val + 1)
    (s : Fin 2) (hs : s = slotOf r'.val) (q : DmaSem sig) (hq : q = cpinQ s)
    {hsrc : (xB c r').view.WordExact} {hdst : (lS s).view.WordExact}
    {hsem : (DmaTarget.here (lS s) : DmaTarget nD τ sig .tc .vmem S64x1024 .f32).Typed .hbm (.dma q)}
    {α : Type} {Q : α → sProp 𝕄} {k : PUnit → Prog (TpuEff nD τ sig (Elt F) Λ₀ .tc) α} :
    S2 m K c r.val 0 ⊢ iprop((S2 m K c r.val 1 -∗ (WP c) (k ⟨⟩) Q)
      -∗ (WP c) (.op (.enqueueDma (xB c r') (.here (lS s)) (.dma q) hsrc hdst hsem) k) Q) := by
  subst hq hs
  have hR : r'.val / 2 < 32 := by have := r'.isLt; omega
  unfold S2
  rw [cur2_0, cur2_1, ← hr', stPreO_lt, curSt_lt c r']; unfold stPre stMid ptsB freeSlot
  iintro ⟨#HRec, Harg, Hy1, HfP, HmPost, HmPre, HstPre, HmP, Hcs, ⟨HpB, Htk⟩, ⟨%fd, Hfs⟩, Hcp, HO⟩ Hk
  ihave Hcp2 := (cpinsAt_open c (slotOf r'.val) r.val) $$ Hcp
  rw [posI_stage r.val r'.val hr']
  icases Hcp2 with ⟨Hats, #Hrs, Hoth⟩
  iapply (Rounds.wp_copy_pointsTo 𝒱₀ ER (sched m) (c : Thread nD τ) none (src := xB c r') (dst := lS (slotOf r'.val))
      (sem := .dma (cpinQ (slotOf r'.val))) (κ := K (c, ixq (cpinQ (slotOf r'.val)))) (r := r'.val / 2) (d := false)
      (q := fullShare) (fs := X m c) (fd := fd)
      (by rw [duties_cpin m c (slotOf r'.val) (r'.val / 2) hR]; exact Finset.mem_singleton_self _) () N rfl
      (amount_dma m c (cpinQ (slotOf r'.val)) (r'.val / 2) false)
      (by rw [payload_cpin, cpinPay_eq]; unfold ptsB
          exact BIClass.sep_mono (owns_of_landed_lS c (slotOf r'.val) fullShare fd (bVal m c r')) (BI.Entails.refl _)))
    $$ [HpB Hfs Htk]
  · isplitr; · iapply (inv_dma m K c (cpinQ (slotOf r'.val))); iexact HRec
    isplitl [HpB]; · iexact HpB
    isplitl [Hfs]; · iexact Hfs
    isplitl [Htk]; · iexact Htk
    iexact Hrs
  iintro Hcr
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmP]; · iexact HmP
  isplitl [Hcs]; · iexact Hcs
  isplitl [Hcr]; · iexact Hcr
  isplitl [Hats Hoth]
  · iapply (cpinsAt_close c (slotOf r'.val) r.val)
    rw [posI_stage r.val r'.val hr']
    isplitl [Hats]; · iexact Hats
    isplitr; · iexact Hrs
    iexact Hoth
  iexact HO

/-! ## The wait for the column peer's block -/

/-- The wait on chunk `r`'s column receive cell: the device hands in the cell's credit and comes back with the landing
    rows, holding the column peer's block; the cell is one round on. -/
theorem step_yrecv_wait (K : Dev nD × Fin 323 → ℕ) (c : Dev nD) (r : Fin 64) (q : DmaSem sig) (hq : q = yrecvQ r)
    {h1 : (xA c r).view.WordExact} {h2 : (rS r).view.WordExact}
    {α : Type} {Q : α → sProp 𝕄} {k : PUnit → Prog (TpuEff nD τ sig (Elt F) Λ₀ .tc) α} :
    S2 m K c r.val 1 ⊢ iprop((S2 m K c r.val 2 -∗ (WP c) (k ⟨⟩) Q) -∗ (WP c) (.op (.waitDma2 q (xA c r) (rS r) h1 h2) k) Q) := by
  subst hq
  unfold S2
  rw [cur2_1, cur2_2, mPreO_lt]; unfold mPre owesE
  iintro ⟨#HRec, Harg, Hy1, HfP, HmPost, HmPre, HstPre, ⟨Hat, Hcr, HmRest⟩, Hcs, Hcs1, Hcp, ⟨%W, HO⟩⟩ Hk
  have hmw := mayWait_yrecv (F := F) c r r.val
  ihave HI := (inv_dma m K c (yrecvQ r)) $$ HRec
  ihave Hlev := (lev_rec m K) $$ HRec
  sl_exec
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmRest]; · iexact HmRest
  isplitl [Hat]; · iexact Hat
  isplitl [Hat_pay1]
  · unfold yrecvPay owns; iexists Hat_pay1_v; iexact Hat_pay1
  isplitl [Hcs]; · iexact Hcs
  isplitl [Hcs1]; · iexact Hcs1
  isplitl [Hcp]; · iexact Hcp
  iexists _; iexact HO

/-! ## The wait for the staged block -/

/-- The wait on chunk `r`'s staging cell: the device hands in the cell's credit and comes back with the slot, holding the
    kept block, and that block of the argument; the slot's cell is one round on, the other slot's where it was. -/
theorem step_stage_wait (K : Dev nD × Fin 323 → ℕ) (c : Dev nD) (r : Fin 64) (s : Fin 2) (hs : s = slotOf r.val)
    (q : DmaSem sig) (hq : q = cpinQ s)
    {h1 : (xB c r).view.WordExact} {h2 : (lS s).view.WordExact}
    {α : Type} {Q : α → sProp 𝕄} {k : PUnit → Prog (TpuEff nD τ sig (Elt F) Λ₀ .tc) α} :
    S2 m K c r.val 2 ⊢ iprop((S2 m K c r.val 3 -∗ (WP c) (k ⟨⟩) Q) -∗ (WP c) (.op (.waitDma2 q (xB c r) (lS s) h1 h2) k) Q) := by
  subst hq hs
  have hR : r.val / 2 < 32 := by have := r.isLt; omega
  unfold S2
  rw [cur2_2, cur2_3, curSt_lt]; unfold stMid owesE
  iintro ⟨#HRec, Harg, Hy1, HfP, HmPost, HmPre, HstPre, HmRest, Hat, Hyp, Hcr, Hcs1, Hcp, ⟨%W, HO⟩⟩ Hk
  ihave Hcp2 := (cpinsAt_open c (slotOf r.val) r.val) $$ Hcp
  rw [posI_cur]
  icases Hcp2 with ⟨Hats, -, Hoth⟩
  have hmw := mayWait_low (F := F) c (cpinQ (slotOf r.val))
    (by have e : (cpinQ (slotOf r.val)).val = 256 + (slotOf r.val).val := rfl
        constructor <;> (intro h; omega)) r.val
  ihave HI := (inv_dma m K c (cpinQ (slotOf r.val))) $$ HRec
  ihave Hlev := (lev_rec m K) $$ HRec
  sl_exec
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmRest]; · iexact HmRest
  isplitl [Hat]; · iexact Hat
  isplitl [Hyp]; · iexact Hyp
  isplitl [Hats_pay1]
  · unfold owns; iexists Hats_pay1_v; iexact Hats_pay1
  isplitl [Hats_pay2]
  · unfold ptsB; iexact Hats_pay2
  isplitl [Hcs1]; · iexact Hcs1
  isplitl [Hats Hats_reached Hoth]
  · iapply (cpinsAt_close c (slotOf r.val) (r.val + 1))
    rw [posI_cur_succ]
    isplitl [Hats]; · iexact Hats
    isplitl [Hats_reached]; · iexact Hats_reached
    unfold cpinAt; rw [posI_other]; iexact Hoth
  iexists _; iexact HO

/-! ## The send of the summed rows to the row peer -/

/-- The summed rows of chunk `r` go to the row peer's result: the device hands in one half of the rows (to come back with
    its row send cell's credit) and the row peer's result rows, free; the row peer's receive cell gets those rows holding the
    sums. What the device owes its row peer goes down by the chunk. -/
theorem step_xsend (K : Dev nD × Fin 323 → ℕ) (c : Dev nD) (r : Fin 64) (n : Dev nD) (hn : n = xp c)
    (qs qr : DmaSem sig) (hqs : qs = xsendQ r) (hqr : qr = xrecvQ r)
    {hsc : (oO c r : Memref sig (Dev.tc n : Thread nD τ).2.kind .hbm S64x1024 .f32).view.ref.isScScratch = false}
    {hsrc : (rS r).view.WordExact} {hdst : (oO c r).view.WordExact}
    {hsem : DmaTarget.Typed .vmem (.dma qr) (.remote (Dev.tc n : Thread nD τ) (oO c r) (.dma qs) hsc)}
    {α : Type} {Q : α → sProp 𝕄} {k : PUnit → Prog (TpuEff nD τ sig (Elt F) Λ₀ .tc) α} :
    S2 m K c r.val 4 ⊢ iprop((S2 m K c r.val 5 -∗ (WP c) (k ⟨⟩) Q)
      -∗ (WP c) (.op (.enqueueDma (rS r) (.remote (Dev.tc n : Thread nD τ) (oO c r) (.dma qs) hsc) (.dma qr) hsrc hdst hsem) k) Q) := by
  subst hn hqs hqr
  unfold S2
  rw [cur2_4, cur2_5]; unfold mRest owesE owns
  iintro ⟨#HRec, Harg, Hy1, HfP, HmPost, HmPre, HstPre, ⟨Hfo, Hts, Htr, Hfoc, Htc⟩, Hat, ⟨%f, %hf, Hrs⟩, Hfs, HpB, Hcs1, Hcp, ⟨%W, HO⟩⟩ Hk
  unfold freeOut
  icases Hfo with ⟨%fd, Hfo⟩
  ihave Hsp := (pointsTo_share (PosShare.mem_left_op_right fullShare)).1 $$ Hrs
  icases Hsp with ⟨Hl, Hr⟩
  iapply (Rounds.wp_send_pointsTo 𝒱₀ ER (sched m) (c : Thread nD τ) none (c' := (xp c : Thread nD τ)) (src := rS r) (dst := oO c r)
      (sS := .dma (xsendQ r)) (sem := .dma (xrecvQ r))
      (κ₁ := K (c, ixq (xsendQ r))) (κ₂ := K (xp c, ixq (xrecvQ r))) (r₁ := 0) (r₂ := 0) (d₁ := false) (d₂ := false)
      (q := fullShare.left) (fs := f) (fd := fd)
      (by rw [duties_xsend]; exact Finset.mem_singleton_self _) (by rw [duties_xrecv]; exact Finset.mem_singleton_self _)
      () () N rfl (amount_dma m c (xsendQ r) 0 false) (amount_dma m (xp c) (xrecvQ r) 0 false)
      (Ox c (r.val + 1)) (Ox_peel c r) (W := W)
      (by rw [payload_xsend]; unfold xsendPay; rw [← hf]; exact owns_intro (c : Thread nD τ) (rS r) fullShare.left f)
      (by rw [payload_xrecv]; unfold xrecvPay; rw [xp_xp, hf]; exact owns_of_landed_oO (xp c) c r fullShare fd (sVal m c r)))
    $$ [Hl Hfo HO Hts Htr]
  · isplitr; · iapply (inv_dma m K c (xsendQ r)); iexact HRec
    isplitr; · iapply (inv_dma m K (xp c) (xrecvQ r)); iexact HRec
    isplitl [Hl]; · iexact Hl
    isplitl [Hfo]; · iexact Hfo
    isplitl [HO]; · iexact HO
    isplitl [Hts]; · iexact Hts
    isplitr; · iapply (reached0_dma m K c (xsendQ r)); iexact HRec
    isplitl [Htr]; · iexact Htr
    iapply (reached0_dma m K (xp c) (xrecvQ r)); iexact HRec
  iintro ⟨Hcx, HO⟩
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [Hfoc Htc]
  · isplitl [Hfoc]; · iexact Hfoc
    iexact Htc
  isplitl [Hat]; · iexact Hat
  isplitl [Hr]
  · iexists f; isplitr; · ipureintro; exact hf
    iexact Hr
  isplitl [Hcx]; · iexact Hcx
  isplitl [Hfs]; · iexact Hfs
  isplitl [HpB]; · iexact HpB
  isplitl [Hcs1]; · iexact Hcs1
  isplitl [Hcp]; · iexact Hcp
  iexists _; iexact HO

/-! ## The copy of the summed rows to the result -/

/-- The summed rows of chunk `r` go to the device's own result rows: the device hands in the other half of the rows and its
    result rows, free; both come back, the result rows holding the sums, with the result-copy cell's credit. -/
theorem step_outcopy (K : Dev nD × Fin 323 → ℕ) (c : Dev nD) (r : Fin 64) (q : DmaSem sig) (hq : q = cpoutQ r)
    {hsrc : (rS r).view.WordExact} {hdst : (oO c r).view.WordExact}
    {hsem : (DmaTarget.here (oO c r) : DmaTarget nD τ sig .tc .hbm S64x1024 .f32).Typed .vmem (.dma q)}
    {α : Type} {Q : α → sProp 𝕄} {k : PUnit → Prog (TpuEff nD τ sig (Elt F) Λ₀ .tc) α} :
    S2 m K c r.val 5 ⊢ iprop((S2 m K c r.val 6 -∗ (WP c) (k ⟨⟩) Q)
      -∗ (WP c) (.op (.enqueueDma (rS r) (.here (oO c r)) (.dma q) hsrc hdst hsem) k) Q) := by
  subst hq
  unfold S2
  rw [cur2_5, cur2_6]; unfold mPost owns
  iintro ⟨#HRec, Harg, Hy1, HfP, HmPost, HmPre, HstPre, ⟨Hfoc, Htc⟩, Hat, ⟨%f, %hf, Hr⟩, Hcx, Hfs, HpB, Hcs1, Hcp, HO⟩ Hk
  unfold freeOut
  icases Hfoc with ⟨%fd, Hfoc⟩
  iapply (Rounds.wp_copy_pointsTo 𝒱₀ ER (sched m) (c : Thread nD τ) none (src := rS r) (dst := oO c r) (sem := .dma (cpoutQ r))
      (κ := K (c, ixq (cpoutQ r))) (r := 0) (d := false) (q := fullShare.right) (fs := f) (fd := fd)
      (by rw [duties_cpout]; exact Finset.mem_singleton_self _) () N rfl (amount_dma m c (cpoutQ r) 0 false)
      (by rw [payload_cpout]; unfold cpoutPay; rw [hf]
          exact BIClass.sep_mono (owns_of_landed_oO c c r fullShare fd (sVal m c r))
            (by rw [← hf]; exact owns_intro (c : Thread nD τ) (rS r) fullShare.right f)))
    $$ [Hr Hfoc Htc]
  · isplitr; · iapply (inv_dma m K c (cpoutQ r)); iexact HRec
    isplitl [Hr]; · iexact Hr
    isplitl [Hfoc]; · iexact Hfoc
    isplitl [Htc]; · iexact Htc
    iapply (reached0_dma m K c (cpoutQ r)); iexact HRec
  iintro Hco
  iapply Hk
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [Hcx Hco HpB Hat]
  · isplitl [Hcx]; · iexact Hcx
    isplitl [Hco]; · iexact Hco
    isplitl [HpB]; · iexact HpB
    iexact Hat
  isplitl [Hfs]; · iexact Hfs
  isplitl [Hcs1]; · iexact Hcs1
  isplitl [Hcp]; · iexact Hcp
  iexact HO

/-- info: 'Cert.Kernel.RS.step_stage' depends on axioms: [propext, Classical.choice, Quot.sound] -/
#guard_msgs in #print axioms step_stage

/-- info: 'Cert.Kernel.RS.step_yrecv_wait' depends on axioms: [propext, Classical.choice, Quot.sound] -/
#guard_msgs in #print axioms step_yrecv_wait

/-- info: 'Cert.Kernel.RS.step_stage_wait' depends on axioms: [propext, Classical.choice, Quot.sound] -/
#guard_msgs in #print axioms step_stage_wait

/-- info: 'Cert.Kernel.RS.step_xsend' depends on axioms: [propext, Classical.choice, Quot.sound] -/
#guard_msgs in #print axioms step_xsend

/-- info: 'Cert.Kernel.RS.step_outcopy' depends on axioms: [propext, Classical.choice, Quot.sound] -/
#guard_msgs in #print axioms step_outcopy

end Cert.Kernel.RS

end
-- ==== Proof.RsKernel.Steps2n.lean ====
/-
  The middle loop of one device's body, between its iterations: after the last chunk nothing more is staged, and the state
  at the end of an iteration is the state at the start of the next.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Levels
import proofs.«900313_g7700000000000314_dist_rs_v7x_xy2x2_y_m8192_n1024_f32_1_alg».proof.Proof.RsKernel.Views

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows for good, cell by cell -/

private instance Rec_persistent (K : Dev nD × Fin 323 → ℕ) : BI.Persistent (Rec m K) := by unfold Rec; infer_instance

/-- The index of a copy cell among the protocol's cells. -/
private def ixq (q : DmaSem sig) : Fin 323 := ⟨q.val, Nat.lt_succ_of_lt q.isLt⟩

private theorem kcell_ixq (c : Dev nD) (q : DmaSem sig) : kcell (c, ixq q) = ((c : Thread nD τ), SemLoc.dma q) := by
  have h : (ixq q).val < 322 := q.isLt
  show ((c : Thread nD τ), (if h : (ixq q).val < 322 then SemLoc.dma ⟨(ixq q).val, h⟩ else .reg barS)) = _
  rw [dif_pos h]; rfl

private theorem inv_dma (K : Dev nD × Fin 323 → ℕ) (c : Dev nD) (q : DmaSem sig) :
    Rec m K ⊢ cellInv ER (sched m) (K (c, ixq q)) ((c : Thread nD τ), .dma q) := by
  unfold Rec
  have h : (bigSep Finset.univ (fun cj : Dev nD × Fin 323 => cellInv ER (sched m) (K cj) (kcell cj)) : sProp 𝕄)
      ⊢ cellInv ER (sched m) (K (c, ixq q)) (kcell (c, ixq q)) := bigSep_elim (Finset.mem_univ (c, ixq q))
  rw [kcell_ixq] at h
  iintro ⟨HI, -, -⟩
  iapply h; iexact HI

private theorem reached0_dma (K : Dev nD × Fin 323 → ℕ) (c : Dev nD) (q : DmaSem sig) :
    Rec m K ⊢ reached ER ((c : Thread nD τ), .dma q) 0 := by
  unfold Rec
  have h : (bigSep Finset.univ (fun cj : Dev nD × Fin 323 => reached ER (kcell cj) 0) : sProp 𝕄)
      ⊢ reached ER (kcell (c, ixq q)) 0 := bigSep_elim (Finset.mem_univ (c, ixq q))
  rw [kcell_ixq] at h
  iintro ⟨-, HR, -⟩
  iapply h; iexact HR

private theorem lev_rec (K : Dev nD × Fin 323 → ℕ) : Rec m K ⊢ (levAts L lv : sProp 𝕄) := by
  unfold Rec
  iintro ⟨-, -, H⟩
  iexact H

/-! ## The states of the middle loop at a chunk in range -/

section Unfold
variable (c : Dev nD) (r : Fin 64)

private theorem mPreO_lt : mPreO (F := F) c r.val = mPre (F := F) c r := dif_pos r.isLt
private theorem curSt_lt : curSt (F := F) c r.val = stMid (F := F) c r := dif_pos r.isLt
private theorem stPreO_lt : stPreO m c r.val = stPre m c r := dif_pos r.isLt

private theorem cur2_0 (k : ℕ) : cur2 m c k 0 = iprop(mPreO (F := F) c k ∗ curSt (F := F) c k ∗ stPreO m c (k + 1) ∗ freeSlot (F := F) c (slotOf (k + 1)) ∗ cpinsAt (F := F) c k ∗ owesE (F := F) c (Ox c k)) := rfl
private theorem cur2_1 (k : ℕ) : cur2 m c k 1 = iprop(mPreO (F := F) c k ∗ curSt (F := F) c k ∗ curSt (F := F) c (k + 1) ∗ cpinsAt (F := F) c k ∗ owesE (F := F) c (Ox c k)) := rfl
private theorem cur2_2 : cur2 m c r.val 2 = iprop(mRest (F := F) c r ∗ atPos ER (yrecvC c r) 1 ∅ 0 ∗ yrecvPay m c r ∗ curSt (F := F) c r.val ∗ curSt (F := F) c (r.val + 1)
        ∗ cpinsAt (F := F) c r.val ∗ owesE (F := F) c (Ox c r.val)) := dif_pos r.isLt
private theorem cur2_3 : cur2 m c r.val 3 = iprop(mRest (F := F) c r ∗ atPos ER (yrecvC c r) 1 ∅ 0 ∗ yrecvPay m c r
        ∗ owns (c : Thread nD τ) (lS (slotOf r.val)) fullShare (bVal m c r) ∗ ptsB m c r ∗ curSt (F := F) c (r.val + 1)
        ∗ cpinsAt (F := F) c (r.val + 1) ∗ owesE (F := F) c (Ox c r.val)) := dif_pos r.isLt
private theorem cur2_4 : cur2 m c r.val 4 = iprop(mRest (F := F) c r ∗ atPos ER (yrecvC c r) 1 ∅ 0 ∗ owns (c : Thread nD τ) (rS r) fullShare (sVal m c r)
        ∗ freeSlot (F := F) c (slotOf r.val) ∗ ptsB m c r ∗ curSt (F := F) c (r.val + 1)
        ∗ cpinsAt (F := F) c (r.val + 1) ∗ owesE (F := F) c (Ox c r.val)) := dif_pos r.isLt
private theorem cur2_5 : cur2 m c r.val 5 = iprop((freeOut (F := F) c c r ∗ dutyTok ER (cpoutC c r) 0 false) ∗ atPos ER (yrecvC c r) 1 ∅ 0
        ∗ owns (c : Thread nD τ) (rS r) fullShare.right (sVal m c r) ∗ cred (tallyAt (xsendC c r) () N)
        ∗ freeSlot (F := F) c (slotOf r.val) ∗ ptsB m c r ∗ curSt (F := F) c (r.val + 1)
        ∗ cpinsAt (F := F) c (r.val + 1) ∗ owesE (F := F) c (Ox c (r.val + 1))) := dif_pos r.isLt
private theorem cur2_6 : cur2 m c r.val 6 = iprop(mPost m c r ∗ freeSlot (F := F) c (slotOf r.val) ∗ curSt (F := F) c (r.val + 1)
        ∗ cpinsAt (F := F) c (r.val + 1) ∗ owesE (F := F) c (Ox c (r.val + 1))) := dif_pos r.isLt

end Unfold

/-- The weakest precondition of device `c`'s body. -/
local notation "WP" c => wp frame (wpE (defs₀ (F := F)) 𝒱₀ (c : Thread nD τ) none) Set.univ

/-! ## The staging slots: which slot a chunk uses, and where a slot's cell stands -/

private theorem slotOf_add_two (k : ℕ) : slotOf (k + 2) = slotOf k := Fin.ext (Nat.add_mod_right k 2)

/-- The other staging slot. -/
private def oth (s : Fin 2) : Fin 2 := ⟨1 - s.val, by omega⟩

/-- When chunk `k + 1` is staged, its slot's cell is at the round that chunk completes. -/
private theorem posI_stage (k k' : ℕ) (h : k' = k + 1) : posI (slotOf k') k = k' / 2 := by
  subst h; unfold posI slotOf; show (k + 1 - (k + 1) % 2) / 2 = (k + 1) / 2; omega
/-- When chunk `k`'s staged block is waited for, its slot's cell is at the round that chunk completes … -/
private theorem posI_cur (k : ℕ) : posI (slotOf k) k = k / 2 := by
  unfold posI slotOf; show (k + 1 - k % 2) / 2 = k / 2; omega
/-- … and after the wait one round on, … -/
private theorem posI_cur_succ (k : ℕ) : posI (slotOf k) (k + 1) = k / 2 + 1 := by
  unfold posI slotOf; show (k + 1 + 1 - k % 2) / 2 = k / 2 + 1; omega
/-- … while the other slot's cell stays where it is. -/
private theorem posI_other (k : ℕ) : posI (oth (slotOf k)) (k + 1) = posI (oth (slotOf k)) k := by
  unfold posI slotOf oth; show (k + 1 + 1 - (1 - k % 2)) / 2 = (k + 1 - (1 - k % 2)) / 2; omega

/-- The chunk that round `k / 2` of slot `k % 2` serves is chunk `k`. -/
private theorem chunkOf_slot (r : Fin 64) (h : r.val / 2 < 32) : chunkOf (slotOf r.val) (r.val / 2) h = r :=
  Fin.ext (by show 2 * (r.val / 2) + r.val % 2 = r.val; omega)

/-- What the staging of chunk `r` hands over: the slot holding the kept block, and that block of the argument back. -/
private theorem cpinPay_eq (c : Dev nD) (r : Fin 64) :
    cpinPay m c (slotOf r.val) (r.val / 2)
      = iprop(owns (c : Thread nD τ) (lS (slotOf r.val)) fullShare (bVal m c r) ∗ ptsB m c r) := by
  have h : r.val / 2 < 32 := by have := r.isLt; omega
  unfold cpinPay ptsB; rw [dif_pos h, chunkOf_slot r h]

private theorem curSt_ge (c : Dev nD) (k : ℕ) (h : 64 ≤ k) : curSt (F := F) c k = freeSlot (F := F) c (slotOf k) := dif_neg (by omega)
private theorem stPreO_ge (c : Dev nD) (k : ℕ) (h : 64 ≤ k) : stPreO m c k = iprop(emp) := dif_neg (by omega)
private theorem mPreO_ge (c : Dev nD) (k : ℕ) (h : 64 ≤ k) : mPreO (F := F) c k = iprop(emp) := dif_neg (by omega)
private theorem fromK_ge (k : ℕ) (h : 64 ≤ k) : fromK k = ∅ := Finset.ext fun x => by
  rw [mem_fromK]; have := x.isLt; exact ⟨fun h' => by omega, fun h' => absurd h' (Finset.notMem_empty x)⟩

/-- The two staging cells' positions, with slot `s`'s taken apart. -/
private theorem cpinsAt_open (c : Dev nD) (s : Fin 2) (k : ℕ) :
    cpinsAt (F := F) c k ⊢ iprop(atPos ER (cpinC c s) (posI s k) ∅ 0 ∗ reached ER (cpinC c s) (posI s k) ∗ cpinAt (F := F) c (oth s) k) := by
  have hs : s = 0 ∨ s = 1 := by revert s; decide
  unfold cpinsAt
  rcases hs with rfl | rfl
  · iintro ⟨H0, H1⟩
    unfold cpinAt
    icases H0 with ⟨Ha, Hr⟩
    isplitl [Ha]; · iexact Ha
    isplitl [Hr]; · iexact Hr
    iexact H1
  · iintro ⟨H0, H1⟩
    unfold cpinAt
    icases H1 with ⟨Ha, Hr⟩
    isplitl [Ha]; · iexact Ha
    isplitl [Hr]; · iexact Hr
    iexact H0
private theorem cpinsAt_close (c : Dev nD) (s : Fin 2) (k : ℕ) :
    iprop(atPos ER (cpinC c s) (posI s k) ∅ 0 ∗ reached ER (cpinC c s) (posI s k) ∗ cpinAt (F := F) c (oth s) k) ⊢ cpinsAt (F := F) c k := by
  have hs : s = 0 ∨ s = 1 := by revert s; decide
  unfold cpinsAt
  rcases hs with rfl | rfl
  · iintro ⟨Ha, Hr, H1⟩
    isplitl [Ha Hr]
    · unfold cpinAt; isplitl [Ha]; · iexact Ha
      iexact Hr
    iexact H1
  · iintro ⟨Ha, Hr, H0⟩
    isplitl [H0]; · iexact H0
    unfold cpinAt; isplitl [Ha]; · iexact Ha
    iexact Hr

/-! ## Nothing to stage after the last chunk -/

/-- After the last chunk there is nothing to stage: the free slot stands for the staging in flight. -/
theorem skip_stage (K : Dev nD × Fin 323 → ℕ) (c : Dev nD) : S2 m K c 63 0 ⊢ S2 m K c 63 1 := by
  unfold S2
  rw [cur2_0, cur2_1, stPreO_ge m c (63 + 1) (by decide), curSt_ge c (63 + 1) (by decide)]
  iintro ⟨#HRec, Harg, Hy1, HfP, HmPost, HmPre, HstPre, HmP, Hcs, -, Hfs, Hcp, HO⟩
  isplitr; · iexact HRec
  isplitl [Harg]; · iexact Harg
  isplitl [Hy1]; · iexact Hy1
  isplitl [HfP]; · iexact HfP
  isplitl [HmPost]; · iexact HmPost
  isplitl [HmPre]; · iexact HmPre
  isplitl [HstPre]; · iexact HstPre
  isplitl [HmP]; · iexact HmP
  isplitl [Hcs]; · iexact Hcs
  isplitl [Hfs]; · iexact Hfs
  isplitl [Hcp]; · iexact Hcp
  iexact HO

/-! ## From one iteration to the next -/

/-- A big conjunction over the chunks from `k` on gives its piece at `k` (nothing, past the last chunk) and the rest. -/
private theorem fromK_peelO (Φ : Fin 64 → sProp 𝕄) (ΦO : ℕ → sProp 𝕄) (hΦ : ∀ r : Fin 64, ΦO r.val = Φ r)
    (hO : ∀ k, 64 ≤ k → ΦO k = iprop(emp)) (k k' : ℕ) (hk : k' = k + 1) :
    bigSep (fromK k) Φ ⊢ iprop(ΦO k ∗ bigSep (fromK k') Φ) := by
  subst hk
  by_cases h : k < 64
  · have e := bigSep_fromK_peel Φ ⟨k, h⟩
    rw [← hΦ ⟨k, h⟩] at e
    exact Entails.of_eq e
  · rw [fromK_ge k (by omega), fromK_ge (k + 1) (by omega), hO k (by omega), bigSep_empty]
    iintro H
    isplitl [H]; · iexact H
    iempintro

/-- Iteration `r` done, iteration `r + 1` starts: chunk `r`'s yields join those of the chunks before it; chunk
    `r + 1`'s needs and chunk `r + 2`'s staging needs leave their conjunctions (nothing, past the last chunk); the slot
    chunk `r` used is the one chunk `r + 2` will use. -/
theorem S2_next (K : Dev nD × Fin 323 → ℕ) (c : Dev nD) (r : Fin 64) : S2 m K c r.val 6 ⊢ S2 m K c (r.val + 1) 0 := by
  unfold S2
  rw [cur2_6, cur2_0, show r.val + 1 + 1 = r.val + 2 from rfl, show r.val + 1 + 2 = r.val + 3 from rfl, bigSep_uptoK_push,
    slotOf_add_two]
  iintro ⟨#HRec, Harg, Hy1, HfP, HmPost, HmPre, HstPre, HmP, Hfs, Hcs1, Hcp, HO⟩
  ihave HmPre2 := (fromK_peelO (fun x => mPre (F := F) c x) (fun k => mPreO (F := F) c k) (fun x => mPreO_lt c x)
    (fun k h => mPreO_ge c k h) (r.val + 1) (r.val + 2) rfl) $$ HmPre
  ihave HstPre2 := (fromK_peelO (fun x => stPre m c x) (fun k => stPreO m c k) (fun x => stPreO_lt m c x)
    (fun k h => stPreO_ge m c k h) (r.val + 2) (r.val + 3) rfl) $$ HstPre
  icases HmPre2 with ⟨HmPr, HmPre⟩
  icases HstPre2 with ⟨HstPr, HstPre⟩
  isplitr; · iexact HRec
  isplitl [Harg]; · iexact Harg
  isplitl [Hy1]; · iexact Hy1
  isplitl [HfP]; · iexact HfP
  isplitl [HmP HmPost]
  · isplitl [HmP]; · iexact HmP
    iexact HmPost
  isplitl [HmPre]; · iexact HmPre
  isplitl [HstPre]; · iexact HstPre
  isplitl [HmPr]; · iexact HmPr
  isplitl [Hcs1]; · iexact Hcs1
  isplitl [HstPr]; · iexact HstPr
  isplitl [Hfs]; · iexact Hfs
  isplitl [Hcp]; · iexact Hcp
  iexact HO

/-- info: 'Cert.Kernel.RS.skip_stage' depends on axioms: [propext, Classical.choice, Quot.sound] -/
#guard_msgs in #print axioms skip_stage

/-- info: 'Cert.Kernel.RS.S2_next' depends on axioms: [propext, Classical.choice, Quot.sound] -/
#guard_msgs in #print axioms S2_next

end Cert.Kernel.RS

end
-- ==== Proof.RsKernel.Steps2v.lean ====
/-
  Reduce-scatter over a 2×2 mesh: iteration `r` of the middle loop, between its two waits and its sends. The device holds
  the rows of chunk `r` of its receive buffer with its column peer's block, and a staging slot with the block it kept. It
  loads both, and stores their sum over the receive rows: these then hold chunk `r` of the device's sums, and the staging
  slot is free again. The loads change nothing; the store moves the state from "both blocks landed" to "the sum stored".
  The stored value is written in the body in one of a few ways (all casts between shapes with the same elements in the same
  order, around one addition); each is the sum.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Views
import Idealize.ShloMosaic.Rules.Step
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "WP" c => wp frame (wpE (defs₀ (F := F)) 𝒱₀ (c : Thread nD τ) none) Set.univ

variable (m : (ℓ : Loc nD τ sig) → Buf (Elt F) ℓ)

/-! ## The moving part of the state, after the two waits and after the store -/

section Cur
variable (c : Dev nD) (r : Fin 64)

/-- After both waits of iteration `r`: the receive rows hold the column peer's block, the staging slot the kept block. -/
theorem cur2_three : cur2 m c r.val 3
    = iprop(mRest (F := F) c r ∗ atPos ER (yrecvC c r) 1 ∅ 0 ∗ yrecvPay m c r
        ∗ owns (c : Thread nD τ) (lS (slotOf r.val)) fullShare (bVal m c r) ∗ ptsB m c r ∗ curSt (F := F) c (r.val + 1)
        ∗ cpinsAt (F := F) c (r.val + 1) ∗ owesE (F := F) c (Ox c r.val)) := dif_pos r.isLt

/-- After the store: the receive rows hold the sums, the staging slot is free. -/
theorem cur2_four : cur2 m c r.val 4
    = iprop(mRest (F := F) c r ∗ atPos ER (yrecvC c r) 1 ∅ 0 ∗ owns (c : Thread nD τ) (rS r) fullShare (sVal m c r)
        ∗ freeSlot (F := F) c (slotOf r.val) ∗ ptsB m c r ∗ curSt (F := F) c (r.val + 1)
        ∗ cpinsAt (F := F) c (r.val + 1) ∗ owesE (F := F) c (Ox c r.val)) := dif_pos r.isLt

end Cur

/-- A step that touches the moving part only carries the rest of the state along. -/
theorem S2_frame (K : Dev nD × Fin 323 → ℕ) (c : Dev nD) (r j j' : ℕ) (G G' : sProp 𝕄)
    (h : cur2 m c r j ⊢ iprop((cur2 m c r j' -∗ G) -∗ G')) :
    S2 m K c r j ⊢ iprop((S2 m K c r j' -∗ G) -∗ G') := by
  unfold S2
  iintro ⟨H1, H2, H3, H4, H5, H6, H7, Hc⟩ Hk
  iapply h $$ Hc
  iintro Hc
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hc

/-! ## The receive rows are loaded

After both waits of iteration `r` the device owns the rows of chunk `r` of its receive buffer, holding its column peer's
block. A load through the whole receive buffer at those rows reads that block, and leaves the state as it was. -/

theorem step_load_recv (K : Dev nD × Fin 323 → ℕ) (c : Dev nD) (r : Fin 64)
    {hl : (rM : Memref sig .tc .vmem S4096x1024 .f32).view.LoadsAt (rRect r).toLoadRect}
    {α : Type} {Q : α → sProp 𝕄} {k : Vec F S64x1024 .f32 → Prog (TpuEff nD τ sig (Elt F) Λ₀ .tc) α} :
    S2 m K c r.val 3 ⊢ iprop((S2 m K c r.val 3 -∗ (WP c) (k (yVal m c r)) Q) -∗ (WP c) (.op (.load rM (rRect r).toLoadRect hl) k) Q) := by
  refine S2_frame m K c r.val 3 3 _ _ ?_
  rw [cur2_three]
  iintro ⟨H1, H2, Hy, Hrest⟩ Hk
  unfold yrecvPay owns
  icases Hy with ⟨%f, %hf, Hy⟩
  sl_exec
  rw [show View.readAt (Elt F) rM.view (rRect r).toLoadRect f = yVal m c r from hf]
  iapply Hk
  isplitl [H1]; · iexact H1
  isplitl [H2]; · iexact H2
  isplitl [Hy]
  · iexists f; isplitr; · ipureintro; exact hf
    iexact Hy
  iexact Hrest

/-! ## The staged block is loaded

The staging slot of iteration `r` holds the block the device kept. The body loads it as a 1 × 64 × 1024 block: the same
elements in the same order. -/

theorem step_load_stage (K : Dev nD × Fin 323 → ℕ) (c : Dev nD) (r : Fin 64) (s : Fin 2) (hs : s = slotOf r.val)
    {hl : (lM : Memref sig .tc .vmem S2x64x1024 .f32).view.LoadsAt (lRect s).toLoadRect}
    {α : Type} {Q : α → sProp 𝕄} {k : Vec F S1x64x1024 .f32 → Prog (TpuEff nD τ sig (Elt F) Λ₀ .tc) α} :
    S2 m K c r.val 3 ⊢ iprop((S2 m K c r.val 3 -∗ (WP c) (k (shapeCast S1x64x1024 (bVal m c r) shapeCasts_S64x1024_S1x64x1024)) Q)
      -∗ (WP c) (.op (.load lM (lRect s).toLoadRect hl) k) Q) := by
  subst hs
  refine S2_frame m K c r.val 3 3 _ _ ?_
  rw [cur2_three]
  iintro ⟨H1, H2, Hy, Hl, Hrest⟩ Hk
  unfold owns
  icases Hl with ⟨%f, %hf, Hl⟩
  sl_exec
  rw [show View.readAt (Elt F) lM.view (lRect (slotOf r.val)).toLoadRect f = shapeCast S1x64x1024 (bVal m c r) shapeCasts_S64x1024_S1x64x1024
    from load_stage c (slotOf r.val) f _ hf _]
  iapply Hk
  isplitl [H1]; · iexact H1
  isplitl [H2]; · iexact H2
  isplitl [Hy]; · iexact Hy
  isplitl [Hl]
  · iexists f; isplitr; · ipureintro; exact hf
    iexact Hl
  iexact Hrest

/-! ## The sum is stored

The store writes the sum of the received and the staged block over the receive rows of chunk `r`, which then hold chunk
`r` of the device's sums. The staging slot has served: what it holds no longer matters. -/

theorem step_store (K : Dev nD × Fin 323 → ℕ) (c : Dev nD) (r : Fin 64) (w : FVec F S64x1024 .f32) (hw : w = sVal m c r)
    {hx : ((rM : Memref sig .tc .vmem S4096x1024 .f32).access (rRect r)).Stores Finset.univ}
    {hm : (Finset.univ : Finset (rRect r).shape.Idx) = Finset.univ ∨ ∀ a, (rRect r).stride a = 1}
    {α : Type} {Q : α → sProp 𝕄} {k : PUnit → Prog (TpuEff nD τ sig (Elt F) Λ₀ .tc) α} :
    S2 m K c r.val 3 ⊢ iprop((S2 m K c r.val 4 -∗ (WP c) (k ⟨⟩) Q) -∗ (WP c) (.op (.store rM (rRect r) w Finset.univ hx hm) k) Q) := by
  subst hw
  refine S2_frame m K c r.val 3 4 _ _ ?_
  rw [cur2_three, cur2_four]
  iintro ⟨H1, H2, Hy, Hl, Hrest⟩ Hk
  unfold yrecvPay freeSlot owns
  icases Hy with ⟨%f, -, Hy⟩
  icases Hl with ⟨%g, -, Hl⟩
  sl_exec
  iapply Hk
  isplitl [H1]; · iexact H1
  isplitl [H2]; · iexact H2
  isplitl [Hy]
  · iexists _; isplitr; · ipureintro; exact read_store_recv c r f _
    iexact Hy
  isplitl [Hl]
  · iexists g; iexact Hl
  iexact Hrest

/-! ## The stored value is the chunk's sum -/

/-- A payload with the body's text, at the received and the staged block, is chunk `r` of the device's sums. -/
theorem pay_sVal (P : Vec F S64x1024 .f32 → Vec F S1x64x1024 .f32 → FVec F S64x1024 .f32)
    (hP : ∀ y v, P y v = shapeCast S64x1024 (addf y (shapeCast S64x1024 v shapeCasts_S1x64x1024_S64x1024)) shapeCasts_S64x1024_S64x1024)
    (c : Dev nD) (r : Fin 64) :
    P (yVal m c r) (shapeCast S1x64x1024 (bVal m c r) shapeCasts_S64x1024_S1x64x1024) = sVal m c r :=
  (pay_eq_addf P hP _ _ _).trans rfl

/-! ### Where the body's text is cut

In some iterations the sum is formed in one piece of the body and cast to its own shape in the next, and in the last
iteration the staged block is re-indexed in one piece and added in the next. Each piece's value, and the composites. -/

/-- A cast of a 64 × 1024 block to its own shape is the block. -/
theorem pay_cast (P : FVec F S64x1024 .f32 → FVec F S64x1024 .f32)
    (hP : ∀ x, P x = shapeCast S64x1024 x shapeCasts_S64x1024_S64x1024) (x : FVec F S64x1024 .f32) : P x = x := by
  rw [hP, shapeCast_self]

/-- The staged block, re-indexed there and back, is the staged block. -/
theorem pay_unstage (P : Vec F S1x64x1024 .f32 → FVec F S64x1024 .f32)
    (hP : ∀ v, P v = shapeCast S64x1024 v shapeCasts_S1x64x1024_S64x1024) (b : Vec F S64x1024 .f32) (hc : S64x1024.ShapeCasts S1x64x1024) :
    P (shapeCast S1x64x1024 b hc) = b := by
  rw [hP, shapeCast_shapeCast]

/-- The sum without its final cast, at the received and the staged block, is chunk `r` of the device's sums. -/
theorem pay_sVal_nocast (P : Vec F S64x1024 .f32 → Vec F S1x64x1024 .f32 → FVec F S64x1024 .f32)
    (hP : ∀ y v, P y v = addf y (shapeCast S64x1024 v shapeCasts_S1x64x1024_S64x1024)) (c : Dev nD) (r : Fin 64) :
    P (yVal m c r) (shapeCast S1x64x1024 (bVal m c r) shapeCasts_S64x1024_S1x64x1024) = sVal m c r := by
  rw [hP, shapeCast_shapeCast]; rfl

/-- The sum formed in one piece and cast in the next. -/
theorem pay_sVal_cut (P₂ : FVec F S64x1024 .f32 → FVec F S64x1024 .f32)
    (P₁ : Vec F S64x1024 .f32 → Vec F S1x64x1024 .f32 → FVec F S64x1024 .f32)
    (h₂ : ∀ x, P₂ x = shapeCast S64x1024 x shapeCasts_S64x1024_S64x1024)
    (h₁ : ∀ y v, P₁ y v = addf y (shapeCast S64x1024 v shapeCasts_S1x64x1024_S64x1024)) (c : Dev nD) (r : Fin 64) :
    P₂ (P₁ (yVal m c r) (shapeCast S1x64x1024 (bVal m c r) shapeCasts_S64x1024_S1x64x1024)) = sVal m c r :=
  (pay_cast P₂ h₂ _).trans (pay_sVal_nocast m P₁ h₁ c r)

/-- The sum of the received block and an already re-indexed block, cast to its own shape, is their sum. -/
theorem pay_add_cast (P : Vec F S64x1024 .f32 → FVec F S64x1024 .f32 → FVec F S64x1024 .f32)
    (hP : ∀ y x, P y x = shapeCast S64x1024 (addf y x) shapeCasts_S64x1024_S64x1024) (y : Vec F S64x1024 .f32) (x : FVec F S64x1024 .f32) :
    P y x = addf y x := by
  rw [hP, shapeCast_self]

/-- The staged block re-indexed in one piece and added in the next. -/
theorem pay_sVal_cut_last (P₄ : Vec F S64x1024 .f32 → FVec F S64x1024 .f32 → FVec F S64x1024 .f32)
    (P₃ : Vec F S1x64x1024 .f32 → FVec F S64x1024 .f32)
    (h₄ : ∀ y x, P₄ y x = shapeCast S64x1024 (addf y x) shapeCasts_S64x1024_S64x1024)
    (h₃ : ∀ v, P₃ v = shapeCast S64x1024 v shapeCasts_S1x64x1024_S64x1024) (c : Dev nD) (r : Fin 64) :
    P₄ (yVal m c r) (P₃ (shapeCast S1x64x1024 (bVal m c r) shapeCasts_S64x1024_S1x64x1024)) = sVal m c r := by
  rw [pay_add_cast P₄ h₄, pay_unstage P₃ h₃]; rfl

-- every class of payload name, through its equation
example (c : Dev nD) (r : Fin 64) := pay_sVal m k0_pay69 (fun _ _ => rfl) c r
example (c : Dev nD) (r : Fin 64) := pay_sVal_nocast m k0_pay7 (fun _ _ => rfl) c r
example (c : Dev nD) (r : Fin 64) := pay_sVal_cut m k0_pay8 k0_pay7 (fun _ => rfl) (fun _ _ => rfl) c r
example (c : Dev nD) (r : Fin 64) := pay_sVal_cut m k0_pay64 k0_pay63 (fun _ => rfl) (fun _ _ => rfl) c r
example (c : Dev nD) (r : Fin 64) := pay_sVal_cut_last m k0_pay71 k0_pay70 (fun _ _ => rfl) (fun _ => rfl) c r

/-- info: 'Cert.Kernel.RS.step_load_recv' depends on axioms: [propext, Classical.choice, Quot.sound] -/
#guard_msgs in #print axioms step_load_recv

/-- info: 'Cert.Kernel.RS.step_load_stage' depends on axioms: [propext, Classical.choice, Quot.sound] -/
#guard_msgs in #print axioms step_load_stage

/-- info: 'Cert.Kernel.RS.step_store' depends on axioms: [propext, Classical.choice, Quot.sound] -/
#guard_msgs in #print axioms step_store

/-- info: 'Cert.Kernel.RS.pay_sVal' depends on axioms: [propext, Classical.choice, Quot.sound] -/
#guard_msgs in #print axioms pay_sVal

/-- info: 'Cert.Kernel.RS.pay_sVal_cut' depends on axioms: [propext, Classical.choice, Quot.sound] -/
#guard_msgs in #print axioms pay_sVal_cut

/-- info: 'Cert.Kernel.RS.pay_sVal_cut_last' depends on axioms: [propext, Classical.choice, Quot.sound] -/
#guard_msgs in #print axioms pay_sVal_cut_last

end Cert.Kernel.RS

end
-- ==== Proof.RsKernel.Body02.lean ====
/-
  The body of the reduce-scatter, part by part: the parts 17 to 32 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps1
import proofs.«900313_g7700000000000314_dist_rs_v7x_xy2x2_y_m8192_n1024_f32_1_alg».proof.Proof.RsKernel.Steps1g
import proofs.«900313_g7700000000000314_dist_rs_v7x_xy2x2_y_m8192_n1024_f32_1_alg».proof.Proof.RsKernel.Steps2
import proofs.«900313_g7700000000000314_dist_rs_v7x_xy2x2_y_m8192_n1024_f32_1_alg».proof.Proof.RsKernel.Steps2n
import proofs.«900313_g7700000000000314_dist_rs_v7x_xy2x2_y_m8192_n1024_f32_1_alg».proof.Proof.RsKernel.Steps2v
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_17 (m : (ℓ : Loc nD τ sig) → Buf (Elt F) ℓ) (K : Dev nD × Fin 323 → ℕ) (c : Dev nD) (v2 : BitVec 32) (v5 : BitVec 32) (v6 : BitVec 32) (v8 : BitVec 32) :
    S1 m K c 34 ⊢ wp frame (wpE (defs₀ (F := F)) 𝒱₀ (c : Thread nD τ) none) Set.univ
      (k0_part17 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 36) := by
  rw [k0_part17_eq_skeleton]; unfold k0_part17_skel
  simp only [Prog.lift, Prog.bind_op, Prog.bind_ret, Prog.pure_eq_ret]
  refine step_apply (step_ysend m K c ⟨34, by decide⟩ _ (Fin.ext (k0_dev37_eq c)) _ _ (sem_ysend ⟨34, by decide⟩ _ _) (sem_yrecv ⟨34, by decide⟩ _ _)) ?_
  refine step_apply (step_ysend m K c ⟨35, by decide⟩ _ (Fin.ext (k0_dev38_eq c)) _ _ (sem_ysend ⟨35, by decide⟩ _ _) (sem_yrecv ⟨35, by decide⟩ _ _)) ?_
  exact ret_apply c (BI.Entails.refl _)

set_option maxRecDepth 65536 in
theorem part_18 (m : (ℓ : Loc nD τ sig) → Buf (Elt F) ℓ) (K : Dev nD × Fin 323 → ℕ) (c : Dev nD) (v2 : BitVec 32) (v5 : BitVec 32) (v6 : BitVec 32) (v8 : BitVec 32) :
    S1 m K c 36 ⊢ wp frame (wpE (defs₀ (F := F)) 𝒱₀ (c : Thread nD τ) none) Set.univ
      (k0_part18 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 39) := by
  rw [k0_part18_eq_skeleton]; unfold k0_part18_skel
  simp only [Prog.lift, Prog.bind_op, Prog.bind_ret, Prog.pure_eq_ret]
  refine step_apply (step_ysend m K c ⟨36, by decide⟩ _ (Fin.ext (k0_dev39_eq c)) _ _ (sem_ysend ⟨36, by decide⟩ _ _) (sem_yrecv ⟨36, by decide⟩ _ _)) ?_
  refine step_apply (step_ysend m K c ⟨37, by decide⟩ _ (Fin.ext (k0_dev40_eq c)) _ _ (sem_ysend ⟨37, by decide⟩ _ _) (sem_yrecv ⟨37, by decide⟩ _ _)) ?_
  refine step_apply (step_ysend m K c ⟨38, by decide⟩ _ (Fin.ext (k0_dev41_eq c)) _ _ (sem_ysend ⟨38, by decide⟩ _ _) (sem_yrecv ⟨38, by decide⟩ _ _)) ?_
  exact ret_apply c (BI.Entails.refl _)

set_option maxRecDepth 65536 in
theorem part_19 (m : (ℓ : Loc nD τ sig) → Buf (Elt F) ℓ) (K : Dev nD × Fin 323 → ℕ) (c : Dev nD) (v2 : BitVec 32) (v5 : BitVec 32) (v6 : BitVec 32) (v8 : BitVec 32) :
    S1 m K c 39 ⊢ wp frame (wpE (defs₀ (F := F)) 𝒱₀ (c : Thread nD τ) none) Set.univ
      (k0_part19 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 41) := by
  rw [k0_part19_eq_skeleton]; unfold k0_part19_skel
  simp only [Prog.lift, Prog.bind_op, Prog.bind_ret, Prog.pure_eq_ret]
  refine step_apply (step_ysend m K c ⟨39, by decide⟩ _ (Fin.ext (k0_dev42_eq c)) _ _ (sem_ysend ⟨39, by decide⟩ _ _) (sem_yrecv ⟨39, by decide⟩ _ _)) ?_
  refine step_apply (step_ysend m K c ⟨40, by decide⟩ _ (Fin.ext (k0_dev43_eq c)) _ _ (sem_ysend ⟨40, by decide⟩ _ _) (sem_yrecv ⟨40, by decide⟩ _ _)) ?_
  exact ret_apply c (BI.Entails.refl _)

set_option maxRecDepth 65536 in
theorem part_20 (m : (ℓ : Loc nD τ sig) → Buf (Elt F) ℓ) (K : Dev nD × Fin 323 → ℕ) (c : Dev nD) (v2 : BitVec 32) (v5 : BitVec 32) (v6 : BitVec 32) (v8 : BitVec 32) (v606 : BitVec 32) (v607 : BitVec 32) :
    S1 m K c 41 ⊢ wp frame (wpE (defs₀ (F := F)) 𝒱₀ (c : Thread nD τ) none) Set.univ
      (k0_part20 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v606 v607)
      (fun _ => S1 m K c 43) := by
  rw [k0_part20_eq_skeleton]; unfold k0_part20_skel
  simp only [Prog.lift, Prog.bind_op, Prog.bind_ret, Prog.pure_eq_ret]
  refine step_apply (step_ysend m K c ⟨41, by decide⟩ _ (Fin.ext (k0_dev44_eq c)) _ _ (sem_ysend ⟨41, by decide⟩ _ _) (sem_yrecv ⟨41, by decide⟩ _ _)) ?_
  refine step_apply (step_ysend m K c ⟨42, by decide⟩ _ (Fin.ext (k0_dev45_eq c)) _ _ (sem_ysend ⟨42, by decide⟩ _ _) (sem_yrecv ⟨42, by decide⟩ _ _)) ?_
  exact ret_apply c (BI.Entails.refl _)

set_option maxRecDepth 65536 in
theorem part_21 (m : (ℓ : Loc nD τ sig) → Buf (Elt F) ℓ) (K : Dev nD × Fin 323 → ℕ) (c : Dev nD) (v2 : BitVec 32) (v5 : BitVec 32) (v6 : BitVec 32) (v8 : BitVec 32) :
    S1 m K c 43 ⊢ wp frame (wpE (defs₀ (F := F)) 𝒱₀ (c : Thread nD τ) none) Set.univ
      (k0_part21 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 46) := by
  rw [k0_part21_eq_skeleton]; unfold k0_part21_skel
  simp only [Prog.lift, Prog.bind_op, Prog.bind_ret, Prog.pure_eq_ret]
  refine step_apply (step_ysend m K c ⟨43, by decide⟩ _ (Fin.ext (k0_dev46_eq c)) _ _ (sem_ysend ⟨43, by decide⟩ _ _) (sem_yrecv ⟨43, by decide⟩ _ _)) ?_
  refine step_apply (step_ysend m K c ⟨44, by decide⟩ _ (Fin.ext (k0_dev47_eq c)) _ _ (sem_ysend ⟨44, by decide⟩ _ _) (sem_yrecv ⟨44, by decide⟩ _ _)) ?_
  refine step_apply (step_ysend m K c ⟨45, by decide⟩ _ (Fin.ext (k0_dev48_eq c)) _ _ (sem_ysend ⟨45, by decide⟩ _ _) (sem_yrecv ⟨45, by decide⟩ _ _)) ?_
  exact ret_apply c (BI.Entails.refl _)

set_option maxRecDepth 65536 in
theorem part_22 (m : (ℓ : Loc nD τ sig) → Buf (Elt F) ℓ) (K : Dev nD × Fin 323 → ℕ) (c : Dev nD) (v2 : BitVec 32) (v5 : BitVec 32) (v6 : BitVec 32) (v8 : BitVec 32) (v673 : BitVec 32) (c1024_i32_440 : BitVec 32) :
    S1 m K c 46 ⊢ wp frame (wpE (defs₀ (F := F)) 𝒱₀ (c : Thread nD τ) none) Set.univ
      (k0_part22 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v673 c1024_i32_440)
      (fun _ => S1 m K c 48) := by
  rw [k0_part22_eq_skeleton]; unfold k0_part22_skel
  simp only [Prog.lift, Prog.bind_op, Prog.bind_ret, Prog.pure_eq_ret]
  refine step_apply (step_ysend m K c ⟨46, by decide⟩ _ (Fin.ext (k0_dev49_eq c)) _ _ (sem_ysend ⟨46, by decide⟩ _ _) (sem_yrecv ⟨46, by decide⟩ _ _)) ?_
  refine step_apply (step_ysend m K c ⟨47, by decide⟩ _ (Fin.ext (k0_dev50_eq c)) _ _ (sem_ysend ⟨47, by decide⟩ _ _) (sem_yrecv ⟨47, by decide⟩ _ _)) ?_
  exact ret_apply c (BI.Entails.refl _)

set_option maxRecDepth 65536 in
theorem part_23 (m : (ℓ : Loc nD τ sig) → Buf (Elt F) ℓ) (K : Dev nD × Fin 323 → ℕ) (c : Dev nD) (v2 : BitVec 32) (v5 : BitVec 32) (v6 : BitVec 32) (v8 : BitVec 32) (v704 : BitVec 32) :
    S1 m K c 48 ⊢ wp frame (wpE (defs₀ (F := F)) 𝒱₀ (c : Thread nD τ) none) Set.univ
      (k0_part23 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v704)
      (fun _ => S1 m K c 50) := by
  rw [k0_part23_eq_skeleton]; unfold k0_part23_skel
  simp only [Prog.lift, Prog.bind_op, Prog.bind_ret, Prog.pure_eq_ret]
  refine step_apply (step_ysend m K c ⟨48, by decide⟩ _ (Fin.ext (k0_dev51_eq c)) _ _ (sem_ysend ⟨48, by decide⟩ _ _) (sem_yrecv ⟨48, by decide⟩ _ _)) ?_
  refine step_apply (step_ysend m K c ⟨49, by decide⟩ _ (Fin.ext (k0_dev52_eq c)) _ _ (sem_ysend ⟨49, by decide⟩ _ _) (sem_yrecv ⟨49, by decide⟩ _ _)) ?_
  exact ret_apply c (BI.Entails.refl _)

set_option maxRecDepth 65536 in
theorem part_24 (m : (ℓ : Loc nD τ sig) → Buf (Elt F) ℓ) (K : Dev nD × Fin 323 → ℕ) (c : Dev nD) (v2 : BitVec 32) (v5 : BitVec 32) (v6 : BitVec 32) (v8 : BitVec 32) :
    S1 m K c 50 ⊢ wp frame (wpE (defs₀ (F := F)) 𝒱₀ (c : Thread nD τ) none) Set.univ
      (k0_part24 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 53) := by
  rw [k0_part24_eq_skeleton]; unfold k0_part24_skel
  simp only [Prog.lift, Prog.bind_op, Prog.bind_ret, Prog.pure_eq_ret]
  refine step_apply (step_ysend m K c ⟨50, by decide⟩ _ (Fin.ext (k0_dev53_eq c)) _ _ (sem_ysend ⟨50, by decide⟩ _ _) (sem_yrecv ⟨50, by decide⟩ _ _)) ?_
  refine step_apply (step_ysend m K c ⟨51, by decide⟩ _ (Fin.ext (k0_dev54_eq c)) _ _ (sem_ysend ⟨51, by decide⟩ _ _) (sem_yrecv ⟨51, by decide⟩ _ _)) ?_
  refine step_apply (step_ysend m K c ⟨52, by decide⟩ _ (Fin.ext (k0_dev55_eq c)) _ _ (sem_ysend ⟨52, by decide⟩ _ _) (sem_yrecv ⟨52, by decide⟩ _ _)) ?_
  exact ret_apply c (BI.Entails.refl _)

set_option maxRecDepth 65536 in
theorem part_25 (m : (ℓ : Loc nD τ sig) → Buf (Elt F) ℓ) (K : Dev nD × Fin 323 → ℕ) (c : Dev nD) (v2 : BitVec 32) (v5 : BitVec 32) (v6 : BitVec 32) (v8 : BitVec 32) (c1_i32_502 : BitVec 32) :
    S1 m K c 53 ⊢ wp frame (wpE (defs₀ (F := F)) 𝒱₀ (c : Thread nD τ) none) Set.univ
      (k0_part25 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1_i32_502)
      (fun _ => S1 m K c 55) := by
  rw [k0_part25_eq_skeleton]; unfold k0_part25_skel
  simp only [Prog.lift, Prog.bind_op, Prog.bind_ret, Prog.pure_eq_ret]
  refine step_apply (step_ysend m K c ⟨53, by decide⟩ _ (Fin.ext (k0_dev56_eq c)) _ _ (sem_ysend ⟨53, by decide⟩ _ _) (sem_yrecv ⟨53, by decide⟩ _ _)) ?_
  refine step_apply (step_ysend m K c ⟨54, by decide⟩ _ (Fin.ext (k0_dev57_eq c)) _ _ (sem_ysend ⟨54, by decide⟩ _ _) (sem_yrecv ⟨54, by decide⟩ _ _)) ?_
  exact ret_apply c (BI.Entails.refl _)

set_option maxRecDepth 65536 in
theorem part_26 (m : (ℓ : Loc nD τ sig) → Buf (Elt F) ℓ) (K : Dev nD × Fin 323 → ℕ) (c : Dev nD) (v2 : BitVec 32) (v5 : BitVec 32) (v6 : BitVec 32) (v8 : BitVec 32) (v801 : BitVec 32) :
    S1 m K c 55 ⊢ wp frame (wpE (defs₀ (F := F)) 𝒱₀ (c : Thread nD τ) none) Set.univ
      (k0_part26 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v801)
      (fun _ => S1 m K c 57) := by
  rw [k0_part26_eq_skeleton]; unfold k0_part26_skel
  simp only [Prog.lift, Prog.bind_op, Prog.bind_ret, Prog.pure_eq_ret]
  refine step_apply (step_ysend m K c ⟨55, by decide⟩ _ (Fin.ext (k0_dev58_eq c)) _ _ (sem_ysend ⟨55, by decide⟩ _ _) (sem_yrecv ⟨55, by decide⟩ _ _)) ?_
  refine step_apply (step_ysend m K c ⟨56, by decide⟩ _ (Fin.ext (k0_dev59_eq c)) _ _ (sem_ysend ⟨56, by decide⟩ _ _) (sem_yrecv ⟨56, by decide⟩ _ _)) ?_
  exact ret_apply c (BI.Entails.refl _)

set_option maxRecDepth 65536 in
theorem part_27 (m : (ℓ : Loc nD τ sig) → Buf (Elt F) ℓ) (K : Dev nD × Fin 323 → ℕ) (c : Dev nD) (v2 : BitVec 32) (v5 : BitVec 32) (v6 : BitVec 32) (v8 : BitVec 32) :
    S1 m K c 57 ⊢ wp frame (wpE (defs₀ (F := F)) 𝒱₀ (c : Thread nD τ) none) Set.univ
      (k0_part27 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S1 m K c 60) := by
  rw [k0_part27_eq_skeleton]; unfold k0_part27_skel
  simp only [Prog.lift, Prog.bind_op, Prog.bind_ret, Prog.pure_eq_ret]
  refine step_apply (step_ysend m K c ⟨57, by decide⟩ _ (Fin.ext (k0_dev60_eq c)) _ _ (sem_ysend ⟨57, by decide⟩ _ _) (sem_yrecv ⟨57, by decide⟩ _ _)) ?_
  refine step_apply (step_ysend m K c ⟨58, by decide⟩ _ (Fin.ext (k0_dev61_eq c)) _ _ (sem_ysend ⟨58, by decide⟩ _ _) (sem_yrecv ⟨58, by decide⟩ _ _)) ?_
  refine step_apply (step_ysend m K c ⟨59, by decide⟩ _ (Fin.ext (k0_dev62_eq c)) _ _ (sem_ysend ⟨59, by decide⟩ _ _) (sem_yrecv ⟨59, by decide⟩ _ _)) ?_
  exact ret_apply c (BI.Entails.refl _)

set_option maxRecDepth 65536 in
theorem part_28 (m : (ℓ : Loc nD τ sig) → Buf (Elt F) ℓ) (K : Dev nD × Fin 323 → ℕ) (c : Dev nD) (v2 : BitVec 32) (v5 : BitVec 32) (v6 : BitVec 32) (v8 : BitVec 32) (c3840_i32 : BitVec 32) :
    S1 m K c 60 ⊢ wp frame (wpE (defs₀ (F := F)) 𝒱₀ (c : Thread nD τ) none) Set.univ
      (k0_part28 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c3840_i32)
      (fun _ => S1 m K c 62) := by
  rw [k0_part28_eq_skeleton]; unfold k0_part28_skel
  simp only [Prog.lift, Prog.bind_op, Prog.bind_ret, Prog.pure_eq_ret]
  refine step_apply (step_ysend m K c ⟨60, by decide⟩ _ (Fin.ext (k0_dev63_eq c)) _ _ (sem_ysend ⟨60, by decide⟩ _ _) (sem_yrecv ⟨60, by decide⟩ _ _)) ?_
  refine step_apply (step_ysend m K c ⟨61, by decide⟩ _ (Fin.ext (k0_dev64_eq c)) _ _ (sem_ysend ⟨61, by decide⟩ _ _) (sem_yrecv ⟨61, by decide⟩ _ _)) ?_
  exact ret_apply c (BI.Entails.refl _)

set_option maxRecDepth 65536 in
theorem part_29 (m : (ℓ : Loc nD τ sig) → Buf (Elt F) ℓ) (K : Dev nD × Fin 323 → ℕ) (c : Dev nD) (v2 : BitVec 32) (v5 : BitVec 32) (v6 : BitVec 32) (v8 : BitVec 32) :
    S1 m K c 62 ⊢ wp frame (wpE (defs₀ (F := F)) 𝒱₀ (c : Thread nD τ) none) Set.univ
      (k0_part29 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 0 1) := by
  rw [k0_part29_eq_skeleton]; unfold k0_part29_skel
  simp only [Prog.lift, Prog.bind_op, Prog.bind_ret, Prog.pure_eq_ret]
  refine step_apply (step_ysend m K c ⟨62, by decide⟩ _ (Fin.ext (k0_dev65_eq c)) _ _ (sem_ysend ⟨62, by decide⟩ _ _) (sem_yrecv ⟨62, by decide⟩ _ _)) ?_
  refine step_apply (step_ysend m K c ⟨63, by decide⟩ _ (Fin.ext (k0_dev66_eq c)) _ _ (sem_ysend ⟨63, by decide⟩ _ _) (sem_yrecv ⟨63, by decide⟩ _ _)) ?_
  refine (S1_S2 m K c).trans ?_
  refine step_apply (step_stage m K c ⟨0, by decide⟩ ⟨1, by decide⟩ rfl ⟨1, by decide⟩ (by decide) _ (sem_cpin ⟨1, by decide⟩ _ _)) ?_
  exact ret_apply c (BI.Entails.refl _)

set_option maxRecDepth 65536 in
theorem part_30 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 0 1 ⊢ wp frame (wpE (defs₀ (F := F)) 𝒱₀ (c : Thread nD τ) none) Set.univ
      (k0_part30 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 0 4) := by
  rw [k0_part30_eq_skeleton]; unfold k0_part30_skel
  simp only [Prog.lift, Prog.bind_op, Prog.bind_ret, Prog.pure_eq_ret]
  refine step_apply (step_yrecv_wait m K c ⟨0, by decide⟩ _ (sem_yrecv ⟨0, by decide⟩ _ _)) ?_
  refine step_apply (step_stage_wait m K c ⟨0, by decide⟩ ⟨0, by decide⟩ (by decide) _ (sem_cpin ⟨0, by decide⟩ _ _)) ?_
  refine step_apply (step_load_recv m K c ⟨0, by decide⟩) ?_
  refine step_apply (step_load_stage m K c ⟨0, by decide⟩ ⟨0, by decide⟩ (by decide)) ?_
  refine step_apply (step_load_recv m K c ⟨0, by decide⟩) ?_
  refine step_apply (step_store m K c ⟨0, by decide⟩ _ (pay_sVal m k0_pay1 (fun _ _ => rfl) c ⟨0, by decide⟩)) ?_
  exact ret_apply c (BI.Entails.refl _)

set_option maxRecDepth 65536 in
theorem part_31 (m : (ℓ : Loc nD τ sig) → Buf (Elt F) ℓ) (K : Dev nD × Fin 323 → ℕ) (c : Dev nD) (v2 : BitVec 32) (v5 : BitVec 32) (v6 : BitVec 32) (v8 : BitVec 32) :
    S2 m K c 0 4 ⊢ wp frame (wpE (defs₀ (F := F)) 𝒱₀ (c : Thread nD τ) none) Set.univ
      (k0_part31 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 1 2) := by
  rw [k0_part31_eq_skeleton]; unfold k0_part31_skel
  simp only [Prog.lift, Prog.bind_op, Prog.bind_ret, Prog.pure_eq_ret]
  refine step_apply (step_xsend m K c ⟨0, by decide⟩ _ (Fin.ext (k0_dev67_eq c)) _ _ (sem_xsend ⟨0, by decide⟩ _ _) (sem_xrecv ⟨0, by decide⟩ _ _)) ?_
  refine step_apply (step_outcopy m K c ⟨0, by decide⟩ _ (sem_cpout ⟨0, by decide⟩ _ _)) ?_
  refine (S2_next m K c ⟨0, by decide⟩).trans ?_
  refine step_apply (step_stage m K c ⟨1, by decide⟩ ⟨2, by decide⟩ rfl ⟨0, by decide⟩ (by decide) _ (sem_cpin ⟨0, by decide⟩ _ _)) ?_
  refine step_apply (step_yrecv_wait m K c ⟨1, by decide⟩ _ (sem_yrecv ⟨1, by decide⟩ _ _)) ?_
  exact ret_apply c (BI.Entails.refl _)

set_option maxRecDepth 65536 in
theorem part_32 (m : (ℓ : Loc nD τ sig) → Buf (Elt F) ℓ) (K : Dev nD × Fin 323 → ℕ) (c : Dev nD) (v5 : BitVec 32) (v7 : BitVec 32) (v8 : BitVec 32) :
    S2 m K c 1 2 ⊢ wp frame (wpE (defs₀ (F := F)) 𝒱₀ (c : Thread nD τ) none) Set.univ
      (k0_part32 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 2 0) := by
  rw [k0_part32_eq_skeleton]; unfold k0_part32_skel
  simp only [Prog.lift, Prog.bind_op, Prog.bind_ret, Prog.pure_eq_ret]
  refine step_apply (step_stage_wait m K c ⟨1, by decide⟩ ⟨1, by decide⟩ (by decide) _ (sem_cpin ⟨1, by decide⟩ _ _)) ?_
  refine step_apply (step_load_recv m K c ⟨1, by decide⟩) ?_
  refine step_apply (step_load_stage m K c ⟨1, by decide⟩ ⟨1, by decide⟩ (by decide)) ?_
  refine step_apply (step_load_recv m K c ⟨1, by decide⟩) ?_
  refine step_apply (step_store m K c ⟨1, by decide⟩ _ (pay_sVal m k0_pay2 (fun _ _ => rfl) c ⟨1, by decide⟩)) ?_
  refine step_apply (step_xsend m K c ⟨1, by decide⟩ _ (Fin.ext (k0_dev68_eq c)) _ _ (sem_xsend ⟨1, by decide⟩ _ _) (sem_xrecv ⟨1, by decide⟩ _ _)) ?_
  refine step_apply (step_outcopy m K c ⟨1, by decide⟩ _ (sem_cpout ⟨1, by decide⟩ _ _)) ?_
  refine (S2_next m K c ⟨1, by decide⟩).trans ?_
  exact ret_apply c (BI.Entails.refl _)

/-- info: 'Cert.Kernel.RS.part_32' depends on axioms: [propext, Classical.choice, Quot.sound] -/
#guard_msgs in #print axioms part_32

end Cert.Kernel.RS

end
-- ==== Proof.RsKernel.Body03.lean ====
/-
  The body of the reduce-scatter, part by part: the parts 33 to 48 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps2
import proofs.«900313_g7700000000000314_dist_rs_v7x_xy2x2_y_m8192_n1024_f32_1_alg».proof.Proof.RsKernel.Steps2n
import proofs.«900313_g7700000000000314_dist_rs_v7x_xy2x2_y_m8192_n1024_f32_1_alg».proof.Proof.RsKernel.Steps2v
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_33 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 2 0 ⊢ wp frame (wpE (defs₀ (F := F)) 𝒱₀ (c : Thread nD τ) none) Set.univ
      (k0_part33 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 2 4) := by
  rw [k0_part33_eq_skeleton]; unfold k0_part33_skel
  simp only [Prog.lift, Prog.bind_op, Prog.bind_ret, Prog.pure_eq_ret]
  refine step_apply (step_stage m K c ⟨2, by decide⟩ ⟨3, by decide⟩ rfl ⟨1, by decide⟩ (by decide) _ (sem_cpin ⟨1, by decide⟩ _ _)) ?_
  refine step_apply (step_yrecv_wait m K c ⟨2, by decide⟩ _ (sem_yrecv ⟨2, by decide⟩ _ _)) ?_
  refine step_apply (step_stage_wait m K c ⟨2, by decide⟩ ⟨0, by decide⟩ (by decide) _ (sem_cpin ⟨0, by decide⟩ _ _)) ?_
  refine step_apply (step_load_recv m K c ⟨2, by decide⟩) ?_
  refine step_apply (step_load_stage m K c ⟨2, by decide⟩ ⟨0, by decide⟩ (by decide)) ?_
  refine step_apply (step_load_recv m K c ⟨2, by decide⟩) ?_
  refine step_apply (step_store m K c ⟨2, by decide⟩ _ (pay_sVal m k0_pay3 (fun _ _ => rfl) c ⟨2, by decide⟩)) ?_
  exact ret_apply c (BI.Entails.refl _)

set_option maxRecDepth 65536 in
theorem part_34 (m : (ℓ : Loc nD τ sig) → Buf (Elt F) ℓ) (K : Dev nD × Fin 323 → ℕ) (c : Dev nD) (v2 : BitVec 32) (v5 : BitVec 32) (v6 : BitVec 32) (v8 : BitVec 32) (v1048 : BitVec 32) (v1049 : BitVec 32) :
    S2 m K c 2 4 ⊢ wp frame (wpE (defs₀ (F := F)) 𝒱₀ (c : Thread nD τ) none) Set.univ
      (k0_part34 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v1048 v1049)
      (fun _ => S2 m K c 3 2) := by
  rw [k0_part34_eq_skeleton]; unfold k0_part34_skel
  simp only [Prog.lift, Prog.bind_op, Prog.bind_ret, Prog.pure_eq_ret]
  refine step_apply (step_xsend m K c ⟨2, by decide⟩ _ (Fin.ext (k0_dev69_eq c)) _ _ (sem_xsend ⟨2, by decide⟩ _ _) (sem_xrecv ⟨2, by decide⟩ _ _)) ?_
  refine step_apply (step_outcopy m K c ⟨2, by decide⟩ _ (sem_cpout ⟨2, by decide⟩ _ _)) ?_
  refine (S2_next m K c ⟨2, by decide⟩).trans ?_
  refine step_apply (step_stage m K c ⟨3, by decide⟩ ⟨4, by decide⟩ rfl ⟨0, by decide⟩ (by decide) _ (sem_cpin ⟨0, by decide⟩ _ _)) ?_
  refine step_apply (step_yrecv_wait m K c ⟨3, by decide⟩ _ (sem_yrecv ⟨3, by decide⟩ _ _)) ?_
  exact ret_apply c (BI.Entails.refl _)

set_option maxRecDepth 65536 in
theorem part_35 (m : (ℓ : Loc nD τ sig) → Buf (Elt F) ℓ) (K : Dev nD × Fin 323 → ℕ) (c : Dev nD) (v5 : BitVec 32) (v7 : BitVec 32) (v8 : BitVec 32) :
    S2 m K c 3 2 ⊢ wp frame (wpE (defs₀ (F := F)) 𝒱₀ (c : Thread nD τ) none) Set.univ
      (k0_part35 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 4 0) := by
  rw [k0_part35_eq_skeleton]; unfold k0_part35_skel
  simp only [Prog.lift, Prog.bind_op, Prog.bind_ret, Prog.pure_eq_ret]
  refine step_apply (step_stage_wait m K c ⟨3, by decide⟩ ⟨1, by decide⟩ (by decide) _ (sem_cpin ⟨1, by decide⟩ _ _)) ?_
  refine step_apply (step_load_recv m K c ⟨3, by decide⟩) ?_
  refine step_apply (step_load_stage m K c ⟨3, by decide⟩ ⟨1, by decide⟩ (by decide)) ?_
  refine step_apply (step_load_recv m K c ⟨3, by decide⟩) ?_
  refine step_apply (step_store m K c ⟨3, by decide⟩ _ (pay_sVal m k0_pay4 (fun _ _ => rfl) c ⟨3, by decide⟩)) ?_
  refine step_apply (step_xsend m K c ⟨3, by decide⟩ _ (Fin.ext (k0_dev70_eq c)) _ _ (sem_xsend ⟨3, by decide⟩ _ _) (sem_xrecv ⟨3, by decide⟩ _ _)) ?_
  refine step_apply (step_outcopy m K c ⟨3, by decide⟩ _ (sem_cpout ⟨3, by decide⟩ _ _)) ?_
  refine (S2_next m K c ⟨3, by decide⟩).trans ?_
  exact ret_apply c (BI.Entails.refl _)

set_option maxRecDepth 65536 in
theorem part_36 (m : (ℓ : Loc nD τ sig) → Buf (Elt F) ℓ) (K : Dev nD × Fin 323 → ℕ) (c : Dev nD) (v2 : BitVec 32) (v6 : BitVec 32) (v8 : BitVec 32) :
    S2 m K c 4 0 ⊢ wp frame (wpE (defs₀ (F := F)) 𝒱₀ (c : Thread nD τ) none) Set.univ
      (k0_part36 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8)
      (fun _ => S2 m K c 4 4) := by
  rw [k0_part36_eq_skeleton]; unfold k0_part36_skel
  simp only [Prog.lift, Prog.bind_op, Prog.bind_ret, Prog.pure_eq_ret]
  refine step_apply (step_stage m K c ⟨4, by decide⟩ ⟨5, by decide⟩ rfl ⟨1, by decide⟩ (by decide) _ (sem_cpin ⟨1, by decide⟩ _ _)) ?_
  refine step_apply (step_yrecv_wait m K c ⟨4, by decide⟩ _ (sem_yrecv ⟨4, by decide⟩ _ _)) ?_
  refine step_apply (step_stage_wait m K c ⟨4, by decide⟩ ⟨0, by decide⟩ (by decide) _ (sem_cpin ⟨0, by decide⟩ _ _)) ?_
  refine step_apply (step_load_recv m K c ⟨4, by decide⟩) ?_
  refine step_apply (step_load_stage m K c ⟨4, by decide⟩ ⟨0, by decide⟩ (by decide)) ?_
  refine step_apply (step_load_recv m K c ⟨4, by decide⟩) ?_
  refine step_apply (step_store m K c ⟨4, by decide⟩ _ (pay_sVal m k0_pay5 (fun _ _ => rfl) c ⟨4, by decide⟩)) ?_
  exact ret_apply c (BI.Entails.refl _)

set_option maxRecDepth 65536 in
theorem part_37 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 4 4 ⊢ wp frame (wpE (defs₀ (F := F)) 𝒱₀ (c : Thread nD τ) none) Set.univ
      (k0_part37 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 5 1) := by
  rw [k0_part37_eq_skeleton]; unfold k0_part37_skel
  simp only [Prog.lift, Prog.bind_op, Prog.bind_ret, Prog.pure_eq_ret]
  refine step_apply (step_xsend m K c ⟨4, by decide⟩ _ (Fin.ext (k0_dev71_eq c)) _ _ (sem_xsend ⟨4, by decide⟩ _ _) (sem_xrecv ⟨4, by decide⟩ _ _)) ?_
  refine step_apply (step_outcopy m K c ⟨4, by decide⟩ _ (sem_cpout ⟨4, by decide⟩ _ _)) ?_
  refine (S2_next m K c ⟨4, by decide⟩).trans ?_
  refine step_apply (step_stage m K c ⟨5, by decide⟩ ⟨6, by decide⟩ rfl ⟨0, by decide⟩ (by decide) _ (sem_cpin ⟨0, by decide⟩ _ _)) ?_
  exact ret_apply c (BI.Entails.refl _)

set_option maxRecDepth 65536 in
theorem part_38 (m : (ℓ : Loc nD τ sig) → Buf (Elt F) ℓ) (K : Dev nD × Fin 323 → ℕ) (c : Dev nD) (v5 : BitVec 32) (v7 : BitVec 32) (v8 : BitVec 32) :
    S2 m K c 5 1 ⊢ wp frame (wpE (defs₀ (F := F)) 𝒱₀ (c : Thread nD τ) none) Set.univ
      (k0_part38 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 5 5) := by
  rw [k0_part38_eq_skeleton]; unfold k0_part38_skel
  simp only [Prog.lift, Prog.bind_op, Prog.bind_ret, Prog.pure_eq_ret]
  refine step_apply (step_yrecv_wait m K c ⟨5, by decide⟩ _ (sem_yrecv ⟨5, by decide⟩ _ _)) ?_
  refine step_apply (step_stage_wait m K c ⟨5, by decide⟩ ⟨1, by decide⟩ (by decide) _ (sem_cpin ⟨1, by decide⟩ _ _)) ?_
  refine step_apply (step_load_recv m K c ⟨5, by decide⟩) ?_
  refine step_apply (step_load_stage m K c ⟨5, by decide⟩ ⟨1, by decide⟩ (by decide)) ?_
  refine step_apply (step_load_recv m K c ⟨5, by decide⟩) ?_
  refine step_apply (step_store m K c ⟨5, by decide⟩ _ (pay_sVal m k0_pay6 (fun _ _ => rfl) c ⟨5, by decide⟩)) ?_
  refine step_apply (step_xsend m K c ⟨5, by decide⟩ _ (Fin.ext (k0_dev72_eq c)) _ _ (sem_xsend ⟨5, by decide⟩ _ _) (sem_xrecv ⟨5, by decide⟩ _ _)) ?_
  exact ret_apply c (BI.Entails.refl _)

set_option maxRecDepth 65536 in
theorem part_39 (m : (ℓ : Loc nD τ sig) → Buf (Elt F) ℓ) (K : Dev nD × Fin 323 → ℕ) (c : Dev nD) (v2 : BitVec 32) (v5 : BitVec 32) (v6 : BitVec 32) (v8 : BitVec 32) :
    S2 m K c 5 5 ⊢ wp frame (wpE (defs₀ (F := F)) 𝒱₀ (c : Thread nD τ) none) Set.univ
      (k0_part39 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay7 (yVal m c ⟨6, by decide⟩) (shapeCast S1x64x1024 (bVal m c ⟨6, by decide⟩) shapeCasts_S64x1024_S1x64x1024))⌝ ∗ S2 m K c 6 3)) := by
  rw [k0_part39_eq_skeleton]; unfold k0_part39_skel
  simp only [Prog.lift, Prog.bind_op, Prog.bind_ret, Prog.pure_eq_ret]
  refine step_apply (step_outcopy m K c ⟨5, by decide⟩ _ (sem_cpout ⟨5, by decide⟩ _ _)) ?_
  refine (S2_next m K c ⟨5, by decide⟩).trans ?_
  refine step_apply (step_stage m K c ⟨6, by decide⟩ ⟨7, by decide⟩ rfl ⟨1, by decide⟩ (by decide) _ (sem_cpin ⟨1, by decide⟩ _ _)) ?_
  refine step_apply (step_yrecv_wait m K c ⟨6, by decide⟩ _ (sem_yrecv ⟨6, by decide⟩ _ _)) ?_
  refine step_apply (step_stage_wait m K c ⟨6, by decide⟩ ⟨0, by decide⟩ (by decide) _ (sem_cpin ⟨0, by decide⟩ _ _)) ?_
  refine step_apply (step_load_recv m K c ⟨6, by decide⟩) ?_
  refine step_apply (step_load_stage m K c ⟨6, by decide⟩ ⟨0, by decide⟩ (by decide)) ?_
  refine step_apply (step_load_recv m K c ⟨6, by decide⟩) ?_
  exact ret_fact c rfl

set_option maxRecDepth 65536 in
theorem part_40 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 6 3 ⊢ wp frame (wpE (defs₀ (F := F)) 𝒱₀ (c : Thread nD τ) none) Set.univ
      (k0_part40 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 (k0_pay7 (yVal m c ⟨6, by decide⟩) (shapeCast S1x64x1024 (bVal m c ⟨6, by decide⟩) shapeCasts_S64x1024_S1x64x1024)))
      (fun _ => S2 m K c 7 1) := by
  rw [k0_part40_eq_skeleton]; unfold k0_part40_skel
  simp only [Prog.lift, Prog.bind_op, Prog.bind_ret, Prog.pure_eq_ret]
  refine step_apply (step_store m K c ⟨6, by decide⟩ _ (pay_sVal_cut m k0_pay8 k0_pay7 (fun _ => rfl) (fun _ _ => rfl) c ⟨6, by decide⟩)) ?_
  refine step_apply (step_xsend m K c ⟨6, by decide⟩ _ (Fin.ext (k0_dev73_eq c)) _ _ (sem_xsend ⟨6, by decide⟩ _ _) (sem_xrecv ⟨6, by decide⟩ _ _)) ?_
  refine step_apply (step_outcopy m K c ⟨6, by decide⟩ _ (sem_cpout ⟨6, by decide⟩ _ _)) ?_
  refine (S2_next m K c ⟨6, by decide⟩).trans ?_
  refine step_apply (step_stage m K c ⟨7, by decide⟩ ⟨8, by decide⟩ rfl ⟨0, by decide⟩ (by decide) _ (sem_cpin ⟨0, by decide⟩ _ _)) ?_
  exact ret_apply c (BI.Entails.refl _)

set_option maxRecDepth 65536 in
theorem part_41 (m : (ℓ : Loc nD τ sig) → Buf (Elt F) ℓ) (K : Dev nD × Fin 323 → ℕ) (c : Dev nD) (v5 : BitVec 32) (v7 : BitVec 32) (v8 : BitVec 32) :
    S2 m K c 7 1 ⊢ wp frame (wpE (defs₀ (F := F)) 𝒱₀ (c : Thread nD τ) none) Set.univ
      (k0_part41 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 7 5) := by
  rw [k0_part41_eq_skeleton]; unfold k0_part41_skel
  simp only [Prog.lift, Prog.bind_op, Prog.bind_ret, Prog.pure_eq_ret]
  refine step_apply (step_yrecv_wait m K c ⟨7, by decide⟩ _ (sem_yrecv ⟨7, by decide⟩ _ _)) ?_
  refine step_apply (step_stage_wait m K c ⟨7, by decide⟩ ⟨1, by decide⟩ (by decide) _ (sem_cpin ⟨1, by decide⟩ _ _)) ?_
  refine step_apply (step_load_recv m K c ⟨7, by decide⟩) ?_
  refine step_apply (step_load_stage m K c ⟨7, by decide⟩ ⟨1, by decide⟩ (by decide)) ?_
  refine step_apply (step_load_recv m K c ⟨7, by decide⟩) ?_
  refine step_apply (step_store m K c ⟨7, by decide⟩ _ (pay_sVal m k0_pay9 (fun _ _ => rfl) c ⟨7, by decide⟩)) ?_
  refine step_apply (step_xsend m K c ⟨7, by decide⟩ _ (Fin.ext (k0_dev74_eq c)) _ _ (sem_xsend ⟨7, by decide⟩ _ _) (sem_xrecv ⟨7, by decide⟩ _ _)) ?_
  exact ret_apply c (BI.Entails.refl _)

set_option maxRecDepth 65536 in
theorem part_42 (m : (ℓ : Loc nD τ sig) → Buf (Elt F) ℓ) (K : Dev nD × Fin 323 → ℕ) (c : Dev nD) (v2 : BitVec 32) (v5 : BitVec 32) (v6 : BitVec 32) (v8 : BitVec 32) :
    S2 m K c 7 5 ⊢ wp frame (wpE (defs₀ (F := F)) 𝒱₀ (c : Thread nD τ) none) Set.univ
      (k0_part42 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = ⟨(yVal m c ⟨8, by decide⟩), (shapeCast S1x64x1024 (bVal m c ⟨8, by decide⟩) shapeCasts_S64x1024_S1x64x1024)⟩⌝ ∗ S2 m K c 8 3)) := by
  rw [k0_part42_eq_skeleton]; unfold k0_part42_skel
  simp only [Prog.lift, Prog.bind_op, Prog.bind_ret, Prog.pure_eq_ret]
  refine step_apply (step_outcopy m K c ⟨7, by decide⟩ _ (sem_cpout ⟨7, by decide⟩ _ _)) ?_
  refine (S2_next m K c ⟨7, by decide⟩).trans ?_
  refine step_apply (step_stage m K c ⟨8, by decide⟩ ⟨9, by decide⟩ rfl ⟨1, by decide⟩ (by decide) _ (sem_cpin ⟨1, by decide⟩ _ _)) ?_
  refine step_apply (step_yrecv_wait m K c ⟨8, by decide⟩ _ (sem_yrecv ⟨8, by decide⟩ _ _)) ?_
  refine step_apply (step_stage_wait m K c ⟨8, by decide⟩ ⟨0, by decide⟩ (by decide) _ (sem_cpin ⟨0, by decide⟩ _ _)) ?_
  refine step_apply (step_load_recv m K c ⟨8, by decide⟩) ?_
  refine step_apply (step_load_stage m K c ⟨8, by decide⟩ ⟨0, by decide⟩ (by decide)) ?_
  exact ret_fact c rfl

set_option maxRecDepth 65536 in
theorem part_43 (m : (ℓ : Loc nD τ sig) → Buf (Elt F) ℓ) (K : Dev nD × Fin 323 → ℕ) (c : Dev nD) (v5 : BitVec 32) (v7 : BitVec 32) (v8 : BitVec 32) :
    S2 m K c 8 3 ⊢ wp frame (wpE (defs₀ (F := F)) 𝒱₀ (c : Thread nD τ) none) Set.univ
      (k0_part43 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨8, by decide⟩) (shapeCast S1x64x1024 (bVal m c ⟨8, by decide⟩) shapeCasts_S64x1024_S1x64x1024))
      (fun _ => S2 m K c 9 1) := by
  rw [k0_part43_eq_skeleton]; unfold k0_part43_skel
  simp only [Prog.lift, Prog.bind_op, Prog.bind_ret, Prog.pure_eq_ret]
  refine step_apply (step_load_recv m K c ⟨8, by decide⟩) ?_
  refine step_apply (step_store m K c ⟨8, by decide⟩ _ (pay_sVal m k0_pay10 (fun _ _ => rfl) c ⟨8, by decide⟩)) ?_
  refine step_apply (step_xsend m K c ⟨8, by decide⟩ _ (Fin.ext (k0_dev75_eq c)) _ _ (sem_xsend ⟨8, by decide⟩ _ _) (sem_xrecv ⟨8, by decide⟩ _ _)) ?_
  refine step_apply (step_outcopy m K c ⟨8, by decide⟩ _ (sem_cpout ⟨8, by decide⟩ _ _)) ?_
  refine (S2_next m K c ⟨8, by decide⟩).trans ?_
  refine step_apply (step_stage m K c ⟨9, by decide⟩ ⟨10, by decide⟩ rfl ⟨0, by decide⟩ (by decide) _ (sem_cpin ⟨0, by decide⟩ _ _)) ?_
  exact ret_apply c (BI.Entails.refl _)

set_option maxRecDepth 65536 in
theorem part_44 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2_i32_970 : BitVec 32) :
    S2 m K c 9 1 ⊢ wp frame (wpE (defs₀ (F := F)) 𝒱₀ (c : Thread nD τ) none) Set.univ
      (k0_part44 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2_i32_970)
      (fun _ => S2 m K c 9 4) := by
  rw [k0_part44_eq_skeleton]; unfold k0_part44_skel
  simp only [Prog.lift, Prog.bind_op, Prog.bind_ret, Prog.pure_eq_ret]
  refine step_apply (step_yrecv_wait m K c ⟨9, by decide⟩ _ (sem_yrecv ⟨9, by decide⟩ _ _)) ?_
  refine step_apply (step_stage_wait m K c ⟨9, by decide⟩ ⟨1, by decide⟩ (by decide) _ (sem_cpin ⟨1, by decide⟩ _ _)) ?_
  refine step_apply (step_load_recv m K c ⟨9, by decide⟩) ?_
  refine step_apply (step_load_stage m K c ⟨9, by decide⟩ ⟨1, by decide⟩ (by decide)) ?_
  refine step_apply (step_load_recv m K c ⟨9, by decide⟩) ?_
  refine step_apply (step_store m K c ⟨9, by decide⟩ _ (pay_sVal m k0_pay11 (fun _ _ => rfl) c ⟨9, by decide⟩)) ?_
  exact ret_apply c (BI.Entails.refl _)

set_option maxRecDepth 65536 in
theorem part_45 (m : (ℓ : Loc nD τ sig) → Buf (Elt F) ℓ) (K : Dev nD × Fin 323 → ℕ) (c : Dev nD) (v2 : BitVec 32) (v5 : BitVec 32) (v6 : BitVec 32) (v8 : BitVec 32) :
    S2 m K c 9 4 ⊢ wp frame (wpE (defs₀ (F := F)) 𝒱₀ (c : Thread nD τ) none) Set.univ
      (k0_part45 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 10 3) := by
  rw [k0_part45_eq_skeleton]; unfold k0_part45_skel
  simp only [Prog.lift, Prog.bind_op, Prog.bind_ret, Prog.pure_eq_ret]
  refine step_apply (step_xsend m K c ⟨9, by decide⟩ _ (Fin.ext (k0_dev76_eq c)) _ _ (sem_xsend ⟨9, by decide⟩ _ _) (sem_xrecv ⟨9, by decide⟩ _ _)) ?_
  refine step_apply (step_outcopy m K c ⟨9, by decide⟩ _ (sem_cpout ⟨9, by decide⟩ _ _)) ?_
  refine (S2_next m K c ⟨9, by decide⟩).trans ?_
  refine step_apply (step_stage m K c ⟨10, by decide⟩ ⟨11, by decide⟩ rfl ⟨1, by decide⟩ (by decide) _ (sem_cpin ⟨1, by decide⟩ _ _)) ?_
  refine step_apply (step_yrecv_wait m K c ⟨10, by decide⟩ _ (sem_yrecv ⟨10, by decide⟩ _ _)) ?_
  refine step_apply (step_stage_wait m K c ⟨10, by decide⟩ ⟨0, by decide⟩ (by decide) _ (sem_cpin ⟨0, by decide⟩ _ _)) ?_
  exact ret_apply c (BI.Entails.refl _)

set_option maxRecDepth 65536 in
theorem part_46 (m : (ℓ : Loc nD τ sig) → Buf (Elt F) ℓ) (K : Dev nD × Fin 323 → ℕ) (c : Dev nD) (v5 : BitVec 32) (v7 : BitVec 32) (v8 : BitVec 32) :
    S2 m K c 10 3 ⊢ wp frame (wpE (defs₀ (F := F)) 𝒱₀ (c : Thread nD τ) none) Set.univ
      (k0_part46 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 11 0) := by
  rw [k0_part46_eq_skeleton]; unfold k0_part46_skel
  simp only [Prog.lift, Prog.bind_op, Prog.bind_ret, Prog.pure_eq_ret]
  refine step_apply (step_load_recv m K c ⟨10, by decide⟩) ?_
  refine step_apply (step_load_stage m K c ⟨10, by decide⟩ ⟨0, by decide⟩ (by decide)) ?_
  refine step_apply (step_load_recv m K c ⟨10, by decide⟩) ?_
  refine step_apply (step_store m K c ⟨10, by decide⟩ _ (pay_sVal m k0_pay12 (fun _ _ => rfl) c ⟨10, by decide⟩)) ?_
  refine step_apply (step_xsend m K c ⟨10, by decide⟩ _ (Fin.ext (k0_dev77_eq c)) _ _ (sem_xsend ⟨10, by decide⟩ _ _) (sem_xrecv ⟨10, by decide⟩ _ _)) ?_
  refine step_apply (step_outcopy m K c ⟨10, by decide⟩ _ (sem_cpout ⟨10, by decide⟩ _ _)) ?_
  refine (S2_next m K c ⟨10, by decide⟩).trans ?_
  exact ret_apply c (BI.Entails.refl _)

set_option maxRecDepth 65536 in
theorem part_47 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 11 0 ⊢ wp frame (wpE (defs₀ (F := F)) 𝒱₀ (c : Thread nD τ) none) Set.univ
      (k0_part47 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 11 4) := by
  rw [k0_part47_eq_skeleton]; unfold k0_part47_skel
  simp only [Prog.lift, Prog.bind_op, Prog.bind_ret, Prog.pure_eq_ret]
  refine step_apply (step_stage m K c ⟨11, by decide⟩ ⟨12, by decide⟩ rfl ⟨0, by decide⟩ (by decide) _ (sem_cpin ⟨0, by decide⟩ _ _)) ?_
  refine step_apply (step_yrecv_wait m K c ⟨11, by decide⟩ _ (sem_yrecv ⟨11, by decide⟩ _ _)) ?_
  refine step_apply (step_stage_wait m K c ⟨11, by decide⟩ ⟨1, by decide⟩ (by decide) _ (sem_cpin ⟨1, by decide⟩ _ _)) ?_
  refine step_apply (step_load_recv m K c ⟨11, by decide⟩) ?_
  refine step_apply (step_load_stage m K c ⟨11, by decide⟩ ⟨1, by decide⟩ (by decide)) ?_
  refine step_apply (step_load_recv m K c ⟨11, by decide⟩) ?_
  refine step_apply (step_store m K c ⟨11, by decide⟩ _ (pay_sVal m k0_pay13 (fun _ _ => rfl) c ⟨11, by decide⟩)) ?_
  exact ret_apply c (BI.Entails.refl _)

set_option maxRecDepth 65536 in
theorem part_48 (m : (ℓ : Loc nD τ sig) → Buf (Elt F) ℓ) (K : Dev nD × Fin 323 → ℕ) (c : Dev nD) (v2 : BitVec 32) (v5 : BitVec 32) (v6 : BitVec 32) (v8 : BitVec 32) :
    S2 m K c 11 4 ⊢ wp frame (wpE (defs₀ (F := F)) 𝒱₀ (c : Thread nD τ) none) Set.univ
      (k0_part48 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 12 2) := by
  rw [k0_part48_eq_skeleton]; unfold k0_part48_skel
  simp only [Prog.lift, Prog.bind_op, Prog.bind_ret, Prog.pure_eq_ret]
  refine step_apply (step_xsend m K c ⟨11, by decide⟩ _ (Fin.ext (k0_dev78_eq c)) _ _ (sem_xsend ⟨11, by decide⟩ _ _) (sem_xrecv ⟨11, by decide⟩ _ _)) ?_
  refine step_apply (step_outcopy m K c ⟨11, by decide⟩ _ (sem_cpout ⟨11, by decide⟩ _ _)) ?_
  refine (S2_next m K c ⟨11, by decide⟩).trans ?_
  refine step_apply (step_stage m K c ⟨12, by decide⟩ ⟨13, by decide⟩ rfl ⟨1, by decide⟩ (by decide) _ (sem_cpin ⟨1, by decide⟩ _ _)) ?_
  refine step_apply (step_yrecv_wait m K c ⟨12, by decide⟩ _ (sem_yrecv ⟨12, by decide⟩ _ _)) ?_
  exact ret_apply c (BI.Entails.refl _)

/-- info: 'Cert.Kernel.RS.part_48' depends on axioms: [propext, Classical.choice, Quot.sound] -/
#guard_msgs in #print axioms part_48

end Cert.Kernel.RS

end
-- ==== Proof.RsKernel.Body04.lean ====
/-
  The body of the reduce-scatter, part by part: the parts 49 to 64 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps2
import proofs.«900313_g7700000000000314_dist_rs_v7x_xy2x2_y_m8192_n1024_f32_1_alg».proof.Proof.RsKernel.Steps2n
import proofs.«900313_g7700000000000314_dist_rs_v7x_xy2x2_y_m8192_n1024_f32_1_alg».proof.Proof.RsKernel.Steps2v
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_49 (m : (ℓ : Loc nD τ sig) → Buf (Elt F) ℓ) (K : Dev nD × Fin 323 → ℕ) (c : Dev nD) (v5 : BitVec 32) (v7 : BitVec 32) (v8 : BitVec 32) :
    S2 m K c 12 2 ⊢ wp frame (wpE (defs₀ (F := F)) 𝒱₀ (c : Thread nD τ) none) Set.univ
      (k0_part49 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 13 0) := by
  rw [k0_part49_eq_skeleton]; unfold k0_part49_skel
  simp only [Prog.lift, Prog.bind_op, Prog.bind_ret, Prog.pure_eq_ret]
  refine step_apply (step_stage_wait m K c ⟨12, by decide⟩ ⟨0, by decide⟩ (by decide) _ (sem_cpin ⟨0, by decide⟩ _ _)) ?_
  refine step_apply (step_load_recv m K c ⟨12, by decide⟩) ?_
  refine step_apply (step_load_stage m K c ⟨12, by decide⟩ ⟨0, by decide⟩ (by decide)) ?_
  refine step_apply (step_load_recv m K c ⟨12, by decide⟩) ?_
  refine step_apply (step_store m K c ⟨12, by decide⟩ _ (pay_sVal m k0_pay14 (fun _ _ => rfl) c ⟨12, by decide⟩)) ?_
  refine step_apply (step_xsend m K c ⟨12, by decide⟩ _ (Fin.ext (k0_dev79_eq c)) _ _ (sem_xsend ⟨12, by decide⟩ _ _) (sem_xrecv ⟨12, by decide⟩ _ _)) ?_
  refine step_apply (step_outcopy m K c ⟨12, by decide⟩ _ (sem_cpout ⟨12, by decide⟩ _ _)) ?_
  refine (S2_next m K c ⟨12, by decide⟩).trans ?_
  exact ret_apply c (BI.Entails.refl _)

set_option maxRecDepth 65536 in
theorem part_50 (m : (ℓ : Loc nD τ sig) → Buf (Elt F) ℓ) (K : Dev nD × Fin 323 → ℕ) (c : Dev nD) (v2 : BitVec 32) (v6 : BitVec 32) (v7 : BitVec 32) (v8 : BitVec 32) :
    S2 m K c 13 0 ⊢ wp frame (wpE (defs₀ (F := F)) 𝒱₀ (c : Thread nD τ) none) Set.univ
      (k0_part50 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v7 v8)
      (fun _ => S2 m K c 13 4) := by
  rw [k0_part50_eq_skeleton]; unfold k0_part50_skel
  simp only [Prog.lift, Prog.bind_op, Prog.bind_ret, Prog.pure_eq_ret]
  refine step_apply (step_stage m K c ⟨13, by decide⟩ ⟨14, by decide⟩ rfl ⟨0, by decide⟩ (by decide) _ (sem_cpin ⟨0, by decide⟩ _ _)) ?_
  refine step_apply (step_yrecv_wait m K c ⟨13, by decide⟩ _ (sem_yrecv ⟨13, by decide⟩ _ _)) ?_
  refine step_apply (step_stage_wait m K c ⟨13, by decide⟩ ⟨1, by decide⟩ (by decide) _ (sem_cpin ⟨1, by decide⟩ _ _)) ?_
  refine step_apply (step_load_recv m K c ⟨13, by decide⟩) ?_
  refine step_apply (step_load_stage m K c ⟨13, by decide⟩ ⟨1, by decide⟩ (by decide)) ?_
  refine step_apply (step_load_recv m K c ⟨13, by decide⟩) ?_
  refine step_apply (step_store m K c ⟨13, by decide⟩ _ (pay_sVal m k0_pay15 (fun _ _ => rfl) c ⟨13, by decide⟩)) ?_
  exact ret_apply c (BI.Entails.refl _)

set_option maxRecDepth 65536 in
theorem part_51 (m : (ℓ : Loc nD τ sig) → Buf (Elt F) ℓ) (K : Dev nD × Fin 323 → ℕ) (c : Dev nD) (v2 : BitVec 32) (v5 : BitVec 32) (v6 : BitVec 32) (v8 : BitVec 32) (v1553 : BitVec 32) (c0_i32_1150 : BitVec 32) :
    S2 m K c 13 4 ⊢ wp frame (wpE (defs₀ (F := F)) 𝒱₀ (c : Thread nD τ) none) Set.univ
      (k0_part51 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v1553 c0_i32_1150)
      (fun _ => S2 m K c 14 2) := by
  rw [k0_part51_eq_skeleton]; unfold k0_part51_skel
  simp only [Prog.lift, Prog.bind_op, Prog.bind_ret, Prog.pure_eq_ret]
  refine step_apply (step_xsend m K c ⟨13, by decide⟩ _ (Fin.ext (k0_dev80_eq c)) _ _ (sem_xsend ⟨13, by decide⟩ _ _) (sem_xrecv ⟨13, by decide⟩ _ _)) ?_
  refine step_apply (step_outcopy m K c ⟨13, by decide⟩ _ (sem_cpout ⟨13, by decide⟩ _ _)) ?_
  refine (S2_next m K c ⟨13, by decide⟩).trans ?_
  refine step_apply (step_stage m K c ⟨14, by decide⟩ ⟨15, by decide⟩ rfl ⟨1, by decide⟩ (by decide) _ (sem_cpin ⟨1, by decide⟩ _ _)) ?_
  refine step_apply (step_yrecv_wait m K c ⟨14, by decide⟩ _ (sem_yrecv ⟨14, by decide⟩ _ _)) ?_
  exact ret_apply c (BI.Entails.refl _)

set_option maxRecDepth 65536 in
theorem part_52 (m : (ℓ : Loc nD τ sig) → Buf (Elt F) ℓ) (K : Dev nD × Fin 323 → ℕ) (c : Dev nD) (v5 : BitVec 32) (v7 : BitVec 32) (v8 : BitVec 32) :
    S2 m K c 14 2 ⊢ wp frame (wpE (defs₀ (F := F)) 𝒱₀ (c : Thread nD τ) none) Set.univ
      (k0_part52 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 15 0) := by
  rw [k0_part52_eq_skeleton]; unfold k0_part52_skel
  simp only [Prog.lift, Prog.bind_op, Prog.bind_ret, Prog.pure_eq_ret]
  refine step_apply (step_stage_wait m K c ⟨14, by decide⟩ ⟨0, by decide⟩ (by decide) _ (sem_cpin ⟨0, by decide⟩ _ _)) ?_
  refine step_apply (step_load_recv m K c ⟨14, by decide⟩) ?_
  refine step_apply (step_load_stage m K c ⟨14, by decide⟩ ⟨0, by decide⟩ (by decide)) ?_
  refine step_apply (step_load_recv m K c ⟨14, by decide⟩) ?_
  refine step_apply (step_store m K c ⟨14, by decide⟩ _ (pay_sVal m k0_pay16 (fun _ _ => rfl) c ⟨14, by decide⟩)) ?_
  refine step_apply (step_xsend m K c ⟨14, by decide⟩ _ (Fin.ext (k0_dev81_eq c)) _ _ (sem_xsend ⟨14, by decide⟩ _ _) (sem_xrecv ⟨14, by decide⟩ _ _)) ?_
  refine step_apply (step_outcopy m K c ⟨14, by decide⟩ _ (sem_cpout ⟨14, by decide⟩ _ _)) ?_
  refine (S2_next m K c ⟨14, by decide⟩).trans ?_
  exact ret_apply c (BI.Entails.refl _)

set_option maxRecDepth 65536 in
theorem part_53 (m : (ℓ : Loc nD τ sig) → Buf (Elt F) ℓ) (K : Dev nD × Fin 323 → ℕ) (c : Dev nD) (v2 : BitVec 32) (v5 : BitVec 32) (v6 : BitVec 32) :
    S2 m K c 15 0 ⊢ wp frame (wpE (defs₀ (F := F)) 𝒱₀ (c : Thread nD τ) none) Set.univ
      (k0_part53 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6)
      (fun _ => S2 m K c 15 4) := by
  rw [k0_part53_eq_skeleton]; unfold k0_part53_skel
  simp only [Prog.lift, Prog.bind_op, Prog.bind_ret, Prog.pure_eq_ret]
  refine step_apply (step_stage m K c ⟨15, by decide⟩ ⟨16, by decide⟩ rfl ⟨0, by decide⟩ (by decide) _ (sem_cpin ⟨0, by decide⟩ _ _)) ?_
  refine step_apply (step_yrecv_wait m K c ⟨15, by decide⟩ _ (sem_yrecv ⟨15, by decide⟩ _ _)) ?_
  refine step_apply (step_stage_wait m K c ⟨15, by decide⟩ ⟨1, by decide⟩ (by decide) _ (sem_cpin ⟨1, by decide⟩ _ _)) ?_
  refine step_apply (step_load_recv m K c ⟨15, by decide⟩) ?_
  refine step_apply (step_load_stage m K c ⟨15, by decide⟩ ⟨1, by decide⟩ (by decide)) ?_
  refine step_apply (step_load_recv m K c ⟨15, by decide⟩) ?_
  refine step_apply (step_store m K c ⟨15, by decide⟩ _ (pay_sVal m k0_pay17 (fun _ _ => rfl) c ⟨15, by decide⟩)) ?_
  exact ret_apply c (BI.Entails.refl _)

set_option maxRecDepth 65536 in
theorem part_54 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c960_i32_1226 : BitVec 32) :
    S2 m K c 15 4 ⊢ wp frame (wpE (defs₀ (F := F)) 𝒱₀ (c : Thread nD τ) none) Set.univ
      (k0_part54 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c960_i32_1226)
      (fun _ => S2 m K c 16 1) := by
  rw [k0_part54_eq_skeleton]; unfold k0_part54_skel
  simp only [Prog.lift, Prog.bind_op, Prog.bind_ret, Prog.pure_eq_ret]
  refine step_apply (step_xsend m K c ⟨15, by decide⟩ _ (Fin.ext (k0_dev82_eq c)) _ _ (sem_xsend ⟨15, by decide⟩ _ _) (sem_xrecv ⟨15, by decide⟩ _ _)) ?_
  refine step_apply (step_outcopy m K c ⟨15, by decide⟩ _ (sem_cpout ⟨15, by decide⟩ _ _)) ?_
  refine (S2_next m K c ⟨15, by decide⟩).trans ?_
  refine step_apply (step_stage m K c ⟨16, by decide⟩ ⟨17, by decide⟩ rfl ⟨1, by decide⟩ (by decide) _ (sem_cpin ⟨1, by decide⟩ _ _)) ?_
  exact ret_apply c (BI.Entails.refl _)

set_option maxRecDepth 65536 in
theorem part_55 (m : (ℓ : Loc nD τ sig) → Buf (Elt F) ℓ) (K : Dev nD × Fin 323 → ℕ) (c : Dev nD) (v5 : BitVec 32) (v7 : BitVec 32) (v8 : BitVec 32) :
    S2 m K c 16 1 ⊢ wp frame (wpE (defs₀ (F := F)) 𝒱₀ (c : Thread nD τ) none) Set.univ
      (k0_part55 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 16 5) := by
  rw [k0_part55_eq_skeleton]; unfold k0_part55_skel
  simp only [Prog.lift, Prog.bind_op, Prog.bind_ret, Prog.pure_eq_ret]
  refine step_apply (step_yrecv_wait m K c ⟨16, by decide⟩ _ (sem_yrecv ⟨16, by decide⟩ _ _)) ?_
  refine step_apply (step_stage_wait m K c ⟨16, by decide⟩ ⟨0, by decide⟩ (by decide) _ (sem_cpin ⟨0, by decide⟩ _ _)) ?_
  refine step_apply (step_load_recv m K c ⟨16, by decide⟩) ?_
  refine step_apply (step_load_stage m K c ⟨16, by decide⟩ ⟨0, by decide⟩ (by decide)) ?_
  refine step_apply (step_load_recv m K c ⟨16, by decide⟩) ?_
  refine step_apply (step_store m K c ⟨16, by decide⟩ _ (pay_sVal m k0_pay18 (fun _ _ => rfl) c ⟨16, by decide⟩)) ?_
  refine step_apply (step_xsend m K c ⟨16, by decide⟩ _ (Fin.ext (k0_dev83_eq c)) _ _ (sem_xsend ⟨16, by decide⟩ _ _) (sem_xrecv ⟨16, by decide⟩ _ _)) ?_
  exact ret_apply c (BI.Entails.refl _)

set_option maxRecDepth 65536 in
theorem part_56 (m : (ℓ : Loc nD τ sig) → Buf (Elt F) ℓ) (K : Dev nD × Fin 323 → ℕ) (c : Dev nD) (v2 : BitVec 32) (v5 : BitVec 32) (v6 : BitVec 32) (v8 : BitVec 32) :
    S2 m K c 16 5 ⊢ wp frame (wpE (defs₀ (F := F)) 𝒱₀ (c : Thread nD τ) none) Set.univ
      (k0_part56 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay19 (yVal m c ⟨17, by decide⟩) (shapeCast S1x64x1024 (bVal m c ⟨17, by decide⟩) shapeCasts_S64x1024_S1x64x1024))⌝ ∗ S2 m K c 17 3)) := by
  rw [k0_part56_eq_skeleton]; unfold k0_part56_skel
  simp only [Prog.lift, Prog.bind_op, Prog.bind_ret, Prog.pure_eq_ret]
  refine step_apply (step_outcopy m K c ⟨16, by decide⟩ _ (sem_cpout ⟨16, by decide⟩ _ _)) ?_
  refine (S2_next m K c ⟨16, by decide⟩).trans ?_
  refine step_apply (step_stage m K c ⟨17, by decide⟩ ⟨18, by decide⟩ rfl ⟨0, by decide⟩ (by decide) _ (sem_cpin ⟨0, by decide⟩ _ _)) ?_
  refine step_apply (step_yrecv_wait m K c ⟨17, by decide⟩ _ (sem_yrecv ⟨17, by decide⟩ _ _)) ?_
  refine step_apply (step_stage_wait m K c ⟨17, by decide⟩ ⟨1, by decide⟩ (by decide) _ (sem_cpin ⟨1, by decide⟩ _ _)) ?_
  refine step_apply (step_load_recv m K c ⟨17, by decide⟩) ?_
  refine step_apply (step_load_stage m K c ⟨17, by decide⟩ ⟨1, by decide⟩ (by decide)) ?_
  exact ret_fact c rfl

set_option maxRecDepth 65536 in
theorem part_57 (m : (ℓ : Loc nD τ sig) → Buf (Elt F) ℓ) (K : Dev nD × Fin 323 → ℕ) (c : Dev nD) (v2 : BitVec 32) (v5 : BitVec 32) (v7 : BitVec 32) (v8 : BitVec 32) :
    S2 m K c 17 3 ⊢ wp frame (wpE (defs₀ (F := F)) 𝒱₀ (c : Thread nD τ) none) Set.univ
      (k0_part57 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v7 v8 (k0_pay19 (yVal m c ⟨17, by decide⟩) (shapeCast S1x64x1024 (bVal m c ⟨17, by decide⟩) shapeCasts_S64x1024_S1x64x1024)))
      (fun _ => S2 m K c 18 1) := by
  rw [k0_part57_eq_skeleton]; unfold k0_part57_skel
  simp only [Prog.lift, Prog.bind_op, Prog.bind_ret, Prog.pure_eq_ret]
  refine step_apply (step_load_recv m K c ⟨17, by decide⟩) ?_
  refine step_apply (step_store m K c ⟨17, by decide⟩ _ (pay_sVal_cut m k0_pay20 k0_pay19 (fun _ => rfl) (fun _ _ => rfl) c ⟨17, by decide⟩)) ?_
  refine step_apply (step_xsend m K c ⟨17, by decide⟩ _ (Fin.ext (k0_dev84_eq c)) _ _ (sem_xsend ⟨17, by decide⟩ _ _) (sem_xrecv ⟨17, by decide⟩ _ _)) ?_
  refine step_apply (step_outcopy m K c ⟨17, by decide⟩ _ (sem_cpout ⟨17, by decide⟩ _ _)) ?_
  refine (S2_next m K c ⟨17, by decide⟩).trans ?_
  refine step_apply (step_stage m K c ⟨18, by decide⟩ ⟨19, by decide⟩ rfl ⟨1, by decide⟩ (by decide) _ (sem_cpin ⟨1, by decide⟩ _ _)) ?_
  exact ret_apply c (BI.Entails.refl _)

set_option maxRecDepth 65536 in
theorem part_58 (m : (ℓ : Loc nD τ sig) → Buf (Elt F) ℓ) (K : Dev nD × Fin 323 → ℕ) (c : Dev nD) (v5 : BitVec 32) (v6 : BitVec 32) (v7 : BitVec 32) (v8 : BitVec 32) (v1761 : BitVec 32) :
    S2 m K c 18 1 ⊢ wp frame (wpE (defs₀ (F := F)) 𝒱₀ (c : Thread nD τ) none) Set.univ
      (k0_part58 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v7 v8 v1761)
      (fun _ => S2 m K c 18 5) := by
  rw [k0_part58_eq_skeleton]; unfold k0_part58_skel
  simp only [Prog.lift, Prog.bind_op, Prog.bind_ret, Prog.pure_eq_ret]
  refine step_apply (step_yrecv_wait m K c ⟨18, by decide⟩ _ (sem_yrecv ⟨18, by decide⟩ _ _)) ?_
  refine step_apply (step_stage_wait m K c ⟨18, by decide⟩ ⟨0, by decide⟩ (by decide) _ (sem_cpin ⟨0, by decide⟩ _ _)) ?_
  refine step_apply (step_load_recv m K c ⟨18, by decide⟩) ?_
  refine step_apply (step_load_stage m K c ⟨18, by decide⟩ ⟨0, by decide⟩ (by decide)) ?_
  refine step_apply (step_load_recv m K c ⟨18, by decide⟩) ?_
  refine step_apply (step_store m K c ⟨18, by decide⟩ _ (pay_sVal m k0_pay21 (fun _ _ => rfl) c ⟨18, by decide⟩)) ?_
  refine step_apply (step_xsend m K c ⟨18, by decide⟩ _ (Fin.ext (k0_dev85_eq c)) _ _ (sem_xsend ⟨18, by decide⟩ _ _) (sem_xrecv ⟨18, by decide⟩ _ _)) ?_
  exact ret_apply c (BI.Entails.refl _)

set_option maxRecDepth 65536 in
theorem part_59 (m : (ℓ : Loc nD τ sig) → Buf (Elt F) ℓ) (K : Dev nD × Fin 323 → ℕ) (c : Dev nD) (v2 : BitVec 32) (v5 : BitVec 32) (v6 : BitVec 32) (v8 : BitVec 32) (c1152_i32_1355 : BitVec 32) :
    S2 m K c 18 5 ⊢ wp frame (wpE (defs₀ (F := F)) 𝒱₀ (c : Thread nD τ) none) Set.univ
      (k0_part59 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c1152_i32_1355)
      (fun ret => iprop(⌜ret = (yVal m c ⟨19, by decide⟩)⌝ ∗ S2 m K c 19 3)) := by
  rw [k0_part59_eq_skeleton]; unfold k0_part59_skel
  simp only [Prog.lift, Prog.bind_op, Prog.bind_ret, Prog.pure_eq_ret]
  refine step_apply (step_outcopy m K c ⟨18, by decide⟩ _ (sem_cpout ⟨18, by decide⟩ _ _)) ?_
  refine (S2_next m K c ⟨18, by decide⟩).trans ?_
  refine step_apply (step_stage m K c ⟨19, by decide⟩ ⟨20, by decide⟩ rfl ⟨0, by decide⟩ (by decide) _ (sem_cpin ⟨0, by decide⟩ _ _)) ?_
  refine step_apply (step_yrecv_wait m K c ⟨19, by decide⟩ _ (sem_yrecv ⟨19, by decide⟩ _ _)) ?_
  refine step_apply (step_stage_wait m K c ⟨19, by decide⟩ ⟨1, by decide⟩ (by decide) _ (sem_cpin ⟨1, by decide⟩ _ _)) ?_
  refine step_apply (step_load_recv m K c ⟨19, by decide⟩) ?_
  exact ret_fact c rfl

set_option maxRecDepth 65536 in
theorem part_60 (m : (ℓ : Loc nD τ sig) → Buf (Elt F) ℓ) (K : Dev nD × Fin 323 → ℕ) (c : Dev nD) (v5 : BitVec 32) (v7 : BitVec 32) (v8 : BitVec 32) :
    S2 m K c 19 3 ⊢ wp frame (wpE (defs₀ (F := F)) 𝒱₀ (c : Thread nD τ) none) Set.univ
      (k0_part60 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨19, by decide⟩))
      (fun _ => S2 m K c 20 1) := by
  rw [k0_part60_eq_skeleton]; unfold k0_part60_skel
  simp only [Prog.lift, Prog.bind_op, Prog.bind_ret, Prog.pure_eq_ret]
  refine step_apply (step_load_stage m K c ⟨19, by decide⟩ ⟨1, by decide⟩ (by decide)) ?_
  refine step_apply (step_load_recv m K c ⟨19, by decide⟩) ?_
  refine step_apply (step_store m K c ⟨19, by decide⟩ _ (pay_sVal m k0_pay22 (fun _ _ => rfl) c ⟨19, by decide⟩)) ?_
  refine step_apply (step_xsend m K c ⟨19, by decide⟩ _ (Fin.ext (k0_dev86_eq c)) _ _ (sem_xsend ⟨19, by decide⟩ _ _) (sem_xrecv ⟨19, by decide⟩ _ _)) ?_
  refine step_apply (step_outcopy m K c ⟨19, by decide⟩ _ (sem_cpout ⟨19, by decide⟩ _ _)) ?_
  refine (S2_next m K c ⟨19, by decide⟩).trans ?_
  refine step_apply (step_stage m K c ⟨20, by decide⟩ ⟨21, by decide⟩ rfl ⟨1, by decide⟩ (by decide) _ (sem_cpin ⟨1, by decide⟩ _ _)) ?_
  exact ret_apply c (BI.Entails.refl _)

set_option maxRecDepth 65536 in
theorem part_61 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 20 1 ⊢ wp frame (wpE (defs₀ (F := F)) 𝒱₀ (c : Thread nD τ) none) Set.univ
      (k0_part61 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 20 4) := by
  rw [k0_part61_eq_skeleton]; unfold k0_part61_skel
  simp only [Prog.lift, Prog.bind_op, Prog.bind_ret, Prog.pure_eq_ret]
  refine step_apply (step_yrecv_wait m K c ⟨20, by decide⟩ _ (sem_yrecv ⟨20, by decide⟩ _ _)) ?_
  refine step_apply (step_stage_wait m K c ⟨20, by decide⟩ ⟨0, by decide⟩ (by decide) _ (sem_cpin ⟨0, by decide⟩ _ _)) ?_
  refine step_apply (step_load_recv m K c ⟨20, by decide⟩) ?_
  refine step_apply (step_load_stage m K c ⟨20, by decide⟩ ⟨0, by decide⟩ (by decide)) ?_
  refine step_apply (step_load_recv m K c ⟨20, by decide⟩) ?_
  refine step_apply (step_store m K c ⟨20, by decide⟩ _ (pay_sVal m k0_pay23 (fun _ _ => rfl) c ⟨20, by decide⟩)) ?_
  exact ret_apply c (BI.Entails.refl _)

set_option maxRecDepth 65536 in
theorem part_62 (m : (ℓ : Loc nD τ sig) → Buf (Elt F) ℓ) (K : Dev nD × Fin 323 → ℕ) (c : Dev nD) (v2 : BitVec 32) (v5 : BitVec 32) (v6 : BitVec 32) (v8 : BitVec 32) :
    S2 m K c 20 4 ⊢ wp frame (wpE (defs₀ (F := F)) 𝒱₀ (c : Thread nD τ) none) Set.univ
      (k0_part62 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 21 2) := by
  rw [k0_part62_eq_skeleton]; unfold k0_part62_skel
  simp only [Prog.lift, Prog.bind_op, Prog.bind_ret, Prog.pure_eq_ret]
  refine step_apply (step_xsend m K c ⟨20, by decide⟩ _ (Fin.ext (k0_dev87_eq c)) _ _ (sem_xsend ⟨20, by decide⟩ _ _) (sem_xrecv ⟨20, by decide⟩ _ _)) ?_
  refine step_apply (step_outcopy m K c ⟨20, by decide⟩ _ (sem_cpout ⟨20, by decide⟩ _ _)) ?_
  refine (S2_next m K c ⟨20, by decide⟩).trans ?_
  refine step_apply (step_stage m K c ⟨21, by decide⟩ ⟨22, by decide⟩ rfl ⟨0, by decide⟩ (by decide) _ (sem_cpin ⟨0, by decide⟩ _ _)) ?_
  refine step_apply (step_yrecv_wait m K c ⟨21, by decide⟩ _ (sem_yrecv ⟨21, by decide⟩ _ _)) ?_
  exact ret_apply c (BI.Entails.refl _)

set_option maxRecDepth 65536 in
theorem part_63 (m : (ℓ : Loc nD τ sig) → Buf (Elt F) ℓ) (K : Dev nD × Fin 323 → ℕ) (c : Dev nD) (v5 : BitVec 32) (v7 : BitVec 32) (v8 : BitVec 32) :
    S2 m K c 21 2 ⊢ wp frame (wpE (defs₀ (F := F)) 𝒱₀ (c : Thread nD τ) none) Set.univ
      (k0_part63 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 22 0) := by
  rw [k0_part63_eq_skeleton]; unfold k0_part63_skel
  simp only [Prog.lift, Prog.bind_op, Prog.bind_ret, Prog.pure_eq_ret]
  refine step_apply (step_stage_wait m K c ⟨21, by decide⟩ ⟨1, by decide⟩ (by decide) _ (sem_cpin ⟨1, by decide⟩ _ _)) ?_
  refine step_apply (step_load_recv m K c ⟨21, by decide⟩) ?_
  refine step_apply (step_load_stage m K c ⟨21, by decide⟩ ⟨1, by decide⟩ (by decide)) ?_
  refine step_apply (step_load_recv m K c ⟨21, by decide⟩) ?_
  refine step_apply (step_store m K c ⟨21, by decide⟩ _ (pay_sVal m k0_pay24 (fun _ _ => rfl) c ⟨21, by decide⟩)) ?_
  refine step_apply (step_xsend m K c ⟨21, by decide⟩ _ (Fin.ext (k0_dev88_eq c)) _ _ (sem_xsend ⟨21, by decide⟩ _ _) (sem_xrecv ⟨21, by decide⟩ _ _)) ?_
  refine step_apply (step_outcopy m K c ⟨21, by decide⟩ _ (sem_cpout ⟨21, by decide⟩ _ _)) ?_
  refine (S2_next m K c ⟨21, by decide⟩).trans ?_
  exact ret_apply c (BI.Entails.refl _)

set_option maxRecDepth 65536 in
theorem part_64 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 22 0 ⊢ wp frame (wpE (defs₀ (F := F)) 𝒱₀ (c : Thread nD τ) none) Set.univ
      (k0_part64 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 22 4) := by
  rw [k0_part64_eq_skeleton]; unfold k0_part64_skel
  simp only [Prog.lift, Prog.bind_op, Prog.bind_ret, Prog.pure_eq_ret]
  refine step_apply (step_stage m K c ⟨22, by decide⟩ ⟨23, by decide⟩ rfl ⟨1, by decide⟩ (by decide) _ (sem_cpin ⟨1, by decide⟩ _ _)) ?_
  refine step_apply (step_yrecv_wait m K c ⟨22, by decide⟩ _ (sem_yrecv ⟨22, by decide⟩ _ _)) ?_
  refine step_apply (step_stage_wait m K c ⟨22, by decide⟩ ⟨0, by decide⟩ (by decide) _ (sem_cpin ⟨0, by decide⟩ _ _)) ?_
  refine step_apply (step_load_recv m K c ⟨22, by decide⟩) ?_
  refine step_apply (step_load_stage m K c ⟨22, by decide⟩ ⟨0, by decide⟩ (by decide)) ?_
  refine step_apply (step_load_recv m K c ⟨22, by decide⟩) ?_
  refine step_apply (step_store m K c ⟨22, by decide⟩ _ (pay_sVal m k0_pay25 (fun _ _ => rfl) c ⟨22, by decide⟩)) ?_
  exact ret_apply c (BI.Entails.refl _)

/-- info: 'Cert.Kernel.RS.part_64' depends on axioms: [propext, Classical.choice, Quot.sound] -/
#guard_msgs in #print axioms part_64

end Cert.Kernel.RS

end
-- ==== Proof.RsKernel.Body05.lean ====
/-
  The body of the reduce-scatter, part by part: the parts 65 to 80 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps2
import proofs.«900313_g7700000000000314_dist_rs_v7x_xy2x2_y_m8192_n1024_f32_1_alg».proof.Proof.RsKernel.Steps2n
import proofs.«900313_g7700000000000314_dist_rs_v7x_xy2x2_y_m8192_n1024_f32_1_alg».proof.Proof.RsKernel.Steps2v
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_65 (m : (ℓ : Loc nD τ sig) → Buf (Elt F) ℓ) (K : Dev nD × Fin 323 → ℕ) (c : Dev nD) (v2 : BitVec 32) (v5 : BitVec 32) (v6 : BitVec 32) (v8 : BitVec 32) (v1968 : BitVec 32) (v1969 : BitVec 32) :
    S2 m K c 22 4 ⊢ wp frame (wpE (defs₀ (F := F)) 𝒱₀ (c : Thread nD τ) none) Set.univ
      (k0_part65 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v1968 v1969)
      (fun _ => S2 m K c 23 2) := by
  rw [k0_part65_eq_skeleton]; unfold k0_part65_skel
  simp only [Prog.lift, Prog.bind_op, Prog.bind_ret, Prog.pure_eq_ret]
  refine step_apply (step_xsend m K c ⟨22, by decide⟩ _ (Fin.ext (k0_dev89_eq c)) _ _ (sem_xsend ⟨22, by decide⟩ _ _) (sem_xrecv ⟨22, by decide⟩ _ _)) ?_
  refine step_apply (step_outcopy m K c ⟨22, by decide⟩ _ (sem_cpout ⟨22, by decide⟩ _ _)) ?_
  refine (S2_next m K c ⟨22, by decide⟩).trans ?_
  refine step_apply (step_stage m K c ⟨23, by decide⟩ ⟨24, by decide⟩ rfl ⟨0, by decide⟩ (by decide) _ (sem_cpin ⟨0, by decide⟩ _ _)) ?_
  refine step_apply (step_yrecv_wait m K c ⟨23, by decide⟩ _ (sem_yrecv ⟨23, by decide⟩ _ _)) ?_
  exact ret_apply c (BI.Entails.refl _)

set_option maxRecDepth 65536 in
theorem part_66 (m : (ℓ : Loc nD τ sig) → Buf (Elt F) ℓ) (K : Dev nD × Fin 323 → ℕ) (c : Dev nD) (v5 : BitVec 32) (v7 : BitVec 32) (v8 : BitVec 32) :
    S2 m K c 23 2 ⊢ wp frame (wpE (defs₀ (F := F)) 𝒱₀ (c : Thread nD τ) none) Set.univ
      (k0_part66 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 24 0) := by
  rw [k0_part66_eq_skeleton]; unfold k0_part66_skel
  simp only [Prog.lift, Prog.bind_op, Prog.bind_ret, Prog.pure_eq_ret]
  refine step_apply (step_stage_wait m K c ⟨23, by decide⟩ ⟨1, by decide⟩ (by decide) _ (sem_cpin ⟨1, by decide⟩ _ _)) ?_
  refine step_apply (step_load_recv m K c ⟨23, by decide⟩) ?_
  refine step_apply (step_load_stage m K c ⟨23, by decide⟩ ⟨1, by decide⟩ (by decide)) ?_
  refine step_apply (step_load_recv m K c ⟨23, by decide⟩) ?_
  refine step_apply (step_store m K c ⟨23, by decide⟩ _ (pay_sVal m k0_pay26 (fun _ _ => rfl) c ⟨23, by decide⟩)) ?_
  refine step_apply (step_xsend m K c ⟨23, by decide⟩ _ (Fin.ext (k0_dev90_eq c)) _ _ (sem_xsend ⟨23, by decide⟩ _ _) (sem_xrecv ⟨23, by decide⟩ _ _)) ?_
  refine step_apply (step_outcopy m K c ⟨23, by decide⟩ _ (sem_cpout ⟨23, by decide⟩ _ _)) ?_
  refine (S2_next m K c ⟨23, by decide⟩).trans ?_
  exact ret_apply c (BI.Entails.refl _)

set_option maxRecDepth 65536 in
theorem part_67 (m : (ℓ : Loc nD τ sig) → Buf (Elt F) ℓ) (K : Dev nD × Fin 323 → ℕ) (c : Dev nD) (v2 : BitVec 32) (v6 : BitVec 32) (v8 : BitVec 32) :
    S2 m K c 24 0 ⊢ wp frame (wpE (defs₀ (F := F)) 𝒱₀ (c : Thread nD τ) none) Set.univ
      (k0_part67 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8)
      (fun _ => S2 m K c 24 4) := by
  rw [k0_part67_eq_skeleton]; unfold k0_part67_skel
  simp only [Prog.lift, Prog.bind_op, Prog.bind_ret, Prog.pure_eq_ret]
  refine step_apply (step_stage m K c ⟨24, by decide⟩ ⟨25, by decide⟩ rfl ⟨1, by decide⟩ (by decide) _ (sem_cpin ⟨1, by decide⟩ _ _)) ?_
  refine step_apply (step_yrecv_wait m K c ⟨24, by decide⟩ _ (sem_yrecv ⟨24, by decide⟩ _ _)) ?_
  refine step_apply (step_stage_wait m K c ⟨24, by decide⟩ ⟨0, by decide⟩ (by decide) _ (sem_cpin ⟨0, by decide⟩ _ _)) ?_
  refine step_apply (step_load_recv m K c ⟨24, by decide⟩) ?_
  refine step_apply (step_load_stage m K c ⟨24, by decide⟩ ⟨0, by decide⟩ (by decide)) ?_
  refine step_apply (step_load_recv m K c ⟨24, by decide⟩) ?_
  refine step_apply (step_store m K c ⟨24, by decide⟩ _ (pay_sVal m k0_pay27 (fun _ _ => rfl) c ⟨24, by decide⟩)) ?_
  exact ret_apply c (BI.Entails.refl _)

set_option maxRecDepth 65536 in
theorem part_68 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 24 4 ⊢ wp frame (wpE (defs₀ (F := F)) 𝒱₀ (c : Thread nD τ) none) Set.univ
      (k0_part68 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 25 1) := by
  rw [k0_part68_eq_skeleton]; unfold k0_part68_skel
  simp only [Prog.lift, Prog.bind_op, Prog.bind_ret, Prog.pure_eq_ret]
  refine step_apply (step_xsend m K c ⟨24, by decide⟩ _ (Fin.ext (k0_dev91_eq c)) _ _ (sem_xsend ⟨24, by decide⟩ _ _) (sem_xrecv ⟨24, by decide⟩ _ _)) ?_
  refine step_apply (step_outcopy m K c ⟨24, by decide⟩ _ (sem_cpout ⟨24, by decide⟩ _ _)) ?_
  refine (S2_next m K c ⟨24, by decide⟩).trans ?_
  refine step_apply (step_stage m K c ⟨25, by decide⟩ ⟨26, by decide⟩ rfl ⟨0, by decide⟩ (by decide) _ (sem_cpin ⟨0, by decide⟩ _ _)) ?_
  exact ret_apply c (BI.Entails.refl _)

set_option maxRecDepth 65536 in
theorem part_69 (m : (ℓ : Loc nD τ sig) → Buf (Elt F) ℓ) (K : Dev nD × Fin 323 → ℕ) (c : Dev nD) (v5 : BitVec 32) (v7 : BitVec 32) (v8 : BitVec 32) :
    S2 m K c 25 1 ⊢ wp frame (wpE (defs₀ (F := F)) 𝒱₀ (c : Thread nD τ) none) Set.univ
      (k0_part69 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 25 5) := by
  rw [k0_part69_eq_skeleton]; unfold k0_part69_skel
  simp only [Prog.lift, Prog.bind_op, Prog.bind_ret, Prog.pure_eq_ret]
  refine step_apply (step_yrecv_wait m K c ⟨25, by decide⟩ _ (sem_yrecv ⟨25, by decide⟩ _ _)) ?_
  refine step_apply (step_stage_wait m K c ⟨25, by decide⟩ ⟨1, by decide⟩ (by decide) _ (sem_cpin ⟨1, by decide⟩ _ _)) ?_
  refine step_apply (step_load_recv m K c ⟨25, by decide⟩) ?_
  refine step_apply (step_load_stage m K c ⟨25, by decide⟩ ⟨1, by decide⟩ (by decide)) ?_
  refine step_apply (step_load_recv m K c ⟨25, by decide⟩) ?_
  refine step_apply (step_store m K c ⟨25, by decide⟩ _ (pay_sVal m k0_pay28 (fun _ _ => rfl) c ⟨25, by decide⟩)) ?_
  refine step_apply (step_xsend m K c ⟨25, by decide⟩ _ (Fin.ext (k0_dev92_eq c)) _ _ (sem_xsend ⟨25, by decide⟩ _ _) (sem_xrecv ⟨25, by decide⟩ _ _)) ?_
  exact ret_apply c (BI.Entails.refl _)

set_option maxRecDepth 65536 in
theorem part_70 (m : (ℓ : Loc nD τ sig) → Buf (Elt F) ℓ) (K : Dev nD × Fin 323 → ℕ) (c : Dev nD) (v2 : BitVec 32) (v5 : BitVec 32) (v6 : BitVec 32) (v8 : BitVec 32) :
    S2 m K c 25 5 ⊢ wp frame (wpE (defs₀ (F := F)) 𝒱₀ (c : Thread nD τ) none) Set.univ
      (k0_part70 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay29 (yVal m c ⟨26, by decide⟩) (shapeCast S1x64x1024 (bVal m c ⟨26, by decide⟩) shapeCasts_S64x1024_S1x64x1024))⌝ ∗ S2 m K c 26 3)) := by
  rw [k0_part70_eq_skeleton]; unfold k0_part70_skel
  simp only [Prog.lift, Prog.bind_op, Prog.bind_ret, Prog.pure_eq_ret]
  refine step_apply (step_outcopy m K c ⟨25, by decide⟩ _ (sem_cpout ⟨25, by decide⟩ _ _)) ?_
  refine (S2_next m K c ⟨25, by decide⟩).trans ?_
  refine step_apply (step_stage m K c ⟨26, by decide⟩ ⟨27, by decide⟩ rfl ⟨1, by decide⟩ (by decide) _ (sem_cpin ⟨1, by decide⟩ _ _)) ?_
  refine step_apply (step_yrecv_wait m K c ⟨26, by decide⟩ _ (sem_yrecv ⟨26, by decide⟩ _ _)) ?_
  refine step_apply (step_stage_wait m K c ⟨26, by decide⟩ ⟨0, by decide⟩ (by decide) _ (sem_cpin ⟨0, by decide⟩ _ _)) ?_
  refine step_apply (step_load_recv m K c ⟨26, by decide⟩) ?_
  refine step_apply (step_load_stage m K c ⟨26, by decide⟩ ⟨0, by decide⟩ (by decide)) ?_
  refine step_apply (step_load_recv m K c ⟨26, by decide⟩) ?_
  exact ret_fact c rfl

set_option maxRecDepth 65536 in
theorem part_71 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 26 3 ⊢ wp frame (wpE (defs₀ (F := F)) 𝒱₀ (c : Thread nD τ) none) Set.univ
      (k0_part71 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 (k0_pay29 (yVal m c ⟨26, by decide⟩) (shapeCast S1x64x1024 (bVal m c ⟨26, by decide⟩) shapeCasts_S64x1024_S1x64x1024)))
      (fun _ => S2 m K c 27 1) := by
  rw [k0_part71_eq_skeleton]; unfold k0_part71_skel
  simp only [Prog.lift, Prog.bind_op, Prog.bind_ret, Prog.pure_eq_ret]
  refine step_apply (step_store m K c ⟨26, by decide⟩ _ (pay_sVal_cut m k0_pay30 k0_pay29 (fun _ => rfl) (fun _ _ => rfl) c ⟨26, by decide⟩)) ?_
  refine step_apply (step_xsend m K c ⟨26, by decide⟩ _ (Fin.ext (k0_dev93_eq c)) _ _ (sem_xsend ⟨26, by decide⟩ _ _) (sem_xrecv ⟨26, by decide⟩ _ _)) ?_
  refine step_apply (step_outcopy m K c ⟨26, by decide⟩ _ (sem_cpout ⟨26, by decide⟩ _ _)) ?_
  refine (S2_next m K c ⟨26, by decide⟩).trans ?_
  refine step_apply (step_stage m K c ⟨27, by decide⟩ ⟨28, by decide⟩ rfl ⟨0, by decide⟩ (by decide) _ (sem_cpin ⟨0, by decide⟩ _ _)) ?_
  exact ret_apply c (BI.Entails.refl _)

set_option maxRecDepth 65536 in
theorem part_72 (m : (ℓ : Loc nD τ sig) → Buf (Elt F) ℓ) (K : Dev nD × Fin 323 → ℕ) (c : Dev nD) (v5 : BitVec 32) (v7 : BitVec 32) (v8 : BitVec 32) :
    S2 m K c 27 1 ⊢ wp frame (wpE (defs₀ (F := F)) 𝒱₀ (c : Thread nD τ) none) Set.univ
      (k0_part72 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 27 5) := by
  rw [k0_part72_eq_skeleton]; unfold k0_part72_skel
  simp only [Prog.lift, Prog.bind_op, Prog.bind_ret, Prog.pure_eq_ret]
  refine step_apply (step_yrecv_wait m K c ⟨27, by decide⟩ _ (sem_yrecv ⟨27, by decide⟩ _ _)) ?_
  refine step_apply (step_stage_wait m K c ⟨27, by decide⟩ ⟨1, by decide⟩ (by decide) _ (sem_cpin ⟨1, by decide⟩ _ _)) ?_
  refine step_apply (step_load_recv m K c ⟨27, by decide⟩) ?_
  refine step_apply (step_load_stage m K c ⟨27, by decide⟩ ⟨1, by decide⟩ (by decide)) ?_
  refine step_apply (step_load_recv m K c ⟨27, by decide⟩) ?_
  refine step_apply (step_store m K c ⟨27, by decide⟩ _ (pay_sVal m k0_pay31 (fun _ _ => rfl) c ⟨27, by decide⟩)) ?_
  refine step_apply (step_xsend m K c ⟨27, by decide⟩ _ (Fin.ext (k0_dev94_eq c)) _ _ (sem_xsend ⟨27, by decide⟩ _ _) (sem_xrecv ⟨27, by decide⟩ _ _)) ?_
  exact ret_apply c (BI.Entails.refl _)

set_option maxRecDepth 65536 in
theorem part_73 (m : (ℓ : Loc nD τ sig) → Buf (Elt F) ℓ) (K : Dev nD × Fin 323 → ℕ) (c : Dev nD) (v2 : BitVec 32) (v5 : BitVec 32) (v6 : BitVec 32) (v8 : BitVec 32) :
    S2 m K c 27 5 ⊢ wp frame (wpE (defs₀ (F := F)) 𝒱₀ (c : Thread nD τ) none) Set.univ
      (k0_part73 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = ⟨(yVal m c ⟨28, by decide⟩), (shapeCast S1x64x1024 (bVal m c ⟨28, by decide⟩) shapeCasts_S64x1024_S1x64x1024)⟩⌝ ∗ S2 m K c 28 3)) := by
  rw [k0_part73_eq_skeleton]; unfold k0_part73_skel
  simp only [Prog.lift, Prog.bind_op, Prog.bind_ret, Prog.pure_eq_ret]
  refine step_apply (step_outcopy m K c ⟨27, by decide⟩ _ (sem_cpout ⟨27, by decide⟩ _ _)) ?_
  refine (S2_next m K c ⟨27, by decide⟩).trans ?_
  refine step_apply (step_stage m K c ⟨28, by decide⟩ ⟨29, by decide⟩ rfl ⟨1, by decide⟩ (by decide) _ (sem_cpin ⟨1, by decide⟩ _ _)) ?_
  refine step_apply (step_yrecv_wait m K c ⟨28, by decide⟩ _ (sem_yrecv ⟨28, by decide⟩ _ _)) ?_
  refine step_apply (step_stage_wait m K c ⟨28, by decide⟩ ⟨0, by decide⟩ (by decide) _ (sem_cpin ⟨0, by decide⟩ _ _)) ?_
  refine step_apply (step_load_recv m K c ⟨28, by decide⟩) ?_
  refine step_apply (step_load_stage m K c ⟨28, by decide⟩ ⟨0, by decide⟩ (by decide)) ?_
  exact ret_fact c rfl

set_option maxRecDepth 65536 in
theorem part_74 (m : (ℓ : Loc nD τ sig) → Buf (Elt F) ℓ) (K : Dev nD × Fin 323 → ℕ) (c : Dev nD) (v5 : BitVec 32) (v7 : BitVec 32) (v8 : BitVec 32) :
    S2 m K c 28 3 ⊢ wp frame (wpE (defs₀ (F := F)) 𝒱₀ (c : Thread nD τ) none) Set.univ
      (k0_part74 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨28, by decide⟩) (shapeCast S1x64x1024 (bVal m c ⟨28, by decide⟩) shapeCasts_S64x1024_S1x64x1024))
      (fun _ => S2 m K c 29 1) := by
  rw [k0_part74_eq_skeleton]; unfold k0_part74_skel
  simp only [Prog.lift, Prog.bind_op, Prog.bind_ret, Prog.pure_eq_ret]
  refine step_apply (step_load_recv m K c ⟨28, by decide⟩) ?_
  refine step_apply (step_store m K c ⟨28, by decide⟩ _ (pay_sVal m k0_pay32 (fun _ _ => rfl) c ⟨28, by decide⟩)) ?_
  refine step_apply (step_xsend m K c ⟨28, by decide⟩ _ (Fin.ext (k0_dev95_eq c)) _ _ (sem_xsend ⟨28, by decide⟩ _ _) (sem_xrecv ⟨28, by decide⟩ _ _)) ?_
  refine step_apply (step_outcopy m K c ⟨28, by decide⟩ _ (sem_cpout ⟨28, by decide⟩ _ _)) ?_
  refine (S2_next m K c ⟨28, by decide⟩).trans ?_
  refine step_apply (step_stage m K c ⟨29, by decide⟩ ⟨30, by decide⟩ rfl ⟨0, by decide⟩ (by decide) _ (sem_cpin ⟨0, by decide⟩ _ _)) ?_
  exact ret_apply c (BI.Entails.refl _)

set_option maxRecDepth 65536 in
theorem part_75 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2_i32_1770 : BitVec 32) :
    S2 m K c 29 1 ⊢ wp frame (wpE (defs₀ (F := F)) 𝒱₀ (c : Thread nD τ) none) Set.univ
      (k0_part75 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2_i32_1770)
      (fun _ => S2 m K c 29 4) := by
  rw [k0_part75_eq_skeleton]; unfold k0_part75_skel
  simp only [Prog.lift, Prog.bind_op, Prog.bind_ret, Prog.pure_eq_ret]
  refine step_apply (step_yrecv_wait m K c ⟨29, by decide⟩ _ (sem_yrecv ⟨29, by decide⟩ _ _)) ?_
  refine step_apply (step_stage_wait m K c ⟨29, by decide⟩ ⟨1, by decide⟩ (by decide) _ (sem_cpin ⟨1, by decide⟩ _ _)) ?_
  refine step_apply (step_load_recv m K c ⟨29, by decide⟩) ?_
  refine step_apply (step_load_stage m K c ⟨29, by decide⟩ ⟨1, by decide⟩ (by decide)) ?_
  refine step_apply (step_load_recv m K c ⟨29, by decide⟩) ?_
  refine step_apply (step_store m K c ⟨29, by decide⟩ _ (pay_sVal m k0_pay33 (fun _ _ => rfl) c ⟨29, by decide⟩)) ?_
  exact ret_apply c (BI.Entails.refl _)

set_option maxRecDepth 65536 in
theorem part_76 (m : (ℓ : Loc nD τ sig) → Buf (Elt F) ℓ) (K : Dev nD × Fin 323 → ℕ) (c : Dev nD) (v2 : BitVec 32) (v5 : BitVec 32) (v6 : BitVec 32) (v8 : BitVec 32) :
    S2 m K c 29 4 ⊢ wp frame (wpE (defs₀ (F := F)) 𝒱₀ (c : Thread nD τ) none) Set.univ
      (k0_part76 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 30 3) := by
  rw [k0_part76_eq_skeleton]; unfold k0_part76_skel
  simp only [Prog.lift, Prog.bind_op, Prog.bind_ret, Prog.pure_eq_ret]
  refine step_apply (step_xsend m K c ⟨29, by decide⟩ _ (Fin.ext (k0_dev96_eq c)) _ _ (sem_xsend ⟨29, by decide⟩ _ _) (sem_xrecv ⟨29, by decide⟩ _ _)) ?_
  refine step_apply (step_outcopy m K c ⟨29, by decide⟩ _ (sem_cpout ⟨29, by decide⟩ _ _)) ?_
  refine (S2_next m K c ⟨29, by decide⟩).trans ?_
  refine step_apply (step_stage m K c ⟨30, by decide⟩ ⟨31, by decide⟩ rfl ⟨1, by decide⟩ (by decide) _ (sem_cpin ⟨1, by decide⟩ _ _)) ?_
  refine step_apply (step_yrecv_wait m K c ⟨30, by decide⟩ _ (sem_yrecv ⟨30, by decide⟩ _ _)) ?_
  refine step_apply (step_stage_wait m K c ⟨30, by decide⟩ ⟨0, by decide⟩ (by decide) _ (sem_cpin ⟨0, by decide⟩ _ _)) ?_
  exact ret_apply c (BI.Entails.refl _)

set_option maxRecDepth 65536 in
theorem part_77 (m : (ℓ : Loc nD τ sig) → Buf (Elt F) ℓ) (K : Dev nD × Fin 323 → ℕ) (c : Dev nD) (v5 : BitVec 32) (v7 : BitVec 32) (v8 : BitVec 32) :
    S2 m K c 30 3 ⊢ wp frame (wpE (defs₀ (F := F)) 𝒱₀ (c : Thread nD τ) none) Set.univ
      (k0_part77 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 31 0) := by
  rw [k0_part77_eq_skeleton]; unfold k0_part77_skel
  simp only [Prog.lift, Prog.bind_op, Prog.bind_ret, Prog.pure_eq_ret]
  refine step_apply (step_load_recv m K c ⟨30, by decide⟩) ?_
  refine step_apply (step_load_stage m K c ⟨30, by decide⟩ ⟨0, by decide⟩ (by decide)) ?_
  refine step_apply (step_load_recv m K c ⟨30, by decide⟩) ?_
  refine step_apply (step_store m K c ⟨30, by decide⟩ _ (pay_sVal m k0_pay34 (fun _ _ => rfl) c ⟨30, by decide⟩)) ?_
  refine step_apply (step_xsend m K c ⟨30, by decide⟩ _ (Fin.ext (k0_dev97_eq c)) _ _ (sem_xsend ⟨30, by decide⟩ _ _) (sem_xrecv ⟨30, by decide⟩ _ _)) ?_
  refine step_apply (step_outcopy m K c ⟨30, by decide⟩ _ (sem_cpout ⟨30, by decide⟩ _ _)) ?_
  refine (S2_next m K c ⟨30, by decide⟩).trans ?_
  exact ret_apply c (BI.Entails.refl _)

set_option maxRecDepth 65536 in
theorem part_78 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 31 0 ⊢ wp frame (wpE (defs₀ (F := F)) 𝒱₀ (c : Thread nD τ) none) Set.univ
      (k0_part78 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 31 4) := by
  rw [k0_part78_eq_skeleton]; unfold k0_part78_skel
  simp only [Prog.lift, Prog.bind_op, Prog.bind_ret, Prog.pure_eq_ret]
  refine step_apply (step_stage m K c ⟨31, by decide⟩ ⟨32, by decide⟩ rfl ⟨0, by decide⟩ (by decide) _ (sem_cpin ⟨0, by decide⟩ _ _)) ?_
  refine step_apply (step_yrecv_wait m K c ⟨31, by decide⟩ _ (sem_yrecv ⟨31, by decide⟩ _ _)) ?_
  refine step_apply (step_stage_wait m K c ⟨31, by decide⟩ ⟨1, by decide⟩ (by decide) _ (sem_cpin ⟨1, by decide⟩ _ _)) ?_
  refine step_apply (step_load_recv m K c ⟨31, by decide⟩) ?_
  refine step_apply (step_load_stage m K c ⟨31, by decide⟩ ⟨1, by decide⟩ (by decide)) ?_
  refine step_apply (step_load_recv m K c ⟨31, by decide⟩) ?_
  refine step_apply (step_store m K c ⟨31, by decide⟩ _ (pay_sVal m k0_pay35 (fun _ _ => rfl) c ⟨31, by decide⟩)) ?_
  exact ret_apply c (BI.Entails.refl _)

set_option maxRecDepth 65536 in
theorem part_79 (m : (ℓ : Loc nD τ sig) → Buf (Elt F) ℓ) (K : Dev nD × Fin 323 → ℕ) (c : Dev nD) (v2 : BitVec 32) (v5 : BitVec 32) (v6 : BitVec 32) (v8 : BitVec 32) :
    S2 m K c 31 4 ⊢ wp frame (wpE (defs₀ (F := F)) 𝒱₀ (c : Thread nD τ) none) Set.univ
      (k0_part79 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 32 2) := by
  rw [k0_part79_eq_skeleton]; unfold k0_part79_skel
  simp only [Prog.lift, Prog.bind_op, Prog.bind_ret, Prog.pure_eq_ret]
  refine step_apply (step_xsend m K c ⟨31, by decide⟩ _ (Fin.ext (k0_dev98_eq c)) _ _ (sem_xsend ⟨31, by decide⟩ _ _) (sem_xrecv ⟨31, by decide⟩ _ _)) ?_
  refine step_apply (step_outcopy m K c ⟨31, by decide⟩ _ (sem_cpout ⟨31, by decide⟩ _ _)) ?_
  refine (S2_next m K c ⟨31, by decide⟩).trans ?_
  refine step_apply (step_stage m K c ⟨32, by decide⟩ ⟨33, by decide⟩ rfl ⟨1, by decide⟩ (by decide) _ (sem_cpin ⟨1, by decide⟩ _ _)) ?_
  refine step_apply (step_yrecv_wait m K c ⟨32, by decide⟩ _ (sem_yrecv ⟨32, by decide⟩ _ _)) ?_
  exact ret_apply c (BI.Entails.refl _)

set_option maxRecDepth 65536 in
theorem part_80 (m : (ℓ : Loc nD τ sig) → Buf (Elt F) ℓ) (K : Dev nD × Fin 323 → ℕ) (c : Dev nD) (v5 : BitVec 32) (v7 : BitVec 32) (v8 : BitVec 32) :
    S2 m K c 32 2 ⊢ wp frame (wpE (defs₀ (F := F)) 𝒱₀ (c : Thread nD τ) none) Set.univ
      (k0_part80 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 33 0) := by
  rw [k0_part80_eq_skeleton]; unfold k0_part80_skel
  simp only [Prog.lift, Prog.bind_op, Prog.bind_ret, Prog.pure_eq_ret]
  refine step_apply (step_stage_wait m K c ⟨32, by decide⟩ ⟨0, by decide⟩ (by decide) _ (sem_cpin ⟨0, by decide⟩ _ _)) ?_
  refine step_apply (step_load_recv m K c ⟨32, by decide⟩) ?_
  refine step_apply (step_load_stage m K c ⟨32, by decide⟩ ⟨0, by decide⟩ (by decide)) ?_
  refine step_apply (step_load_recv m K c ⟨32, by decide⟩) ?_
  refine step_apply (step_store m K c ⟨32, by decide⟩ _ (pay_sVal m k0_pay36 (fun _ _ => rfl) c ⟨32, by decide⟩)) ?_
  refine step_apply (step_xsend m K c ⟨32, by decide⟩ _ (Fin.ext (k0_dev99_eq c)) _ _ (sem_xsend ⟨32, by decide⟩ _ _) (sem_xrecv ⟨32, by decide⟩ _ _)) ?_
  refine step_apply (step_outcopy m K c ⟨32, by decide⟩ _ (sem_cpout ⟨32, by decide⟩ _ _)) ?_
  refine (S2_next m K c ⟨32, by decide⟩).trans ?_
  exact ret_apply c (BI.Entails.refl _)

/-- info: 'Cert.Kernel.RS.part_80' depends on axioms: [propext, Classical.choice, Quot.sound] -/
#guard_msgs in #print axioms part_80

end Cert.Kernel.RS

end
-- ==== Proof.RsKernel.Body06.lean ====
/-
  The body of the reduce-scatter, part by part: the parts 81 to 96 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps2
import proofs.«900313_g7700000000000314_dist_rs_v7x_xy2x2_y_m8192_n1024_f32_1_alg».proof.Proof.RsKernel.Steps2n
import proofs.«900313_g7700000000000314_dist_rs_v7x_xy2x2_y_m8192_n1024_f32_1_alg».proof.Proof.RsKernel.Steps2v
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_81 (m : (ℓ : Loc nD τ sig) → Buf (Elt F) ℓ) (K : Dev nD × Fin 323 → ℕ) (c : Dev nD) (v2 : BitVec 32) (v6 : BitVec 32) (v7 : BitVec 32) (v8 : BitVec 32) :
    S2 m K c 33 0 ⊢ wp frame (wpE (defs₀ (F := F)) 𝒱₀ (c : Thread nD τ) none) Set.univ
      (k0_part81 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v7 v8)
      (fun _ => S2 m K c 33 4) := by
  rw [k0_part81_eq_skeleton]; unfold k0_part81_skel
  simp only [Prog.lift, Prog.bind_op, Prog.bind_ret, Prog.pure_eq_ret]
  refine step_apply (step_stage m K c ⟨33, by decide⟩ ⟨34, by decide⟩ rfl ⟨0, by decide⟩ (by decide) _ (sem_cpin ⟨0, by decide⟩ _ _)) ?_
  refine step_apply (step_yrecv_wait m K c ⟨33, by decide⟩ _ (sem_yrecv ⟨33, by decide⟩ _ _)) ?_
  refine step_apply (step_stage_wait m K c ⟨33, by decide⟩ ⟨1, by decide⟩ (by decide) _ (sem_cpin ⟨1, by decide⟩ _ _)) ?_
  refine step_apply (step_load_recv m K c ⟨33, by decide⟩) ?_
  refine step_apply (step_load_stage m K c ⟨33, by decide⟩ ⟨1, by decide⟩ (by decide)) ?_
  refine step_apply (step_load_recv m K c ⟨33, by decide⟩) ?_
  refine step_apply (step_store m K c ⟨33, by decide⟩ _ (pay_sVal m k0_pay37 (fun _ _ => rfl) c ⟨33, by decide⟩)) ?_
  exact ret_apply c (BI.Entails.refl _)

set_option maxRecDepth 65536 in
theorem part_82 (m : (ℓ : Loc nD τ sig) → Buf (Elt F) ℓ) (K : Dev nD × Fin 323 → ℕ) (c : Dev nD) (v2 : BitVec 32) (v5 : BitVec 32) (v6 : BitVec 32) (v8 : BitVec 32) (v2473 : BitVec 32) (c0_i32_1950 : BitVec 32) :
    S2 m K c 33 4 ⊢ wp frame (wpE (defs₀ (F := F)) 𝒱₀ (c : Thread nD τ) none) Set.univ
      (k0_part82 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v2473 c0_i32_1950)
      (fun _ => S2 m K c 34 2) := by
  rw [k0_part82_eq_skeleton]; unfold k0_part82_skel
  simp only [Prog.lift, Prog.bind_op, Prog.bind_ret, Prog.pure_eq_ret]
  refine step_apply (step_xsend m K c ⟨33, by decide⟩ _ (Fin.ext (k0_dev100_eq c)) _ _ (sem_xsend ⟨33, by decide⟩ _ _) (sem_xrecv ⟨33, by decide⟩ _ _)) ?_
  refine step_apply (step_outcopy m K c ⟨33, by decide⟩ _ (sem_cpout ⟨33, by decide⟩ _ _)) ?_
  refine (S2_next m K c ⟨33, by decide⟩).trans ?_
  refine step_apply (step_stage m K c ⟨34, by decide⟩ ⟨35, by decide⟩ rfl ⟨1, by decide⟩ (by decide) _ (sem_cpin ⟨1, by decide⟩ _ _)) ?_
  refine step_apply (step_yrecv_wait m K c ⟨34, by decide⟩ _ (sem_yrecv ⟨34, by decide⟩ _ _)) ?_
  exact ret_apply c (BI.Entails.refl _)

set_option maxRecDepth 65536 in
theorem part_83 (m : (ℓ : Loc nD τ sig) → Buf (Elt F) ℓ) (K : Dev nD × Fin 323 → ℕ) (c : Dev nD) (v5 : BitVec 32) (v7 : BitVec 32) (v8 : BitVec 32) :
    S2 m K c 34 2 ⊢ wp frame (wpE (defs₀ (F := F)) 𝒱₀ (c : Thread nD τ) none) Set.univ
      (k0_part83 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 35 0) := by
  rw [k0_part83_eq_skeleton]; unfold k0_part83_skel
  simp only [Prog.lift, Prog.bind_op, Prog.bind_ret, Prog.pure_eq_ret]
  refine step_apply (step_stage_wait m K c ⟨34, by decide⟩ ⟨0, by decide⟩ (by decide) _ (sem_cpin ⟨0, by decide⟩ _ _)) ?_
  refine step_apply (step_load_recv m K c ⟨34, by decide⟩) ?_
  refine step_apply (step_load_stage m K c ⟨34, by decide⟩ ⟨0, by decide⟩ (by decide)) ?_
  refine step_apply (step_load_recv m K c ⟨34, by decide⟩) ?_
  refine step_apply (step_store m K c ⟨34, by decide⟩ _ (pay_sVal m k0_pay38 (fun _ _ => rfl) c ⟨34, by decide⟩)) ?_
  refine step_apply (step_xsend m K c ⟨34, by decide⟩ _ (Fin.ext (k0_dev101_eq c)) _ _ (sem_xsend ⟨34, by decide⟩ _ _) (sem_xrecv ⟨34, by decide⟩ _ _)) ?_
  refine step_apply (step_outcopy m K c ⟨34, by decide⟩ _ (sem_cpout ⟨34, by decide⟩ _ _)) ?_
  refine (S2_next m K c ⟨34, by decide⟩).trans ?_
  exact ret_apply c (BI.Entails.refl _)

set_option maxRecDepth 65536 in
theorem part_84 (m : (ℓ : Loc nD τ sig) → Buf (Elt F) ℓ) (K : Dev nD × Fin 323 → ℕ) (c : Dev nD) (v2 : BitVec 32) (v5 : BitVec 32) (v6 : BitVec 32) :
    S2 m K c 35 0 ⊢ wp frame (wpE (defs₀ (F := F)) 𝒱₀ (c : Thread nD τ) none) Set.univ
      (k0_part84 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6)
      (fun _ => S2 m K c 35 4) := by
  rw [k0_part84_eq_skeleton]; unfold k0_part84_skel
  simp only [Prog.lift, Prog.bind_op, Prog.bind_ret, Prog.pure_eq_ret]
  refine step_apply (step_stage m K c ⟨35, by decide⟩ ⟨36, by decide⟩ rfl ⟨0, by decide⟩ (by decide) _ (sem_cpin ⟨0, by decide⟩ _ _)) ?_
  refine step_apply (step_yrecv_wait m K c ⟨35, by decide⟩ _ (sem_yrecv ⟨35, by decide⟩ _ _)) ?_
  refine step_apply (step_stage_wait m K c ⟨35, by decide⟩ ⟨1, by decide⟩ (by decide) _ (sem_cpin ⟨1, by decide⟩ _ _)) ?_
  refine step_apply (step_load_recv m K c ⟨35, by decide⟩) ?_
  refine step_apply (step_load_stage m K c ⟨35, by decide⟩ ⟨1, by decide⟩ (by decide)) ?_
  refine step_apply (step_load_recv m K c ⟨35, by decide⟩) ?_
  refine step_apply (step_store m K c ⟨35, by decide⟩ _ (pay_sVal m k0_pay39 (fun _ _ => rfl) c ⟨35, by decide⟩)) ?_
  exact ret_apply c (BI.Entails.refl _)

set_option maxRecDepth 65536 in
theorem part_85 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2240_i32_2026 : BitVec 32) :
    S2 m K c 35 4 ⊢ wp frame (wpE (defs₀ (F := F)) 𝒱₀ (c : Thread nD τ) none) Set.univ
      (k0_part85 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2240_i32_2026)
      (fun _ => S2 m K c 36 1) := by
  rw [k0_part85_eq_skeleton]; unfold k0_part85_skel
  simp only [Prog.lift, Prog.bind_op, Prog.bind_ret, Prog.pure_eq_ret]
  refine step_apply (step_xsend m K c ⟨35, by decide⟩ _ (Fin.ext (k0_dev102_eq c)) _ _ (sem_xsend ⟨35, by decide⟩ _ _) (sem_xrecv ⟨35, by decide⟩ _ _)) ?_
  refine step_apply (step_outcopy m K c ⟨35, by decide⟩ _ (sem_cpout ⟨35, by decide⟩ _ _)) ?_
  refine (S2_next m K c ⟨35, by decide⟩).trans ?_
  refine step_apply (step_stage m K c ⟨36, by decide⟩ ⟨37, by decide⟩ rfl ⟨1, by decide⟩ (by decide) _ (sem_cpin ⟨1, by decide⟩ _ _)) ?_
  exact ret_apply c (BI.Entails.refl _)

set_option maxRecDepth 65536 in
theorem part_86 (m : (ℓ : Loc nD τ sig) → Buf (Elt F) ℓ) (K : Dev nD × Fin 323 → ℕ) (c : Dev nD) (v5 : BitVec 32) (v7 : BitVec 32) (v8 : BitVec 32) :
    S2 m K c 36 1 ⊢ wp frame (wpE (defs₀ (F := F)) 𝒱₀ (c : Thread nD τ) none) Set.univ
      (k0_part86 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 36 5) := by
  rw [k0_part86_eq_skeleton]; unfold k0_part86_skel
  simp only [Prog.lift, Prog.bind_op, Prog.bind_ret, Prog.pure_eq_ret]
  refine step_apply (step_yrecv_wait m K c ⟨36, by decide⟩ _ (sem_yrecv ⟨36, by decide⟩ _ _)) ?_
  refine step_apply (step_stage_wait m K c ⟨36, by decide⟩ ⟨0, by decide⟩ (by decide) _ (sem_cpin ⟨0, by decide⟩ _ _)) ?_
  refine step_apply (step_load_recv m K c ⟨36, by decide⟩) ?_
  refine step_apply (step_load_stage m K c ⟨36, by decide⟩ ⟨0, by decide⟩ (by decide)) ?_
  refine step_apply (step_load_recv m K c ⟨36, by decide⟩) ?_
  refine step_apply (step_store m K c ⟨36, by decide⟩ _ (pay_sVal m k0_pay40 (fun _ _ => rfl) c ⟨36, by decide⟩)) ?_
  refine step_apply (step_xsend m K c ⟨36, by decide⟩ _ (Fin.ext (k0_dev103_eq c)) _ _ (sem_xsend ⟨36, by decide⟩ _ _) (sem_xrecv ⟨36, by decide⟩ _ _)) ?_
  exact ret_apply c (BI.Entails.refl _)

set_option maxRecDepth 65536 in
theorem part_87 (m : (ℓ : Loc nD τ sig) → Buf (Elt F) ℓ) (K : Dev nD × Fin 323 → ℕ) (c : Dev nD) (v2 : BitVec 32) (v5 : BitVec 32) (v6 : BitVec 32) (v8 : BitVec 32) :
    S2 m K c 36 5 ⊢ wp frame (wpE (defs₀ (F := F)) 𝒱₀ (c : Thread nD τ) none) Set.univ
      (k0_part87 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay41 (yVal m c ⟨37, by decide⟩) (shapeCast S1x64x1024 (bVal m c ⟨37, by decide⟩) shapeCasts_S64x1024_S1x64x1024))⌝ ∗ S2 m K c 37 3)) := by
  rw [k0_part87_eq_skeleton]; unfold k0_part87_skel
  simp only [Prog.lift, Prog.bind_op, Prog.bind_ret, Prog.pure_eq_ret]
  refine step_apply (step_outcopy m K c ⟨36, by decide⟩ _ (sem_cpout ⟨36, by decide⟩ _ _)) ?_
  refine (S2_next m K c ⟨36, by decide⟩).trans ?_
  refine step_apply (step_stage m K c ⟨37, by decide⟩ ⟨38, by decide⟩ rfl ⟨0, by decide⟩ (by decide) _ (sem_cpin ⟨0, by decide⟩ _ _)) ?_
  refine step_apply (step_yrecv_wait m K c ⟨37, by decide⟩ _ (sem_yrecv ⟨37, by decide⟩ _ _)) ?_
  refine step_apply (step_stage_wait m K c ⟨37, by decide⟩ ⟨1, by decide⟩ (by decide) _ (sem_cpin ⟨1, by decide⟩ _ _)) ?_
  refine step_apply (step_load_recv m K c ⟨37, by decide⟩) ?_
  refine step_apply (step_load_stage m K c ⟨37, by decide⟩ ⟨1, by decide⟩ (by decide)) ?_
  exact ret_fact c rfl

set_option maxRecDepth 65536 in
theorem part_88 (m : (ℓ : Loc nD τ sig) → Buf (Elt F) ℓ) (K : Dev nD × Fin 323 → ℕ) (c : Dev nD) (v2 : BitVec 32) (v5 : BitVec 32) (v7 : BitVec 32) (v8 : BitVec 32) :
    S2 m K c 37 3 ⊢ wp frame (wpE (defs₀ (F := F)) 𝒱₀ (c : Thread nD τ) none) Set.univ
      (k0_part88 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v7 v8 (k0_pay41 (yVal m c ⟨37, by decide⟩) (shapeCast S1x64x1024 (bVal m c ⟨37, by decide⟩) shapeCasts_S64x1024_S1x64x1024)))
      (fun _ => S2 m K c 38 1) := by
  rw [k0_part88_eq_skeleton]; unfold k0_part88_skel
  simp only [Prog.lift, Prog.bind_op, Prog.bind_ret, Prog.pure_eq_ret]
  refine step_apply (step_load_recv m K c ⟨37, by decide⟩) ?_
  refine step_apply (step_store m K c ⟨37, by decide⟩ _ (pay_sVal_cut m k0_pay42 k0_pay41 (fun _ => rfl) (fun _ _ => rfl) c ⟨37, by decide⟩)) ?_
  refine step_apply (step_xsend m K c ⟨37, by decide⟩ _ (Fin.ext (k0_dev104_eq c)) _ _ (sem_xsend ⟨37, by decide⟩ _ _) (sem_xrecv ⟨37, by decide⟩ _ _)) ?_
  refine step_apply (step_outcopy m K c ⟨37, by decide⟩ _ (sem_cpout ⟨37, by decide⟩ _ _)) ?_
  refine (S2_next m K c ⟨37, by decide⟩).trans ?_
  refine step_apply (step_stage m K c ⟨38, by decide⟩ ⟨39, by decide⟩ rfl ⟨1, by decide⟩ (by decide) _ (sem_cpin ⟨1, by decide⟩ _ _)) ?_
  exact ret_apply c (BI.Entails.refl _)

set_option maxRecDepth 65536 in
theorem part_89 (m : (ℓ : Loc nD τ sig) → Buf (Elt F) ℓ) (K : Dev nD × Fin 323 → ℕ) (c : Dev nD) (v5 : BitVec 32) (v6 : BitVec 32) (v7 : BitVec 32) (v8 : BitVec 32) (v2681 : BitVec 32) :
    S2 m K c 38 1 ⊢ wp frame (wpE (defs₀ (F := F)) 𝒱₀ (c : Thread nD τ) none) Set.univ
      (k0_part89 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v7 v8 v2681)
      (fun _ => S2 m K c 38 5) := by
  rw [k0_part89_eq_skeleton]; unfold k0_part89_skel
  simp only [Prog.lift, Prog.bind_op, Prog.bind_ret, Prog.pure_eq_ret]
  refine step_apply (step_yrecv_wait m K c ⟨38, by decide⟩ _ (sem_yrecv ⟨38, by decide⟩ _ _)) ?_
  refine step_apply (step_stage_wait m K c ⟨38, by decide⟩ ⟨0, by decide⟩ (by decide) _ (sem_cpin ⟨0, by decide⟩ _ _)) ?_
  refine step_apply (step_load_recv m K c ⟨38, by decide⟩) ?_
  refine step_apply (step_load_stage m K c ⟨38, by decide⟩ ⟨0, by decide⟩ (by decide)) ?_
  refine step_apply (step_load_recv m K c ⟨38, by decide⟩) ?_
  refine step_apply (step_store m K c ⟨38, by decide⟩ _ (pay_sVal m k0_pay43 (fun _ _ => rfl) c ⟨38, by decide⟩)) ?_
  refine step_apply (step_xsend m K c ⟨38, by decide⟩ _ (Fin.ext (k0_dev105_eq c)) _ _ (sem_xsend ⟨38, by decide⟩ _ _) (sem_xrecv ⟨38, by decide⟩ _ _)) ?_
  exact ret_apply c (BI.Entails.refl _)

set_option maxRecDepth 65536 in
theorem part_90 (m : (ℓ : Loc nD τ sig) → Buf (Elt F) ℓ) (K : Dev nD × Fin 323 → ℕ) (c : Dev nD) (v2 : BitVec 32) (v5 : BitVec 32) (v6 : BitVec 32) (v8 : BitVec 32) (c2432_i32_2155 : BitVec 32) :
    S2 m K c 38 5 ⊢ wp frame (wpE (defs₀ (F := F)) 𝒱₀ (c : Thread nD τ) none) Set.univ
      (k0_part90 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c2432_i32_2155)
      (fun ret => iprop(⌜ret = (yVal m c ⟨39, by decide⟩)⌝ ∗ S2 m K c 39 3)) := by
  rw [k0_part90_eq_skeleton]; unfold k0_part90_skel
  simp only [Prog.lift, Prog.bind_op, Prog.bind_ret, Prog.pure_eq_ret]
  refine step_apply (step_outcopy m K c ⟨38, by decide⟩ _ (sem_cpout ⟨38, by decide⟩ _ _)) ?_
  refine (S2_next m K c ⟨38, by decide⟩).trans ?_
  refine step_apply (step_stage m K c ⟨39, by decide⟩ ⟨40, by decide⟩ rfl ⟨0, by decide⟩ (by decide) _ (sem_cpin ⟨0, by decide⟩ _ _)) ?_
  refine step_apply (step_yrecv_wait m K c ⟨39, by decide⟩ _ (sem_yrecv ⟨39, by decide⟩ _ _)) ?_
  refine step_apply (step_stage_wait m K c ⟨39, by decide⟩ ⟨1, by decide⟩ (by decide) _ (sem_cpin ⟨1, by decide⟩ _ _)) ?_
  refine step_apply (step_load_recv m K c ⟨39, by decide⟩) ?_
  exact ret_fact c rfl

set_option maxRecDepth 65536 in
theorem part_91 (m : (ℓ : Loc nD τ sig) → Buf (Elt F) ℓ) (K : Dev nD × Fin 323 → ℕ) (c : Dev nD) (v5 : BitVec 32) (v7 : BitVec 32) (v8 : BitVec 32) :
    S2 m K c 39 3 ⊢ wp frame (wpE (defs₀ (F := F)) 𝒱₀ (c : Thread nD τ) none) Set.univ
      (k0_part91 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨39, by decide⟩))
      (fun _ => S2 m K c 40 1) := by
  rw [k0_part91_eq_skeleton]; unfold k0_part91_skel
  simp only [Prog.lift, Prog.bind_op, Prog.bind_ret, Prog.pure_eq_ret]
  refine step_apply (step_load_stage m K c ⟨39, by decide⟩ ⟨1, by decide⟩ (by decide)) ?_
  refine step_apply (step_load_recv m K c ⟨39, by decide⟩) ?_
  refine step_apply (step_store m K c ⟨39, by decide⟩ _ (pay_sVal m k0_pay44 (fun _ _ => rfl) c ⟨39, by decide⟩)) ?_
  refine step_apply (step_xsend m K c ⟨39, by decide⟩ _ (Fin.ext (k0_dev106_eq c)) _ _ (sem_xsend ⟨39, by decide⟩ _ _) (sem_xrecv ⟨39, by decide⟩ _ _)) ?_
  refine step_apply (step_outcopy m K c ⟨39, by decide⟩ _ (sem_cpout ⟨39, by decide⟩ _ _)) ?_
  refine (S2_next m K c ⟨39, by decide⟩).trans ?_
  refine step_apply (step_stage m K c ⟨40, by decide⟩ ⟨41, by decide⟩ rfl ⟨1, by decide⟩ (by decide) _ (sem_cpin ⟨1, by decide⟩ _ _)) ?_
  exact ret_apply c (BI.Entails.refl _)

set_option maxRecDepth 65536 in
theorem part_92 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 40 1 ⊢ wp frame (wpE (defs₀ (F := F)) 𝒱₀ (c : Thread nD τ) none) Set.univ
      (k0_part92 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 40 4) := by
  rw [k0_part92_eq_skeleton]; unfold k0_part92_skel
  simp only [Prog.lift, Prog.bind_op, Prog.bind_ret, Prog.pure_eq_ret]
  refine step_apply (step_yrecv_wait m K c ⟨40, by decide⟩ _ (sem_yrecv ⟨40, by decide⟩ _ _)) ?_
  refine step_apply (step_stage_wait m K c ⟨40, by decide⟩ ⟨0, by decide⟩ (by decide) _ (sem_cpin ⟨0, by decide⟩ _ _)) ?_
  refine step_apply (step_load_recv m K c ⟨40, by decide⟩) ?_
  refine step_apply (step_load_stage m K c ⟨40, by decide⟩ ⟨0, by decide⟩ (by decide)) ?_
  refine step_apply (step_load_recv m K c ⟨40, by decide⟩) ?_
  refine step_apply (step_store m K c ⟨40, by decide⟩ _ (pay_sVal m k0_pay45 (fun _ _ => rfl) c ⟨40, by decide⟩)) ?_
  exact ret_apply c (BI.Entails.refl _)

set_option maxRecDepth 65536 in
theorem part_93 (m : (ℓ : Loc nD τ sig) → Buf (Elt F) ℓ) (K : Dev nD × Fin 323 → ℕ) (c : Dev nD) (v2 : BitVec 32) (v5 : BitVec 32) (v6 : BitVec 32) (v8 : BitVec 32) :
    S2 m K c 40 4 ⊢ wp frame (wpE (defs₀ (F := F)) 𝒱₀ (c : Thread nD τ) none) Set.univ
      (k0_part93 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 41 2) := by
  rw [k0_part93_eq_skeleton]; unfold k0_part93_skel
  simp only [Prog.lift, Prog.bind_op, Prog.bind_ret, Prog.pure_eq_ret]
  refine step_apply (step_xsend m K c ⟨40, by decide⟩ _ (Fin.ext (k0_dev107_eq c)) _ _ (sem_xsend ⟨40, by decide⟩ _ _) (sem_xrecv ⟨40, by decide⟩ _ _)) ?_
  refine step_apply (step_outcopy m K c ⟨40, by decide⟩ _ (sem_cpout ⟨40, by decide⟩ _ _)) ?_
  refine (S2_next m K c ⟨40, by decide⟩).trans ?_
  refine step_apply (step_stage m K c ⟨41, by decide⟩ ⟨42, by decide⟩ rfl ⟨0, by decide⟩ (by decide) _ (sem_cpin ⟨0, by decide⟩ _ _)) ?_
  refine step_apply (step_yrecv_wait m K c ⟨41, by decide⟩ _ (sem_yrecv ⟨41, by decide⟩ _ _)) ?_
  exact ret_apply c (BI.Entails.refl _)

set_option maxRecDepth 65536 in
theorem part_94 (m : (ℓ : Loc nD τ sig) → Buf (Elt F) ℓ) (K : Dev nD × Fin 323 → ℕ) (c : Dev nD) (v5 : BitVec 32) (v7 : BitVec 32) (v8 : BitVec 32) :
    S2 m K c 41 2 ⊢ wp frame (wpE (defs₀ (F := F)) 𝒱₀ (c : Thread nD τ) none) Set.univ
      (k0_part94 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 42 0) := by
  rw [k0_part94_eq_skeleton]; unfold k0_part94_skel
  simp only [Prog.lift, Prog.bind_op, Prog.bind_ret, Prog.pure_eq_ret]
  refine step_apply (step_stage_wait m K c ⟨41, by decide⟩ ⟨1, by decide⟩ (by decide) _ (sem_cpin ⟨1, by decide⟩ _ _)) ?_
  refine step_apply (step_load_recv m K c ⟨41, by decide⟩) ?_
  refine step_apply (step_load_stage m K c ⟨41, by decide⟩ ⟨1, by decide⟩ (by decide)) ?_
  refine step_apply (step_load_recv m K c ⟨41, by decide⟩) ?_
  refine step_apply (step_store m K c ⟨41, by decide⟩ _ (pay_sVal m k0_pay46 (fun _ _ => rfl) c ⟨41, by decide⟩)) ?_
  refine step_apply (step_xsend m K c ⟨41, by decide⟩ _ (Fin.ext (k0_dev108_eq c)) _ _ (sem_xsend ⟨41, by decide⟩ _ _) (sem_xrecv ⟨41, by decide⟩ _ _)) ?_
  refine step_apply (step_outcopy m K c ⟨41, by decide⟩ _ (sem_cpout ⟨41, by decide⟩ _ _)) ?_
  refine (S2_next m K c ⟨41, by decide⟩).trans ?_
  exact ret_apply c (BI.Entails.refl _)

set_option maxRecDepth 65536 in
theorem part_95 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 42 0 ⊢ wp frame (wpE (defs₀ (F := F)) 𝒱₀ (c : Thread nD τ) none) Set.univ
      (k0_part95 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 42 4) := by
  rw [k0_part95_eq_skeleton]; unfold k0_part95_skel
  simp only [Prog.lift, Prog.bind_op, Prog.bind_ret, Prog.pure_eq_ret]
  refine step_apply (step_stage m K c ⟨42, by decide⟩ ⟨43, by decide⟩ rfl ⟨1, by decide⟩ (by decide) _ (sem_cpin ⟨1, by decide⟩ _ _)) ?_
  refine step_apply (step_yrecv_wait m K c ⟨42, by decide⟩ _ (sem_yrecv ⟨42, by decide⟩ _ _)) ?_
  refine step_apply (step_stage_wait m K c ⟨42, by decide⟩ ⟨0, by decide⟩ (by decide) _ (sem_cpin ⟨0, by decide⟩ _ _)) ?_
  refine step_apply (step_load_recv m K c ⟨42, by decide⟩) ?_
  refine step_apply (step_load_stage m K c ⟨42, by decide⟩ ⟨0, by decide⟩ (by decide)) ?_
  refine step_apply (step_load_recv m K c ⟨42, by decide⟩) ?_
  refine step_apply (step_store m K c ⟨42, by decide⟩ _ (pay_sVal m k0_pay47 (fun _ _ => rfl) c ⟨42, by decide⟩)) ?_
  exact ret_apply c (BI.Entails.refl _)

set_option maxRecDepth 65536 in
theorem part_96 (m : (ℓ : Loc nD τ sig) → Buf (Elt F) ℓ) (K : Dev nD × Fin 323 → ℕ) (c : Dev nD) (v2 : BitVec 32) (v5 : BitVec 32) (v6 : BitVec 32) (v8 : BitVec 32) (v2888 : BitVec 32) (v2889 : BitVec 32) :
    S2 m K c 42 4 ⊢ wp frame (wpE (defs₀ (F := F)) 𝒱₀ (c : Thread nD τ) none) Set.univ
      (k0_part96 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v2888 v2889)
      (fun _ => S2 m K c 43 2) := by
  rw [k0_part96_eq_skeleton]; unfold k0_part96_skel
  simp only [Prog.lift, Prog.bind_op, Prog.bind_ret, Prog.pure_eq_ret]
  refine step_apply (step_xsend m K c ⟨42, by decide⟩ _ (Fin.ext (k0_dev109_eq c)) _ _ (sem_xsend ⟨42, by decide⟩ _ _) (sem_xrecv ⟨42, by decide⟩ _ _)) ?_
  refine step_apply (step_outcopy m K c ⟨42, by decide⟩ _ (sem_cpout ⟨42, by decide⟩ _ _)) ?_
  refine (S2_next m K c ⟨42, by decide⟩).trans ?_
  refine step_apply (step_stage m K c ⟨43, by decide⟩ ⟨44, by decide⟩ rfl ⟨0, by decide⟩ (by decide) _ (sem_cpin ⟨0, by decide⟩ _ _)) ?_
  refine step_apply (step_yrecv_wait m K c ⟨43, by decide⟩ _ (sem_yrecv ⟨43, by decide⟩ _ _)) ?_
  exact ret_apply c (BI.Entails.refl _)

/-- info: 'Cert.Kernel.RS.part_96' depends on axioms: [propext, Classical.choice, Quot.sound] -/
#guard_msgs in #print axioms part_96

end Cert.Kernel.RS

end
-- ==== Proof.RsKernel.Body07.lean ====
/-
  The body of the reduce-scatter, part by part: the parts 97 to 112 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps2
import proofs.«900313_g7700000000000314_dist_rs_v7x_xy2x2_y_m8192_n1024_f32_1_alg».proof.Proof.RsKernel.Steps2n
import proofs.«900313_g7700000000000314_dist_rs_v7x_xy2x2_y_m8192_n1024_f32_1_alg».proof.Proof.RsKernel.Steps2v
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_97 (m : (ℓ : Loc nD τ sig) → Buf (Elt F) ℓ) (K : Dev nD × Fin 323 → ℕ) (c : Dev nD) (v5 : BitVec 32) (v7 : BitVec 32) (v8 : BitVec 32) :
    S2 m K c 43 2 ⊢ wp frame (wpE (defs₀ (F := F)) 𝒱₀ (c : Thread nD τ) none) Set.univ
      (k0_part97 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 44 0) := by
  rw [k0_part97_eq_skeleton]; unfold k0_part97_skel
  simp only [Prog.lift, Prog.bind_op, Prog.bind_ret, Prog.pure_eq_ret]
  refine step_apply (step_stage_wait m K c ⟨43, by decide⟩ ⟨1, by decide⟩ (by decide) _ (sem_cpin ⟨1, by decide⟩ _ _)) ?_
  refine step_apply (step_load_recv m K c ⟨43, by decide⟩) ?_
  refine step_apply (step_load_stage m K c ⟨43, by decide⟩ ⟨1, by decide⟩ (by decide)) ?_
  refine step_apply (step_load_recv m K c ⟨43, by decide⟩) ?_
  refine step_apply (step_store m K c ⟨43, by decide⟩ _ (pay_sVal m k0_pay48 (fun _ _ => rfl) c ⟨43, by decide⟩)) ?_
  refine step_apply (step_xsend m K c ⟨43, by decide⟩ _ (Fin.ext (k0_dev110_eq c)) _ _ (sem_xsend ⟨43, by decide⟩ _ _) (sem_xrecv ⟨43, by decide⟩ _ _)) ?_
  refine step_apply (step_outcopy m K c ⟨43, by decide⟩ _ (sem_cpout ⟨43, by decide⟩ _ _)) ?_
  refine (S2_next m K c ⟨43, by decide⟩).trans ?_
  exact ret_apply c (BI.Entails.refl _)

set_option maxRecDepth 65536 in
theorem part_98 (m : (ℓ : Loc nD τ sig) → Buf (Elt F) ℓ) (K : Dev nD × Fin 323 → ℕ) (c : Dev nD) (v2 : BitVec 32) (v6 : BitVec 32) (v8 : BitVec 32) :
    S2 m K c 44 0 ⊢ wp frame (wpE (defs₀ (F := F)) 𝒱₀ (c : Thread nD τ) none) Set.univ
      (k0_part98 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8)
      (fun _ => S2 m K c 44 4) := by
  rw [k0_part98_eq_skeleton]; unfold k0_part98_skel
  simp only [Prog.lift, Prog.bind_op, Prog.bind_ret, Prog.pure_eq_ret]
  refine step_apply (step_stage m K c ⟨44, by decide⟩ ⟨45, by decide⟩ rfl ⟨1, by decide⟩ (by decide) _ (sem_cpin ⟨1, by decide⟩ _ _)) ?_
  refine step_apply (step_yrecv_wait m K c ⟨44, by decide⟩ _ (sem_yrecv ⟨44, by decide⟩ _ _)) ?_
  refine step_apply (step_stage_wait m K c ⟨44, by decide⟩ ⟨0, by decide⟩ (by decide) _ (sem_cpin ⟨0, by decide⟩ _ _)) ?_
  refine step_apply (step_load_recv m K c ⟨44, by decide⟩) ?_
  refine step_apply (step_load_stage m K c ⟨44, by decide⟩ ⟨0, by decide⟩ (by decide)) ?_
  refine step_apply (step_load_recv m K c ⟨44, by decide⟩) ?_
  refine step_apply (step_store m K c ⟨44, by decide⟩ _ (pay_sVal m k0_pay49 (fun _ _ => rfl) c ⟨44, by decide⟩)) ?_
  exact ret_apply c (BI.Entails.refl _)

set_option maxRecDepth 65536 in
theorem part_99 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 44 4 ⊢ wp frame (wpE (defs₀ (F := F)) 𝒱₀ (c : Thread nD τ) none) Set.univ
      (k0_part99 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 45 1) := by
  rw [k0_part99_eq_skeleton]; unfold k0_part99_skel
  simp only [Prog.lift, Prog.bind_op, Prog.bind_ret, Prog.pure_eq_ret]
  refine step_apply (step_xsend m K c ⟨44, by decide⟩ _ (Fin.ext (k0_dev111_eq c)) _ _ (sem_xsend ⟨44, by decide⟩ _ _) (sem_xrecv ⟨44, by decide⟩ _ _)) ?_
  refine step_apply (step_outcopy m K c ⟨44, by decide⟩ _ (sem_cpout ⟨44, by decide⟩ _ _)) ?_
  refine (S2_next m K c ⟨44, by decide⟩).trans ?_
  refine step_apply (step_stage m K c ⟨45, by decide⟩ ⟨46, by decide⟩ rfl ⟨0, by decide⟩ (by decide) _ (sem_cpin ⟨0, by decide⟩ _ _)) ?_
  exact ret_apply c (BI.Entails.refl _)

set_option maxRecDepth 65536 in
theorem part_100 (m : (ℓ : Loc nD τ sig) → Buf (Elt F) ℓ) (K : Dev nD × Fin 323 → ℕ) (c : Dev nD) (v5 : BitVec 32) (v7 : BitVec 32) (v8 : BitVec 32) :
    S2 m K c 45 1 ⊢ wp frame (wpE (defs₀ (F := F)) 𝒱₀ (c : Thread nD τ) none) Set.univ
      (k0_part100 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 45 5) := by
  rw [k0_part100_eq_skeleton]; unfold k0_part100_skel
  simp only [Prog.lift, Prog.bind_op, Prog.bind_ret, Prog.pure_eq_ret]
  refine step_apply (step_yrecv_wait m K c ⟨45, by decide⟩ _ (sem_yrecv ⟨45, by decide⟩ _ _)) ?_
  refine step_apply (step_stage_wait m K c ⟨45, by decide⟩ ⟨1, by decide⟩ (by decide) _ (sem_cpin ⟨1, by decide⟩ _ _)) ?_
  refine step_apply (step_load_recv m K c ⟨45, by decide⟩) ?_
  refine step_apply (step_load_stage m K c ⟨45, by decide⟩ ⟨1, by decide⟩ (by decide)) ?_
  refine step_apply (step_load_recv m K c ⟨45, by decide⟩) ?_
  refine step_apply (step_store m K c ⟨45, by decide⟩ _ (pay_sVal m k0_pay50 (fun _ _ => rfl) c ⟨45, by decide⟩)) ?_
  refine step_apply (step_xsend m K c ⟨45, by decide⟩ _ (Fin.ext (k0_dev112_eq c)) _ _ (sem_xsend ⟨45, by decide⟩ _ _) (sem_xrecv ⟨45, by decide⟩ _ _)) ?_
  exact ret_apply c (BI.Entails.refl _)

set_option maxRecDepth 65536 in
theorem part_101 (m : (ℓ : Loc nD τ sig) → Buf (Elt F) ℓ) (K : Dev nD × Fin 323 → ℕ) (c : Dev nD) (v2 : BitVec 32) (v5 : BitVec 32) (v6 : BitVec 32) (v8 : BitVec 32) :
    S2 m K c 45 5 ⊢ wp frame (wpE (defs₀ (F := F)) 𝒱₀ (c : Thread nD τ) none) Set.univ
      (k0_part101 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay51 (yVal m c ⟨46, by decide⟩) (shapeCast S1x64x1024 (bVal m c ⟨46, by decide⟩) shapeCasts_S64x1024_S1x64x1024))⌝ ∗ S2 m K c 46 3)) := by
  rw [k0_part101_eq_skeleton]; unfold k0_part101_skel
  simp only [Prog.lift, Prog.bind_op, Prog.bind_ret, Prog.pure_eq_ret]
  refine step_apply (step_outcopy m K c ⟨45, by decide⟩ _ (sem_cpout ⟨45, by decide⟩ _ _)) ?_
  refine (S2_next m K c ⟨45, by decide⟩).trans ?_
  refine step_apply (step_stage m K c ⟨46, by decide⟩ ⟨47, by decide⟩ rfl ⟨1, by decide⟩ (by decide) _ (sem_cpin ⟨1, by decide⟩ _ _)) ?_
  refine step_apply (step_yrecv_wait m K c ⟨46, by decide⟩ _ (sem_yrecv ⟨46, by decide⟩ _ _)) ?_
  refine step_apply (step_stage_wait m K c ⟨46, by decide⟩ ⟨0, by decide⟩ (by decide) _ (sem_cpin ⟨0, by decide⟩ _ _)) ?_
  refine step_apply (step_load_recv m K c ⟨46, by decide⟩) ?_
  refine step_apply (step_load_stage m K c ⟨46, by decide⟩ ⟨0, by decide⟩ (by decide)) ?_
  refine step_apply (step_load_recv m K c ⟨46, by decide⟩) ?_
  exact ret_fact c rfl

set_option maxRecDepth 65536 in
theorem part_102 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 46 3 ⊢ wp frame (wpE (defs₀ (F := F)) 𝒱₀ (c : Thread nD τ) none) Set.univ
      (k0_part102 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 (k0_pay51 (yVal m c ⟨46, by decide⟩) (shapeCast S1x64x1024 (bVal m c ⟨46, by decide⟩) shapeCasts_S64x1024_S1x64x1024)))
      (fun _ => S2 m K c 47 1) := by
  rw [k0_part102_eq_skeleton]; unfold k0_part102_skel
  simp only [Prog.lift, Prog.bind_op, Prog.bind_ret, Prog.pure_eq_ret]
  refine step_apply (step_store m K c ⟨46, by decide⟩ _ (pay_sVal_cut m k0_pay52 k0_pay51 (fun _ => rfl) (fun _ _ => rfl) c ⟨46, by decide⟩)) ?_
  refine step_apply (step_xsend m K c ⟨46, by decide⟩ _ (Fin.ext (k0_dev113_eq c)) _ _ (sem_xsend ⟨46, by decide⟩ _ _) (sem_xrecv ⟨46, by decide⟩ _ _)) ?_
  refine step_apply (step_outcopy m K c ⟨46, by decide⟩ _ (sem_cpout ⟨46, by decide⟩ _ _)) ?_
  refine (S2_next m K c ⟨46, by decide⟩).trans ?_
  refine step_apply (step_stage m K c ⟨47, by decide⟩ ⟨48, by decide⟩ rfl ⟨0, by decide⟩ (by decide) _ (sem_cpin ⟨0, by decide⟩ _ _)) ?_
  exact ret_apply c (BI.Entails.refl _)

set_option maxRecDepth 65536 in
theorem part_103 (m : (ℓ : Loc nD τ sig) → Buf (Elt F) ℓ) (K : Dev nD × Fin 323 → ℕ) (c : Dev nD) (v5 : BitVec 32) (v7 : BitVec 32) (v8 : BitVec 32) :
    S2 m K c 47 1 ⊢ wp frame (wpE (defs₀ (F := F)) 𝒱₀ (c : Thread nD τ) none) Set.univ
      (k0_part103 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 47 5) := by
  rw [k0_part103_eq_skeleton]; unfold k0_part103_skel
  simp only [Prog.lift, Prog.bind_op, Prog.bind_ret, Prog.pure_eq_ret]
  refine step_apply (step_yrecv_wait m K c ⟨47, by decide⟩ _ (sem_yrecv ⟨47, by decide⟩ _ _)) ?_
  refine step_apply (step_stage_wait m K c ⟨47, by decide⟩ ⟨1, by decide⟩ (by decide) _ (sem_cpin ⟨1, by decide⟩ _ _)) ?_
  refine step_apply (step_load_recv m K c ⟨47, by decide⟩) ?_
  refine step_apply (step_load_stage m K c ⟨47, by decide⟩ ⟨1, by decide⟩ (by decide)) ?_
  refine step_apply (step_load_recv m K c ⟨47, by decide⟩) ?_
  refine step_apply (step_store m K c ⟨47, by decide⟩ _ (pay_sVal m k0_pay53 (fun _ _ => rfl) c ⟨47, by decide⟩)) ?_
  refine step_apply (step_xsend m K c ⟨47, by decide⟩ _ (Fin.ext (k0_dev114_eq c)) _ _ (sem_xsend ⟨47, by decide⟩ _ _) (sem_xrecv ⟨47, by decide⟩ _ _)) ?_
  exact ret_apply c (BI.Entails.refl _)

set_option maxRecDepth 65536 in
theorem part_104 (m : (ℓ : Loc nD τ sig) → Buf (Elt F) ℓ) (K : Dev nD × Fin 323 → ℕ) (c : Dev nD) (v2 : BitVec 32) (v5 : BitVec 32) (v6 : BitVec 32) (v8 : BitVec 32) :
    S2 m K c 47 5 ⊢ wp frame (wpE (defs₀ (F := F)) 𝒱₀ (c : Thread nD τ) none) Set.univ
      (k0_part104 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = ⟨(yVal m c ⟨48, by decide⟩), (shapeCast S1x64x1024 (bVal m c ⟨48, by decide⟩) shapeCasts_S64x1024_S1x64x1024)⟩⌝ ∗ S2 m K c 48 3)) := by
  rw [k0_part104_eq_skeleton]; unfold k0_part104_skel
  simp only [Prog.lift, Prog.bind_op, Prog.bind_ret, Prog.pure_eq_ret]
  refine step_apply (step_outcopy m K c ⟨47, by decide⟩ _ (sem_cpout ⟨47, by decide⟩ _ _)) ?_
  refine (S2_next m K c ⟨47, by decide⟩).trans ?_
  refine step_apply (step_stage m K c ⟨48, by decide⟩ ⟨49, by decide⟩ rfl ⟨1, by decide⟩ (by decide) _ (sem_cpin ⟨1, by decide⟩ _ _)) ?_
  refine step_apply (step_yrecv_wait m K c ⟨48, by decide⟩ _ (sem_yrecv ⟨48, by decide⟩ _ _)) ?_
  refine step_apply (step_stage_wait m K c ⟨48, by decide⟩ ⟨0, by decide⟩ (by decide) _ (sem_cpin ⟨0, by decide⟩ _ _)) ?_
  refine step_apply (step_load_recv m K c ⟨48, by decide⟩) ?_
  refine step_apply (step_load_stage m K c ⟨48, by decide⟩ ⟨0, by decide⟩ (by decide)) ?_
  exact ret_fact c rfl

set_option maxRecDepth 65536 in
theorem part_105 (m : (ℓ : Loc nD τ sig) → Buf (Elt F) ℓ) (K : Dev nD × Fin 323 → ℕ) (c : Dev nD) (v5 : BitVec 32) (v7 : BitVec 32) (v8 : BitVec 32) :
    S2 m K c 48 3 ⊢ wp frame (wpE (defs₀ (F := F)) 𝒱₀ (c : Thread nD τ) none) Set.univ
      (k0_part105 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨48, by decide⟩) (shapeCast S1x64x1024 (bVal m c ⟨48, by decide⟩) shapeCasts_S64x1024_S1x64x1024))
      (fun _ => S2 m K c 49 1) := by
  rw [k0_part105_eq_skeleton]; unfold k0_part105_skel
  simp only [Prog.lift, Prog.bind_op, Prog.bind_ret, Prog.pure_eq_ret]
  refine step_apply (step_load_recv m K c ⟨48, by decide⟩) ?_
  refine step_apply (step_store m K c ⟨48, by decide⟩ _ (pay_sVal m k0_pay54 (fun _ _ => rfl) c ⟨48, by decide⟩)) ?_
  refine step_apply (step_xsend m K c ⟨48, by decide⟩ _ (Fin.ext (k0_dev115_eq c)) _ _ (sem_xsend ⟨48, by decide⟩ _ _) (sem_xrecv ⟨48, by decide⟩ _ _)) ?_
  refine step_apply (step_outcopy m K c ⟨48, by decide⟩ _ (sem_cpout ⟨48, by decide⟩ _ _)) ?_
  refine (S2_next m K c ⟨48, by decide⟩).trans ?_
  refine step_apply (step_stage m K c ⟨49, by decide⟩ ⟨50, by decide⟩ rfl ⟨0, by decide⟩ (by decide) _ (sem_cpin ⟨0, by decide⟩ _ _)) ?_
  exact ret_apply c (BI.Entails.refl _)

set_option maxRecDepth 65536 in
theorem part_106 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c2_i32_2570 : BitVec 32) :
    S2 m K c 49 1 ⊢ wp frame (wpE (defs₀ (F := F)) 𝒱₀ (c : Thread nD τ) none) Set.univ
      (k0_part106 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c2_i32_2570)
      (fun _ => S2 m K c 49 4) := by
  rw [k0_part106_eq_skeleton]; unfold k0_part106_skel
  simp only [Prog.lift, Prog.bind_op, Prog.bind_ret, Prog.pure_eq_ret]
  refine step_apply (step_yrecv_wait m K c ⟨49, by decide⟩ _ (sem_yrecv ⟨49, by decide⟩ _ _)) ?_
  refine step_apply (step_stage_wait m K c ⟨49, by decide⟩ ⟨1, by decide⟩ (by decide) _ (sem_cpin ⟨1, by decide⟩ _ _)) ?_
  refine step_apply (step_load_recv m K c ⟨49, by decide⟩) ?_
  refine step_apply (step_load_stage m K c ⟨49, by decide⟩ ⟨1, by decide⟩ (by decide)) ?_
  refine step_apply (step_load_recv m K c ⟨49, by decide⟩) ?_
  refine step_apply (step_store m K c ⟨49, by decide⟩ _ (pay_sVal m k0_pay55 (fun _ _ => rfl) c ⟨49, by decide⟩)) ?_
  exact ret_apply c (BI.Entails.refl _)

set_option maxRecDepth 65536 in
theorem part_107 (m : (ℓ : Loc nD τ sig) → Buf (Elt F) ℓ) (K : Dev nD × Fin 323 → ℕ) (c : Dev nD) (v2 : BitVec 32) (v5 : BitVec 32) (v6 : BitVec 32) (v8 : BitVec 32) :
    S2 m K c 49 4 ⊢ wp frame (wpE (defs₀ (F := F)) 𝒱₀ (c : Thread nD τ) none) Set.univ
      (k0_part107 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 50 3) := by
  rw [k0_part107_eq_skeleton]; unfold k0_part107_skel
  simp only [Prog.lift, Prog.bind_op, Prog.bind_ret, Prog.pure_eq_ret]
  refine step_apply (step_xsend m K c ⟨49, by decide⟩ _ (Fin.ext (k0_dev116_eq c)) _ _ (sem_xsend ⟨49, by decide⟩ _ _) (sem_xrecv ⟨49, by decide⟩ _ _)) ?_
  refine step_apply (step_outcopy m K c ⟨49, by decide⟩ _ (sem_cpout ⟨49, by decide⟩ _ _)) ?_
  refine (S2_next m K c ⟨49, by decide⟩).trans ?_
  refine step_apply (step_stage m K c ⟨50, by decide⟩ ⟨51, by decide⟩ rfl ⟨1, by decide⟩ (by decide) _ (sem_cpin ⟨1, by decide⟩ _ _)) ?_
  refine step_apply (step_yrecv_wait m K c ⟨50, by decide⟩ _ (sem_yrecv ⟨50, by decide⟩ _ _)) ?_
  refine step_apply (step_stage_wait m K c ⟨50, by decide⟩ ⟨0, by decide⟩ (by decide) _ (sem_cpin ⟨0, by decide⟩ _ _)) ?_
  exact ret_apply c (BI.Entails.refl _)

set_option maxRecDepth 65536 in
theorem part_108 (m : (ℓ : Loc nD τ sig) → Buf (Elt F) ℓ) (K : Dev nD × Fin 323 → ℕ) (c : Dev nD) (v5 : BitVec 32) (v7 : BitVec 32) (v8 : BitVec 32) :
    S2 m K c 50 3 ⊢ wp frame (wpE (defs₀ (F := F)) 𝒱₀ (c : Thread nD τ) none) Set.univ
      (k0_part108 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 51 0) := by
  rw [k0_part108_eq_skeleton]; unfold k0_part108_skel
  simp only [Prog.lift, Prog.bind_op, Prog.bind_ret, Prog.pure_eq_ret]
  refine step_apply (step_load_recv m K c ⟨50, by decide⟩) ?_
  refine step_apply (step_load_stage m K c ⟨50, by decide⟩ ⟨0, by decide⟩ (by decide)) ?_
  refine step_apply (step_load_recv m K c ⟨50, by decide⟩) ?_
  refine step_apply (step_store m K c ⟨50, by decide⟩ _ (pay_sVal m k0_pay56 (fun _ _ => rfl) c ⟨50, by decide⟩)) ?_
  refine step_apply (step_xsend m K c ⟨50, by decide⟩ _ (Fin.ext (k0_dev117_eq c)) _ _ (sem_xsend ⟨50, by decide⟩ _ _) (sem_xrecv ⟨50, by decide⟩ _ _)) ?_
  refine step_apply (step_outcopy m K c ⟨50, by decide⟩ _ (sem_cpout ⟨50, by decide⟩ _ _)) ?_
  refine (S2_next m K c ⟨50, by decide⟩).trans ?_
  exact ret_apply c (BI.Entails.refl _)

set_option maxRecDepth 65536 in
theorem part_109 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 51 0 ⊢ wp frame (wpE (defs₀ (F := F)) 𝒱₀ (c : Thread nD τ) none) Set.univ
      (k0_part109 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 51 4) := by
  rw [k0_part109_eq_skeleton]; unfold k0_part109_skel
  simp only [Prog.lift, Prog.bind_op, Prog.bind_ret, Prog.pure_eq_ret]
  refine step_apply (step_stage m K c ⟨51, by decide⟩ ⟨52, by decide⟩ rfl ⟨0, by decide⟩ (by decide) _ (sem_cpin ⟨0, by decide⟩ _ _)) ?_
  refine step_apply (step_yrecv_wait m K c ⟨51, by decide⟩ _ (sem_yrecv ⟨51, by decide⟩ _ _)) ?_
  refine step_apply (step_stage_wait m K c ⟨51, by decide⟩ ⟨1, by decide⟩ (by decide) _ (sem_cpin ⟨1, by decide⟩ _ _)) ?_
  refine step_apply (step_load_recv m K c ⟨51, by decide⟩) ?_
  refine step_apply (step_load_stage m K c ⟨51, by decide⟩ ⟨1, by decide⟩ (by decide)) ?_
  refine step_apply (step_load_recv m K c ⟨51, by decide⟩) ?_
  refine step_apply (step_store m K c ⟨51, by decide⟩ _ (pay_sVal m k0_pay57 (fun _ _ => rfl) c ⟨51, by decide⟩)) ?_
  exact ret_apply c (BI.Entails.refl _)

set_option maxRecDepth 65536 in
theorem part_110 (m : (ℓ : Loc nD τ sig) → Buf (Elt F) ℓ) (K : Dev nD × Fin 323 → ℕ) (c : Dev nD) (v2 : BitVec 32) (v5 : BitVec 32) (v6 : BitVec 32) (v8 : BitVec 32) :
    S2 m K c 51 4 ⊢ wp frame (wpE (defs₀ (F := F)) 𝒱₀ (c : Thread nD τ) none) Set.univ
      (k0_part110 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 52 2) := by
  rw [k0_part110_eq_skeleton]; unfold k0_part110_skel
  simp only [Prog.lift, Prog.bind_op, Prog.bind_ret, Prog.pure_eq_ret]
  refine step_apply (step_xsend m K c ⟨51, by decide⟩ _ (Fin.ext (k0_dev118_eq c)) _ _ (sem_xsend ⟨51, by decide⟩ _ _) (sem_xrecv ⟨51, by decide⟩ _ _)) ?_
  refine step_apply (step_outcopy m K c ⟨51, by decide⟩ _ (sem_cpout ⟨51, by decide⟩ _ _)) ?_
  refine (S2_next m K c ⟨51, by decide⟩).trans ?_
  refine step_apply (step_stage m K c ⟨52, by decide⟩ ⟨53, by decide⟩ rfl ⟨1, by decide⟩ (by decide) _ (sem_cpin ⟨1, by decide⟩ _ _)) ?_
  refine step_apply (step_yrecv_wait m K c ⟨52, by decide⟩ _ (sem_yrecv ⟨52, by decide⟩ _ _)) ?_
  exact ret_apply c (BI.Entails.refl _)

set_option maxRecDepth 65536 in
theorem part_111 (m : (ℓ : Loc nD τ sig) → Buf (Elt F) ℓ) (K : Dev nD × Fin 323 → ℕ) (c : Dev nD) (v5 : BitVec 32) (v7 : BitVec 32) (v8 : BitVec 32) :
    S2 m K c 52 2 ⊢ wp frame (wpE (defs₀ (F := F)) 𝒱₀ (c : Thread nD τ) none) Set.univ
      (k0_part111 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 53 0) := by
  rw [k0_part111_eq_skeleton]; unfold k0_part111_skel
  simp only [Prog.lift, Prog.bind_op, Prog.bind_ret, Prog.pure_eq_ret]
  refine step_apply (step_stage_wait m K c ⟨52, by decide⟩ ⟨0, by decide⟩ (by decide) _ (sem_cpin ⟨0, by decide⟩ _ _)) ?_
  refine step_apply (step_load_recv m K c ⟨52, by decide⟩) ?_
  refine step_apply (step_load_stage m K c ⟨52, by decide⟩ ⟨0, by decide⟩ (by decide)) ?_
  refine step_apply (step_load_recv m K c ⟨52, by decide⟩) ?_
  refine step_apply (step_store m K c ⟨52, by decide⟩ _ (pay_sVal m k0_pay58 (fun _ _ => rfl) c ⟨52, by decide⟩)) ?_
  refine step_apply (step_xsend m K c ⟨52, by decide⟩ _ (Fin.ext (k0_dev119_eq c)) _ _ (sem_xsend ⟨52, by decide⟩ _ _) (sem_xrecv ⟨52, by decide⟩ _ _)) ?_
  refine step_apply (step_outcopy m K c ⟨52, by decide⟩ _ (sem_cpout ⟨52, by decide⟩ _ _)) ?_
  refine (S2_next m K c ⟨52, by decide⟩).trans ?_
  exact ret_apply c (BI.Entails.refl _)

set_option maxRecDepth 65536 in
theorem part_112 (m : (ℓ : Loc nD τ sig) → Buf (Elt F) ℓ) (K : Dev nD × Fin 323 → ℕ) (c : Dev nD) (v2 : BitVec 32) (v6 : BitVec 32) (v7 : BitVec 32) (v8 : BitVec 32) :
    S2 m K c 53 0 ⊢ wp frame (wpE (defs₀ (F := F)) 𝒱₀ (c : Thread nD τ) none) Set.univ
      (k0_part112 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v7 v8)
      (fun _ => S2 m K c 53 4) := by
  rw [k0_part112_eq_skeleton]; unfold k0_part112_skel
  simp only [Prog.lift, Prog.bind_op, Prog.bind_ret, Prog.pure_eq_ret]
  refine step_apply (step_stage m K c ⟨53, by decide⟩ ⟨54, by decide⟩ rfl ⟨0, by decide⟩ (by decide) _ (sem_cpin ⟨0, by decide⟩ _ _)) ?_
  refine step_apply (step_yrecv_wait m K c ⟨53, by decide⟩ _ (sem_yrecv ⟨53, by decide⟩ _ _)) ?_
  refine step_apply (step_stage_wait m K c ⟨53, by decide⟩ ⟨1, by decide⟩ (by decide) _ (sem_cpin ⟨1, by decide⟩ _ _)) ?_
  refine step_apply (step_load_recv m K c ⟨53, by decide⟩) ?_
  refine step_apply (step_load_stage m K c ⟨53, by decide⟩ ⟨1, by decide⟩ (by decide)) ?_
  refine step_apply (step_load_recv m K c ⟨53, by decide⟩) ?_
  refine step_apply (step_store m K c ⟨53, by decide⟩ _ (pay_sVal m k0_pay59 (fun _ _ => rfl) c ⟨53, by decide⟩)) ?_
  exact ret_apply c (BI.Entails.refl _)

/-- info: 'Cert.Kernel.RS.part_112' depends on axioms: [propext, Classical.choice, Quot.sound] -/
#guard_msgs in #print axioms part_112

end Cert.Kernel.RS

end
-- ==== Proof.RsKernel.Steps3.lean ====
/-
  The last loop: for each chunk, the four waits that close its copies. Each wait is for the whole of a one-duty round
  whose credit the device has held since it issued the copy; nothing is owed any more, so each may be waited for; each
  hands back what its copy's landing promised: the result rows holding the sums and half of the summed rows; the block
  sent to the column peer; the other half of the summed rows; the row peer's sums in the result.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Levels
import proofs.«900313_g7700000000000314_dist_rs_v7x_xy2x2_y_m8192_n1024_f32_1_alg».proof.Proof.RsKernel.Views
import Idealize.ShloMosaic.Lib.Rounds
import Idealize.ShloMosaic.Lib.Tactic

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] duties_ysend duties_yrecv duties_xsend duties_xrecv duties_cpout duties_cpin
  amount_bar amount_dma duties_bar

/-! ## What every device knows, cell by cell -/

private instance rec_persistent (K : Dev nD × Fin 323 → ℕ) : Persistent (Rec m K) := by unfold Rec; infer_instance

/-- A copy cell of the pool, by its position. -/
private theorem kcell_dma (c : Dev nD) (n : ℕ) (h : n < 322) :
    kcell (c, (⟨n, Nat.lt_succ_of_lt h⟩ : Fin 323)) = ((c : Thread nD τ), SemLoc.dma ⟨n, h⟩) := by
  show ((c : Thread nD τ), (if h' : n < 322 then SemLoc.dma ⟨n, h'⟩ else SemLoc.reg barS)) = _
  rw [dif_pos h]

private theorem inv_at (K : Dev nD × Fin 323 → ℕ) (cj : Dev nD × Fin 323) :
    (bigSep Finset.univ fun cj : Dev nD × Fin 323 => (cellInv ER (sched m) (K cj) (kcell cj) : sProp 𝕄)) ⊢ cellInv ER (sched m) (K cj) (kcell cj) :=
  bigSep_elim (Finset.mem_univ cj)

/-- The invariant of a copy cell of the pool. -/
private theorem inv_dma (K : Dev nD × Fin 323 → ℕ) (c : Dev nD) (n : ℕ) (h : n < 322) :
    Rec m K ⊢ cellInv ER (sched m) (K (c, ⟨n, Nat.lt_succ_of_lt h⟩)) ((c : Thread nD τ), SemLoc.dma ⟨n, h⟩) := by
  unfold Rec
  iintro ⟨H, -, -⟩
  rw [← kcell_dma c n h]
  iapply (inv_at m K (c, (⟨n, Nat.lt_succ_of_lt h⟩ : Fin 323))) $$ H

private theorem inv_q (K : Dev nD × Fin 323 → ℕ) (c : Dev nD) (q : DmaSem sig) :
    Rec m K ⊢ cellInv ER (sched m) (K (c, ⟨q.val, Nat.lt_succ_of_lt q.isLt⟩)) ((c : Thread nD τ), SemLoc.dma q) :=
  inv_dma m K c q.val q.isLt

/-- The levels. -/
private theorem lev_rec (K : Dev nD × Fin 323 → ℕ) : Rec m K ⊢ (levAts L lv : sProp 𝕄) := by
  unfold Rec
  iintro ⟨-, -, H⟩
  iexact H

/-! ## The rounds' tables at the four cells, spelt open -/

private theorem expect_cpout (c : Dev nD) (r : Fin 64) : (sched (F := F) m).expect (cpoutC c r) 0 = N :=
  expect_of_single m c (cpoutQ r) 0 (duties_cpout m c r)
private theorem expect_ysend (c : Dev nD) (r : Fin 64) : (sched (F := F) m).expect (ysendC c r) 0 = N :=
  expect_of_single m c (ysendQ r) 0 (duties_ysend m c r)
private theorem expect_xsend (c : Dev nD) (r : Fin 64) : (sched (F := F) m).expect (xsendC c r) 0 = N :=
  expect_of_single m c (xsendQ r) 0 (duties_xsend m c r)
private theorem expect_xrecv (c : Dev nD) (r : Fin 64) : (sched (F := F) m).expect (xrecvC c r) 0 = N :=
  expect_of_single m c (xrecvQ r) 0 (duties_xrecv m c r)

private theorem payload_cpout_open (c : Dev nD) (r : Fin 64) (R : ℕ) (d : Bool) :
    (sched (F := F) m).payload (cpoutC c r) R d
      = iprop((∃ f, ⌜(oO c r).view.read (Elt F) f = sVal m c r⌝ ∗ ((oO c r).view.loc (c : Thread nD τ) ↦[(oO c r).view.set]{fullShare} f))
          ∗ (∃ f, ⌜(rS r).view.read (Elt F) f = sVal m c r⌝ ∗ ((rS r).view.loc (c : Thread nD τ) ↦[(rS r).view.set]{fullShare.right} f))) := by
  rw [payload_cpout]; unfold cpoutPay owns; rfl
private theorem payload_ysend_open (c : Dev nD) (r : Fin 64) (R : ℕ) (d : Bool) :
    (sched (F := F) m).payload (ysendC c r) R d = ((xA c r).view.loc (c : Thread nD τ) ↦[(xA c r).view.set]{fullShare} X m c) :=
  payload_ysend m c r R d
private theorem payload_xsend_open (c : Dev nD) (r : Fin 64) (R : ℕ) (d : Bool) :
    (sched (F := F) m).payload (xsendC c r) R d
      = iprop(∃ f, ⌜(rS r).view.read (Elt F) f = sVal m c r⌝ ∗ ((rS r).view.loc (c : Thread nD τ) ↦[(rS r).view.set]{fullShare.left} f)) := by
  rw [payload_xsend]; unfold xsendPay owns; rfl
private theorem payload_xrecv_open (c : Dev nD) (r : Fin 64) (R : ℕ) (d : Bool) :
    (sched (F := F) m).payload (xrecvC c r) R d
      = iprop(∃ f, ⌜(oO (xp c) r).view.read (Elt F) f = sVal m (xp c) r⌝ ∗ ((oO (xp c) r).view.loc (c : Thread nD τ) ↦[(oO (xp c) r).view.set]{fullShare} f)) := by
  rw [payload_xrecv]; unfold xrecvPay owns; rfl
attribute [local sl_rounds] expect_cpout expect_ysend expect_xsend expect_xrecv
  payload_cpout_open payload_ysend_open payload_xsend_open payload_xrecv_open

/-! ## The four waits of chunk `r` -/

/-- The wait for the copy of chunk `r`'s sums to the result: the result rows holding the sums, and half of the summed rows. -/
theorem step_out_wait (K : Dev nD × Fin 323 → ℕ) (c : Dev nD) (r : Fin 64) (q : DmaSem sig) (hq : q = cpoutQ r)
    {h1 : (rS r).view.WordExact} {h2 : (oO c r).view.WordExact}
    {α : Type} {Q : α → sProp 𝕄} {k : PUnit → Prog (TpuEff nD τ sig (Elt F) Λ₀ .tc) α} :
    S3 m K c r 0 ⊢ iprop((S3 m K c r 1 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (rS r) (oO c r) h1 h2) k) Q) := by
  subst hq
  unfold S3 rest3
  simp only [cur3]
  unfold fPre y1post mPost w1 owesE cpoutPay owns
  iintro ⟨#HRec, ⟨Harg, Hs0, Hs1, Hcp, ⟨%W, HO⟩⟩, Hdone, Htodo, ⟨HatO, HatY, HatX, HatR, HcR⟩, HcY, ⟨HcX, HcO, HB, HatYr⟩⟩ Hk
  ihave HI := (inv_q m K c (cpoutQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [HatO HatO_pay1 HatO_pay2]
  · isplitl [HatO]; · iexact HatO
    isplitl [HatO_pay1]
    · iexists _; iexact HatO_pay1
    · iexists _; iexact HatO_pay2
  isplitl [HatY HatX HatR HcR]
  · isplitl [HatY]; · iexact HatY
    isplitl [HatX]; · iexact HatX
    isplitl [HatR]; · iexact HatR
    iexact HcR
  isplitl [HcY]; · iexact HcY
  isplitl [HcX]; · iexact HcX
  isplitl [HB]; · iexact HB
  iexact HatYr

/-- The wait for the send of chunk `r` to the column peer: the block sent comes back. -/
theorem step_ysend_wait (K : Dev nD × Fin 323 → ℕ) (c : Dev nD) (r : Fin 64) (q : DmaSem sig) (hq : q = ysendQ r)
    {h1 : (rS r).view.WordExact} {h2 : (xA c r).view.WordExact}
    {α : Type} {Q : α → sProp 𝕄} {k : PUnit → Prog (TpuEff nD τ sig (Elt F) Λ₀ .tc) α} :
    S3 m K c r 1 ⊢ iprop((S3 m K c r 2 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (rS r) (xA c r) h1 h2) k) Q) := by
  subst hq
  unfold S3 rest3
  simp only [cur3]
  unfold y1post w2 owesE ysendPay
  iintro ⟨#HRec, ⟨Harg, Hs0, Hs1, Hcp, ⟨%W, HO⟩⟩, Hdone, Htodo, Hw1, ⟨HatY, HatX, HatR, HcR⟩, HcY, Hm⟩ Hk
  ihave HI := (inv_q m K c (ysendQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [Hw1]; · iexact Hw1
  isplitl [HatY HatY_pay1]
  · isplitl [HatY]; · iexact HatY
    iexact HatY_pay1
  isplitl [HatX HatR HcR]
  · isplitl [HatX]; · iexact HatX
    isplitl [HatR]; · iexact HatR
    iexact HcR
  iexact Hm

/-- The wait for the send of chunk `r`'s sums to the row peer: the other half of the summed rows comes back. -/
theorem step_xsend_wait (K : Dev nD × Fin 323 → ℕ) (c : Dev nD) (r : Fin 64) (q : DmaSem sig) (hq : q = xsendQ r)
    {h1 : (oO c r).view.WordExact} {h2 : (rS r).view.WordExact}
    {α : Type} {Q : α → sProp 𝕄} {k : PUnit → Prog (TpuEff nD τ sig (Elt F) Λ₀ .tc) α} :
    S3 m K c r 2 ⊢ iprop((S3 m K c r 3 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (oO c r) (rS r) h1 h2) k) Q) := by
  subst hq
  unfold S3 rest3
  simp only [cur3]
  unfold w3 owesE xsendPay owns
  iintro ⟨#HRec, ⟨Harg, Hs0, Hs1, Hcp, ⟨%W, HO⟩⟩, Hdone, Htodo, Hw1, Hw2, ⟨HatX, HatR, HcR⟩, ⟨HcX, HB, HatYr⟩⟩ Hk
  ihave HI := (inv_q m K c (xsendQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [Hw1]; · iexact Hw1
  isplitl [Hw2]; · iexact Hw2
  isplitl [HatX HatX_pay1]
  · isplitl [HatX]; · iexact HatX
    iexists _; iexact HatX_pay1
  isplitl [HatR HcR]
  · isplitl [HatR]; · iexact HatR
    iexact HcR
  isplitl [HB]; · iexact HB
  iexact HatYr

/-- The wait for the row peer's sums of chunk `r`: the result rows of the row peer's chunk, holding its sums. -/
theorem step_xrecv_wait (K : Dev nD × Fin 323 → ℕ) (c : Dev nD) (r : Fin 64) (q : DmaSem sig) (hq : q = xrecvQ r)
    {h1 : (rS r).view.WordExact} {h2 : (oP c r).view.WordExact}
    {α : Type} {Q : α → sProp 𝕄} {k : PUnit → Prog (TpuEff nD τ sig (Elt F) Λ₀ .tc) α} :
    S3 m K c r 3 ⊢ iprop((S3 m K c r 4 -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q (rS r) (oP c r) h1 h2) k) Q) := by
  subst hq
  unfold S3 rest3
  simp only [cur3]
  unfold fPost w4 owesE xrecvPay owns
  iintro ⟨#HRec, ⟨Harg, Hs0, Hs1, Hcp, ⟨%W, HO⟩⟩, Hdone, Htodo, Hw1, Hw2, Hw3, ⟨HatR, HcR⟩, ⟨HB, HatYr⟩⟩ Hk
  ihave HI := (inv_q m K c (xrecvQ r)) $$ HRec
  ihave Hlev := (lev_rec m K) $$ HRec
  sl_exec
  iapply Hk
  isplitr; · iexact HRec
  isplitl [Harg Hs0 Hs1 Hcp HO]
  · isplitl [Harg]; · iexact Harg
    isplitl [Hs0]; · iexact Hs0
    isplitl [Hs1]; · iexact Hs1
    isplitl [Hcp]; · iexact Hcp
    iexists _; iexact HO
  isplitl [Hdone]; · iexact Hdone
  isplitl [Htodo]; · iexact Htodo
  isplitl [Hw1]; · iexact Hw1
  isplitl [Hw2]; · iexact Hw2
  isplitl [Hw3]; · iexact Hw3
  isplitl [HatR HatR_pay1]
  · isplitl [HatR]; · iexact HatR
    iexists _; iexact HatR_pay1
  isplitl [HB]; · iexact HB
  iexact HatYr

/-! ## Between the iterations -/

/-- After chunk `r`'s four waits the next chunk's needs are taken out of those still to come. -/
theorem S3_next (K : Dev nD × Fin 323 → ℕ) (c : Dev nD) (r : Fin 64) (h : r.val + 1 < 64) :
    S3 m K c r 4 ⊢ S3 m K c ⟨r.val + 1, h⟩ 0 := by
  unfold S3
  simp only [cur3]
  iintro ⟨#HR, Hrest, Hdone, Htodo, Hcur⟩
  ihave Ht := (Entails.of_eq (bigSep_fromK_peel (fun x => iprop(fPre (F := F) c x ∗ y1post (F := F) c x ∗ mPost m c x)) ⟨r.val + 1, h⟩)) $$ Htodo
  icases Ht with ⟨Hnext, Htodo⟩
  isplitr; · iexact HR
  isplitl [Hrest]; · iexact Hrest
  isplitl [Hdone Hcur]
  · iapply (Entails.of_eq (bigSep_uptoK_push (fun x => fPost m c x) r).symm)
    isplitl [Hcur]; · iexact Hcur
    iexact Hdone
  isplitl [Htodo]; · iexact Htodo
  iexact Hnext

/-- After the last chunk's waits every chunk is done. -/
theorem S3_end (K : Dev nD × Fin 323 → ℕ) (c : Dev nD) : S3 m K c 63 4 ⊢ S4 m K c := by
  unfold S3 S4
  simp only [cur3]
  iintro ⟨#HR, Hrest, Hdone, -, Hcur⟩
  isplitr; · iexact HR
  isplitl [Hrest]; · iexact Hrest
  iapply (Entails.of_eq ((congrArg (fun s => bigSep s fun x => fPost m c x) uptoK_64.symm).trans
    (bigSep_uptoK_push (fun x => fPost m c x) (63 : Fin 64))).symm)
  isplitl [Hcur]; · iexact Hcur
  iexact Hdone

/-- From the middle loop's end to the last loop's start: the staging slots are free, nothing is owed, and every chunk's
    three groups of needs are zipped chunk by chunk. -/
theorem S2_S3 (K : Dev nD × Fin 323 → ℕ) (c : Dev nD) : S2 m K c 64 0 ⊢ S3 m K c 0 0 := by
  have ezip : bigSep Finset.univ (fun x : Fin 64 => iprop(fPre (F := F) c x ∗ y1post (F := F) c x ∗ mPost m c x))
      = iprop((bigSep Finset.univ fun x : Fin 64 => fPre (F := F) c x) ∗ (bigSep Finset.univ fun x : Fin 64 => y1post (F := F) c x)
          ∗ (bigSep Finset.univ fun x : Fin 64 => mPost m c x)) :=
    (bigSep_sep Finset.univ (fun x => fPre (F := F) c x) (fun x => iprop(y1post (F := F) c x ∗ mPost m c x))).trans
      (congrArg (fun P => iprop((bigSep Finset.univ fun x => fPre (F := F) c x) ∗ P))
        (bigSep_sep Finset.univ (fun x => y1post (F := F) c x) (fun x => mPost m c x)))
  have epeel : bigSep Finset.univ (fun x : Fin 64 => iprop(fPre (F := F) c x ∗ y1post (F := F) c x ∗ mPost m c x))
      = iprop((fPre (F := F) c 0 ∗ y1post (F := F) c 0 ∗ mPost m c 0)
          ∗ bigSep (fromK ((0 : Fin 64).val + 1)) (fun x : Fin 64 => iprop(fPre (F := F) c x ∗ y1post (F := F) c x ∗ mPost m c x))) :=
    (congrArg (fun s => bigSep s fun x : Fin 64 => iprop(fPre (F := F) c x ∗ y1post (F := F) c x ∗ mPost m c x)) fromK_zero.symm).trans
      (bigSep_fromK_peel (fun x => iprop(fPre (F := F) c x ∗ y1post (F := F) c x ∗ mPost m c x)) (0 : Fin 64))
  have eup : bigSep (uptoK (0 : Fin 64).val) (fun x => fPost m c x) = iprop(emp) :=
    (congrArg (fun s => bigSep s fun x => fPost m c x) uptoK_zero).trans bigSep_empty
  unfold S2 S3 rest3
  simp only [cur2, cur3]
  unfold mPreO curSt stPreO
  rw [dif_neg (show ¬ (64 < 64) by decide), dif_neg (show ¬ (64 < 64) by decide), dif_neg (show ¬ (64 + 1 < 64) by decide), Ox_64,
    show slotOf 64 = (0 : Fin 2) from rfl, show slotOf (64 + 1) = (1 : Fin 2) from rfl, eup]
  iintro ⟨#HR, Harg, Hy, Hf, Hm, -, -, -, Hs0, -, Hs1, Hcp, HO⟩
  ihave Hm' := (Entails.of_eq (congrArg (fun s => bigSep s fun x => mPost m c x) uptoK_64)) $$ Hm
  ihave Hall := (Entails.of_eq ezip.symm) $$ [Hf Hy Hm']
  · isplitl [Hf]; · iexact Hf
    isplitl [Hy]; · iexact Hy
    iexact Hm'
  ihave Hp := (Entails.of_eq epeel) $$ Hall
  icases Hp with ⟨Hhead, Htail⟩
  isplitr; · iexact HR
  isplitl [Harg Hs0 Hs1 Hcp HO]
  · isplitl [Harg]; · iexact Harg
    isplitl [Hs0]; · iexact Hs0
    isplitl [Hs1]; · iexact Hs1
    isplitl [Hcp]; · iexact Hcp
    iexact HO
  isplitr; · iempintro
  isplitl [Htail]; · iexact Htail
  iexact Hhead

/-- info: 'Cert.Kernel.RS.step_out_wait' depends on axioms: [propext, Classical.choice, Quot.sound] -/
#guard_msgs in #print axioms step_out_wait
/-- info: 'Cert.Kernel.RS.step_ysend_wait' depends on axioms: [propext, Classical.choice, Quot.sound] -/
#guard_msgs in #print axioms step_ysend_wait
/-- info: 'Cert.Kernel.RS.step_xsend_wait' depends on axioms: [propext, Classical.choice, Quot.sound] -/
#guard_msgs in #print axioms step_xsend_wait
/-- info: 'Cert.Kernel.RS.step_xrecv_wait' depends on axioms: [propext, Classical.choice, Quot.sound] -/
#guard_msgs in #print axioms step_xrecv_wait
/-- info: 'Cert.Kernel.RS.S2_S3' depends on axioms: [propext, Classical.choice, Quot.sound] -/
#guard_msgs in #print axioms S2_S3
/-- info: 'Cert.Kernel.RS.S3_next' depends on axioms: [propext, Classical.choice, Quot.sound] -/
#guard_msgs in #print axioms S3_next
/-- info: 'Cert.Kernel.RS.S3_end' depends on axioms: [propext, Classical.choice, Quot.sound] -/
#guard_msgs in #print axioms S3_end

end Cert.Kernel.RS
end
-- ==== Proof.RsKernel.Body08.lean ====
/-
  The body of the reduce-scatter, part by part: the parts 113 to 128 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps2
import proofs.«900313_g7700000000000314_dist_rs_v7x_xy2x2_y_m8192_n1024_f32_1_alg».proof.Proof.RsKernel.Steps2n
import proofs.«900313_g7700000000000314_dist_rs_v7x_xy2x2_y_m8192_n1024_f32_1_alg».proof.Proof.RsKernel.Steps2v
import proofs.«900313_g7700000000000314_dist_rs_v7x_xy2x2_y_m8192_n1024_f32_1_alg».proof.Proof.RsKernel.Steps3
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_113 (m : (ℓ : Loc nD τ sig) → Buf (Elt F) ℓ) (K : Dev nD × Fin 323 → ℕ) (c : Dev nD) (v2 : BitVec 32) (v5 : BitVec 32) (v6 : BitVec 32) (v8 : BitVec 32) (v3393 : BitVec 32) (c0_i32_2750 : BitVec 32) :
    S2 m K c 53 4 ⊢ wp frame (wpE (defs₀ (F := F)) 𝒱₀ (c : Thread nD τ) none) Set.univ
      (k0_part113 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 v3393 c0_i32_2750)
      (fun _ => S2 m K c 54 2) := by
  rw [k0_part113_eq_skeleton]; unfold k0_part113_skel
  simp only [Prog.lift, Prog.bind_op, Prog.bind_ret, Prog.pure_eq_ret]
  refine step_apply (step_xsend m K c ⟨53, by decide⟩ _ (Fin.ext (k0_dev120_eq c)) _ _ (sem_xsend ⟨53, by decide⟩ _ _) (sem_xrecv ⟨53, by decide⟩ _ _)) ?_
  refine step_apply (step_outcopy m K c ⟨53, by decide⟩ _ (sem_cpout ⟨53, by decide⟩ _ _)) ?_
  refine (S2_next m K c ⟨53, by decide⟩).trans ?_
  refine step_apply (step_stage m K c ⟨54, by decide⟩ ⟨55, by decide⟩ rfl ⟨1, by decide⟩ (by decide) _ (sem_cpin ⟨1, by decide⟩ _ _)) ?_
  refine step_apply (step_yrecv_wait m K c ⟨54, by decide⟩ _ (sem_yrecv ⟨54, by decide⟩ _ _)) ?_
  exact ret_apply c (BI.Entails.refl _)

set_option maxRecDepth 65536 in
theorem part_114 (m : (ℓ : Loc nD τ sig) → Buf (Elt F) ℓ) (K : Dev nD × Fin 323 → ℕ) (c : Dev nD) (v5 : BitVec 32) (v7 : BitVec 32) (v8 : BitVec 32) :
    S2 m K c 54 2 ⊢ wp frame (wpE (defs₀ (F := F)) 𝒱₀ (c : Thread nD τ) none) Set.univ
      (k0_part114 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 55 0) := by
  rw [k0_part114_eq_skeleton]; unfold k0_part114_skel
  simp only [Prog.lift, Prog.bind_op, Prog.bind_ret, Prog.pure_eq_ret]
  refine step_apply (step_stage_wait m K c ⟨54, by decide⟩ ⟨0, by decide⟩ (by decide) _ (sem_cpin ⟨0, by decide⟩ _ _)) ?_
  refine step_apply (step_load_recv m K c ⟨54, by decide⟩) ?_
  refine step_apply (step_load_stage m K c ⟨54, by decide⟩ ⟨0, by decide⟩ (by decide)) ?_
  refine step_apply (step_load_recv m K c ⟨54, by decide⟩) ?_
  refine step_apply (step_store m K c ⟨54, by decide⟩ _ (pay_sVal m k0_pay60 (fun _ _ => rfl) c ⟨54, by decide⟩)) ?_
  refine step_apply (step_xsend m K c ⟨54, by decide⟩ _ (Fin.ext (k0_dev121_eq c)) _ _ (sem_xsend ⟨54, by decide⟩ _ _) (sem_xrecv ⟨54, by decide⟩ _ _)) ?_
  refine step_apply (step_outcopy m K c ⟨54, by decide⟩ _ (sem_cpout ⟨54, by decide⟩ _ _)) ?_
  refine (S2_next m K c ⟨54, by decide⟩).trans ?_
  exact ret_apply c (BI.Entails.refl _)

set_option maxRecDepth 65536 in
theorem part_115 (m : (ℓ : Loc nD τ sig) → Buf (Elt F) ℓ) (K : Dev nD × Fin 323 → ℕ) (c : Dev nD) (v2 : BitVec 32) (v5 : BitVec 32) (v6 : BitVec 32) :
    S2 m K c 55 0 ⊢ wp frame (wpE (defs₀ (F := F)) 𝒱₀ (c : Thread nD τ) none) Set.univ
      (k0_part115 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6)
      (fun _ => S2 m K c 55 4) := by
  rw [k0_part115_eq_skeleton]; unfold k0_part115_skel
  simp only [Prog.lift, Prog.bind_op, Prog.bind_ret, Prog.pure_eq_ret]
  refine step_apply (step_stage m K c ⟨55, by decide⟩ ⟨56, by decide⟩ rfl ⟨0, by decide⟩ (by decide) _ (sem_cpin ⟨0, by decide⟩ _ _)) ?_
  refine step_apply (step_yrecv_wait m K c ⟨55, by decide⟩ _ (sem_yrecv ⟨55, by decide⟩ _ _)) ?_
  refine step_apply (step_stage_wait m K c ⟨55, by decide⟩ ⟨1, by decide⟩ (by decide) _ (sem_cpin ⟨1, by decide⟩ _ _)) ?_
  refine step_apply (step_load_recv m K c ⟨55, by decide⟩) ?_
  refine step_apply (step_load_stage m K c ⟨55, by decide⟩ ⟨1, by decide⟩ (by decide)) ?_
  refine step_apply (step_load_recv m K c ⟨55, by decide⟩) ?_
  refine step_apply (step_store m K c ⟨55, by decide⟩ _ (pay_sVal m k0_pay61 (fun _ _ => rfl) c ⟨55, by decide⟩)) ?_
  exact ret_apply c (BI.Entails.refl _)

set_option maxRecDepth 65536 in
theorem part_116 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (c3520_i32_2826 : BitVec 32) :
    S2 m K c 55 4 ⊢ wp frame (wpE (defs₀ (F := F)) 𝒱₀ (c : Thread nD τ) none) Set.univ
      (k0_part116 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 c3520_i32_2826)
      (fun _ => S2 m K c 56 1) := by
  rw [k0_part116_eq_skeleton]; unfold k0_part116_skel
  simp only [Prog.lift, Prog.bind_op, Prog.bind_ret, Prog.pure_eq_ret]
  refine step_apply (step_xsend m K c ⟨55, by decide⟩ _ (Fin.ext (k0_dev122_eq c)) _ _ (sem_xsend ⟨55, by decide⟩ _ _) (sem_xrecv ⟨55, by decide⟩ _ _)) ?_
  refine step_apply (step_outcopy m K c ⟨55, by decide⟩ _ (sem_cpout ⟨55, by decide⟩ _ _)) ?_
  refine (S2_next m K c ⟨55, by decide⟩).trans ?_
  refine step_apply (step_stage m K c ⟨56, by decide⟩ ⟨57, by decide⟩ rfl ⟨1, by decide⟩ (by decide) _ (sem_cpin ⟨1, by decide⟩ _ _)) ?_
  exact ret_apply c (BI.Entails.refl _)

set_option maxRecDepth 65536 in
theorem part_117 (m : (ℓ : Loc nD τ sig) → Buf (Elt F) ℓ) (K : Dev nD × Fin 323 → ℕ) (c : Dev nD) (v5 : BitVec 32) (v7 : BitVec 32) (v8 : BitVec 32) :
    S2 m K c 56 1 ⊢ wp frame (wpE (defs₀ (F := F)) 𝒱₀ (c : Thread nD τ) none) Set.univ
      (k0_part117 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 56 5) := by
  rw [k0_part117_eq_skeleton]; unfold k0_part117_skel
  simp only [Prog.lift, Prog.bind_op, Prog.bind_ret, Prog.pure_eq_ret]
  refine step_apply (step_yrecv_wait m K c ⟨56, by decide⟩ _ (sem_yrecv ⟨56, by decide⟩ _ _)) ?_
  refine step_apply (step_stage_wait m K c ⟨56, by decide⟩ ⟨0, by decide⟩ (by decide) _ (sem_cpin ⟨0, by decide⟩ _ _)) ?_
  refine step_apply (step_load_recv m K c ⟨56, by decide⟩) ?_
  refine step_apply (step_load_stage m K c ⟨56, by decide⟩ ⟨0, by decide⟩ (by decide)) ?_
  refine step_apply (step_load_recv m K c ⟨56, by decide⟩) ?_
  refine step_apply (step_store m K c ⟨56, by decide⟩ _ (pay_sVal m k0_pay62 (fun _ _ => rfl) c ⟨56, by decide⟩)) ?_
  refine step_apply (step_xsend m K c ⟨56, by decide⟩ _ (Fin.ext (k0_dev123_eq c)) _ _ (sem_xsend ⟨56, by decide⟩ _ _) (sem_xrecv ⟨56, by decide⟩ _ _)) ?_
  exact ret_apply c (BI.Entails.refl _)

set_option maxRecDepth 65536 in
theorem part_118 (m : (ℓ : Loc nD τ sig) → Buf (Elt F) ℓ) (K : Dev nD × Fin 323 → ℕ) (c : Dev nD) (v2 : BitVec 32) (v5 : BitVec 32) (v6 : BitVec 32) (v8 : BitVec 32) :
    S2 m K c 56 5 ⊢ wp frame (wpE (defs₀ (F := F)) 𝒱₀ (c : Thread nD τ) none) Set.univ
      (k0_part118 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun ret => iprop(⌜ret = (k0_pay63 (yVal m c ⟨57, by decide⟩) (shapeCast S1x64x1024 (bVal m c ⟨57, by decide⟩) shapeCasts_S64x1024_S1x64x1024))⌝ ∗ S2 m K c 57 3)) := by
  rw [k0_part118_eq_skeleton]; unfold k0_part118_skel
  simp only [Prog.lift, Prog.bind_op, Prog.bind_ret, Prog.pure_eq_ret]
  refine step_apply (step_outcopy m K c ⟨56, by decide⟩ _ (sem_cpout ⟨56, by decide⟩ _ _)) ?_
  refine (S2_next m K c ⟨56, by decide⟩).trans ?_
  refine step_apply (step_stage m K c ⟨57, by decide⟩ ⟨58, by decide⟩ rfl ⟨0, by decide⟩ (by decide) _ (sem_cpin ⟨0, by decide⟩ _ _)) ?_
  refine step_apply (step_yrecv_wait m K c ⟨57, by decide⟩ _ (sem_yrecv ⟨57, by decide⟩ _ _)) ?_
  refine step_apply (step_stage_wait m K c ⟨57, by decide⟩ ⟨1, by decide⟩ (by decide) _ (sem_cpin ⟨1, by decide⟩ _ _)) ?_
  refine step_apply (step_load_recv m K c ⟨57, by decide⟩) ?_
  refine step_apply (step_load_stage m K c ⟨57, by decide⟩ ⟨1, by decide⟩ (by decide)) ?_
  exact ret_fact c rfl

set_option maxRecDepth 65536 in
theorem part_119 (m : (ℓ : Loc nD τ sig) → Buf (Elt F) ℓ) (K : Dev nD × Fin 323 → ℕ) (c : Dev nD) (v2 : BitVec 32) (v5 : BitVec 32) (v7 : BitVec 32) (v8 : BitVec 32) :
    S2 m K c 57 3 ⊢ wp frame (wpE (defs₀ (F := F)) 𝒱₀ (c : Thread nD τ) none) Set.univ
      (k0_part119 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v7 v8 (k0_pay63 (yVal m c ⟨57, by decide⟩) (shapeCast S1x64x1024 (bVal m c ⟨57, by decide⟩) shapeCasts_S64x1024_S1x64x1024)))
      (fun _ => S2 m K c 58 1) := by
  rw [k0_part119_eq_skeleton]; unfold k0_part119_skel
  simp only [Prog.lift, Prog.bind_op, Prog.bind_ret, Prog.pure_eq_ret]
  refine step_apply (step_load_recv m K c ⟨57, by decide⟩) ?_
  refine step_apply (step_store m K c ⟨57, by decide⟩ _ (pay_sVal_cut m k0_pay64 k0_pay63 (fun _ => rfl) (fun _ _ => rfl) c ⟨57, by decide⟩)) ?_
  refine step_apply (step_xsend m K c ⟨57, by decide⟩ _ (Fin.ext (k0_dev124_eq c)) _ _ (sem_xsend ⟨57, by decide⟩ _ _) (sem_xrecv ⟨57, by decide⟩ _ _)) ?_
  refine step_apply (step_outcopy m K c ⟨57, by decide⟩ _ (sem_cpout ⟨57, by decide⟩ _ _)) ?_
  refine (S2_next m K c ⟨57, by decide⟩).trans ?_
  refine step_apply (step_stage m K c ⟨58, by decide⟩ ⟨59, by decide⟩ rfl ⟨1, by decide⟩ (by decide) _ (sem_cpin ⟨1, by decide⟩ _ _)) ?_
  exact ret_apply c (BI.Entails.refl _)

set_option maxRecDepth 65536 in
theorem part_120 (m : (ℓ : Loc nD τ sig) → Buf (Elt F) ℓ) (K : Dev nD × Fin 323 → ℕ) (c : Dev nD) (v5 : BitVec 32) (v6 : BitVec 32) (v7 : BitVec 32) (v8 : BitVec 32) (v3601 : BitVec 32) :
    S2 m K c 58 1 ⊢ wp frame (wpE (defs₀ (F := F)) 𝒱₀ (c : Thread nD τ) none) Set.univ
      (k0_part120 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v6 v7 v8 v3601)
      (fun _ => S2 m K c 58 5) := by
  rw [k0_part120_eq_skeleton]; unfold k0_part120_skel
  simp only [Prog.lift, Prog.bind_op, Prog.bind_ret, Prog.pure_eq_ret]
  refine step_apply (step_yrecv_wait m K c ⟨58, by decide⟩ _ (sem_yrecv ⟨58, by decide⟩ _ _)) ?_
  refine step_apply (step_stage_wait m K c ⟨58, by decide⟩ ⟨0, by decide⟩ (by decide) _ (sem_cpin ⟨0, by decide⟩ _ _)) ?_
  refine step_apply (step_load_recv m K c ⟨58, by decide⟩) ?_
  refine step_apply (step_load_stage m K c ⟨58, by decide⟩ ⟨0, by decide⟩ (by decide)) ?_
  refine step_apply (step_load_recv m K c ⟨58, by decide⟩) ?_
  refine step_apply (step_store m K c ⟨58, by decide⟩ _ (pay_sVal m k0_pay65 (fun _ _ => rfl) c ⟨58, by decide⟩)) ?_
  refine step_apply (step_xsend m K c ⟨58, by decide⟩ _ (Fin.ext (k0_dev125_eq c)) _ _ (sem_xsend ⟨58, by decide⟩ _ _) (sem_xrecv ⟨58, by decide⟩ _ _)) ?_
  exact ret_apply c (BI.Entails.refl _)

set_option maxRecDepth 65536 in
theorem part_121 (m : (ℓ : Loc nD τ sig) → Buf (Elt F) ℓ) (K : Dev nD × Fin 323 → ℕ) (c : Dev nD) (v2 : BitVec 32) (v5 : BitVec 32) (v6 : BitVec 32) (v8 : BitVec 32) (c3712_i32_2955 : BitVec 32) :
    S2 m K c 58 5 ⊢ wp frame (wpE (defs₀ (F := F)) 𝒱₀ (c : Thread nD τ) none) Set.univ
      (k0_part121 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8 c3712_i32_2955)
      (fun ret => iprop(⌜ret = (yVal m c ⟨59, by decide⟩)⌝ ∗ S2 m K c 59 3)) := by
  rw [k0_part121_eq_skeleton]; unfold k0_part121_skel
  simp only [Prog.lift, Prog.bind_op, Prog.bind_ret, Prog.pure_eq_ret]
  refine step_apply (step_outcopy m K c ⟨58, by decide⟩ _ (sem_cpout ⟨58, by decide⟩ _ _)) ?_
  refine (S2_next m K c ⟨58, by decide⟩).trans ?_
  refine step_apply (step_stage m K c ⟨59, by decide⟩ ⟨60, by decide⟩ rfl ⟨0, by decide⟩ (by decide) _ (sem_cpin ⟨0, by decide⟩ _ _)) ?_
  refine step_apply (step_yrecv_wait m K c ⟨59, by decide⟩ _ (sem_yrecv ⟨59, by decide⟩ _ _)) ?_
  refine step_apply (step_stage_wait m K c ⟨59, by decide⟩ ⟨1, by decide⟩ (by decide) _ (sem_cpin ⟨1, by decide⟩ _ _)) ?_
  refine step_apply (step_load_recv m K c ⟨59, by decide⟩) ?_
  exact ret_fact c rfl

set_option maxRecDepth 65536 in
theorem part_122 (m : (ℓ : Loc nD τ sig) → Buf (Elt F) ℓ) (K : Dev nD × Fin 323 → ℕ) (c : Dev nD) (v5 : BitVec 32) (v7 : BitVec 32) (v8 : BitVec 32) :
    S2 m K c 59 3 ⊢ wp frame (wpE (defs₀ (F := F)) 𝒱₀ (c : Thread nD τ) none) Set.univ
      (k0_part122 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨59, by decide⟩))
      (fun _ => S2 m K c 60 1) := by
  rw [k0_part122_eq_skeleton]; unfold k0_part122_skel
  simp only [Prog.lift, Prog.bind_op, Prog.bind_ret, Prog.pure_eq_ret]
  refine step_apply (step_load_stage m K c ⟨59, by decide⟩ ⟨1, by decide⟩ (by decide)) ?_
  refine step_apply (step_load_recv m K c ⟨59, by decide⟩) ?_
  refine step_apply (step_store m K c ⟨59, by decide⟩ _ (pay_sVal m k0_pay66 (fun _ _ => rfl) c ⟨59, by decide⟩)) ?_
  refine step_apply (step_xsend m K c ⟨59, by decide⟩ _ (Fin.ext (k0_dev126_eq c)) _ _ (sem_xsend ⟨59, by decide⟩ _ _) (sem_xrecv ⟨59, by decide⟩ _ _)) ?_
  refine step_apply (step_outcopy m K c ⟨59, by decide⟩ _ (sem_cpout ⟨59, by decide⟩ _ _)) ?_
  refine (S2_next m K c ⟨59, by decide⟩).trans ?_
  refine step_apply (step_stage m K c ⟨60, by decide⟩ ⟨61, by decide⟩ rfl ⟨1, by decide⟩ (by decide) _ (sem_cpin ⟨1, by decide⟩ _ _)) ?_
  exact ret_apply c (BI.Entails.refl _)

set_option maxRecDepth 65536 in
theorem part_123 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 60 1 ⊢ wp frame (wpE (defs₀ (F := F)) 𝒱₀ (c : Thread nD τ) none) Set.univ
      (k0_part123 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 60 4) := by
  rw [k0_part123_eq_skeleton]; unfold k0_part123_skel
  simp only [Prog.lift, Prog.bind_op, Prog.bind_ret, Prog.pure_eq_ret]
  refine step_apply (step_yrecv_wait m K c ⟨60, by decide⟩ _ (sem_yrecv ⟨60, by decide⟩ _ _)) ?_
  refine step_apply (step_stage_wait m K c ⟨60, by decide⟩ ⟨0, by decide⟩ (by decide) _ (sem_cpin ⟨0, by decide⟩ _ _)) ?_
  refine step_apply (step_load_recv m K c ⟨60, by decide⟩) ?_
  refine step_apply (step_load_stage m K c ⟨60, by decide⟩ ⟨0, by decide⟩ (by decide)) ?_
  refine step_apply (step_load_recv m K c ⟨60, by decide⟩) ?_
  refine step_apply (step_store m K c ⟨60, by decide⟩ _ (pay_sVal m k0_pay67 (fun _ _ => rfl) c ⟨60, by decide⟩)) ?_
  exact ret_apply c (BI.Entails.refl _)

set_option maxRecDepth 65536 in
theorem part_124 (m : (ℓ : Loc nD τ sig) → Buf (Elt F) ℓ) (K : Dev nD × Fin 323 → ℕ) (c : Dev nD) (v2 : BitVec 32) (v5 : BitVec 32) (v6 : BitVec 32) (v8 : BitVec 32) :
    S2 m K c 60 4 ⊢ wp frame (wpE (defs₀ (F := F)) 𝒱₀ (c : Thread nD τ) none) Set.univ
      (k0_part124 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v8)
      (fun _ => S2 m K c 61 2) := by
  rw [k0_part124_eq_skeleton]; unfold k0_part124_skel
  simp only [Prog.lift, Prog.bind_op, Prog.bind_ret, Prog.pure_eq_ret]
  refine step_apply (step_xsend m K c ⟨60, by decide⟩ _ (Fin.ext (k0_dev127_eq c)) _ _ (sem_xsend ⟨60, by decide⟩ _ _) (sem_xrecv ⟨60, by decide⟩ _ _)) ?_
  refine step_apply (step_outcopy m K c ⟨60, by decide⟩ _ (sem_cpout ⟨60, by decide⟩ _ _)) ?_
  refine (S2_next m K c ⟨60, by decide⟩).trans ?_
  refine step_apply (step_stage m K c ⟨61, by decide⟩ ⟨62, by decide⟩ rfl ⟨0, by decide⟩ (by decide) _ (sem_cpin ⟨0, by decide⟩ _ _)) ?_
  refine step_apply (step_yrecv_wait m K c ⟨61, by decide⟩ _ (sem_yrecv ⟨61, by decide⟩ _ _)) ?_
  exact ret_apply c (BI.Entails.refl _)

set_option maxRecDepth 65536 in
theorem part_125 (m : (ℓ : Loc nD τ sig) → Buf (Elt F) ℓ) (K : Dev nD × Fin 323 → ℕ) (c : Dev nD) (v5 : BitVec 32) (v7 : BitVec 32) (v8 : BitVec 32) :
    S2 m K c 61 2 ⊢ wp frame (wpE (defs₀ (F := F)) 𝒱₀ (c : Thread nD τ) none) Set.univ
      (k0_part125 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8)
      (fun _ => S2 m K c 62 0) := by
  rw [k0_part125_eq_skeleton]; unfold k0_part125_skel
  simp only [Prog.lift, Prog.bind_op, Prog.bind_ret, Prog.pure_eq_ret]
  refine step_apply (step_stage_wait m K c ⟨61, by decide⟩ ⟨1, by decide⟩ (by decide) _ (sem_cpin ⟨1, by decide⟩ _ _)) ?_
  refine step_apply (step_load_recv m K c ⟨61, by decide⟩) ?_
  refine step_apply (step_load_stage m K c ⟨61, by decide⟩ ⟨1, by decide⟩ (by decide)) ?_
  refine step_apply (step_load_recv m K c ⟨61, by decide⟩) ?_
  refine step_apply (step_store m K c ⟨61, by decide⟩ _ (pay_sVal m k0_pay68 (fun _ _ => rfl) c ⟨61, by decide⟩)) ?_
  refine step_apply (step_xsend m K c ⟨61, by decide⟩ _ (Fin.ext (k0_dev128_eq c)) _ _ (sem_xsend ⟨61, by decide⟩ _ _) (sem_xrecv ⟨61, by decide⟩ _ _)) ?_
  refine step_apply (step_outcopy m K c ⟨61, by decide⟩ _ (sem_cpout ⟨61, by decide⟩ _ _)) ?_
  refine (S2_next m K c ⟨61, by decide⟩).trans ?_
  exact ret_apply c (BI.Entails.refl _)

set_option maxRecDepth 65536 in
theorem part_126 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 62 0 ⊢ wp frame (wpE (defs₀ (F := F)) 𝒱₀ (c : Thread nD τ) none) Set.univ
      (k0_part126 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 62 4) := by
  rw [k0_part126_eq_skeleton]; unfold k0_part126_skel
  simp only [Prog.lift, Prog.bind_op, Prog.bind_ret, Prog.pure_eq_ret]
  refine step_apply (step_stage m K c ⟨62, by decide⟩ ⟨63, by decide⟩ rfl ⟨1, by decide⟩ (by decide) _ (sem_cpin ⟨1, by decide⟩ _ _)) ?_
  refine step_apply (step_yrecv_wait m K c ⟨62, by decide⟩ _ (sem_yrecv ⟨62, by decide⟩ _ _)) ?_
  refine step_apply (step_stage_wait m K c ⟨62, by decide⟩ ⟨0, by decide⟩ (by decide) _ (sem_cpin ⟨0, by decide⟩ _ _)) ?_
  refine step_apply (step_load_recv m K c ⟨62, by decide⟩) ?_
  refine step_apply (step_load_stage m K c ⟨62, by decide⟩ ⟨0, by decide⟩ (by decide)) ?_
  refine step_apply (step_load_recv m K c ⟨62, by decide⟩) ?_
  refine step_apply (step_store m K c ⟨62, by decide⟩ _ (pay_sVal m k0_pay69 (fun _ _ => rfl) c ⟨62, by decide⟩)) ?_
  exact ret_apply c (BI.Entails.refl _)

set_option maxRecDepth 65536 in
theorem part_127 (m : (ℓ : Loc nD τ sig) → Buf (Elt F) ℓ) (K : Dev nD × Fin 323 → ℕ) (c : Dev nD) (v2 : BitVec 32) (v6 : BitVec 32) (v8 : BitVec 32) (v3808 : BitVec 32) (v3809 : BitVec 32) :
    S2 m K c 62 4 ⊢ wp frame (wpE (defs₀ (F := F)) 𝒱₀ (c : Thread nD τ) none) Set.univ
      (k0_part127 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v6 v8 v3808 v3809)
      (fun ret => iprop(⌜ret = ⟨(yVal m c ⟨63, by decide⟩), (k0_pay70 (shapeCast S1x64x1024 (bVal m c ⟨63, by decide⟩) shapeCasts_S64x1024_S1x64x1024))⟩⌝ ∗ S2 m K c 63 3)) := by
  rw [k0_part127_eq_skeleton]; unfold k0_part127_skel
  simp only [Prog.lift, Prog.bind_op, Prog.bind_ret, Prog.pure_eq_ret]
  refine step_apply (step_xsend m K c ⟨62, by decide⟩ _ (Fin.ext (k0_dev129_eq c)) _ _ (sem_xsend ⟨62, by decide⟩ _ _) (sem_xrecv ⟨62, by decide⟩ _ _)) ?_
  refine step_apply (step_outcopy m K c ⟨62, by decide⟩ _ (sem_cpout ⟨62, by decide⟩ _ _)) ?_
  refine (S2_next m K c ⟨62, by decide⟩).trans ?_
  refine (skip_stage m K c).trans ?_
  refine step_apply (step_yrecv_wait m K c ⟨63, by decide⟩ _ (sem_yrecv ⟨63, by decide⟩ _ _)) ?_
  refine step_apply (step_stage_wait m K c ⟨63, by decide⟩ ⟨1, by decide⟩ (by decide) _ (sem_cpin ⟨1, by decide⟩ _ _)) ?_
  refine step_apply (step_load_recv m K c ⟨63, by decide⟩) ?_
  refine step_apply (step_load_stage m K c ⟨63, by decide⟩ ⟨1, by decide⟩ (by decide)) ?_
  exact ret_fact c rfl

set_option maxRecDepth 65536 in
theorem part_128 (m : (ℓ : Loc nD τ sig) → Buf (Elt F) ℓ) (K : Dev nD × Fin 323 → ℕ) (c : Dev nD) (v5 : BitVec 32) (v7 : BitVec 32) (v8 : BitVec 32) :
    S2 m K c 63 3 ⊢ wp frame (wpE (defs₀ (F := F)) 𝒱₀ (c : Thread nD τ) none) Set.univ
      (k0_part128 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v8 (yVal m c ⟨63, by decide⟩) (k0_pay70 (shapeCast S1x64x1024 (bVal m c ⟨63, by decide⟩) shapeCasts_S64x1024_S1x64x1024)))
      (fun _ => S3 m K c ⟨0, by decide⟩ 2) := by
  rw [k0_part128_eq_skeleton]; unfold k0_part128_skel
  simp only [Prog.lift, Prog.bind_op, Prog.bind_ret, Prog.pure_eq_ret]
  refine step_apply (step_load_recv m K c ⟨63, by decide⟩) ?_
  refine step_apply (step_store m K c ⟨63, by decide⟩ _ (pay_sVal_cut_last m k0_pay71 k0_pay70 (fun _ _ => rfl) (fun _ => rfl) c ⟨63, by decide⟩)) ?_
  refine step_apply (step_xsend m K c ⟨63, by decide⟩ _ (Fin.ext (k0_dev130_eq c)) _ _ (sem_xsend ⟨63, by decide⟩ _ _) (sem_xrecv ⟨63, by decide⟩ _ _)) ?_
  refine step_apply (step_outcopy m K c ⟨63, by decide⟩ _ (sem_cpout ⟨63, by decide⟩ _ _)) ?_
  refine (S2_next m K c ⟨63, by decide⟩).trans ?_
  refine (S2_S3 m K c).trans ?_
  refine step_apply (step_out_wait m K c ⟨0, by decide⟩ _ (sem_cpout ⟨0, by decide⟩ _ _)) ?_
  refine step_apply (step_ysend_wait m K c ⟨0, by decide⟩ _ (sem_ysend ⟨0, by decide⟩ _ _)) ?_
  exact ret_apply c (BI.Entails.refl _)

/-- info: 'Cert.Kernel.RS.part_128' depends on axioms: [propext, Classical.choice, Quot.sound] -/
#guard_msgs in #print axioms part_128

end Cert.Kernel.RS

end
-- ==== Proof.RsKernel.Body09.lean ====
/-
  The body of the reduce-scatter, part by part: the parts 129 to 144 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps3
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_129 (m : (ℓ : Loc nD τ sig) → Buf (Elt F) ℓ) (K : Dev nD × Fin 323 → ℕ) (c : Dev nD) (v5 : BitVec 32) (v7 : BitVec 32) (v10 : BitVec 32) :
    S3 m K c ⟨0, by decide⟩ 2 ⊢ wp frame (wpE (defs₀ (F := F)) 𝒱₀ (c : Thread nD τ) none) Set.univ
      (k0_part129 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨1, by decide⟩ 2) := by
  rw [k0_part129_eq_skeleton]; unfold k0_part129_skel
  simp only [Prog.lift, Prog.bind_op, Prog.bind_ret, Prog.pure_eq_ret]
  refine step_apply (step_xsend_wait m K c ⟨0, by decide⟩ _ (sem_xsend ⟨0, by decide⟩ _ _)) ?_
  refine step_apply (step_xrecv_wait m K c ⟨0, by decide⟩ _ (sem_xrecv ⟨0, by decide⟩ _ _)) ?_
  refine (S3_next m K c ⟨0, by decide⟩ (by decide)).trans ?_
  refine step_apply (step_out_wait m K c ⟨1, by decide⟩ _ (sem_cpout ⟨1, by decide⟩ _ _)) ?_
  refine step_apply (step_ysend_wait m K c ⟨1, by decide⟩ _ (sem_ysend ⟨1, by decide⟩ _ _)) ?_
  exact ret_apply c (BI.Entails.refl _)

set_option maxRecDepth 65536 in
theorem part_130 (m : (ℓ : Loc nD τ sig) → Buf (Elt F) ℓ) (K : Dev nD × Fin 323 → ℕ) (c : Dev nD) (v5 : BitVec 32) (v7 : BitVec 32) (v10 : BitVec 32) :
    S3 m K c ⟨1, by decide⟩ 2 ⊢ wp frame (wpE (defs₀ (F := F)) 𝒱₀ (c : Thread nD τ) none) Set.univ
      (k0_part130 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨2, by decide⟩ 3) := by
  rw [k0_part130_eq_skeleton]; unfold k0_part130_skel
  simp only [Prog.lift, Prog.bind_op, Prog.bind_ret, Prog.pure_eq_ret]
  refine step_apply (step_xsend_wait m K c ⟨1, by decide⟩ _ (sem_xsend ⟨1, by decide⟩ _ _)) ?_
  refine step_apply (step_xrecv_wait m K c ⟨1, by decide⟩ _ (sem_xrecv ⟨1, by decide⟩ _ _)) ?_
  refine (S3_next m K c ⟨1, by decide⟩ (by decide)).trans ?_
  refine step_apply (step_out_wait m K c ⟨2, by decide⟩ _ (sem_cpout ⟨2, by decide⟩ _ _)) ?_
  refine step_apply (step_ysend_wait m K c ⟨2, by decide⟩ _ (sem_ysend ⟨2, by decide⟩ _ _)) ?_
  refine step_apply (step_xsend_wait m K c ⟨2, by decide⟩ _ (sem_xsend ⟨2, by decide⟩ _ _)) ?_
  exact ret_apply c (BI.Entails.refl _)

set_option maxRecDepth 65536 in
theorem part_131 (m : (ℓ : Loc nD τ sig) → Buf (Elt F) ℓ) (K : Dev nD × Fin 323 → ℕ) (c : Dev nD) (v5 : BitVec 32) (v7 : BitVec 32) (v10 : BitVec 32) (v3918 : BitVec 32) (c0_i32_3223 : BitVec 32) :
    S3 m K c ⟨2, by decide⟩ 3 ⊢ wp frame (wpE (defs₀ (F := F)) 𝒱₀ (c : Thread nD τ) none) Set.univ
      (k0_part131 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v3918 c0_i32_3223)
      (fun _ => S3 m K c ⟨3, by decide⟩ 3) := by
  rw [k0_part131_eq_skeleton]; unfold k0_part131_skel
  simp only [Prog.lift, Prog.bind_op, Prog.bind_ret, Prog.pure_eq_ret]
  refine step_apply (step_xrecv_wait m K c ⟨2, by decide⟩ _ (sem_xrecv ⟨2, by decide⟩ _ _)) ?_
  refine (S3_next m K c ⟨2, by decide⟩ (by decide)).trans ?_
  refine step_apply (step_out_wait m K c ⟨3, by decide⟩ _ (sem_cpout ⟨3, by decide⟩ _ _)) ?_
  refine step_apply (step_ysend_wait m K c ⟨3, by decide⟩ _ (sem_ysend ⟨3, by decide⟩ _ _)) ?_
  refine step_apply (step_xsend_wait m K c ⟨3, by decide⟩ _ (sem_xsend ⟨3, by decide⟩ _ _)) ?_
  exact ret_apply c (BI.Entails.refl _)

set_option maxRecDepth 65536 in
theorem part_132 (m : (ℓ : Loc nD τ sig) → Buf (Elt F) ℓ) (K : Dev nD × Fin 323 → ℕ) (c : Dev nD) (v5 : BitVec 32) (v7 : BitVec 32) (v10 : BitVec 32) :
    S3 m K c ⟨3, by decide⟩ 3 ⊢ wp frame (wpE (defs₀ (F := F)) 𝒱₀ (c : Thread nD τ) none) Set.univ
      (k0_part132 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨5, by decide⟩ 0) := by
  rw [k0_part132_eq_skeleton]; unfold k0_part132_skel
  simp only [Prog.lift, Prog.bind_op, Prog.bind_ret, Prog.pure_eq_ret]
  refine step_apply (step_xrecv_wait m K c ⟨3, by decide⟩ _ (sem_xrecv ⟨3, by decide⟩ _ _)) ?_
  refine (S3_next m K c ⟨3, by decide⟩ (by decide)).trans ?_
  refine step_apply (step_out_wait m K c ⟨4, by decide⟩ _ (sem_cpout ⟨4, by decide⟩ _ _)) ?_
  refine step_apply (step_ysend_wait m K c ⟨4, by decide⟩ _ (sem_ysend ⟨4, by decide⟩ _ _)) ?_
  refine step_apply (step_xsend_wait m K c ⟨4, by decide⟩ _ (sem_xsend ⟨4, by decide⟩ _ _)) ?_
  refine step_apply (step_xrecv_wait m K c ⟨4, by decide⟩ _ (sem_xrecv ⟨4, by decide⟩ _ _)) ?_
  refine (S3_next m K c ⟨4, by decide⟩ (by decide)).trans ?_
  exact ret_apply c (BI.Entails.refl _)

set_option maxRecDepth 65536 in
theorem part_133 (m : (ℓ : Loc nD τ sig) → Buf (Elt F) ℓ) (K : Dev nD × Fin 323 → ℕ) (c : Dev nD) (v5 : BitVec 32) (v7 : BitVec 32) (v10 : BitVec 32) :
    S3 m K c ⟨5, by decide⟩ 0 ⊢ wp frame (wpE (defs₀ (F := F)) 𝒱₀ (c : Thread nD τ) none) Set.univ
      (k0_part133 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨6, by decide⟩ 1) := by
  rw [k0_part133_eq_skeleton]; unfold k0_part133_skel
  simp only [Prog.lift, Prog.bind_op, Prog.bind_ret, Prog.pure_eq_ret]
  refine step_apply (step_out_wait m K c ⟨5, by decide⟩ _ (sem_cpout ⟨5, by decide⟩ _ _)) ?_
  refine step_apply (step_ysend_wait m K c ⟨5, by decide⟩ _ (sem_ysend ⟨5, by decide⟩ _ _)) ?_
  refine step_apply (step_xsend_wait m K c ⟨5, by decide⟩ _ (sem_xsend ⟨5, by decide⟩ _ _)) ?_
  refine step_apply (step_xrecv_wait m K c ⟨5, by decide⟩ _ (sem_xrecv ⟨5, by decide⟩ _ _)) ?_
  refine (S3_next m K c ⟨5, by decide⟩ (by decide)).trans ?_
  refine step_apply (step_out_wait m K c ⟨6, by decide⟩ _ (sem_cpout ⟨6, by decide⟩ _ _)) ?_
  exact ret_apply c (BI.Entails.refl _)

set_option maxRecDepth 65536 in
theorem part_134 (m : (ℓ : Loc nD τ sig) → Buf (Elt F) ℓ) (K : Dev nD × Fin 323 → ℕ) (c : Dev nD) (v5 : BitVec 32) (v7 : BitVec 32) (v10 : BitVec 32) :
    S3 m K c ⟨6, by decide⟩ 1 ⊢ wp frame (wpE (defs₀ (F := F)) 𝒱₀ (c : Thread nD τ) none) Set.univ
      (k0_part134 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨7, by decide⟩ 2) := by
  rw [k0_part134_eq_skeleton]; unfold k0_part134_skel
  simp only [Prog.lift, Prog.bind_op, Prog.bind_ret, Prog.pure_eq_ret]
  refine step_apply (step_ysend_wait m K c ⟨6, by decide⟩ _ (sem_ysend ⟨6, by decide⟩ _ _)) ?_
  refine step_apply (step_xsend_wait m K c ⟨6, by decide⟩ _ (sem_xsend ⟨6, by decide⟩ _ _)) ?_
  refine step_apply (step_xrecv_wait m K c ⟨6, by decide⟩ _ (sem_xrecv ⟨6, by decide⟩ _ _)) ?_
  refine (S3_next m K c ⟨6, by decide⟩ (by decide)).trans ?_
  refine step_apply (step_out_wait m K c ⟨7, by decide⟩ _ (sem_cpout ⟨7, by decide⟩ _ _)) ?_
  refine step_apply (step_ysend_wait m K c ⟨7, by decide⟩ _ (sem_ysend ⟨7, by decide⟩ _ _)) ?_
  exact ret_apply c (BI.Entails.refl _)

set_option maxRecDepth 65536 in
theorem part_135 (m : (ℓ : Loc nD τ sig) → Buf (Elt F) ℓ) (K : Dev nD × Fin 323 → ℕ) (c : Dev nD) (v5 : BitVec 32) (v7 : BitVec 32) (v10 : BitVec 32) :
    S3 m K c ⟨7, by decide⟩ 2 ⊢ wp frame (wpE (defs₀ (F := F)) 𝒱₀ (c : Thread nD τ) none) Set.univ
      (k0_part135 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨8, by decide⟩ 3) := by
  rw [k0_part135_eq_skeleton]; unfold k0_part135_skel
  simp only [Prog.lift, Prog.bind_op, Prog.bind_ret, Prog.pure_eq_ret]
  refine step_apply (step_xsend_wait m K c ⟨7, by decide⟩ _ (sem_xsend ⟨7, by decide⟩ _ _)) ?_
  refine step_apply (step_xrecv_wait m K c ⟨7, by decide⟩ _ (sem_xrecv ⟨7, by decide⟩ _ _)) ?_
  refine (S3_next m K c ⟨7, by decide⟩ (by decide)).trans ?_
  refine step_apply (step_out_wait m K c ⟨8, by decide⟩ _ (sem_cpout ⟨8, by decide⟩ _ _)) ?_
  refine step_apply (step_ysend_wait m K c ⟨8, by decide⟩ _ (sem_ysend ⟨8, by decide⟩ _ _)) ?_
  refine step_apply (step_xsend_wait m K c ⟨8, by decide⟩ _ (sem_xsend ⟨8, by decide⟩ _ _)) ?_
  exact ret_apply c (BI.Entails.refl _)

set_option maxRecDepth 65536 in
theorem part_136 (m : (ℓ : Loc nD τ sig) → Buf (Elt F) ℓ) (K : Dev nD × Fin 323 → ℕ) (c : Dev nD) (v5 : BitVec 32) (v7 : BitVec 32) (v10 : BitVec 32) (c512_i32_3369 : BitVec 32) :
    S3 m K c ⟨8, by decide⟩ 3 ⊢ wp frame (wpE (defs₀ (F := F)) 𝒱₀ (c : Thread nD τ) none) Set.univ
      (k0_part136 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 c512_i32_3369)
      (fun _ => S3 m K c ⟨9, by decide⟩ 3) := by
  rw [k0_part136_eq_skeleton]; unfold k0_part136_skel
  simp only [Prog.lift, Prog.bind_op, Prog.bind_ret, Prog.pure_eq_ret]
  refine step_apply (step_xrecv_wait m K c ⟨8, by decide⟩ _ (sem_xrecv ⟨8, by decide⟩ _ _)) ?_
  refine (S3_next m K c ⟨8, by decide⟩ (by decide)).trans ?_
  refine step_apply (step_out_wait m K c ⟨9, by decide⟩ _ (sem_cpout ⟨9, by decide⟩ _ _)) ?_
  refine step_apply (step_ysend_wait m K c ⟨9, by decide⟩ _ (sem_ysend ⟨9, by decide⟩ _ _)) ?_
  refine step_apply (step_xsend_wait m K c ⟨9, by decide⟩ _ (sem_xsend ⟨9, by decide⟩ _ _)) ?_
  exact ret_apply c (BI.Entails.refl _)

set_option maxRecDepth 65536 in
theorem part_137 (m : (ℓ : Loc nD τ sig) → Buf (Elt F) ℓ) (K : Dev nD × Fin 323 → ℕ) (c : Dev nD) (v5 : BitVec 32) (v7 : BitVec 32) (v10 : BitVec 32) (v4073 : BitVec 32) (v4074 : BitVec 32) :
    S3 m K c ⟨9, by decide⟩ 3 ⊢ wp frame (wpE (defs₀ (F := F)) 𝒱₀ (c : Thread nD τ) none) Set.univ
      (k0_part137 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4073 v4074)
      (fun _ => S3 m K c ⟨11, by decide⟩ 0) := by
  rw [k0_part137_eq_skeleton]; unfold k0_part137_skel
  simp only [Prog.lift, Prog.bind_op, Prog.bind_ret, Prog.pure_eq_ret]
  refine step_apply (step_xrecv_wait m K c ⟨9, by decide⟩ _ (sem_xrecv ⟨9, by decide⟩ _ _)) ?_
  refine (S3_next m K c ⟨9, by decide⟩ (by decide)).trans ?_
  refine step_apply (step_out_wait m K c ⟨10, by decide⟩ _ (sem_cpout ⟨10, by decide⟩ _ _)) ?_
  refine step_apply (step_ysend_wait m K c ⟨10, by decide⟩ _ (sem_ysend ⟨10, by decide⟩ _ _)) ?_
  refine step_apply (step_xsend_wait m K c ⟨10, by decide⟩ _ (sem_xsend ⟨10, by decide⟩ _ _)) ?_
  refine step_apply (step_xrecv_wait m K c ⟨10, by decide⟩ _ (sem_xrecv ⟨10, by decide⟩ _ _)) ?_
  refine (S3_next m K c ⟨10, by decide⟩ (by decide)).trans ?_
  exact ret_apply c (BI.Entails.refl _)

set_option maxRecDepth 65536 in
theorem part_138 (m : (ℓ : Loc nD τ sig) → Buf (Elt F) ℓ) (K : Dev nD × Fin 323 → ℕ) (c : Dev nD) (v5 : BitVec 32) (v7 : BitVec 32) (v10 : BitVec 32) :
    S3 m K c ⟨11, by decide⟩ 0 ⊢ wp frame (wpE (defs₀ (F := F)) 𝒱₀ (c : Thread nD τ) none) Set.univ
      (k0_part138 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨12, by decide⟩ 1) := by
  rw [k0_part138_eq_skeleton]; unfold k0_part138_skel
  simp only [Prog.lift, Prog.bind_op, Prog.bind_ret, Prog.pure_eq_ret]
  refine step_apply (step_out_wait m K c ⟨11, by decide⟩ _ (sem_cpout ⟨11, by decide⟩ _ _)) ?_
  refine step_apply (step_ysend_wait m K c ⟨11, by decide⟩ _ (sem_ysend ⟨11, by decide⟩ _ _)) ?_
  refine step_apply (step_xsend_wait m K c ⟨11, by decide⟩ _ (sem_xsend ⟨11, by decide⟩ _ _)) ?_
  refine step_apply (step_xrecv_wait m K c ⟨11, by decide⟩ _ (sem_xrecv ⟨11, by decide⟩ _ _)) ?_
  refine (S3_next m K c ⟨11, by decide⟩ (by decide)).trans ?_
  refine step_apply (step_out_wait m K c ⟨12, by decide⟩ _ (sem_cpout ⟨12, by decide⟩ _ _)) ?_
  exact ret_apply c (BI.Entails.refl _)

set_option maxRecDepth 65536 in
theorem part_139 (m : (ℓ : Loc nD τ sig) → Buf (Elt F) ℓ) (K : Dev nD × Fin 323 → ℕ) (c : Dev nD) (v5 : BitVec 32) (v7 : BitVec 32) (v10 : BitVec 32) :
    S3 m K c ⟨12, by decide⟩ 1 ⊢ wp frame (wpE (defs₀ (F := F)) 𝒱₀ (c : Thread nD τ) none) Set.univ
      (k0_part139 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨13, by decide⟩ 1) := by
  rw [k0_part139_eq_skeleton]; unfold k0_part139_skel
  simp only [Prog.lift, Prog.bind_op, Prog.bind_ret, Prog.pure_eq_ret]
  refine step_apply (step_ysend_wait m K c ⟨12, by decide⟩ _ (sem_ysend ⟨12, by decide⟩ _ _)) ?_
  refine step_apply (step_xsend_wait m K c ⟨12, by decide⟩ _ (sem_xsend ⟨12, by decide⟩ _ _)) ?_
  refine step_apply (step_xrecv_wait m K c ⟨12, by decide⟩ _ (sem_xrecv ⟨12, by decide⟩ _ _)) ?_
  refine (S3_next m K c ⟨12, by decide⟩ (by decide)).trans ?_
  refine step_apply (step_out_wait m K c ⟨13, by decide⟩ _ (sem_cpout ⟨13, by decide⟩ _ _)) ?_
  exact ret_apply c (BI.Entails.refl _)

set_option maxRecDepth 65536 in
theorem part_140 (m : (ℓ : Loc nD τ sig) → Buf (Elt F) ℓ) (K : Dev nD × Fin 323 → ℕ) (c : Dev nD) (v5 : BitVec 32) (v7 : BitVec 32) (v10 : BitVec 32) :
    S3 m K c ⟨13, by decide⟩ 1 ⊢ wp frame (wpE (defs₀ (F := F)) 𝒱₀ (c : Thread nD τ) none) Set.univ
      (k0_part140 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨14, by decide⟩ 2) := by
  rw [k0_part140_eq_skeleton]; unfold k0_part140_skel
  simp only [Prog.lift, Prog.bind_op, Prog.bind_ret, Prog.pure_eq_ret]
  refine step_apply (step_ysend_wait m K c ⟨13, by decide⟩ _ (sem_ysend ⟨13, by decide⟩ _ _)) ?_
  refine step_apply (step_xsend_wait m K c ⟨13, by decide⟩ _ (sem_xsend ⟨13, by decide⟩ _ _)) ?_
  refine step_apply (step_xrecv_wait m K c ⟨13, by decide⟩ _ (sem_xrecv ⟨13, by decide⟩ _ _)) ?_
  refine (S3_next m K c ⟨13, by decide⟩ (by decide)).trans ?_
  refine step_apply (step_out_wait m K c ⟨14, by decide⟩ _ (sem_cpout ⟨14, by decide⟩ _ _)) ?_
  refine step_apply (step_ysend_wait m K c ⟨14, by decide⟩ _ (sem_ysend ⟨14, by decide⟩ _ _)) ?_
  exact ret_apply c (BI.Entails.refl _)

set_option maxRecDepth 65536 in
theorem part_141 (m : (ℓ : Loc nD τ sig) → Buf (Elt F) ℓ) (K : Dev nD × Fin 323 → ℕ) (c : Dev nD) (v5 : BitVec 32) (v7 : BitVec 32) (v10 : BitVec 32) :
    S3 m K c ⟨14, by decide⟩ 2 ⊢ wp frame (wpE (defs₀ (F := F)) 𝒱₀ (c : Thread nD τ) none) Set.univ
      (k0_part141 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨15, by decide⟩ 3) := by
  rw [k0_part141_eq_skeleton]; unfold k0_part141_skel
  simp only [Prog.lift, Prog.bind_op, Prog.bind_ret, Prog.pure_eq_ret]
  refine step_apply (step_xsend_wait m K c ⟨14, by decide⟩ _ (sem_xsend ⟨14, by decide⟩ _ _)) ?_
  refine step_apply (step_xrecv_wait m K c ⟨14, by decide⟩ _ (sem_xrecv ⟨14, by decide⟩ _ _)) ?_
  refine (S3_next m K c ⟨14, by decide⟩ (by decide)).trans ?_
  refine step_apply (step_out_wait m K c ⟨15, by decide⟩ _ (sem_cpout ⟨15, by decide⟩ _ _)) ?_
  refine step_apply (step_ysend_wait m K c ⟨15, by decide⟩ _ (sem_ysend ⟨15, by decide⟩ _ _)) ?_
  refine step_apply (step_xsend_wait m K c ⟨15, by decide⟩ _ (sem_xsend ⟨15, by decide⟩ _ _)) ?_
  exact ret_apply c (BI.Entails.refl _)

set_option maxRecDepth 65536 in
theorem part_142 (m : (ℓ : Loc nD τ sig) → Buf (Elt F) ℓ) (K : Dev nD × Fin 323 → ℕ) (c : Dev nD) (v5 : BitVec 32) (v7 : BitVec 32) (v10 : BitVec 32) :
    S3 m K c ⟨15, by decide⟩ 3 ⊢ wp frame (wpE (defs₀ (F := F)) 𝒱₀ (c : Thread nD τ) none) Set.univ
      (k0_part142 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨16, by decide⟩ 3) := by
  rw [k0_part142_eq_skeleton]; unfold k0_part142_skel
  simp only [Prog.lift, Prog.bind_op, Prog.bind_ret, Prog.pure_eq_ret]
  refine step_apply (step_xrecv_wait m K c ⟨15, by decide⟩ _ (sem_xrecv ⟨15, by decide⟩ _ _)) ?_
  refine (S3_next m K c ⟨15, by decide⟩ (by decide)).trans ?_
  refine step_apply (step_out_wait m K c ⟨16, by decide⟩ _ (sem_cpout ⟨16, by decide⟩ _ _)) ?_
  refine step_apply (step_ysend_wait m K c ⟨16, by decide⟩ _ (sem_ysend ⟨16, by decide⟩ _ _)) ?_
  refine step_apply (step_xsend_wait m K c ⟨16, by decide⟩ _ (sem_xsend ⟨16, by decide⟩ _ _)) ?_
  exact ret_apply c (BI.Entails.refl _)

set_option maxRecDepth 65536 in
theorem part_143 (m : (ℓ : Loc nD τ sig) → Buf (Elt F) ℓ) (K : Dev nD × Fin 323 → ℕ) (c : Dev nD) (v5 : BitVec 32) (v7 : BitVec 32) (v10 : BitVec 32) :
    S3 m K c ⟨16, by decide⟩ 3 ⊢ wp frame (wpE (defs₀ (F := F)) 𝒱₀ (c : Thread nD τ) none) Set.univ
      (k0_part143 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨18, by decide⟩ 0) := by
  rw [k0_part143_eq_skeleton]; unfold k0_part143_skel
  simp only [Prog.lift, Prog.bind_op, Prog.bind_ret, Prog.pure_eq_ret]
  refine step_apply (step_xrecv_wait m K c ⟨16, by decide⟩ _ (sem_xrecv ⟨16, by decide⟩ _ _)) ?_
  refine (S3_next m K c ⟨16, by decide⟩ (by decide)).trans ?_
  refine step_apply (step_out_wait m K c ⟨17, by decide⟩ _ (sem_cpout ⟨17, by decide⟩ _ _)) ?_
  refine step_apply (step_ysend_wait m K c ⟨17, by decide⟩ _ (sem_ysend ⟨17, by decide⟩ _ _)) ?_
  refine step_apply (step_xsend_wait m K c ⟨17, by decide⟩ _ (sem_xsend ⟨17, by decide⟩ _ _)) ?_
  refine step_apply (step_xrecv_wait m K c ⟨17, by decide⟩ _ (sem_xrecv ⟨17, by decide⟩ _ _)) ?_
  refine (S3_next m K c ⟨17, by decide⟩ (by decide)).trans ?_
  exact ret_apply c (BI.Entails.refl _)

set_option maxRecDepth 65536 in
theorem part_144 (m : (ℓ : Loc nD τ sig) → Buf (Elt F) ℓ) (K : Dev nD × Fin 323 → ℕ) (c : Dev nD) (v5 : BitVec 32) (v7 : BitVec 32) (v10 : BitVec 32) :
    S3 m K c ⟨18, by decide⟩ 0 ⊢ wp frame (wpE (defs₀ (F := F)) 𝒱₀ (c : Thread nD τ) none) Set.univ
      (k0_part144 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨19, by decide⟩ 1) := by
  rw [k0_part144_eq_skeleton]; unfold k0_part144_skel
  simp only [Prog.lift, Prog.bind_op, Prog.bind_ret, Prog.pure_eq_ret]
  refine step_apply (step_out_wait m K c ⟨18, by decide⟩ _ (sem_cpout ⟨18, by decide⟩ _ _)) ?_
  refine step_apply (step_ysend_wait m K c ⟨18, by decide⟩ _ (sem_ysend ⟨18, by decide⟩ _ _)) ?_
  refine step_apply (step_xsend_wait m K c ⟨18, by decide⟩ _ (sem_xsend ⟨18, by decide⟩ _ _)) ?_
  refine step_apply (step_xrecv_wait m K c ⟨18, by decide⟩ _ (sem_xrecv ⟨18, by decide⟩ _ _)) ?_
  refine (S3_next m K c ⟨18, by decide⟩ (by decide)).trans ?_
  refine step_apply (step_out_wait m K c ⟨19, by decide⟩ _ (sem_cpout ⟨19, by decide⟩ _ _)) ?_
  exact ret_apply c (BI.Entails.refl _)

/-- info: 'Cert.Kernel.RS.part_144' depends on axioms: [propext, Classical.choice, Quot.sound] -/
#guard_msgs in #print axioms part_144

end Cert.Kernel.RS

end
-- ==== Proof.RsKernel.Body10.lean ====
/-
  The body of the reduce-scatter, part by part: the parts 145 to 160 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps3
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_145 (m : (ℓ : Loc nD τ sig) → Buf (Elt F) ℓ) (K : Dev nD × Fin 323 → ℕ) (c : Dev nD) (v5 : BitVec 32) (v7 : BitVec 32) (v10 : BitVec 32) :
    S3 m K c ⟨19, by decide⟩ 1 ⊢ wp frame (wpE (defs₀ (F := F)) 𝒱₀ (c : Thread nD τ) none) Set.univ
      (k0_part145 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨20, by decide⟩ 2) := by
  rw [k0_part145_eq_skeleton]; unfold k0_part145_skel
  simp only [Prog.lift, Prog.bind_op, Prog.bind_ret, Prog.pure_eq_ret]
  refine step_apply (step_ysend_wait m K c ⟨19, by decide⟩ _ (sem_ysend ⟨19, by decide⟩ _ _)) ?_
  refine step_apply (step_xsend_wait m K c ⟨19, by decide⟩ _ (sem_xsend ⟨19, by decide⟩ _ _)) ?_
  refine step_apply (step_xrecv_wait m K c ⟨19, by decide⟩ _ (sem_xrecv ⟨19, by decide⟩ _ _)) ?_
  refine (S3_next m K c ⟨19, by decide⟩ (by decide)).trans ?_
  refine step_apply (step_out_wait m K c ⟨20, by decide⟩ _ (sem_cpout ⟨20, by decide⟩ _ _)) ?_
  refine step_apply (step_ysend_wait m K c ⟨20, by decide⟩ _ (sem_ysend ⟨20, by decide⟩ _ _)) ?_
  exact ret_apply c (BI.Entails.refl _)

set_option maxRecDepth 65536 in
theorem part_146 (m : (ℓ : Loc nD τ sig) → Buf (Elt F) ℓ) (K : Dev nD × Fin 323 → ℕ) (c : Dev nD) (v5 : BitVec 32) (v7 : BitVec 32) (v10 : BitVec 32) :
    S3 m K c ⟨20, by decide⟩ 2 ⊢ wp frame (wpE (defs₀ (F := F)) 𝒱₀ (c : Thread nD τ) none) Set.univ
      (k0_part146 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨21, by decide⟩ 2) := by
  rw [k0_part146_eq_skeleton]; unfold k0_part146_skel
  simp only [Prog.lift, Prog.bind_op, Prog.bind_ret, Prog.pure_eq_ret]
  refine step_apply (step_xsend_wait m K c ⟨20, by decide⟩ _ (sem_xsend ⟨20, by decide⟩ _ _)) ?_
  refine step_apply (step_xrecv_wait m K c ⟨20, by decide⟩ _ (sem_xrecv ⟨20, by decide⟩ _ _)) ?_
  refine (S3_next m K c ⟨20, by decide⟩ (by decide)).trans ?_
  refine step_apply (step_out_wait m K c ⟨21, by decide⟩ _ (sem_cpout ⟨21, by decide⟩ _ _)) ?_
  refine step_apply (step_ysend_wait m K c ⟨21, by decide⟩ _ (sem_ysend ⟨21, by decide⟩ _ _)) ?_
  exact ret_apply c (BI.Entails.refl _)

set_option maxRecDepth 65536 in
theorem part_147 (m : (ℓ : Loc nD τ sig) → Buf (Elt F) ℓ) (K : Dev nD × Fin 323 → ℕ) (c : Dev nD) (v5 : BitVec 32) (v7 : BitVec 32) (v10 : BitVec 32) :
    S3 m K c ⟨21, by decide⟩ 2 ⊢ wp frame (wpE (defs₀ (F := F)) 𝒱₀ (c : Thread nD τ) none) Set.univ
      (k0_part147 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨22, by decide⟩ 3) := by
  rw [k0_part147_eq_skeleton]; unfold k0_part147_skel
  simp only [Prog.lift, Prog.bind_op, Prog.bind_ret, Prog.pure_eq_ret]
  refine step_apply (step_xsend_wait m K c ⟨21, by decide⟩ _ (sem_xsend ⟨21, by decide⟩ _ _)) ?_
  refine step_apply (step_xrecv_wait m K c ⟨21, by decide⟩ _ (sem_xrecv ⟨21, by decide⟩ _ _)) ?_
  refine (S3_next m K c ⟨21, by decide⟩ (by decide)).trans ?_
  refine step_apply (step_out_wait m K c ⟨22, by decide⟩ _ (sem_cpout ⟨22, by decide⟩ _ _)) ?_
  refine step_apply (step_ysend_wait m K c ⟨22, by decide⟩ _ (sem_ysend ⟨22, by decide⟩ _ _)) ?_
  refine step_apply (step_xsend_wait m K c ⟨22, by decide⟩ _ (sem_xsend ⟨22, by decide⟩ _ _)) ?_
  exact ret_apply c (BI.Entails.refl _)

set_option maxRecDepth 65536 in
theorem part_148 (m : (ℓ : Loc nD τ sig) → Buf (Elt F) ℓ) (K : Dev nD × Fin 323 → ℕ) (c : Dev nD) (v5 : BitVec 32) (v7 : BitVec 32) (v10 : BitVec 32) (v4358 : BitVec 32) (c0_i32_3723 : BitVec 32) :
    S3 m K c ⟨22, by decide⟩ 3 ⊢ wp frame (wpE (defs₀ (F := F)) 𝒱₀ (c : Thread nD τ) none) Set.univ
      (k0_part148 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4358 c0_i32_3723)
      (fun _ => S3 m K c ⟨23, by decide⟩ 3) := by
  rw [k0_part148_eq_skeleton]; unfold k0_part148_skel
  simp only [Prog.lift, Prog.bind_op, Prog.bind_ret, Prog.pure_eq_ret]
  refine step_apply (step_xrecv_wait m K c ⟨22, by decide⟩ _ (sem_xrecv ⟨22, by decide⟩ _ _)) ?_
  refine (S3_next m K c ⟨22, by decide⟩ (by decide)).trans ?_
  refine step_apply (step_out_wait m K c ⟨23, by decide⟩ _ (sem_cpout ⟨23, by decide⟩ _ _)) ?_
  refine step_apply (step_ysend_wait m K c ⟨23, by decide⟩ _ (sem_ysend ⟨23, by decide⟩ _ _)) ?_
  refine step_apply (step_xsend_wait m K c ⟨23, by decide⟩ _ (sem_xsend ⟨23, by decide⟩ _ _)) ?_
  exact ret_apply c (BI.Entails.refl _)

set_option maxRecDepth 65536 in
theorem part_149 (m : (ℓ : Loc nD τ sig) → Buf (Elt F) ℓ) (K : Dev nD × Fin 323 → ℕ) (c : Dev nD) (v5 : BitVec 32) (v7 : BitVec 32) (v10 : BitVec 32) :
    S3 m K c ⟨23, by decide⟩ 3 ⊢ wp frame (wpE (defs₀ (F := F)) 𝒱₀ (c : Thread nD τ) none) Set.univ
      (k0_part149 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨25, by decide⟩ 0) := by
  rw [k0_part149_eq_skeleton]; unfold k0_part149_skel
  simp only [Prog.lift, Prog.bind_op, Prog.bind_ret, Prog.pure_eq_ret]
  refine step_apply (step_xrecv_wait m K c ⟨23, by decide⟩ _ (sem_xrecv ⟨23, by decide⟩ _ _)) ?_
  refine (S3_next m K c ⟨23, by decide⟩ (by decide)).trans ?_
  refine step_apply (step_out_wait m K c ⟨24, by decide⟩ _ (sem_cpout ⟨24, by decide⟩ _ _)) ?_
  refine step_apply (step_ysend_wait m K c ⟨24, by decide⟩ _ (sem_ysend ⟨24, by decide⟩ _ _)) ?_
  refine step_apply (step_xsend_wait m K c ⟨24, by decide⟩ _ (sem_xsend ⟨24, by decide⟩ _ _)) ?_
  refine step_apply (step_xrecv_wait m K c ⟨24, by decide⟩ _ (sem_xrecv ⟨24, by decide⟩ _ _)) ?_
  refine (S3_next m K c ⟨24, by decide⟩ (by decide)).trans ?_
  exact ret_apply c (BI.Entails.refl _)

set_option maxRecDepth 65536 in
theorem part_150 (m : (ℓ : Loc nD τ sig) → Buf (Elt F) ℓ) (K : Dev nD × Fin 323 → ℕ) (c : Dev nD) (v5 : BitVec 32) (v7 : BitVec 32) (v10 : BitVec 32) :
    S3 m K c ⟨25, by decide⟩ 0 ⊢ wp frame (wpE (defs₀ (F := F)) 𝒱₀ (c : Thread nD τ) none) Set.univ
      (k0_part150 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨26, by decide⟩ 1) := by
  rw [k0_part150_eq_skeleton]; unfold k0_part150_skel
  simp only [Prog.lift, Prog.bind_op, Prog.bind_ret, Prog.pure_eq_ret]
  refine step_apply (step_out_wait m K c ⟨25, by decide⟩ _ (sem_cpout ⟨25, by decide⟩ _ _)) ?_
  refine step_apply (step_ysend_wait m K c ⟨25, by decide⟩ _ (sem_ysend ⟨25, by decide⟩ _ _)) ?_
  refine step_apply (step_xsend_wait m K c ⟨25, by decide⟩ _ (sem_xsend ⟨25, by decide⟩ _ _)) ?_
  refine step_apply (step_xrecv_wait m K c ⟨25, by decide⟩ _ (sem_xrecv ⟨25, by decide⟩ _ _)) ?_
  refine (S3_next m K c ⟨25, by decide⟩ (by decide)).trans ?_
  refine step_apply (step_out_wait m K c ⟨26, by decide⟩ _ (sem_cpout ⟨26, by decide⟩ _ _)) ?_
  exact ret_apply c (BI.Entails.refl _)

set_option maxRecDepth 65536 in
theorem part_151 (m : (ℓ : Loc nD τ sig) → Buf (Elt F) ℓ) (K : Dev nD × Fin 323 → ℕ) (c : Dev nD) (v5 : BitVec 32) (v7 : BitVec 32) (v10 : BitVec 32) :
    S3 m K c ⟨26, by decide⟩ 1 ⊢ wp frame (wpE (defs₀ (F := F)) 𝒱₀ (c : Thread nD τ) none) Set.univ
      (k0_part151 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨27, by decide⟩ 2) := by
  rw [k0_part151_eq_skeleton]; unfold k0_part151_skel
  simp only [Prog.lift, Prog.bind_op, Prog.bind_ret, Prog.pure_eq_ret]
  refine step_apply (step_ysend_wait m K c ⟨26, by decide⟩ _ (sem_ysend ⟨26, by decide⟩ _ _)) ?_
  refine step_apply (step_xsend_wait m K c ⟨26, by decide⟩ _ (sem_xsend ⟨26, by decide⟩ _ _)) ?_
  refine step_apply (step_xrecv_wait m K c ⟨26, by decide⟩ _ (sem_xrecv ⟨26, by decide⟩ _ _)) ?_
  refine (S3_next m K c ⟨26, by decide⟩ (by decide)).trans ?_
  refine step_apply (step_out_wait m K c ⟨27, by decide⟩ _ (sem_cpout ⟨27, by decide⟩ _ _)) ?_
  refine step_apply (step_ysend_wait m K c ⟨27, by decide⟩ _ (sem_ysend ⟨27, by decide⟩ _ _)) ?_
  exact ret_apply c (BI.Entails.refl _)

set_option maxRecDepth 65536 in
theorem part_152 (m : (ℓ : Loc nD τ sig) → Buf (Elt F) ℓ) (K : Dev nD × Fin 323 → ℕ) (c : Dev nD) (v5 : BitVec 32) (v7 : BitVec 32) (v10 : BitVec 32) :
    S3 m K c ⟨27, by decide⟩ 2 ⊢ wp frame (wpE (defs₀ (F := F)) 𝒱₀ (c : Thread nD τ) none) Set.univ
      (k0_part152 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨28, by decide⟩ 3) := by
  rw [k0_part152_eq_skeleton]; unfold k0_part152_skel
  simp only [Prog.lift, Prog.bind_op, Prog.bind_ret, Prog.pure_eq_ret]
  refine step_apply (step_xsend_wait m K c ⟨27, by decide⟩ _ (sem_xsend ⟨27, by decide⟩ _ _)) ?_
  refine step_apply (step_xrecv_wait m K c ⟨27, by decide⟩ _ (sem_xrecv ⟨27, by decide⟩ _ _)) ?_
  refine (S3_next m K c ⟨27, by decide⟩ (by decide)).trans ?_
  refine step_apply (step_out_wait m K c ⟨28, by decide⟩ _ (sem_cpout ⟨28, by decide⟩ _ _)) ?_
  refine step_apply (step_ysend_wait m K c ⟨28, by decide⟩ _ (sem_ysend ⟨28, by decide⟩ _ _)) ?_
  refine step_apply (step_xsend_wait m K c ⟨28, by decide⟩ _ (sem_xsend ⟨28, by decide⟩ _ _)) ?_
  exact ret_apply c (BI.Entails.refl _)

set_option maxRecDepth 65536 in
theorem part_153 (m : (ℓ : Loc nD τ sig) → Buf (Elt F) ℓ) (K : Dev nD × Fin 323 → ℕ) (c : Dev nD) (v5 : BitVec 32) (v7 : BitVec 32) (v10 : BitVec 32) (c1792_i32_3869 : BitVec 32) :
    S3 m K c ⟨28, by decide⟩ 3 ⊢ wp frame (wpE (defs₀ (F := F)) 𝒱₀ (c : Thread nD τ) none) Set.univ
      (k0_part153 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 c1792_i32_3869)
      (fun _ => S3 m K c ⟨29, by decide⟩ 3) := by
  rw [k0_part153_eq_skeleton]; unfold k0_part153_skel
  simp only [Prog.lift, Prog.bind_op, Prog.bind_ret, Prog.pure_eq_ret]
  refine step_apply (step_xrecv_wait m K c ⟨28, by decide⟩ _ (sem_xrecv ⟨28, by decide⟩ _ _)) ?_
  refine (S3_next m K c ⟨28, by decide⟩ (by decide)).trans ?_
  refine step_apply (step_out_wait m K c ⟨29, by decide⟩ _ (sem_cpout ⟨29, by decide⟩ _ _)) ?_
  refine step_apply (step_ysend_wait m K c ⟨29, by decide⟩ _ (sem_ysend ⟨29, by decide⟩ _ _)) ?_
  refine step_apply (step_xsend_wait m K c ⟨29, by decide⟩ _ (sem_xsend ⟨29, by decide⟩ _ _)) ?_
  exact ret_apply c (BI.Entails.refl _)

set_option maxRecDepth 65536 in
theorem part_154 (m : (ℓ : Loc nD τ sig) → Buf (Elt F) ℓ) (K : Dev nD × Fin 323 → ℕ) (c : Dev nD) (v5 : BitVec 32) (v7 : BitVec 32) (v10 : BitVec 32) (v4513 : BitVec 32) (v4514 : BitVec 32) :
    S3 m K c ⟨29, by decide⟩ 3 ⊢ wp frame (wpE (defs₀ (F := F)) 𝒱₀ (c : Thread nD τ) none) Set.univ
      (k0_part154 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4513 v4514)
      (fun _ => S3 m K c ⟨31, by decide⟩ 0) := by
  rw [k0_part154_eq_skeleton]; unfold k0_part154_skel
  simp only [Prog.lift, Prog.bind_op, Prog.bind_ret, Prog.pure_eq_ret]
  refine step_apply (step_xrecv_wait m K c ⟨29, by decide⟩ _ (sem_xrecv ⟨29, by decide⟩ _ _)) ?_
  refine (S3_next m K c ⟨29, by decide⟩ (by decide)).trans ?_
  refine step_apply (step_out_wait m K c ⟨30, by decide⟩ _ (sem_cpout ⟨30, by decide⟩ _ _)) ?_
  refine step_apply (step_ysend_wait m K c ⟨30, by decide⟩ _ (sem_ysend ⟨30, by decide⟩ _ _)) ?_
  refine step_apply (step_xsend_wait m K c ⟨30, by decide⟩ _ (sem_xsend ⟨30, by decide⟩ _ _)) ?_
  refine step_apply (step_xrecv_wait m K c ⟨30, by decide⟩ _ (sem_xrecv ⟨30, by decide⟩ _ _)) ?_
  refine (S3_next m K c ⟨30, by decide⟩ (by decide)).trans ?_
  exact ret_apply c (BI.Entails.refl _)

set_option maxRecDepth 65536 in
theorem part_155 (m : (ℓ : Loc nD τ sig) → Buf (Elt F) ℓ) (K : Dev nD × Fin 323 → ℕ) (c : Dev nD) (v5 : BitVec 32) (v7 : BitVec 32) (v10 : BitVec 32) :
    S3 m K c ⟨31, by decide⟩ 0 ⊢ wp frame (wpE (defs₀ (F := F)) 𝒱₀ (c : Thread nD τ) none) Set.univ
      (k0_part155 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨32, by decide⟩ 1) := by
  rw [k0_part155_eq_skeleton]; unfold k0_part155_skel
  simp only [Prog.lift, Prog.bind_op, Prog.bind_ret, Prog.pure_eq_ret]
  refine step_apply (step_out_wait m K c ⟨31, by decide⟩ _ (sem_cpout ⟨31, by decide⟩ _ _)) ?_
  refine step_apply (step_ysend_wait m K c ⟨31, by decide⟩ _ (sem_ysend ⟨31, by decide⟩ _ _)) ?_
  refine step_apply (step_xsend_wait m K c ⟨31, by decide⟩ _ (sem_xsend ⟨31, by decide⟩ _ _)) ?_
  refine step_apply (step_xrecv_wait m K c ⟨31, by decide⟩ _ (sem_xrecv ⟨31, by decide⟩ _ _)) ?_
  refine (S3_next m K c ⟨31, by decide⟩ (by decide)).trans ?_
  refine step_apply (step_out_wait m K c ⟨32, by decide⟩ _ (sem_cpout ⟨32, by decide⟩ _ _)) ?_
  exact ret_apply c (BI.Entails.refl _)

set_option maxRecDepth 65536 in
theorem part_156 (m : (ℓ : Loc nD τ sig) → Buf (Elt F) ℓ) (K : Dev nD × Fin 323 → ℕ) (c : Dev nD) (v5 : BitVec 32) (v7 : BitVec 32) (v10 : BitVec 32) :
    S3 m K c ⟨32, by decide⟩ 1 ⊢ wp frame (wpE (defs₀ (F := F)) 𝒱₀ (c : Thread nD τ) none) Set.univ
      (k0_part156 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨33, by decide⟩ 1) := by
  rw [k0_part156_eq_skeleton]; unfold k0_part156_skel
  simp only [Prog.lift, Prog.bind_op, Prog.bind_ret, Prog.pure_eq_ret]
  refine step_apply (step_ysend_wait m K c ⟨32, by decide⟩ _ (sem_ysend ⟨32, by decide⟩ _ _)) ?_
  refine step_apply (step_xsend_wait m K c ⟨32, by decide⟩ _ (sem_xsend ⟨32, by decide⟩ _ _)) ?_
  refine step_apply (step_xrecv_wait m K c ⟨32, by decide⟩ _ (sem_xrecv ⟨32, by decide⟩ _ _)) ?_
  refine (S3_next m K c ⟨32, by decide⟩ (by decide)).trans ?_
  refine step_apply (step_out_wait m K c ⟨33, by decide⟩ _ (sem_cpout ⟨33, by decide⟩ _ _)) ?_
  exact ret_apply c (BI.Entails.refl _)

set_option maxRecDepth 65536 in
theorem part_157 (m : (ℓ : Loc nD τ sig) → Buf (Elt F) ℓ) (K : Dev nD × Fin 323 → ℕ) (c : Dev nD) (v5 : BitVec 32) (v7 : BitVec 32) (v10 : BitVec 32) :
    S3 m K c ⟨33, by decide⟩ 1 ⊢ wp frame (wpE (defs₀ (F := F)) 𝒱₀ (c : Thread nD τ) none) Set.univ
      (k0_part157 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨34, by decide⟩ 2) := by
  rw [k0_part157_eq_skeleton]; unfold k0_part157_skel
  simp only [Prog.lift, Prog.bind_op, Prog.bind_ret, Prog.pure_eq_ret]
  refine step_apply (step_ysend_wait m K c ⟨33, by decide⟩ _ (sem_ysend ⟨33, by decide⟩ _ _)) ?_
  refine step_apply (step_xsend_wait m K c ⟨33, by decide⟩ _ (sem_xsend ⟨33, by decide⟩ _ _)) ?_
  refine step_apply (step_xrecv_wait m K c ⟨33, by decide⟩ _ (sem_xrecv ⟨33, by decide⟩ _ _)) ?_
  refine (S3_next m K c ⟨33, by decide⟩ (by decide)).trans ?_
  refine step_apply (step_out_wait m K c ⟨34, by decide⟩ _ (sem_cpout ⟨34, by decide⟩ _ _)) ?_
  refine step_apply (step_ysend_wait m K c ⟨34, by decide⟩ _ (sem_ysend ⟨34, by decide⟩ _ _)) ?_
  exact ret_apply c (BI.Entails.refl _)

set_option maxRecDepth 65536 in
theorem part_158 (m : (ℓ : Loc nD τ sig) → Buf (Elt F) ℓ) (K : Dev nD × Fin 323 → ℕ) (c : Dev nD) (v5 : BitVec 32) (v7 : BitVec 32) (v10 : BitVec 32) :
    S3 m K c ⟨34, by decide⟩ 2 ⊢ wp frame (wpE (defs₀ (F := F)) 𝒱₀ (c : Thread nD τ) none) Set.univ
      (k0_part158 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨35, by decide⟩ 3) := by
  rw [k0_part158_eq_skeleton]; unfold k0_part158_skel
  simp only [Prog.lift, Prog.bind_op, Prog.bind_ret, Prog.pure_eq_ret]
  refine step_apply (step_xsend_wait m K c ⟨34, by decide⟩ _ (sem_xsend ⟨34, by decide⟩ _ _)) ?_
  refine step_apply (step_xrecv_wait m K c ⟨34, by decide⟩ _ (sem_xrecv ⟨34, by decide⟩ _ _)) ?_
  refine (S3_next m K c ⟨34, by decide⟩ (by decide)).trans ?_
  refine step_apply (step_out_wait m K c ⟨35, by decide⟩ _ (sem_cpout ⟨35, by decide⟩ _ _)) ?_
  refine step_apply (step_ysend_wait m K c ⟨35, by decide⟩ _ (sem_ysend ⟨35, by decide⟩ _ _)) ?_
  refine step_apply (step_xsend_wait m K c ⟨35, by decide⟩ _ (sem_xsend ⟨35, by decide⟩ _ _)) ?_
  exact ret_apply c (BI.Entails.refl _)

set_option maxRecDepth 65536 in
theorem part_159 (m : (ℓ : Loc nD τ sig) → Buf (Elt F) ℓ) (K : Dev nD × Fin 323 → ℕ) (c : Dev nD) (v5 : BitVec 32) (v7 : BitVec 32) (v10 : BitVec 32) :
    S3 m K c ⟨35, by decide⟩ 3 ⊢ wp frame (wpE (defs₀ (F := F)) 𝒱₀ (c : Thread nD τ) none) Set.univ
      (k0_part159 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨36, by decide⟩ 3) := by
  rw [k0_part159_eq_skeleton]; unfold k0_part159_skel
  simp only [Prog.lift, Prog.bind_op, Prog.bind_ret, Prog.pure_eq_ret]
  refine step_apply (step_xrecv_wait m K c ⟨35, by decide⟩ _ (sem_xrecv ⟨35, by decide⟩ _ _)) ?_
  refine (S3_next m K c ⟨35, by decide⟩ (by decide)).trans ?_
  refine step_apply (step_out_wait m K c ⟨36, by decide⟩ _ (sem_cpout ⟨36, by decide⟩ _ _)) ?_
  refine step_apply (step_ysend_wait m K c ⟨36, by decide⟩ _ (sem_ysend ⟨36, by decide⟩ _ _)) ?_
  refine step_apply (step_xsend_wait m K c ⟨36, by decide⟩ _ (sem_xsend ⟨36, by decide⟩ _ _)) ?_
  exact ret_apply c (BI.Entails.refl _)

set_option maxRecDepth 65536 in
theorem part_160 (m : (ℓ : Loc nD τ sig) → Buf (Elt F) ℓ) (K : Dev nD × Fin 323 → ℕ) (c : Dev nD) (v5 : BitVec 32) (v7 : BitVec 32) (v10 : BitVec 32) :
    S3 m K c ⟨36, by decide⟩ 3 ⊢ wp frame (wpE (defs₀ (F := F)) 𝒱₀ (c : Thread nD τ) none) Set.univ
      (k0_part160 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨38, by decide⟩ 0) := by
  rw [k0_part160_eq_skeleton]; unfold k0_part160_skel
  simp only [Prog.lift, Prog.bind_op, Prog.bind_ret, Prog.pure_eq_ret]
  refine step_apply (step_xrecv_wait m K c ⟨36, by decide⟩ _ (sem_xrecv ⟨36, by decide⟩ _ _)) ?_
  refine (S3_next m K c ⟨36, by decide⟩ (by decide)).trans ?_
  refine step_apply (step_out_wait m K c ⟨37, by decide⟩ _ (sem_cpout ⟨37, by decide⟩ _ _)) ?_
  refine step_apply (step_ysend_wait m K c ⟨37, by decide⟩ _ (sem_ysend ⟨37, by decide⟩ _ _)) ?_
  refine step_apply (step_xsend_wait m K c ⟨37, by decide⟩ _ (sem_xsend ⟨37, by decide⟩ _ _)) ?_
  refine step_apply (step_xrecv_wait m K c ⟨37, by decide⟩ _ (sem_xrecv ⟨37, by decide⟩ _ _)) ?_
  refine (S3_next m K c ⟨37, by decide⟩ (by decide)).trans ?_
  exact ret_apply c (BI.Entails.refl _)

/-- info: 'Cert.Kernel.RS.part_160' depends on axioms: [propext, Classical.choice, Quot.sound] -/
#guard_msgs in #print axioms part_160

end Cert.Kernel.RS

end
-- ==== Proof.RsKernel.Body11.lean ====
/-
  The body of the reduce-scatter, part by part: the parts 161 to 176 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps3
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_161 (m : (ℓ : Loc nD τ sig) → Buf (Elt F) ℓ) (K : Dev nD × Fin 323 → ℕ) (c : Dev nD) (v5 : BitVec 32) (v7 : BitVec 32) (v10 : BitVec 32) :
    S3 m K c ⟨38, by decide⟩ 0 ⊢ wp frame (wpE (defs₀ (F := F)) 𝒱₀ (c : Thread nD τ) none) Set.univ
      (k0_part161 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨39, by decide⟩ 1) := by
  rw [k0_part161_eq_skeleton]; unfold k0_part161_skel
  simp only [Prog.lift, Prog.bind_op, Prog.bind_ret, Prog.pure_eq_ret]
  refine step_apply (step_out_wait m K c ⟨38, by decide⟩ _ (sem_cpout ⟨38, by decide⟩ _ _)) ?_
  refine step_apply (step_ysend_wait m K c ⟨38, by decide⟩ _ (sem_ysend ⟨38, by decide⟩ _ _)) ?_
  refine step_apply (step_xsend_wait m K c ⟨38, by decide⟩ _ (sem_xsend ⟨38, by decide⟩ _ _)) ?_
  refine step_apply (step_xrecv_wait m K c ⟨38, by decide⟩ _ (sem_xrecv ⟨38, by decide⟩ _ _)) ?_
  refine (S3_next m K c ⟨38, by decide⟩ (by decide)).trans ?_
  refine step_apply (step_out_wait m K c ⟨39, by decide⟩ _ (sem_cpout ⟨39, by decide⟩ _ _)) ?_
  exact ret_apply c (BI.Entails.refl _)

set_option maxRecDepth 65536 in
theorem part_162 (m : (ℓ : Loc nD τ sig) → Buf (Elt F) ℓ) (K : Dev nD × Fin 323 → ℕ) (c : Dev nD) (v5 : BitVec 32) (v7 : BitVec 32) (v10 : BitVec 32) :
    S3 m K c ⟨39, by decide⟩ 1 ⊢ wp frame (wpE (defs₀ (F := F)) 𝒱₀ (c : Thread nD τ) none) Set.univ
      (k0_part162 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨40, by decide⟩ 2) := by
  rw [k0_part162_eq_skeleton]; unfold k0_part162_skel
  simp only [Prog.lift, Prog.bind_op, Prog.bind_ret, Prog.pure_eq_ret]
  refine step_apply (step_ysend_wait m K c ⟨39, by decide⟩ _ (sem_ysend ⟨39, by decide⟩ _ _)) ?_
  refine step_apply (step_xsend_wait m K c ⟨39, by decide⟩ _ (sem_xsend ⟨39, by decide⟩ _ _)) ?_
  refine step_apply (step_xrecv_wait m K c ⟨39, by decide⟩ _ (sem_xrecv ⟨39, by decide⟩ _ _)) ?_
  refine (S3_next m K c ⟨39, by decide⟩ (by decide)).trans ?_
  refine step_apply (step_out_wait m K c ⟨40, by decide⟩ _ (sem_cpout ⟨40, by decide⟩ _ _)) ?_
  refine step_apply (step_ysend_wait m K c ⟨40, by decide⟩ _ (sem_ysend ⟨40, by decide⟩ _ _)) ?_
  exact ret_apply c (BI.Entails.refl _)

set_option maxRecDepth 65536 in
theorem part_163 (m : (ℓ : Loc nD τ sig) → Buf (Elt F) ℓ) (K : Dev nD × Fin 323 → ℕ) (c : Dev nD) (v5 : BitVec 32) (v7 : BitVec 32) (v10 : BitVec 32) :
    S3 m K c ⟨40, by decide⟩ 2 ⊢ wp frame (wpE (defs₀ (F := F)) 𝒱₀ (c : Thread nD τ) none) Set.univ
      (k0_part163 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨41, by decide⟩ 2) := by
  rw [k0_part163_eq_skeleton]; unfold k0_part163_skel
  simp only [Prog.lift, Prog.bind_op, Prog.bind_ret, Prog.pure_eq_ret]
  refine step_apply (step_xsend_wait m K c ⟨40, by decide⟩ _ (sem_xsend ⟨40, by decide⟩ _ _)) ?_
  refine step_apply (step_xrecv_wait m K c ⟨40, by decide⟩ _ (sem_xrecv ⟨40, by decide⟩ _ _)) ?_
  refine (S3_next m K c ⟨40, by decide⟩ (by decide)).trans ?_
  refine step_apply (step_out_wait m K c ⟨41, by decide⟩ _ (sem_cpout ⟨41, by decide⟩ _ _)) ?_
  refine step_apply (step_ysend_wait m K c ⟨41, by decide⟩ _ (sem_ysend ⟨41, by decide⟩ _ _)) ?_
  exact ret_apply c (BI.Entails.refl _)

set_option maxRecDepth 65536 in
theorem part_164 (m : (ℓ : Loc nD τ sig) → Buf (Elt F) ℓ) (K : Dev nD × Fin 323 → ℕ) (c : Dev nD) (v5 : BitVec 32) (v7 : BitVec 32) (v10 : BitVec 32) :
    S3 m K c ⟨41, by decide⟩ 2 ⊢ wp frame (wpE (defs₀ (F := F)) 𝒱₀ (c : Thread nD τ) none) Set.univ
      (k0_part164 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨42, by decide⟩ 3) := by
  rw [k0_part164_eq_skeleton]; unfold k0_part164_skel
  simp only [Prog.lift, Prog.bind_op, Prog.bind_ret, Prog.pure_eq_ret]
  refine step_apply (step_xsend_wait m K c ⟨41, by decide⟩ _ (sem_xsend ⟨41, by decide⟩ _ _)) ?_
  refine step_apply (step_xrecv_wait m K c ⟨41, by decide⟩ _ (sem_xrecv ⟨41, by decide⟩ _ _)) ?_
  refine (S3_next m K c ⟨41, by decide⟩ (by decide)).trans ?_
  refine step_apply (step_out_wait m K c ⟨42, by decide⟩ _ (sem_cpout ⟨42, by decide⟩ _ _)) ?_
  refine step_apply (step_ysend_wait m K c ⟨42, by decide⟩ _ (sem_ysend ⟨42, by decide⟩ _ _)) ?_
  refine step_apply (step_xsend_wait m K c ⟨42, by decide⟩ _ (sem_xsend ⟨42, by decide⟩ _ _)) ?_
  exact ret_apply c (BI.Entails.refl _)

set_option maxRecDepth 65536 in
theorem part_165 (m : (ℓ : Loc nD τ sig) → Buf (Elt F) ℓ) (K : Dev nD × Fin 323 → ℕ) (c : Dev nD) (v5 : BitVec 32) (v7 : BitVec 32) (v10 : BitVec 32) (v4798 : BitVec 32) (c0_i32_4223 : BitVec 32) :
    S3 m K c ⟨42, by decide⟩ 3 ⊢ wp frame (wpE (defs₀ (F := F)) 𝒱₀ (c : Thread nD τ) none) Set.univ
      (k0_part165 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4798 c0_i32_4223)
      (fun _ => S3 m K c ⟨43, by decide⟩ 3) := by
  rw [k0_part165_eq_skeleton]; unfold k0_part165_skel
  simp only [Prog.lift, Prog.bind_op, Prog.bind_ret, Prog.pure_eq_ret]
  refine step_apply (step_xrecv_wait m K c ⟨42, by decide⟩ _ (sem_xrecv ⟨42, by decide⟩ _ _)) ?_
  refine (S3_next m K c ⟨42, by decide⟩ (by decide)).trans ?_
  refine step_apply (step_out_wait m K c ⟨43, by decide⟩ _ (sem_cpout ⟨43, by decide⟩ _ _)) ?_
  refine step_apply (step_ysend_wait m K c ⟨43, by decide⟩ _ (sem_ysend ⟨43, by decide⟩ _ _)) ?_
  refine step_apply (step_xsend_wait m K c ⟨43, by decide⟩ _ (sem_xsend ⟨43, by decide⟩ _ _)) ?_
  exact ret_apply c (BI.Entails.refl _)

set_option maxRecDepth 65536 in
theorem part_166 (m : (ℓ : Loc nD τ sig) → Buf (Elt F) ℓ) (K : Dev nD × Fin 323 → ℕ) (c : Dev nD) (v5 : BitVec 32) (v7 : BitVec 32) (v10 : BitVec 32) :
    S3 m K c ⟨43, by decide⟩ 3 ⊢ wp frame (wpE (defs₀ (F := F)) 𝒱₀ (c : Thread nD τ) none) Set.univ
      (k0_part166 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨45, by decide⟩ 0) := by
  rw [k0_part166_eq_skeleton]; unfold k0_part166_skel
  simp only [Prog.lift, Prog.bind_op, Prog.bind_ret, Prog.pure_eq_ret]
  refine step_apply (step_xrecv_wait m K c ⟨43, by decide⟩ _ (sem_xrecv ⟨43, by decide⟩ _ _)) ?_
  refine (S3_next m K c ⟨43, by decide⟩ (by decide)).trans ?_
  refine step_apply (step_out_wait m K c ⟨44, by decide⟩ _ (sem_cpout ⟨44, by decide⟩ _ _)) ?_
  refine step_apply (step_ysend_wait m K c ⟨44, by decide⟩ _ (sem_ysend ⟨44, by decide⟩ _ _)) ?_
  refine step_apply (step_xsend_wait m K c ⟨44, by decide⟩ _ (sem_xsend ⟨44, by decide⟩ _ _)) ?_
  refine step_apply (step_xrecv_wait m K c ⟨44, by decide⟩ _ (sem_xrecv ⟨44, by decide⟩ _ _)) ?_
  refine (S3_next m K c ⟨44, by decide⟩ (by decide)).trans ?_
  exact ret_apply c (BI.Entails.refl _)

set_option maxRecDepth 65536 in
theorem part_167 (m : (ℓ : Loc nD τ sig) → Buf (Elt F) ℓ) (K : Dev nD × Fin 323 → ℕ) (c : Dev nD) (v5 : BitVec 32) (v7 : BitVec 32) (v10 : BitVec 32) :
    S3 m K c ⟨45, by decide⟩ 0 ⊢ wp frame (wpE (defs₀ (F := F)) 𝒱₀ (c : Thread nD τ) none) Set.univ
      (k0_part167 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨46, by decide⟩ 1) := by
  rw [k0_part167_eq_skeleton]; unfold k0_part167_skel
  simp only [Prog.lift, Prog.bind_op, Prog.bind_ret, Prog.pure_eq_ret]
  refine step_apply (step_out_wait m K c ⟨45, by decide⟩ _ (sem_cpout ⟨45, by decide⟩ _ _)) ?_
  refine step_apply (step_ysend_wait m K c ⟨45, by decide⟩ _ (sem_ysend ⟨45, by decide⟩ _ _)) ?_
  refine step_apply (step_xsend_wait m K c ⟨45, by decide⟩ _ (sem_xsend ⟨45, by decide⟩ _ _)) ?_
  refine step_apply (step_xrecv_wait m K c ⟨45, by decide⟩ _ (sem_xrecv ⟨45, by decide⟩ _ _)) ?_
  refine (S3_next m K c ⟨45, by decide⟩ (by decide)).trans ?_
  refine step_apply (step_out_wait m K c ⟨46, by decide⟩ _ (sem_cpout ⟨46, by decide⟩ _ _)) ?_
  exact ret_apply c (BI.Entails.refl _)

set_option maxRecDepth 65536 in
theorem part_168 (m : (ℓ : Loc nD τ sig) → Buf (Elt F) ℓ) (K : Dev nD × Fin 323 → ℕ) (c : Dev nD) (v5 : BitVec 32) (v7 : BitVec 32) (v10 : BitVec 32) :
    S3 m K c ⟨46, by decide⟩ 1 ⊢ wp frame (wpE (defs₀ (F := F)) 𝒱₀ (c : Thread nD τ) none) Set.univ
      (k0_part168 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨47, by decide⟩ 2) := by
  rw [k0_part168_eq_skeleton]; unfold k0_part168_skel
  simp only [Prog.lift, Prog.bind_op, Prog.bind_ret, Prog.pure_eq_ret]
  refine step_apply (step_ysend_wait m K c ⟨46, by decide⟩ _ (sem_ysend ⟨46, by decide⟩ _ _)) ?_
  refine step_apply (step_xsend_wait m K c ⟨46, by decide⟩ _ (sem_xsend ⟨46, by decide⟩ _ _)) ?_
  refine step_apply (step_xrecv_wait m K c ⟨46, by decide⟩ _ (sem_xrecv ⟨46, by decide⟩ _ _)) ?_
  refine (S3_next m K c ⟨46, by decide⟩ (by decide)).trans ?_
  refine step_apply (step_out_wait m K c ⟨47, by decide⟩ _ (sem_cpout ⟨47, by decide⟩ _ _)) ?_
  refine step_apply (step_ysend_wait m K c ⟨47, by decide⟩ _ (sem_ysend ⟨47, by decide⟩ _ _)) ?_
  exact ret_apply c (BI.Entails.refl _)

set_option maxRecDepth 65536 in
theorem part_169 (m : (ℓ : Loc nD τ sig) → Buf (Elt F) ℓ) (K : Dev nD × Fin 323 → ℕ) (c : Dev nD) (v5 : BitVec 32) (v7 : BitVec 32) (v10 : BitVec 32) :
    S3 m K c ⟨47, by decide⟩ 2 ⊢ wp frame (wpE (defs₀ (F := F)) 𝒱₀ (c : Thread nD τ) none) Set.univ
      (k0_part169 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨48, by decide⟩ 3) := by
  rw [k0_part169_eq_skeleton]; unfold k0_part169_skel
  simp only [Prog.lift, Prog.bind_op, Prog.bind_ret, Prog.pure_eq_ret]
  refine step_apply (step_xsend_wait m K c ⟨47, by decide⟩ _ (sem_xsend ⟨47, by decide⟩ _ _)) ?_
  refine step_apply (step_xrecv_wait m K c ⟨47, by decide⟩ _ (sem_xrecv ⟨47, by decide⟩ _ _)) ?_
  refine (S3_next m K c ⟨47, by decide⟩ (by decide)).trans ?_
  refine step_apply (step_out_wait m K c ⟨48, by decide⟩ _ (sem_cpout ⟨48, by decide⟩ _ _)) ?_
  refine step_apply (step_ysend_wait m K c ⟨48, by decide⟩ _ (sem_ysend ⟨48, by decide⟩ _ _)) ?_
  refine step_apply (step_xsend_wait m K c ⟨48, by decide⟩ _ (sem_xsend ⟨48, by decide⟩ _ _)) ?_
  exact ret_apply c (BI.Entails.refl _)

set_option maxRecDepth 65536 in
theorem part_170 (m : (ℓ : Loc nD τ sig) → Buf (Elt F) ℓ) (K : Dev nD × Fin 323 → ℕ) (c : Dev nD) (v5 : BitVec 32) (v7 : BitVec 32) (v10 : BitVec 32) (c3072_i32_4369 : BitVec 32) :
    S3 m K c ⟨48, by decide⟩ 3 ⊢ wp frame (wpE (defs₀ (F := F)) 𝒱₀ (c : Thread nD τ) none) Set.univ
      (k0_part170 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 c3072_i32_4369)
      (fun _ => S3 m K c ⟨49, by decide⟩ 3) := by
  rw [k0_part170_eq_skeleton]; unfold k0_part170_skel
  simp only [Prog.lift, Prog.bind_op, Prog.bind_ret, Prog.pure_eq_ret]
  refine step_apply (step_xrecv_wait m K c ⟨48, by decide⟩ _ (sem_xrecv ⟨48, by decide⟩ _ _)) ?_
  refine (S3_next m K c ⟨48, by decide⟩ (by decide)).trans ?_
  refine step_apply (step_out_wait m K c ⟨49, by decide⟩ _ (sem_cpout ⟨49, by decide⟩ _ _)) ?_
  refine step_apply (step_ysend_wait m K c ⟨49, by decide⟩ _ (sem_ysend ⟨49, by decide⟩ _ _)) ?_
  refine step_apply (step_xsend_wait m K c ⟨49, by decide⟩ _ (sem_xsend ⟨49, by decide⟩ _ _)) ?_
  exact ret_apply c (BI.Entails.refl _)

set_option maxRecDepth 65536 in
theorem part_171 (m : (ℓ : Loc nD τ sig) → Buf (Elt F) ℓ) (K : Dev nD × Fin 323 → ℕ) (c : Dev nD) (v5 : BitVec 32) (v7 : BitVec 32) (v10 : BitVec 32) (v4953 : BitVec 32) (v4954 : BitVec 32) :
    S3 m K c ⟨49, by decide⟩ 3 ⊢ wp frame (wpE (defs₀ (F := F)) 𝒱₀ (c : Thread nD τ) none) Set.univ
      (k0_part171 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v4953 v4954)
      (fun _ => S3 m K c ⟨51, by decide⟩ 0) := by
  rw [k0_part171_eq_skeleton]; unfold k0_part171_skel
  simp only [Prog.lift, Prog.bind_op, Prog.bind_ret, Prog.pure_eq_ret]
  refine step_apply (step_xrecv_wait m K c ⟨49, by decide⟩ _ (sem_xrecv ⟨49, by decide⟩ _ _)) ?_
  refine (S3_next m K c ⟨49, by decide⟩ (by decide)).trans ?_
  refine step_apply (step_out_wait m K c ⟨50, by decide⟩ _ (sem_cpout ⟨50, by decide⟩ _ _)) ?_
  refine step_apply (step_ysend_wait m K c ⟨50, by decide⟩ _ (sem_ysend ⟨50, by decide⟩ _ _)) ?_
  refine step_apply (step_xsend_wait m K c ⟨50, by decide⟩ _ (sem_xsend ⟨50, by decide⟩ _ _)) ?_
  refine step_apply (step_xrecv_wait m K c ⟨50, by decide⟩ _ (sem_xrecv ⟨50, by decide⟩ _ _)) ?_
  refine (S3_next m K c ⟨50, by decide⟩ (by decide)).trans ?_
  exact ret_apply c (BI.Entails.refl _)

set_option maxRecDepth 65536 in
theorem part_172 (m : (ℓ : Loc nD τ sig) → Buf (Elt F) ℓ) (K : Dev nD × Fin 323 → ℕ) (c : Dev nD) (v5 : BitVec 32) (v7 : BitVec 32) (v10 : BitVec 32) :
    S3 m K c ⟨51, by decide⟩ 0 ⊢ wp frame (wpE (defs₀ (F := F)) 𝒱₀ (c : Thread nD τ) none) Set.univ
      (k0_part172 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨52, by decide⟩ 1) := by
  rw [k0_part172_eq_skeleton]; unfold k0_part172_skel
  simp only [Prog.lift, Prog.bind_op, Prog.bind_ret, Prog.pure_eq_ret]
  refine step_apply (step_out_wait m K c ⟨51, by decide⟩ _ (sem_cpout ⟨51, by decide⟩ _ _)) ?_
  refine step_apply (step_ysend_wait m K c ⟨51, by decide⟩ _ (sem_ysend ⟨51, by decide⟩ _ _)) ?_
  refine step_apply (step_xsend_wait m K c ⟨51, by decide⟩ _ (sem_xsend ⟨51, by decide⟩ _ _)) ?_
  refine step_apply (step_xrecv_wait m K c ⟨51, by decide⟩ _ (sem_xrecv ⟨51, by decide⟩ _ _)) ?_
  refine (S3_next m K c ⟨51, by decide⟩ (by decide)).trans ?_
  refine step_apply (step_out_wait m K c ⟨52, by decide⟩ _ (sem_cpout ⟨52, by decide⟩ _ _)) ?_
  exact ret_apply c (BI.Entails.refl _)

set_option maxRecDepth 65536 in
theorem part_173 (m : (ℓ : Loc nD τ sig) → Buf (Elt F) ℓ) (K : Dev nD × Fin 323 → ℕ) (c : Dev nD) (v5 : BitVec 32) (v7 : BitVec 32) (v10 : BitVec 32) :
    S3 m K c ⟨52, by decide⟩ 1 ⊢ wp frame (wpE (defs₀ (F := F)) 𝒱₀ (c : Thread nD τ) none) Set.univ
      (k0_part173 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨53, by decide⟩ 1) := by
  rw [k0_part173_eq_skeleton]; unfold k0_part173_skel
  simp only [Prog.lift, Prog.bind_op, Prog.bind_ret, Prog.pure_eq_ret]
  refine step_apply (step_ysend_wait m K c ⟨52, by decide⟩ _ (sem_ysend ⟨52, by decide⟩ _ _)) ?_
  refine step_apply (step_xsend_wait m K c ⟨52, by decide⟩ _ (sem_xsend ⟨52, by decide⟩ _ _)) ?_
  refine step_apply (step_xrecv_wait m K c ⟨52, by decide⟩ _ (sem_xrecv ⟨52, by decide⟩ _ _)) ?_
  refine (S3_next m K c ⟨52, by decide⟩ (by decide)).trans ?_
  refine step_apply (step_out_wait m K c ⟨53, by decide⟩ _ (sem_cpout ⟨53, by decide⟩ _ _)) ?_
  exact ret_apply c (BI.Entails.refl _)

set_option maxRecDepth 65536 in
theorem part_174 (m : (ℓ : Loc nD τ sig) → Buf (Elt F) ℓ) (K : Dev nD × Fin 323 → ℕ) (c : Dev nD) (v5 : BitVec 32) (v7 : BitVec 32) (v10 : BitVec 32) :
    S3 m K c ⟨53, by decide⟩ 1 ⊢ wp frame (wpE (defs₀ (F := F)) 𝒱₀ (c : Thread nD τ) none) Set.univ
      (k0_part174 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨54, by decide⟩ 2) := by
  rw [k0_part174_eq_skeleton]; unfold k0_part174_skel
  simp only [Prog.lift, Prog.bind_op, Prog.bind_ret, Prog.pure_eq_ret]
  refine step_apply (step_ysend_wait m K c ⟨53, by decide⟩ _ (sem_ysend ⟨53, by decide⟩ _ _)) ?_
  refine step_apply (step_xsend_wait m K c ⟨53, by decide⟩ _ (sem_xsend ⟨53, by decide⟩ _ _)) ?_
  refine step_apply (step_xrecv_wait m K c ⟨53, by decide⟩ _ (sem_xrecv ⟨53, by decide⟩ _ _)) ?_
  refine (S3_next m K c ⟨53, by decide⟩ (by decide)).trans ?_
  refine step_apply (step_out_wait m K c ⟨54, by decide⟩ _ (sem_cpout ⟨54, by decide⟩ _ _)) ?_
  refine step_apply (step_ysend_wait m K c ⟨54, by decide⟩ _ (sem_ysend ⟨54, by decide⟩ _ _)) ?_
  exact ret_apply c (BI.Entails.refl _)

set_option maxRecDepth 65536 in
theorem part_175 (m : (ℓ : Loc nD τ sig) → Buf (Elt F) ℓ) (K : Dev nD × Fin 323 → ℕ) (c : Dev nD) (v5 : BitVec 32) (v7 : BitVec 32) (v10 : BitVec 32) :
    S3 m K c ⟨54, by decide⟩ 2 ⊢ wp frame (wpE (defs₀ (F := F)) 𝒱₀ (c : Thread nD τ) none) Set.univ
      (k0_part175 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨55, by decide⟩ 3) := by
  rw [k0_part175_eq_skeleton]; unfold k0_part175_skel
  simp only [Prog.lift, Prog.bind_op, Prog.bind_ret, Prog.pure_eq_ret]
  refine step_apply (step_xsend_wait m K c ⟨54, by decide⟩ _ (sem_xsend ⟨54, by decide⟩ _ _)) ?_
  refine step_apply (step_xrecv_wait m K c ⟨54, by decide⟩ _ (sem_xrecv ⟨54, by decide⟩ _ _)) ?_
  refine (S3_next m K c ⟨54, by decide⟩ (by decide)).trans ?_
  refine step_apply (step_out_wait m K c ⟨55, by decide⟩ _ (sem_cpout ⟨55, by decide⟩ _ _)) ?_
  refine step_apply (step_ysend_wait m K c ⟨55, by decide⟩ _ (sem_ysend ⟨55, by decide⟩ _ _)) ?_
  refine step_apply (step_xsend_wait m K c ⟨55, by decide⟩ _ (sem_xsend ⟨55, by decide⟩ _ _)) ?_
  exact ret_apply c (BI.Entails.refl _)

set_option maxRecDepth 65536 in
theorem part_176 (m : (ℓ : Loc nD τ sig) → Buf (Elt F) ℓ) (K : Dev nD × Fin 323 → ℕ) (c : Dev nD) (v5 : BitVec 32) (v7 : BitVec 32) (v10 : BitVec 32) :
    S3 m K c ⟨55, by decide⟩ 3 ⊢ wp frame (wpE (defs₀ (F := F)) 𝒱₀ (c : Thread nD τ) none) Set.univ
      (k0_part176 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨56, by decide⟩ 3) := by
  rw [k0_part176_eq_skeleton]; unfold k0_part176_skel
  simp only [Prog.lift, Prog.bind_op, Prog.bind_ret, Prog.pure_eq_ret]
  refine step_apply (step_xrecv_wait m K c ⟨55, by decide⟩ _ (sem_xrecv ⟨55, by decide⟩ _ _)) ?_
  refine (S3_next m K c ⟨55, by decide⟩ (by decide)).trans ?_
  refine step_apply (step_out_wait m K c ⟨56, by decide⟩ _ (sem_cpout ⟨56, by decide⟩ _ _)) ?_
  refine step_apply (step_ysend_wait m K c ⟨56, by decide⟩ _ (sem_ysend ⟨56, by decide⟩ _ _)) ?_
  refine step_apply (step_xsend_wait m K c ⟨56, by decide⟩ _ (sem_xsend ⟨56, by decide⟩ _ _)) ?_
  exact ret_apply c (BI.Entails.refl _)

/-- info: 'Cert.Kernel.RS.part_176' depends on axioms: [propext, Classical.choice, Quot.sound] -/
#guard_msgs in #print axioms part_176

end Cert.Kernel.RS

end
-- ==== Proof.RsKernel.Body12.lean ====
/-
  The body of the reduce-scatter, part by part: the parts 177 to 182 of the printed body, each from the state before its first
  operation to the state after its last, one step lemma per operation in program order.
-/
import proofs.«900313_g7700000000000314_dist_rs_v7x_xy2x2_y_m8192_n1024_f32_1_alg».proof.Proof.RsKernel.BodyBase
import proofs.«900313_g7700000000000314_dist_rs_v7x_xy2x2_y_m8192_n1024_f32_1_alg».proof.Proof.RsKernel.Steps3
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_177 (m : (ℓ : Loc nD τ sig) → Buf (Elt F) ℓ) (K : Dev nD × Fin 323 → ℕ) (c : Dev nD) (v5 : BitVec 32) (v7 : BitVec 32) (v10 : BitVec 32) :
    S3 m K c ⟨56, by decide⟩ 3 ⊢ wp frame (wpE (defs₀ (F := F)) 𝒱₀ (c : Thread nD τ) none) Set.univ
      (k0_part177 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨58, by decide⟩ 0) := by
  rw [k0_part177_eq_skeleton]; unfold k0_part177_skel
  simp only [Prog.lift, Prog.bind_op, Prog.bind_ret, Prog.pure_eq_ret]
  refine step_apply (step_xrecv_wait m K c ⟨56, by decide⟩ _ (sem_xrecv ⟨56, by decide⟩ _ _)) ?_
  refine (S3_next m K c ⟨56, by decide⟩ (by decide)).trans ?_
  refine step_apply (step_out_wait m K c ⟨57, by decide⟩ _ (sem_cpout ⟨57, by decide⟩ _ _)) ?_
  refine step_apply (step_ysend_wait m K c ⟨57, by decide⟩ _ (sem_ysend ⟨57, by decide⟩ _ _)) ?_
  refine step_apply (step_xsend_wait m K c ⟨57, by decide⟩ _ (sem_xsend ⟨57, by decide⟩ _ _)) ?_
  refine step_apply (step_xrecv_wait m K c ⟨57, by decide⟩ _ (sem_xrecv ⟨57, by decide⟩ _ _)) ?_
  refine (S3_next m K c ⟨57, by decide⟩ (by decide)).trans ?_
  exact ret_apply c (BI.Entails.refl _)

set_option maxRecDepth 65536 in
theorem part_178 (m : (ℓ : Loc nD τ sig) → Buf (Elt F) ℓ) (K : Dev nD × Fin 323 → ℕ) (c : Dev nD) (v5 : BitVec 32) (v7 : BitVec 32) (v10 : BitVec 32) :
    S3 m K c ⟨58, by decide⟩ 0 ⊢ wp frame (wpE (defs₀ (F := F)) 𝒱₀ (c : Thread nD τ) none) Set.univ
      (k0_part178 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨59, by decide⟩ 1) := by
  rw [k0_part178_eq_skeleton]; unfold k0_part178_skel
  simp only [Prog.lift, Prog.bind_op, Prog.bind_ret, Prog.pure_eq_ret]
  refine step_apply (step_out_wait m K c ⟨58, by decide⟩ _ (sem_cpout ⟨58, by decide⟩ _ _)) ?_
  refine step_apply (step_ysend_wait m K c ⟨58, by decide⟩ _ (sem_ysend ⟨58, by decide⟩ _ _)) ?_
  refine step_apply (step_xsend_wait m K c ⟨58, by decide⟩ _ (sem_xsend ⟨58, by decide⟩ _ _)) ?_
  refine step_apply (step_xrecv_wait m K c ⟨58, by decide⟩ _ (sem_xrecv ⟨58, by decide⟩ _ _)) ?_
  refine (S3_next m K c ⟨58, by decide⟩ (by decide)).trans ?_
  refine step_apply (step_out_wait m K c ⟨59, by decide⟩ _ (sem_cpout ⟨59, by decide⟩ _ _)) ?_
  exact ret_apply c (BI.Entails.refl _)

set_option maxRecDepth 65536 in
theorem part_179 (m : (ℓ : Loc nD τ sig) → Buf (Elt F) ℓ) (K : Dev nD × Fin 323 → ℕ) (c : Dev nD) (v5 : BitVec 32) (v7 : BitVec 32) (v10 : BitVec 32) :
    S3 m K c ⟨59, by decide⟩ 1 ⊢ wp frame (wpE (defs₀ (F := F)) 𝒱₀ (c : Thread nD τ) none) Set.univ
      (k0_part179 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨60, by decide⟩ 2) := by
  rw [k0_part179_eq_skeleton]; unfold k0_part179_skel
  simp only [Prog.lift, Prog.bind_op, Prog.bind_ret, Prog.pure_eq_ret]
  refine step_apply (step_ysend_wait m K c ⟨59, by decide⟩ _ (sem_ysend ⟨59, by decide⟩ _ _)) ?_
  refine step_apply (step_xsend_wait m K c ⟨59, by decide⟩ _ (sem_xsend ⟨59, by decide⟩ _ _)) ?_
  refine step_apply (step_xrecv_wait m K c ⟨59, by decide⟩ _ (sem_xrecv ⟨59, by decide⟩ _ _)) ?_
  refine (S3_next m K c ⟨59, by decide⟩ (by decide)).trans ?_
  refine step_apply (step_out_wait m K c ⟨60, by decide⟩ _ (sem_cpout ⟨60, by decide⟩ _ _)) ?_
  refine step_apply (step_ysend_wait m K c ⟨60, by decide⟩ _ (sem_ysend ⟨60, by decide⟩ _ _)) ?_
  exact ret_apply c (BI.Entails.refl _)

set_option maxRecDepth 65536 in
theorem part_180 (m : (ℓ : Loc nD τ sig) → Buf (Elt F) ℓ) (K : Dev nD × Fin 323 → ℕ) (c : Dev nD) (v5 : BitVec 32) (v7 : BitVec 32) (v10 : BitVec 32) :
    S3 m K c ⟨60, by decide⟩ 2 ⊢ wp frame (wpE (defs₀ (F := F)) 𝒱₀ (c : Thread nD τ) none) Set.univ
      (k0_part180 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨61, by decide⟩ 2) := by
  rw [k0_part180_eq_skeleton]; unfold k0_part180_skel
  simp only [Prog.lift, Prog.bind_op, Prog.bind_ret, Prog.pure_eq_ret]
  refine step_apply (step_xsend_wait m K c ⟨60, by decide⟩ _ (sem_xsend ⟨60, by decide⟩ _ _)) ?_
  refine step_apply (step_xrecv_wait m K c ⟨60, by decide⟩ _ (sem_xrecv ⟨60, by decide⟩ _ _)) ?_
  refine (S3_next m K c ⟨60, by decide⟩ (by decide)).trans ?_
  refine step_apply (step_out_wait m K c ⟨61, by decide⟩ _ (sem_cpout ⟨61, by decide⟩ _ _)) ?_
  refine step_apply (step_ysend_wait m K c ⟨61, by decide⟩ _ (sem_ysend ⟨61, by decide⟩ _ _)) ?_
  exact ret_apply c (BI.Entails.refl _)

set_option maxRecDepth 65536 in
theorem part_181 (m : (ℓ : Loc nD τ sig) → Buf (Elt F) ℓ) (K : Dev nD × Fin 323 → ℕ) (c : Dev nD) (v5 : BitVec 32) (v7 : BitVec 32) (v10 : BitVec 32) :
    S3 m K c ⟨61, by decide⟩ 2 ⊢ wp frame (wpE (defs₀ (F := F)) 𝒱₀ (c : Thread nD τ) none) Set.univ
      (k0_part181 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10)
      (fun _ => S3 m K c ⟨62, by decide⟩ 3) := by
  rw [k0_part181_eq_skeleton]; unfold k0_part181_skel
  simp only [Prog.lift, Prog.bind_op, Prog.bind_ret, Prog.pure_eq_ret]
  refine step_apply (step_xsend_wait m K c ⟨61, by decide⟩ _ (sem_xsend ⟨61, by decide⟩ _ _)) ?_
  refine step_apply (step_xrecv_wait m K c ⟨61, by decide⟩ _ (sem_xrecv ⟨61, by decide⟩ _ _)) ?_
  refine (S3_next m K c ⟨61, by decide⟩ (by decide)).trans ?_
  refine step_apply (step_out_wait m K c ⟨62, by decide⟩ _ (sem_cpout ⟨62, by decide⟩ _ _)) ?_
  refine step_apply (step_ysend_wait m K c ⟨62, by decide⟩ _ (sem_ysend ⟨62, by decide⟩ _ _)) ?_
  refine step_apply (step_xsend_wait m K c ⟨62, by decide⟩ _ (sem_xsend ⟨62, by decide⟩ _ _)) ?_
  exact ret_apply c (BI.Entails.refl _)

set_option maxRecDepth 65536 in
theorem part_182 (m : (ℓ : Loc nD τ sig) → Buf (Elt F) ℓ) (K : Dev nD × Fin 323 → ℕ) (c : Dev nD) (v5 : BitVec 32) (v7 : BitVec 32) (v10 : BitVec 32) (v5238 : BitVec 32) (c0_i32_4723 : BitVec 32) :
    S3 m K c ⟨62, by decide⟩ 3 ⊢ wp frame (wpE (defs₀ (F := F)) 𝒱₀ (c : Thread nD τ) none) Set.univ
      (k0_part182 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7 v10 v5238 c0_i32_4723)
      (fun _ => S3 m K c ⟨63, by decide⟩ 3) := by
  rw [k0_part182_eq_skeleton]; unfold k0_part182_skel
  simp only [Prog.lift, Prog.bind_op, Prog.bind_ret, Prog.pure_eq_ret]
  refine step_apply (step_xrecv_wait m K c ⟨62, by decide⟩ _ (sem_xrecv ⟨62, by decide⟩ _ _)) ?_
  refine (S3_next m K c ⟨62, by decide⟩ (by decide)).trans ?_
  refine step_apply (step_out_wait m K c ⟨63, by decide⟩ _ (sem_cpout ⟨63, by decide⟩ _ _)) ?_
  refine step_apply (step_ysend_wait m K c ⟨63, by decide⟩ _ (sem_ysend ⟨63, by decide⟩ _ _)) ?_
  refine step_apply (step_xsend_wait m K c ⟨63, by decide⟩ _ (sem_xsend ⟨63, by decide⟩ _ _)) ?_
  exact ret_apply c (BI.Entails.refl _)

/-- info: 'Cert.Kernel.RS.part_182' depends on axioms: [propext, Classical.choice, Quot.sound] -/
#guard_msgs in #print axioms part_182

end Cert.Kernel.RS

end
-- ==== Proof.RsKernel.Body.lean ====
/-
  The body of the reduce-scatter, whole: the parts run one after another (the three second-level parts, then the body
  itself), from the state the body starts in to the state after its last wait.
-/
import proofs.«900313_g7700000000000314_dist_rs_v7x_xy2x2_y_m8192_n1024_f32_1_alg».proof.Proof.RsKernel.Body01
import proofs.«900313_g7700000000000314_dist_rs_v7x_xy2x2_y_m8192_n1024_f32_1_alg».proof.Proof.RsKernel.Body02
import proofs.«900313_g7700000000000314_dist_rs_v7x_xy2x2_y_m8192_n1024_f32_1_alg».proof.Proof.RsKernel.Body03
import proofs.«900313_g7700000000000314_dist_rs_v7x_xy2x2_y_m8192_n1024_f32_1_alg».proof.Proof.RsKernel.Body04
import proofs.«900313_g7700000000000314_dist_rs_v7x_xy2x2_y_m8192_n1024_f32_1_alg».proof.Proof.RsKernel.Body05
import proofs.«900313_g7700000000000314_dist_rs_v7x_xy2x2_y_m8192_n1024_f32_1_alg».proof.Proof.RsKernel.Body06
import proofs.«900313_g7700000000000314_dist_rs_v7x_xy2x2_y_m8192_n1024_f32_1_alg».proof.Proof.RsKernel.Body07
import proofs.«900313_g7700000000000314_dist_rs_v7x_xy2x2_y_m8192_n1024_f32_1_alg».proof.Proof.RsKernel.Body08
import proofs.«900313_g7700000000000314_dist_rs_v7x_xy2x2_y_m8192_n1024_f32_1_alg».proof.Proof.RsKernel.Body09
import proofs.«900313_g7700000000000314_dist_rs_v7x_xy2x2_y_m8192_n1024_f32_1_alg».proof.Proof.RsKernel.Body10
import proofs.«900313_g7700000000000314_dist_rs_v7x_xy2x2_y_m8192_n1024_f32_1_alg».proof.Proof.RsKernel.Body11
import proofs.«900313_g7700000000000314_dist_rs_v7x_xy2x2_y_m8192_n1024_f32_1_alg».proof.Proof.RsKernel.Body12
import proofs.«900313_g7700000000000314_dist_rs_v7x_xy2x2_y_m8192_n1024_f32_1_alg».proof.Proof.RsKernel.Steps3
import proofs.«900313_g7700000000000314_dist_rs_v7x_xy2x2_y_m8192_n1024_f32_1_alg».proof.Proof.RsKernel.Views

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_183 (m : (ℓ : Loc nD τ sig) → Buf (Elt F) ℓ) (K : Dev nD × Fin 323 → ℕ) (c : Dev nD) :
    Start m K c ⊢ wp frame (wpE (defs₀ (F := F)) 𝒱₀ (c : Thread nD τ) none) Set.univ
      (k0_part183 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun ret => iprop(⌜c = ret.1⌝ ∗ S2 m K c 20 1)) := by
  rw [k0_part183_eq_skeleton]; unfold k0_part183_skel
  refine bind_apply c (part_1 m K c) (fun ret => ?_)
  refine pure_sep_elim (fun hret => ?_)
  obtain ⟨d0, v2, v5, v6, v7, v8, v10, c0_i32_20⟩ := ret
  replace hret : c = d0 := hret
  subst hret
  refine bind_apply c (part_2 m K c _ _ _ _ _) (fun ret => ?_)
  refine bind_apply c (part_3 m K c _ _ _ _) (fun ret => ?_)
  refine bind_apply c (part_4 m K c _ _ _ _) (fun ret => ?_)
  refine bind_apply c (part_5 m K c _ _ _ _) (fun ret => ?_)
  refine bind_apply c (part_6 m K c _ _ _ _) (fun ret => ?_)
  obtain ⟨v186, v187⟩ := ret
  refine bind_apply c (part_7 m K c _ _ _ _ _ _) (fun ret => ?_)
  refine bind_apply c (part_8 m K c _ _ _ _) (fun ret => ?_)
  obtain ⟨v253, c1024_i32_170⟩ := ret
  refine bind_apply c (part_9 m K c _ _ _ _ _ _) (fun ret => ?_)
  refine bind_apply c (part_10 m K c _ _ _ _ _) (fun ret => ?_)
  refine bind_apply c (part_11 m K c _ _ _ _) (fun ret => ?_)
  refine bind_apply c (part_12 m K c _ _ _ _ _) (fun ret => ?_)
  refine bind_apply c (part_13 m K c _ _ _ _ _) (fun ret => ?_)
  refine bind_apply c (part_14 m K c _ _ _ _) (fun ret => ?_)
  refine bind_apply c (part_15 m K c _ _ _ _ _) (fun ret => ?_)
  refine bind_apply c (part_16 m K c _ _ _ _) (fun ret => ?_)
  refine bind_apply c (part_17 m K c _ _ _ _) (fun ret => ?_)
  refine bind_apply c (part_18 m K c _ _ _ _) (fun ret => ?_)
  refine bind_apply c (part_19 m K c _ _ _ _) (fun ret => ?_)
  obtain ⟨v606, v607⟩ := ret
  refine bind_apply c (part_20 m K c _ _ _ _ _ _) (fun ret => ?_)
  refine bind_apply c (part_21 m K c _ _ _ _) (fun ret => ?_)
  obtain ⟨v673, c1024_i32_440⟩ := ret
  refine bind_apply c (part_22 m K c _ _ _ _ _ _) (fun ret => ?_)
  refine bind_apply c (part_23 m K c _ _ _ _ _) (fun ret => ?_)
  refine bind_apply c (part_24 m K c _ _ _ _) (fun ret => ?_)
  refine bind_apply c (part_25 m K c _ _ _ _ _) (fun ret => ?_)
  refine bind_apply c (part_26 m K c _ _ _ _ _) (fun ret => ?_)
  refine bind_apply c (part_27 m K c _ _ _ _) (fun ret => ?_)
  refine bind_apply c (part_28 m K c _ _ _ _ _) (fun ret => ?_)
  refine bind_apply c (part_29 m K c _ _ _ _) (fun ret => ?_)
  refine bind_apply c (part_30 m K c _ _ _ _ _) (fun ret => ?_)
  refine bind_apply c (part_31 m K c _ _ _ _) (fun ret => ?_)
  refine bind_apply c (part_32 m K c _ _ _) (fun ret => ?_)
  refine bind_apply c (part_33 m K c _ _ _ _ _) (fun ret => ?_)
  obtain ⟨v1048, v1049⟩ := ret
  refine bind_apply c (part_34 m K c _ _ _ _ _ _) (fun ret => ?_)
  refine bind_apply c (part_35 m K c _ _ _) (fun ret => ?_)
  refine bind_apply c (part_36 m K c _ _ _) (fun ret => ?_)
  refine bind_apply c (part_37 m K c _ _ _ _ _) (fun ret => ?_)
  refine bind_apply c (part_38 m K c _ _ _) (fun ret => ?_)
  refine bind_apply c (part_39 m K c _ _ _ _) (fun ret => ?_)
  refine pure_sep_elim (fun hret => ?_)
  subst hret
  refine bind_apply c (part_40 m K c _ _ _ _ _) (fun ret => ?_)
  refine bind_apply c (part_41 m K c _ _ _) (fun ret => ?_)
  refine bind_apply c (part_42 m K c _ _ _ _) (fun ret => ?_)
  refine pure_sep_elim (fun hret => ?_)
  subst hret
  refine bind_apply c (part_43 m K c _ _ _) (fun ret => ?_)
  refine bind_apply c (part_44 m K c _ _ _ _ _ _) (fun ret => ?_)
  refine bind_apply c (part_45 m K c _ _ _ _) (fun ret => ?_)
  refine bind_apply c (part_46 m K c _ _ _) (fun ret => ?_)
  refine bind_apply c (part_47 m K c _ _ _ _ _) (fun ret => ?_)
  refine bind_apply c (part_48 m K c _ _ _ _) (fun ret => ?_)
  refine bind_apply c (part_49 m K c _ _ _) (fun ret => ?_)
  refine bind_apply c (part_50 m K c _ _ _ _) (fun ret => ?_)
  obtain ⟨v1553, c0_i32_1150⟩ := ret
  refine bind_apply c (part_51 m K c _ _ _ _ _ _) (fun ret => ?_)
  refine bind_apply c (part_52 m K c _ _ _) (fun ret => ?_)
  refine bind_apply c (part_53 m K c _ _ _) (fun ret => ?_)
  refine bind_apply c (part_54 m K c _ _ _ _ _ _) (fun ret => ?_)
  refine bind_apply c (part_55 m K c _ _ _) (fun ret => ?_)
  refine bind_apply c (part_56 m K c _ _ _ _) (fun ret => ?_)
  refine pure_sep_elim (fun hret => ?_)
  subst hret
  refine bind_apply c (part_57 m K c _ _ _ _) (fun ret => ?_)
  refine bind_apply c (part_58 m K c _ _ _ _ _) (fun ret => ?_)
  refine bind_apply c (part_59 m K c _ _ _ _ _) (fun ret => ?_)
  refine pure_sep_elim (fun hret => ?_)
  subst hret
  refine bind_apply c (part_60 m K c _ _ _) (fun ret => ?_)
  exact ret_fact c rfl

set_option maxRecDepth 65536 in
theorem part_184 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) :
    S2 m K c 20 1 ⊢ wp frame (wpE (defs₀ (F := F)) 𝒱₀ (c : Thread nD τ) none) Set.univ
      (k0_part184 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8)
      (fun _ => S2 m K c 58 5) := by
  rw [k0_part184_eq_skeleton]; unfold k0_part184_skel
  refine bind_apply c (part_61 m K c _ _ _ _ _) (fun ret => ?_)
  refine bind_apply c (part_62 m K c _ _ _ _) (fun ret => ?_)
  refine bind_apply c (part_63 m K c _ _ _) (fun ret => ?_)
  refine bind_apply c (part_64 m K c _ _ _ _ _) (fun ret => ?_)
  obtain ⟨v1968, v1969⟩ := ret
  refine bind_apply c (part_65 m K c _ _ _ _ _ _) (fun ret => ?_)
  refine bind_apply c (part_66 m K c _ _ _) (fun ret => ?_)
  refine bind_apply c (part_67 m K c _ _ _) (fun ret => ?_)
  refine bind_apply c (part_68 m K c _ _ _ _ _) (fun ret => ?_)
  refine bind_apply c (part_69 m K c _ _ _) (fun ret => ?_)
  refine bind_apply c (part_70 m K c _ _ _ _) (fun ret => ?_)
  refine pure_sep_elim (fun hret => ?_)
  subst hret
  refine bind_apply c (part_71 m K c _ _ _ _ _) (fun ret => ?_)
  refine bind_apply c (part_72 m K c _ _ _) (fun ret => ?_)
  refine bind_apply c (part_73 m K c _ _ _ _) (fun ret => ?_)
  refine pure_sep_elim (fun hret => ?_)
  subst hret
  refine bind_apply c (part_74 m K c _ _ _) (fun ret => ?_)
  refine bind_apply c (part_75 m K c _ _ _ _ _ _) (fun ret => ?_)
  refine bind_apply c (part_76 m K c _ _ _ _) (fun ret => ?_)
  refine bind_apply c (part_77 m K c _ _ _) (fun ret => ?_)
  refine bind_apply c (part_78 m K c _ _ _ _ _) (fun ret => ?_)
  refine bind_apply c (part_79 m K c _ _ _ _) (fun ret => ?_)
  refine bind_apply c (part_80 m K c _ _ _) (fun ret => ?_)
  refine bind_apply c (part_81 m K c _ _ _ _) (fun ret => ?_)
  obtain ⟨v2473, c0_i32_1950⟩ := ret
  refine bind_apply c (part_82 m K c _ _ _ _ _ _) (fun ret => ?_)
  refine bind_apply c (part_83 m K c _ _ _) (fun ret => ?_)
  refine bind_apply c (part_84 m K c _ _ _) (fun ret => ?_)
  refine bind_apply c (part_85 m K c _ _ _ _ _ _) (fun ret => ?_)
  refine bind_apply c (part_86 m K c _ _ _) (fun ret => ?_)
  refine bind_apply c (part_87 m K c _ _ _ _) (fun ret => ?_)
  refine pure_sep_elim (fun hret => ?_)
  subst hret
  refine bind_apply c (part_88 m K c _ _ _ _) (fun ret => ?_)
  refine bind_apply c (part_89 m K c _ _ _ _ _) (fun ret => ?_)
  refine bind_apply c (part_90 m K c _ _ _ _ _) (fun ret => ?_)
  refine pure_sep_elim (fun hret => ?_)
  subst hret
  refine bind_apply c (part_91 m K c _ _ _) (fun ret => ?_)
  refine bind_apply c (part_92 m K c _ _ _ _ _) (fun ret => ?_)
  refine bind_apply c (part_93 m K c _ _ _ _) (fun ret => ?_)
  refine bind_apply c (part_94 m K c _ _ _) (fun ret => ?_)
  refine bind_apply c (part_95 m K c _ _ _ _ _) (fun ret => ?_)
  obtain ⟨v2888, v2889⟩ := ret
  refine bind_apply c (part_96 m K c _ _ _ _ _ _) (fun ret => ?_)
  refine bind_apply c (part_97 m K c _ _ _) (fun ret => ?_)
  refine bind_apply c (part_98 m K c _ _ _) (fun ret => ?_)
  refine bind_apply c (part_99 m K c _ _ _ _ _) (fun ret => ?_)
  refine bind_apply c (part_100 m K c _ _ _) (fun ret => ?_)
  refine bind_apply c (part_101 m K c _ _ _ _) (fun ret => ?_)
  refine pure_sep_elim (fun hret => ?_)
  subst hret
  refine bind_apply c (part_102 m K c _ _ _ _ _) (fun ret => ?_)
  refine bind_apply c (part_103 m K c _ _ _) (fun ret => ?_)
  refine bind_apply c (part_104 m K c _ _ _ _) (fun ret => ?_)
  refine pure_sep_elim (fun hret => ?_)
  subst hret
  refine bind_apply c (part_105 m K c _ _ _) (fun ret => ?_)
  refine bind_apply c (part_106 m K c _ _ _ _ _ _) (fun ret => ?_)
  refine bind_apply c (part_107 m K c _ _ _ _) (fun ret => ?_)
  refine bind_apply c (part_108 m K c _ _ _) (fun ret => ?_)
  refine bind_apply c (part_109 m K c _ _ _ _ _) (fun ret => ?_)
  refine bind_apply c (part_110 m K c _ _ _ _) (fun ret => ?_)
  refine bind_apply c (part_111 m K c _ _ _) (fun ret => ?_)
  refine bind_apply c (part_112 m K c _ _ _ _) (fun ret => ?_)
  obtain ⟨v3393, c0_i32_2750⟩ := ret
  refine bind_apply c (part_113 m K c _ _ _ _ _ _) (fun ret => ?_)
  refine bind_apply c (part_114 m K c _ _ _) (fun ret => ?_)
  refine bind_apply c (part_115 m K c _ _ _) (fun ret => ?_)
  refine bind_apply c (part_116 m K c _ _ _ _ _ _) (fun ret => ?_)
  refine bind_apply c (part_117 m K c _ _ _) (fun ret => ?_)
  refine bind_apply c (part_118 m K c _ _ _ _) (fun ret => ?_)
  refine pure_sep_elim (fun hret => ?_)
  subst hret
  refine bind_apply c (part_119 m K c _ _ _ _) (fun ret => ?_)
  exact part_120 m K c _ _ _ _ _

set_option maxRecDepth 65536 in
theorem part_185 (m : (ℓ : Loc nD τ sig) → Buf (Elt F) ℓ) (K : Dev nD × Fin 323 → ℕ) (c : Dev nD) (v2 : BitVec 32) (v5 : BitVec 32) (v6 : BitVec 32) (v7 : BitVec 32) (v8 : BitVec 32) (v10 : BitVec 32) (c3712_i32_2955 : BitVec 32) :
    S2 m K c 58 5 ⊢ wp frame (wpE (defs₀ (F := F)) 𝒱₀ (c : Thread nD τ) none) Set.univ
      (k0_part185 (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v5 v6 v7 v8 v10 c3712_i32_2955)
      (fun _ => S3 m K c ⟨61, by decide⟩ 2) := by
  rw [k0_part185_eq_skeleton]; unfold k0_part185_skel
  refine bind_apply c (part_121 m K c _ _ _ _ _) (fun ret => ?_)
  refine pure_sep_elim (fun hret => ?_)
  subst hret
  refine bind_apply c (part_122 m K c _ _ _) (fun ret => ?_)
  refine bind_apply c (part_123 m K c _ _ _ _ _) (fun ret => ?_)
  refine bind_apply c (part_124 m K c _ _ _ _) (fun ret => ?_)
  refine bind_apply c (part_125 m K c _ _ _) (fun ret => ?_)
  refine bind_apply c (part_126 m K c _ _ _ _ _) (fun ret => ?_)
  obtain ⟨v3808, v3809⟩ := ret
  refine bind_apply c (part_127 m K c _ _ _ _ _) (fun ret => ?_)
  refine pure_sep_elim (fun hret => ?_)
  subst hret
  refine bind_apply c (part_128 m K c _ _ _) (fun ret => ?_)
  refine bind_apply c (part_129 m K c _ _ _) (fun ret => ?_)
  refine bind_apply c (part_130 m K c _ _ _) (fun ret => ?_)
  obtain ⟨v3918, c0_i32_3223⟩ := ret
  refine bind_apply c (part_131 m K c _ _ _ _ _) (fun ret => ?_)
  refine bind_apply c (part_132 m K c _ _ _) (fun ret => ?_)
  refine bind_apply c (part_133 m K c _ _ _) (fun ret => ?_)
  refine bind_apply c (part_134 m K c _ _ _) (fun ret => ?_)
  refine bind_apply c (part_135 m K c _ _ _) (fun ret => ?_)
  refine bind_apply c (part_136 m K c _ _ _ _) (fun ret => ?_)
  obtain ⟨v4073, v4074⟩ := ret
  refine bind_apply c (part_137 m K c _ _ _ _ _) (fun ret => ?_)
  refine bind_apply c (part_138 m K c _ _ _) (fun ret => ?_)
  refine bind_apply c (part_139 m K c _ _ _) (fun ret => ?_)
  refine bind_apply c (part_140 m K c _ _ _) (fun ret => ?_)
  refine bind_apply c (part_141 m K c _ _ _) (fun ret => ?_)
  refine bind_apply c (part_142 m K c _ _ _) (fun ret => ?_)
  refine bind_apply c (part_143 m K c _ _ _) (fun ret => ?_)
  refine bind_apply c (part_144 m K c _ _ _) (fun ret => ?_)
  refine bind_apply c (part_145 m K c _ _ _) (fun ret => ?_)
  refine bind_apply c (part_146 m K c _ _ _) (fun ret => ?_)
  refine bind_apply c (part_147 m K c _ _ _) (fun ret => ?_)
  obtain ⟨v4358, c0_i32_3723⟩ := ret
  refine bind_apply c (part_148 m K c _ _ _ _ _) (fun ret => ?_)
  refine bind_apply c (part_149 m K c _ _ _) (fun ret => ?_)
  refine bind_apply c (part_150 m K c _ _ _) (fun ret => ?_)
  refine bind_apply c (part_151 m K c _ _ _) (fun ret => ?_)
  refine bind_apply c (part_152 m K c _ _ _) (fun ret => ?_)
  refine bind_apply c (part_153 m K c _ _ _ _) (fun ret => ?_)
  obtain ⟨v4513, v4514⟩ := ret
  refine bind_apply c (part_154 m K c _ _ _ _ _) (fun ret => ?_)
  refine bind_apply c (part_155 m K c _ _ _) (fun ret => ?_)
  refine bind_apply c (part_156 m K c _ _ _) (fun ret => ?_)
  refine bind_apply c (part_157 m K c _ _ _) (fun ret => ?_)
  refine bind_apply c (part_158 m K c _ _ _) (fun ret => ?_)
  refine bind_apply c (part_159 m K c _ _ _) (fun ret => ?_)
  refine bind_apply c (part_160 m K c _ _ _) (fun ret => ?_)
  refine bind_apply c (part_161 m K c _ _ _) (fun ret => ?_)
  refine bind_apply c (part_162 m K c _ _ _) (fun ret => ?_)
  refine bind_apply c (part_163 m K c _ _ _) (fun ret => ?_)
  refine bind_apply c (part_164 m K c _ _ _) (fun ret => ?_)
  obtain ⟨v4798, c0_i32_4223⟩ := ret
  refine bind_apply c (part_165 m K c _ _ _ _ _) (fun ret => ?_)
  refine bind_apply c (part_166 m K c _ _ _) (fun ret => ?_)
  refine bind_apply c (part_167 m K c _ _ _) (fun ret => ?_)
  refine bind_apply c (part_168 m K c _ _ _) (fun ret => ?_)
  refine bind_apply c (part_169 m K c _ _ _) (fun ret => ?_)
  refine bind_apply c (part_170 m K c _ _ _ _) (fun ret => ?_)
  obtain ⟨v4953, v4954⟩ := ret
  refine bind_apply c (part_171 m K c _ _ _ _ _) (fun ret => ?_)
  refine bind_apply c (part_172 m K c _ _ _) (fun ret => ?_)
  refine bind_apply c (part_173 m K c _ _ _) (fun ret => ?_)
  refine bind_apply c (part_174 m K c _ _ _) (fun ret => ?_)
  refine bind_apply c (part_175 m K c _ _ _) (fun ret => ?_)
  refine bind_apply c (part_176 m K c _ _ _) (fun ret => ?_)
  refine bind_apply c (part_177 m K c _ _ _) (fun ret => ?_)
  refine bind_apply c (part_178 m K c _ _ _) (fun ret => ?_)
  refine bind_apply c (part_179 m K c _ _ _) (fun ret => ?_)
  refine bind_apply c (part_180 m K c _ _ _) (fun ret => ?_)
  exact ret_apply c (BI.Entails.refl _)

set_option maxRecDepth 65536 in
theorem body_main (m : (ℓ : Loc nD τ sig) → Buf (Elt F) ℓ) (K : Dev nD × Fin 323 → ℕ) (c : Dev nD) :
    Start m K c ⊢ wp frame (wpE (defs₀ (F := F)) 𝒱₀ (c : Thread nD τ) none) Set.univ
      (cc0_body (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun _ => S4 m K c) := by
  rw [cc0_body_eq_skeleton]; unfold cc0_body_skel
  refine bind_apply c (part_183 m K c) (fun ret => ?_)
  refine pure_sep_elim (fun hret => ?_)
  obtain ⟨d0, v2, v5, v6, v7, v8, v10⟩ := ret
  replace hret : c = d0 := hret
  subst hret
  refine bind_apply c (part_184 m K c _ _ _ _ _) (fun ret => ?_)
  refine bind_apply c (part_185 m K c _ _ _ _ _ _ _) (fun ret => ?_)
  refine bind_apply c (part_181 m K c _ _ _) (fun ret => ?_)
  obtain ⟨v5238, c0_i32_4723⟩ := ret
  refine bind_apply c (part_182 m K c _ _ _ _ _) (fun ret => ?_)
  simp only [Prog.lift, Prog.bind_op, Prog.bind_ret, Prog.pure_eq_ret]
  refine step_apply (step_xrecv_wait m K c ⟨63, by decide⟩ _ (sem_xrecv ⟨63, by decide⟩ _ _)) ?_
  refine (S3_end m K c).trans ?_
  exact ret_apply c (BI.Entails.refl _)

/-- info: 'Cert.Kernel.RS.body_main' depends on axioms: [propext, Classical.choice, Quot.sound] -/
#guard_msgs in #print axioms body_main

end Cert.Kernel.RS

end
-- ==== Proof.RsKernel.Run.lean ====
/-
  The run. The launch mints the protocol's ghost state for every cell of every device under one update: each cell's
  round state, position and reached-mark, and one token per duty. Each cell's invariant is allocated from its counter
  at zero; the tokens are dealt around the mesh, every device receiving the tokens of the duties IT pays: both peers'
  barrier duties, both peers' receive duties, and its own send, copy and staging duties. From what the launch then
  hands a device, its buffers cut into the chunks' pieces, its tokens, positions and launch credit, the body runs,
  and what it leaves is read against the final memory.
-/
import proofs.«900313_g7700000000000314_dist_rs_v7x_xy2x2_y_m8192_n1024_f32_1_alg».proof.Proof.RsKernel.State
import proofs.«900313_g7700000000000314_dist_rs_v7x_xy2x2_y_m8192_n1024_f32_1_alg».proof.Proof.RsKernel.Levels
import proofs.«900313_g7700000000000314_dist_rs_v7x_xy2x2_y_m8192_n1024_f32_1_alg».proof.Proof.RsKernel.Views
import proofs.«900313_g7700000000000314_dist_rs_v7x_xy2x2_y_m8192_n1024_f32_1_alg».proof.Proof.RsKernel.Regions
import proofs.«900313_g7700000000000314_dist_rs_v7x_xy2x2_y_m8192_n1024_f32_1_alg».proof.Proof.RsKernel.Edge
import proofs.«900313_g7700000000000314_dist_rs_v7x_xy2x2_y_m8192_n1024_f32_1_alg».proof.Proof.RsKernel.Body
import proofs.«900313_g7700000000000314_dist_rs_v7x_xy2x2_y_m8192_n1024_f32_1_alg».proof.Proof.Gen.Kernel.Launch
import proofs.«900313_g7700000000000314_dist_rs_v7x_xy2x2_y_m8192_n1024_f32_1_alg».proof.Proof.Gen.Kernel.Points

noncomputable section

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The launch set-up's own lemmas live in `Launch`; the run itself is `run_main`. -/
namespace Launch

/-! ## The cells, and the duty tokens, as finite sets -/

theorem csem_lt (j : Fin 323) (h : j.val < 322) : csem j = .dma ⟨j.val, h⟩ := dif_pos h
theorem csem_last (j : Fin 323) (h : ¬ j.val < 322) : csem j = .reg barS := dif_neg h

theorem csem_injective : Function.Injective csem := fun j j' h => by
  by_cases h1 : j.val < 322 <;> by_cases h2 : j'.val < 322
  · rw [csem_lt j h1, csem_lt j' h2] at h
    have h3 : j.val = j'.val := congrArg (fun q : DmaSem sig => q.val) (SemLoc.dma.inj h)
    exact Fin.ext h3
  · rw [csem_lt j h1, csem_last j' h2] at h; cases h
  · rw [csem_last j h1, csem_lt j' h2] at h; cases h
  · exact Fin.ext (by have := j.isLt; have := j'.isLt; omega)

theorem kcell_injective : Function.Injective (kcell : Dev nD × Fin 323 → GSem nD τ sig) := by
  rintro ⟨c, j⟩ ⟨c', j'⟩ h
  have h1 : c = c' := congrArg (fun g : GSem nD τ sig => g.1.1) h
  have h2 : csem j = csem j' := congrArg Prod.snd h
  rw [h1, csem_injective h2]

def allCells : Finset (GSem nD τ sig) := Finset.univ.map ⟨kcell, kcell_injective⟩

/-- The position of a copy semaphore among the cells. -/
def dj (q : DmaSem sig) : Fin 323 := ⟨q.val, Nat.lt_succ_of_lt (show q.val < 322 from q.isLt)⟩
theorem kcell_dj (c : Dev nD) (q : DmaSem sig) : kcell (c, dj q) = ((c : Thread nD τ), .dma q) := by
  show ((c : Thread nD τ), csem (dj q)) = _
  rw [csem_lt (dj q) (show q.val < 322 from q.isLt)]; rfl
theorem kcell_bar (c : Dev nD) : kcell (c, Fin.last 322) = barC c := by
  show ((c : Thread nD τ), csem (Fin.last 322)) = _
  rw [csem_last (Fin.last 322) (by show ¬ 322 < 322; omega)]

/-- The duties: per chunk the column send, column receive, row send, row receive, result copy and staging duty; and the
    barrier's two. -/
abbrev TIx : Type := (Fin 64 × Fin 6) ⊕ Bool

def tokOf (x : Dev nD × TIx) : GSem nD τ sig × ℕ × Bool :=
  match x.2 with
  | .inl (r, k) =>
    match k with
    | 0 => (ysendC x.1 r, 0, false)
    | 1 => (yrecvC x.1 r, 0, false)
    | 2 => (xsendC x.1 r, 0, false)
    | 3 => (xrecvC x.1 r, 0, false)
    | 4 => (cpoutC x.1 r, 0, false)
    | 5 => (cpinC x.1 (slotOf r.val), r.val / 2, false)
  | .inr b => (barC x.1, 0, b)

/-- A token in numbers: the position of its cell's semaphore, its round, its duty. -/
def semIx : SemLoc sig → ℕ
  | .dma q => q.val
  | .reg _ => 322
def tkey (t : GSem nD τ sig × ℕ × Bool) : ℕ × ℕ × Bool := (semIx t.1.2, t.2.1, t.2.2)
def ykey : TIx → ℕ × ℕ × Bool
  | .inl (r, k) =>
    (if k.val = 0 then r.val else if k.val = 5 then 256 + r.val % 2 else if k.val = 4 then 258 + r.val else 64 * k.val + r.val,
      if k.val = 5 then r.val / 2 else 0, false)
  | .inr b => (322, 0, b)

theorem tokOf_dev (x : Dev nD × TIx) : (tokOf x).1.1.1 = x.1 := by
  rcases x with ⟨c, ⟨r, k⟩ | b⟩
  · fin_cases k <;> rfl
  · rfl
theorem tokOf_key (x : Dev nD × TIx) : tkey (tokOf x) = ykey x.2 := by
  rcases x with ⟨c, ⟨r, k⟩ | b⟩
  · fin_cases k <;> rfl
  · rfl

theorem ykey_injective : Function.Injective ykey := by
  rintro (⟨r, k⟩ | b) (⟨r', k'⟩ | b') h
  · simp only [ykey, Prod.mk.injEq] at h
    obtain ⟨h1, h2, -⟩ := h
    have := r.isLt; have := r'.isLt; have := k.isLt; have := k'.isLt
    have hh : k.val = k'.val ∧ r.val = r'.val := by split_ifs at h1 h2 <;> omega
    exact congrArg Sum.inl (Prod.ext (Fin.ext hh.2) (Fin.ext hh.1))
  · simp only [ykey, Prod.mk.injEq] at h
    obtain ⟨h1, -, -⟩ := h
    have := r.isLt; have := k.isLt
    exfalso; split_ifs at h1 <;> omega
  · simp only [ykey, Prod.mk.injEq] at h
    obtain ⟨h1, -, -⟩ := h
    have := r'.isLt; have := k'.isLt
    exfalso; split_ifs at h1 <;> omega
  · simp only [ykey, Prod.mk.injEq] at h
    exact congrArg Sum.inr h.2.2

theorem tokOf_injective : Function.Injective (tokOf : Dev nD × TIx → GSem nD τ sig × ℕ × Bool) := fun x x' h =>
  Prod.ext (by rw [← tokOf_dev x, h, tokOf_dev]) (ykey_injective (by rw [← tokOf_key, h, tokOf_key]))

def allToks : Finset (GSem nD τ sig × ℕ × Bool) := Finset.univ.map ⟨tokOf, tokOf_injective⟩

/-- The launch's element of the resource algebra: the pipeline library's copy and the protocol's. -/
def u₀ : UU :=
  (initOf (Pipeline.cells cfgs cellOf_inj) (Pipeline.launchToks cfgs cellOf_inj), initOf allCells allToks)

/-! ## What the launch mints, device by device -/

/-- One duty token. -/
abbrev tk (t : GSem nD τ sig × ℕ × Bool) : sProp 𝕄 := dutyTok ER t.1 t.2.1 t.2.2

/-- The duty tokens of device \`c\`'s OWN cells, as minted. -/
def mtoks (c : Dev nD) : sProp 𝕄 := bigSep Finset.univ fun y : TIx => tk (F := F) (tokOf (c, y))

/-- What the launch element deals device \`c\`: its cells' round states, positions and reached-marks, its cells' tokens. -/
def G (c : Dev nD) : sProp 𝕄 :=
  iprop((bigSep Finset.univ fun j : Fin 323 => roundState ER (sched m) (kcell (c, j)) 0)
    ∗ (bigSep Finset.univ fun j : Fin 323 => iprop(atPos ER (kcell (c, j)) 0 ∅ 0 ∗ reached ER (kcell (c, j)) 0)) ∗ mtoks (F := F) c)

/-- What every device knows for good, less the levels. -/
def Rec0 (K : Dev nD × Fin 323 → ℕ) : sProp 𝕄 :=
  iprop((bigSep Finset.univ fun cj : Dev nD × Fin 323 => cellInv ER (sched m) (K cj) (kcell cj))
    ∗ (bigSep Finset.univ fun cj : Dev nD × Fin 323 => reached ER (kcell cj) 0))

instance Rec0_persistent (K : Dev nD × Fin 323 → ℕ) : BI.Persistent (Rec0 m K) := by unfold Rec0; infer_instance

/-- What the global step makes of it. -/
def G' (c : Dev nD) : sProp 𝕄 := iprop(∃ K, Rec0 m K ∗ toks (F := F) c ∗ poss (F := F) c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_bool (Φ : Bool → sProp 𝕄) : bigSep Finset.univ Φ = iprop(Φ false ∗ Φ true) :=
  bigSep_univ_eq_bigSepL [false, true] (by decide) (by decide) Φ

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 323 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => mtoks (F := F) c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens, dealt around the mesh -/

omit [FloatOps F] in
/-- A device's minted tokens, cell by cell. -/
theorem mtoks_eq (c : Dev nD) : mtoks (F := F) c =
    iprop((bigSep Finset.univ fun r : Fin 64 =>
        iprop(dutyTok ER (ysendC c r) 0 false ∗ dutyTok ER (yrecvC c r) 0 false ∗ dutyTok ER (xsendC c r) 0 false
          ∗ dutyTok ER (xrecvC c r) 0 false ∗ dutyTok ER (cpoutC c r) 0 false ∗ dutyTok ER (cpinC c (slotOf r.val)) (r.val / 2) false))
      ∗ (dutyTok ER (barC c) 0 false ∗ dutyTok ER (barC c) 0 true)) := by
  unfold mtoks
  rw [bigSep_univ_sum, bigSep_univ_prod, bigSep_bool]
  congr 1
  exact bigSep_congr fun r _ => by rw [bigSep_fin6]; rfl

omit [FloatOps F] in
theorem deal_y (Φ : Dev nD → sProp 𝕄) : bigSep Finset.univ Φ = bigSep Finset.univ fun c => Φ (yp c) := bigSep_univ_equiv ypEquiv Φ
omit [FloatOps F] in
theorem deal_x (Φ : Dev nD → sProp 𝕄) : bigSep Finset.univ Φ = bigSep Finset.univ fun c => Φ (xp c) := bigSep_univ_equiv xpEquiv Φ

omit [FloatOps F] in
/-- Every device's own tokens, regrouped as every device's tokens to pay with: a barrier's duty of the column peer goes to
    the column peer, its duty of the row peer to the row peer; a receive cell's duty goes to the peer that sends into it. -/
theorem toks_around : (bigSep Finset.univ fun c : Dev nD => mtoks (F := F) c) ⊢ (bigSep Finset.univ fun c : Dev nD => toks (F := F) c : sProp 𝕄) := by
  simp only [mtoks_eq, toks, bigSep_sep']
  iintro ⟨⟨HA, HB, HC, HD, HE, HP⟩, HBf, HBt⟩
  ihave HB' := (Entails.of_eq (deal_y (F := F) fun c => bigSep Finset.univ fun r : Fin 64 => dutyTok ER (yrecvC c r) 0 false)) $$ HB
  ihave HD' := (Entails.of_eq (deal_x (F := F) fun c => bigSep Finset.univ fun r : Fin 64 => dutyTok ER (xrecvC c r) 0 false)) $$ HD
  ihave HBf' := (Entails.of_eq (deal_y (F := F) fun c => dutyTok ER (barC c) 0 false)) $$ HBf
  ihave HBt' := (Entails.of_eq (deal_x (F := F) fun c => dutyTok ER (barC c) 0 true)) $$ HBt
  isplitl [HBf']; · iexact HBf'
  isplitl [HBt']; · iexact HBt'
  isplitl [HA]; · iexact HA
  isplitl [HB']; · iexact HB'
  isplitl [HC]; · iexact HC
  isplitl [HD']; · iexact HD'
  isplitl [HE]; · iexact HE
  iexact HP

/-! ## The cells of one device, family by family -/

/-- The cells that have a position in the body's start: per chunk the five one-round cells; the barrier cell and the two
    staging cells. -/
abbrev PIx : Type := (Fin 64 × Fin 5) ⊕ Fin 3
def pix : PIx → Fin 323
  | .inl (r, k) => dj (match k with | 0 => ysendQ r | 1 => yrecvQ r | 2 => xsendQ r | 3 => xrecvQ r | 4 => cpoutQ r)
  | .inr t => match t with | 0 => Fin.last 322 | 1 => dj (cpinQ 0) | 2 => dj (cpinQ 1)
def pkey : PIx → ℕ
  | .inl (r, k) => if k.val = 0 then r.val else if k.val = 4 then 258 + r.val else 64 * k.val + r.val
  | .inr t => if t.val = 0 then 322 else 255 + t.val
theorem pix_val (y : PIx) : (pix y).val = pkey y := by
  rcases y with ⟨r, k⟩ | t
  · fin_cases k <;> rfl
  · fin_cases t <;> rfl
theorem pix_injective : Function.Injective pix := fun y y' h => by
  have hv : pkey y = pkey y' := by rw [← pix_val, h, pix_val]
  rcases y with ⟨r, k⟩ | t <;> rcases y' with ⟨r', k'⟩ | t'
  · simp only [pkey] at hv
    have := r.isLt; have := r'.isLt; have := k.isLt; have := k'.isLt
    have hh : k.val = k'.val ∧ r.val = r'.val := by split_ifs at hv <;> omega
    exact congrArg Sum.inl (Prod.ext (Fin.ext hh.2) (Fin.ext hh.1))
  · simp only [pkey] at hv
    have := r.isLt; have := k.isLt; have := t'.isLt
    exfalso; split_ifs at hv <;> omega
  · simp only [pkey] at hv
    have := r'.isLt; have := k'.isLt; have := t.isLt
    exfalso; split_ifs at hv <;> omega
  · simp only [pkey] at hv
    have := t.isLt; have := t'.isLt
    exact congrArg Sum.inr (Fin.ext (by split_ifs at hv <;> omega))

omit [FloatOps F] in
theorem split_aux (Ψ : PIx → sProp 𝕄) :
    iprop((bigSep Finset.univ fun r : Fin 64 => bigSep Finset.univ fun k : Fin 5 => Ψ (.inl (r, k))) ∗ (Ψ (.inr 0) ∗ Ψ (.inr 1) ∗ Ψ (.inr 2)))
      ⊢ iprop(Ψ (.inr 0) ∗ Ψ (.inr 1) ∗ Ψ (.inr 2)
        ∗ bigSep Finset.univ fun r : Fin 64 => iprop(Ψ (.inl (r, 0)) ∗ Ψ (.inl (r, 1)) ∗ Ψ (.inl (r, 2)) ∗ Ψ (.inl (r, 3)) ∗ Ψ (.inl (r, 4)))) := by
  iintro ⟨H1, H2, H3, H4⟩
  isplitl [H2]; · iexact H2
  isplitl [H3]; · iexact H3
  isplitl [H4]; · iexact H4
  iapply (Entails.of_eq (bigSep_congr fun r _ => bigSep_fin5 (F := F) fun k => Ψ (.inl (r, k))))
  iexact H1

omit [FloatOps F] in
/-- A family over all cells of a device gives the same family over the cells named in the body's start. -/
theorem split323 (Φ : Fin 323 → sProp 𝕄) :
    bigSep Finset.univ Φ ⊢ iprop(Φ (Fin.last 322) ∗ Φ (dj (cpinQ 0)) ∗ Φ (dj (cpinQ 1))
      ∗ bigSep Finset.univ fun r : Fin 64 =>
          iprop(Φ (dj (ysendQ r)) ∗ Φ (dj (yrecvQ r)) ∗ Φ (dj (xsendQ r)) ∗ Φ (dj (xrecvQ r)) ∗ Φ (dj (cpoutQ r)))) :=
  (bigSep_subset (Finset.subset_univ (Finset.univ.image pix))).trans
    ((Entails.of_eq (by rw [bigSep_image_of_injOn pix_injective.injOn, bigSep_univ_sum, bigSep_univ_prod, bigSep_fin3]; rfl)).trans
      (split_aux (F := F) fun y => Φ (pix y)))

/-! ## The cells' invariants, allocated for all devices at once -/

omit [FloatOps F] in
/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- A family over all cells of a device: the barrier cell's and the copy cells'. -/
theorem bigSep_323 (Φ : Fin 323 → sProp 𝕄) :
    bigSep Finset.univ Φ = iprop(Φ (Fin.last 322) ∗ bigSep Finset.univ fun k : Fin 322 => Φ k.castSucc) := by
  rw [Fin.univ_castSuccEmb, Finset.cons_eq_insert, bigSep_insert (fun h => by
    obtain ⟨x, -, hx⟩ := Finset.mem_map.mp h
    have h2 : x.val = 322 := congrArg Fin.val hx
    have := x.isLt; omega), bigSep_map]; rfl

omit [FloatOps F] in
theorem kcell_castSucc (c : Dev nD) (k : Fin 322) : kcell (c, k.castSucc) = ((c : Thread nD τ), osem k) := by
  show ((c : Thread nD τ), csem k.castSucc) = _
  rw [csem_lt k.castSucc k.isLt]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 323 => semVal (kcell (c, j)) 0 : sProp 𝕄) := by
  rw [unscopedSems0_eq, bigSep_323, kcell_bar]
  unfold Pipeline.ownSems0
  iintro ⟨HS, HB⟩
  isplitl [HB]; · iexact HB
  iapply (Entails.of_eq (bigSep_congr fun k _ => by rw [kcell_castSucc]))
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 323 => iprop(∃ κ : ℕ, cellInv ER (sched m) κ (kcell (c, j))))
          ∗ (bigSep Finset.univ fun j : Fin 323 => iprop(atPos ER (kcell (c, j)) 0 ∅ 0 ∗ reached ER (kcell (c, j)) 0)) ∗ mtoks (F := F) c) := by
  unfold G
  iintro ⟨Hos, Hus, Hst, Hat, Htok⟩
  ihave Hv := (sems0_eq (F := F) c) $$ [Hos Hus]
  · isplitl [Hos] <;> iassumption
  imod (show iprop((bigSep Finset.univ fun j : Fin 323 => semVal (kcell (c, j)) 0) ∗ bigSep Finset.univ fun j : Fin 323 => roundState ER (sched m) (kcell (c, j)) 0)
      ⊢ (|={Set.univ}=> bigSep Finset.univ fun j : Fin 323 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A device's positions at the body's start, from the positions of all its cells. -/
theorem poss_intro (c : Dev nD) : (bigSep Finset.univ fun j : Fin 323 => (atPos ER (kcell (c, j)) 0 ∅ 0 : sProp 𝕄)) ⊢ poss (F := F) c := by
  refine (split323 (F := F) fun j => atPos ER (kcell (c, j)) 0 ∅ 0).trans ?_
  simp only [kcell_dj, kcell_bar]
  unfold poss
  exact .rfl

theorem ghost_intro (K : Dev nD × Fin 323 → ℕ) (c : Dev nD) :
    iprop(Rec0 m K ∗ ((bigSep Finset.univ fun j : Fin 323 => atPos ER (kcell (c, j)) 0 ∅ 0) ∗ toks (F := F) c)) ⊢ G' m c := by
  unfold G'
  iintro ⟨#HR, Hat, Htk⟩
  iexists K
  isplitr; · iexact HR
  isplitl [Htk]; · iexact Htk
  iapply (poss_intro (F := F) c); iexact Hat

theorem regroup :
    (bigSep Finset.univ fun c : Dev nD => iprop((bigSep Finset.univ fun j : Fin 323 => iprop(∃ κ : ℕ, cellInv ER (sched m) κ (kcell (c, j))))
          ∗ (bigSep Finset.univ fun j : Fin 323 => iprop(atPos ER (kcell (c, j)) 0 ∅ 0 ∗ reached ER (kcell (c, j)) 0)) ∗ mtoks (F := F) c) : sProp 𝕄)
      ⊢ bigSep Finset.univ (G' m) := by
  rw [bigSep_sep', bigSep_sep', ← bigSep_univ_prod (fun cj : Dev nD × Fin 323 => iprop(∃ κ : ℕ, cellInv ER (sched m) κ (kcell cj))),
    bigSep_congr (s := Finset.univ) (fun (c : Dev nD) _ => bigSep_sep' Finset.univ (fun j : Fin 323 => (atPos ER (kcell (c, j)) 0 ∅ 0 : sProp 𝕄)) (fun j => reached ER (kcell (c, j)) 0)),
    bigSep_sep', ← bigSep_univ_prod (fun cj : Dev nD × Fin 323 => (reached ER (kcell cj) 0 : sProp 𝕄))]
  iintro ⟨HI, ⟨Hat, #HR⟩, Htok⟩
  ihave HK := (BI.bigSep_exists_pi Finset.univ (fun (cj : Dev nD × Fin 323) (κ : ℕ) => (cellInv ER (sched m) κ (kcell cj) : sProp 𝕄))) $$ HI
  icases HK with ⟨%K, #HI⟩
  ihave Htk := (toks_around (F := F)) $$ Htok
  iapply (bigSep_with_persistent (R := Rec0 m K) fun c _ => ghost_intro m K c)
  isplitr
  · unfold Rec0; isplitl; · iexact HI
    iexact HR
  · iapply (Entails.of_eq (bigSep_sep' Finset.univ (fun c : Dev nD => bigSep Finset.univ fun j : Fin 323 => (atPos ER (kcell (c, j)) 0 ∅ 0 : sProp 𝕄)) (fun c => toks (F := F) c)).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

set_option maxRecDepth 8000 in
theorem ownSemFacts : Pipeline.OwnSemFacts cfg0.spec osem := ⟨by decide, fun a b h => SemLoc.dma.inj h, fun k w s => w.elim0⟩

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

/-- What a device holds once the launch's step is over: the records, its tokens, positions and launch credit, its two
    unscoped buffers whole at the launch's contents. -/
def Xc (c : Dev nD) : sProp 𝕄 :=
  iprop(∃ K, Rec m K ∗ toks (F := F) c ∗ poss (F := F) c ∗ creds0 (F := F) c
    ∗ (((c : Thread nD τ).loc main_arg0) ↦{fullShare} m ((c : Thread nD τ).loc main_arg0))
    ∗ (((c : Thread nD τ).loc main_v1) ↦{fullShare} m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Xc m c ∗ emp) := by
  rw [Pipeline.unscopedRestP_none, unscopedRest0_eq]
  unfold G' Rec0
  iintro ⟨⟨Ha, Hv⟩, #Hlev, Hcr, -, HG⟩
  ihave Hc := (creds (F := F) c) $$ Hcr
  icases HG with ⟨%K, ⟨#HI, #HR⟩, Htk, Hps⟩
  imodintro
  unfold Xc Rec creds0
  isplitl
  · iexists K
    isplitr
    · isplitr; · iexact HI
      isplitr; · iexact HR
      iexact Hlev
    isplitl [Htk]; · iexact Htk
    isplitl [Hps]; · iexact Hps
    isplitl [Hc]; · iexact Hc
    isplitl [Ha]; · iexact Ha
    iexact Hv
  · iempintro

end Launch

section Run

namespace Launch

theorem phi0_intro (c : Dev nD) :
    iprop(Xc m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Xc
  iintro ⟨⟨%K, HR, Htk, Hps, Hcr, Ha, Hv⟩, -, ⟨Hs0, Hs1⟩⟩
  iexists K
  isplitl [HR]; · iexact HR
  isplitl [Ha Hv Hs0 Hs1]
  · iapply (entry_bufs m c)
    isplitl [Ha]; · iexact Ha
    isplitl [Hv]; · iexact Hv
    isplitl [Hs0]; · iexact Hs0
    iexact Hs1
  isplitl [Htk]; · iexact Htk
  isplitl [Hps]; · iexact Hps
  iexact Hcr

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Pipeline.ownSems0
  iintro ⟨HY, Hz, Hs0, Hs1⟩
  isplitl [HY]; · iexact HY
  isplitl [Hz]; · iexact Hz
  isplitl [Hs0]; · iexact Hs0
  iexact Hs1

/-- What the device hands back, read against the final memory. -/
theorem yc_read (c : Dev nD) (s' : Phys nD τ sig (Elt F)) :
    iprop(Yc m c ∗ emp ∗ SI s') ⊢ |={Set.univ}=> iprop(⌜QY m c s'.mem⌝ ∗ SI s') := by
  unfold Yc
  iintro ⟨⟨Hx, %f, Hf, %hf⟩, -, HSI⟩
  icombine HSI Hx gives %hx
  icombine HSI Hf gives %hv
  imodintro
  isplitr
  · ipureintro
    have e1 := Buf.eq_of_forall_mem_univ hx
    have e2 := Buf.eq_of_forall_mem_univ hv
    refine ⟨e1, fun r => ?_⟩
    rw [e2]; exact hf r
  iexact HSI

set_option maxRecDepth 100000 in
/-- The library's body obligation on device \`c\`. -/
theorem body_obligation (c : Dev nD) : BodyObligation (dats (F := F) m 0 c) (defs₀ (F := F)) 𝒱₀ () Set.univ := fun t => by
  rw [fin_N0 t]
  show iprop(Φ₀ m c ∗ (dats (F := F) m 0 c).owesAt () (Fin.castSucc t0_0) ∗ emp) ⊢ wp frame (wpE (defs₀ (F := F)) 𝒱₀ (c : Thread nD τ) none) Set.univ
    (cc0_body (Memref.whole main_arg0) (Memref.isWhole_whole _) (Memref.whole main_v1) (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7)
    (fun _ => iprop(Φ₁ m c ∗ (dats (F := F) m 0 c).owesAt () (Fin.succ t0_0) ∗ emp))
  unfold Φ₀
  iintro ⟨⟨%K, HR, Hb, Htk, Hps, Hcr⟩, ⟨%W, -, Ho⟩, -⟩
  iapply (wp_fupd frame (wpE (defs₀ (F := F)) 𝒱₀ (c : Thread nD τ) none) Set.univ)
  iapply (wp_mono frame (wpE (defs₀ (F := F)) 𝒱₀ (c : Thread nD τ) none) Set.univ (Q := fun _ => S4 m K c))
  · intro _
    iintro H4
    imod (exit_S4 m K c) $$ H4 with ⟨H1, Ho2⟩
    ihave Ho3 := (show owesE (F := F) c 0 ⊢ iprop(∃ W : Waits sig Unit, owes (c : Thread nD τ) (0 : CellTallies nD τ sig Unit) W) from by unfold owesE; exact .rfl) $$ Ho2
    icases Ho3 with ⟨%W', Ho'⟩
    imodintro
    isplitl [H1]; · iexact H1
    isplitl
    · iexists W'; isplitr; · ipureintro; exact fun _ _ => Or.inl trivial
      iexact Ho'
    · iempintro
  iapply (body_main m K c)
  unfold Start owesE
  isplitl [HR]; · iexact HR
  isplitl [Hb]; · iexact Hb
  isplitl [Htk]; · iexact Htk
  isplitl [Hps]; · iexact Hps
  isplitl [Hcr]; · iexact Hcr
  iexists W; iexact Ho

end Launch

open Launch in
set_option maxRecDepth 100000 in
/-- At the compiled mesh of four devices, for any float values, from any memory with zero counters: every weakly fair
    execution of @main terminates, and in every final state each device's argument is as it was and its result reads,
    through each chunk's rows, that chunk's sums. -/
theorem run_main : θ_run defs (onTc (τ := τ) (main (F := F))) ⟨m, fun _ => 0, ρ⟩ (fun r => ∀ c : Dev nD, QY m c r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := Xc m) (Y := Yc m) (Z := fun _ => iprop(emp))
    (hX := start_intro m ρ) (hin := phi0_intro m) (hout := phi1_exit m)
    (QY := QY m)
    (hY := yc_read m)
    (hQ := fun _ h c => (h c).2.2)

end Run

/-- info: 'Cert.Kernel.RS.run_main' depends on axioms: [propext, Classical.choice, Quot.sound] -/
#guard_msgs in #print axioms run_main

end Cert.Kernel.RS

end
-- ==== Proof.lean ====
/-
  The proof of `Cert.Claim`: a reduce-scatter over a 2×2 mesh of devices against the sum over axis 0 of the whole array.

  The whole array is f32[2, 8192, 2048]; the reference adds its two blocks of axis 0. Device `c` sits at mesh row `c / 2`
  and column `c % 2`, holds block `c % 2` of axis 0, and must end with column block `c % 2` (f32[8192, 1024]) of the sum.
  The kernel cuts the 4096 rows of the device's row-half in 64 chunks of 64 rows. For each chunk the device sends the
  half of its rows that belongs to the other column to its column peer, receives the column peer's half that belongs to
  its own column, adds what it kept to what it received, and writes the sums both to its own result and, through its row
  peer, to the same rows of the row peer's result. So each device's result holds, in the rows of its own row-half, its
  own sums, and in the rows of the other row-half its row peer's sums: every row of its column block, each the sum of
  the two blocks of axis 0 in that row and column.

  The run of the kernel (every weakly fair execution terminates without fault, the argument unchanged, the result reading
  chunk by chunk those sums) is proved once, for any float instance, and read at the bit-exact instance for the printed
  kernel's frame and at the ideal instance for its idealization. At the ideal instance a sum of two extended reals does
  not depend on the order and zero is neutral, so the sums above are the entries of the reference's result: the value
  bridge. The idealization rewrote no operation, so what it preserves is trivial.
-/
import proofs.«900313_g7700000000000314_dist_rs_v7x_xy2x2_y_m8192_n1024_f32_1_alg».proof.Defs
import proofs.«900313_g7700000000000314_dist_rs_v7x_xy2x2_y_m8192_n1024_f32_1_alg».proof.Proof.Gen.Kernel
import proofs.«900313_g7700000000000314_dist_rs_v7x_xy2x2_y_m8192_n1024_f32_1_alg».proof.Proof.Gen.KernelIdeal
import proofs.«900313_g7700000000000314_dist_rs_v7x_xy2x2_y_m8192_n1024_f32_1_alg».proof.Proof.Gen.ReferenceIdeal
import proofs.«900313_g7700000000000314_dist_rs_v7x_xy2x2_y_m8192_n1024_f32_1_alg».proof.Proof.Gen.Pre_finite_inputs_Kernel
import proofs.«900313_g7700000000000314_dist_rs_v7x_xy2x2_y_m8192_n1024_f32_1_alg».proof.Proof.Gen.Pre_finite_inputs_ReferenceIdeal
import proofs.«900313_g7700000000000314_dist_rs_v7x_xy2x2_y_m8192_n1024_f32_1_alg».proof.Proof.RsValue
import proofs.«900313_g7700000000000314_dist_rs_v7x_xy2x2_y_m8192_n1024_f32_1_alg».proof.Proof.RsKernelIdeal.Run
import proofs.«900313_g7700000000000314_dist_rs_v7x_xy2x2_y_m8192_n1024_f32_1_alg».proof.Proof.RsKernel.Run

noncomputable section

namespace Cert.Proof

open Idealize.ShloMosaic Idealize.SL.Sem

/-- The printed kernel runs and leaves its argument unchanged: its run at the bit-exact instance, the values dropped. -/
theorem frame_k : Cert.frame_Kernel := fun m g _ =>
  (θ_run (Cert.Kernel.defs (F := Bits)) _ _).mono (fun r h c => (h c).1) (Cert.Kernel.RS.run_main (F := Bits) m g)

/-- The idealized kernel runs and leaves its argument unchanged: the same run at the ideal instance. -/
theorem frame_ki : Cert.frame_KernelIdeal := fun m g _ =>
  (θ_run (Cert.KernelIdeal.defs (F := Ideal)) _ _).mono (fun r h c => (h c).1) (Cert.KernelIdeal.RS.run_main (F := Ideal) m g)

/-- The idealization rewrote no operation. -/
theorem preserves : Cert.preserves_Kernel_KernelIdeal := trivial

/-- At the ideal instance each device's result is its column block of the reference's result: the kernel's run gives
    the sums chunk by chunk, the value bridge reads them as the block, and the reference's run gives the whole. -/
theorem algebraic : Cert.algebraic_KernelIdeal_ReferenceIdeal := fun m g m' g' _ hagree =>
  ⟨Cert.KernelIdeal.RS.refVal (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun r h c =>
        ⟨Cert.KernelIdeal.RS.value_bridge _ m hagree
            (fun c => r.2.mem ((c.tc : Thread Cert.KernelIdeal.nD Cert.KernelIdeal.τ).loc Cert.KernelIdeal.main_v1))
            (fun c k => ((h c).2 k).1) (fun c k => ((h c).2 k).2) c,
          (h c).1⟩)
      (Cert.KernelIdeal.RS.run_main (F := Ideal) m g),
    Cert.KernelIdeal.RS.run_ri m' g'⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.KernelIdeal.RS.frame_ri, preserves, algebraic⟩

end Cert.Proof

end
